-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v141)) (v1 : (c : Dev Cert.KernelIdeal.nD) → Buf (Elt Ideal) ((c.tc : Thread Cert.KernelIdeal.nD Cert.KernelIdeal.τ).loc Cert.KernelIdeal.main_v112)) (v2 : (c : Dev Cert.KernelIdeal.nD) → Buf (Elt Ideal) ((c.tc : Thread Cert.KernelIdeal.nD Cert.KernelIdeal.τ).loc Cert.KernelIdeal.main_v127)) (v3 : (c : Dev Cert.KernelIdeal.nD) → Buf (Elt Ideal) ((c.tc : Thread Cert.KernelIdeal.nD Cert.KernelIdeal.τ).loc Cert.KernelIdeal.main_v102_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_v112) = v1 c
          ∧ r.2.mem ((c.tc : Thread Cert.KernelIdeal.nD Cert.KernelIdeal.τ).loc Cert.KernelIdeal.main_v127) = v2 c
          ∧ r.2.mem ((c.tc : Thread Cert.KernelIdeal.nD Cert.KernelIdeal.τ).loc Cert.KernelIdeal.main_v102_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v218) = v2 c
          ∧ r.2.mem ((c.tc : Thread Cert.ReferenceIdeal.nD Cert.ReferenceIdeal.τ).loc Cert.ReferenceIdeal.main_v122) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2048x300 : Shape := ⟨2, ![2048, 300]⟩
abbrev S2048x1024 : Shape := ⟨2, ![2048, 1024]⟩
abbrev S10000x1024 : Shape := ⟨2, ![10000, 1024]⟩
abbrev S2x65536 : Shape := ⟨2, ![2, 65536]⟩
abbrev S65536 : Shape := ⟨1, ![65536]⟩
abbrev S5000x2812 : Shape := ⟨2, ![5000, 2812]⟩
abbrev S2x25000 : Shape := ⟨2, ![2, 25000]⟩
abbrev S25000 : Shape := ⟨1, ![25000]⟩
abbrev S1024x1024 : Shape := ⟨2, ![1024, 1024]⟩
abbrev S1024 : Shape := ⟨1, ![1024]⟩
abbrev S2812x1024 : Shape := ⟨2, ![2812, 1024]⟩
abbrev S3372x1024 : Shape := ⟨2, ![3372, 1024]⟩
abbrev S1024x256 : Shape := ⟨2, ![1024, 256]⟩
abbrev S256 : Shape := ⟨1, ![256]⟩
abbrev S256x1024 : Shape := ⟨2, ![256, 1024]⟩
abbrev S1024x3372 : Shape := ⟨2, ![1024, 3372]⟩
abbrev S3372 : Shape := ⟨1, ![3372]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S2048x300 : S_.BroadcastsInDim S2048x300 (![] : Fin 0 → Fin S2048x300.rank)
  reducesTo_S2048x300_S_d0_1 : S2048x300.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S10000x1024 : S_.BroadcastsInDim S10000x1024 (![] : Fin 0 → Fin S10000x1024.rank)
  reducesTo_S10000x1024_S_d0_1 : S10000x1024.ReducesTo [0, 1] S_
  bcast_S_S65536 : S_.BroadcastsInDim S65536 (![] : Fin 0 → Fin S65536.rank)
  reducesTo_S65536_S_d0 : S65536.ReducesTo [0] S_
  bcast_S_S5000x2812 : S_.BroadcastsInDim S5000x2812 (![] : Fin 0 → Fin S5000x2812.rank)
  reducesTo_S5000x2812_S_d0_1 : S5000x2812.ReducesTo [0, 1] S_
  bcast_S_S25000 : S_.BroadcastsInDim S25000 (![] : Fin 0 → Fin S25000.rank)
  reducesTo_S25000_S_d0 : S25000.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2812x1024 : S_.BroadcastsInDim S2812x1024 (![] : Fin 0 → Fin S2812x1024.rank)
  reducesTo_S2812x1024_S_d0_1 : S2812x1024.ReducesTo [0, 1] S_
  bcast_S_S3372x1024 : S_.BroadcastsInDim S3372x1024 (![] : Fin 0 → Fin S3372x1024.rank)
  reducesTo_S3372x1024_S_d0_1 : S3372x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024x3372 : S_.BroadcastsInDim S1024x3372 (![] : Fin 0 → Fin S1024x3372.rank)
  reducesTo_S1024x3372_S_d0_1 : S1024x3372.ReducesTo [0, 1] S_
  bcast_S_S3372 : S_.BroadcastsInDim S3372 (![] : Fin 0 → Fin S3372.rank)
  reducesTo_S3372_S_d0 : S3372.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2048 : S_.BroadcastsInDim S2048 (![] : Fin 0 → Fin S2048.rank)
  reducesTo_S2048_S_d0 : S2048.ReducesTo [0] S_

variable [Facts]

def fn_part10 {F : FTy → Type} [FloatOps F] (main_arg1 : IVec S2048 32) (main_v166 : IVec S_ 1) (main_v169 : IVec S_ 1) : IVec S_ 1 :=
  let main_v170 : IVec S_ 1 := andi main_v166 main_v169
  let main_c_68 : IVec S_ 32 := constantI S_ 32 5000#32
  let main_v171 : IVec S2048 32 := broadcastInDim S2048 ![] bcast_S_S2048 main_c_68
  let main_v172 : IVec S2048 1 := cmpi .slt main_arg1 main_v171
  let main_c_69 : IVec S_ 1 := constantI S_ 1 1#1
  let main_v173 : IVec S_ 1 := (fun x v => Host.reduce IntOp.andi x v reducesTo_S2048_S_d0 h_S_) main_v172 main_c_69
  let main_v174 : IVec S_ 1 := andi main_v170 main_v173
  main_v174

def fn_part9 {F : FTy → Type} [FloatOps F] (main_arg0 : IVec S2048 32) (main_arg1 : IVec S2048 32) (main_arg35 : FVec F S1 .f32) (main_v153 : IVec S_ 1) : IVec S_ 1 :=
  let main_v154 : FVec F S1 .f32 := Host.absf main_arg35
  let main_cst_60 : FVec F S_ .f32 := constant S_ .f32 0x7F800000#32
  let main_v155 : FVec F S1 .f32 := broadcastInDim S1 ![] bcast_S_S1 main_cst_60
  let main_v156 : IVec S1 1 := cmpf .olt main_v154 main_v155
  let main_c_61 : IVec S_ 1 := constantI S_ 1 1#1
  let main_v157 : IVec S_ 1 := (fun x v => Host.reduce IntOp.andi x v reducesTo_S1_S_d0 h_S_) main_v156 main_c_61
  let main_v158 : IVec S_ 1 := andi main_v153 main_v157
  let main_c_62 : IVec S_ 32 := constantI S_ 32 0#32
  let main_v159 : IVec S2048 32 := broadcastInDim S2048 ![] bcast_S_S2048 main_c_62
  let main_v160 : IVec S2048 1 := cmpi .sge main_arg0 main_v159
  let main_c_63 : IVec S_ 1 := constantI S_ 1 1#1
  let main_v161 : IVec S_ 1 := (fun x v => Host.reduce IntOp.andi x v reducesTo_S2048_S_d0 h_S_) main_v160 main_c_63
  let main_v162 : IVec S_ 1 := andi main_v158 main_v161
  let main_c_64 : IVec S_ 32 := constantI S_ 32 10000#32
  let main_v163 : IVec S2048 32 := broadcastInDim S2048 ![] bcast_S_S2048 main_c_64
  let main_v164 : IVec S2048 1 := cmpi .slt main_arg0 main_v163
  let main_c_65 : IVec S_ 1 := constantI S_ 1 1#1
  let main_v165 : IVec S_ 1 := (fun x v => Host.reduce IntOp.andi x v reducesTo_S2048_S_d0 h_S_) main_v164 main_c_65
  let main_v166 : IVec S_ 1 := andi main_v162 main_v165
  let main_c_66 : IVec S_ 32 := constantI S_ 32 0#32
  let main_v167 : IVec S2048 32 := broadcastInDim S2048 ![] bcast_S_S2048 main_c_66
  let main_v168 : IVec S2048 1 := cmpi .sge main_arg1 main_v167
  let main_c_67 : IVec S_ 1 := constantI S_ 1 1#1
  let main_v169 : IVec S_ 1 := (fun x v => Host.reduce IntOp.andi x v reducesTo_S2048_S_d0 h_S_) main_v168 main_c_67
  fn_part10 (F := F) main_arg1 main_v166 main_v169

def fn_part8 {F : FTy → Type} [FloatOps F] (main_arg0 : IVec S2048 32) (main_arg1 : IVec S2048 32) (main_arg32 : FVec F S64 .f32) (main_arg33 : FVec F S64 .f32) (main_arg34 : FVec F S64x1 .f32) (main_arg35 : FVec F S1 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64 .f32 := Host.absf main_arg32
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S64 .f32 := Host.absf main_arg33
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S64x1 .f32 := Host.absf main_arg34
  let main_cst_58 : FVec F S_ .f32 := constant S_ .f32 0x7F800000#32
  let main_v150 : FVec F S64x1 .f32 := broadcastInDim S64x1 ![] bcast_S_S64x1 main_cst_58
  let main_v151 : IVec S64x1 1 := cmpf .olt main_v149 main_v150
  let main_c_59 : IVec S_ 1 := constantI S_ 1 1#1
  let main_v152 : IVec S_ 1 := (fun x v => Host.reduce IntOp.andi x v reducesTo_S64x1_S_d0_1 h_S_) main_v151 main_c_59
  let main_v153 : IVec S_ 1 := andi main_v148 main_v152
  fn_part9 (F := F) main_arg0 main_arg1 main_arg35 main_v153

def fn_part7 {F : FTy → Type} [FloatOps F] (main_arg0 : IVec S2048 32) (main_arg1 : IVec S2048 32) (main_arg29 : FVec F S3372 .f32) (main_arg30 : FVec F S256x64 .f32) (main_arg31 : FVec F S64 .f32) (main_arg32 : FVec F S64 .f32) (main_arg33 : FVec F S64 .f32) (main_arg34 : FVec F S64x1 .f32) (main_arg35 : FVec F S1 .f32) (main_v118 : IVec S_ 1) (main_v119 : FVec F S3372 .f32) : IVec S_ 1 :=
  let main_cst_46 : FVec F S_ .f32 := constant S_ .f32 0x7F800000#32
  let main_v120 : FVec F S3372 .f32 := broadcastInDim S3372 ![] bcast_S_S3372 main_cst_46
  let main_v121 : IVec S3372 1 := cmpf .olt main_v119 main_v120
  let main_c_47 : IVec S_ 1 := constantI S_ 1 1#1
  let main_v122 : IVec S_ 1 := (fun x v => Host.reduce IntOp.andi x v reducesTo_S3372_S_d0 h_S_) main_v121 main_c_47
  let main_v123 : IVec S_ 1 := andi main_v118 main_v122
  let main_v124 : FVec F S3372 .f32 := Host.absf main_arg29
  let main_cst_48 : FVec F S_ .f32 := constant S_ .f32 0x7F800000#32
  let main_v125 : FVec F S3372 .f32 := broadcastInDim S3372 ![] bcast_S_S3372 main_cst_48
  let main_v126 : IVec S3372 1 := cmpf .olt main_v124 main_v125
  let main_c_49 : IVec S_ 1 := constantI S_ 1 1#1
  let main_v127 : IVec S_ 1 := (fun x v => Host.reduce IntOp.andi x v reducesTo_S3372_S_d0 h_S_) main_v126 main_c_49
  let main_v128 : IVec S_ 1 := andi main_v123 main_v127
  let main_v129 : FVec F S256x64 .f32 := Host.absf main_arg30
  let main_cst_50 : FVec F S_ .f32 := constant S_ .f32 0x7F800000#32
  let main_v130 : FVec F S256x64 .f32 := broadcastInDim S256x64 ![] bcast_S_S256x64 main_cst_50
  let main_v131 : IVec S256x64 1 := cmpf .olt main_v129 main_v130
  let main_c_51 : IVec S_ 1 := constantI S_ 1 1#1
  let main_v132 : IVec S_ 1 := (fun x v => Host.reduce IntOp.andi x v reducesTo_S256x64_S_d0_1 h_S_) main_v131 main_c_51
  let main_v133 : IVec S_ 1 := andi main_v128 main_v132
  let main_v134 : FVec F S64 .f32 := Host.absf main_arg31
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg0 main_arg1 main_arg32 main_arg33 main_arg34 main_arg35 main_v133 main_v136

def fn_part6 {F : FTy → Type} [FloatOps F] (main_arg0 : IVec S2048 32) (main_arg1 : IVec S2048 32) (main_arg25 : FVec F S1024 .f32) (main_arg26 : FVec F S1024x3372 .f32) (main_arg27 : FVec F S3372 .f32) (main_arg28 : FVec F S3372 .f32) (main_arg29 : FVec F S3372 .f32) (main_arg30 : FVec F S256x64 .f32) (main_arg31 : FVec F S64 .f32) (main_arg32 : FVec F S64 .f32) (main_arg33 : FVec F S64 .f32) (main_arg34 : FVec F S64x1 .f32) (main_arg35 : FVec F S1 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024 .f32 := Host.absf main_arg25
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  let main_v109 : FVec F S1024x3372 .f32 := Host.absf main_arg26
  let main_cst_42 : FVec F S_ .f32 := constant S_ .f32 0x7F800000#32
  let main_v110 : FVec F S1024x3372 .f32 := broadcastInDim S1024x3372 ![] bcast_S_S1024x3372 main_cst_42
  let main_v111 : IVec S1024x3372 1 := cmpf .olt main_v109 main_v110
  let main_c_43 : IVec S_ 1 := constantI S_ 1 1#1
  let main_v112 : IVec S_ 1 := (fun x v => Host.reduce IntOp.andi x v reducesTo_S1024x3372_S_d0_1 h_S_) main_v111 main_c_43
  let main_v113 : IVec S_ 1 := andi main_v108 main_v112
  let main_v114 : FVec F S3372 .f32 := Host.absf main_arg27
  let main_cst_44 : FVec F S_ .f32 := constant S_ .f32 0x7F800000#32
  let main_v115 : FVec F S3372 .f32 := broadcastInDim S3372 ![] bcast_S_S3372 main_cst_44
  let main_v116 : IVec S3372 1 := cmpf .olt main_v114 main_v115
  let main_c_45 : IVec S_ 1 := constantI S_ 1 1#1
  let main_v117 : IVec S_ 1 := (fun x v => Host.reduce IntOp.andi x v reducesTo_S3372_S_d0 h_S_) main_v116 main_c_45
  let main_v118 : IVec S_ 1 := andi main_v113 main_v117
  let main_v119 : FVec F S3372 .f32 := Host.absf main_arg28
  fn_part7 (F := F) main_arg0 main_arg1 main_arg29 main_arg30 main_arg31 main_arg32 main_arg33 main_arg34 main_arg35 main_v118 main_v119

def fn_part5 {F : FTy → Type} [FloatOps F] (main_arg0 : IVec S2048 32) (main_arg1 : IVec S2048 32) (main_arg22 : FVec F S256x1024 .f32) (main_arg23 : FVec F S1024 .f32) (main_arg24 : FVec F S1024 .f32) (main_arg25 : FVec F S1024 .f32) (main_arg26 : FVec F S1024x3372 .f32) (main_arg27 : FVec F S3372 .f32) (main_arg28 : FVec F S3372 .f32) (main_arg29 : FVec F S3372 .f32) (main_arg30 : FVec F S256x64 .f32) (main_arg31 : FVec F S64 .f32) (main_arg32 : FVec F S64 .f32) (main_arg33 : FVec F S64 .f32) (main_arg34 : FVec F S64x1 .f32) (main_arg35 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x1024 .f32 := Host.absf main_arg22
  let main_cst_34 : FVec F S_ .f32 := constant S_ .f32 0x7F800000#32
  let main_v90 : FVec F S256x1024 .f32 := broadcastInDim S256x1024 ![] bcast_S_S256x1024 main_cst_34
  let main_v91 : IVec S256x1024 1 := cmpf .olt main_v89 main_v90
  let main_c_35 : IVec S_ 1 := constantI S_ 1 1#1
  let main_v92 : IVec S_ 1 := (fun x v => Host.reduce IntOp.andi x v reducesTo_S256x1024_S_d0_1 h_S_) main_v91 main_c_35
  let main_v93 : IVec S_ 1 := andi main_v88 main_v92
  let main_v94 : FVec F S1024 .f32 := Host.absf main_arg23
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024 .f32 := Host.absf main_arg24
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg0 main_arg1 main_arg25 main_arg26 main_arg27 main_arg28 main_arg29 main_arg30 main_arg31 main_arg32 main_arg33 main_arg34 main_arg35 main_v98 main_v101 main_c_39

def fn_part4 {F : FTy → Type} [FloatOps F] (main_arg0 : IVec S2048 32) (main_arg1 : IVec S2048 32) (main_arg18 : FVec F S1024x256 .f32) (main_arg19 : FVec F S256 .f32) (main_arg20 : FVec F S256 .f32) (main_arg21 : FVec F S256 .f32) (main_arg22 : FVec F S256x1024 .f32) (main_arg23 : FVec F S1024 .f32) (main_arg24 : FVec F S1024 .f32) (main_arg25 : FVec F S1024 .f32) (main_arg26 : FVec F S1024x3372 .f32) (main_arg27 : FVec F S3372 .f32) (main_arg28 : FVec F S3372 .f32) (main_arg29 : FVec F S3372 .f32) (main_arg30 : FVec F S256x64 .f32) (main_arg31 : FVec F S64 .f32) (main_arg32 : FVec F S64 .f32) (main_arg33 : FVec F S64 .f32) (main_arg34 : FVec F S64x1 .f32) (main_arg35 : FVec F S1 .f32) (main_v63 : IVec S_ 1) (main_v67 : IVec S_ 1) : IVec S_ 1 :=
  let main_v68 : IVec S_ 1 := andi main_v63 main_v67
  let main_v69 : FVec F S1024x256 .f32 := Host.absf main_arg18
  let main_cst_26 : FVec F S_ .f32 := constant S_ .f32 0x7F800000#32
  let main_v70 : FVec F S1024x256 .f32 := broadcastInDim S1024x256 ![] bcast_S_S1024x256 main_cst_26
  let main_v71 : IVec S1024x256 1 := cmpf .olt main_v69 main_v70
  let main_c_27 : IVec S_ 1 := constantI S_ 1 1#1
  let main_v72 : IVec S_ 1 := (fun x v => Host.reduce IntOp.andi x v reducesTo_S1024x256_S_d0_1 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg20
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg21
  let main_cst_32 : FVec F S_ .f32 := constant S_ .f32 0x7F800000#32
  fn_part5 (F := F) main_arg0 main_arg1 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg0 : IVec S2048 32) (main_arg1 : IVec S2048 32) (main_arg15 : FVec F S1024 .f32) (main_arg16 : FVec F S1024 .f32) (main_arg17 : FVec F S1024 .f32) (main_arg18 : FVec F S1024x256 .f32) (main_arg19 : FVec F S256 .f32) (main_arg20 : FVec F S256 .f32) (main_arg21 : FVec F S256 .f32) (main_arg22 : FVec F S256x1024 .f32) (main_arg23 : FVec F S1024 .f32) (main_arg24 : FVec F S1024 .f32) (main_arg25 : FVec F S1024 .f32) (main_arg26 : FVec F S1024x3372 .f32) (main_arg27 : FVec F S3372 .f32) (main_arg28 : FVec F S3372 .f32) (main_arg29 : FVec F S3372 .f32) (main_arg30 : FVec F S256x64 .f32) (main_arg31 : FVec F S64 .f32) (main_arg32 : FVec F S64 .f32) (main_arg33 : FVec F S64 .f32) (main_arg34 : FVec F S64x1 .f32) (main_arg35 : FVec F S1 .f32) (main_v48 : IVec S_ 1) (main_v49 : FVec F S3372x1024 .f32) (main_v50 : FVec F S3372x1024 .f32) : IVec S_ 1 :=
  let main_v51 : IVec S3372x1024 1 := cmpf .olt main_v49 main_v50
  let main_c_19 : IVec S_ 1 := constantI S_ 1 1#1
  let main_v52 : IVec S_ 1 := (fun x v => Host.reduce IntOp.andi x v reducesTo_S3372x1024_S_d0_1 h_S_) main_v51 main_c_19
  let main_v53 : IVec S_ 1 := andi main_v48 main_v52
  let main_v54 : FVec F S1024 .f32 := Host.absf main_arg15
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg16
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg17
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg0 main_arg1 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg0 : IVec S2048 32) (main_arg1 : IVec S2048 32) (main_arg11 : FVec F S1024 .f32) (main_arg12 : FVec F S2812x1024 .f32) (main_arg13 : FVec F S1024 .f32) (main_arg14 : FVec F S3372x1024 .f32) (main_arg15 : FVec F S1024 .f32) (main_arg16 : FVec F S1024 .f32) (main_arg17 : FVec F S1024 .f32) (main_arg18 : FVec F S1024x256 .f32) (main_arg19 : FVec F S256 .f32) (main_arg20 : FVec F S256 .f32) (main_arg21 : FVec F S256 .f32) (main_arg22 : FVec F S256x1024 .f32) (main_arg23 : FVec F S1024 .f32) (main_arg24 : FVec F S1024 .f32) (main_arg25 : FVec F S1024 .f32) (main_arg26 : FVec F S1024x3372 .f32) (main_arg27 : FVec F S3372 .f32) (main_arg28 : FVec F S3372 .f32) (main_arg29 : FVec F S3372 .f32) (main_arg30 : FVec F S256x64 .f32) (main_arg31 : FVec F S64 .f32) (main_arg32 : FVec F S64 .f32) (main_arg33 : FVec F S64 .f32) (main_arg34 : FVec F S64x1 .f32) (main_arg35 : FVec F S1 .f32) (main_v33 : IVec S_ 1) : IVec S_ 1 :=
  let main_v34 : FVec F S1024 .f32 := Host.absf main_arg11
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S2812x1024 .f32 := Host.absf main_arg12
  let main_cst_14 : FVec F S_ .f32 := constant S_ .f32 0x7F800000#32
  let main_v40 : FVec F S2812x1024 .f32 := broadcastInDim S2812x1024 ![] bcast_S_S2812x1024 main_cst_14
  let main_v41 : IVec S2812x1024 1 := cmpf .olt main_v39 main_v40
  let main_c_15 : IVec S_ 1 := constantI S_ 1 1#1
  let main_v42 : IVec S_ 1 := (fun x v => Host.reduce IntOp.andi x v reducesTo_S2812x1024_S_d0_1 h_S_) main_v41 main_c_15
  let main_v43 : IVec S_ 1 := andi main_v38 main_v42
  let main_v44 : FVec F S1024 .f32 := Host.absf main_arg13
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S3372x1024 .f32 := Host.absf main_arg14
  let main_cst_18 : FVec F S_ .f32 := constant S_ .f32 0x7F800000#32
  let main_v50 : FVec F S3372x1024 .f32 := broadcastInDim S3372x1024 ![] bcast_S_S3372x1024 main_cst_18
  fn_part3 (F := F) main_arg0 main_arg1 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg0 : IVec S2048 32) (main_arg1 : IVec S2048 32) (main_arg7 : FVec F S5000x2812 .f32) (main_arg9 : FVec F S25000 .f32) (main_arg10 : FVec F S1024x1024 .f32) (main_arg11 : FVec F S1024 .f32) (main_arg12 : FVec F S2812x1024 .f32) (main_arg13 : FVec F S1024 .f32) (main_arg14 : FVec F S3372x1024 .f32) (main_arg15 : FVec F S1024 .f32) (main_arg16 : FVec F S1024 .f32) (main_arg17 : FVec F S1024 .f32) (main_arg18 : FVec F S1024x256 .f32) (main_arg19 : FVec F S256 .f32) (main_arg20 : FVec F S256 .f32) (main_arg21 : FVec F S256 .f32) (main_arg22 : FVec F S256x1024 .f32) (main_arg23 : FVec F S1024 .f32) (main_arg24 : FVec F S1024 .f32) (main_arg25 : FVec F S1024 .f32) (main_arg26 : FVec F S1024x3372 .f32) (main_arg27 : FVec F S3372 .f32) (main_arg28 : FVec F S3372 .f32) (main_arg29 : FVec F S3372 .f32) (main_arg30 : FVec F S256x64 .f32) (main_arg31 : FVec F S64 .f32) (main_arg32 : FVec F S64 .f32) (main_arg33 : FVec F S64 .f32) (main_arg34 : FVec F S64x1 .f32) (main_arg35 : FVec F S1 .f32) (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  let main_v19 : FVec F S5000x2812 .f32 := Host.absf main_arg7
  let main_cst_6 : FVec F S_ .f32 := constant S_ .f32 0x7F800000#32
  let main_v20 : FVec F S5000x2812 .f32 := broadcastInDim S5000x2812 ![] bcast_S_S5000x2812 main_cst_6
  let main_v21 : IVec S5000x2812 1 := cmpf .olt main_v19 main_v20
  let main_c_7 : IVec S_ 1 := constantI S_ 1 1#1
  let main_v22 : IVec S_ 1 := (fun x v => Host.reduce IntOp.andi x v reducesTo_S5000x2812_S_d0_1 h_S_) main_v21 main_c_7
  let main_v23 : IVec S_ 1 := andi main_v18 main_v22
  let main_v24 : FVec F S25000 .f32 := Host.absf main_arg9
  let main_cst_8 : FVec F S_ .f32 := constant S_ .f32 0x7F800000#32
  let main_v25 : FVec F S25000 .f32 := broadcastInDim S25000 ![] bcast_S_S25000 main_cst_8
  let main_v26 : IVec S25000 1 := cmpf .olt main_v24 main_v25
  let main_c_9 : IVec S_ 1 := constantI S_ 1 1#1
  let main_v27 : IVec S_ 1 := (fun x v => Host.reduce IntOp.andi x v reducesTo_S25000_S_d0 h_S_) main_v26 main_c_9
  let main_v28 : IVec S_ 1 := andi main_v23 main_v27
  let main_v29 : FVec F S1024x1024 .f32 := Host.absf main_arg10
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg0 main_arg1 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : IVec S2048 32) (main_arg1 : IVec S2048 32) (main_arg2 : FVec F S2048x300 .f32) (main_arg3 : FVec F S2048x1024 .f32) (main_arg4 : FVec F S10000x1024 .f32) (main_arg5 : IVec S2x65536 32) (main_arg6 : FVec F S65536 .f32) (main_arg7 : FVec F S5000x2812 .f32) (main_arg8 : IVec S2x25000 32) (main_arg9 : FVec F S25000 .f32) (main_arg10 : FVec F S1024x1024 .f32) (main_arg11 : FVec F S1024 .f32) (main_arg12 : FVec F S2812x1024 .f32) (main_arg13 : FVec F S1024 .f32) (main_arg14 : FVec F S3372x1024 .f32) (main_arg15 : FVec F S1024 .f32) (main_arg16 : FVec F S1024 .f32) (main_arg17 : FVec F S1024 .f32) (main_arg18 : FVec F S1024x256 .f32) (main_arg19 : FVec F S256 .f32) (main_arg20 : FVec F S256 .f32) (main_arg21 : FVec F S256 .f32) (main_arg22 : FVec F S256x1024 .f32) (main_arg23 : FVec F S1024 .f32) (main_arg24 : FVec F S1024 .f32) (main_arg25 : FVec F S1024 .f32) (main_arg26 : FVec F S1024x3372 .f32) (main_arg27 : FVec F S3372 .f32) (main_arg28 : FVec F S3372 .f32) (main_arg29 : FVec F S3372 .f32) (main_arg30 : FVec F S256x64 .f32) (main_arg31 : FVec F S64 .f32) (main_arg32 : FVec F S64 .f32) (main_arg33 : FVec F S64 .f32) (main_arg34 : FVec F S64x1 .f32) (main_arg35 : FVec F S1 .f32) : IVec S_ 1 :=
  let main_v0 : FVec F S2048x300 .f32 := Host.absf main_arg2
  let main_cst : FVec F S_ .f32 := constant S_ .f32 0x7F800000#32
  let main_v1 : FVec F S2048x300 .f32 := broadcastInDim S2048x300 ![] bcast_S_S2048x300 main_cst
  let main_v2 : IVec S2048x300 1 := cmpf .olt main_v0 main_v1
  let main_c : IVec S_ 1 := constantI S_ 1 1#1
  let main_v3 : IVec S_ 1 := (fun x v => Host.reduce IntOp.andi x v reducesTo_S2048x300_S_d0_1 h_S_) main_v2 main_c
  let main_v4 : FVec F S2048x1024 .f32 := Host.absf main_arg3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S10000x1024 .f32 := Host.absf main_arg4
  let main_cst_2 : FVec F S_ .f32 := constant S_ .f32 0x7F800000#32
  let main_v10 : FVec F S10000x1024 .f32 := broadcastInDim S10000x1024 ![] bcast_S_S10000x1024 main_cst_2
  let main_v11 : IVec S10000x1024 1 := cmpf .olt main_v9 main_v10
  let main_c_3 : IVec S_ 1 := constantI S_ 1 1#1
  let main_v12 : IVec S_ 1 := (fun x v => Host.reduce IntOp.andi x v reducesTo_S10000x1024_S_d0_1 h_S_) main_v11 main_c_3
  let main_v13 : IVec S_ 1 := andi main_v8 main_v12
  let main_v14 : FVec F S65536 .f32 := Host.absf main_arg6
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_arg0 main_arg1 main_arg7 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S2048 : Shape := ⟨1, ![2048]⟩
abbrev S2048x300 : Shape := ⟨2, ![2048, 300]⟩
abbrev S2048x1024 : Shape := ⟨2, ![2048, 1024]⟩
abbrev S10000x1024 : Shape := ⟨2, ![10000, 1024]⟩
abbrev S2x65536 : Shape := ⟨2, ![2, 65536]⟩
abbrev S65536 : Shape := ⟨1, ![65536]⟩
abbrev S5000x2812 : Shape := ⟨2, ![5000, 2812]⟩
abbrev S2x25000 : Shape := ⟨2, ![2, 25000]⟩
abbrev S25000 : Shape := ⟨1, ![25000]⟩
abbrev S1024x1024 : Shape := ⟨2, ![1024, 1024]⟩
abbrev S1024 : Shape := ⟨1, ![1024]⟩
abbrev S2812x1024 : Shape := ⟨2, ![2812, 1024]⟩
abbrev S3372x1024 : Shape := ⟨2, ![3372, 1024]⟩
abbrev S1024x256 : Shape := ⟨2, ![1024, 256]⟩
abbrev S256 : Shape := ⟨1, ![256]⟩
abbrev S256x1024 : Shape := ⟨2, ![256, 1024]⟩
abbrev S1024x3372 : Shape := ⟨2, ![1024, 3372]⟩
abbrev S3372 : Shape := ⟨1, ![3372]⟩
abbrev S256x64 : Shape := ⟨2, ![256, 64]⟩
abbrev S64 : Shape := ⟨1, ![64]⟩
abbrev S64x1 : Shape := ⟨2, ![64, 1]⟩
abbrev S1 : Shape := ⟨1, ![1]⟩
abbrev S10000 : Shape := ⟨1, ![10000]⟩
abbrev S1x65536 : Shape := ⟨2, ![1, 65536]⟩
abbrev S75536 : Shape := ⟨1, ![75536]⟩
abbrev S_ : Shape := ⟨0, ![]⟩
abbrev S75536x1 : Shape := ⟨2, ![75536, 1]⟩
abbrev S10240x1024 : Shape := ⟨2, ![10240, 1024]⟩
abbrev S75536x1024 : Shape := ⟨2, ![75536, 1024]⟩
abbrev S2048x1 : Shape := ⟨2, ![2048, 1]⟩
abbrev S1x1 : Shape := ⟨2, ![1, 1]⟩
abbrev S5000 : Shape := ⟨1, ![5000]⟩
abbrev S1x25000 : Shape := ⟨2, ![1, 25000]⟩
abbrev S30000 : Shape := ⟨1, ![30000]⟩
abbrev S30000x1 : Shape := ⟨2, ![30000, 1]⟩
abbrev S5120x2812 : Shape := ⟨2, ![5120, 2812]⟩
abbrev S5120x1024 : Shape := ⟨2, ![5120, 1024]⟩
abbrev S512x2812 : Shape := ⟨2, ![512, 2812]⟩
abbrev S512x1024 : Shape := ⟨2, ![512, 1024]⟩
abbrev S5000x1024 : Shape := ⟨2, ![5000, 1024]⟩
abbrev S30000x1024 : Shape := ⟨2, ![30000, 1024]⟩
abbrev S1x1024 : Shape := ⟨2, ![1, 1024]⟩
abbrev S2048x3372 : Shape := ⟨2, ![2048, 3372]⟩
abbrev S256x300 : Shape := ⟨2, ![256, 300]⟩
abbrev S256x3372 : Shape := ⟨2, ![256, 3372]⟩
abbrev S3372x256 : Shape := ⟨2, ![3372, 256]⟩
abbrev S1x256 : Shape := ⟨2, ![1, 256]⟩
abbrev S2048x256 : Shape := ⟨2, ![2048, 256]⟩
abbrev S1024x128 : Shape := ⟨2, ![1024, 128]⟩
abbrev S1x128 : Shape := ⟨2, ![1, 128]⟩
abbrev S2048x128 : Shape := ⟨2, ![2048, 128]⟩
abbrev S128 : Shape := ⟨1, ![128]⟩
abbrev S256x256 : Shape := ⟨2, ![256, 256]⟩
abbrev S1024x3584 : Shape := ⟨2, ![1024, 3584]⟩
abbrev S3584 : Shape := ⟨1, ![3584]⟩
abbrev S1x3584 : Shape := ⟨2, ![1, 3584]⟩
abbrev S2048x3584 : Shape := ⟨2, ![2048, 3584]⟩
abbrev S256x128 : Shape := ⟨2, ![256, 128]⟩
abbrev S128x128 : Shape := ⟨2, ![128, 128]⟩

abbrev nBuf : Space → Nat
  | .hbm => 273
  | .vmem => 76
  | .smem => 0
  | _ => 0

abbrev hbmTy0_0 (i : Nat) : BufTy := match i % 128 with
  | 0 => ⟨S2048, .i32⟩
  | 1 => ⟨S2048, .i32⟩
  | 2 => ⟨S2048x300, .f32⟩
  | 3 => ⟨S2048x1024, .f32⟩
  | 4 => ⟨S10000x1024, .f32⟩
  | 5 => ⟨S2x65536, .i32⟩
  | 6 => ⟨S65536, .f32⟩
  | 7 => ⟨S5000x2812, .f32⟩
  | 8 => ⟨S2x25000, .i32⟩
  | 9 => ⟨S25000, .f32⟩
  | 10 => ⟨S1024x1024, .f32⟩
  | 11 => ⟨S1024, .f32⟩
  | 12 => ⟨S2812x1024, .f32⟩
  | 13 => ⟨S1024, .f32⟩
  | 14 => ⟨S3372x1024, .f32⟩
  | 15 => ⟨S1024, .f32⟩
  | 16 => ⟨S1024, .f32⟩
  | 17 => ⟨S1024, .f32⟩
  | 18 => ⟨S1024x256, .f32⟩
  | 19 => ⟨S256, .f32⟩
  | 20 => ⟨S256, .f32⟩
  | 21 => ⟨S256, .f32⟩
  | 22 => ⟨S256x1024, .f32⟩
  | 23 => ⟨S1024, .f32⟩
  | 24 => ⟨S1024, .f32⟩
  | 25 => ⟨S1024, .f32⟩
  | 26 => ⟨S1024x3372, .f32⟩
  | 27 => ⟨S3372, .f32⟩
  | 28 => ⟨S3372, .f32⟩
  | 29 => ⟨S3372, .f32⟩
  | 30 => ⟨S256x64, .f32⟩
  | 31 => ⟨S64, .f32⟩
  | 32 => ⟨S64, .f32⟩
  | 33 => ⟨S64, .f32⟩
  | 34 => ⟨S64x1, .f32⟩
  | 35 => ⟨S1, .f32⟩
  | 36 => ⟨S10000, .i32⟩
  | 37 => ⟨S1x65536, .i32⟩
  | 38 => ⟨S65536, .i32⟩
  | 39 => ⟨S75536, .i32⟩
  | 40 => ⟨S1x65536, .i32⟩
  | 41 => ⟨S65536, .i32⟩
  | 42 => ⟨S75536, .i32⟩
  | 43 => ⟨S_, .f32⟩
  | 44 => ⟨S10000, .f32⟩
  | 45 => ⟨S75536, .f32⟩
  | 46 => ⟨S_, .f32⟩
  | 47 => ⟨S10000, .f32⟩
  | 48 => ⟨S75536x1, .i32⟩
  | 49 => ⟨S10000, .f32⟩
  | 50 => ⟨S_, .f32⟩
  | 51 => ⟨S10000, .f32⟩
  | 52 => ⟨S10000, .i1⟩
  | 53 => ⟨S10000, .f32⟩
  | 54 => ⟨S_, .f32⟩
  | 55 => ⟨S_, .f32⟩
  | 56 => ⟨S10000, .f32⟩
  | 57 => ⟨S10000, .f32⟩
  | 58 => ⟨S_, .i32⟩
  | 59 => ⟨S75536, .i32⟩
  | 60 => ⟨S75536, .i1⟩
  | 61 => ⟨S_, .i32⟩
  | 62 => ⟨S75536, .i32⟩
  | 63 => ⟨S75536, .i32⟩
  | 64 => ⟨S75536, .i32⟩
  | 65 => ⟨S75536x1, .i32⟩
  | 66 => ⟨S75536, .f32⟩
  | 67 => ⟨S75536, .f32⟩
  | 68 => ⟨S_, .i32⟩
  | 69 => ⟨S75536, .i32⟩
  | 70 => ⟨S75536, .i1⟩
  | 71 => ⟨S_, .i32⟩
  | 72 => ⟨S75536, .i32⟩
  | 73 => ⟨S75536, .i32⟩
  | 74 => ⟨S75536, .i32⟩
  | 75 => ⟨S75536x1, .i32⟩
  | 76 => ⟨S75536, .f32⟩
  | 77 => ⟨S75536, .f32⟩
  | 78 => ⟨S_, .i32⟩
  | 79 => ⟨S_, .f32⟩
  | 80 => ⟨S10240x1024, .f32⟩
  | 81 => ⟨S1024x1024, .bf16⟩
  | 82 => ⟨S10240x1024, .f32⟩
  | 83 => ⟨S10000x1024, .f32⟩
  | 84 => ⟨S75536x1, .f32⟩
  | 85 => ⟨S_, .i32⟩
  | 86 => ⟨S75536, .i32⟩
  | 87 => ⟨S75536, .i1⟩
  | 88 => ⟨S_, .i32⟩
  | 89 => ⟨S75536, .i32⟩
  | 90 => ⟨S75536, .i32⟩
  | 91 => ⟨S75536, .i32⟩
  | 92 => ⟨S75536x1, .i32⟩
  | 93 => ⟨S75536x1024, .f32⟩
  | 94 => ⟨S75536x1024, .f32⟩
  | 95 => ⟨S75536x1024, .f32⟩
  | 96 => ⟨S_, .f32⟩
  | 97 => ⟨S10000x1024, .f32⟩
  | 98 => ⟨S75536x1, .i32⟩
  | 99 => ⟨S10000x1024, .f32⟩
  | 100 => ⟨S_, .i32⟩
  | 101 => ⟨S2048, .i32⟩
  | 102 => ⟨S2048, .i1⟩
  | 103 => ⟨S_, .i32⟩
  | 104 => ⟨S2048, .i32⟩
  | 105 => ⟨S2048, .i32⟩
  | 106 => ⟨S2048, .i32⟩
  | 107 => ⟨S2048x1, .i32⟩
  | 108 => ⟨S1, .i32⟩
  | 109 => ⟨S_, .i32⟩
  | 110 => ⟨S2048x1, .i32⟩
  | 111 => ⟨S2048x1, .i1⟩
  | 112 => ⟨S1x1, .i32⟩
  | 113 => ⟨S2048x1, .i32⟩
  | 114 => ⟨S2048x1, .i1⟩
  | 115 => ⟨S2048x1, .i1⟩
  | 116 => ⟨S_, .i1⟩
  | 117 => ⟨S2048, .i1⟩
  | 118 => ⟨S2048x1024, .f32⟩
  | 119 => ⟨S2048x1024, .i1⟩
  | 120 => ⟨S_, .f32⟩
  | 121 => ⟨S2048x1024, .f32⟩
  | 122 => ⟨S2048x1024, .f32⟩
  | 123 => ⟨S5000, .i32⟩
  | 124 => ⟨S1x25000, .i32⟩
  | 125 => ⟨S25000, .i32⟩
  | 126 => ⟨S30000, .i32⟩
  | 127 => ⟨S1x25000, .i32⟩
  | _ => ⟨S2048, .i32⟩

abbrev hbmTy0_1 (i : Nat) : BufTy := match i % 128 with
  | 0 => ⟨S25000, .i32⟩
  | 1 => ⟨S30000, .i32⟩
  | 2 => ⟨S_, .f32⟩
  | 3 => ⟨S5000, .f32⟩
  | 4 => ⟨S30000, .f32⟩
  | 5 => ⟨S_, .f32⟩
  | 6 => ⟨S5000, .f32⟩
  | 7 => ⟨S30000x1, .i32⟩
  | 8 => ⟨S5000, .f32⟩
  | 9 => ⟨S_, .f32⟩
  | 10 => ⟨S5000, .f32⟩
  | 11 => ⟨S5000, .i1⟩
  | 12 => ⟨S5000, .f32⟩
  | 13 => ⟨S_, .f32⟩
  | 14 => ⟨S_, .f32⟩
  | 15 => ⟨S5000, .f32⟩
  | 16 => ⟨S5000, .f32⟩
  | 17 => ⟨S_, .i32⟩
  | 18 => ⟨S30000, .i32⟩
  | 19 => ⟨S30000, .i1⟩
  | 20 => ⟨S_, .i32⟩
  | 21 => ⟨S30000, .i32⟩
  | 22 => ⟨S30000, .i32⟩
  | 23 => ⟨S30000, .i32⟩
  | 24 => ⟨S30000x1, .i32⟩
  | 25 => ⟨S30000, .f32⟩
  | 26 => ⟨S30000, .f32⟩
  | 27 => ⟨S_, .i32⟩
  | 28 => ⟨S30000, .i32⟩
  | 29 => ⟨S30000, .i1⟩
  | 30 => ⟨S_, .i32⟩
  | 31 => ⟨S30000, .i32⟩
  | 32 => ⟨S30000, .i32⟩
  | 33 => ⟨S30000, .i32⟩
  | 34 => ⟨S30000x1, .i32⟩
  | 35 => ⟨S30000, .f32⟩
  | 36 => ⟨S30000, .f32⟩
  | 37 => ⟨S_, .i32⟩
  | 38 => ⟨S_, .f32⟩
  | 39 => ⟨S5120x2812, .f32⟩
  | 40 => ⟨S2812x1024, .bf16⟩
  | 41 => ⟨S5120x1024, .f32⟩
  | 42 => ⟨S5000x1024, .f32⟩
  | 43 => ⟨S30000x1, .f32⟩
  | 44 => ⟨S_, .i32⟩
  | 45 => ⟨S30000, .i32⟩
  | 46 => ⟨S30000, .i1⟩
  | 47 => ⟨S_, .i32⟩
  | 48 => ⟨S30000, .i32⟩
  | 49 => ⟨S30000, .i32⟩
  | 50 => ⟨S30000, .i32⟩
  | 51 => ⟨S30000x1, .i32⟩
  | 52 => ⟨S30000x1024, .f32⟩
  | 53 => ⟨S30000x1024, .f32⟩
  | 54 => ⟨S30000x1024, .f32⟩
  | 55 => ⟨S_, .f32⟩
  | 56 => ⟨S5000x1024, .f32⟩
  | 57 => ⟨S30000x1, .i32⟩
  | 58 => ⟨S5000x1024, .f32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S1, .i32⟩
  | 68 => ⟨S_, .i32⟩
  | 69 => ⟨S2048x1, .i32⟩
  | 70 => ⟨S2048x1, .i1⟩
  | 71 => ⟨S1x1, .i32⟩
  | 72 => ⟨S2048x1, .i32⟩
  | 73 => ⟨S2048x1, .i1⟩
  | 74 => ⟨S2048x1, .i1⟩
  | 75 => ⟨S_, .i1⟩
  | 76 => ⟨S2048, .i1⟩
  | 77 => ⟨S2048x1024, .f32⟩
  | 78 => ⟨S2048x1024, .i1⟩
  | 79 => ⟨S_, .f32⟩
  | 80 => ⟨S2048x1024, .f32⟩
  | 81 => ⟨S2048x1024, .f32⟩
  | 82 => ⟨S1x1024, .f32⟩
  | 83 => ⟨S1x1024, .f32⟩
  | 84 => ⟨S2048x3372, .f32⟩
  | 85 => ⟨S2048x3372, .bf16⟩
  | 86 => ⟨S3372x1024, .bf16⟩
  | 87 => ⟨S1x1024, .f32⟩
  | 88 => ⟨S1x1024, .f32⟩
  | 89 => ⟨S1x1024, .f32⟩
  | 90 => ⟨S2048x1024, .f32⟩
  | 91 => ⟨S1024x256, .bf16⟩
  | 92 => ⟨S1x256, .f32⟩
  | 93 => ⟨S1x256, .f32⟩
  | 94 => ⟨S1x256, .f32⟩
  | 95 => ⟨S2048x256, .f32⟩
  | 96 => ⟨S256x1024, .bf16⟩
  | 97 => ⟨S1x1024, .f32⟩
  | 98 => ⟨S1x1024, .f32⟩
  | 99 => ⟨S1x1024, .f32⟩
  | 100 => ⟨S2048x1024, .f32⟩
  | 101 => ⟨S_, .i32⟩
  | 102 => ⟨S_, .f32⟩
  | 103 => ⟨S1024x3584, .f32⟩
  | 104 => ⟨S_, .i32⟩
  | 105 => ⟨S_, .f32⟩
  | 106 => ⟨S3584, .f32⟩
  | 107 => ⟨S_, .i32⟩
  | 108 => ⟨S_, .f32⟩
  | 109 => ⟨S3584, .f32⟩
  | 110 => ⟨S_, .i32⟩
  | 111 => ⟨S_, .f32⟩
  | 112 => ⟨S3584, .f32⟩
  | 113 => ⟨S1024x3584, .bf16⟩
  | 114 => ⟨S1x3584, .f32⟩
  | 115 => ⟨S1x3584, .f32⟩
  | 116 => ⟨S1x3584, .f32⟩
  | 117 => ⟨S2048x3584, .f32⟩
  | 118 => ⟨S2048x3372, .f32⟩
  | 119 => ⟨S_, .i32⟩
  | 120 => ⟨S_, .f32⟩
  | 121 => ⟨S256x128, .f32⟩
  | 122 => ⟨S_, .i32⟩
  | 123 => ⟨S_, .f32⟩
  | 124 => ⟨S128, .f32⟩
  | 125 => ⟨S_, .i32⟩
  | 126 => ⟨S_, .f32⟩
  | 127 => ⟨S128, .f32⟩
  | _ => ⟨S2048, .i32⟩

abbrev hbmTy0_2 (i : Nat) : BufTy := match i % 128 with
  | 0 => ⟨S_, .i32⟩
  | 1 => ⟨S_, .f32⟩
  | 2 => ⟨S128, .f32⟩
  | 3 => ⟨S_, .i32⟩
  | 4 => ⟨S_, .f32⟩
  | 5 => ⟨S128x128, .f32⟩
  | 6 => ⟨S_, .i32⟩
  | 7 => ⟨S_, .f32⟩
  | 8 => ⟨S128, .f32⟩
  | 9 => ⟨S256x128, .bf16⟩
  | 10 => ⟨S128x128, .bf16⟩
  | 11 => ⟨S1x128, .f32⟩
  | 12 => ⟨S1x128, .f32⟩
  | 13 => ⟨S1x128, .f32⟩
  | 14 => ⟨S1x128, .f32⟩
  | 15 => ⟨S2048x128, .f32⟩
  | 16 => ⟨S2048x1, .f32⟩
  | _ => ⟨S2048, .i32⟩

abbrev hbmTy (i : Nat) : BufTy := match i / 128 with
  | 0 => hbmTy0_0 i
  | 1 => hbmTy0_1 i
  | 2 => hbmTy0_2 i
  | _ => ⟨S2048, .i32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S512x2812, .f32⟩
  | .local _ .vmem, ⟨6, _⟩ => ⟨S512x2812, .f32⟩
  | .local _ .vmem, ⟨7, _⟩ => ⟨S2812x1024, .bf16⟩
  | .local _ .vmem, ⟨8, _⟩ => ⟨S512x1024, .f32⟩
  | .local _ .vmem, ⟨9, _⟩ => ⟨S512x1024, .f32⟩
  | .local _ .vmem, ⟨10, _⟩ => ⟨S256x300, .f32⟩
  | .local _ .vmem, ⟨11, _⟩ => ⟨S256x300, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x3372, .f32⟩
  | .local _ .vmem, ⟨21, _⟩ => ⟨S256x3372, .f32⟩
  | .local _ .vmem, ⟨22, _⟩ => ⟨S256x3372, .bf16⟩
  | .local _ .vmem, ⟨23, _⟩ => ⟨S256x3372, .bf16⟩
  | .local _ .vmem, ⟨24, _⟩ => ⟨S2048x3372, .bf16⟩
  | .local _ .vmem, ⟨25, _⟩ => ⟨S3372x256, .bf16⟩
  | .local _ .vmem, ⟨26, _⟩ => ⟨S3372x256, .bf16⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S2048x256, .f32⟩
  | .local _ .vmem, ⟨34, _⟩ => ⟨S2048x256, .f32⟩
  | .local _ .vmem, ⟨35, _⟩ => ⟨S2048x1024, .f32⟩
  | .local _ .vmem, ⟨36, _⟩ => ⟨S1024x128, .bf16⟩
  | .local _ .vmem, ⟨37, _⟩ => ⟨S1024x128, .bf16⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S2048x128, .f32⟩
  | .local _ .vmem, ⟨45, _⟩ => ⟨S2048x128, .f32⟩
  | .local _ .vmem, ⟨46, _⟩ => ⟨S2048x256, .f32⟩
  | .local _ .vmem, ⟨47, _⟩ => ⟨S256x256, .bf16⟩
  | .local _ .vmem, ⟨48, _⟩ => ⟨S256x256, .bf16⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S1x256, .f32⟩
  | .local _ .vmem, ⟨53, _⟩ => ⟨S1x256, .f32⟩
  | .local _ .vmem, ⟨54, _⟩ => ⟨S1x256, .f32⟩
  | .local _ .vmem, ⟨55, _⟩ => ⟨S2048x256, .f32⟩
  | .local _ .vmem, ⟨56, _⟩ => ⟨S2048x256, .f32⟩
  | .local _ .vmem, ⟨57, _⟩ => ⟨S2048x1024, .f32⟩
  | .local _ .vmem, ⟨58, _⟩ => ⟨S1024x256, .bf16⟩
  | .local _ .vmem, ⟨59, _⟩ => ⟨S1024x256, .bf16⟩
  | .local _ .vmem, ⟨60, _⟩ => ⟨S1x256, .f32⟩
  | .local _ .vmem, ⟨61, _⟩ => ⟨S1x256, .f32⟩
  | .local _ .vmem, ⟨62, _⟩ => ⟨S1x256, .f32⟩
  | .local _ .vmem, ⟨63, _⟩ => ⟨S1x256, .f32⟩
  | .local _ .vmem, ⟨64, _⟩ => ⟨S1x256, .f32⟩
  | .local _ .vmem, ⟨65, _⟩ => ⟨S1x256, .f32⟩
  | .local _ .vmem, ⟨66, _⟩ => ⟨S2048x256, .f32⟩
  | .local _ .vmem, ⟨67, _⟩ => ⟨S2048x256, .f32⟩
  | .local _ .vmem, ⟨68, _⟩ => ⟨S2048x256, .f32⟩
  | .local _ .vmem, ⟨69, _⟩ => ⟨S256x128, .bf16⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S128x128, .bf16⟩
  | .local _ .vmem, ⟨74, _⟩ => ⟨S1x128, .f32⟩
  | .local _ .vmem, ⟨75, _⟩ => ⟨S2048x128, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst : Ref sig .tc := ⟨.hbm, 43, rfl⟩
abbrev main_v7 : Ref sig .tc := ⟨.hbm, 44, rfl⟩
abbrev main_v8 : Ref sig .tc := ⟨.hbm, 45, rfl⟩
abbrev main_cst_0 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_1 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst_2 : Ref sig .tc := ⟨.hbm, 54, rfl⟩
abbrev main_call0_v0 : Ref sig .tc := ⟨.hbm, 55, rfl⟩
abbrev main_call0_v1 : Ref sig .tc := ⟨.hbm, 56, rfl⟩
abbrev main_v15 : Ref sig .tc := ⟨.hbm, 57, rfl⟩
abbrev main_c : Ref sig .tc := ⟨.hbm, 58, rfl⟩
abbrev main_v16 : Ref sig .tc := ⟨.hbm, 59, rfl⟩
abbrev main_v17 : Ref sig .tc := ⟨.hbm, 60, rfl⟩
abbrev main_c_3 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_c_4 : Ref sig .tc := ⟨.hbm, 68, rfl⟩
abbrev main_v24 : Ref sig .tc := ⟨.hbm, 69, rfl⟩
abbrev main_v25 : Ref sig .tc := ⟨.hbm, 70, rfl⟩
abbrev main_c_5 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_c_6 : Ref sig .tc := ⟨.hbm, 78, rfl⟩
abbrev main_call1_v0 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_c_7 : Ref sig .tc := ⟨.hbm, 85, rfl⟩
abbrev main_v37 : Ref sig .tc := ⟨.hbm, 86, rfl⟩
abbrev main_v38 : Ref sig .tc := ⟨.hbm, 87, rfl⟩
abbrev main_c_8 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_9 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_cst_10 : Ref sig .tc := ⟨.hbm, 130, rfl⟩
abbrev main_v57 : Ref sig .tc := ⟨.hbm, 131, rfl⟩
abbrev main_v58 : Ref sig .tc := ⟨.hbm, 132, rfl⟩
abbrev main_cst_11 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_cst_12 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_cst_13 : Ref sig .tc := ⟨.hbm, 141, rfl⟩
abbrev main_call3_v0 : Ref sig .tc := ⟨.hbm, 142, rfl⟩
abbrev main_call3_v1 : Ref sig .tc := ⟨.hbm, 143, rfl⟩
abbrev main_v65 : Ref sig .tc := ⟨.hbm, 144, rfl⟩
abbrev main_c_14 : Ref sig .tc := ⟨.hbm, 145, rfl⟩
abbrev main_v66 : Ref sig .tc := ⟨.hbm, 146, rfl⟩
abbrev main_v67 : Ref sig .tc := ⟨.hbm, 147, rfl⟩
abbrev main_c_15 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_c_16 : Ref sig .tc := ⟨.hbm, 155, rfl⟩
abbrev main_v74 : Ref sig .tc := ⟨.hbm, 156, rfl⟩
abbrev main_v75 : Ref sig .tc := ⟨.hbm, 157, rfl⟩
abbrev main_c_17 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_c_18 : Ref sig .tc := ⟨.hbm, 165, rfl⟩
abbrev main_call4_v0 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_c_19 : Ref sig .tc := ⟨.hbm, 172, rfl⟩
abbrev main_v87 : Ref sig .tc := ⟨.hbm, 173, rfl⟩
abbrev main_v88 : Ref sig .tc := ⟨.hbm, 174, rfl⟩
abbrev main_c_20 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_cst_21 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_call5_c : Ref sig .tc := ⟨.hbm, 187, rfl⟩
abbrev main_call5_v0 : Ref sig .tc := ⟨.hbm, 188, rfl⟩
abbrev main_call5_v1 : Ref sig .tc := ⟨.hbm, 189, rfl⟩
abbrev main_call5_c_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_v5 : Ref sig .tc := ⟨.hbm, 194, rfl⟩
abbrev main_call5_c_1 : Ref sig .tc := ⟨.hbm, 195, rfl⟩
abbrev main_call5_c_2 : Ref sig .tc := ⟨.hbm, 196, rfl⟩
abbrev main_call5_v6 : Ref sig .tc := ⟨.hbm, 197, rfl⟩
abbrev main_call5_v7 : Ref sig .tc := ⟨.hbm, 198, rfl⟩
abbrev main_call5_v8 : Ref sig .tc := ⟨.hbm, 199, rfl⟩
abbrev main_call5_v9 : Ref sig .tc := ⟨.hbm, 200, rfl⟩
abbrev main_call5_v10 : Ref sig .tc := ⟨.hbm, 201, rfl⟩
abbrev main_call5_v11 : Ref sig .tc := ⟨.hbm, 202, rfl⟩
abbrev main_call5_c_3 : Ref sig .tc := ⟨.hbm, 203, rfl⟩
abbrev main_call5_v12 : Ref sig .tc := ⟨.hbm, 204, rfl⟩
abbrev main_call5_v13 : Ref sig .tc := ⟨.hbm, 205, rfl⟩
abbrev main_call5_v14 : Ref sig .tc := ⟨.hbm, 206, rfl⟩
abbrev main_call5_cst : Ref sig .tc := ⟨.hbm, 207, rfl⟩
abbrev main_call5_v15 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102_0 : Ref sig .tc := ⟨.hbm, 212, rfl⟩
abbrev main_v102_1 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_c_22 : Ref sig .tc := ⟨.hbm, 229, rfl⟩
abbrev main_call6_v0 : Ref sig .tc := ⟨.hbm, 230, rfl⟩
abbrev main_v118 : Ref sig .tc := ⟨.hbm, 231, rfl⟩
abbrev main_c_23 : Ref sig .tc := ⟨.hbm, 232, rfl⟩
abbrev main_call7_v0 : Ref sig .tc := ⟨.hbm, 233, rfl⟩
abbrev main_v119 : Ref sig .tc := ⟨.hbm, 234, rfl⟩
abbrev main_c_24 : Ref sig .tc := ⟨.hbm, 235, rfl⟩
abbrev main_call8_v0 : Ref sig .tc := ⟨.hbm, 236, rfl⟩
abbrev main_v120 : Ref sig .tc := ⟨.hbm, 237, rfl⟩
abbrev main_c_25 : Ref sig .tc := ⟨.hbm, 238, rfl⟩
abbrev main_call9_v0 : Ref sig .tc := ⟨.hbm, 239, rfl⟩
abbrev main_v121 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_c_26 : Ref sig .tc := ⟨.hbm, 247, rfl⟩
abbrev main_call10_v0 : Ref sig .tc := ⟨.hbm, 248, rfl⟩
abbrev main_v128 : Ref sig .tc := ⟨.hbm, 249, rfl⟩
abbrev main_c_27 : Ref sig .tc := ⟨.hbm, 250, rfl⟩
abbrev main_call11_v0 : Ref sig .tc := ⟨.hbm, 251, rfl⟩
abbrev main_v129 : Ref sig .tc := ⟨.hbm, 252, rfl⟩
abbrev main_c_28 : Ref sig .tc := ⟨.hbm, 253, rfl⟩
abbrev main_call12_v0 : Ref sig .tc := ⟨.hbm, 254, rfl⟩
abbrev main_v130 : Ref sig .tc := ⟨.hbm, 255, rfl⟩
abbrev main_c_29 : Ref sig .tc := ⟨.hbm, 256, rfl⟩
abbrev main_call13_v0 : Ref sig .tc := ⟨.hbm, 257, rfl⟩
abbrev main_v131 : Ref sig .tc := ⟨.hbm, 258, rfl⟩
abbrev main_c_30 : Ref sig .tc := ⟨.hbm, 259, rfl⟩
abbrev main_call14_v0 : Ref sig .tc := ⟨.hbm, 260, rfl⟩
abbrev main_v132 : Ref sig .tc := ⟨.hbm, 261, rfl⟩
abbrev main_c_31 : Ref sig .tc := ⟨.hbm, 262, rfl⟩
abbrev main_call15_v0 : Ref sig .tc := ⟨.hbm, 263, rfl⟩
abbrev main_v133 : Ref sig .tc := ⟨.hbm, 264, rfl⟩
abbrev main_v134 : Ref sig .tc := ⟨.hbm, 265, rfl⟩
abbrev main_v135 : Ref sig .tc := ⟨.hbm, 266, rfl⟩
abbrev main_v136 : Ref sig .tc := ⟨.hbm, 267, rfl⟩
abbrev main_v137 : Ref sig .tc := ⟨.hbm, 268, rfl⟩
abbrev main_v138 : Ref sig .tc := ⟨.hbm, 269, rfl⟩
abbrev main_v139 : Ref sig .tc := ⟨.hbm, 270, rfl⟩
abbrev main_v140 : Ref sig .tc := ⟨.hbm, 271, rfl⟩
abbrev main_v141 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg4_1 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg3_1 : Ref sig .tc := ⟨.vmem, 63, rfl⟩
abbrev cc6_stg4_0 : Ref sig .tc := ⟨.vmem, 64, rfl⟩
abbrev cc6_stg4_1 : Ref sig .tc := ⟨.vmem, 65, rfl⟩
abbrev cc6_stg5_0 : Ref sig .tc := ⟨.vmem, 66, rfl⟩
abbrev cc6_stg5_1 : Ref sig .tc := ⟨.vmem, 67, rfl⟩
abbrev cc7_stg0_0 : Ref sig .tc := ⟨.vmem, 68, rfl⟩
abbrev cc7_stg1_0 : Ref sig .tc := ⟨.vmem, 69, rfl⟩
abbrev cc7_stg2_0 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg5_0 : Ref sig .tc := ⟨.vmem, 73, rfl⟩
abbrev cc7_stg6_0 : Ref sig .tc := ⟨.vmem, 74, rfl⟩
abbrev cc7_stg7_0 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18
abbrev cc2_sem5_0 : DmaSem sig := 19
abbrev cc2_sem6_0 : DmaSem sig := 20
abbrev cc2_sem6_1 : DmaSem sig := 21
abbrev cc2_sem7_0 : DmaSem sig := 22
abbrev cc2_sem7_1 : DmaSem sig := 23
abbrev cc3_sem0_0 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem5_1 : DmaSem sig := 34
abbrev cc4_sem0_0 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem4_1 : DmaSem sig := 43
abbrev cc4_sem5_0 : DmaSem sig := 44
abbrev cc4_sem5_1 : DmaSem sig := 45
abbrev cc5_sem0_0 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem3_1 : DmaSem sig := 52
abbrev cc5_sem4_0 : DmaSem sig := 53
abbrev cc5_sem4_1 : DmaSem sig := 54
abbrev cc5_sem5_0 : DmaSem sig := 55
abbrev cc5_sem5_1 : DmaSem sig := 56
abbrev cc6_sem0_0 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem3_1 : DmaSem sig := 63
abbrev cc6_sem4_0 : DmaSem sig := 64
abbrev cc6_sem4_1 : DmaSem sig := 65
abbrev cc6_sem5_0 : DmaSem sig := 66
abbrev cc6_sem5_1 : DmaSem sig := 67
abbrev cc7_sem0_0 : DmaSem sig := 68
abbrev cc7_sem1_0 : DmaSem sig := 69
abbrev cc7_sem2_0 : DmaSem sig := 70
abbrev cc7_sem3_0 : DmaSem sig := 71
abbrev cc7_sem4_0 : DmaSem sig := 72
abbrev cc7_sem5_0 : DmaSem sig := 73
abbrev cc7_sem6_0 : DmaSem sig := 74
abbrev cc7_sem7_0 : DmaSem sig := 75

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2812 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2812x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x3372 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x3372 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S2048x3372 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S3372x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2048x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S2048x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S1024x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2048x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S2048x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S256x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2048x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![14], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 1 → Memref sig .tc .vmem S2048x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S1024x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2048x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S2048x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S256x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S2048x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

class Facts₀ : Prop where
  slices_S2x65536_S1x65536_0_0 : S2x65536.Slices ![0, 0] S1x65536
  shapeCasts_S1x65536_S65536 : S1x65536.ShapeCasts S65536
  concatenates_S65536_S10000_S75536_d0 : Shape.Concatenates [S65536, S10000] S75536 0
  slices_S2x65536_S1x65536_1_0 : S2x65536.Slices ![1, 0] S1x65536
  bcast_S_S10000 : S_.BroadcastsInDim S10000 (![] : Fin 0 → Fin S10000.rank)
  bcast_S75536_S75536x1_0 : S75536.BroadcastsInDim S75536x1 (![0] : Fin 1 → Fin S75536x1.rank)
  bcast_S_S75536 : S_.BroadcastsInDim S75536 (![] : Fin 0 → Fin S75536.rank)
  pads_S10000x1024_S10240x1024_02400_000 : S10000x1024.Pads (![0, 0] : Fin 2 → Nat) ![240, 0] ![0, 0] S10240x1024
  h_S_ : 0 < S_.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S10240x1024_S10000x1024_0_0 : S10240x1024.Slices ![0, 0] S10000x1024
  bcast_S75536x1_S75536x1024_0_1 : S75536x1.BroadcastsInDim S75536x1024 (![0, 1] : Fin 2 → Fin S75536x1024.rank)
  bcast_S_S10000x1024 : S_.BroadcastsInDim S10000x1024 (![] : Fin 0 → Fin S10000x1024.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S2048x1024_0 : S2048.BroadcastsInDim S2048x1024 (![0] : Fin 1 → Fin S2048x1024.rank)
  bcast_S_S2048x1024 : S_.BroadcastsInDim S2048x1024 (![] : Fin 0 → Fin S2048x1024.rank)
  slices_S2x25000_S1x25000_0_0 : S2x25000.Slices ![0, 0] S1x25000
  shapeCasts_S1x25000_S25000 : S1x25000.ShapeCasts S25000
  concatenates_S25000_S5000_S30000_d0 : Shape.Concatenates [S25000, S5000] S30000 0
  slices_S2x25000_S1x25000_1_0 : S2x25000.Slices ![1, 0] S1x25000
  bcast_S_S5000 : S_.BroadcastsInDim S5000 (![] : Fin 0 → Fin S5000.rank)
  bcast_S30000_S30000x1_0 : S30000.BroadcastsInDim S30000x1 (![0] : Fin 1 → Fin S30000x1.rank)
  bcast_S_S30000 : S_.BroadcastsInDim S30000 (![] : Fin 0 → Fin S30000.rank)
  pads_S5000x2812_S5120x2812_01200_000 : S5000x2812.Pads (![0, 0] : Fin 2 → Nat) ![120, 0] ![0, 0] S5120x2812
  inb_S512x2812_S512x2812_0_0 : ∀ a, (![0, 0] : Fin 2 → Nat) a + S512x2812.size a ≤ S512x2812.size a
  h_S512x2812 : 0 < S512x2812.numel
  shapeCasts_S512x2812_S512x2812 : S512x2812.ShapeCasts S512x2812
  inb_S2812x1024_S2812x1024_0_0 : ∀ a, (![0, 0] : Fin 2 → Nat) a + S2812x1024.size a ≤ S2812x1024.size a
  h_S2812x1024 : 0 < S2812x1024.numel
  shapeCasts_S2812x1024_S2812x1024 : S2812x1024.ShapeCasts S2812x1024
  inb_S512x1024_S512x1024_0_0 : ∀ a, (![0, 0] : Fin 2 → Nat) a + S512x1024.size a ≤ S512x1024.size a
  h_S512x1024 : 0 < S512x1024.numel
  slices_S5120x1024_S5000x1024_0_0 : S5120x1024.Slices ![0, 0] S5000x1024
  bcast_S30000x1_S30000x1024_0_1 : S30000x1.BroadcastsInDim S30000x1024 (![0, 1] : Fin 2 → Fin S30000x1024.rank)
  bcast_S_S5000x1024 : S_.BroadcastsInDim S5000x1024 (![] : Fin 0 → Fin S5000x1024.rank)
  shapeCasts_S1024_S1x1024 : S1024.ShapeCasts S1x1024
  inb_S256x300_S256x300_0_0 : ∀ a, (![0, 0] : Fin 2 → Nat) a + S256x300.size a ≤ S256x300.size a
  h_S256x300 : 0 < S256x300.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x3372_S256x300_0_0 : ∀ a, (![0, 0] : Fin 2 → Nat) a + S256x300.size a ≤ S256x3372.size a
  inb_S256x3372_S256x1024_0_300 : ∀ a, (![0, 300] : Fin 2 → Nat) a + S256x1024.size a ≤ S256x3372.size a
  inb_S256x3372_S256x1024_0_1324 : ∀ a, (![0, 1324] : Fin 2 → Nat) a + S256x1024.size a ≤ S256x3372.size a
  inb_S256x3372_S256x1024_0_2348 : ∀ a, (![0, 2348] : Fin 2 → Nat) a + S256x1024.size a ≤ S256x3372.size a
  packedbf16_S256x3372_S256x300_0_0 : (Rect.unit (s := S256x3372) ![0, 0] S256x300.size inb_S256x3372_S256x300_0_0).PackedRows (EltTy.packing .bf16)
  packedbf16_S256x3372_S256x1024_0_300 : (Rect.unit (s := S256x3372) ![0, 300] S256x1024.size inb_S256x3372_S256x1024_0_300).PackedRows (EltTy.packing .bf16)
  packedbf16_S256x3372_S256x1024_0_1324 : (Rect.unit (s := S256x3372) ![0, 1324] S256x1024.size inb_S256x3372_S256x1024_0_1324).PackedRows (EltTy.packing .bf16)
  packedbf16_S256x3372_S256x1024_0_2348 : (Rect.unit (s := S256x3372) ![0, 2348] S256x1024.size inb_S256x3372_S256x1024_0_2348).PackedRows (EltTy.packing .bf16)
  inb_S2048x3372_S2048x3372_0_0 : ∀ a, (![0, 0] : Fin 2 → Nat) a + S2048x3372.size a ≤ S2048x3372.size a
  h_S2048x3372 : 0 < S2048x3372.numel
  shapeCasts_S2048x3372_S2048x3372 : S2048x3372.ShapeCasts S2048x3372
  inb_S3372x256_S3372x256_0_0 : ∀ a, (![0, 0] : Fin 2 → Nat) a + S3372x256.size a ≤ S3372x256.size a
  h_S3372x256 : 0 < S3372x256.numel
  shapeCasts_S3372x256_S3372x256 : S3372x256.ShapeCasts S3372x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S256 : S2048x256.Reduces [0] S256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S128 : S2048x128.Reduces [0] S128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  pads_S1024x3372_S1024x3584_000_02120 : S1024x3372.Pads (![0, 0] : Fin 2 → Nat) ![0, 212] ![0, 0] S1024x3584
  pads_S3372_S3584_02120 : S3372.Pads (![0] : Fin 1 → Nat) ![212] ![0] S3584
  shapeCasts_S3584_S1x3584 : S3584.ShapeCasts S1x3584
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S2048x3584_S2048x3372_0_0 : S2048x3584.Slices ![0, 0] S2048x3372
  pads_S256x64_S256x128_000_0640 : S256x64.Pads (![0, 0] : Fin 2 → Nat) ![0, 64] ![0, 0] S256x128
  pads_S64_S128_0640 : S64.Pads (![0] : Fin 1 → Nat) ![64] ![0] S128
  pads_S64x1_S128x128_0640_01270 : S64x1.Pads (![0, 0] : Fin 2 → Nat) ![64, 127] ![0, 0] S128x128
  pads_S1_S128_01270 : S1.Pads (![0] : Fin 1 → Nat) ![127] ![0] S128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2048x128_S2048x1_0_0 : S2048x128.Slices ![0, 0] S2048x1
  scatter_S10000_S75536x1_S75536_n_0_0_1_wf : ScatterDims.WF S10000 S75536x1 S75536 [] [0] [0] 1
  gather_S10000_S75536x1_S75536_n_0_n_n_0_1_1_wf : GatherDims.WF S10000 S75536x1 S75536 [] [0] [] [0] [] 1 ![1]
  dot_S1024x1024_S1024x1024_S1024x1024_1_0_0_1_n_n_wf : DotDims.WF S1024x1024 S1024x1024 S1024x1024 [1] [0] [0] [1] [] []
  gather_S10000x1024_S75536x1_S75536x1024_1_0_n_n_0_1_11024_wf : GatherDims.WF S10000x1024 S75536x1 S75536x1024 [1] [0] [] [0] [] 1 ![1, 1024]
  scatter_S10000x1024_S75536x1_S75536x1024_1_0_0_1_wf : ScatterDims.WF S10000x1024 S75536x1 S75536x1024 [1] [0] [0] 1
  gather_S10000x1024_S2048x1_S2048x1024_1_0_n_n_0_1_11024_wf : GatherDims.WF S10000x1024 S2048x1 S2048x1024 [1] [0] [] [0] [] 1 ![1, 1024]
  scatter_S5000_S30000x1_S30000_n_0_0_1_wf : ScatterDims.WF S5000 S30000x1 S30000 [] [0] [0] 1
  gather_S5000_S30000x1_S30000_n_0_n_n_0_1_1_wf : GatherDims.WF S5000 S30000x1 S30000 [] [0] [] [0] [] 1 ![1]
  dot_S512x2812_S2812x1024_S512x1024_1_0_0_1_n_n_wf : DotDims.WF S512x2812 S2812x1024 S512x1024 [1] [0] [0] [1] [] []
  gather_S5000x1024_S30000x1_S30000x1024_1_0_n_n_0_1_11024_wf : GatherDims.WF S5000x1024 S30000x1 S30000x1024 [1] [0] [] [0] [] 1 ![1, 1024]
  scatter_S5000x1024_S30000x1_S30000x1024_1_0_0_1_wf : ScatterDims.WF S5000x1024 S30000x1 S30000x1024 [1] [0] [0] 1
  gather_S5000x1024_S2048x1_S2048x1024_1_0_n_n_0_1_11024_wf : GatherDims.WF S5000x1024 S2048x1 S2048x1024 [1] [0] [] [0] [] 1 ![1, 1024]
  dot_S2048x3372_S3372x256_S2048x256_1_0_0_1_n_n_wf : DotDims.WF S2048x3372 S3372x256 S2048x256 [1] [0] [0] [1] [] []
  dot_S2048x1024_S1024x128_S2048x128_1_0_0_1_n_n_wf : DotDims.WF S2048x1024 S1024x128 S2048x128 [1] [0] [0] [1] [] []
  dot_S2048x256_S256x256_S2048x256_1_0_0_1_n_n_wf : DotDims.WF S2048x256 S256x256 S2048x256 [1] [0] [0] [1] [] []
  dot_S2048x1024_S1024x256_S2048x256_1_0_0_1_n_n_wf : DotDims.WF S2048x1024 S1024x256 S2048x256 [1] [0] [0] [1] [] []
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S10240x1024.size a
  hwx0_0 : ∀ i : grid0.Coords, EltTy.bits .f32 = 32 ∨ (Rect.block (s := S10240x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S10240x1024.size a
  hwx0_2 : ∀ i : grid0.Coords, EltTy.bits .f32 = 32 ∨ (Rect.block (s := S10240x1024) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2812.size a ≤ S5120x2812.size a
  hwx1_0 : ∀ i : grid1.Coords, EltTy.bits .f32 = 32 ∨ (Rect.block (s := S5120x2812) S512x2812.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2812x1024.size a ≤ S2812x1024.size a
  hwx1_1 : ∀ i : grid1.Coords, EltTy.bits .bf16 = 32 ∨ (Rect.block (s := S2812x1024) S2812x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S5120x1024.size a
  hwx1_2 : ∀ i : grid1.Coords, EltTy.bits .f32 = 32 ∨ (Rect.block (s := S5120x1024) S512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x300.size a ≤ S2048x300.size a
  hwx2_0 : ∀ i : grid2.Coords, EltTy.bits .f32 = 32 ∨ (Rect.block (s := S2048x300) S256x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S2048x1024.size a
  hwx2_1 : ∀ i : grid2.Coords, EltTy.bits .f32 = 32 ∨ (Rect.block (s := S2048x1024) S256x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S2048x1024.size a
  hwx2_2 : ∀ i : grid2.Coords, EltTy.bits .f32 = 32 ∨ (Rect.block (s := S2048x1024) S256x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1024.size a ≤ S2048x1024.size a
  hwx2_4 : ∀ i : grid2.Coords, EltTy.bits .f32 = 32 ∨ (Rect.block (s := S2048x1024) S256x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x3372.size a ≤ S2048x3372.size a
  hwx2_6 : ∀ i : grid2.Coords, EltTy.bits .f32 = 32 ∨ (Rect.block (s := S2048x3372) S256x3372.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x3372.size a ≤ S2048x3372.size a
  hwx2_7 : ∀ i : grid2.Coords, EltTy.bits .bf16 = 32 ∨ (Rect.block (s := S2048x3372) S256x3372.size (cc2_transform_7 i) (hinb2_7 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x3372.size a ≤ S2048x3372.size a
  hwx3_0 : ∀ i : grid3.Coords, EltTy.bits .bf16 = 32 ∨ (Rect.block (s := S2048x3372) S2048x3372.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3372x256.size a ≤ S3372x1024.size a
  hwx3_1 : ∀ i : grid3.Coords, EltTy.bits .bf16 = 32 ∨ (Rect.block (s := S3372x1024) S3372x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x1024.size a
  hwx3_2 : ∀ i : grid3.Coords, EltTy.bits .f32 = 32 ∨ (Rect.block (s := S1x1024) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x1024.size a
  hwx3_3 : ∀ i : grid3.Coords, EltTy.bits .f32 = 32 ∨ (Rect.block (s := S1x1024) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x1024.size a
  hwx3_4 : ∀ i : grid3.Coords, EltTy.bits .f32 = 32 ∨ (Rect.block (s := S1x1024) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x256.size a ≤ S2048x1024.size a
  hwx3_5 : ∀ i : grid3.Coords, EltTy.bits .f32 = 32 ∨ (Rect.block (s := S2048x1024) S2048x256.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S2048x1024.size a
  hwx4_0 : ∀ i : grid4.Coords, EltTy.bits .f32 = 32 ∨ (Rect.block (s := S2048x1024) S2048x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S1024x256.size a
  hwx4_1 : ∀ i : grid4.Coords, EltTy.bits .bf16 = 32 ∨ (Rect.block (s := S1024x256) S1024x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x256.size a
  hwx4_2 : ∀ i : grid4.Coords, EltTy.bits .f32 = 32 ∨ (Rect.block (s := S1x256) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x256.size a
  hwx4_3 : ∀ i : grid4.Coords, EltTy.bits .f32 = 32 ∨ (Rect.block (s := S1x256) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x256.size a
  hwx4_4 : ∀ i : grid4.Coords, EltTy.bits .f32 = 32 ∨ (Rect.block (s := S1x256) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2048x128.size a ≤ S2048x256.size a
  hwx4_5 : ∀ i : grid4.Coords, EltTy.bits .f32 = 32 ∨ (Rect.block (s := S2048x256) S2048x128.size (cc4_transform_5 i) (hinb4_5 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S2048x256.size a
  hwx5_0 : ∀ i : grid5.Coords, EltTy.bits .f32 = 32 ∨ (Rect.block (s := S2048x256) S2048x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x1024.size a
  hwx5_1 : ∀ i : grid5.Coords, EltTy.bits .bf16 = 32 ∨ (Rect.block (s := S256x1024) S256x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x1024.size a
  hwx5_2 : ∀ i : grid5.Coords, EltTy.bits .f32 = 32 ∨ (Rect.block (s := S1x1024) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x1024.size a
  hwx5_3 : ∀ i : grid5.Coords, EltTy.bits .f32 = 32 ∨ (Rect.block (s := S1x1024) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x1024.size a
  hwx5_4 : ∀ i : grid5.Coords, EltTy.bits .f32 = 32 ∨ (Rect.block (s := S1x1024) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x256.size a ≤ S2048x1024.size a
  hwx5_5 : ∀ i : grid5.Coords, EltTy.bits .f32 = 32 ∨ (Rect.block (s := S2048x1024) S2048x256.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x1024.size a ≤ S2048x1024.size a
  hwx6_0 : ∀ i : grid6.Coords, EltTy.bits .f32 = 32 ∨ (Rect.block (s := S2048x1024) S2048x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x256.size a ≤ S1024x3584.size a
  hwx6_1 : ∀ i : grid6.Coords, EltTy.bits .bf16 = 32 ∨ (Rect.block (s := S1024x3584) S1024x256.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x3584.size a
  hwx6_2 : ∀ i : grid6.Coords, EltTy.bits .f32 = 32 ∨ (Rect.block (s := S1x3584) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x3584.size a
  hwx6_3 : ∀ i : grid6.Coords, EltTy.bits .f32 = 32 ∨ (Rect.block (s := S1x3584) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x3584.size a
  hwx6_4 : ∀ i : grid6.Coords, EltTy.bits .f32 = 32 ∨ (Rect.block (s := S1x3584) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2048x256.size a ≤ S2048x3584.size a
  hwx6_5 : ∀ i : grid6.Coords, EltTy.bits .f32 = 32 ∨ (Rect.block (s := S2048x3584) S2048x256.size (cc6_transform_5 i) (hinb6_5 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S2048x256.size a ≤ S2048x256.size a
  hwx7_0 : ∀ i : grid7.Coords, EltTy.bits .f32 = 32 ∨ (Rect.block (s := S2048x256) S2048x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .bf16 = 32 ∨ (Rect.block (s := S256x128) S256x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .bf16 = 32 ∨ (Rect.block (s := S128x128) S128x128.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S2048x128.size a ≤ S2048x128.size a
  hwx7_7 : ∀ i : grid7.Coords, EltTy.bits .f32 = 32 ∨ (Rect.block (s := S2048x128) S2048x128.size (cc7_transform_7 i) (hinb7_7 i)).WholeWords (EltTy.packing .f32)

variable [Facts₀]

def scatter_S10000_S75536x1_S75536_n_0_0_1 : ScatterDims S10000 S75536x1 S75536 where
  updateWindowDims := []
  insertedWindowDims := [0]
  scatterDimsToOperandDims := [0]
  indexVectorDim := 1
  wf := scatter_S10000_S75536x1_S75536_n_0_0_1_wf
def gather_S10000_S75536x1_S75536_n_0_n_n_0_1_1 : GatherDims S10000 S75536x1 S75536 where
  offsetDims := []
  collapsedSliceDims := [0]
  operandBatchingDims := []
  startIndicesBatchingDims := []
  startIndexMap := [0]
  indexVectorDim := 1
  sliceSizes := ![1]
  wf := gather_S10000_S75536x1_S75536_n_0_n_n_0_1_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def gather_S10000x1024_S75536x1_S75536x1024_1_0_n_n_0_1_11024 : GatherDims S10000x1024 S75536x1 S75536x1024 where
  offsetDims := [1]
  collapsedSliceDims := [0]
  operandBatchingDims := []
  startIndicesBatchingDims := []
  startIndexMap := [0]
  indexVectorDim := 1
  sliceSizes := ![1, 1024]
  wf := gather_S10000x1024_S75536x1_S75536x1024_1_0_n_n_0_1_11024_wf
def scatter_S10000x1024_S75536x1_S75536x1024_1_0_0_1 : ScatterDims S10000x1024 S75536x1 S75536x1024 where
  updateWindowDims := [1]
  insertedWindowDims := [0]
  scatterDimsToOperandDims := [0]
  indexVectorDim := 1
  wf := scatter_S10000x1024_S75536x1_S75536x1024_1_0_0_1_wf
def gather_S10000x1024_S2048x1_S2048x1024_1_0_n_n_0_1_11024 : GatherDims S10000x1024 S2048x1 S2048x1024 where
  offsetDims := [1]
  collapsedSliceDims := [0]
  operandBatchingDims := []
  startIndicesBatchingDims := []
  startIndexMap := [0]
  indexVectorDim := 1
  sliceSizes := ![1, 1024]
  wf := gather_S10000x1024_S2048x1_S2048x1024_1_0_n_n_0_1_11024_wf
def scatter_S5000_S30000x1_S30000_n_0_0_1 : ScatterDims S5000 S30000x1 S30000 where
  updateWindowDims := []
  insertedWindowDims := [0]
  scatterDimsToOperandDims := [0]
  indexVectorDim := 1
  wf := scatter_S5000_S30000x1_S30000_n_0_0_1_wf
def gather_S5000_S30000x1_S30000_n_0_n_n_0_1_1 : GatherDims S5000 S30000x1 S30000 where
  offsetDims := []
  collapsedSliceDims := [0]
  operandBatchingDims := []
  startIndicesBatchingDims := []
  startIndexMap := [0]
  indexVectorDim := 1
  sliceSizes := ![1]
  wf := gather_S5000_S30000x1_S30000_n_0_n_n_0_1_1_wf
def dot_S512x2812_S2812x1024_S512x1024_1_0_0_1_n_n : DotDims S512x2812 S2812x1024 S512x1024 where
  lhsContracting := [1]
  rhsContracting := [0]
  lhsNonContracting := [0]
  rhsNonContracting := [1]
  lhsBatch := []
  rhsBatch := []
  wf := dot_S512x2812_S2812x1024_S512x1024_1_0_0_1_n_n_wf
def gather_S5000x1024_S30000x1_S30000x1024_1_0_n_n_0_1_11024 : GatherDims S5000x1024 S30000x1 S30000x1024 where
  offsetDims := [1]
  collapsedSliceDims := [0]
  operandBatchingDims := []
  startIndicesBatchingDims := []
  startIndexMap := [0]
  indexVectorDim := 1
  sliceSizes := ![1, 1024]
  wf := gather_S5000x1024_S30000x1_S30000x1024_1_0_n_n_0_1_11024_wf
def scatter_S5000x1024_S30000x1_S30000x1024_1_0_0_1 : ScatterDims S5000x1024 S30000x1 S30000x1024 where
  updateWindowDims := [1]
  insertedWindowDims := [0]
  scatterDimsToOperandDims := [0]
  indexVectorDim := 1
  wf := scatter_S5000x1024_S30000x1_S30000x1024_1_0_0_1_wf
def gather_S5000x1024_S2048x1_S2048x1024_1_0_n_n_0_1_11024 : GatherDims S5000x1024 S2048x1 S2048x1024 where
  offsetDims := [1]
  collapsedSliceDims := [0]
  operandBatchingDims := []
  startIndicesBatchingDims := []
  startIndexMap := [0]
  indexVectorDim := 1
  sliceSizes := ![1, 1024]
  wf := gather_S5000x1024_S2048x1_S2048x1024_1_0_n_n_0_1_11024_wf
def dot_S2048x3372_S3372x256_S2048x256_1_0_0_1_n_n : DotDims S2048x3372 S3372x256 S2048x256 where
  lhsContracting := [1]
  rhsContracting := [0]
  lhsNonContracting := [0]
  rhsNonContracting := [1]
  lhsBatch := []
  rhsBatch := []
  wf := dot_S2048x3372_S3372x256_S2048x256_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v32) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v82) S512x2812.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v83) S2812x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v84) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S256x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v100) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v99) S256x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v101) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v102_0) S256x3372.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v102_1) S256x3372.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v102_1) S2048x3372.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v103) S3372x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v104) S1x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v105) S1x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v106) S1x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v107) S2048x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v107) S2048x1024.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v108) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v109) S1x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v110) S1x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v111) S1x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v112) S2048x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v112) S2048x256.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v113) S256x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v114) S1x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v115) S1x256.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v116) S1x256.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v117) S2048x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v117) S2048x1024.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v122) S1024x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v123) S1x256.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v124) S1x256.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v125) S1x256.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v126) S2048x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v112) S2048x256.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v134) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v136) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v137) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v138) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v135) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v139) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v140) S2048x128.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S2048 : Shape := ⟨1, ![2048]⟩
abbrev S2048x300 : Shape := ⟨2, ![2048, 300]⟩
abbrev S2048x1024 : Shape := ⟨2, ![2048, 1024]⟩
abbrev S10000x1024 : Shape := ⟨2, ![10000, 1024]⟩
abbrev S2x65536 : Shape := ⟨2, ![2, 65536]⟩
abbrev S65536 : Shape := ⟨1, ![65536]⟩
abbrev S5000x2812 : Shape := ⟨2, ![5000, 2812]⟩
abbrev S2x25000 : Shape := ⟨2, ![2, 25000]⟩
abbrev S25000 : Shape := ⟨1, ![25000]⟩
abbrev S1024x1024 : Shape := ⟨2, ![1024, 1024]⟩
abbrev S1024 : Shape := ⟨1, ![1024]⟩
abbrev S2812x1024 : Shape := ⟨2, ![2812, 1024]⟩
abbrev S3372x1024 : Shape := ⟨2, ![3372, 1024]⟩
abbrev S1024x256 : Shape := ⟨2, ![1024, 256]⟩
abbrev S256 : Shape := ⟨1, ![256]⟩
abbrev S256x1024 : Shape := ⟨2, ![256, 1024]⟩
abbrev S1024x3372 : Shape := ⟨2, ![1024, 3372]⟩
abbrev S3372 : Shape := ⟨1, ![3372]⟩
abbrev S256x64 : Shape := ⟨2, ![256, 64]⟩
abbrev S64 : Shape := ⟨1, ![64]⟩
abbrev S64x1 : Shape := ⟨2, ![64, 1]⟩
abbrev S1 : Shape := ⟨1, ![1]⟩
abbrev S10000 : Shape := ⟨1, ![10000]⟩
abbrev S1x65536 : Shape := ⟨2, ![1, 65536]⟩
abbrev S75536 : Shape := ⟨1, ![75536]⟩
abbrev S_ : Shape := ⟨0, ![]⟩
abbrev S75536x1 : Shape := ⟨2, ![75536, 1]⟩
abbrev S75536x1024 : Shape := ⟨2, ![75536, 1024]⟩
abbrev S1x1024 : Shape := ⟨2, ![1, 1024]⟩
abbrev S2048x1 : Shape := ⟨2, ![2048, 1]⟩
abbrev S5000 : Shape := ⟨1, ![5000]⟩
abbrev S1x25000 : Shape := ⟨2, ![1, 25000]⟩
abbrev S30000 : Shape := ⟨1, ![30000]⟩
abbrev S30000x1 : Shape := ⟨2, ![30000, 1]⟩
abbrev S5000x1024 : Shape := ⟨2, ![5000, 1024]⟩
abbrev S30000x1024 : Shape := ⟨2, ![30000, 1024]⟩
abbrev S2048x3372 : Shape := ⟨2, ![2048, 3372]⟩
abbrev S2048x256 : Shape := ⟨2, ![2048, 256]⟩
abbrev S1x256 : Shape := ⟨2, ![1, 256]⟩
abbrev S1x3372 : Shape := ⟨2, ![1, 3372]⟩
abbrev S2048x64 : Shape := ⟨2, ![2048, 64]⟩
abbrev S1x64 : Shape := ⟨2, ![1, 64]⟩
abbrev S1x1 : Shape := ⟨2, ![1, 1]⟩

abbrev nBuf : Space → Nat
  | .hbm => 456
  | .vmem => 0
  | .smem => 0
  | _ => 0

abbrev hbmTy0_0 (i : Nat) : BufTy := match i % 128 with
  | 0 => ⟨S2048, .i32⟩
  | 1 => ⟨S2048, .i32⟩
  | 2 => ⟨S2048x300, .f32⟩
  | 3 => ⟨S2048x1024, .f32⟩
  | 4 => ⟨S10000x1024, .f32⟩
  | 5 => ⟨S2x65536, .i32⟩
  | 6 => ⟨S65536, .f32⟩
  | 7 => ⟨S5000x2812, .f32⟩
  | 8 => ⟨S2x25000, .i32⟩
  | 9 => ⟨S25000, .f32⟩
  | 10 => ⟨S1024x1024, .f32⟩
  | 11 => ⟨S1024, .f32⟩
  | 12 => ⟨S2812x1024, .f32⟩
  | 13 => ⟨S1024, .f32⟩
  | 14 => ⟨S3372x1024, .f32⟩
  | 15 => ⟨S1024, .f32⟩
  | 16 => ⟨S1024, .f32⟩
  | 17 => ⟨S1024, .f32⟩
  | 18 => ⟨S1024x256, .f32⟩
  | 19 => ⟨S256, .f32⟩
  | 20 => ⟨S256, .f32⟩
  | 21 => ⟨S256, .f32⟩
  | 22 => ⟨S256x1024, .f32⟩
  | 23 => ⟨S1024, .f32⟩
  | 24 => ⟨S1024, .f32⟩
  | 25 => ⟨S1024, .f32⟩
  | 26 => ⟨S1024x3372, .f32⟩
  | 27 => ⟨S3372, .f32⟩
  | 28 => ⟨S3372, .f32⟩
  | 29 => ⟨S3372, .f32⟩
  | 30 => ⟨S256x64, .f32⟩
  | 31 => ⟨S64, .f32⟩
  | 32 => ⟨S64, .f32⟩
  | 33 => ⟨S64, .f32⟩
  | 34 => ⟨S64x1, .f32⟩
  | 35 => ⟨S1, .f32⟩
  | 36 => ⟨S10000, .i32⟩
  | 37 => ⟨S1x65536, .i32⟩
  | 38 => ⟨S65536, .i32⟩
  | 39 => ⟨S75536, .i32⟩
  | 40 => ⟨S1x65536, .i32⟩
  | 41 => ⟨S65536, .i32⟩
  | 42 => ⟨S75536, .i32⟩
  | 43 => ⟨S_, .f32⟩
  | 44 => ⟨S10000, .f32⟩
  | 45 => ⟨S75536, .f32⟩
  | 46 => ⟨S_, .f32⟩
  | 47 => ⟨S10000, .f32⟩
  | 48 => ⟨S75536x1, .i32⟩
  | 49 => ⟨S10000, .f32⟩
  | 50 => ⟨S_, .f32⟩
  | 51 => ⟨S10000, .f32⟩
  | 52 => ⟨S10000, .i1⟩
  | 53 => ⟨S10000, .f32⟩
  | 54 => ⟨S_, .f32⟩
  | 55 => ⟨S_, .f32⟩
  | 56 => ⟨S10000, .f32⟩
  | 57 => ⟨S10000, .f32⟩
  | 58 => ⟨S_, .i32⟩
  | 59 => ⟨S75536, .i32⟩
  | 60 => ⟨S75536, .i1⟩
  | 61 => ⟨S_, .i32⟩
  | 62 => ⟨S75536, .i32⟩
  | 63 => ⟨S75536, .i32⟩
  | 64 => ⟨S75536, .i32⟩
  | 65 => ⟨S75536x1, .i32⟩
  | 66 => ⟨S75536, .f32⟩
  | 67 => ⟨S75536, .f32⟩
  | 68 => ⟨S_, .i32⟩
  | 69 => ⟨S75536, .i32⟩
  | 70 => ⟨S75536, .i1⟩
  | 71 => ⟨S_, .i32⟩
  | 72 => ⟨S75536, .i32⟩
  | 73 => ⟨S75536, .i32⟩
  | 74 => ⟨S75536, .i32⟩
  | 75 => ⟨S75536x1, .i32⟩
  | 76 => ⟨S75536, .f32⟩
  | 77 => ⟨S75536, .f32⟩
  | 78 => ⟨S10000x1024, .f32⟩
  | 79 => ⟨S75536x1, .f32⟩
  | 80 => ⟨S_, .i32⟩
  | 81 => ⟨S75536, .i32⟩
  | 82 => ⟨S75536, .i1⟩
  | 83 => ⟨S_, .i32⟩
  | 84 => ⟨S75536, .i32⟩
  | 85 => ⟨S75536, .i32⟩
  | 86 => ⟨S75536, .i32⟩
  | 87 => ⟨S75536x1, .i32⟩
  | 88 => ⟨S75536x1024, .f32⟩
  | 89 => ⟨S75536x1024, .f32⟩
  | 90 => ⟨S75536x1024, .f32⟩
  | 91 => ⟨S_, .f32⟩
  | 92 => ⟨S10000x1024, .f32⟩
  | 93 => ⟨S75536x1, .i32⟩
  | 94 => ⟨S10000x1024, .f32⟩
  | 95 => ⟨S1x1024, .f32⟩
  | 96 => ⟨S10000x1024, .f32⟩
  | 97 => ⟨S10000x1024, .f32⟩
  | 98 => ⟨S_, .f32⟩
  | 99 => ⟨S10000x1024, .f32⟩
  | 100 => ⟨S10000x1024, .i1⟩
  | 101 => ⟨S_, .f32⟩
  | 102 => ⟨S10000x1024, .f32⟩
  | 103 => ⟨S10000x1024, .f32⟩
  | 104 => ⟨S10000x1024, .f32⟩
  | 105 => ⟨S_, .i32⟩
  | 106 => ⟨S2048, .i32⟩
  | 107 => ⟨S2048, .i1⟩
  | 108 => ⟨S_, .i32⟩
  | 109 => ⟨S2048, .i32⟩
  | 110 => ⟨S2048, .i32⟩
  | 111 => ⟨S2048, .i32⟩
  | 112 => ⟨S2048x1, .i32⟩
  | 113 => ⟨S2048x1024, .f32⟩
  | 114 => ⟨S5000, .i32⟩
  | 115 => ⟨S1x25000, .i32⟩
  | 116 => ⟨S25000, .i32⟩
  | 117 => ⟨S30000, .i32⟩
  | 118 => ⟨S1x25000, .i32⟩
  | 119 => ⟨S25000, .i32⟩
  | 120 => ⟨S30000, .i32⟩
  | 121 => ⟨S_, .f32⟩
  | 122 => ⟨S5000, .f32⟩
  | 123 => ⟨S30000, .f32⟩
  | 124 => ⟨S_, .f32⟩
  | 125 => ⟨S5000, .f32⟩
  | 126 => ⟨S30000x1, .i32⟩
  | 127 => ⟨S5000, .f32⟩
  | _ => ⟨S2048, .i32⟩

abbrev hbmTy0_1 (i : Nat) : BufTy := match i % 128 with
  | 0 => ⟨S_, .f32⟩
  | 1 => ⟨S5000, .f32⟩
  | 2 => ⟨S5000, .i1⟩
  | 3 => ⟨S5000, .f32⟩
  | 4 => ⟨S_, .f32⟩
  | 5 => ⟨S_, .f32⟩
  | 6 => ⟨S5000, .f32⟩
  | 7 => ⟨S5000, .f32⟩
  | 8 => ⟨S_, .i32⟩
  | 9 => ⟨S30000, .i32⟩
  | 10 => ⟨S30000, .i1⟩
  | 11 => ⟨S_, .i32⟩
  | 12 => ⟨S30000, .i32⟩
  | 13 => ⟨S30000, .i32⟩
  | 14 => ⟨S30000, .i32⟩
  | 15 => ⟨S30000x1, .i32⟩
  | 16 => ⟨S30000, .f32⟩
  | 17 => ⟨S30000, .f32⟩
  | 18 => ⟨S_, .i32⟩
  | 19 => ⟨S30000, .i32⟩
  | 20 => ⟨S30000, .i1⟩
  | 21 => ⟨S_, .i32⟩
  | 22 => ⟨S30000, .i32⟩
  | 23 => ⟨S30000, .i32⟩
  | 24 => ⟨S30000, .i32⟩
  | 25 => ⟨S30000x1, .i32⟩
  | 26 => ⟨S30000, .f32⟩
  | 27 => ⟨S30000, .f32⟩
  | 28 => ⟨S5000x1024, .f32⟩
  | 29 => ⟨S30000x1, .f32⟩
  | 30 => ⟨S_, .i32⟩
  | 31 => ⟨S30000, .i32⟩
  | 32 => ⟨S30000, .i1⟩
  | 33 => ⟨S_, .i32⟩
  | 34 => ⟨S30000, .i32⟩
  | 35 => ⟨S30000, .i32⟩
  | 36 => ⟨S30000, .i32⟩
  | 37 => ⟨S30000x1, .i32⟩
  | 38 => ⟨S30000x1024, .f32⟩
  | 39 => ⟨S30000x1024, .f32⟩
  | 40 => ⟨S30000x1024, .f32⟩
  | 41 => ⟨S_, .f32⟩
  | 42 => ⟨S5000x1024, .f32⟩
  | 43 => ⟨S30000x1, .i32⟩
  | 44 => ⟨S5000x1024, .f32⟩
  | 45 => ⟨S1x1024, .f32⟩
  | 46 => ⟨S5000x1024, .f32⟩
  | 47 => ⟨S5000x1024, .f32⟩
  | 48 => ⟨S_, .f32⟩
  | 49 => ⟨S5000x1024, .f32⟩
  | 50 => ⟨S5000x1024, .i1⟩
  | 51 => ⟨S_, .f32⟩
  | 52 => ⟨S5000x1024, .f32⟩
  | 53 => ⟨S5000x1024, .f32⟩
  | 54 => ⟨S5000x1024, .f32⟩
  | 55 => ⟨S_, .i32⟩
  | 56 => ⟨S2048, .i32⟩
  | 57 => ⟨S2048, .i1⟩
  | 58 => ⟨S_, .i32⟩
  | 59 => ⟨S2048, .i32⟩
  | 60 => ⟨S2048, .i32⟩
  | 61 => ⟨S2048, .i32⟩
  | 62 => ⟨S2048x1, .i32⟩
  | 63 => ⟨S2048x1024, .f32⟩
  | 64 => ⟨S2048x3372, .f32⟩
  | 65 => ⟨S2048x1024, .f32⟩
  | 66 => ⟨S1x1024, .f32⟩
  | 67 => ⟨S2048x1024, .f32⟩
  | 68 => ⟨S2048x1024, .f32⟩
  | 69 => ⟨S_, .f32⟩
  | 70 => ⟨S1024, .f32⟩
  | 71 => ⟨S_, .f32⟩
  | 72 => ⟨S1024, .f32⟩
  | 73 => ⟨S1024, .f32⟩
  | 74 => ⟨S_, .i32⟩
  | 75 => ⟨S_, .f32⟩
  | 76 => ⟨S1024, .f32⟩
  | 77 => ⟨S1x1024, .f32⟩
  | 78 => ⟨S_, .f32⟩
  | 79 => ⟨S1x1024, .f32⟩
  | 80 => ⟨S1x1024, .f32⟩
  | 81 => ⟨S2048x1024, .f32⟩
  | 82 => ⟨S2048x1024, .f32⟩
  | 83 => ⟨S2048x1024, .f32⟩
  | 84 => ⟨S_, .f32⟩
  | 85 => ⟨S_, .f32⟩
  | 86 => ⟨S_, .f32⟩
  | 87 => ⟨S_, .f32⟩
  | 88 => ⟨S1024, .f32⟩
  | 89 => ⟨S1024, .f32⟩
  | 90 => ⟨S1024, .f32⟩
  | 91 => ⟨S_, .f32⟩
  | 92 => ⟨S_, .i1⟩
  | 93 => ⟨S_, .f32⟩
  | 94 => ⟨S_, .f32⟩
  | 95 => ⟨S1024, .f32⟩
  | 96 => ⟨S1024, .f32⟩
  | 97 => ⟨S1x1024, .f32⟩
  | 98 => ⟨S2048x1024, .f32⟩
  | 99 => ⟨S2048x1024, .f32⟩
  | 100 => ⟨S1x1024, .f32⟩
  | 101 => ⟨S2048x1024, .f32⟩
  | 102 => ⟨S2048x1024, .f32⟩
  | 103 => ⟨S_, .f32⟩
  | 104 => ⟨S1024, .f32⟩
  | 105 => ⟨S1024, .f32⟩
  | 106 => ⟨S1024, .f32⟩
  | 107 => ⟨S1x1024, .f32⟩
  | 108 => ⟨S2048x1024, .f32⟩
  | 109 => ⟨S2048x1024, .f32⟩
  | 110 => ⟨S1x1024, .f32⟩
  | 111 => ⟨S2048x1024, .f32⟩
  | 112 => ⟨S2048x1024, .f32⟩
  | 113 => ⟨S_, .f32⟩
  | 114 => ⟨S2048x1024, .f32⟩
  | 115 => ⟨S2048x1024, .f32⟩
  | 116 => ⟨S2048x256, .f32⟩
  | 117 => ⟨S1x256, .f32⟩
  | 118 => ⟨S2048x256, .f32⟩
  | 119 => ⟨S2048x256, .f32⟩
  | 120 => ⟨S_, .f32⟩
  | 121 => ⟨S256, .f32⟩
  | 122 => ⟨S_, .f32⟩
  | 123 => ⟨S256, .f32⟩
  | 124 => ⟨S256, .f32⟩
  | 125 => ⟨S_, .i32⟩
  | 126 => ⟨S_, .f32⟩
  | 127 => ⟨S256, .f32⟩
  | _ => ⟨S2048, .i32⟩

abbrev hbmTy0_2 (i : Nat) : BufTy := match i % 128 with
  | 0 => ⟨S1x256, .f32⟩
  | 1 => ⟨S_, .f32⟩
  | 2 => ⟨S1x256, .f32⟩
  | 3 => ⟨S1x256, .f32⟩
  | 4 => ⟨S2048x256, .f32⟩
  | 5 => ⟨S2048x256, .f32⟩
  | 6 => ⟨S2048x256, .f32⟩
  | 7 => ⟨S_, .f32⟩
  | 8 => ⟨S_, .f32⟩
  | 9 => ⟨S_, .f32⟩
  | 10 => ⟨S_, .f32⟩
  | 11 => ⟨S256, .f32⟩
  | 12 => ⟨S256, .f32⟩
  | 13 => ⟨S256, .f32⟩
  | 14 => ⟨S_, .f32⟩
  | 15 => ⟨S_, .i1⟩
  | 16 => ⟨S_, .f32⟩
  | 17 => ⟨S_, .f32⟩
  | 18 => ⟨S256, .f32⟩
  | 19 => ⟨S256, .f32⟩
  | 20 => ⟨S1x256, .f32⟩
  | 21 => ⟨S2048x256, .f32⟩
  | 22 => ⟨S2048x256, .f32⟩
  | 23 => ⟨S1x256, .f32⟩
  | 24 => ⟨S2048x256, .f32⟩
  | 25 => ⟨S2048x256, .f32⟩
  | 26 => ⟨S_, .f32⟩
  | 27 => ⟨S256, .f32⟩
  | 28 => ⟨S256, .f32⟩
  | 29 => ⟨S256, .f32⟩
  | 30 => ⟨S1x256, .f32⟩
  | 31 => ⟨S2048x256, .f32⟩
  | 32 => ⟨S2048x256, .f32⟩
  | 33 => ⟨S1x256, .f32⟩
  | 34 => ⟨S2048x256, .f32⟩
  | 35 => ⟨S2048x256, .f32⟩
  | 36 => ⟨S_, .f32⟩
  | 37 => ⟨S2048x256, .f32⟩
  | 38 => ⟨S2048x256, .f32⟩
  | 39 => ⟨S2048x1024, .f32⟩
  | 40 => ⟨S1x1024, .f32⟩
  | 41 => ⟨S2048x1024, .f32⟩
  | 42 => ⟨S2048x1024, .f32⟩
  | 43 => ⟨S_, .f32⟩
  | 44 => ⟨S1024, .f32⟩
  | 45 => ⟨S_, .f32⟩
  | 46 => ⟨S1024, .f32⟩
  | 47 => ⟨S1024, .f32⟩
  | 48 => ⟨S_, .i32⟩
  | 49 => ⟨S_, .f32⟩
  | 50 => ⟨S1024, .f32⟩
  | 51 => ⟨S1x1024, .f32⟩
  | 52 => ⟨S_, .f32⟩
  | 53 => ⟨S1x1024, .f32⟩
  | 54 => ⟨S1x1024, .f32⟩
  | 55 => ⟨S2048x1024, .f32⟩
  | 56 => ⟨S2048x1024, .f32⟩
  | 57 => ⟨S2048x1024, .f32⟩
  | 58 => ⟨S_, .f32⟩
  | 59 => ⟨S_, .f32⟩
  | 60 => ⟨S_, .f32⟩
  | 61 => ⟨S_, .f32⟩
  | 62 => ⟨S1024, .f32⟩
  | 63 => ⟨S1024, .f32⟩
  | 64 => ⟨S1024, .f32⟩
  | 65 => ⟨S_, .f32⟩
  | 66 => ⟨S_, .i1⟩
  | 67 => ⟨S_, .f32⟩
  | 68 => ⟨S_, .f32⟩
  | 69 => ⟨S1024, .f32⟩
  | 70 => ⟨S1024, .f32⟩
  | 71 => ⟨S1x1024, .f32⟩
  | 72 => ⟨S2048x1024, .f32⟩
  | 73 => ⟨S2048x1024, .f32⟩
  | 74 => ⟨S1x1024, .f32⟩
  | 75 => ⟨S2048x1024, .f32⟩
  | 76 => ⟨S2048x1024, .f32⟩
  | 77 => ⟨S_, .f32⟩
  | 78 => ⟨S1024, .f32⟩
  | 79 => ⟨S1024, .f32⟩
  | 80 => ⟨S1024, .f32⟩
  | 81 => ⟨S1x1024, .f32⟩
  | 82 => ⟨S2048x1024, .f32⟩
  | 83 => ⟨S2048x1024, .f32⟩
  | 84 => ⟨S1x1024, .f32⟩
  | 85 => ⟨S2048x1024, .f32⟩
  | 86 => ⟨S2048x1024, .f32⟩
  | 87 => ⟨S_, .f32⟩
  | 88 => ⟨S2048x1024, .f32⟩
  | 89 => ⟨S2048x1024, .f32⟩
  | 90 => ⟨S2048x3372, .f32⟩
  | 91 => ⟨S1x3372, .f32⟩
  | 92 => ⟨S2048x3372, .f32⟩
  | 93 => ⟨S2048x3372, .f32⟩
  | 94 => ⟨S_, .f32⟩
  | 95 => ⟨S3372, .f32⟩
  | 96 => ⟨S_, .f32⟩
  | 97 => ⟨S3372, .f32⟩
  | 98 => ⟨S3372, .f32⟩
  | 99 => ⟨S_, .i32⟩
  | 100 => ⟨S_, .f32⟩
  | 101 => ⟨S3372, .f32⟩
  | 102 => ⟨S1x3372, .f32⟩
  | 103 => ⟨S_, .f32⟩
  | 104 => ⟨S1x3372, .f32⟩
  | 105 => ⟨S1x3372, .f32⟩
  | 106 => ⟨S2048x3372, .f32⟩
  | 107 => ⟨S2048x3372, .f32⟩
  | 108 => ⟨S2048x3372, .f32⟩
  | 109 => ⟨S_, .f32⟩
  | 110 => ⟨S_, .f32⟩
  | 111 => ⟨S_, .f32⟩
  | 112 => ⟨S_, .f32⟩
  | 113 => ⟨S3372, .f32⟩
  | 114 => ⟨S3372, .f32⟩
  | 115 => ⟨S3372, .f32⟩
  | 116 => ⟨S_, .f32⟩
  | 117 => ⟨S_, .i1⟩
  | 118 => ⟨S_, .f32⟩
  | 119 => ⟨S_, .f32⟩
  | 120 => ⟨S3372, .f32⟩
  | 121 => ⟨S3372, .f32⟩
  | 122 => ⟨S1x3372, .f32⟩
  | 123 => ⟨S2048x3372, .f32⟩
  | 124 => ⟨S2048x3372, .f32⟩
  | 125 => ⟨S1x3372, .f32⟩
  | 126 => ⟨S2048x3372, .f32⟩
  | 127 => ⟨S2048x3372, .f32⟩
  | _ => ⟨S2048, .i32⟩

abbrev hbmTy0_3 (i : Nat) : BufTy := match i % 128 with
  | 0 => ⟨S_, .f32⟩
  | 1 => ⟨S3372, .f32⟩
  | 2 => ⟨S3372, .f32⟩
  | 3 => ⟨S3372, .f32⟩
  | 4 => ⟨S1x3372, .f32⟩
  | 5 => ⟨S2048x3372, .f32⟩
  | 6 => ⟨S2048x3372, .f32⟩
  | 7 => ⟨S1x3372, .f32⟩
  | 8 => ⟨S2048x3372, .f32⟩
  | 9 => ⟨S2048x3372, .f32⟩
  | 10 => ⟨S_, .f32⟩
  | 11 => ⟨S2048x3372, .f32⟩
  | 12 => ⟨S2048x3372, .f32⟩
  | 13 => ⟨S2048x64, .f32⟩
  | 14 => ⟨S1x64, .f32⟩
  | 15 => ⟨S2048x64, .f32⟩
  | 16 => ⟨S2048x64, .f32⟩
  | 17 => ⟨S_, .f32⟩
  | 18 => ⟨S64, .f32⟩
  | 19 => ⟨S_, .f32⟩
  | 20 => ⟨S64, .f32⟩
  | 21 => ⟨S64, .f32⟩
  | 22 => ⟨S_, .i32⟩
  | 23 => ⟨S_, .f32⟩
  | 24 => ⟨S64, .f32⟩
  | 25 => ⟨S1x64, .f32⟩
  | 26 => ⟨S_, .f32⟩
  | 27 => ⟨S1x64, .f32⟩
  | 28 => ⟨S1x64, .f32⟩
  | 29 => ⟨S2048x64, .f32⟩
  | 30 => ⟨S2048x64, .f32⟩
  | 31 => ⟨S2048x64, .f32⟩
  | 32 => ⟨S_, .f32⟩
  | 33 => ⟨S_, .f32⟩
  | 34 => ⟨S_, .f32⟩
  | 35 => ⟨S_, .f32⟩
  | 36 => ⟨S64, .f32⟩
  | 37 => ⟨S64, .f32⟩
  | 38 => ⟨S64, .f32⟩
  | 39 => ⟨S_, .f32⟩
  | 40 => ⟨S_, .i1⟩
  | 41 => ⟨S_, .f32⟩
  | 42 => ⟨S_, .f32⟩
  | 43 => ⟨S64, .f32⟩
  | 44 => ⟨S64, .f32⟩
  | 45 => ⟨S1x64, .f32⟩
  | 46 => ⟨S2048x64, .f32⟩
  | 47 => ⟨S2048x64, .f32⟩
  | 48 => ⟨S1x64, .f32⟩
  | 49 => ⟨S2048x64, .f32⟩
  | 50 => ⟨S2048x64, .f32⟩
  | 51 => ⟨S_, .f32⟩
  | 52 => ⟨S64, .f32⟩
  | 53 => ⟨S64, .f32⟩
  | 54 => ⟨S64, .f32⟩
  | 55 => ⟨S1x64, .f32⟩
  | 56 => ⟨S2048x64, .f32⟩
  | 57 => ⟨S2048x64, .f32⟩
  | 58 => ⟨S1x64, .f32⟩
  | 59 => ⟨S2048x64, .f32⟩
  | 60 => ⟨S2048x64, .f32⟩
  | 61 => ⟨S_, .f32⟩
  | 62 => ⟨S2048x64, .f32⟩
  | 63 => ⟨S2048x64, .i1⟩
  | 64 => ⟨S_, .f32⟩
  | 65 => ⟨S2048x64, .f32⟩
  | 66 => ⟨S2048x64, .f32⟩
  | 67 => ⟨S2048x64, .f32⟩
  | 68 => ⟨S2048x1, .f32⟩
  | 69 => ⟨S1x1, .f32⟩
  | 70 => ⟨S2048x1, .f32⟩
  | 71 => ⟨S2048x1, .f32⟩
  | _ => ⟨S2048, .i32⟩

abbrev hbmTy (i : Nat) : BufTy := match i / 128 with
  | 0 => hbmTy0_0 i
  | 1 => hbmTy0_1 i
  | 2 => hbmTy0_2 i
  | 3 => hbmTy0_3 i
  | _ => ⟨S2048, .i32⟩

abbrev bufTy : (tb : Table) → Fin (tcTables nBuf tb) → BufTy
  | .hbm, ⟨i, _⟩ => hbmTy i
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst : Ref sig .tc := ⟨.hbm, 43, rfl⟩
abbrev main_v7 : Ref sig .tc := ⟨.hbm, 44, rfl⟩
abbrev main_v8 : Ref sig .tc := ⟨.hbm, 45, rfl⟩
abbrev main_cst_0 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_1 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst_2 : Ref sig .tc := ⟨.hbm, 54, rfl⟩
abbrev main_call0_v0 : Ref sig .tc := ⟨.hbm, 55, rfl⟩
abbrev main_call0_v1 : Ref sig .tc := ⟨.hbm, 56, rfl⟩
abbrev main_v15 : Ref sig .tc := ⟨.hbm, 57, rfl⟩
abbrev main_c : Ref sig .tc := ⟨.hbm, 58, rfl⟩
abbrev main_v16 : Ref sig .tc := ⟨.hbm, 59, rfl⟩
abbrev main_v17 : Ref sig .tc := ⟨.hbm, 60, rfl⟩
abbrev main_c_3 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_c_4 : Ref sig .tc := ⟨.hbm, 68, rfl⟩
abbrev main_v24 : Ref sig .tc := ⟨.hbm, 69, rfl⟩
abbrev main_v25 : Ref sig .tc := ⟨.hbm, 70, rfl⟩
abbrev main_c_5 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_c_6 : Ref sig .tc := ⟨.hbm, 80, rfl⟩
abbrev main_v34 : Ref sig .tc := ⟨.hbm, 81, rfl⟩
abbrev main_v35 : Ref sig .tc := ⟨.hbm, 82, rfl⟩
abbrev main_c_7 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_8 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_9 : Ref sig .tc := ⟨.hbm, 98, rfl⟩
abbrev main_v49 : Ref sig .tc := ⟨.hbm, 99, rfl⟩
abbrev main_v50 : Ref sig .tc := ⟨.hbm, 100, rfl⟩
abbrev main_cst_10 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_c_11 : Ref sig .tc := ⟨.hbm, 105, rfl⟩
abbrev main_v54 : Ref sig .tc := ⟨.hbm, 106, rfl⟩
abbrev main_v55 : Ref sig .tc := ⟨.hbm, 107, rfl⟩
abbrev main_c_12 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_13 : Ref sig .tc := ⟨.hbm, 121, rfl⟩
abbrev main_v68 : Ref sig .tc := ⟨.hbm, 122, rfl⟩
abbrev main_v69 : Ref sig .tc := ⟨.hbm, 123, rfl⟩
abbrev main_cst_14 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_15 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_16 : Ref sig .tc := ⟨.hbm, 132, rfl⟩
abbrev main_call2_v0 : Ref sig .tc := ⟨.hbm, 133, rfl⟩
abbrev main_call2_v1 : Ref sig .tc := ⟨.hbm, 134, rfl⟩
abbrev main_v76 : Ref sig .tc := ⟨.hbm, 135, rfl⟩
abbrev main_c_17 : Ref sig .tc := ⟨.hbm, 136, rfl⟩
abbrev main_v77 : Ref sig .tc := ⟨.hbm, 137, rfl⟩
abbrev main_v78 : Ref sig .tc := ⟨.hbm, 138, rfl⟩
abbrev main_c_18 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_c_19 : Ref sig .tc := ⟨.hbm, 146, rfl⟩
abbrev main_v85 : Ref sig .tc := ⟨.hbm, 147, rfl⟩
abbrev main_v86 : Ref sig .tc := ⟨.hbm, 148, rfl⟩
abbrev main_c_20 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_c_21 : Ref sig .tc := ⟨.hbm, 158, rfl⟩
abbrev main_v95 : Ref sig .tc := ⟨.hbm, 159, rfl⟩
abbrev main_v96 : Ref sig .tc := ⟨.hbm, 160, rfl⟩
abbrev main_c_22 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_23 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_cst_24 : Ref sig .tc := ⟨.hbm, 176, rfl⟩
abbrev main_v110 : Ref sig .tc := ⟨.hbm, 177, rfl⟩
abbrev main_v111 : Ref sig .tc := ⟨.hbm, 178, rfl⟩
abbrev main_cst_25 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_c_26 : Ref sig .tc := ⟨.hbm, 183, rfl⟩
abbrev main_v115 : Ref sig .tc := ⟨.hbm, 184, rfl⟩
abbrev main_v116 : Ref sig .tc := ⟨.hbm, 185, rfl⟩
abbrev main_c_27 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_cst_28 : Ref sig .tc := ⟨.hbm, 197, rfl⟩
abbrev main_v127 : Ref sig .tc := ⟨.hbm, 198, rfl⟩
abbrev main_cst_29 : Ref sig .tc := ⟨.hbm, 199, rfl⟩
abbrev main_v128 : Ref sig .tc := ⟨.hbm, 200, rfl⟩
abbrev main_v129 : Ref sig .tc := ⟨.hbm, 201, rfl⟩
abbrev main_c_30 : Ref sig .tc := ⟨.hbm, 202, rfl⟩
abbrev main_call4_cst : Ref sig .tc := ⟨.hbm, 203, rfl⟩
abbrev main_call4_v0 : Ref sig .tc := ⟨.hbm, 204, rfl⟩
abbrev main_call4_v1 : Ref sig .tc := ⟨.hbm, 205, rfl⟩
abbrev main_call4_cst_0 : Ref sig .tc := ⟨.hbm, 206, rfl⟩
abbrev main_call4_v2 : Ref sig .tc := ⟨.hbm, 207, rfl⟩
abbrev main_call4_v3 : Ref sig .tc := ⟨.hbm, 208, rfl⟩
abbrev main_call4_v4 : Ref sig .tc := ⟨.hbm, 209, rfl⟩
abbrev main_call4_v5 : Ref sig .tc := ⟨.hbm, 210, rfl⟩
abbrev main_call4_v6 : Ref sig .tc := ⟨.hbm, 211, rfl⟩
abbrev main_call4_v7 : Ref sig .tc := ⟨.hbm, 212, rfl⟩
abbrev main_call4_cst_1 : Ref sig .tc := ⟨.hbm, 213, rfl⟩
abbrev main_call4_v8 : Ref sig .tc := ⟨.hbm, 214, rfl⟩
abbrev main_call4_cst_2 : Ref sig .tc := ⟨.hbm, 215, rfl⟩
abbrev main_call4_v9 : Ref sig .tc := ⟨.hbm, 216, rfl⟩
abbrev main_call4_v10 : Ref sig .tc := ⟨.hbm, 217, rfl⟩
abbrev main_call4_v11 : Ref sig .tc := ⟨.hbm, 218, rfl⟩
abbrev main_call4_cst_3 : Ref sig .tc := ⟨.hbm, 219, rfl⟩
abbrev main_call4_v12 : Ref sig .tc := ⟨.hbm, 220, rfl⟩
abbrev main_call4_cst_4 : Ref sig .tc := ⟨.hbm, 221, rfl⟩
abbrev main_call4_call0_v0 : Ref sig .tc := ⟨.hbm, 222, rfl⟩
abbrev main_call4_call0_v1 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_cst_31 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_call5_cst : Ref sig .tc := ⟨.hbm, 241, rfl⟩
abbrev main_call5_v0 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_cst_32 : Ref sig .tc := ⟨.hbm, 248, rfl⟩
abbrev main_v151 : Ref sig .tc := ⟨.hbm, 249, rfl⟩
abbrev main_cst_33 : Ref sig .tc := ⟨.hbm, 250, rfl⟩
abbrev main_v152 : Ref sig .tc := ⟨.hbm, 251, rfl⟩
abbrev main_v153 : Ref sig .tc := ⟨.hbm, 252, rfl⟩
abbrev main_c_34 : Ref sig .tc := ⟨.hbm, 253, rfl⟩
abbrev main_call6_cst : Ref sig .tc := ⟨.hbm, 254, rfl⟩
abbrev main_call6_v0 : Ref sig .tc := ⟨.hbm, 255, rfl⟩
abbrev main_call6_v1 : Ref sig .tc := ⟨.hbm, 256, rfl⟩
abbrev main_call6_cst_0 : Ref sig .tc := ⟨.hbm, 257, rfl⟩
abbrev main_call6_v2 : Ref sig .tc := ⟨.hbm, 258, rfl⟩
abbrev main_call6_v3 : Ref sig .tc := ⟨.hbm, 259, rfl⟩
abbrev main_call6_v4 : Ref sig .tc := ⟨.hbm, 260, rfl⟩
abbrev main_call6_v5 : Ref sig .tc := ⟨.hbm, 261, rfl⟩
abbrev main_call6_v6 : Ref sig .tc := ⟨.hbm, 262, rfl⟩
abbrev main_call6_v7 : Ref sig .tc := ⟨.hbm, 263, rfl⟩
abbrev main_call6_cst_1 : Ref sig .tc := ⟨.hbm, 264, rfl⟩
abbrev main_call6_v8 : Ref sig .tc := ⟨.hbm, 265, rfl⟩
abbrev main_call6_cst_2 : Ref sig .tc := ⟨.hbm, 266, rfl⟩
abbrev main_call6_v9 : Ref sig .tc := ⟨.hbm, 267, rfl⟩
abbrev main_call6_v10 : Ref sig .tc := ⟨.hbm, 268, rfl⟩
abbrev main_call6_v11 : Ref sig .tc := ⟨.hbm, 269, rfl⟩
abbrev main_call6_cst_3 : Ref sig .tc := ⟨.hbm, 270, rfl⟩
abbrev main_call6_v12 : Ref sig .tc := ⟨.hbm, 271, rfl⟩
abbrev main_call6_cst_4 : Ref sig .tc := ⟨.hbm, 272, rfl⟩
abbrev main_call6_call0_v0 : Ref sig .tc := ⟨.hbm, 273, rfl⟩
abbrev main_call6_call0_v1 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_v157 : Ref sig .tc := ⟨.hbm, 278, rfl⟩
abbrev main_v158 : Ref sig .tc := ⟨.hbm, 279, rfl⟩
abbrev main_v159 : Ref sig .tc := ⟨.hbm, 280, rfl⟩
abbrev main_v160 : Ref sig .tc := ⟨.hbm, 281, rfl⟩
abbrev main_cst_35 : Ref sig .tc := ⟨.hbm, 282, rfl⟩
abbrev main_v161 : Ref sig .tc := ⟨.hbm, 283, rfl⟩
abbrev main_v162 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_v166 : Ref sig .tc := ⟨.hbm, 288, rfl⟩
abbrev main_v167 : Ref sig .tc := ⟨.hbm, 289, rfl⟩
abbrev main_v168 : Ref sig .tc := ⟨.hbm, 290, rfl⟩
abbrev main_v169 : Ref sig .tc := ⟨.hbm, 291, rfl⟩
abbrev main_call7_cst : Ref sig .tc := ⟨.hbm, 292, rfl⟩
abbrev main_call7_v0 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_v174 : Ref sig .tc := ⟨.hbm, 298, rfl⟩
abbrev main_cst_36 : Ref sig .tc := ⟨.hbm, 299, rfl⟩
abbrev main_v175 : Ref sig .tc := ⟨.hbm, 300, rfl⟩
abbrev main_cst_37 : Ref sig .tc := ⟨.hbm, 301, rfl⟩
abbrev main_v176 : Ref sig .tc := ⟨.hbm, 302, rfl⟩
abbrev main_v177 : Ref sig .tc := ⟨.hbm, 303, rfl⟩
abbrev main_c_38 : Ref sig .tc := ⟨.hbm, 304, rfl⟩
abbrev main_call8_cst : Ref sig .tc := ⟨.hbm, 305, rfl⟩
abbrev main_call8_v0 : Ref sig .tc := ⟨.hbm, 306, rfl⟩
abbrev main_call8_v1 : Ref sig .tc := ⟨.hbm, 307, rfl⟩
abbrev main_call8_cst_0 : Ref sig .tc := ⟨.hbm, 308, rfl⟩
abbrev main_call8_v2 : Ref sig .tc := ⟨.hbm, 309, rfl⟩
abbrev main_call8_v3 : Ref sig .tc := ⟨.hbm, 310, rfl⟩
abbrev main_call8_v4 : Ref sig .tc := ⟨.hbm, 311, rfl⟩
abbrev main_call8_v5 : Ref sig .tc := ⟨.hbm, 312, rfl⟩
abbrev main_call8_v6 : Ref sig .tc := ⟨.hbm, 313, rfl⟩
abbrev main_call8_v7 : Ref sig .tc := ⟨.hbm, 314, rfl⟩
abbrev main_call8_cst_1 : Ref sig .tc := ⟨.hbm, 315, rfl⟩
abbrev main_call8_v8 : Ref sig .tc := ⟨.hbm, 316, rfl⟩
abbrev main_call8_cst_2 : Ref sig .tc := ⟨.hbm, 317, rfl⟩
abbrev main_call8_v9 : Ref sig .tc := ⟨.hbm, 318, rfl⟩
abbrev main_call8_v10 : Ref sig .tc := ⟨.hbm, 319, rfl⟩
abbrev main_call8_v11 : Ref sig .tc := ⟨.hbm, 320, rfl⟩
abbrev main_call8_cst_3 : Ref sig .tc := ⟨.hbm, 321, rfl⟩
abbrev main_call8_v12 : Ref sig .tc := ⟨.hbm, 322, rfl⟩
abbrev main_call8_cst_4 : Ref sig .tc := ⟨.hbm, 323, rfl⟩
abbrev main_call8_call0_v0 : Ref sig .tc := ⟨.hbm, 324, rfl⟩
abbrev main_call8_call0_v1 : Ref sig .tc := ⟨.hbm, 325, rfl⟩
abbrev main_v178 : Ref sig .tc := ⟨.hbm, 326, rfl⟩
abbrev main_v179 : Ref sig .tc := ⟨.hbm, 327, rfl⟩
abbrev main_v180 : Ref sig .tc := ⟨.hbm, 328, rfl⟩
abbrev main_v181 : Ref sig .tc := ⟨.hbm, 329, rfl⟩
abbrev main_v182 : Ref sig .tc := ⟨.hbm, 330, rfl⟩
abbrev main_v183 : Ref sig .tc := ⟨.hbm, 331, rfl⟩
abbrev main_v184 : Ref sig .tc := ⟨.hbm, 332, rfl⟩
abbrev main_cst_39 : Ref sig .tc := ⟨.hbm, 333, rfl⟩
abbrev main_v185 : Ref sig .tc := ⟨.hbm, 334, rfl⟩
abbrev main_v186 : Ref sig .tc := ⟨.hbm, 335, rfl⟩
abbrev main_v187 : Ref sig .tc := ⟨.hbm, 336, rfl⟩
abbrev main_v188 : Ref sig .tc := ⟨.hbm, 337, rfl⟩
abbrev main_v189 : Ref sig .tc := ⟨.hbm, 338, rfl⟩
abbrev main_v190 : Ref sig .tc := ⟨.hbm, 339, rfl⟩
abbrev main_v191 : Ref sig .tc := ⟨.hbm, 340, rfl⟩
abbrev main_v192 : Ref sig .tc := ⟨.hbm, 341, rfl⟩
abbrev main_v193 : Ref sig .tc := ⟨.hbm, 342, rfl⟩
abbrev main_call9_cst : Ref sig .tc := ⟨.hbm, 343, rfl⟩
abbrev main_call9_v0 : Ref sig .tc := ⟨.hbm, 344, rfl⟩
abbrev main_v194 : Ref sig .tc := ⟨.hbm, 345, rfl⟩
abbrev main_v195 : Ref sig .tc := ⟨.hbm, 346, rfl⟩
abbrev main_v196 : Ref sig .tc := ⟨.hbm, 347, rfl⟩
abbrev main_v197 : Ref sig .tc := ⟨.hbm, 348, rfl⟩
abbrev main_v198 : Ref sig .tc := ⟨.hbm, 349, rfl⟩
abbrev main_cst_40 : Ref sig .tc := ⟨.hbm, 350, rfl⟩
abbrev main_v199 : Ref sig .tc := ⟨.hbm, 351, rfl⟩
abbrev main_cst_41 : Ref sig .tc := ⟨.hbm, 352, rfl⟩
abbrev main_v200 : Ref sig .tc := ⟨.hbm, 353, rfl⟩
abbrev main_v201 : Ref sig .tc := ⟨.hbm, 354, rfl⟩
abbrev main_c_42 : Ref sig .tc := ⟨.hbm, 355, rfl⟩
abbrev main_call10_cst : Ref sig .tc := ⟨.hbm, 356, rfl⟩
abbrev main_call10_v0 : Ref sig .tc := ⟨.hbm, 357, rfl⟩
abbrev main_call10_v1 : Ref sig .tc := ⟨.hbm, 358, rfl⟩
abbrev main_call10_cst_0 : Ref sig .tc := ⟨.hbm, 359, rfl⟩
abbrev main_call10_v2 : Ref sig .tc := ⟨.hbm, 360, rfl⟩
abbrev main_call10_v3 : Ref sig .tc := ⟨.hbm, 361, rfl⟩
abbrev main_call10_v4 : Ref sig .tc := ⟨.hbm, 362, rfl⟩
abbrev main_call10_v5 : Ref sig .tc := ⟨.hbm, 363, rfl⟩
abbrev main_call10_v6 : Ref sig .tc := ⟨.hbm, 364, rfl⟩
abbrev main_call10_v7 : Ref sig .tc := ⟨.hbm, 365, rfl⟩
abbrev main_call10_cst_1 : Ref sig .tc := ⟨.hbm, 366, rfl⟩
abbrev main_call10_v8 : Ref sig .tc := ⟨.hbm, 367, rfl⟩
abbrev main_call10_cst_2 : Ref sig .tc := ⟨.hbm, 368, rfl⟩
abbrev main_call10_v9 : Ref sig .tc := ⟨.hbm, 369, rfl⟩
abbrev main_call10_v10 : Ref sig .tc := ⟨.hbm, 370, rfl⟩
abbrev main_call10_v11 : Ref sig .tc := ⟨.hbm, 371, rfl⟩
abbrev main_call10_cst_3 : Ref sig .tc := ⟨.hbm, 372, rfl⟩
abbrev main_call10_v12 : Ref sig .tc := ⟨.hbm, 373, rfl⟩
abbrev main_call10_cst_4 : Ref sig .tc := ⟨.hbm, 374, rfl⟩
abbrev main_call10_call0_v0 : Ref sig .tc := ⟨.hbm, 375, rfl⟩
abbrev main_call10_call0_v1 : Ref sig .tc := ⟨.hbm, 376, rfl⟩
abbrev main_v202 : Ref sig .tc := ⟨.hbm, 377, rfl⟩
abbrev main_v203 : Ref sig .tc := ⟨.hbm, 378, rfl⟩
abbrev main_v204 : Ref sig .tc := ⟨.hbm, 379, rfl⟩
abbrev main_v205 : Ref sig .tc := ⟨.hbm, 380, rfl⟩
abbrev main_v206 : Ref sig .tc := ⟨.hbm, 381, rfl⟩
abbrev main_v207 : Ref sig .tc := ⟨.hbm, 382, rfl⟩
abbrev main_v208 : Ref sig .tc := ⟨.hbm, 383, rfl⟩
abbrev main_cst_43 : Ref sig .tc := ⟨.hbm, 384, rfl⟩
abbrev main_v209 : Ref sig .tc := ⟨.hbm, 385, rfl⟩
abbrev main_v210 : Ref sig .tc := ⟨.hbm, 386, rfl⟩
abbrev main_v211 : Ref sig .tc := ⟨.hbm, 387, rfl⟩
abbrev main_v212 : Ref sig .tc := ⟨.hbm, 388, rfl⟩
abbrev main_v213 : Ref sig .tc := ⟨.hbm, 389, rfl⟩
abbrev main_v214 : Ref sig .tc := ⟨.hbm, 390, rfl⟩
abbrev main_v215 : Ref sig .tc := ⟨.hbm, 391, rfl⟩
abbrev main_v216 : Ref sig .tc := ⟨.hbm, 392, rfl⟩
abbrev main_v217 : Ref sig .tc := ⟨.hbm, 393, rfl⟩
abbrev main_call11_cst : Ref sig .tc := ⟨.hbm, 394, rfl⟩
abbrev main_call11_v0 : Ref sig .tc := ⟨.hbm, 395, rfl⟩
abbrev main_v218 : Ref sig .tc := ⟨.hbm, 396, rfl⟩
abbrev main_v219 : Ref sig .tc := ⟨.hbm, 397, rfl⟩
abbrev main_v220 : Ref sig .tc := ⟨.hbm, 398, rfl⟩
abbrev main_v221 : Ref sig .tc := ⟨.hbm, 399, rfl⟩
abbrev main_v222 : Ref sig .tc := ⟨.hbm, 400, rfl⟩
abbrev main_cst_44 : Ref sig .tc := ⟨.hbm, 401, rfl⟩
abbrev main_v223 : Ref sig .tc := ⟨.hbm, 402, rfl⟩
abbrev main_cst_45 : Ref sig .tc := ⟨.hbm, 403, rfl⟩
abbrev main_v224 : Ref sig .tc := ⟨.hbm, 404, rfl⟩
abbrev main_v225 : Ref sig .tc := ⟨.hbm, 405, rfl⟩
abbrev main_c_46 : Ref sig .tc := ⟨.hbm, 406, rfl⟩
abbrev main_call12_cst : Ref sig .tc := ⟨.hbm, 407, rfl⟩
abbrev main_call12_v0 : Ref sig .tc := ⟨.hbm, 408, rfl⟩
abbrev main_call12_v1 : Ref sig .tc := ⟨.hbm, 409, rfl⟩
abbrev main_call12_cst_0 : Ref sig .tc := ⟨.hbm, 410, rfl⟩
abbrev main_call12_v2 : Ref sig .tc := ⟨.hbm, 411, rfl⟩
abbrev main_call12_v3 : Ref sig .tc := ⟨.hbm, 412, rfl⟩
abbrev main_call12_v4 : Ref sig .tc := ⟨.hbm, 413, rfl⟩
abbrev main_call12_v5 : Ref sig .tc := ⟨.hbm, 414, rfl⟩
abbrev main_call12_v6 : Ref sig .tc := ⟨.hbm, 415, rfl⟩
abbrev main_call12_v7 : Ref sig .tc := ⟨.hbm, 416, rfl⟩
abbrev main_call12_cst_1 : Ref sig .tc := ⟨.hbm, 417, rfl⟩
abbrev main_call12_v8 : Ref sig .tc := ⟨.hbm, 418, rfl⟩
abbrev main_call12_cst_2 : Ref sig .tc := ⟨.hbm, 419, rfl⟩
abbrev main_call12_v9 : Ref sig .tc := ⟨.hbm, 420, rfl⟩
abbrev main_call12_v10 : Ref sig .tc := ⟨.hbm, 421, rfl⟩
abbrev main_call12_v11 : Ref sig .tc := ⟨.hbm, 422, rfl⟩
abbrev main_call12_cst_3 : Ref sig .tc := ⟨.hbm, 423, rfl⟩
abbrev main_call12_v12 : Ref sig .tc := ⟨.hbm, 424, rfl⟩
abbrev main_call12_cst_4 : Ref sig .tc := ⟨.hbm, 425, rfl⟩
abbrev main_call12_call0_v0 : Ref sig .tc := ⟨.hbm, 426, rfl⟩
abbrev main_call12_call0_v1 : Ref sig .tc := ⟨.hbm, 427, rfl⟩
abbrev main_v226 : Ref sig .tc := ⟨.hbm, 428, rfl⟩
abbrev main_v227 : Ref sig .tc := ⟨.hbm, 429, rfl⟩
abbrev main_v228 : Ref sig .tc := ⟨.hbm, 430, rfl⟩
abbrev main_v229 : Ref sig .tc := ⟨.hbm, 431, rfl⟩
abbrev main_v230 : Ref sig .tc := ⟨.hbm, 432, rfl⟩
abbrev main_v231 : Ref sig .tc := ⟨.hbm, 433, rfl⟩
abbrev main_v232 : Ref sig .tc := ⟨.hbm, 434, rfl⟩
abbrev main_cst_47 : Ref sig .tc := ⟨.hbm, 435, rfl⟩
abbrev main_v233 : Ref sig .tc := ⟨.hbm, 436, rfl⟩
abbrev main_v234 : Ref sig .tc := ⟨.hbm, 437, rfl⟩
abbrev main_v235 : Ref sig .tc := ⟨.hbm, 438, rfl⟩
abbrev main_v236 : Ref sig .tc := ⟨.hbm, 439, rfl⟩
abbrev main_v237 : Ref sig .tc := ⟨.hbm, 440, rfl⟩
abbrev main_v238 : Ref sig .tc := ⟨.hbm, 441, rfl⟩
abbrev main_v239 : Ref sig .tc := ⟨.hbm, 442, rfl⟩
abbrev main_v240 : Ref sig .tc := ⟨.hbm, 443, rfl⟩
abbrev main_v241 : Ref sig .tc := ⟨.hbm, 444, rfl⟩
abbrev main_cst_48 : Ref sig .tc := ⟨.hbm, 445, rfl⟩
abbrev main_v242 : Ref sig .tc := ⟨.hbm, 446, rfl⟩
abbrev main_v243 : Ref sig .tc := ⟨.hbm, 447, rfl⟩
abbrev main_cst_49 : Ref sig .tc := ⟨.hbm, 448, rfl⟩
abbrev main_v244 : Ref sig .tc := ⟨.hbm, 449, rfl⟩
abbrev main_v245 : Ref sig .tc := ⟨.hbm, 450, rfl⟩
abbrev main_v246 : Ref sig .tc := ⟨.hbm, 451, rfl⟩
abbrev main_v247 : Ref sig .tc := ⟨.hbm, 452, rfl⟩
abbrev main_v248 : Ref sig .tc := ⟨.hbm, 453, rfl⟩
abbrev main_v249 : Ref sig .tc := ⟨.hbm, 454, rfl⟩
abbrev main_v250 : Ref sig .tc := ⟨.hbm, 455, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  concatenates_S65536_S10000_S75536_d0 : Shape.Concatenates [S65536, S10000] S75536 0
  slices_S2x65536_S1x65536_1_0 : S2x65536.Slices ![1, 0] S1x65536
  bcast_S_S10000 : S_.BroadcastsInDim S10000 (![] : Fin 0 → Fin S10000.rank)
  bcast_S75536_S75536x1_0 : S75536.BroadcastsInDim S75536x1 (![0] : Fin 1 → Fin S75536x1.rank)
  bcast_S_S75536 : S_.BroadcastsInDim S75536 (![] : Fin 0 → Fin S75536.rank)
  bcast_S75536x1_S75536x1024_0_1 : S75536x1.BroadcastsInDim S75536x1024 (![0, 1] : Fin 2 → Fin S75536x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S_S2048 : S_.BroadcastsInDim S2048 (![] : Fin 0 → Fin S2048.rank)
  bcast_S2048_S2048x1_0 : S2048.BroadcastsInDim S2048x1 (![0] : Fin 1 → Fin S2048x1.rank)
  slices_S2x25000_S1x25000_0_0 : S2x25000.Slices ![0, 0] S1x25000
  shapeCasts_S1x25000_S25000 : S1x25000.ShapeCasts S25000
  concatenates_S25000_S5000_S30000_d0 : Shape.Concatenates [S25000, S5000] S30000 0
  slices_S2x25000_S1x25000_1_0 : S2x25000.Slices ![1, 0] S1x25000
  bcast_S_S5000 : S_.BroadcastsInDim S5000 (![] : Fin 0 → Fin S5000.rank)
  bcast_S30000_S30000x1_0 : S30000.BroadcastsInDim S30000x1 (![0] : Fin 1 → Fin S30000x1.rank)
  bcast_S_S30000 : S_.BroadcastsInDim S30000 (![] : Fin 0 → Fin S30000.rank)
  bcast_S30000x1_S30000x1024_0_1 : S30000x1.BroadcastsInDim S30000x1024 (![0, 1] : Fin 2 → Fin S30000x1024.rank)
  bcast_S_S5000x1024 : S_.BroadcastsInDim S5000x1024 (![] : Fin 0 → Fin S5000x1024.rank)
  bcast_S1x1024_S5000x1024_0_1 : S1x1024.BroadcastsInDim S5000x1024 (![0, 1] : Fin 2 → Fin S5000x1024.rank)
  concatenates_S2048x300_S2048x1024_S2048x1024_S2048x1024_S2048x3372_d1 : Shape.Concatenates [S2048x300, S2048x1024, S2048x1024, S2048x1024] S2048x3372 1
  bcast_S1x1024_S2048x1024_0_1 : S1x1024.BroadcastsInDim S2048x1024 (![0, 1] : Fin 2 → Fin S2048x1024.rank)
  reducesTo_S2048x1024_S1024_d0 : S2048x1024.ReducesTo [0] S1024
  h_S_ : 0 < S_.numel
  bcast_S_S1024 : S_.BroadcastsInDim S1024 (![] : Fin 0 → Fin S1024.rank)
  bcast_S_S1x1024 : S_.BroadcastsInDim S1x1024 (![] : Fin 0 → Fin S1x1024.rank)
  bcast_S_S2048x1024 : S_.BroadcastsInDim S2048x1024 (![] : Fin 0 → Fin S2048x1024.rank)
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  reducesTo_S2048x256_S256_d0 : S2048x256.ReducesTo [0] S256
  bcast_S_S256 : S_.BroadcastsInDim S256 (![] : Fin 0 → Fin S256.rank)
  bcast_S_S1x256 : S_.BroadcastsInDim S1x256 (![] : Fin 0 → Fin S1x256.rank)
  bcast_S_S2048x256 : S_.BroadcastsInDim S2048x256 (![] : Fin 0 → Fin S2048x256.rank)
  bcast_S3372_S1x3372_1 : S3372.BroadcastsInDim S1x3372 (![1] : Fin 1 → Fin S1x3372.rank)
  bcast_S1x3372_S2048x3372_0_1 : S1x3372.BroadcastsInDim S2048x3372 (![0, 1] : Fin 2 → Fin S2048x3372.rank)
  reducesTo_S2048x3372_S3372_d0 : S2048x3372.ReducesTo [0] S3372
  bcast_S_S3372 : S_.BroadcastsInDim S3372 (![] : Fin 0 → Fin S3372.rank)
  bcast_S_S1x3372 : S_.BroadcastsInDim S1x3372 (![] : Fin 0 → Fin S1x3372.rank)
  bcast_S_S2048x3372 : S_.BroadcastsInDim S2048x3372 (![] : Fin 0 → Fin S2048x3372.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  reducesTo_S2048x64_S64_d0 : S2048x64.ReducesTo [0] S64
  bcast_S_S64 : S_.BroadcastsInDim S64 (![] : Fin 0 → Fin S64.rank)
  bcast_S_S1x64 : S_.BroadcastsInDim S1x64 (![] : Fin 0 → Fin S1x64.rank)
  bcast_S_S2048x64 : S_.BroadcastsInDim S2048x64 (![] : Fin 0 → Fin S2048x64.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S10000_S75536x1_S75536_n_0_0_1_wf : ScatterDims.WF S10000 S75536x1 S75536 [] [0] [0] 1
  gather_S10000_S75536x1_S75536_n_0_n_n_0_1_1_wf : GatherDims.WF S10000 S75536x1 S75536 [] [0] [] [0] [] 1 ![1]
  dot_S10000x1024_S1024x1024_S10000x1024_1_0_0_1_n_n_wf : DotDims.WF S10000x1024 S1024x1024 S10000x1024 [1] [0] [0] [1] [] []
  gather_S10000x1024_S75536x1_S75536x1024_1_0_n_n_0_1_11024_wf : GatherDims.WF S10000x1024 S75536x1 S75536x1024 [1] [0] [] [0] [] 1 ![1, 1024]
  scatter_S10000x1024_S75536x1_S75536x1024_1_0_0_1_wf : ScatterDims.WF S10000x1024 S75536x1 S75536x1024 [1] [0] [0] 1
  gather_S10000x1024_S2048x1_S2048x1024_1_0_n_n_0_1_11024_wf : GatherDims.WF S10000x1024 S2048x1 S2048x1024 [1] [0] [] [0] [] 1 ![1, 1024]
  scatter_S5000_S30000x1_S30000_n_0_0_1_wf : ScatterDims.WF S5000 S30000x1 S30000 [] [0] [0] 1
  gather_S5000_S30000x1_S30000_n_0_n_n_0_1_1_wf : GatherDims.WF S5000 S30000x1 S30000 [] [0] [] [0] [] 1 ![1]
  dot_S5000x2812_S2812x1024_S5000x1024_1_0_0_1_n_n_wf : DotDims.WF S5000x2812 S2812x1024 S5000x1024 [1] [0] [0] [1] [] []
  gather_S5000x1024_S30000x1_S30000x1024_1_0_n_n_0_1_11024_wf : GatherDims.WF S5000x1024 S30000x1 S30000x1024 [1] [0] [] [0] [] 1 ![1, 1024]
  scatter_S5000x1024_S30000x1_S30000x1024_1_0_0_1_wf : ScatterDims.WF S5000x1024 S30000x1 S30000x1024 [1] [0] [0] 1
  gather_S5000x1024_S2048x1_S2048x1024_1_0_n_n_0_1_11024_wf : GatherDims.WF S5000x1024 S2048x1 S2048x1024 [1] [0] [] [0] [] 1 ![1, 1024]
  dot_S2048x3372_S3372x1024_S2048x1024_1_0_0_1_n_n_wf : DotDims.WF S2048x3372 S3372x1024 S2048x1024 [1] [0] [0] [1] [] []
  dot_S2048x1024_S1024x256_S2048x256_1_0_0_1_n_n_wf : DotDims.WF S2048x1024 S1024x256 S2048x256 [1] [0] [0] [1] [] []
  dot_S2048x256_S256x1024_S2048x1024_1_0_0_1_n_n_wf : DotDims.WF S2048x256 S256x1024 S2048x1024 [1] [0] [0] [1] [] []
  dot_S2048x1024_S1024x3372_S2048x3372_1_0_0_1_n_n_wf : DotDims.WF S2048x1024 S1024x3372 S2048x3372 [1] [0] [0] [1] [] []
  dot_S2048x256_S256x64_S2048x64_1_0_0_1_n_n_wf : DotDims.WF S2048x256 S256x64 S2048x64 [1] [0] [0] [1] [] []
  dot_S2048x64_S64x1_S2048x1_1_0_0_1_n_n_wf : DotDims.WF S2048x64 S64x1 S2048x1 [1] [0] [0] [1] [] []

variable [Facts₀]

def scatter_S10000_S75536x1_S75536_n_0_0_1 : ScatterDims S10000 S75536x1 S75536 where
  updateWindowDims := []
  insertedWindowDims := [0]
  scatterDimsToOperandDims := [0]
  indexVectorDim := 1
  wf := scatter_S10000_S75536x1_S75536_n_0_0_1_wf
def gather_S10000_S75536x1_S75536_n_0_n_n_0_1_1 : GatherDims S10000 S75536x1 S75536 where
  offsetDims := []
  collapsedSliceDims := [0]
  operandBatchingDims := []
  startIndicesBatchingDims := []
  startIndexMap := [0]
  indexVectorDim := 1
  sliceSizes := ![1]
  wf := gather_S10000_S75536x1_S75536_n_0_n_n_0_1_1_wf
def dot_S10000x1024_S1024x1024_S10000x1024_1_0_0_1_n_n : DotDims S10000x1024 S1024x1024 S10000x1024 where
  lhsContracting := [1]
  rhsContracting := [0]
  lhsNonContracting := [0]
  rhsNonContracting := [1]
  lhsBatch := []
  rhsBatch := []
  wf := dot_S10000x1024_S1024x1024_S10000x1024_1_0_0_1_n_n_wf
def gather_S10000x1024_S75536x1_S75536x1024_1_0_n_n_0_1_11024 : GatherDims S10000x1024 S75536x1 S75536x1024 where
  offsetDims := [1]
  collapsedSliceDims := [0]
  operandBatchingDims := []
  startIndicesBatchingDims := []
  startIndexMap := [0]
  indexVectorDim := 1
  sliceSizes := ![1, 1024]
  wf := gather_S10000x1024_S75536x1_S75536x1024_1_0_n_n_0_1_11024_wf
def scatter_S10000x1024_S75536x1_S75536x1024_1_0_0_1 : ScatterDims S10000x1024 S75536x1 S75536x1024 where
  updateWindowDims := [1]
  insertedWindowDims := [0]
  scatterDimsToOperandDims := [0]
  indexVectorDim := 1
  wf := scatter_S10000x1024_S75536x1_S75536x1024_1_0_0_1_wf
def gather_S10000x1024_S2048x1_S2048x1024_1_0_n_n_0_1_11024 : GatherDims S10000x1024 S2048x1 S2048x1024 where
  offsetDims := [1]
  collapsedSliceDims := [0]
  operandBatchingDims := []
  startIndicesBatchingDims := []
  startIndexMap := [0]
  indexVectorDim := 1
  sliceSizes := ![1, 1024]
  wf := gather_S10000x1024_S2048x1_S2048x1024_1_0_n_n_0_1_11024_wf
def scatter_S5000_S30000x1_S30000_n_0_0_1 : ScatterDims S5000 S30000x1 S30000 where
  updateWindowDims := []
  insertedWindowDims := [0]
  scatterDimsToOperandDims := [0]
  indexVectorDim := 1
  wf := scatter_S5000_S30000x1_S30000_n_0_0_1_wf
def gather_S5000_S30000x1_S30000_n_0_n_n_0_1_1 : GatherDims S5000 S30000x1 S30000 where
  offsetDims := []
  collapsedSliceDims := [0]
  operandBatchingDims := []
  startIndicesBatchingDims := []
  startIndexMap := [0]
  indexVectorDim := 1
  sliceSizes := ![1]
  wf := gather_S5000_S30000x1_S30000_n_0_n_n_0_1_1_wf
def dot_S5000x2812_S2812x1024_S5000x1024_1_0_0_1_n_n : DotDims S5000x2812 S2812x1024 S5000x1024 where
  lhsContracting := [1]
  rhsContracting := [0]
  lhsNonContracting := [0]
  rhsNonContracting := [1]
  lhsBatch := []
  rhsBatch := []
  wf := dot_S5000x2812_S2812x1024_S5000x1024_1_0_0_1_n_n_wf
def gather_S5000x1024_S30000x1_S30000x1024_1_0_n_n_0_1_11024 : GatherDims S5000x1024 S30000x1 S30000x1024 where
  offsetDims := [1]
  collapsedSliceDims := [0]
  operandBatchingDims := []
  startIndicesBatchingDims := []
  startIndexMap := [0]
  indexVectorDim := 1
  sliceSizes := ![1, 1024]
  wf := gather_S5000x1024_S30000x1_S30000x1024_1_0_n_n_0_1_11024_wf
def scatter_S5000x1024_S30000x1_S30000x1024_1_0_0_1 : ScatterDims S5000x1024 S30000x1 S30000x1024 where
  updateWindowDims := [1]
  insertedWindowDims := [0]
  scatterDimsToOperandDims := [0]
  indexVectorDim := 1
  wf := scatter_S5000x1024_S30000x1_S30000x1024_1_0_0_1_wf
def gather_S5000x1024_S2048x1_S2048x1024_1_0_n_n_0_1_11024 : GatherDims S5000x1024 S2048x1 S2048x1024 where
  offsetDims := [1]
  collapsedSliceDims := [0]
  operandBatchingDims := []
  startIndicesBatchingDims := []
  startIndexMap := [0]
  indexVectorDim := 1
  sliceSizes := ![1, 1024]
  wf := gather_S5000x1024_S2048x1_S2048x1024_1_0_n_n_0_1_11024_wf
def dot_S2048x3372_S3372x1024_S2048x1024_1_0_0_1_n_n : DotDims S2048x3372 S3372x1024 S2048x1024 where
  lhsContracting := [1]
  rhsContracting := [0]
  lhsNonContracting := [0]
  rhsNonContracting := [1]
  lhsBatch := []
  rhsBatch := []
  wf := dot_S2048x3372_S3372x1024_S2048x1024_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x3372_S2048x3372_1_0_0_1_n_n : DotDims S2048x1024 S1024x3372 S2048x3372 where
  lhsContracting := [1]
  rhsContracting := [0]
  lhsNonContracting := [0]
  rhsNonContracting := [1]
  lhsBatch := []
  rhsBatch := []
  wf := dot_S2048x1024_S1024x3372_S2048x3372_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.RefPart0.lean ====
import proofs.«402148_j44985487458808_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 42 operations, ending with the one that writes %31. -/
abbrev s0 : List (HloOp τ sig (Elt F)) :=
  [ StableHlo.nullary main_v0 (iotaInDim S10000 32 0),
    StableHlo.unary main_arg5 main_v1 ((extractStridedSlice S1x65536 ![0, 0] · slices_S2x65536_S1x65536_0_0) : (⟨S2x65536, .i32⟩ : BufTy).Contents (Elt F) → (⟨S1x65536, .i32⟩ : BufTy).Contents (Elt F)),
    StableHlo.reshape main_v1 main_v2 rfl shapeCasts_S1x65536_S65536,
    StableHlo.binary main_v2 main_v0 main_v3 ((fun a b => concatenate S75536 0 [⟨S65536, a⟩, ⟨S10000, b⟩] concatenates_S65536_S10000_S75536_d0) : (⟨S65536, .i32⟩ : BufTy).Contents (Elt F) → (⟨S10000, .i32⟩ : BufTy).Contents (Elt F) → (⟨S75536, .i32⟩ : BufTy).Contents (Elt F)),
    StableHlo.unary main_arg5 main_v4 ((extractStridedSlice S1x65536 ![1, 0] · slices_S2x65536_S1x65536_1_0) : (⟨S2x65536, .i32⟩ : BufTy).Contents (Elt F) → (⟨S1x65536, .i32⟩ : BufTy).Contents (Elt F)),
    StableHlo.reshape main_v4 main_v5 rfl shapeCasts_S1x65536_S65536,
    StableHlo.binary main_v5 main_v0 main_v6 ((fun a b => concatenate S75536 0 [⟨S65536, a⟩, ⟨S10000, b⟩] concatenates_S65536_S10000_S75536_d0) : (⟨S65536, .i32⟩ : BufTy).Contents (Elt F) → (⟨S10000, .i32⟩ : BufTy).Contents (Elt F) → (⟨S75536, .i32⟩ : BufTy).Contents (Elt F)),
    StableHlo.nullary main_cst (constant S_ .f32 0x3F800000#32),
    StableHlo.unary main_cst main_v7 (broadcastInDim S10000 ![] bcast_S_S10000 : (⟨S_, .f32⟩ : BufTy).Contents (Elt F) → (⟨S10000, .f32⟩ : BufTy).Contents (Elt F)),
    StableHlo.binary main_arg6 main_v7 main_v8 ((fun a b => concatenate S75536 0 [⟨S65536, a⟩, ⟨S10000, b⟩] concatenates_S65536_S10000_S75536_d0) : (⟨S65536, .f32⟩ : BufTy).Contents (Elt F) → (⟨S10000, .f32⟩ : BufTy).Contents (Elt F) → (⟨S75536, .f32⟩ : BufTy).Contents (Elt F)),
    StableHlo.nullary main_cst_0 (constant S_ .f32 0x00000000#32),
    StableHlo.unary main_cst_0 main_v9 (broadcastInDim S10000 ![] bcast_S_S10000 : (⟨S_, .f32⟩ : BufTy).Contents (Elt F) → (⟨S10000, .f32⟩ : BufTy).Contents (Elt F)),
    StableHlo.unary main_v6 main_v10 (broadcastInDim S75536x1 ![0] bcast_S75536_S75536x1_0 : (⟨S75536, .i32⟩ : BufTy).Contents (Elt F) → (⟨S75536x1, .i32⟩ : BufTy).Contents (Elt F)),
    StableHlo.ternary main_v9 main_v10 main_v8 main_v11 ((fun x i u => Host.scatterAdd scatter_S10000_S75536x1_S75536_n_0_0_1 x i u) : (⟨S10000, .f32⟩ : BufTy).Contents (Elt F) → (⟨S75536x1, .i32⟩ : BufTy).Contents (Elt F) → (⟨S75536, .f32⟩ : BufTy).Contents (Elt F) → (⟨S10000, .f32⟩ : BufTy).Contents (Elt F)),
    StableHlo.nullary main_cst_1 (constant S_ .f32 0x00000000#32),
    StableHlo.unary main_cst_1 main_v12 (broadcastInDim S10000 ![] bcast_S_S10000 : (⟨S_, .f32⟩ : BufTy).Contents (Elt F) → (⟨S10000, .f32⟩ : BufTy).Contents (Elt F)),
    StableHlo.binary main_v11 main_v12 main_v13 (cmpf .ogt : (⟨S10000, .f32⟩ : BufTy).Contents (Elt F) → (⟨S10000, .f32⟩ : BufTy).Contents (Elt F) → (⟨S10000, .i1⟩ : BufTy).Contents (Elt F)),
    StableHlo.unary main_v11 main_v14 (Host.rsqrt : (⟨S10000, .f32⟩ : BufTy).Contents (Elt F) → (⟨S10000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S10000 ![] bcast_S_S10000),
    StableHlo.TRef.ternary (.of main_v13) (.of main_v14) main_call0.v1 main_call0.v2 select,
    StableHlo.nullary main_c (constantI S_ 32 0#32),
    StableHlo.unary main_c main_v16 (broadcastInDim S75536 ![] bcast_S_S75536 : (⟨S_, .i32⟩ : BufTy).Contents (Elt F) → (⟨S75536, .i32⟩ : BufTy).Contents (Elt F)),
    StableHlo.binary main_v3 main_v16 main_v17 (cmpi .slt : (⟨S75536, .i32⟩ : BufTy).Contents (Elt F) → (⟨S75536, .i32⟩ : BufTy).Contents (Elt F) → (⟨S75536, .i1⟩ : BufTy).Contents (Elt F)),
    StableHlo.nullary main_c_3 (constantI S_ 32 10000#32),
    StableHlo.unary main_c_3 main_v18 (broadcastInDim S75536 ![] bcast_S_S75536 : (⟨S_, .i32⟩ : BufTy).Contents (Elt F) → (⟨S75536, .i32⟩ : BufTy).Contents (Elt F)),
    StableHlo.binary main_v3 main_v18 main_v19 (addi : (⟨S75536, .i32⟩ : BufTy).Contents (Elt F) → (⟨S75536, .i32⟩ : BufTy).Contents (Elt F) → (⟨S75536, .i32⟩ : BufTy).Contents (Elt F)),
    StableHlo.ternary main_v17 main_v19 main_v3 main_v20 (select : (⟨S75536, .i1⟩ : BufTy).Contents (Elt F) → (⟨S75536, .i32⟩ : BufTy).Contents (Elt F) → (⟨S75536, .i32⟩ : BufTy).Contents (Elt F) → (⟨S75536, .i32⟩ : BufTy).Contents (Elt F)),
    StableHlo.unary main_v20 main_v21 (broadcastInDim S75536x1 ![0] bcast_S75536_S75536x1_0 : (⟨S75536, .i32⟩ : BufTy).Contents (Elt F) → (⟨S75536x1, .i32⟩ : BufTy).Contents (Elt F)),
    StableHlo.binary main_v15 main_v21 main_v22 ((fun x i => Host.gather gather_S10000_S75536x1_S75536_n_0_n_n_0_1_1 x i) : (⟨S10000, .f32⟩ : BufTy).Contents (Elt F) → (⟨S75536x1, .i32⟩ : BufTy).Contents (Elt F) → (⟨S75536, .f32⟩ : BufTy).Contents (Elt F)),
    StableHlo.binary main_v22 main_v8 main_v23 (mulf : (⟨S75536, .f32⟩ : BufTy).Contents (Elt F) → (⟨S75536, .f32⟩ : BufTy).Contents (Elt F) → (⟨S75536, .f32⟩ : BufTy).Contents (Elt F)),
    StableHlo.nullary main_c_4 (constantI S_ 32 0#32),
    StableHlo.unary main_c_4 main_v24 (broadcastInDim S75536 ![] bcast_S_S75536 : (⟨S_, .i32⟩ : BufTy).Contents (Elt F) → (⟨S75536, .i32⟩ : BufTy).Contents (Elt F)),
    StableHlo.binary main_v6 main_v24 main_v25 (cmpi .slt : (⟨S75536, .i32⟩ : BufTy).Contents (Elt F) → (⟨S75536, .i32⟩ : BufTy).Contents (Elt F) → (⟨S75536, .i1⟩ : BufTy).Contents (Elt F)),
    StableHlo.nullary main_c_5 (constantI S_ 32 10000#32),
    StableHlo.unary main_c_5 main_v26 (broadcastInDim S75536 ![] bcast_S_S75536 : (⟨S_, .i32⟩ : BufTy).Contents (Elt F) → (⟨S75536, .i32⟩ : BufTy).Contents (Elt F)),
    StableHlo.binary main_v6 main_v26 main_v27 (addi : (⟨S75536, .i32⟩ : BufTy).Contents (Elt F) → (⟨S75536, .i32⟩ : BufTy).Contents (Elt F) → (⟨S75536, .i32⟩ : BufTy).Contents (Elt F)),
    StableHlo.ternary main_v25 main_v27 main_v6 main_v28 (select : (⟨S75536, .i1⟩ : BufTy).Contents (Elt F) → (⟨S75536, .i32⟩ : BufTy).Contents (Elt F) → (⟨S75536, .i32⟩ : BufTy).Contents (Elt F) → (⟨S75536, .i32⟩ : BufTy).Contents (Elt F)),
    StableHlo.unary main_v28 main_v29 (broadcastInDim S75536x1 ![0] bcast_S75536_S75536x1_0 : (⟨S75536, .i32⟩ : BufTy).Contents (Elt F) → (⟨S75536x1, .i32⟩ : BufTy).Contents (Elt F)),
    StableHlo.binary main_v15 main_v29 main_v30 ((fun x i => Host.gather gather_S10000_S75536x1_S75536_n_0_n_n_0_1_1 x i) : (⟨S10000, .f32⟩ : BufTy).Contents (Elt F) → (⟨S75536x1, .i32⟩ : BufTy).Contents (Elt F) → (⟨S75536, .f32⟩ : BufTy).Contents (Elt F)),
    StableHlo.binary main_v23 main_v30 main_v31 (mulf : (⟨S75536, .f32⟩ : BufTy).Contents (Elt F) → (⟨S75536, .f32⟩ : BufTy).Contents (Elt F) → (⟨S75536, .f32⟩ : BufTy).Contents (Elt F)) ]

theorem s0_sub : (s0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- 1 operations, ending with the one that writes %32. -/
abbrev s1 : List (HloOp τ sig (Elt F)) :=
  [ StableHlo.binary main_arg4 main_arg10 main_v32 ((fun l r => Host.dotGeneral dot_S10000x1024_S1024x1024_S10000x1024_1_0_0_1_n_n none l r) : (⟨S10000x1024, .f32⟩ : BufTy).Contents (Elt F) → (⟨S1024x1024, .f32⟩ : BufTy).Contents (Elt F) → (⟨S10000x1024, .f32⟩ : BufTy).Contents (Elt F)) ]

theorem s1_sub : (s1 : List (HloOp τ sig (Elt F))).Forall fun op => op.bufs ⊆ tcRefs τ sig :=
  binary_bufs_sub ..

/-- 16 operations, ending with the one that writes %45. -/
abbrev s2 : List (HloOp τ sig (Elt F)) :=
  [ StableHlo.unary main_v31 main_v33 (broadcastInDim S75536x1 ![0] bcast_S75536_S75536x1_0 : (⟨S75536, .f32⟩ : BufTy).Contents (Elt F) → (⟨S75536x1, .f32⟩ : BufTy).Contents (Elt F)),
    StableHlo.nullary main_c_6 (constantI S_ 32 0#32),
    StableHlo.unary main_c_6 main_v34 (broadcastInDim S75536 ![] bcast_S_S75536 : (⟨S_, .i32⟩ : BufTy).Contents (Elt F) → (⟨S75536, .i32⟩ : BufTy).Contents (Elt F)),
    StableHlo.binary main_v3 main_v34 main_v35 (cmpi .slt : (⟨S75536, .i32⟩ : BufTy).Contents (Elt F) → (⟨S75536, .i32⟩ : BufTy).Contents (Elt F) → (⟨S75536, .i1⟩ : BufTy).Contents (Elt F)),
    StableHlo.nullary main_c_7 (constantI S_ 32 10000#32),
    StableHlo.unary main_c_7 main_v36 (broadcastInDim S75536 ![] bcast_S_S75536 : (⟨S_, .i32⟩ : BufTy).Contents (Elt F) → (⟨S75536, .i32⟩ : BufTy).Contents (Elt F)),
    StableHlo.binary main_v3 main_v36 main_v37 (addi : (⟨S75536, .i32⟩ : BufTy).Contents (Elt F) → (⟨S75536, .i32⟩ : BufTy).Contents (Elt F) → (⟨S75536, .i32⟩ : BufTy).Contents (Elt F)),
    StableHlo.ternary main_v35 main_v37 main_v3 main_v38 (select : (⟨S75536, .i1⟩ : BufTy).Contents (Elt F) → (⟨S75536, .i32⟩ : BufTy).Contents (Elt F) → (⟨S75536, .i32⟩ : BufTy).Contents (Elt F) → (⟨S75536, .i32⟩ : BufTy).Contents (Elt F)),
    StableHlo.unary main_v38 main_v39 (broadcastInDim S75536x1 ![0] bcast_S75536_S75536x1_0 : (⟨S75536, .i32⟩ : BufTy).Contents (Elt F) → (⟨S75536x1, .i32⟩ : BufTy).Contents (Elt F)),
    StableHlo.binary main_v32 main_v39 main_v40 ((fun x i => Host.gather gather_S10000x1024_S75536x1_S75536x1024_1_0_n_n_0_1_11024 x i) : (⟨S10000x1024, .f32⟩ : BufTy).Contents (Elt F) → (⟨S75536x1, .i32⟩ : BufTy).Contents (Elt F) → (⟨S75536x1024, .f32⟩ : BufTy).Contents (Elt F)),
    StableHlo.unary main_v33 main_v41 (broadcastInDim S75536x1024 ![0, 1] bcast_S75536x1_S75536x1024_0_1 : (⟨S75536x1, .f32⟩ : BufTy).Contents (Elt F) → (⟨S75536x1024, .f32⟩ : BufTy).Contents (Elt F)),
    StableHlo.binary main_v41 main_v40 main_v42 (mulf : (⟨S75536x1024, .f32⟩ : BufTy).Contents (Elt F) → (⟨S75536x1024, .f32⟩ : BufTy).Contents (Elt F) → (⟨S75536x1024, .f32⟩ : BufTy).Contents (Elt F)),
    StableHlo.nullary main_cst_8 (constant S_ .f32 0x00000000#32),
    StableHlo.unary main_cst_8 main_v43 (broadcastInDim S10000x1024 ![] bcast_S_S10000x1024 : (⟨S_, .f32⟩ : BufTy).Contents (Elt F) → (⟨S10000x1024, .f32⟩ : BufTy).Contents (Elt F)),
    StableHlo.unary main_v6 main_v44 (broadcastInDim S75536x1 ![0] bcast_S75536_S75536x1_0 : (⟨S75536, .i32⟩ : BufTy).Contents (Elt F) → (⟨S75536x1, .i32⟩ : BufTy).Contents (Elt F)),
    StableHlo.ternary main_v43 main_v44 main_v42 main_v45 ((fun x i u => Host.scatterAdd scatter_S10000x1024_S75536x1_S75536x1024_1_0_0_1 x i u) : (⟨S10000x1024, .f32⟩ : BufTy).Contents (Elt F) → (⟨S75536x1, .i32⟩ : BufTy).Contents (Elt F) → (⟨S75536x1024, .f32⟩ : BufTy).Contents (Elt F) → (⟨S10000x1024, .f32⟩ : BufTy).Contents (Elt F)) ]

theorem s2_sub : (s2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- 3 operations, ending with the one that writes %48. -/
abbrev s3 : List (HloOp τ sig (Elt F)) :=
  [ StableHlo.unary main_arg11 main_v46 (broadcastInDim S1x1024 ![1] bcast_S1024_S1x1024_1 : (⟨S1024, .f32⟩ : BufTy).Contents (Elt F) → (⟨S1x1024, .f32⟩ : BufTy).Contents (Elt F)),
    StableHlo.unary main_v46 main_v47 (broadcastInDim S10000x1024 ![0, 1] bcast_S1x1024_S10000x1024_0_1 : (⟨S1x1024, .f32⟩ : BufTy).Contents (Elt F) → (⟨S10000x1024, .f32⟩ : BufTy).Contents (Elt F)),
    StableHlo.binary main_v45 main_v47 main_v48 (addf : (⟨S10000x1024, .f32⟩ : BufTy).Contents (Elt F) → (⟨S10000x1024, .f32⟩ : BufTy).Contents (Elt F) → (⟨S10000x1024, .f32⟩ : BufTy).Contents (Elt F)) ]

theorem s3_sub : (s3 : List (HloOp τ sig (Elt F))).Forall fun op => op.bufs ⊆ tcRefs τ sig :=
  ⟨unary_bufs_sub .., unary_bufs_sub .., binary_bufs_sub ..⟩

/-- The part's 62 operations in order. -/
abbrev ops0 : List (HloOp τ sig (Elt F)) :=
  [ StableHlo.nullary main_v0 (iotaInDim S10000 32 0),
    StableHlo.unary main_arg5 main_v1 ((extractStridedSlice S1x65536 ![0, 0] · slices_S2x65536_S1x65536_0_0) : (⟨S2x65536, .i32⟩ : BufTy).Contents (Elt F) → (⟨S1x65536, .i32⟩ : BufTy).Contents (Elt F)),
    StableHlo.reshape main_v1 main_v2 rfl shapeCasts_S1x65536_S65536,
    StableHlo.binary main_v2 main_v0 main_v3 ((fun a b => concatenate S75536 0 [⟨S65536, a⟩, ⟨S10000, b⟩] concatenates_S65536_S10000_S75536_d0) : (⟨S65536, .i32⟩ : BufTy).Contents (Elt F) → (⟨S10000, .i32⟩ : BufTy).Contents (Elt F) → (⟨S75536, .i32⟩ : BufTy).Contents (Elt F)),
    StableHlo.unary main_arg5 main_v4 ((extractStridedSlice S1x65536 ![1, 0] · slices_S2x65536_S1x65536_1_0) : (⟨S2x65536, .i32⟩ : BufTy).Contents (Elt F) → (⟨S1x65536, .i32⟩ : BufTy).Contents (Elt F)),
    StableHlo.reshape main_v4 main_v5 rfl shapeCasts_S1x65536_S65536,
    StableHlo.binary main_v5 main_v0 main_v6 ((fun a b => concatenate S75536 0 [⟨S65536, a⟩, ⟨S10000, b⟩] concatenates_S65536_S10000_S75536_d0) : (⟨S65536, .i32⟩ : BufTy).Contents (Elt F) → (⟨S10000, .i32⟩ : BufTy).Contents (Elt F) → (⟨S75536, .i32⟩ : BufTy).Contents (Elt F)),
    StableHlo.nullary main_cst (constant S_ .f32 0x3F800000#32),
    StableHlo.unary main_cst main_v7 (broadcastInDim S10000 ![] bcast_S_S10000 : (⟨S_, .f32⟩ : BufTy).Contents (Elt F) → (⟨S10000, .f32⟩ : BufTy).Contents (Elt F)),
    StableHlo.binary main_arg6 main_v7 main_v8 ((fun a b => concatenate S75536 0 [⟨S65536, a⟩, ⟨S10000, b⟩] concatenates_S65536_S10000_S75536_d0) : (⟨S65536, .f32⟩ : BufTy).Contents (Elt F) → (⟨S10000, .f32⟩ : BufTy).Contents (Elt F) → (⟨S75536, .f32⟩ : BufTy).Contents (Elt F)),
    StableHlo.nullary main_cst_0 (constant S_ .f32 0x00000000#32),
    StableHlo.unary main_cst_0 main_v9 (broadcastInDim S10000 ![] bcast_S_S10000 : (⟨S_, .f32⟩ : BufTy).Contents (Elt F) → (⟨S10000, .f32⟩ : BufTy).Contents (Elt F)),
    StableHlo.unary main_v6 main_v10 (broadcastInDim S75536x1 ![0] bcast_S75536_S75536x1_0 : (⟨S75536, .i32⟩ : BufTy).Contents (Elt F) → (⟨S75536x1, .i32⟩ : BufTy).Contents (Elt F)),
    StableHlo.ternary main_v9 main_v10 main_v8 main_v11 ((fun x i u => Host.scatterAdd scatter_S10000_S75536x1_S75536_n_0_0_1 x i u) : (⟨S10000, .f32⟩ : BufTy).Contents (Elt F) → (⟨S75536x1, .i32⟩ : BufTy).Contents (Elt F) → (⟨S75536, .f32⟩ : BufTy).Contents (Elt F) → (⟨S10000, .f32⟩ : BufTy).Contents (Elt F)),
    StableHlo.nullary main_cst_1 (constant S_ .f32 0x00000000#32),
    StableHlo.unary main_cst_1 main_v12 (broadcastInDim S10000 ![] bcast_S_S10000 : (⟨S_, .f32⟩ : BufTy).Contents (Elt F) → (⟨S10000, .f32⟩ : BufTy).Contents (Elt F)),
    StableHlo.binary main_v11 main_v12 main_v13 (cmpf .ogt : (⟨S10000, .f32⟩ : BufTy).Contents (Elt F) → (⟨S10000, .f32⟩ : BufTy).Contents (Elt F) → (⟨S10000, .i1⟩ : BufTy).Contents (Elt F)),
    StableHlo.unary main_v11 main_v14 (Host.rsqrt : (⟨S10000, .f32⟩ : BufTy).Contents (Elt F) → (⟨S10000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S10000 ![] bcast_S_S10000),
    StableHlo.TRef.ternary (.of main_v13) (.of main_v14) main_call0.v1 main_call0.v2 select,
    StableHlo.nullary main_c (constantI S_ 32 0#32),
    StableHlo.unary main_c main_v16 (broadcastInDim S75536 ![] bcast_S_S75536 : (⟨S_, .i32⟩ : BufTy).Contents (Elt F) → (⟨S75536, .i32⟩ : BufTy).Contents (Elt F)),
    StableHlo.binary main_v3 main_v16 main_v17 (cmpi .slt : (⟨S75536, .i32⟩ : BufTy).Contents (Elt F) → (⟨S75536, .i32⟩ : BufTy).Contents (Elt F) → (⟨S75536, .i1⟩ : BufTy).Contents (Elt F)),
    StableHlo.nullary main_c_3 (constantI S_ 32 10000#32),
    StableHlo.unary main_c_3 main_v18 (broadcastInDim S75536 ![] bcast_S_S75536 : (⟨S_, .i32⟩ : BufTy).Contents (Elt F) → (⟨S75536, .i32⟩ : BufTy).Contents (Elt F)),
    StableHlo.binary main_v3 main_v18 main_v19 (addi : (⟨S75536, .i32⟩ : BufTy).Contents (Elt F) → (⟨S75536, .i32⟩ : BufTy).Contents (Elt F) → (⟨S75536, .i32⟩ : BufTy).Contents (Elt F)),
    StableHlo.ternary main_v17 main_v19 main_v3 main_v20 (select : (⟨S75536, .i1⟩ : BufTy).Contents (Elt F) → (⟨S75536, .i32⟩ : BufTy).Contents (Elt F) → (⟨S75536, .i32⟩ : BufTy).Contents (Elt F) → (⟨S75536, .i32⟩ : BufTy).Contents (Elt F)),
    StableHlo.unary main_v20 main_v21 (broadcastInDim S75536x1 ![0] bcast_S75536_S75536x1_0 : (⟨S75536, .i32⟩ : BufTy).Contents (Elt F) → (⟨S75536x1, .i32⟩ : BufTy).Contents (Elt F)),
    StableHlo.binary main_v15 main_v21 main_v22 ((fun x i => Host.gather gather_S10000_S75536x1_S75536_n_0_n_n_0_1_1 x i) : (⟨S10000, .f32⟩ : BufTy).Contents (Elt F) → (⟨S75536x1, .i32⟩ : BufTy).Contents (Elt F) → (⟨S75536, .f32⟩ : BufTy).Contents (Elt F)),
    StableHlo.binary main_v22 main_v8 main_v23 (mulf : (⟨S75536, .f32⟩ : BufTy).Contents (Elt F) → (⟨S75536, .f32⟩ : BufTy).Contents (Elt F) → (⟨S75536, .f32⟩ : BufTy).Contents (Elt F)),
    StableHlo.nullary main_c_4 (constantI S_ 32 0#32),
    StableHlo.unary main_c_4 main_v24 (broadcastInDim S75536 ![] bcast_S_S75536 : (⟨S_, .i32⟩ : BufTy).Contents (Elt F) → (⟨S75536, .i32⟩ : BufTy).Contents (Elt F)),
    StableHlo.binary main_v6 main_v24 main_v25 (cmpi .slt : (⟨S75536, .i32⟩ : BufTy).Contents (Elt F) → (⟨S75536, .i32⟩ : BufTy).Contents (Elt F) → (⟨S75536, .i1⟩ : BufTy).Contents (Elt F)),
    StableHlo.nullary main_c_5 (constantI S_ 32 10000#32),
    StableHlo.unary main_c_5 main_v26 (broadcastInDim S75536 ![] bcast_S_S75536 : (⟨S_, .i32⟩ : BufTy).Contents (Elt F) → (⟨S75536, .i32⟩ : BufTy).Contents (Elt F)),
    StableHlo.binary main_v6 main_v26 main_v27 (addi : (⟨S75536, .i32⟩ : BufTy).Contents (Elt F) → (⟨S75536, .i32⟩ : BufTy).Contents (Elt F) → (⟨S75536, .i32⟩ : BufTy).Contents (Elt F)),
    StableHlo.ternary main_v25 main_v27 main_v6 main_v28 (select : (⟨S75536, .i1⟩ : BufTy).Contents (Elt F) → (⟨S75536, .i32⟩ : BufTy).Contents (Elt F) → (⟨S75536, .i32⟩ : BufTy).Contents (Elt F) → (⟨S75536, .i32⟩ : BufTy).Contents (Elt F)),
    StableHlo.unary main_v28 main_v29 (broadcastInDim S75536x1 ![0] bcast_S75536_S75536x1_0 : (⟨S75536, .i32⟩ : BufTy).Contents (Elt F) → (⟨S75536x1, .i32⟩ : BufTy).Contents (Elt F)),
    StableHlo.binary main_v15 main_v29 main_v30 ((fun x i => Host.gather gather_S10000_S75536x1_S75536_n_0_n_n_0_1_1 x i) : (⟨S10000, .f32⟩ : BufTy).Contents (Elt F) → (⟨S75536x1, .i32⟩ : BufTy).Contents (Elt F) → (⟨S75536, .f32⟩ : BufTy).Contents (Elt F)),
    StableHlo.binary main_v23 main_v30 main_v31 (mulf : (⟨S75536, .f32⟩ : BufTy).Contents (Elt F) → (⟨S75536, .f32⟩ : BufTy).Contents (Elt F) → (⟨S75536, .f32⟩ : BufTy).Contents (Elt F)),
    StableHlo.binary main_arg4 main_arg10 main_v32 ((fun l r => Host.dotGeneral dot_S10000x1024_S1024x1024_S10000x1024_1_0_0_1_n_n none l r) : (⟨S10000x1024, .f32⟩ : BufTy).Contents (Elt F) → (⟨S1024x1024, .f32⟩ : BufTy).Contents (Elt F) → (⟨S10000x1024, .f32⟩ : BufTy).Contents (Elt F)),
    StableHlo.unary main_v31 main_v33 (broadcastInDim S75536x1 ![0] bcast_S75536_S75536x1_0 : (⟨S75536, .f32⟩ : BufTy).Contents (Elt F) → (⟨S75536x1, .f32⟩ : BufTy).Contents (Elt F)),
    StableHlo.nullary main_c_6 (constantI S_ 32 0#32),
    StableHlo.unary main_c_6 main_v34 (broadcastInDim S75536 ![] bcast_S_S75536 : (⟨S_, .i32⟩ : BufTy).Contents (Elt F) → (⟨S75536, .i32⟩ : BufTy).Contents (Elt F)),
    StableHlo.binary main_v3 main_v34 main_v35 (cmpi .slt : (⟨S75536, .i32⟩ : BufTy).Contents (Elt F) → (⟨S75536, .i32⟩ : BufTy).Contents (Elt F) → (⟨S75536, .i1⟩ : BufTy).Contents (Elt F)),
    StableHlo.nullary main_c_7 (constantI S_ 32 10000#32),
    StableHlo.unary main_c_7 main_v36 (broadcastInDim S75536 ![] bcast_S_S75536 : (⟨S_, .i32⟩ : BufTy).Contents (Elt F) → (⟨S75536, .i32⟩ : BufTy).Contents (Elt F)),
    StableHlo.binary main_v3 main_v36 main_v37 (addi : (⟨S75536, .i32⟩ : BufTy).Contents (Elt F) → (⟨S75536, .i32⟩ : BufTy).Contents (Elt F) → (⟨S75536, .i32⟩ : BufTy).Contents (Elt F)),
    StableHlo.ternary main_v35 main_v37 main_v3 main_v38 (select : (⟨S75536, .i1⟩ : BufTy).Contents (Elt F) → (⟨S75536, .i32⟩ : BufTy).Contents (Elt F) → (⟨S75536, .i32⟩ : BufTy).Contents (Elt F) → (⟨S75536, .i32⟩ : BufTy).Contents (Elt F)),
    StableHlo.unary main_v38 main_v39 (broadcastInDim S75536x1 ![0] bcast_S75536_S75536x1_0 : (⟨S75536, .i32⟩ : BufTy).Contents (Elt F) → (⟨S75536x1, .i32⟩ : BufTy).Contents (Elt F)),
    StableHlo.binary main_v32 main_v39 main_v40 ((fun x i => Host.gather gather_S10000x1024_S75536x1_S75536x1024_1_0_n_n_0_1_11024 x i) : (⟨S10000x1024, .f32⟩ : BufTy).Contents (Elt F) → (⟨S75536x1, .i32⟩ : BufTy).Contents (Elt F) → (⟨S75536x1024, .f32⟩ : BufTy).Contents (Elt F)),
    StableHlo.unary main_v33 main_v41 (broadcastInDim S75536x1024 ![0, 1] bcast_S75536x1_S75536x1024_0_1 : (⟨S75536x1, .f32⟩ : BufTy).Contents (Elt F) → (⟨S75536x1024, .f32⟩ : BufTy).Contents (Elt F)),
    StableHlo.binary main_v41 main_v40 main_v42 (mulf : (⟨S75536x1024, .f32⟩ : BufTy).Contents (Elt F) → (⟨S75536x1024, .f32⟩ : BufTy).Contents (Elt F) → (⟨S75536x1024, .f32⟩ : BufTy).Contents (Elt F)),
    StableHlo.nullary main_cst_8 (constant S_ .f32 0x00000000#32),
    StableHlo.unary main_cst_8 main_v43 (broadcastInDim S10000x1024 ![] bcast_S_S10000x1024 : (⟨S_, .f32⟩ : BufTy).Contents (Elt F) → (⟨S10000x1024, .f32⟩ : BufTy).Contents (Elt F)),
    StableHlo.unary main_v6 main_v44 (broadcastInDim S75536x1 ![0] bcast_S75536_S75536x1_0 : (⟨S75536, .i32⟩ : BufTy).Contents (Elt F) → (⟨S75536x1, .i32⟩ : BufTy).Contents (Elt F)),
    StableHlo.ternary main_v43 main_v44 main_v42 main_v45 ((fun x i u => Host.scatterAdd scatter_S10000x1024_S75536x1_S75536x1024_1_0_0_1 x i u) : (⟨S10000x1024, .f32⟩ : BufTy).Contents (Elt F) → (⟨S75536x1, .i32⟩ : BufTy).Contents (Elt F) → (⟨S75536x1024, .f32⟩ : BufTy).Contents (Elt F) → (⟨S10000x1024, .f32⟩ : BufTy).Contents (Elt F)),
    StableHlo.unary main_arg11 main_v46 (broadcastInDim S1x1024 ![1] bcast_S1024_S1x1024_1 : (⟨S1024, .f32⟩ : BufTy).Contents (Elt F) → (⟨S1x1024, .f32⟩ : BufTy).Contents (Elt F)),
    StableHlo.unary main_v46 main_v47 (broadcastInDim S10000x1024 ![0, 1] bcast_S1x1024_S10000x1024_0_1 : (⟨S1x1024, .f32⟩ : BufTy).Contents (Elt F) → (⟨S10000x1024, .f32⟩ : BufTy).Contents (Elt F)),
    StableHlo.binary main_v45 main_v47 main_v48 (addf : (⟨S10000x1024, .f32⟩ : BufTy).Contents (Elt F) → (⟨S10000x1024, .f32⟩ : BufTy).Contents (Elt F) → (⟨S10000x1024, .f32⟩ : BufTy).Contents (Elt F)) ]

theorem ops0_split : (ops0 : List (HloOp τ sig (Elt F))) = s0 ++ s1 ++ s2 ++ s3 := rfl

theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

/-- No operation of the part writes one of the 36 argument buffers (the buffers of index below 36): each writes its own result buffer, of a larger index. -/
theorem keep0 (V : Valuation τ sig (Elt F)) (b : Ref sig .tc) (hb : b.idx.val < 36) :
    after (ops0 (F := F)) V (Proc.devRef .tc b) = V (Proc.devRef .tc b) :=
  after_of_forall_not_mem _ _ (List.forall_iff_forall_mem.mp (by
    simp only [List.Forall, nullary_writes, unary_writes, binary_writes, ternary_writes, quaternary_writes, reshape_writes, nary_writes, Finset.mem_singleton]
    repeat' apply And.intro
    all_goals exact devRef_ne_of_ne (fun e => by subst e; revert hb; decide)))

set_option maxRecDepth 16384 in
set_option maxHeartbeats 40000000 in
theorem part0_eq (c : Dev nD) : main_part0 (F := F) c = seq ops0 := by
  (simp only [main_part0, fn_where.body, seq, bind_assoc, pure_bind]) <;> rfl

end Cert.ReferenceIdeal.RefRun

end
-- ==== Proof.RefPart1.lean ====
import proofs.«402148_j44985487458808_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 16 operations, ending with the one that writes %60. -/
abbrev s4 : List (HloOp τ sig (Elt F)) :=
  [ StableHlo.nullary main_cst_9 (constant S_ .f32 0x00000000#32),
    StableHlo.unary main_cst_9 main_v49 (broadcastInDim S10000x1024 ![] bcast_S_S10000x1024 : (⟨S_, .f32⟩ : BufTy).Contents (Elt F) → (⟨S10000x1024, .f32⟩ : BufTy).Contents (Elt F)),
    StableHlo.binary main_v48 main_v49 main_v50 (cmpf .oge : (⟨S10000x1024, .f32⟩ : BufTy).Contents (Elt F) → (⟨S10000x1024, .f32⟩ : BufTy).Contents (Elt F) → (⟨S10000x1024, .i1⟩ : BufTy).Contents (Elt F)),
    StableHlo.nullary main_cst_10 (constant S_ .f32 0x3C23D70A#32),
    StableHlo.unary main_cst_10 main_v51 (broadcastInDim S10000x1024 ![] bcast_S_S10000x1024 : (⟨S_, .f32⟩ : BufTy).Contents (Elt F) → (⟨S10000x1024, .f32⟩ : BufTy).Contents (Elt F)),
    StableHlo.binary main_v51 main_v48 main_v52 (mulf : (⟨S10000x1024, .f32⟩ : BufTy).Contents (Elt F) → (⟨S10000x1024, .f32⟩ : BufTy).Contents (Elt F) → (⟨S10000x1024, .f32⟩ : BufTy).Contents (Elt F)),
    StableHlo.TRef.ternary (.of main_v50) (.of main_v48) (.of main_v52) main_call1.v0 select,
    StableHlo.nullary main_c_11 (constantI S_ 32 0#32),
    StableHlo.unary main_c_11 main_v54 (broadcastInDim S2048 ![] bcast_S_S2048 : (⟨S_, .i32⟩ : BufTy).Contents (Elt F) → (⟨S2048, .i32⟩ : BufTy).Contents (Elt F)),
    StableHlo.binary main_arg0 main_v54 main_v55 (cmpi .slt : (⟨S2048, .i32⟩ : BufTy).Contents (Elt F) → (⟨S2048, .i32⟩ : BufTy).Contents (Elt F) → (⟨S2048, .i1⟩ : BufTy).Contents (Elt F)),
    StableHlo.nullary main_c_12 (constantI S_ 32 10000#32),
    StableHlo.unary main_c_12 main_v56 (broadcastInDim S2048 ![] bcast_S_S2048 : (⟨S_, .i32⟩ : BufTy).Contents (Elt F) → (⟨S2048, .i32⟩ : BufTy).Contents (Elt F)),
    StableHlo.binary main_arg0 main_v56 main_v57 (addi : (⟨S2048, .i32⟩ : BufTy).Contents (Elt F) → (⟨S2048, .i32⟩ : BufTy).Contents (Elt F) → (⟨S2048, .i32⟩ : BufTy).Contents (Elt F)),
    StableHlo.ternary main_v55 main_v57 main_arg0 main_v58 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v58 main_v59 (broadcastInDim S2048x1 ![0] bcast_S2048_S2048x1_0 : (⟨S2048, .i32⟩ : BufTy).Contents (Elt F) → (⟨S2048x1, .i32⟩ : BufTy).Contents (Elt F)),
    StableHlo.binary main_v53 main_v59 main_v60 ((fun x i => Host.gather gather_S10000x1024_S2048x1_S2048x1024_1_0_n_n_0_1_11024 x i) : (⟨S10000x1024, .f32⟩ : BufTy).Contents (Elt F) → (⟨S2048x1, .i32⟩ : BufTy).Contents (Elt F) → (⟨S2048x1024, .f32⟩ : BufTy).Contents (Elt F)) ]

theorem s4_sub : (s4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩

/-- 42 operations, ending with the one that writes %92. -/
abbrev s5 : List (HloOp τ sig (Elt F)) :=
  [ StableHlo.nullary main_v61 (iotaInDim S5000 32 0),
    StableHlo.unary main_arg8 main_v62 ((extractStridedSlice S1x25000 ![0, 0] · slices_S2x25000_S1x25000_0_0) : (⟨S2x25000, .i32⟩ : BufTy).Contents (Elt F) → (⟨S1x25000, .i32⟩ : BufTy).Contents (Elt F)),
    StableHlo.reshape main_v62 main_v63 rfl shapeCasts_S1x25000_S25000,
    StableHlo.binary main_v63 main_v61 main_v64 ((fun a b => concatenate S30000 0 [⟨S25000, a⟩, ⟨S5000, b⟩] concatenates_S25000_S5000_S30000_d0) : (⟨S25000, .i32⟩ : BufTy).Contents (Elt F) → (⟨S5000, .i32⟩ : BufTy).Contents (Elt F) → (⟨S30000, .i32⟩ : BufTy).Contents (Elt F)),
    StableHlo.unary main_arg8 main_v65 ((extractStridedSlice S1x25000 ![1, 0] · slices_S2x25000_S1x25000_1_0) : (⟨S2x25000, .i32⟩ : BufTy).Contents (Elt F) → (⟨S1x25000, .i32⟩ : BufTy).Contents (Elt F)),
    StableHlo.reshape main_v65 main_v66 rfl shapeCasts_S1x25000_S25000,
    StableHlo.binary main_v66 main_v61 main_v67 ((fun a b => concatenate S30000 0 [⟨S25000, a⟩, ⟨S5000, b⟩] concatenates_S25000_S5000_S30000_d0) : (⟨S25000, .i32⟩ : BufTy).Contents (Elt F) → (⟨S5000, .i32⟩ : BufTy).Contents (Elt F) → (⟨S30000, .i32⟩ : BufTy).Contents (Elt F)),
    StableHlo.nullary main_cst_13 (constant S_ .f32 0x3F800000#32),
    StableHlo.unary main_cst_13 main_v68 (broadcastInDim S5000 ![] bcast_S_S5000 : (⟨S_, .f32⟩ : BufTy).Contents (Elt F) → (⟨S5000, .f32⟩ : BufTy).Contents (Elt F)),
    StableHlo.binary main_arg9 main_v68 main_v69 ((fun a b => concatenate S30000 0 [⟨S25000, a⟩, ⟨S5000, b⟩] concatenates_S25000_S5000_S30000_d0) : (⟨S25000, .f32⟩ : BufTy).Contents (Elt F) → (⟨S5000, .f32⟩ : BufTy).Contents (Elt F) → (⟨S30000, .f32⟩ : BufTy).Contents (Elt F)),
    StableHlo.nullary main_cst_14 (constant S_ .f32 0x00000000#32),
    StableHlo.unary main_cst_14 main_v70 (broadcastInDim S5000 ![] bcast_S_S5000 : (⟨S_, .f32⟩ : BufTy).Contents (Elt F) → (⟨S5000, .f32⟩ : BufTy).Contents (Elt F)),
    StableHlo.unary main_v67 main_v71 (broadcastInDim S30000x1 ![0] bcast_S30000_S30000x1_0 : (⟨S30000, .i32⟩ : BufTy).Contents (Elt F) → (⟨S30000x1, .i32⟩ : BufTy).Contents (Elt F)),
    StableHlo.ternary main_v70 main_v71 main_v69 main_v72 ((fun x i u => Host.scatterAdd scatter_S5000_S30000x1_S30000_n_0_0_1 x i u) : (⟨S5000, .f32⟩ : BufTy).Contents (Elt F) → (⟨S30000x1, .i32⟩ : BufTy).Contents (Elt F) → (⟨S30000, .f32⟩ : BufTy).Contents (Elt F) → (⟨S5000, .f32⟩ : BufTy).Contents (Elt F)),
    StableHlo.nullary main_cst_15 (constant S_ .f32 0x00000000#32),
    StableHlo.unary main_cst_15 main_v73 (broadcastInDim S5000 ![] bcast_S_S5000 : (⟨S_, .f32⟩ : BufTy).Contents (Elt F) → (⟨S5000, .f32⟩ : BufTy).Contents (Elt F)),
    StableHlo.binary main_v72 main_v73 main_v74 (cmpf .ogt : (⟨S5000, .f32⟩ : BufTy).Contents (Elt F) → (⟨S5000, .f32⟩ : BufTy).Contents (Elt F) → (⟨S5000, .i1⟩ : BufTy).Contents (Elt F)),
    StableHlo.unary main_v72 main_v75 (Host.rsqrt : (⟨S5000, .f32⟩ : BufTy).Contents (Elt F) → (⟨S5000, .f32⟩ : BufTy).Contents (Elt F)),
    StableHlo.nullary main_cst_16 (constant S_ .f32 0x00000000#32),
    StableHlo.TRef.unary (.of main_cst_16) main_call2.v0 id,
    StableHlo.TRef.unary main_call2.v0 main_call2.v1 (broadcastInDim S5000 ![] bcast_S_S5000),
    StableHlo.TRef.ternary (.of main_v74) (.of main_v75) main_call2.v1 main_call2.v2 select,
    StableHlo.nullary main_c_17 (constantI S_ 32 0#32),
    StableHlo.unary main_c_17 main_v77 (broadcastInDim S30000 ![] bcast_S_S30000 : (⟨S_, .i32⟩ : BufTy).Contents (Elt F) → (⟨S30000, .i32⟩ : BufTy).Contents (Elt F)),
    StableHlo.binary main_v64 main_v77 main_v78 (cmpi .slt : (⟨S30000, .i32⟩ : BufTy).Contents (Elt F) → (⟨S30000, .i32⟩ : BufTy).Contents (Elt F) → (⟨S30000, .i1⟩ : BufTy).Contents (Elt F)),
    StableHlo.nullary main_c_18 (constantI S_ 32 5000#32),
    StableHlo.unary main_c_18 main_v79 (broadcastInDim S30000 ![] bcast_S_S30000 : (⟨S_, .i32⟩ : BufTy).Contents (Elt F) → (⟨S30000, .i32⟩ : BufTy).Contents (Elt F)),
    StableHlo.binary main_v64 main_v79 main_v80 (addi : (⟨S30000, .i32⟩ : BufTy).Contents (Elt F) → (⟨S30000, .i32⟩ : BufTy).Contents (Elt F) → (⟨S30000, .i32⟩ : BufTy).Contents (Elt F)),
    StableHlo.ternary main_v78 main_v80 main_v64 main_v81 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)),
    StableHlo.unary main_v81 main_v82 (broadcastInDim S30000x1 ![0] bcast_S30000_S30000x1_0 : (⟨S30000, .i32⟩ : BufTy).Contents (Elt F) → (⟨S30000x1, .i32⟩ : BufTy).Contents (Elt F)),
    StableHlo.binary main_v76 main_v82 main_v83 ((fun x i => Host.gather gather_S5000_S30000x1_S30000_n_0_n_n_0_1_1 x i) : (⟨S5000, .f32⟩ : BufTy).Contents (Elt F) → (⟨S30000x1, .i32⟩ : BufTy).Contents (Elt F) → (⟨S30000, .f32⟩ : BufTy).Contents (Elt F)),
    StableHlo.binary main_v83 main_v69 main_v84 (mulf : (⟨S30000, .f32⟩ : BufTy).Contents (Elt F) → (⟨S30000, .f32⟩ : BufTy).Contents (Elt F) → (⟨S30000, .f32⟩ : BufTy).Contents (Elt F)),
    StableHlo.nullary main_c_19 (constantI S_ 32 0#32),
    StableHlo.unary main_c_19 main_v85 (broadcastInDim S30000 ![] bcast_S_S30000 : (⟨S_, .i32⟩ : BufTy).Contents (Elt F) → (⟨S30000, .i32⟩ : BufTy).Contents (Elt F)),
    StableHlo.binary main_v67 main_v85 main_v86 (cmpi .slt : (⟨S30000, .i32⟩ : BufTy).Contents (Elt F) → (⟨S30000, .i32⟩ : BufTy).Contents (Elt F) → (⟨S30000, .i1⟩ : BufTy).Contents (Elt F)),
    StableHlo.nullary main_c_20 (constantI S_ 32 5000#32),
    StableHlo.unary main_c_20 main_v87 (broadcastInDim S30000 ![] bcast_S_S30000 : (⟨S_, .i32⟩ : BufTy).Contents (Elt F) → (⟨S30000, .i32⟩ : BufTy).Contents (Elt F)),
    StableHlo.binary main_v67 main_v87 main_v88 (addi : (⟨S30000, .i32⟩ : BufTy).Contents (Elt F) → (⟨S30000, .i32⟩ : BufTy).Contents (Elt F) → (⟨S30000, .i32⟩ : BufTy).Contents (Elt F)),
    StableHlo.ternary main_v86 main_v88 main_v67 main_v89 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)),
    StableHlo.unary main_v89 main_v90 (broadcastInDim S30000x1 ![0] bcast_S30000_S30000x1_0 : (⟨S30000, .i32⟩ : BufTy).Contents (Elt F) → (⟨S30000x1, .i32⟩ : BufTy).Contents (Elt F)),
    StableHlo.binary main_v76 main_v90 main_v91 ((fun x i => Host.gather gather_S5000_S30000x1_S30000_n_0_n_n_0_1_1 x i) : (⟨S5000, .f32⟩ : BufTy).Contents (Elt F) → (⟨S30000x1, .i32⟩ : BufTy).Contents (Elt F) → (⟨S30000, .f32⟩ : BufTy).Contents (Elt F)),
    StableHlo.binary main_v84 main_v91 main_v92 (mulf : (⟨S30000, .f32⟩ : BufTy).Contents (Elt F) → (⟨S30000, .f32⟩ : BufTy).Contents (Elt F) → (⟨S30000, .f32⟩ : BufTy).Contents (Elt F)) ]

theorem s5_sub : (s5 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- 1 operations, ending with the one that writes %93. -/
abbrev s6 : List (HloOp τ sig (Elt F)) :=
  [ StableHlo.binary main_arg7 main_arg12 main_v93 ((fun l r => Host.dotGeneral dot_S5000x2812_S2812x1024_S5000x1024_1_0_0_1_n_n none l r) : (⟨S5000x2812, .f32⟩ : BufTy).Contents (Elt F) → (⟨S2812x1024, .f32⟩ : BufTy).Contents (Elt F) → (⟨S5000x1024, .f32⟩ : BufTy).Contents (Elt F)) ]

theorem s6_sub : (s6 : List (HloOp τ sig (Elt F))).Forall fun op => op.bufs ⊆ tcRefs τ sig :=
  binary_bufs_sub ..

/-- 3 operations, ending with the one that writes %95. -/
abbrev s7 : List (HloOp τ sig (Elt F)) :=
  [ StableHlo.unary main_v92 main_v94 (broadcastInDim S30000x1 ![0] bcast_S30000_S30000x1_0 : (⟨S30000, .f32⟩ : BufTy).Contents (Elt F) → (⟨S30000x1, .f32⟩ : BufTy).Contents (Elt F)),
    StableHlo.nullary main_c_21 (constantI S_ 32 0#32),
    StableHlo.unary main_c_21 main_v95 (broadcastInDim S30000 ![] bcast_S_S30000 : (⟨S_, .i32⟩ : BufTy).Contents (Elt F) → (⟨S30000, .i32⟩ : BufTy).Contents (Elt F)) ]

theorem s7_sub : (s7 : List (HloOp τ sig (Elt F))).Forall fun op => op.bufs ⊆ tcRefs τ sig :=
  ⟨unary_bufs_sub .., nullary_bufs_sub .., unary_bufs_sub ..⟩

/-- The part's 62 operations in order. -/
abbrev ops1 : List (HloOp τ sig (Elt F)) :=
  [ StableHlo.nullary main_cst_9 (constant S_ .f32 0x00000000#32),
    StableHlo.unary main_cst_9 main_v49 (broadcastInDim S10000x1024 ![] bcast_S_S10000x1024 : (⟨S_, .f32⟩ : BufTy).Contents (Elt F) → (⟨S10000x1024, .f32⟩ : BufTy).Contents (Elt F)),
    StableHlo.binary main_v48 main_v49 main_v50 (cmpf .oge : (⟨S10000x1024, .f32⟩ : BufTy).Contents (Elt F) → (⟨S10000x1024, .f32⟩ : BufTy).Contents (Elt F) → (⟨S10000x1024, .i1⟩ : BufTy).Contents (Elt F)),
    StableHlo.nullary main_cst_10 (constant S_ .f32 0x3C23D70A#32),
    StableHlo.unary main_cst_10 main_v51 (broadcastInDim S10000x1024 ![] bcast_S_S10000x1024 : (⟨S_, .f32⟩ : BufTy).Contents (Elt F) → (⟨S10000x1024, .f32⟩ : BufTy).Contents (Elt F)),
    StableHlo.binary main_v51 main_v48 main_v52 (mulf : (⟨S10000x1024, .f32⟩ : BufTy).Contents (Elt F) → (⟨S10000x1024, .f32⟩ : BufTy).Contents (Elt F) → (⟨S10000x1024, .f32⟩ : BufTy).Contents (Elt F)),
    StableHlo.TRef.ternary (.of main_v50) (.of main_v48) (.of main_v52) main_call1.v0 select,
    StableHlo.nullary main_c_11 (constantI S_ 32 0#32),
    StableHlo.unary main_c_11 main_v54 (broadcastInDim S2048 ![] bcast_S_S2048 : (⟨S_, .i32⟩ : BufTy).Contents (Elt F) → (⟨S2048, .i32⟩ : BufTy).Contents (Elt F)),
    StableHlo.binary main_arg0 main_v54 main_v55 (cmpi .slt : (⟨S2048, .i32⟩ : BufTy).Contents (Elt F) → (⟨S2048, .i32⟩ : BufTy).Contents (Elt F) → (⟨S2048, .i1⟩ : BufTy).Contents (Elt F)),
    StableHlo.nullary main_c_12 (constantI S_ 32 10000#32),
    StableHlo.unary main_c_12 main_v56 (broadcastInDim S2048 ![] bcast_S_S2048 : (⟨S_, .i32⟩ : BufTy).Contents (Elt F) → (⟨S2048, .i32⟩ : BufTy).Contents (Elt F)),
    StableHlo.binary main_arg0 main_v56 main_v57 (addi : (⟨S2048, .i32⟩ : BufTy).Contents (Elt F) → (⟨S2048, .i32⟩ : BufTy).Contents (Elt F) → (⟨S2048, .i32⟩ : BufTy).Contents (Elt F)),
    StableHlo.ternary main_v55 main_v57 main_arg0 main_v58 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v58 main_v59 (broadcastInDim S2048x1 ![0] bcast_S2048_S2048x1_0 : (⟨S2048, .i32⟩ : BufTy).Contents (Elt F) → (⟨S2048x1, .i32⟩ : BufTy).Contents (Elt F)),
    StableHlo.binary main_v53 main_v59 main_v60 ((fun x i => Host.gather gather_S10000x1024_S2048x1_S2048x1024_1_0_n_n_0_1_11024 x i) : (⟨S10000x1024, .f32⟩ : BufTy).Contents (Elt F) → (⟨S2048x1, .i32⟩ : BufTy).Contents (Elt F) → (⟨S2048x1024, .f32⟩ : BufTy).Contents (Elt F)),
    StableHlo.nullary main_v61 (iotaInDim S5000 32 0),
    StableHlo.unary main_arg8 main_v62 ((extractStridedSlice S1x25000 ![0, 0] · slices_S2x25000_S1x25000_0_0) : (⟨S2x25000, .i32⟩ : BufTy).Contents (Elt F) → (⟨S1x25000, .i32⟩ : BufTy).Contents (Elt F)),
    StableHlo.reshape main_v62 main_v63 rfl shapeCasts_S1x25000_S25000,
    StableHlo.binary main_v63 main_v61 main_v64 ((fun a b => concatenate S30000 0 [⟨S25000, a⟩, ⟨S5000, b⟩] concatenates_S25000_S5000_S30000_d0) : (⟨S25000, .i32⟩ : BufTy).Contents (Elt F) → (⟨S5000, .i32⟩ : BufTy).Contents (Elt F) → (⟨S30000, .i32⟩ : BufTy).Contents (Elt F)),
    StableHlo.unary main_arg8 main_v65 ((extractStridedSlice S1x25000 ![1, 0] · slices_S2x25000_S1x25000_1_0) : (⟨S2x25000, .i32⟩ : BufTy).Contents (Elt F) → (⟨S1x25000, .i32⟩ : BufTy).Contents (Elt F)),
    StableHlo.reshape main_v65 main_v66 rfl shapeCasts_S1x25000_S25000,
    StableHlo.binary main_v66 main_v61 main_v67 ((fun a b => concatenate S30000 0 [⟨S25000, a⟩, ⟨S5000, b⟩] concatenates_S25000_S5000_S30000_d0) : (⟨S25000, .i32⟩ : BufTy).Contents (Elt F) → (⟨S5000, .i32⟩ : BufTy).Contents (Elt F) → (⟨S30000, .i32⟩ : BufTy).Contents (Elt F)),
    StableHlo.nullary main_cst_13 (constant S_ .f32 0x3F800000#32),
    StableHlo.unary main_cst_13 main_v68 (broadcastInDim S5000 ![] bcast_S_S5000 : (⟨S_, .f32⟩ : BufTy).Contents (Elt F) → (⟨S5000, .f32⟩ : BufTy).Contents (Elt F)),
    StableHlo.binary main_arg9 main_v68 main_v69 ((fun a b => concatenate S30000 0 [⟨S25000, a⟩, ⟨S5000, b⟩] concatenates_S25000_S5000_S30000_d0) : (⟨S25000, .f32⟩ : BufTy).Contents (Elt F) → (⟨S5000, .f32⟩ : BufTy).Contents (Elt F) → (⟨S30000, .f32⟩ : BufTy).Contents (Elt F)),
    StableHlo.nullary main_cst_14 (constant S_ .f32 0x00000000#32),
    StableHlo.unary main_cst_14 main_v70 (broadcastInDim S5000 ![] bcast_S_S5000 : (⟨S_, .f32⟩ : BufTy).Contents (Elt F) → (⟨S5000, .f32⟩ : BufTy).Contents (Elt F)),
    StableHlo.unary main_v67 main_v71 (broadcastInDim S30000x1 ![0] bcast_S30000_S30000x1_0 : (⟨S30000, .i32⟩ : BufTy).Contents (Elt F) → (⟨S30000x1, .i32⟩ : BufTy).Contents (Elt F)),
    StableHlo.ternary main_v70 main_v71 main_v69 main_v72 ((fun x i u => Host.scatterAdd scatter_S5000_S30000x1_S30000_n_0_0_1 x i u) : (⟨S5000, .f32⟩ : BufTy).Contents (Elt F) → (⟨S30000x1, .i32⟩ : BufTy).Contents (Elt F) → (⟨S30000, .f32⟩ : BufTy).Contents (Elt F) → (⟨S5000, .f32⟩ : BufTy).Contents (Elt F)),
    StableHlo.nullary main_cst_15 (constant S_ .f32 0x00000000#32),
    StableHlo.unary main_cst_15 main_v73 (broadcastInDim S5000 ![] bcast_S_S5000 : (⟨S_, .f32⟩ : BufTy).Contents (Elt F) → (⟨S5000, .f32⟩ : BufTy).Contents (Elt F)),
    StableHlo.binary main_v72 main_v73 main_v74 (cmpf .ogt : (⟨S5000, .f32⟩ : BufTy).Contents (Elt F) → (⟨S5000, .f32⟩ : BufTy).Contents (Elt F) → (⟨S5000, .i1⟩ : BufTy).Contents (Elt F)),
    StableHlo.unary main_v72 main_v75 (Host.rsqrt : (⟨S5000, .f32⟩ : BufTy).Contents (Elt F) → (⟨S5000, .f32⟩ : BufTy).Contents (Elt F)),
    StableHlo.nullary main_cst_16 (constant S_ .f32 0x00000000#32),
    StableHlo.TRef.unary (.of main_cst_16) main_call2.v0 id,
    StableHlo.TRef.unary main_call2.v0 main_call2.v1 (broadcastInDim S5000 ![] bcast_S_S5000),
    StableHlo.TRef.ternary (.of main_v74) (.of main_v75) main_call2.v1 main_call2.v2 select,
    StableHlo.nullary main_c_17 (constantI S_ 32 0#32),
    StableHlo.unary main_c_17 main_v77 (broadcastInDim S30000 ![] bcast_S_S30000 : (⟨S_, .i32⟩ : BufTy).Contents (Elt F) → (⟨S30000, .i32⟩ : BufTy).Contents (Elt F)),
    StableHlo.binary main_v64 main_v77 main_v78 (cmpi .slt : (⟨S30000, .i32⟩ : BufTy).Contents (Elt F) → (⟨S30000, .i32⟩ : BufTy).Contents (Elt F) → (⟨S30000, .i1⟩ : BufTy).Contents (Elt F)),
    StableHlo.nullary main_c_18 (constantI S_ 32 5000#32),
    StableHlo.unary main_c_18 main_v79 (broadcastInDim S30000 ![] bcast_S_S30000 : (⟨S_, .i32⟩ : BufTy).Contents (Elt F) → (⟨S30000, .i32⟩ : BufTy).Contents (Elt F)),
    StableHlo.binary main_v64 main_v79 main_v80 (addi : (⟨S30000, .i32⟩ : BufTy).Contents (Elt F) → (⟨S30000, .i32⟩ : BufTy).Contents (Elt F) → (⟨S30000, .i32⟩ : BufTy).Contents (Elt F)),
    StableHlo.ternary main_v78 main_v80 main_v64 main_v81 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)),
    StableHlo.unary main_v81 main_v82 (broadcastInDim S30000x1 ![0] bcast_S30000_S30000x1_0 : (⟨S30000, .i32⟩ : BufTy).Contents (Elt F) → (⟨S30000x1, .i32⟩ : BufTy).Contents (Elt F)),
    StableHlo.binary main_v76 main_v82 main_v83 ((fun x i => Host.gather gather_S5000_S30000x1_S30000_n_0_n_n_0_1_1 x i) : (⟨S5000, .f32⟩ : BufTy).Contents (Elt F) → (⟨S30000x1, .i32⟩ : BufTy).Contents (Elt F) → (⟨S30000, .f32⟩ : BufTy).Contents (Elt F)),
    StableHlo.binary main_v83 main_v69 main_v84 (mulf : (⟨S30000, .f32⟩ : BufTy).Contents (Elt F) → (⟨S30000, .f32⟩ : BufTy).Contents (Elt F) → (⟨S30000, .f32⟩ : BufTy).Contents (Elt F)),
    StableHlo.nullary main_c_19 (constantI S_ 32 0#32),
    StableHlo.unary main_c_19 main_v85 (broadcastInDim S30000 ![] bcast_S_S30000 : (⟨S_, .i32⟩ : BufTy).Contents (Elt F) → (⟨S30000, .i32⟩ : BufTy).Contents (Elt F)),
    StableHlo.binary main_v67 main_v85 main_v86 (cmpi .slt : (⟨S30000, .i32⟩ : BufTy).Contents (Elt F) → (⟨S30000, .i32⟩ : BufTy).Contents (Elt F) → (⟨S30000, .i1⟩ : BufTy).Contents (Elt F)),
    StableHlo.nullary main_c_20 (constantI S_ 32 5000#32),
    StableHlo.unary main_c_20 main_v87 (broadcastInDim S30000 ![] bcast_S_S30000 : (⟨S_, .i32⟩ : BufTy).Contents (Elt F) → (⟨S30000, .i32⟩ : BufTy).Contents (Elt F)),
    StableHlo.binary main_v67 main_v87 main_v88 (addi : (⟨S30000, .i32⟩ : BufTy).Contents (Elt F) → (⟨S30000, .i32⟩ : BufTy).Contents (Elt F) → (⟨S30000, .i32⟩ : BufTy).Contents (Elt F)),
    StableHlo.ternary main_v86 main_v88 main_v67 main_v89 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)),
    StableHlo.unary main_v89 main_v90 (broadcastInDim S30000x1 ![0] bcast_S30000_S30000x1_0 : (⟨S30000, .i32⟩ : BufTy).Contents (Elt F) → (⟨S30000x1, .i32⟩ : BufTy).Contents (Elt F)),
    StableHlo.binary main_v76 main_v90 main_v91 ((fun x i => Host.gather gather_S5000_S30000x1_S30000_n_0_n_n_0_1_1 x i) : (⟨S5000, .f32⟩ : BufTy).Contents (Elt F) → (⟨S30000x1, .i32⟩ : BufTy).Contents (Elt F) → (⟨S30000, .f32⟩ : BufTy).Contents (Elt F)),
    StableHlo.binary main_v84 main_v91 main_v92 (mulf : (⟨S30000, .f32⟩ : BufTy).Contents (Elt F) → (⟨S30000, .f32⟩ : BufTy).Contents (Elt F) → (⟨S30000, .f32⟩ : BufTy).Contents (Elt F)),
    StableHlo.binary main_arg7 main_arg12 main_v93 ((fun l r => Host.dotGeneral dot_S5000x2812_S2812x1024_S5000x1024_1_0_0_1_n_n none l r) : (⟨S5000x2812, .f32⟩ : BufTy).Contents (Elt F) → (⟨S2812x1024, .f32⟩ : BufTy).Contents (Elt F) → (⟨S5000x1024, .f32⟩ : BufTy).Contents (Elt F)),
    StableHlo.unary main_v92 main_v94 (broadcastInDim S30000x1 ![0] bcast_S30000_S30000x1_0 : (⟨S30000, .f32⟩ : BufTy).Contents (Elt F) → (⟨S30000x1, .f32⟩ : BufTy).Contents (Elt F)),
    StableHlo.nullary main_c_21 (constantI S_ 32 0#32),
    StableHlo.unary main_c_21 main_v95 (broadcastInDim S30000 ![] bcast_S_S30000 : (⟨S_, .i32⟩ : BufTy).Contents (Elt F) → (⟨S30000, .i32⟩ : BufTy).Contents (Elt F)) ]

theorem ops1_split : (ops1 : List (HloOp τ sig (Elt F))) = s4 ++ s5 ++ s6 ++ s7 := rfl

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub ..⟩

/-- No operation of the part writes one of the 36 argument buffers (the buffers of index below 36): each writes its own result buffer, of a larger index. -/
theorem keep1 (V : Valuation τ sig (Elt F)) (b : Ref sig .tc) (hb : b.idx.val < 36) :
    after (ops1 (F := F)) V (Proc.devRef .tc b) = V (Proc.devRef .tc b) :=
  after_of_forall_not_mem _ _ (List.forall_iff_forall_mem.mp (by
    simp only [List.Forall, nullary_writes, unary_writes, binary_writes, ternary_writes, quaternary_writes, reshape_writes, nary_writes, Finset.mem_singleton]
    repeat' apply And.intro
    all_goals exact devRef_ne_of_ne (fun e => by subst e; revert hb; decide)))

set_option maxRecDepth 16384 in
set_option maxHeartbeats 40000000 in
theorem part1_eq (c : Dev nD) : main_part1 (F := F) c = seq ops1 := by
  (simp only [main_part1, fn_where_0.body, fn_where_1.body, seq, bind_assoc, pure_bind]) <;> rfl

end Cert.ReferenceIdeal.RefRun

end
-- ==== Proof.RefPart2.lean ====
import proofs.«402148_j44985487458808_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 13 operations, ending with the one that writes %106. -/
abbrev s8 : List (HloOp τ sig (Elt F)) :=
  [ StableHlo.binary main_v64 main_v95 main_v96 (cmpi .slt : (⟨S30000, .i32⟩ : BufTy).Contents (Elt F) → (⟨S30000, .i32⟩ : BufTy).Contents (Elt F) → (⟨S30000, .i1⟩ : BufTy).Contents (Elt F)),
    StableHlo.nullary main_c_22 (constantI S_ 32 5000#32),
    StableHlo.unary main_c_22 main_v97 (broadcastInDim S30000 ![] bcast_S_S30000 : (⟨S_, .i32⟩ : BufTy).Contents (Elt F) → (⟨S30000, .i32⟩ : BufTy).Contents (Elt F)),
    StableHlo.binary main_v64 main_v97 main_v98 (addi : (⟨S30000, .i32⟩ : BufTy).Contents (Elt F) → (⟨S30000, .i32⟩ : BufTy).Contents (Elt F) → (⟨S30000, .i32⟩ : BufTy).Contents (Elt F)),
    StableHlo.ternary main_v96 main_v98 main_v64 main_v99 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)),
    StableHlo.unary main_v99 main_v100 (broadcastInDim S30000x1 ![0] bcast_S30000_S30000x1_0 : (⟨S30000, .i32⟩ : BufTy).Contents (Elt F) → (⟨S30000x1, .i32⟩ : BufTy).Contents (Elt F)),
    StableHlo.binary main_v93 main_v100 main_v101 ((fun x i => Host.gather gather_S5000x1024_S30000x1_S30000x1024_1_0_n_n_0_1_11024 x i) : (⟨S5000x1024, .f32⟩ : BufTy).Contents (Elt F) → (⟨S30000x1, .i32⟩ : BufTy).Contents (Elt F) → (⟨S30000x1024, .f32⟩ : BufTy).Contents (Elt F)),
    StableHlo.unary main_v94 main_v102 (broadcastInDim S30000x1024 ![0, 1] bcast_S30000x1_S30000x1024_0_1 : (⟨S30000x1, .f32⟩ : BufTy).Contents (Elt F) → (⟨S30000x1024, .f32⟩ : BufTy).Contents (Elt F)),
    StableHlo.binary main_v102 main_v101 main_v103 (mulf : (⟨S30000x1024, .f32⟩ : BufTy).Contents (Elt F) → (⟨S30000x1024, .f32⟩ : BufTy).Contents (Elt F) → (⟨S30000x1024, .f32⟩ : BufTy).Contents (Elt F)),
    StableHlo.nullary main_cst_23 (constant S_ .f32 0x00000000#32),
    StableHlo.unary main_cst_23 main_v104 (broadcastInDim S5000x1024 ![] bcast_S_S5000x1024 : (⟨S_, .f32⟩ : BufTy).Contents (Elt F) → (⟨S5000x1024, .f32⟩ : BufTy).Contents (Elt F)),
    StableHlo.unary main_v67 main_v105 (broadcastInDim S30000x1 ![0] bcast_S30000_S30000x1_0 : (⟨S30000, .i32⟩ : BufTy).Contents (Elt F) → (⟨S30000x1, .i32⟩ : BufTy).Contents (Elt F)),
    StableHlo.ternary main_v104 main_v105 main_v103 main_v106 ((fun x i u => Host.scatterAdd scatter_S5000x1024_S30000x1_S30000x1024_1_0_0_1 x i u) : (⟨S5000x1024, .f32⟩ : BufTy).Contents (Elt F) → (⟨S30000x1, .i32⟩ : BufTy).Contents (Elt F) → (⟨S30000x1024, .f32⟩ : BufTy).Contents (Elt F) → (⟨S5000x1024, .f32⟩ : BufTy).Contents (Elt F)) ]

theorem s8_sub : (s8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- 19 operations, ending with the one that writes %121. -/
abbrev s9 : List (HloOp τ sig (Elt F)) :=
  [ StableHlo.unary main_arg13 main_v107 (broadcastInDim S1x1024 ![1] bcast_S1024_S1x1024_1 : (⟨S1024, .f32⟩ : BufTy).Contents (Elt F) → (⟨S1x1024, .f32⟩ : BufTy).Contents (Elt F)),
    StableHlo.unary main_v107 main_v108 (broadcastInDim S5000x1024 ![0, 1] bcast_S1x1024_S5000x1024_0_1 : (⟨S1x1024, .f32⟩ : BufTy).Contents (Elt F) → (⟨S5000x1024, .f32⟩ : BufTy).Contents (Elt F)),
    StableHlo.binary main_v106 main_v108 main_v109 (addf : (⟨S5000x1024, .f32⟩ : BufTy).Contents (Elt F) → (⟨S5000x1024, .f32⟩ : BufTy).Contents (Elt F) → (⟨S5000x1024, .f32⟩ : BufTy).Contents (Elt F)),
    StableHlo.nullary main_cst_24 (constant S_ .f32 0x00000000#32),
    StableHlo.unary main_cst_24 main_v110 (broadcastInDim S5000x1024 ![] bcast_S_S5000x1024 : (⟨S_, .f32⟩ : BufTy).Contents (Elt F) → (⟨S5000x1024, .f32⟩ : BufTy).Contents (Elt F)),
    StableHlo.binary main_v109 main_v110 main_v111 (cmpf .oge : (⟨S5000x1024, .f32⟩ : BufTy).Contents (Elt F) → (⟨S5000x1024, .f32⟩ : BufTy).Contents (Elt F) → (⟨S5000x1024, .i1⟩ : BufTy).Contents (Elt F)),
    StableHlo.nullary main_cst_25 (constant S_ .f32 0x3C23D70A#32),
    StableHlo.unary main_cst_25 main_v112 (broadcastInDim S5000x1024 ![] bcast_S_S5000x1024 : (⟨S_, .f32⟩ : BufTy).Contents (Elt F) → (⟨S5000x1024, .f32⟩ : BufTy).Contents (Elt F)),
    StableHlo.binary main_v112 main_v109 main_v113 (mulf : (⟨S5000x1024, .f32⟩ : BufTy).Contents (Elt F) → (⟨S5000x1024, .f32⟩ : BufTy).Contents (Elt F) → (⟨S5000x1024, .f32⟩ : BufTy).Contents (Elt F)),
    StableHlo.TRef.ternary (.of main_v111) (.of main_v109) (.of main_v113) main_call3.v0 select,
    StableHlo.nullary main_c_26 (constantI S_ 32 0#32),
    StableHlo.unary main_c_26 main_v115 (broadcastInDim S2048 ![] bcast_S_S2048 : (⟨S_, .i32⟩ : BufTy).Contents (Elt F) → (⟨S2048, .i32⟩ : BufTy).Contents (Elt F)),
    StableHlo.binary main_arg1 main_v115 main_v116 (cmpi .slt : (⟨S2048, .i32⟩ : BufTy).Contents (Elt F) → (⟨S2048, .i32⟩ : BufTy).Contents (Elt F) → (⟨S2048, .i1⟩ : BufTy).Contents (Elt F)),
    StableHlo.nullary main_c_27 (constantI S_ 32 5000#32),
    StableHlo.unary main_c_27 main_v117 (broadcastInDim S2048 ![] bcast_S_S2048 : (⟨S_, .i32⟩ : BufTy).Contents (Elt F) → (⟨S2048, .i32⟩ : BufTy).Contents (Elt F)),
    StableHlo.binary main_arg1 main_v117 main_v118 (addi : (⟨S2048, .i32⟩ : BufTy).Contents (Elt F) → (⟨S2048, .i32⟩ : BufTy).Contents (Elt F) → (⟨S2048, .i32⟩ : BufTy).Contents (Elt F)),
    StableHlo.ternary main_v116 main_v118 main_arg1 main_v119 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v119 main_v120 (broadcastInDim S2048x1 ![0] bcast_S2048_S2048x1_0 : (⟨S2048, .i32⟩ : BufTy).Contents (Elt F) → (⟨S2048x1, .i32⟩ : BufTy).Contents (Elt F)),
    StableHlo.binary main_v114 main_v120 main_v121 ((fun x i => Host.gather gather_S5000x1024_S2048x1_S2048x1024_1_0_n_n_0_1_11024 x i) : (⟨S5000x1024, .f32⟩ : BufTy).Contents (Elt F) → (⟨S2048x1, .i32⟩ : BufTy).Contents (Elt F) → (⟨S2048x1024, .f32⟩ : BufTy).Contents (Elt F)) ]

theorem s9_sub : (s9 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩

/-- 1 operations, ending with the one that writes %122. -/
abbrev s10 : List (HloOp τ sig (Elt F)) :=
  [ StableHlo.nary ![main_arg2, main_arg3, main_v60, main_v121] main_v122 (fun u => concatenate S2048x3372 1 [⟨S2048x300, u 0⟩, ⟨S2048x1024, u 1⟩, ⟨S2048x1024, u 2⟩, ⟨S2048x1024, u 3⟩] concatenates_S2048x300_S2048x1024_S2048x1024_S2048x1024_S2048x3372_d1) ]

theorem s10_sub : (s10 : List (HloOp τ sig (Elt F))).Forall fun op => op.bufs ⊆ tcRefs τ sig :=
  nary_bufs_sub ..

/-- 48 operations, ending with the one that writes %145. -/
abbrev s11 : List (HloOp τ sig (Elt F)) :=
  [ StableHlo.binary main_v122 main_arg14 main_v123 ((fun l r => Host.dotGeneral dot_S2048x3372_S3372x1024_S2048x1024_1_0_0_1_n_n none l r) : (⟨S2048x3372, .f32⟩ : BufTy).Contents (Elt F) → (⟨S3372x1024, .f32⟩ : BufTy).Contents (Elt F) → (⟨S2048x1024, .f32⟩ : BufTy).Contents (Elt F)),
    StableHlo.unary main_arg15 main_v124 (broadcastInDim S1x1024 ![1] bcast_S1024_S1x1024_1 : (⟨S1024, .f32⟩ : BufTy).Contents (Elt F) → (⟨S1x1024, .f32⟩ : BufTy).Contents (Elt F)),
    StableHlo.unary main_v124 main_v125 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v123 main_v125 main_v126 (addf : (⟨S2048x1024, .f32⟩ : BufTy).Contents (Elt F) → (⟨S2048x1024, .f32⟩ : BufTy).Contents (Elt F) → (⟨S2048x1024, .f32⟩ : BufTy).Contents (Elt F)),
    StableHlo.nullary main_cst_28 (constant S_ .f32 0x00000000#32),
    StableHlo.binary main_v126 main_cst_28 main_v127 ((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F)),
    StableHlo.nullary main_cst_29 (constant S_ .f32 0x45000000#32),
    StableHlo.unary main_cst_29 main_v128 (broadcastInDim S1024 ![] bcast_S_S1024 : (⟨S_, .f32⟩ : BufTy).Contents (Elt F) → (⟨S1024, .f32⟩ : BufTy).Contents (Elt F)),
    StableHlo.binary main_v127 main_v128 main_v129 (Host.divf : (⟨S1024, .f32⟩ : BufTy).Contents (Elt F) → (⟨S1024, .f32⟩ : BufTy).Contents (Elt F) → (⟨S1024, .f32⟩ : BufTy).Contents (Elt F)),
    StableHlo.nullary main_c_30 (constantI S_ 32 0#32),
    StableHlo.TRef.nullary main_call4.cst (constant S_ .f32 0x00000000#32),
    StableHlo.TRef.binary (.of main_v126) main_call4.cst main_call4.v0 (fun x v => Host.reduceAdd x v reducesTo_S2048x1024_S1024_d0 h_S_),
    StableHlo.TRef.unary main_call4.v0 main_call4.v1 (broadcastInDim S1x1024 ![1] bcast_S1024_S1x1024_1),
    StableHlo.TRef.nullary main_call4.cst_0 (constant S_ .f32 0x45000000#32),
    StableHlo.TRef.unary main_call4.cst_0 main_call4.v2 (broadcastInDim S1x1024 ![] bcast_S_S1x1024),
    StableHlo.TRef.binary main_call4.v1 main_call4.v2 main_call4.v3 Host.divf,
    StableHlo.TRef.unary main_call4.v3 main_call4.v4 (broadcastInDim S2048x1024 ![0, 1] bcast_S1x1024_S2048x1024_0_1),
    StableHlo.TRef.binary (.of main_v126) main_call4.v4 main_call4.v5 subf,
    StableHlo.TRef.binary main_call4.v5 main_call4.v5 main_call4.v6 mulf,
    StableHlo.TRef.unary (.of main_c_30) main_call4.v7 (sitofp .f32),
    StableHlo.TRef.nullary main_call4.cst_1 (constant S_ .f32 0x45000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S2048x1024_S1024_d0 h_S_),
    StableHlo.TRef.unary main_call4.v8 main_call4.v10 (broadcastInDim S1024 ![] bcast_S_S1024),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1024 ![] bcast_S_S1024),
    StableHlo.TRef.ternary main_call4.v12 main_call4.v11 main_call4.call0.v1 main_call4.call0.v2 (fun p a b => select (broadcastInDim S1024 ![] bcast_S_S1024 p) a b),
    StableHlo.unary main_v129 main_v131 (broadcastInDim S1x1024 ![1] bcast_S1024_S1x1024_1 : (⟨S1024, .f32⟩ : BufTy).Contents (Elt F) → (⟨S1x1024, .f32⟩ : BufTy).Contents (Elt F)),
    StableHlo.unary main_v131 main_v132 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v126 main_v132 main_v133 (subf : (⟨S2048x1024, .f32⟩ : BufTy).Contents (Elt F) → (⟨S2048x1024, .f32⟩ : BufTy).Contents (Elt F) → (⟨S2048x1024, .f32⟩ : BufTy).Contents (Elt F)),
    StableHlo.unary main_arg16 main_v134 (broadcastInDim S1x1024 ![1] bcast_S1024_S1x1024_1 : (⟨S1024, .f32⟩ : BufTy).Contents (Elt F) → (⟨S1x1024, .f32⟩ : BufTy).Contents (Elt F)),
    StableHlo.unary main_v134 main_v135 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v135 main_v133 main_v136 (mulf : (⟨S2048x1024, .f32⟩ : BufTy).Contents (Elt F) → (⟨S2048x1024, .f32⟩ : BufTy).Contents (Elt F) → (⟨S2048x1024, .f32⟩ : BufTy).Contents (Elt F)),
    StableHlo.nullary main_cst_31 (constant S_ .f32 0x3727C5AC#32),
    StableHlo.unary main_cst_31 main_v137 (broadcastInDim S1024 ![] bcast_S_S1024 : (⟨S_, .f32⟩ : BufTy).Contents (Elt F) → (⟨S1024, .f32⟩ : BufTy).Contents (Elt F)),
    StableHlo.binary main_v130 main_v137 main_v138 (addf : (⟨S1024, .f32⟩ : BufTy).Contents (Elt F) → (⟨S1024, .f32⟩ : BufTy).Contents (Elt F) → (⟨S1024, .f32⟩ : BufTy).Contents (Elt F)),
    StableHlo.unary main_v138 main_v139 (Host.rsqrt : (⟨S1024, .f32⟩ : BufTy).Contents (Elt F) → (⟨S1024, .f32⟩ : BufTy).Contents (Elt F)),
    StableHlo.unary main_v139 main_v140 (broadcastInDim S1x1024 ![1] bcast_S1024_S1x1024_1 : (⟨S1024, .f32⟩ : BufTy).Contents (Elt F) → (⟨S1x1024, .f32⟩ : BufTy).Contents (Elt F)),
    StableHlo.unary main_v140 main_v141 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v136 main_v141 main_v142 (mulf : (⟨S2048x1024, .f32⟩ : BufTy).Contents (Elt F) → (⟨S2048x1024, .f32⟩ : BufTy).Contents (Elt F) → (⟨S2048x1024, .f32⟩ : BufTy).Contents (Elt F)),
    StableHlo.unary main_arg17 main_v143 (broadcastInDim S1x1024 ![1] bcast_S1024_S1x1024_1 : (⟨S1024, .f32⟩ : BufTy).Contents (Elt F) → (⟨S1x1024, .f32⟩ : BufTy).Contents (Elt F)),
    StableHlo.unary main_v143 main_v144 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v142 main_v144 main_v145 (addf : (⟨S2048x1024, .f32⟩ : BufTy).Contents (Elt F) → (⟨S2048x1024, .f32⟩ : BufTy).Contents (Elt F) → (⟨S2048x1024, .f32⟩ : BufTy).Contents (Elt F)) ]

theorem s11_sub : (s11 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

/-- The part's 81 operations in order. -/
abbrev ops2 : List (HloOp τ sig (Elt F)) :=
  [ StableHlo.binary main_v64 main_v95 main_v96 (cmpi .slt : (⟨S30000, .i32⟩ : BufTy).Contents (Elt F) → (⟨S30000, .i32⟩ : BufTy).Contents (Elt F) → (⟨S30000, .i1⟩ : BufTy).Contents (Elt F)),
    StableHlo.nullary main_c_22 (constantI S_ 32 5000#32),
    StableHlo.unary main_c_22 main_v97 (broadcastInDim S30000 ![] bcast_S_S30000 : (⟨S_, .i32⟩ : BufTy).Contents (Elt F) → (⟨S30000, .i32⟩ : BufTy).Contents (Elt F)),
    StableHlo.binary main_v64 main_v97 main_v98 (addi : (⟨S30000, .i32⟩ : BufTy).Contents (Elt F) → (⟨S30000, .i32⟩ : BufTy).Contents (Elt F) → (⟨S30000, .i32⟩ : BufTy).Contents (Elt F)),
    StableHlo.ternary main_v96 main_v98 main_v64 main_v99 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)),
    StableHlo.unary main_v99 main_v100 (broadcastInDim S30000x1 ![0] bcast_S30000_S30000x1_0 : (⟨S30000, .i32⟩ : BufTy).Contents (Elt F) → (⟨S30000x1, .i32⟩ : BufTy).Contents (Elt F)),
    StableHlo.binary main_v93 main_v100 main_v101 ((fun x i => Host.gather gather_S5000x1024_S30000x1_S30000x1024_1_0_n_n_0_1_11024 x i) : (⟨S5000x1024, .f32⟩ : BufTy).Contents (Elt F) → (⟨S30000x1, .i32⟩ : BufTy).Contents (Elt F) → (⟨S30000x1024, .f32⟩ : BufTy).Contents (Elt F)),
    StableHlo.unary main_v94 main_v102 (broadcastInDim S30000x1024 ![0, 1] bcast_S30000x1_S30000x1024_0_1 : (⟨S30000x1, .f32⟩ : BufTy).Contents (Elt F) → (⟨S30000x1024, .f32⟩ : BufTy).Contents (Elt F)),
    StableHlo.binary main_v102 main_v101 main_v103 (mulf : (⟨S30000x1024, .f32⟩ : BufTy).Contents (Elt F) → (⟨S30000x1024, .f32⟩ : BufTy).Contents (Elt F) → (⟨S30000x1024, .f32⟩ : BufTy).Contents (Elt F)),
    StableHlo.nullary main_cst_23 (constant S_ .f32 0x00000000#32),
    StableHlo.unary main_cst_23 main_v104 (broadcastInDim S5000x1024 ![] bcast_S_S5000x1024 : (⟨S_, .f32⟩ : BufTy).Contents (Elt F) → (⟨S5000x1024, .f32⟩ : BufTy).Contents (Elt F)),
    StableHlo.unary main_v67 main_v105 (broadcastInDim S30000x1 ![0] bcast_S30000_S30000x1_0 : (⟨S30000, .i32⟩ : BufTy).Contents (Elt F) → (⟨S30000x1, .i32⟩ : BufTy).Contents (Elt F)),
    StableHlo.ternary main_v104 main_v105 main_v103 main_v106 ((fun x i u => Host.scatterAdd scatter_S5000x1024_S30000x1_S30000x1024_1_0_0_1 x i u) : (⟨S5000x1024, .f32⟩ : BufTy).Contents (Elt F) → (⟨S30000x1, .i32⟩ : BufTy).Contents (Elt F) → (⟨S30000x1024, .f32⟩ : BufTy).Contents (Elt F) → (⟨S5000x1024, .f32⟩ : BufTy).Contents (Elt F)),
    StableHlo.unary main_arg13 main_v107 (broadcastInDim S1x1024 ![1] bcast_S1024_S1x1024_1 : (⟨S1024, .f32⟩ : BufTy).Contents (Elt F) → (⟨S1x1024, .f32⟩ : BufTy).Contents (Elt F)),
    StableHlo.unary main_v107 main_v108 (broadcastInDim S5000x1024 ![0, 1] bcast_S1x1024_S5000x1024_0_1 : (⟨S1x1024, .f32⟩ : BufTy).Contents (Elt F) → (⟨S5000x1024, .f32⟩ : BufTy).Contents (Elt F)),
    StableHlo.binary main_v106 main_v108 main_v109 (addf : (⟨S5000x1024, .f32⟩ : BufTy).Contents (Elt F) → (⟨S5000x1024, .f32⟩ : BufTy).Contents (Elt F) → (⟨S5000x1024, .f32⟩ : BufTy).Contents (Elt F)),
    StableHlo.nullary main_cst_24 (constant S_ .f32 0x00000000#32),
    StableHlo.unary main_cst_24 main_v110 (broadcastInDim S5000x1024 ![] bcast_S_S5000x1024 : (⟨S_, .f32⟩ : BufTy).Contents (Elt F) → (⟨S5000x1024, .f32⟩ : BufTy).Contents (Elt F)),
    StableHlo.binary main_v109 main_v110 main_v111 (cmpf .oge : (⟨S5000x1024, .f32⟩ : BufTy).Contents (Elt F) → (⟨S5000x1024, .f32⟩ : BufTy).Contents (Elt F) → (⟨S5000x1024, .i1⟩ : BufTy).Contents (Elt F)),
    StableHlo.nullary main_cst_25 (constant S_ .f32 0x3C23D70A#32),
    StableHlo.unary main_cst_25 main_v112 (broadcastInDim S5000x1024 ![] bcast_S_S5000x1024 : (⟨S_, .f32⟩ : BufTy).Contents (Elt F) → (⟨S5000x1024, .f32⟩ : BufTy).Contents (Elt F)),
    StableHlo.binary main_v112 main_v109 main_v113 (mulf : (⟨S5000x1024, .f32⟩ : BufTy).Contents (Elt F) → (⟨S5000x1024, .f32⟩ : BufTy).Contents (Elt F) → (⟨S5000x1024, .f32⟩ : BufTy).Contents (Elt F)),
    StableHlo.TRef.ternary (.of main_v111) (.of main_v109) (.of main_v113) main_call3.v0 select,
    StableHlo.nullary main_c_26 (constantI S_ 32 0#32),
    StableHlo.unary main_c_26 main_v115 (broadcastInDim S2048 ![] bcast_S_S2048 : (⟨S_, .i32⟩ : BufTy).Contents (Elt F) → (⟨S2048, .i32⟩ : BufTy).Contents (Elt F)),
    StableHlo.binary main_arg1 main_v115 main_v116 (cmpi .slt : (⟨S2048, .i32⟩ : BufTy).Contents (Elt F) → (⟨S2048, .i32⟩ : BufTy).Contents (Elt F) → (⟨S2048, .i1⟩ : BufTy).Contents (Elt F)),
    StableHlo.nullary main_c_27 (constantI S_ 32 5000#32),
    StableHlo.unary main_c_27 main_v117 (broadcastInDim S2048 ![] bcast_S_S2048 : (⟨S_, .i32⟩ : BufTy).Contents (Elt F) → (⟨S2048, .i32⟩ : BufTy).Contents (Elt F)),
    StableHlo.binary main_arg1 main_v117 main_v118 (addi : (⟨S2048, .i32⟩ : BufTy).Contents (Elt F) → (⟨S2048, .i32⟩ : BufTy).Contents (Elt F) → (⟨S2048, .i32⟩ : BufTy).Contents (Elt F)),
    StableHlo.ternary main_v116 main_v118 main_arg1 main_v119 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v119 main_v120 (broadcastInDim S2048x1 ![0] bcast_S2048_S2048x1_0 : (⟨S2048, .i32⟩ : BufTy).Contents (Elt F) → (⟨S2048x1, .i32⟩ : BufTy).Contents (Elt F)),
    StableHlo.binary main_v114 main_v120 main_v121 ((fun x i => Host.gather gather_S5000x1024_S2048x1_S2048x1024_1_0_n_n_0_1_11024 x i) : (⟨S5000x1024, .f32⟩ : BufTy).Contents (Elt F) → (⟨S2048x1, .i32⟩ : BufTy).Contents (Elt F) → (⟨S2048x1024, .f32⟩ : BufTy).Contents (Elt F)),
    StableHlo.nary ![main_arg2, main_arg3, main_v60, main_v121] main_v122 (fun u => concatenate S2048x3372 1 [⟨S2048x300, u 0⟩, ⟨S2048x1024, u 1⟩, ⟨S2048x1024, u 2⟩, ⟨S2048x1024, u 3⟩] concatenates_S2048x300_S2048x1024_S2048x1024_S2048x1024_S2048x3372_d1),
    StableHlo.binary main_v122 main_arg14 main_v123 ((fun l r => Host.dotGeneral dot_S2048x3372_S3372x1024_S2048x1024_1_0_0_1_n_n none l r) : (⟨S2048x3372, .f32⟩ : BufTy).Contents (Elt F) → (⟨S3372x1024, .f32⟩ : BufTy).Contents (Elt F) → (⟨S2048x1024, .f32⟩ : BufTy).Contents (Elt F)),
    StableHlo.unary main_arg15 main_v124 (broadcastInDim S1x1024 ![1] bcast_S1024_S1x1024_1 : (⟨S1024, .f32⟩ : BufTy).Contents (Elt F) → (⟨S1x1024, .f32⟩ : BufTy).Contents (Elt F)),
    StableHlo.unary main_v124 main_v125 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v123 main_v125 main_v126 (addf : (⟨S2048x1024, .f32⟩ : BufTy).Contents (Elt F) → (⟨S2048x1024, .f32⟩ : BufTy).Contents (Elt F) → (⟨S2048x1024, .f32⟩ : BufTy).Contents (Elt F)),
    StableHlo.nullary main_cst_28 (constant S_ .f32 0x00000000#32),
    StableHlo.binary main_v126 main_cst_28 main_v127 ((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F)),
    StableHlo.nullary main_cst_29 (constant S_ .f32 0x45000000#32),
    StableHlo.unary main_cst_29 main_v128 (broadcastInDim S1024 ![] bcast_S_S1024 : (⟨S_, .f32⟩ : BufTy).Contents (Elt F) → (⟨S1024, .f32⟩ : BufTy).Contents (Elt F)),
    StableHlo.binary main_v127 main_v128 main_v129 (Host.divf : (⟨S1024, .f32⟩ : BufTy).Contents (Elt F) → (⟨S1024, .f32⟩ : BufTy).Contents (Elt F) → (⟨S1024, .f32⟩ : BufTy).Contents (Elt F)),
    StableHlo.nullary main_c_30 (constantI S_ 32 0#32),
    StableHlo.TRef.nullary main_call4.cst (constant S_ .f32 0x00000000#32),
    StableHlo.TRef.binary (.of main_v126) main_call4.cst main_call4.v0 (fun x v => Host.reduceAdd x v reducesTo_S2048x1024_S1024_d0 h_S_),
    StableHlo.TRef.unary main_call4.v0 main_call4.v1 (broadcastInDim S1x1024 ![1] bcast_S1024_S1x1024_1),
    StableHlo.TRef.nullary main_call4.cst_0 (constant S_ .f32 0x45000000#32),
    StableHlo.TRef.unary main_call4.cst_0 main_call4.v2 (broadcastInDim S1x1024 ![] bcast_S_S1x1024),
    StableHlo.TRef.binary main_call4.v1 main_call4.v2 main_call4.v3 Host.divf,
    StableHlo.TRef.unary main_call4.v3 main_call4.v4 (broadcastInDim S2048x1024 ![0, 1] bcast_S1x1024_S2048x1024_0_1),
    StableHlo.TRef.binary (.of main_v126) main_call4.v4 main_call4.v5 subf,
    StableHlo.TRef.binary main_call4.v5 main_call4.v5 main_call4.v6 mulf,
    StableHlo.TRef.unary (.of main_c_30) main_call4.v7 (sitofp .f32),
    StableHlo.TRef.nullary main_call4.cst_1 (constant S_ .f32 0x45000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S2048x1024_S1024_d0 h_S_),
    StableHlo.TRef.unary main_call4.v8 main_call4.v10 (broadcastInDim S1024 ![] bcast_S_S1024),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1024 ![] bcast_S_S1024),
    StableHlo.TRef.ternary main_call4.v12 main_call4.v11 main_call4.call0.v1 main_call4.call0.v2 (fun p a b => select (broadcastInDim S1024 ![] bcast_S_S1024 p) a b),
    StableHlo.unary main_v129 main_v131 (broadcastInDim S1x1024 ![1] bcast_S1024_S1x1024_1 : (⟨S1024, .f32⟩ : BufTy).Contents (Elt F) → (⟨S1x1024, .f32⟩ : BufTy).Contents (Elt F)),
    StableHlo.unary main_v131 main_v132 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v126 main_v132 main_v133 (subf : (⟨S2048x1024, .f32⟩ : BufTy).Contents (Elt F) → (⟨S2048x1024, .f32⟩ : BufTy).Contents (Elt F) → (⟨S2048x1024, .f32⟩ : BufTy).Contents (Elt F)),
    StableHlo.unary main_arg16 main_v134 (broadcastInDim S1x1024 ![1] bcast_S1024_S1x1024_1 : (⟨S1024, .f32⟩ : BufTy).Contents (Elt F) → (⟨S1x1024, .f32⟩ : BufTy).Contents (Elt F)),
    StableHlo.unary main_v134 main_v135 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v135 main_v133 main_v136 (mulf : (⟨S2048x1024, .f32⟩ : BufTy).Contents (Elt F) → (⟨S2048x1024, .f32⟩ : BufTy).Contents (Elt F) → (⟨S2048x1024, .f32⟩ : BufTy).Contents (Elt F)),
    StableHlo.nullary main_cst_31 (constant S_ .f32 0x3727C5AC#32),
    StableHlo.unary main_cst_31 main_v137 (broadcastInDim S1024 ![] bcast_S_S1024 : (⟨S_, .f32⟩ : BufTy).Contents (Elt F) → (⟨S1024, .f32⟩ : BufTy).Contents (Elt F)),
    StableHlo.binary main_v130 main_v137 main_v138 (addf : (⟨S1024, .f32⟩ : BufTy).Contents (Elt F) → (⟨S1024, .f32⟩ : BufTy).Contents (Elt F) → (⟨S1024, .f32⟩ : BufTy).Contents (Elt F)),
    StableHlo.unary main_v138 main_v139 (Host.rsqrt : (⟨S1024, .f32⟩ : BufTy).Contents (Elt F) → (⟨S1024, .f32⟩ : BufTy).Contents (Elt F)),
    StableHlo.unary main_v139 main_v140 (broadcastInDim S1x1024 ![1] bcast_S1024_S1x1024_1 : (⟨S1024, .f32⟩ : BufTy).Contents (Elt F) → (⟨S1x1024, .f32⟩ : BufTy).Contents (Elt F)),
    StableHlo.unary main_v140 main_v141 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v136 main_v141 main_v142 (mulf : (⟨S2048x1024, .f32⟩ : BufTy).Contents (Elt F) → (⟨S2048x1024, .f32⟩ : BufTy).Contents (Elt F) → (⟨S2048x1024, .f32⟩ : BufTy).Contents (Elt F)),
    StableHlo.unary main_arg17 main_v143 (broadcastInDim S1x1024 ![1] bcast_S1024_S1x1024_1 : (⟨S1024, .f32⟩ : BufTy).Contents (Elt F) → (⟨S1x1024, .f32⟩ : BufTy).Contents (Elt F)),
    StableHlo.unary main_v143 main_v144 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v142 main_v144 main_v145 (addf : (⟨S2048x1024, .f32⟩ : BufTy).Contents (Elt F) → (⟨S2048x1024, .f32⟩ : BufTy).Contents (Elt F) → (⟨S2048x1024, .f32⟩ : BufTy).Contents (Elt F)) ]

theorem ops2_split : (ops2 : List (HloOp τ sig (Elt F))) = s8 ++ s9 ++ s10 ++ s11 := rfl

theorem ops2_sub : (ops2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

/-- No operation of the part writes one of the 36 argument buffers (the buffers of index below 36): each writes its own result buffer, of a larger index. -/
theorem keep2 (V : Valuation τ sig (Elt F)) (b : Ref sig .tc) (hb : b.idx.val < 36) :
    after (ops2 (F := F)) V (Proc.devRef .tc b) = V (Proc.devRef .tc b) :=
  after_of_forall_not_mem _ _ (List.forall_iff_forall_mem.mp (by
    simp only [List.Forall, nullary_writes, unary_writes, binary_writes, ternary_writes, quaternary_writes, reshape_writes, nary_writes, Finset.mem_singleton]
    repeat' apply And.intro
    all_goals exact devRef_ne_of_ne (fun e => by subst e; revert hb; decide)))

set_option maxRecDepth 16384 in
set_option maxHeartbeats 40000000 in
theorem part2_eq (c : Dev nD) : main_part2 (F := F) c = seq ops2 := by
  (simp only [main_part2, fn_var.body, fn_where_2.body, fn_where_3.body, seq, bind_assoc, pure_bind]) <;> rfl

end Cert.ReferenceIdeal.RefRun

end
-- ==== Proof.RefPart3.lean ====
import proofs.«402148_j44985487458808_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 3 operations, ending with the one that writes %146. -/
abbrev s12 : List (HloOp τ sig (Elt F)) :=
  [ StableHlo.TRef.nullary main_call5.cst (constant S_ .f32 0x00000000#32),
    StableHlo.TRef.unary main_call5.cst main_call5.v0 (broadcastInDim S2048x1024 ![] bcast_S_S2048x1024),
    StableHlo.TRef.binary (.of main_v145) main_call5.v0 main_call5.v1 maximumf ]

theorem s12_sub : (s12 : List (HloOp τ sig (Elt F))).Forall fun op => op.bufs ⊆ tcRefs τ sig :=
  ⟨nullary_bufs_sub .., unary_bufs_sub .., binary_bufs_sub ..⟩

/-- 51 operations, ending with the one that writes %170. -/
abbrev s13 : List (HloOp τ sig (Elt F)) :=
  [ StableHlo.binary main_v146 main_arg18 main_v147 ((fun l r => Host.dotGeneral dot_S2048x1024_S1024x256_S2048x256_1_0_0_1_n_n none l r) : (⟨S2048x1024, .f32⟩ : BufTy).Contents (Elt F) → (⟨S1024x256, .f32⟩ : BufTy).Contents (Elt F) → (⟨S2048x256, .f32⟩ : BufTy).Contents (Elt F)),
    StableHlo.unary main_arg19 main_v148 (broadcastInDim S1x256 ![1] bcast_S256_S1x256_1 : (⟨S256, .f32⟩ : BufTy).Contents (Elt F) → (⟨S1x256, .f32⟩ : BufTy).Contents (Elt F)),
    StableHlo.unary main_v148 main_v149 (broadcastInDim S2048x256 ![0, 1] bcast_S1x256_S2048x256_0_1 : (⟨S1x256, .f32⟩ : BufTy).Contents (Elt F) → (⟨S2048x256, .f32⟩ : BufTy).Contents (Elt F)),
    StableHlo.binary main_v147 main_v149 main_v150 (addf : (⟨S2048x256, .f32⟩ : BufTy).Contents (Elt F) → (⟨S2048x256, .f32⟩ : BufTy).Contents (Elt F) → (⟨S2048x256, .f32⟩ : BufTy).Contents (Elt F)),
    StableHlo.nullary main_cst_32 (constant S_ .f32 0x00000000#32),
    StableHlo.binary main_v150 main_cst_32 main_v151 ((fun x v => Host.reduceAdd x v reducesTo_S2048x256_S256_d0 h_S_) : (⟨S2048x256, .f32⟩ : BufTy).Contents (Elt F) → (⟨S_, .f32⟩ : BufTy).Contents (Elt F) → (⟨S256, .f32⟩ : BufTy).Contents (Elt F)),
    StableHlo.nullary main_cst_33 (constant S_ .f32 0x45000000#32),
    StableHlo.unary main_cst_33 main_v152 (broadcastInDim S256 ![] bcast_S_S256 : (⟨S_, .f32⟩ : BufTy).Contents (Elt F) → (⟨S256, .f32⟩ : BufTy).Contents (Elt F)),
    StableHlo.binary main_v151 main_v152 main_v153 (Host.divf : (⟨S256, .f32⟩ : BufTy).Contents (Elt F) → (⟨S256, .f32⟩ : BufTy).Contents (Elt F) → (⟨S256, .f32⟩ : BufTy).Contents (Elt F)),
    StableHlo.nullary main_c_34 (constantI S_ 32 0#32),
    StableHlo.TRef.nullary main_call6.cst (constant S_ .f32 0x00000000#32),
    StableHlo.TRef.binary (.of main_v150) main_call6.cst main_call6.v0 (fun x v => Host.reduceAdd x v reducesTo_S2048x256_S256_d0 h_S_),
    StableHlo.TRef.unary main_call6.v0 main_call6.v1 (broadcastInDim S1x256 ![1] bcast_S256_S1x256_1),
    StableHlo.TRef.nullary main_call6.cst_0 (constant S_ .f32 0x45000000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S2048x256 ![0, 1] bcast_S1x256_S2048x256_0_1),
    StableHlo.TRef.binary (.of main_v150) main_call6.v4 main_call6.v5 subf,
    StableHlo.TRef.binary main_call6.v5 main_call6.v5 main_call6.v6 mulf,
    StableHlo.TRef.unary (.of main_c_34) main_call6.v7 (sitofp .f32),
    StableHlo.TRef.nullary main_call6.cst_1 (constant S_ .f32 0x45000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S2048x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b),
    StableHlo.unary main_v153 main_v155 (broadcastInDim S1x256 ![1] bcast_S256_S1x256_1 : (⟨S256, .f32⟩ : BufTy).Contents (Elt F) → (⟨S1x256, .f32⟩ : BufTy).Contents (Elt F)),
    StableHlo.unary main_v155 main_v156 (broadcastInDim S2048x256 ![0, 1] bcast_S1x256_S2048x256_0_1 : (⟨S1x256, .f32⟩ : BufTy).Contents (Elt F) → (⟨S2048x256, .f32⟩ : BufTy).Contents (Elt F)),
    StableHlo.binary main_v150 main_v156 main_v157 (subf : (⟨S2048x256, .f32⟩ : BufTy).Contents (Elt F) → (⟨S2048x256, .f32⟩ : BufTy).Contents (Elt F) → (⟨S2048x256, .f32⟩ : BufTy).Contents (Elt F)),
    StableHlo.unary main_arg20 main_v158 (broadcastInDim S1x256 ![1] bcast_S256_S1x256_1 : (⟨S256, .f32⟩ : BufTy).Contents (Elt F) → (⟨S1x256, .f32⟩ : BufTy).Contents (Elt F)),
    StableHlo.unary main_v158 main_v159 (broadcastInDim S2048x256 ![0, 1] bcast_S1x256_S2048x256_0_1 : (⟨S1x256, .f32⟩ : BufTy).Contents (Elt F) → (⟨S2048x256, .f32⟩ : BufTy).Contents (Elt F)),
    StableHlo.binary main_v159 main_v157 main_v160 (mulf : (⟨S2048x256, .f32⟩ : BufTy).Contents (Elt F) → (⟨S2048x256, .f32⟩ : BufTy).Contents (Elt F) → (⟨S2048x256, .f32⟩ : BufTy).Contents (Elt F)),
    StableHlo.nullary main_cst_35 (constant S_ .f32 0x3727C5AC#32),
    StableHlo.unary main_cst_35 main_v161 (broadcastInDim S256 ![] bcast_S_S256 : (⟨S_, .f32⟩ : BufTy).Contents (Elt F) → (⟨S256, .f32⟩ : BufTy).Contents (Elt F)),
    StableHlo.binary main_v154 main_v161 main_v162 (addf : (⟨S256, .f32⟩ : BufTy).Contents (Elt F) → (⟨S256, .f32⟩ : BufTy).Contents (Elt F) → (⟨S256, .f32⟩ : BufTy).Contents (Elt F)),
    StableHlo.unary main_v162 main_v163 (Host.rsqrt : (⟨S256, .f32⟩ : BufTy).Contents (Elt F) → (⟨S256, .f32⟩ : BufTy).Contents (Elt F)),
    StableHlo.unary main_v163 main_v164 (broadcastInDim S1x256 ![1] bcast_S256_S1x256_1 : (⟨S256, .f32⟩ : BufTy).Contents (Elt F) → (⟨S1x256, .f32⟩ : BufTy).Contents (Elt F)),
    StableHlo.unary main_v164 main_v165 (broadcastInDim S2048x256 ![0, 1] bcast_S1x256_S2048x256_0_1 : (⟨S1x256, .f32⟩ : BufTy).Contents (Elt F) → (⟨S2048x256, .f32⟩ : BufTy).Contents (Elt F)),
    StableHlo.binary main_v160 main_v165 main_v166 (mulf : (⟨S2048x256, .f32⟩ : BufTy).Contents (Elt F) → (⟨S2048x256, .f32⟩ : BufTy).Contents (Elt F) → (⟨S2048x256, .f32⟩ : BufTy).Contents (Elt F)),
    StableHlo.unary main_arg21 main_v167 (broadcastInDim S1x256 ![1] bcast_S256_S1x256_1 : (⟨S256, .f32⟩ : BufTy).Contents (Elt F) → (⟨S1x256, .f32⟩ : BufTy).Contents (Elt F)),
    StableHlo.unary main_v167 main_v168 (broadcastInDim S2048x256 ![0, 1] bcast_S1x256_S2048x256_0_1 : (⟨S1x256, .f32⟩ : BufTy).Contents (Elt F) → (⟨S2048x256, .f32⟩ : BufTy).Contents (Elt F)),
    StableHlo.binary main_v166 main_v168 main_v169 (addf : (⟨S2048x256, .f32⟩ : BufTy).Contents (Elt F) → (⟨S2048x256, .f32⟩ : BufTy).Contents (Elt F) → (⟨S2048x256, .f32⟩ : BufTy).Contents (Elt F)),
    StableHlo.TRef.nullary main_call7.cst (constant S_ .f32 0x00000000#32),
    StableHlo.TRef.unary main_call7.cst main_call7.v0 (broadcastInDim S2048x256 ![] bcast_S_S2048x256),
    StableHlo.TRef.binary (.of main_v169) main_call7.v0 main_call7.v1 maximumf ]

theorem s13_sub : (s13 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

/-- 51 operations, ending with the one that writes %194. -/
abbrev s14 : List (HloOp τ sig (Elt F)) :=
  [ StableHlo.binary main_v170 main_arg22 main_v171 ((fun l r => Host.dotGeneral dot_S2048x256_S256x1024_S2048x1024_1_0_0_1_n_n none l r) : (⟨S2048x256, .f32⟩ : BufTy).Contents (Elt F) → (⟨S256x1024, .f32⟩ : BufTy).Contents (Elt F) → (⟨S2048x1024, .f32⟩ : BufTy).Contents (Elt F)),
    StableHlo.unary main_arg23 main_v172 (broadcastInDim S1x1024 ![1] bcast_S1024_S1x1024_1 : (⟨S1024, .f32⟩ : BufTy).Contents (Elt F) → (⟨S1x1024, .f32⟩ : BufTy).Contents (Elt F)),
    StableHlo.unary main_v172 main_v173 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v171 main_v173 main_v174 (addf : (⟨S2048x1024, .f32⟩ : BufTy).Contents (Elt F) → (⟨S2048x1024, .f32⟩ : BufTy).Contents (Elt F) → (⟨S2048x1024, .f32⟩ : BufTy).Contents (Elt F)),
    StableHlo.nullary main_cst_36 (constant S_ .f32 0x00000000#32),
    StableHlo.binary main_v174 main_cst_36 main_v175 ((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F)),
    StableHlo.nullary main_cst_37 (constant S_ .f32 0x45000000#32),
    StableHlo.unary main_cst_37 main_v176 (broadcastInDim S1024 ![] bcast_S_S1024 : (⟨S_, .f32⟩ : BufTy).Contents (Elt F) → (⟨S1024, .f32⟩ : BufTy).Contents (Elt F)),
    StableHlo.binary main_v175 main_v176 main_v177 (Host.divf : (⟨S1024, .f32⟩ : BufTy).Contents (Elt F) → (⟨S1024, .f32⟩ : BufTy).Contents (Elt F) → (⟨S1024, .f32⟩ : BufTy).Contents (Elt F)),
    StableHlo.nullary main_c_38 (constantI S_ 32 0#32),
    StableHlo.TRef.nullary main_call8.cst (constant S_ .f32 0x00000000#32),
    StableHlo.TRef.binary (.of main_v174) main_call8.cst main_call8.v0 (fun x v => Host.reduceAdd x v reducesTo_S2048x1024_S1024_d0 h_S_),
    StableHlo.TRef.unary main_call8.v0 main_call8.v1 (broadcastInDim S1x1024 ![1] bcast_S1024_S1x1024_1),
    StableHlo.TRef.nullary main_call8.cst_0 (constant S_ .f32 0x45000000#32),
    StableHlo.TRef.unary main_call8.cst_0 main_call8.v2 (broadcastInDim S1x1024 ![] bcast_S_S1x1024),
    StableHlo.TRef.binary main_call8.v1 main_call8.v2 main_call8.v3 Host.divf,
    StableHlo.TRef.unary main_call8.v3 main_call8.v4 (broadcastInDim S2048x1024 ![0, 1] bcast_S1x1024_S2048x1024_0_1),
    StableHlo.TRef.binary (.of main_v174) main_call8.v4 main_call8.v5 subf,
    StableHlo.TRef.binary main_call8.v5 main_call8.v5 main_call8.v6 mulf,
    StableHlo.TRef.unary (.of main_c_38) main_call8.v7 (sitofp .f32),
    StableHlo.TRef.nullary main_call8.cst_1 (constant S_ .f32 0x45000000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S2048x1024_S1024_d0 h_S_),
    StableHlo.TRef.unary main_call8.v8 main_call8.v10 (broadcastInDim S1024 ![] bcast_S_S1024),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S1024 ![] bcast_S_S1024),
    StableHlo.TRef.ternary main_call8.v12 main_call8.v11 main_call8.call0.v1 main_call8.call0.v2 (fun p a b => select (broadcastInDim S1024 ![] bcast_S_S1024 p) a b),
    StableHlo.unary main_v177 main_v179 (broadcastInDim S1x1024 ![1] bcast_S1024_S1x1024_1 : (⟨S1024, .f32⟩ : BufTy).Contents (Elt F) → (⟨S1x1024, .f32⟩ : BufTy).Contents (Elt F)),
    StableHlo.unary main_v179 main_v180 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v174 main_v180 main_v181 (subf : (⟨S2048x1024, .f32⟩ : BufTy).Contents (Elt F) → (⟨S2048x1024, .f32⟩ : BufTy).Contents (Elt F) → (⟨S2048x1024, .f32⟩ : BufTy).Contents (Elt F)),
    StableHlo.unary main_arg24 main_v182 (broadcastInDim S1x1024 ![1] bcast_S1024_S1x1024_1 : (⟨S1024, .f32⟩ : BufTy).Contents (Elt F) → (⟨S1x1024, .f32⟩ : BufTy).Contents (Elt F)),
    StableHlo.unary main_v182 main_v183 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v183 main_v181 main_v184 (mulf : (⟨S2048x1024, .f32⟩ : BufTy).Contents (Elt F) → (⟨S2048x1024, .f32⟩ : BufTy).Contents (Elt F) → (⟨S2048x1024, .f32⟩ : BufTy).Contents (Elt F)),
    StableHlo.nullary main_cst_39 (constant S_ .f32 0x3727C5AC#32),
    StableHlo.unary main_cst_39 main_v185 (broadcastInDim S1024 ![] bcast_S_S1024 : (⟨S_, .f32⟩ : BufTy).Contents (Elt F) → (⟨S1024, .f32⟩ : BufTy).Contents (Elt F)),
    StableHlo.binary main_v178 main_v185 main_v186 (addf : (⟨S1024, .f32⟩ : BufTy).Contents (Elt F) → (⟨S1024, .f32⟩ : BufTy).Contents (Elt F) → (⟨S1024, .f32⟩ : BufTy).Contents (Elt F)),
    StableHlo.unary main_v186 main_v187 (Host.rsqrt : (⟨S1024, .f32⟩ : BufTy).Contents (Elt F) → (⟨S1024, .f32⟩ : BufTy).Contents (Elt F)),
    StableHlo.unary main_v187 main_v188 (broadcastInDim S1x1024 ![1] bcast_S1024_S1x1024_1 : (⟨S1024, .f32⟩ : BufTy).Contents (Elt F) → (⟨S1x1024, .f32⟩ : BufTy).Contents (Elt F)),
    StableHlo.unary main_v188 main_v189 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v184 main_v189 main_v190 (mulf : (⟨S2048x1024, .f32⟩ : BufTy).Contents (Elt F) → (⟨S2048x1024, .f32⟩ : BufTy).Contents (Elt F) → (⟨S2048x1024, .f32⟩ : BufTy).Contents (Elt F)),
    StableHlo.unary main_arg25 main_v191 (broadcastInDim S1x1024 ![1] bcast_S1024_S1x1024_1 : (⟨S1024, .f32⟩ : BufTy).Contents (Elt F) → (⟨S1x1024, .f32⟩ : BufTy).Contents (Elt F)),
    StableHlo.unary main_v191 main_v192 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v190 main_v192 main_v193 (addf : (⟨S2048x1024, .f32⟩ : BufTy).Contents (Elt F) → (⟨S2048x1024, .f32⟩ : BufTy).Contents (Elt F) → (⟨S2048x1024, .f32⟩ : BufTy).Contents (Elt F)),
    StableHlo.TRef.nullary main_call9.cst (constant S_ .f32 0x00000000#32),
    StableHlo.TRef.unary main_call9.cst main_call9.v0 (broadcastInDim S2048x1024 ![] bcast_S_S2048x1024),
    StableHlo.TRef.binary (.of main_v193) main_call9.v0 main_call9.v1 maximumf ]

theorem s14_sub : (s14 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

/-- 3 operations, ending with the one that writes %197. -/
abbrev s15 : List (HloOp τ sig (Elt F)) :=
  [ StableHlo.binary main_v194 main_arg26 main_v195 ((fun l r => Host.dotGeneral dot_S2048x1024_S1024x3372_S2048x3372_1_0_0_1_n_n none l r) : (⟨S2048x1024, .f32⟩ : BufTy).Contents (Elt F) → (⟨S1024x3372, .f32⟩ : BufTy).Contents (Elt F) → (⟨S2048x3372, .f32⟩ : BufTy).Contents (Elt F)),
    StableHlo.unary main_arg27 main_v196 (broadcastInDim S1x3372 ![1] bcast_S3372_S1x3372_1 : (⟨S3372, .f32⟩ : BufTy).Contents (Elt F) → (⟨S1x3372, .f32⟩ : BufTy).Contents (Elt F)),
    StableHlo.unary main_v196 main_v197 (broadcastInDim S2048x3372 ![0, 1] bcast_S1x3372_S2048x3372_0_1 : (⟨S1x3372, .f32⟩ : BufTy).Contents (Elt F) → (⟨S2048x3372, .f32⟩ : BufTy).Contents (Elt F)) ]

theorem s15_sub : (s15 : List (HloOp τ sig (Elt F))).Forall fun op => op.bufs ⊆ tcRefs τ sig :=
  ⟨binary_bufs_sub .., unary_bufs_sub .., unary_bufs_sub ..⟩

/-- The part's 108 operations in order. -/
abbrev ops3 : List (HloOp τ sig (Elt F)) :=
  [ StableHlo.TRef.nullary main_call5.cst (constant S_ .f32 0x00000000#32),
    StableHlo.TRef.unary main_call5.cst main_call5.v0 (broadcastInDim S2048x1024 ![] bcast_S_S2048x1024),
    StableHlo.TRef.binary (.of main_v145) main_call5.v0 main_call5.v1 maximumf,
    StableHlo.binary main_v146 main_arg18 main_v147 ((fun l r => Host.dotGeneral dot_S2048x1024_S1024x256_S2048x256_1_0_0_1_n_n none l r) : (⟨S2048x1024, .f32⟩ : BufTy).Contents (Elt F) → (⟨S1024x256, .f32⟩ : BufTy).Contents (Elt F) → (⟨S2048x256, .f32⟩ : BufTy).Contents (Elt F)),
    StableHlo.unary main_arg19 main_v148 (broadcastInDim S1x256 ![1] bcast_S256_S1x256_1 : (⟨S256, .f32⟩ : BufTy).Contents (Elt F) → (⟨S1x256, .f32⟩ : BufTy).Contents (Elt F)),
    StableHlo.unary main_v148 main_v149 (broadcastInDim S2048x256 ![0, 1] bcast_S1x256_S2048x256_0_1 : (⟨S1x256, .f32⟩ : BufTy).Contents (Elt F) → (⟨S2048x256, .f32⟩ : BufTy).Contents (Elt F)),
    StableHlo.binary main_v147 main_v149 main_v150 (addf : (⟨S2048x256, .f32⟩ : BufTy).Contents (Elt F) → (⟨S2048x256, .f32⟩ : BufTy).Contents (Elt F) → (⟨S2048x256, .f32⟩ : BufTy).Contents (Elt F)),
    StableHlo.nullary main_cst_32 (constant S_ .f32 0x00000000#32),
    StableHlo.binary main_v150 main_cst_32 main_v151 ((fun x v => Host.reduceAdd x v reducesTo_S2048x256_S256_d0 h_S_) : (⟨S2048x256, .f32⟩ : BufTy).Contents (Elt F) → (⟨S_, .f32⟩ : BufTy).Contents (Elt F) → (⟨S256, .f32⟩ : BufTy).Contents (Elt F)),
    StableHlo.nullary main_cst_33 (constant S_ .f32 0x45000000#32),
    StableHlo.unary main_cst_33 main_v152 (broadcastInDim S256 ![] bcast_S_S256 : (⟨S_, .f32⟩ : BufTy).Contents (Elt F) → (⟨S256, .f32⟩ : BufTy).Contents (Elt F)),
    StableHlo.binary main_v151 main_v152 main_v153 (Host.divf : (⟨S256, .f32⟩ : BufTy).Contents (Elt F) → (⟨S256, .f32⟩ : BufTy).Contents (Elt F) → (⟨S256, .f32⟩ : BufTy).Contents (Elt F)),
    StableHlo.nullary main_c_34 (constantI S_ 32 0#32),
    StableHlo.TRef.nullary main_call6.cst (constant S_ .f32 0x00000000#32),
    StableHlo.TRef.binary (.of main_v150) main_call6.cst main_call6.v0 (fun x v => Host.reduceAdd x v reducesTo_S2048x256_S256_d0 h_S_),
    StableHlo.TRef.unary main_call6.v0 main_call6.v1 (broadcastInDim S1x256 ![1] bcast_S256_S1x256_1),
    StableHlo.TRef.nullary main_call6.cst_0 (constant S_ .f32 0x45000000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S2048x256 ![0, 1] bcast_S1x256_S2048x256_0_1),
    StableHlo.TRef.binary (.of main_v150) main_call6.v4 main_call6.v5 subf,
    StableHlo.TRef.binary main_call6.v5 main_call6.v5 main_call6.v6 mulf,
    StableHlo.TRef.unary (.of main_c_34) main_call6.v7 (sitofp .f32),
    StableHlo.TRef.nullary main_call6.cst_1 (constant S_ .f32 0x45000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S2048x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b),
    StableHlo.unary main_v153 main_v155 (broadcastInDim S1x256 ![1] bcast_S256_S1x256_1 : (⟨S256, .f32⟩ : BufTy).Contents (Elt F) → (⟨S1x256, .f32⟩ : BufTy).Contents (Elt F)),
    StableHlo.unary main_v155 main_v156 (broadcastInDim S2048x256 ![0, 1] bcast_S1x256_S2048x256_0_1 : (⟨S1x256, .f32⟩ : BufTy).Contents (Elt F) → (⟨S2048x256, .f32⟩ : BufTy).Contents (Elt F)),
    StableHlo.binary main_v150 main_v156 main_v157 (subf : (⟨S2048x256, .f32⟩ : BufTy).Contents (Elt F) → (⟨S2048x256, .f32⟩ : BufTy).Contents (Elt F) → (⟨S2048x256, .f32⟩ : BufTy).Contents (Elt F)),
    StableHlo.unary main_arg20 main_v158 (broadcastInDim S1x256 ![1] bcast_S256_S1x256_1 : (⟨S256, .f32⟩ : BufTy).Contents (Elt F) → (⟨S1x256, .f32⟩ : BufTy).Contents (Elt F)),
    StableHlo.unary main_v158 main_v159 (broadcastInDim S2048x256 ![0, 1] bcast_S1x256_S2048x256_0_1 : (⟨S1x256, .f32⟩ : BufTy).Contents (Elt F) → (⟨S2048x256, .f32⟩ : BufTy).Contents (Elt F)),
    StableHlo.binary main_v159 main_v157 main_v160 (mulf : (⟨S2048x256, .f32⟩ : BufTy).Contents (Elt F) → (⟨S2048x256, .f32⟩ : BufTy).Contents (Elt F) → (⟨S2048x256, .f32⟩ : BufTy).Contents (Elt F)),
    StableHlo.nullary main_cst_35 (constant S_ .f32 0x3727C5AC#32),
    StableHlo.unary main_cst_35 main_v161 (broadcastInDim S256 ![] bcast_S_S256 : (⟨S_, .f32⟩ : BufTy).Contents (Elt F) → (⟨S256, .f32⟩ : BufTy).Contents (Elt F)),
    StableHlo.binary main_v154 main_v161 main_v162 (addf : (⟨S256, .f32⟩ : BufTy).Contents (Elt F) → (⟨S256, .f32⟩ : BufTy).Contents (Elt F) → (⟨S256, .f32⟩ : BufTy).Contents (Elt F)),
    StableHlo.unary main_v162 main_v163 (Host.rsqrt : (⟨S256, .f32⟩ : BufTy).Contents (Elt F) → (⟨S256, .f32⟩ : BufTy).Contents (Elt F)),
    StableHlo.unary main_v163 main_v164 (broadcastInDim S1x256 ![1] bcast_S256_S1x256_1 : (⟨S256, .f32⟩ : BufTy).Contents (Elt F) → (⟨S1x256, .f32⟩ : BufTy).Contents (Elt F)),
    StableHlo.unary main_v164 main_v165 (broadcastInDim S2048x256 ![0, 1] bcast_S1x256_S2048x256_0_1 : (⟨S1x256, .f32⟩ : BufTy).Contents (Elt F) → (⟨S2048x256, .f32⟩ : BufTy).Contents (Elt F)),
    StableHlo.binary main_v160 main_v165 main_v166 (mulf : (⟨S2048x256, .f32⟩ : BufTy).Contents (Elt F) → (⟨S2048x256, .f32⟩ : BufTy).Contents (Elt F) → (⟨S2048x256, .f32⟩ : BufTy).Contents (Elt F)),
    StableHlo.unary main_arg21 main_v167 (broadcastInDim S1x256 ![1] bcast_S256_S1x256_1 : (⟨S256, .f32⟩ : BufTy).Contents (Elt F) → (⟨S1x256, .f32⟩ : BufTy).Contents (Elt F)),
    StableHlo.unary main_v167 main_v168 (broadcastInDim S2048x256 ![0, 1] bcast_S1x256_S2048x256_0_1 : (⟨S1x256, .f32⟩ : BufTy).Contents (Elt F) → (⟨S2048x256, .f32⟩ : BufTy).Contents (Elt F)),
    StableHlo.binary main_v166 main_v168 main_v169 (addf : (⟨S2048x256, .f32⟩ : BufTy).Contents (Elt F) → (⟨S2048x256, .f32⟩ : BufTy).Contents (Elt F) → (⟨S2048x256, .f32⟩ : BufTy).Contents (Elt F)),
    StableHlo.TRef.nullary main_call7.cst (constant S_ .f32 0x00000000#32),
    StableHlo.TRef.unary main_call7.cst main_call7.v0 (broadcastInDim S2048x256 ![] bcast_S_S2048x256),
    StableHlo.TRef.binary (.of main_v169) main_call7.v0 main_call7.v1 maximumf,
    StableHlo.binary main_v170 main_arg22 main_v171 ((fun l r => Host.dotGeneral dot_S2048x256_S256x1024_S2048x1024_1_0_0_1_n_n none l r) : (⟨S2048x256, .f32⟩ : BufTy).Contents (Elt F) → (⟨S256x1024, .f32⟩ : BufTy).Contents (Elt F) → (⟨S2048x1024, .f32⟩ : BufTy).Contents (Elt F)),
    StableHlo.unary main_arg23 main_v172 (broadcastInDim S1x1024 ![1] bcast_S1024_S1x1024_1 : (⟨S1024, .f32⟩ : BufTy).Contents (Elt F) → (⟨S1x1024, .f32⟩ : BufTy).Contents (Elt F)),
    StableHlo.unary main_v172 main_v173 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v171 main_v173 main_v174 (addf : (⟨S2048x1024, .f32⟩ : BufTy).Contents (Elt F) → (⟨S2048x1024, .f32⟩ : BufTy).Contents (Elt F) → (⟨S2048x1024, .f32⟩ : BufTy).Contents (Elt F)),
    StableHlo.nullary main_cst_36 (constant S_ .f32 0x00000000#32),
    StableHlo.binary main_v174 main_cst_36 main_v175 ((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F)),
    StableHlo.nullary main_cst_37 (constant S_ .f32 0x45000000#32),
    StableHlo.unary main_cst_37 main_v176 (broadcastInDim S1024 ![] bcast_S_S1024 : (⟨S_, .f32⟩ : BufTy).Contents (Elt F) → (⟨S1024, .f32⟩ : BufTy).Contents (Elt F)),
    StableHlo.binary main_v175 main_v176 main_v177 (Host.divf : (⟨S1024, .f32⟩ : BufTy).Contents (Elt F) → (⟨S1024, .f32⟩ : BufTy).Contents (Elt F) → (⟨S1024, .f32⟩ : BufTy).Contents (Elt F)),
    StableHlo.nullary main_c_38 (constantI S_ 32 0#32),
    StableHlo.TRef.nullary main_call8.cst (constant S_ .f32 0x00000000#32),
    StableHlo.TRef.binary (.of main_v174) main_call8.cst main_call8.v0 (fun x v => Host.reduceAdd x v reducesTo_S2048x1024_S1024_d0 h_S_),
    StableHlo.TRef.unary main_call8.v0 main_call8.v1 (broadcastInDim S1x1024 ![1] bcast_S1024_S1x1024_1),
    StableHlo.TRef.nullary main_call8.cst_0 (constant S_ .f32 0x45000000#32),
    StableHlo.TRef.unary main_call8.cst_0 main_call8.v2 (broadcastInDim S1x1024 ![] bcast_S_S1x1024),
    StableHlo.TRef.binary main_call8.v1 main_call8.v2 main_call8.v3 Host.divf,
    StableHlo.TRef.unary main_call8.v3 main_call8.v4 (broadcastInDim S2048x1024 ![0, 1] bcast_S1x1024_S2048x1024_0_1),
    StableHlo.TRef.binary (.of main_v174) main_call8.v4 main_call8.v5 subf,
    StableHlo.TRef.binary main_call8.v5 main_call8.v5 main_call8.v6 mulf,
    StableHlo.TRef.unary (.of main_c_38) main_call8.v7 (sitofp .f32),
    StableHlo.TRef.nullary main_call8.cst_1 (constant S_ .f32 0x45000000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S2048x1024_S1024_d0 h_S_),
    StableHlo.TRef.unary main_call8.v8 main_call8.v10 (broadcastInDim S1024 ![] bcast_S_S1024),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S1024 ![] bcast_S_S1024),
    StableHlo.TRef.ternary main_call8.v12 main_call8.v11 main_call8.call0.v1 main_call8.call0.v2 (fun p a b => select (broadcastInDim S1024 ![] bcast_S_S1024 p) a b),
    StableHlo.unary main_v177 main_v179 (broadcastInDim S1x1024 ![1] bcast_S1024_S1x1024_1 : (⟨S1024, .f32⟩ : BufTy).Contents (Elt F) → (⟨S1x1024, .f32⟩ : BufTy).Contents (Elt F)),
    StableHlo.unary main_v179 main_v180 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v174 main_v180 main_v181 (subf : (⟨S2048x1024, .f32⟩ : BufTy).Contents (Elt F) → (⟨S2048x1024, .f32⟩ : BufTy).Contents (Elt F) → (⟨S2048x1024, .f32⟩ : BufTy).Contents (Elt F)),
    StableHlo.unary main_arg24 main_v182 (broadcastInDim S1x1024 ![1] bcast_S1024_S1x1024_1 : (⟨S1024, .f32⟩ : BufTy).Contents (Elt F) → (⟨S1x1024, .f32⟩ : BufTy).Contents (Elt F)),
    StableHlo.unary main_v182 main_v183 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v183 main_v181 main_v184 (mulf : (⟨S2048x1024, .f32⟩ : BufTy).Contents (Elt F) → (⟨S2048x1024, .f32⟩ : BufTy).Contents (Elt F) → (⟨S2048x1024, .f32⟩ : BufTy).Contents (Elt F)),
    StableHlo.nullary main_cst_39 (constant S_ .f32 0x3727C5AC#32),
    StableHlo.unary main_cst_39 main_v185 (broadcastInDim S1024 ![] bcast_S_S1024 : (⟨S_, .f32⟩ : BufTy).Contents (Elt F) → (⟨S1024, .f32⟩ : BufTy).Contents (Elt F)),
    StableHlo.binary main_v178 main_v185 main_v186 (addf : (⟨S1024, .f32⟩ : BufTy).Contents (Elt F) → (⟨S1024, .f32⟩ : BufTy).Contents (Elt F) → (⟨S1024, .f32⟩ : BufTy).Contents (Elt F)),
    StableHlo.unary main_v186 main_v187 (Host.rsqrt : (⟨S1024, .f32⟩ : BufTy).Contents (Elt F) → (⟨S1024, .f32⟩ : BufTy).Contents (Elt F)),
    StableHlo.unary main_v187 main_v188 (broadcastInDim S1x1024 ![1] bcast_S1024_S1x1024_1 : (⟨S1024, .f32⟩ : BufTy).Contents (Elt F) → (⟨S1x1024, .f32⟩ : BufTy).Contents (Elt F)),
    StableHlo.unary main_v188 main_v189 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v184 main_v189 main_v190 (mulf : (⟨S2048x1024, .f32⟩ : BufTy).Contents (Elt F) → (⟨S2048x1024, .f32⟩ : BufTy).Contents (Elt F) → (⟨S2048x1024, .f32⟩ : BufTy).Contents (Elt F)),
    StableHlo.unary main_arg25 main_v191 (broadcastInDim S1x1024 ![1] bcast_S1024_S1x1024_1 : (⟨S1024, .f32⟩ : BufTy).Contents (Elt F) → (⟨S1x1024, .f32⟩ : BufTy).Contents (Elt F)),
    StableHlo.unary main_v191 main_v192 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v190 main_v192 main_v193 (addf : (⟨S2048x1024, .f32⟩ : BufTy).Contents (Elt F) → (⟨S2048x1024, .f32⟩ : BufTy).Contents (Elt F) → (⟨S2048x1024, .f32⟩ : BufTy).Contents (Elt F)),
    StableHlo.TRef.nullary main_call9.cst (constant S_ .f32 0x00000000#32),
    StableHlo.TRef.unary main_call9.cst main_call9.v0 (broadcastInDim S2048x1024 ![] bcast_S_S2048x1024),
    StableHlo.TRef.binary (.of main_v193) main_call9.v0 main_call9.v1 maximumf,
    StableHlo.binary main_v194 main_arg26 main_v195 ((fun l r => Host.dotGeneral dot_S2048x1024_S1024x3372_S2048x3372_1_0_0_1_n_n none l r) : (⟨S2048x1024, .f32⟩ : BufTy).Contents (Elt F) → (⟨S1024x3372, .f32⟩ : BufTy).Contents (Elt F) → (⟨S2048x3372, .f32⟩ : BufTy).Contents (Elt F)),
    StableHlo.unary main_arg27 main_v196 (broadcastInDim S1x3372 ![1] bcast_S3372_S1x3372_1 : (⟨S3372, .f32⟩ : BufTy).Contents (Elt F) → (⟨S1x3372, .f32⟩ : BufTy).Contents (Elt F)),
    StableHlo.unary main_v196 main_v197 (broadcastInDim S2048x3372 ![0, 1] bcast_S1x3372_S2048x3372_0_1 : (⟨S1x3372, .f32⟩ : BufTy).Contents (Elt F) → (⟨S2048x3372, .f32⟩ : BufTy).Contents (Elt F)) ]

theorem ops3_split : (ops3 : List (HloOp τ sig (Elt F))) = s12 ++ s13 ++ s14 ++ s15 := rfl

theorem ops3_sub : (ops3 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub ..⟩

/-- No operation of the part writes one of the 36 argument buffers (the buffers of index below 36): each writes its own result buffer, of a larger index. -/
theorem keep3 (V : Valuation τ sig (Elt F)) (b : Ref sig .tc) (hb : b.idx.val < 36) :
    after (ops3 (F := F)) V (Proc.devRef .tc b) = V (Proc.devRef .tc b) :=
  after_of_forall_not_mem _ _ (List.forall_iff_forall_mem.mp (by
    simp only [List.Forall, nullary_writes, unary_writes, binary_writes, ternary_writes, quaternary_writes, reshape_writes, nary_writes, Finset.mem_singleton]
    repeat' apply And.intro
    all_goals exact devRef_ne_of_ne (fun e => by subst e; revert hb; decide)))

set_option maxRecDepth 16384 in
set_option maxHeartbeats 40000000 in
theorem part3_eq (c : Dev nD) : main_part3 (F := F) c = seq ops3 := by
  (simp only [main_part3, fn_relu.body, fn_relu_6.body, fn_var.body, fn_var_4.body, fn_where_3.body, fn_where_5.body, seq, bind_assoc, pure_bind]) <;> rfl

end Cert.ReferenceIdeal.RefRun

end
-- ==== Proof.RefPart4.lean ====
import proofs.«402148_j44985487458808_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 48 operations, ending with the one that writes %218. -/
abbrev s16 : List (HloOp τ sig (Elt F)) :=
  [ StableHlo.binary main_v195 main_v197 main_v198 (addf : (⟨S2048x3372, .f32⟩ : BufTy).Contents (Elt F) → (⟨S2048x3372, .f32⟩ : BufTy).Contents (Elt F) → (⟨S2048x3372, .f32⟩ : BufTy).Contents (Elt F)),
    StableHlo.nullary main_cst_40 (constant S_ .f32 0x00000000#32),
    StableHlo.binary main_v198 main_cst_40 main_v199 ((fun x v => Host.reduceAdd x v reducesTo_S2048x3372_S3372_d0 h_S_) : (⟨S2048x3372, .f32⟩ : BufTy).Contents (Elt F) → (⟨S_, .f32⟩ : BufTy).Contents (Elt F) → (⟨S3372, .f32⟩ : BufTy).Contents (Elt F)),
    StableHlo.nullary main_cst_41 (constant S_ .f32 0x45000000#32),
    StableHlo.unary main_cst_41 main_v200 (broadcastInDim S3372 ![] bcast_S_S3372 : (⟨S_, .f32⟩ : BufTy).Contents (Elt F) → (⟨S3372, .f32⟩ : BufTy).Contents (Elt F)),
    StableHlo.binary main_v199 main_v200 main_v201 (Host.divf : (⟨S3372, .f32⟩ : BufTy).Contents (Elt F) → (⟨S3372, .f32⟩ : BufTy).Contents (Elt F) → (⟨S3372, .f32⟩ : BufTy).Contents (Elt F)),
    StableHlo.nullary main_c_42 (constantI S_ 32 0#32),
    StableHlo.TRef.nullary main_call10.cst (constant S_ .f32 0x00000000#32),
    StableHlo.TRef.binary (.of main_v198) main_call10.cst main_call10.v0 (fun x v => Host.reduceAdd x v reducesTo_S2048x3372_S3372_d0 h_S_),
    StableHlo.TRef.unary main_call10.v0 main_call10.v1 (broadcastInDim S1x3372 ![1] bcast_S3372_S1x3372_1),
    StableHlo.TRef.nullary main_call10.cst_0 (constant S_ .f32 0x45000000#32),
    StableHlo.TRef.unary main_call10.cst_0 main_call10.v2 (broadcastInDim S1x3372 ![] bcast_S_S1x3372),
    StableHlo.TRef.binary main_call10.v1 main_call10.v2 main_call10.v3 Host.divf,
    StableHlo.TRef.unary main_call10.v3 main_call10.v4 (broadcastInDim S2048x3372 ![0, 1] bcast_S1x3372_S2048x3372_0_1),
    StableHlo.TRef.binary (.of main_v198) main_call10.v4 main_call10.v5 subf,
    StableHlo.TRef.binary main_call10.v5 main_call10.v5 main_call10.v6 mulf,
    StableHlo.TRef.unary (.of main_c_42) main_call10.v7 (sitofp .f32),
    StableHlo.TRef.nullary main_call10.cst_1 (constant S_ .f32 0x45000000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S2048x3372_S3372_d0 h_S_),
    StableHlo.TRef.unary main_call10.v8 main_call10.v10 (broadcastInDim S3372 ![] bcast_S_S3372),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S3372 ![] bcast_S_S3372),
    StableHlo.TRef.ternary main_call10.v12 main_call10.v11 main_call10.call0.v1 main_call10.call0.v2 (fun p a b => select (broadcastInDim S3372 ![] bcast_S_S3372 p) a b),
    StableHlo.unary main_v201 main_v203 (broadcastInDim S1x3372 ![1] bcast_S3372_S1x3372_1 : (⟨S3372, .f32⟩ : BufTy).Contents (Elt F) → (⟨S1x3372, .f32⟩ : BufTy).Contents (Elt F)),
    StableHlo.unary main_v203 main_v204 (broadcastInDim S2048x3372 ![0, 1] bcast_S1x3372_S2048x3372_0_1 : (⟨S1x3372, .f32⟩ : BufTy).Contents (Elt F) → (⟨S2048x3372, .f32⟩ : BufTy).Contents (Elt F)),
    StableHlo.binary main_v198 main_v204 main_v205 (subf : (⟨S2048x3372, .f32⟩ : BufTy).Contents (Elt F) → (⟨S2048x3372, .f32⟩ : BufTy).Contents (Elt F) → (⟨S2048x3372, .f32⟩ : BufTy).Contents (Elt F)),
    StableHlo.unary main_arg28 main_v206 (broadcastInDim S1x3372 ![1] bcast_S3372_S1x3372_1 : (⟨S3372, .f32⟩ : BufTy).Contents (Elt F) → (⟨S1x3372, .f32⟩ : BufTy).Contents (Elt F)),
    StableHlo.unary main_v206 main_v207 (broadcastInDim S2048x3372 ![0, 1] bcast_S1x3372_S2048x3372_0_1 : (⟨S1x3372, .f32⟩ : BufTy).Contents (Elt F) → (⟨S2048x3372, .f32⟩ : BufTy).Contents (Elt F)),
    StableHlo.binary main_v207 main_v205 main_v208 (mulf : (⟨S2048x3372, .f32⟩ : BufTy).Contents (Elt F) → (⟨S2048x3372, .f32⟩ : BufTy).Contents (Elt F) → (⟨S2048x3372, .f32⟩ : BufTy).Contents (Elt F)),
    StableHlo.nullary main_cst_43 (constant S_ .f32 0x3727C5AC#32),
    StableHlo.unary main_cst_43 main_v209 (broadcastInDim S3372 ![] bcast_S_S3372 : (⟨S_, .f32⟩ : BufTy).Contents (Elt F) → (⟨S3372, .f32⟩ : BufTy).Contents (Elt F)),
    StableHlo.binary main_v202 main_v209 main_v210 (addf : (⟨S3372, .f32⟩ : BufTy).Contents (Elt F) → (⟨S3372, .f32⟩ : BufTy).Contents (Elt F) → (⟨S3372, .f32⟩ : BufTy).Contents (Elt F)),
    StableHlo.unary main_v210 main_v211 (Host.rsqrt : (⟨S3372, .f32⟩ : BufTy).Contents (Elt F) → (⟨S3372, .f32⟩ : BufTy).Contents (Elt F)),
    StableHlo.unary main_v211 main_v212 (broadcastInDim S1x3372 ![1] bcast_S3372_S1x3372_1 : (⟨S3372, .f32⟩ : BufTy).Contents (Elt F) → (⟨S1x3372, .f32⟩ : BufTy).Contents (Elt F)),
    StableHlo.unary main_v212 main_v213 (broadcastInDim S2048x3372 ![0, 1] bcast_S1x3372_S2048x3372_0_1 : (⟨S1x3372, .f32⟩ : BufTy).Contents (Elt F) → (⟨S2048x3372, .f32⟩ : BufTy).Contents (Elt F)),
    StableHlo.binary main_v208 main_v213 main_v214 (mulf : (⟨S2048x3372, .f32⟩ : BufTy).Contents (Elt F) → (⟨S2048x3372, .f32⟩ : BufTy).Contents (Elt F) → (⟨S2048x3372, .f32⟩ : BufTy).Contents (Elt F)),
    StableHlo.unary main_arg29 main_v215 (broadcastInDim S1x3372 ![1] bcast_S3372_S1x3372_1 : (⟨S3372, .f32⟩ : BufTy).Contents (Elt F) → (⟨S1x3372, .f32⟩ : BufTy).Contents (Elt F)),
    StableHlo.unary main_v215 main_v216 (broadcastInDim S2048x3372 ![0, 1] bcast_S1x3372_S2048x3372_0_1 : (⟨S1x3372, .f32⟩ : BufTy).Contents (Elt F) → (⟨S2048x3372, .f32⟩ : BufTy).Contents (Elt F)),
    StableHlo.binary main_v214 main_v216 main_v217 (addf : (⟨S2048x3372, .f32⟩ : BufTy).Contents (Elt F) → (⟨S2048x3372, .f32⟩ : BufTy).Contents (Elt F) → (⟨S2048x3372, .f32⟩ : BufTy).Contents (Elt F)),
    StableHlo.TRef.nullary main_call11.cst (constant S_ .f32 0x00000000#32),
    StableHlo.TRef.unary main_call11.cst main_call11.v0 (broadcastInDim S2048x3372 ![] bcast_S_S2048x3372),
    StableHlo.TRef.binary (.of main_v217) main_call11.v0 main_call11.v1 maximumf ]

theorem s16_sub : (s16 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

/-- 56 operations, ending with the one that writes %247. -/
abbrev s17 : List (HloOp τ sig (Elt F)) :=
  [ StableHlo.binary main_v170 main_arg30 main_v219 ((fun l r => Host.dotGeneral dot_S2048x256_S256x64_S2048x64_1_0_0_1_n_n none l r) : (⟨S2048x256, .f32⟩ : BufTy).Contents (Elt F) → (⟨S256x64, .f32⟩ : BufTy).Contents (Elt F) → (⟨S2048x64, .f32⟩ : BufTy).Contents (Elt F)),
    StableHlo.unary main_arg31 main_v220 (broadcastInDim S1x64 ![1] bcast_S64_S1x64_1 : (⟨S64, .f32⟩ : BufTy).Contents (Elt F) → (⟨S1x64, .f32⟩ : BufTy).Contents (Elt F)),
    StableHlo.unary main_v220 main_v221 (broadcastInDim S2048x64 ![0, 1] bcast_S1x64_S2048x64_0_1 : (⟨S1x64, .f32⟩ : BufTy).Contents (Elt F) → (⟨S2048x64, .f32⟩ : BufTy).Contents (Elt F)),
    StableHlo.binary main_v219 main_v221 main_v222 (addf : (⟨S2048x64, .f32⟩ : BufTy).Contents (Elt F) → (⟨S2048x64, .f32⟩ : BufTy).Contents (Elt F) → (⟨S2048x64, .f32⟩ : BufTy).Contents (Elt F)),
    StableHlo.nullary main_cst_44 (constant S_ .f32 0x00000000#32),
    StableHlo.binary main_v222 main_cst_44 main_v223 ((fun x v => Host.reduceAdd x v reducesTo_S2048x64_S64_d0 h_S_) : (⟨S2048x64, .f32⟩ : BufTy).Contents (Elt F) → (⟨S_, .f32⟩ : BufTy).Contents (Elt F) → (⟨S64, .f32⟩ : BufTy).Contents (Elt F)),
    StableHlo.nullary main_cst_45 (constant S_ .f32 0x45000000#32),
    StableHlo.unary main_cst_45 main_v224 (broadcastInDim S64 ![] bcast_S_S64 : (⟨S_, .f32⟩ : BufTy).Contents (Elt F) → (⟨S64, .f32⟩ : BufTy).Contents (Elt F)),
    StableHlo.binary main_v223 main_v224 main_v225 (Host.divf : (⟨S64, .f32⟩ : BufTy).Contents (Elt F) → (⟨S64, .f32⟩ : BufTy).Contents (Elt F) → (⟨S64, .f32⟩ : BufTy).Contents (Elt F)),
    StableHlo.nullary main_c_46 (constantI S_ 32 0#32),
    StableHlo.TRef.nullary main_call12.cst (constant S_ .f32 0x00000000#32),
    StableHlo.TRef.binary (.of main_v222) main_call12.cst main_call12.v0 (fun x v => Host.reduceAdd x v reducesTo_S2048x64_S64_d0 h_S_),
    StableHlo.TRef.unary main_call12.v0 main_call12.v1 (broadcastInDim S1x64 ![1] bcast_S64_S1x64_1),
    StableHlo.TRef.nullary main_call12.cst_0 (constant S_ .f32 0x45000000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S2048x64 ![0, 1] bcast_S1x64_S2048x64_0_1),
    StableHlo.TRef.binary (.of main_v222) main_call12.v4 main_call12.v5 subf,
    StableHlo.TRef.binary main_call12.v5 main_call12.v5 main_call12.v6 mulf,
    StableHlo.TRef.unary (.of main_c_46) main_call12.v7 (sitofp .f32),
    StableHlo.TRef.nullary main_call12.cst_1 (constant S_ .f32 0x45000000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S2048x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S64 ![] bcast_S_S64),
    StableHlo.TRef.ternary main_call12.v12 main_call12.v11 main_call12.call0.v1 main_call12.call0.v2 (fun p a b => select (broadcastInDim S64 ![] bcast_S_S64 p) a b),
    StableHlo.unary main_v225 main_v227 (broadcastInDim S1x64 ![1] bcast_S64_S1x64_1 : (⟨S64, .f32⟩ : BufTy).Contents (Elt F) → (⟨S1x64, .f32⟩ : BufTy).Contents (Elt F)),
    StableHlo.unary main_v227 main_v228 (broadcastInDim S2048x64 ![0, 1] bcast_S1x64_S2048x64_0_1 : (⟨S1x64, .f32⟩ : BufTy).Contents (Elt F) → (⟨S2048x64, .f32⟩ : BufTy).Contents (Elt F)),
    StableHlo.binary main_v222 main_v228 main_v229 (subf : (⟨S2048x64, .f32⟩ : BufTy).Contents (Elt F) → (⟨S2048x64, .f32⟩ : BufTy).Contents (Elt F) → (⟨S2048x64, .f32⟩ : BufTy).Contents (Elt F)),
    StableHlo.unary main_arg32 main_v230 (broadcastInDim S1x64 ![1] bcast_S64_S1x64_1 : (⟨S64, .f32⟩ : BufTy).Contents (Elt F) → (⟨S1x64, .f32⟩ : BufTy).Contents (Elt F)),
    StableHlo.unary main_v230 main_v231 (broadcastInDim S2048x64 ![0, 1] bcast_S1x64_S2048x64_0_1 : (⟨S1x64, .f32⟩ : BufTy).Contents (Elt F) → (⟨S2048x64, .f32⟩ : BufTy).Contents (Elt F)),
    StableHlo.binary main_v231 main_v229 main_v232 (mulf : (⟨S2048x64, .f32⟩ : BufTy).Contents (Elt F) → (⟨S2048x64, .f32⟩ : BufTy).Contents (Elt F) → (⟨S2048x64, .f32⟩ : BufTy).Contents (Elt F)),
    StableHlo.nullary main_cst_47 (constant S_ .f32 0x3727C5AC#32),
    StableHlo.unary main_cst_47 main_v233 (broadcastInDim S64 ![] bcast_S_S64 : (⟨S_, .f32⟩ : BufTy).Contents (Elt F) → (⟨S64, .f32⟩ : BufTy).Contents (Elt F)),
    StableHlo.binary main_v226 main_v233 main_v234 (addf : (⟨S64, .f32⟩ : BufTy).Contents (Elt F) → (⟨S64, .f32⟩ : BufTy).Contents (Elt F) → (⟨S64, .f32⟩ : BufTy).Contents (Elt F)),
    StableHlo.unary main_v234 main_v235 (Host.rsqrt : (⟨S64, .f32⟩ : BufTy).Contents (Elt F) → (⟨S64, .f32⟩ : BufTy).Contents (Elt F)),
    StableHlo.unary main_v235 main_v236 (broadcastInDim S1x64 ![1] bcast_S64_S1x64_1 : (⟨S64, .f32⟩ : BufTy).Contents (Elt F) → (⟨S1x64, .f32⟩ : BufTy).Contents (Elt F)),
    StableHlo.unary main_v236 main_v237 (broadcastInDim S2048x64 ![0, 1] bcast_S1x64_S2048x64_0_1 : (⟨S1x64, .f32⟩ : BufTy).Contents (Elt F) → (⟨S2048x64, .f32⟩ : BufTy).Contents (Elt F)),
    StableHlo.binary main_v232 main_v237 main_v238 (mulf : (⟨S2048x64, .f32⟩ : BufTy).Contents (Elt F) → (⟨S2048x64, .f32⟩ : BufTy).Contents (Elt F) → (⟨S2048x64, .f32⟩ : BufTy).Contents (Elt F)),
    StableHlo.unary main_arg33 main_v239 (broadcastInDim S1x64 ![1] bcast_S64_S1x64_1 : (⟨S64, .f32⟩ : BufTy).Contents (Elt F) → (⟨S1x64, .f32⟩ : BufTy).Contents (Elt F)),
    StableHlo.unary main_v239 main_v240 (broadcastInDim S2048x64 ![0, 1] bcast_S1x64_S2048x64_0_1 : (⟨S1x64, .f32⟩ : BufTy).Contents (Elt F) → (⟨S2048x64, .f32⟩ : BufTy).Contents (Elt F)),
    StableHlo.binary main_v238 main_v240 main_v241 (addf : (⟨S2048x64, .f32⟩ : BufTy).Contents (Elt F) → (⟨S2048x64, .f32⟩ : BufTy).Contents (Elt F) → (⟨S2048x64, .f32⟩ : BufTy).Contents (Elt F)),
    StableHlo.nullary main_cst_48 (constant S_ .f32 0x00000000#32),
    StableHlo.unary main_cst_48 main_v242 (broadcastInDim S2048x64 ![] bcast_S_S2048x64 : (⟨S_, .f32⟩ : BufTy).Contents (Elt F) → (⟨S2048x64, .f32⟩ : BufTy).Contents (Elt F)),
    StableHlo.binary main_v241 main_v242 main_v243 (cmpf .oge : (⟨S2048x64, .f32⟩ : BufTy).Contents (Elt F) → (⟨S2048x64, .f32⟩ : BufTy).Contents (Elt F) → (⟨S2048x64, .i1⟩ : BufTy).Contents (Elt F)),
    StableHlo.nullary main_cst_49 (constant S_ .f32 0x3C23D70A#32),
    StableHlo.unary main_cst_49 main_v244 (broadcastInDim S2048x64 ![] bcast_S_S2048x64 : (⟨S_, .f32⟩ : BufTy).Contents (Elt F) → (⟨S2048x64, .f32⟩ : BufTy).Contents (Elt F)),
    StableHlo.binary main_v244 main_v241 main_v245 (mulf : (⟨S2048x64, .f32⟩ : BufTy).Contents (Elt F) → (⟨S2048x64, .f32⟩ : BufTy).Contents (Elt F) → (⟨S2048x64, .f32⟩ : BufTy).Contents (Elt F)),
    StableHlo.TRef.ternary (.of main_v243) (.of main_v241) (.of main_v245) main_call13.v0 select,
    StableHlo.binary main_v246 main_arg34 main_v247 ((fun l r => Host.dotGeneral dot_S2048x64_S64x1_S2048x1_1_0_0_1_n_n none l r) : (⟨S2048x64, .f32⟩ : BufTy).Contents (Elt F) → (⟨S64x1, .f32⟩ : BufTy).Contents (Elt F) → (⟨S2048x1, .f32⟩ : BufTy).Contents (Elt F)) ]

theorem s17_sub : (s17 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

/-- The part's 104 operations in order. -/
abbrev ops4 : List (HloOp τ sig (Elt F)) :=
  [ StableHlo.binary main_v195 main_v197 main_v198 (addf : (⟨S2048x3372, .f32⟩ : BufTy).Contents (Elt F) → (⟨S2048x3372, .f32⟩ : BufTy).Contents (Elt F) → (⟨S2048x3372, .f32⟩ : BufTy).Contents (Elt F)),
    StableHlo.nullary main_cst_40 (constant S_ .f32 0x00000000#32),
    StableHlo.binary main_v198 main_cst_40 main_v199 ((fun x v => Host.reduceAdd x v reducesTo_S2048x3372_S3372_d0 h_S_) : (⟨S2048x3372, .f32⟩ : BufTy).Contents (Elt F) → (⟨S_, .f32⟩ : BufTy).Contents (Elt F) → (⟨S3372, .f32⟩ : BufTy).Contents (Elt F)),
    StableHlo.nullary main_cst_41 (constant S_ .f32 0x45000000#32),
    StableHlo.unary main_cst_41 main_v200 (broadcastInDim S3372 ![] bcast_S_S3372 : (⟨S_, .f32⟩ : BufTy).Contents (Elt F) → (⟨S3372, .f32⟩ : BufTy).Contents (Elt F)),
    StableHlo.binary main_v199 main_v200 main_v201 (Host.divf : (⟨S3372, .f32⟩ : BufTy).Contents (Elt F) → (⟨S3372, .f32⟩ : BufTy).Contents (Elt F) → (⟨S3372, .f32⟩ : BufTy).Contents (Elt F)),
    StableHlo.nullary main_c_42 (constantI S_ 32 0#32),
    StableHlo.TRef.nullary main_call10.cst (constant S_ .f32 0x00000000#32),
    StableHlo.TRef.binary (.of main_v198) main_call10.cst main_call10.v0 (fun x v => Host.reduceAdd x v reducesTo_S2048x3372_S3372_d0 h_S_),
    StableHlo.TRef.unary main_call10.v0 main_call10.v1 (broadcastInDim S1x3372 ![1] bcast_S3372_S1x3372_1),
    StableHlo.TRef.nullary main_call10.cst_0 (constant S_ .f32 0x45000000#32),
    StableHlo.TRef.unary main_call10.cst_0 main_call10.v2 (broadcastInDim S1x3372 ![] bcast_S_S1x3372),
    StableHlo.TRef.binary main_call10.v1 main_call10.v2 main_call10.v3 Host.divf,
    StableHlo.TRef.unary main_call10.v3 main_call10.v4 (broadcastInDim S2048x3372 ![0, 1] bcast_S1x3372_S2048x3372_0_1),
    StableHlo.TRef.binary (.of main_v198) main_call10.v4 main_call10.v5 subf,
    StableHlo.TRef.binary main_call10.v5 main_call10.v5 main_call10.v6 mulf,
    StableHlo.TRef.unary (.of main_c_42) main_call10.v7 (sitofp .f32),
    StableHlo.TRef.nullary main_call10.cst_1 (constant S_ .f32 0x45000000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S2048x3372_S3372_d0 h_S_),
    StableHlo.TRef.unary main_call10.v8 main_call10.v10 (broadcastInDim S3372 ![] bcast_S_S3372),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S3372 ![] bcast_S_S3372),
    StableHlo.TRef.ternary main_call10.v12 main_call10.v11 main_call10.call0.v1 main_call10.call0.v2 (fun p a b => select (broadcastInDim S3372 ![] bcast_S_S3372 p) a b),
    StableHlo.unary main_v201 main_v203 (broadcastInDim S1x3372 ![1] bcast_S3372_S1x3372_1 : (⟨S3372, .f32⟩ : BufTy).Contents (Elt F) → (⟨S1x3372, .f32⟩ : BufTy).Contents (Elt F)),
    StableHlo.unary main_v203 main_v204 (broadcastInDim S2048x3372 ![0, 1] bcast_S1x3372_S2048x3372_0_1 : (⟨S1x3372, .f32⟩ : BufTy).Contents (Elt F) → (⟨S2048x3372, .f32⟩ : BufTy).Contents (Elt F)),
    StableHlo.binary main_v198 main_v204 main_v205 (subf : (⟨S2048x3372, .f32⟩ : BufTy).Contents (Elt F) → (⟨S2048x3372, .f32⟩ : BufTy).Contents (Elt F) → (⟨S2048x3372, .f32⟩ : BufTy).Contents (Elt F)),
    StableHlo.unary main_arg28 main_v206 (broadcastInDim S1x3372 ![1] bcast_S3372_S1x3372_1 : (⟨S3372, .f32⟩ : BufTy).Contents (Elt F) → (⟨S1x3372, .f32⟩ : BufTy).Contents (Elt F)),
    StableHlo.unary main_v206 main_v207 (broadcastInDim S2048x3372 ![0, 1] bcast_S1x3372_S2048x3372_0_1 : (⟨S1x3372, .f32⟩ : BufTy).Contents (Elt F) → (⟨S2048x3372, .f32⟩ : BufTy).Contents (Elt F)),
    StableHlo.binary main_v207 main_v205 main_v208 (mulf : (⟨S2048x3372, .f32⟩ : BufTy).Contents (Elt F) → (⟨S2048x3372, .f32⟩ : BufTy).Contents (Elt F) → (⟨S2048x3372, .f32⟩ : BufTy).Contents (Elt F)),
    StableHlo.nullary main_cst_43 (constant S_ .f32 0x3727C5AC#32),
    StableHlo.unary main_cst_43 main_v209 (broadcastInDim S3372 ![] bcast_S_S3372 : (⟨S_, .f32⟩ : BufTy).Contents (Elt F) → (⟨S3372, .f32⟩ : BufTy).Contents (Elt F)),
    StableHlo.binary main_v202 main_v209 main_v210 (addf : (⟨S3372, .f32⟩ : BufTy).Contents (Elt F) → (⟨S3372, .f32⟩ : BufTy).Contents (Elt F) → (⟨S3372, .f32⟩ : BufTy).Contents (Elt F)),
    StableHlo.unary main_v210 main_v211 (Host.rsqrt : (⟨S3372, .f32⟩ : BufTy).Contents (Elt F) → (⟨S3372, .f32⟩ : BufTy).Contents (Elt F)),
    StableHlo.unary main_v211 main_v212 (broadcastInDim S1x3372 ![1] bcast_S3372_S1x3372_1 : (⟨S3372, .f32⟩ : BufTy).Contents (Elt F) → (⟨S1x3372, .f32⟩ : BufTy).Contents (Elt F)),
    StableHlo.unary main_v212 main_v213 (broadcastInDim S2048x3372 ![0, 1] bcast_S1x3372_S2048x3372_0_1 : (⟨S1x3372, .f32⟩ : BufTy).Contents (Elt F) → (⟨S2048x3372, .f32⟩ : BufTy).Contents (Elt F)),
    StableHlo.binary main_v208 main_v213 main_v214 (mulf : (⟨S2048x3372, .f32⟩ : BufTy).Contents (Elt F) → (⟨S2048x3372, .f32⟩ : BufTy).Contents (Elt F) → (⟨S2048x3372, .f32⟩ : BufTy).Contents (Elt F)),
    StableHlo.unary main_arg29 main_v215 (broadcastInDim S1x3372 ![1] bcast_S3372_S1x3372_1 : (⟨S3372, .f32⟩ : BufTy).Contents (Elt F) → (⟨S1x3372, .f32⟩ : BufTy).Contents (Elt F)),
    StableHlo.unary main_v215 main_v216 (broadcastInDim S2048x3372 ![0, 1] bcast_S1x3372_S2048x3372_0_1 : (⟨S1x3372, .f32⟩ : BufTy).Contents (Elt F) → (⟨S2048x3372, .f32⟩ : BufTy).Contents (Elt F)),
    StableHlo.binary main_v214 main_v216 main_v217 (addf : (⟨S2048x3372, .f32⟩ : BufTy).Contents (Elt F) → (⟨S2048x3372, .f32⟩ : BufTy).Contents (Elt F) → (⟨S2048x3372, .f32⟩ : BufTy).Contents (Elt F)),
    StableHlo.TRef.nullary main_call11.cst (constant S_ .f32 0x00000000#32),
    StableHlo.TRef.unary main_call11.cst main_call11.v0 (broadcastInDim S2048x3372 ![] bcast_S_S2048x3372),
    StableHlo.TRef.binary (.of main_v217) main_call11.v0 main_call11.v1 maximumf,
    StableHlo.binary main_v170 main_arg30 main_v219 ((fun l r => Host.dotGeneral dot_S2048x256_S256x64_S2048x64_1_0_0_1_n_n none l r) : (⟨S2048x256, .f32⟩ : BufTy).Contents (Elt F) → (⟨S256x64, .f32⟩ : BufTy).Contents (Elt F) → (⟨S2048x64, .f32⟩ : BufTy).Contents (Elt F)),
    StableHlo.unary main_arg31 main_v220 (broadcastInDim S1x64 ![1] bcast_S64_S1x64_1 : (⟨S64, .f32⟩ : BufTy).Contents (Elt F) → (⟨S1x64, .f32⟩ : BufTy).Contents (Elt F)),
    StableHlo.unary main_v220 main_v221 (broadcastInDim S2048x64 ![0, 1] bcast_S1x64_S2048x64_0_1 : (⟨S1x64, .f32⟩ : BufTy).Contents (Elt F) → (⟨S2048x64, .f32⟩ : BufTy).Contents (Elt F)),
    StableHlo.binary main_v219 main_v221 main_v222 (addf : (⟨S2048x64, .f32⟩ : BufTy).Contents (Elt F) → (⟨S2048x64, .f32⟩ : BufTy).Contents (Elt F) → (⟨S2048x64, .f32⟩ : BufTy).Contents (Elt F)),
    StableHlo.nullary main_cst_44 (constant S_ .f32 0x00000000#32),
    StableHlo.binary main_v222 main_cst_44 main_v223 ((fun x v => Host.reduceAdd x v reducesTo_S2048x64_S64_d0 h_S_) : (⟨S2048x64, .f32⟩ : BufTy).Contents (Elt F) → (⟨S_, .f32⟩ : BufTy).Contents (Elt F) → (⟨S64, .f32⟩ : BufTy).Contents (Elt F)),
    StableHlo.nullary main_cst_45 (constant S_ .f32 0x45000000#32),
    StableHlo.unary main_cst_45 main_v224 (broadcastInDim S64 ![] bcast_S_S64 : (⟨S_, .f32⟩ : BufTy).Contents (Elt F) → (⟨S64, .f32⟩ : BufTy).Contents (Elt F)),
    StableHlo.binary main_v223 main_v224 main_v225 (Host.divf : (⟨S64, .f32⟩ : BufTy).Contents (Elt F) → (⟨S64, .f32⟩ : BufTy).Contents (Elt F) → (⟨S64, .f32⟩ : BufTy).Contents (Elt F)),
    StableHlo.nullary main_c_46 (constantI S_ 32 0#32),
    StableHlo.TRef.nullary main_call12.cst (constant S_ .f32 0x00000000#32),
    StableHlo.TRef.binary (.of main_v222) main_call12.cst main_call12.v0 (fun x v => Host.reduceAdd x v reducesTo_S2048x64_S64_d0 h_S_),
    StableHlo.TRef.unary main_call12.v0 main_call12.v1 (broadcastInDim S1x64 ![1] bcast_S64_S1x64_1),
    StableHlo.TRef.nullary main_call12.cst_0 (constant S_ .f32 0x45000000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S2048x64 ![0, 1] bcast_S1x64_S2048x64_0_1),
    StableHlo.TRef.binary (.of main_v222) main_call12.v4 main_call12.v5 subf,
    StableHlo.TRef.binary main_call12.v5 main_call12.v5 main_call12.v6 mulf,
    StableHlo.TRef.unary (.of main_c_46) main_call12.v7 (sitofp .f32),
    StableHlo.TRef.nullary main_call12.cst_1 (constant S_ .f32 0x45000000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S2048x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S64 ![] bcast_S_S64),
    StableHlo.TRef.ternary main_call12.v12 main_call12.v11 main_call12.call0.v1 main_call12.call0.v2 (fun p a b => select (broadcastInDim S64 ![] bcast_S_S64 p) a b),
    StableHlo.unary main_v225 main_v227 (broadcastInDim S1x64 ![1] bcast_S64_S1x64_1 : (⟨S64, .f32⟩ : BufTy).Contents (Elt F) → (⟨S1x64, .f32⟩ : BufTy).Contents (Elt F)),
    StableHlo.unary main_v227 main_v228 (broadcastInDim S2048x64 ![0, 1] bcast_S1x64_S2048x64_0_1 : (⟨S1x64, .f32⟩ : BufTy).Contents (Elt F) → (⟨S2048x64, .f32⟩ : BufTy).Contents (Elt F)),
    StableHlo.binary main_v222 main_v228 main_v229 (subf : (⟨S2048x64, .f32⟩ : BufTy).Contents (Elt F) → (⟨S2048x64, .f32⟩ : BufTy).Contents (Elt F) → (⟨S2048x64, .f32⟩ : BufTy).Contents (Elt F)),
    StableHlo.unary main_arg32 main_v230 (broadcastInDim S1x64 ![1] bcast_S64_S1x64_1 : (⟨S64, .f32⟩ : BufTy).Contents (Elt F) → (⟨S1x64, .f32⟩ : BufTy).Contents (Elt F)),
    StableHlo.unary main_v230 main_v231 (broadcastInDim S2048x64 ![0, 1] bcast_S1x64_S2048x64_0_1 : (⟨S1x64, .f32⟩ : BufTy).Contents (Elt F) → (⟨S2048x64, .f32⟩ : BufTy).Contents (Elt F)),
    StableHlo.binary main_v231 main_v229 main_v232 (mulf : (⟨S2048x64, .f32⟩ : BufTy).Contents (Elt F) → (⟨S2048x64, .f32⟩ : BufTy).Contents (Elt F) → (⟨S2048x64, .f32⟩ : BufTy).Contents (Elt F)),
    StableHlo.nullary main_cst_47 (constant S_ .f32 0x3727C5AC#32),
    StableHlo.unary main_cst_47 main_v233 (broadcastInDim S64 ![] bcast_S_S64 : (⟨S_, .f32⟩ : BufTy).Contents (Elt F) → (⟨S64, .f32⟩ : BufTy).Contents (Elt F)),
    StableHlo.binary main_v226 main_v233 main_v234 (addf : (⟨S64, .f32⟩ : BufTy).Contents (Elt F) → (⟨S64, .f32⟩ : BufTy).Contents (Elt F) → (⟨S64, .f32⟩ : BufTy).Contents (Elt F)),
    StableHlo.unary main_v234 main_v235 (Host.rsqrt : (⟨S64, .f32⟩ : BufTy).Contents (Elt F) → (⟨S64, .f32⟩ : BufTy).Contents (Elt F)),
    StableHlo.unary main_v235 main_v236 (broadcastInDim S1x64 ![1] bcast_S64_S1x64_1 : (⟨S64, .f32⟩ : BufTy).Contents (Elt F) → (⟨S1x64, .f32⟩ : BufTy).Contents (Elt F)),
    StableHlo.unary main_v236 main_v237 (broadcastInDim S2048x64 ![0, 1] bcast_S1x64_S2048x64_0_1 : (⟨S1x64, .f32⟩ : BufTy).Contents (Elt F) → (⟨S2048x64, .f32⟩ : BufTy).Contents (Elt F)),
    StableHlo.binary main_v232 main_v237 main_v238 (mulf : (⟨S2048x64, .f32⟩ : BufTy).Contents (Elt F) → (⟨S2048x64, .f32⟩ : BufTy).Contents (Elt F) → (⟨S2048x64, .f32⟩ : BufTy).Contents (Elt F)),
    StableHlo.unary main_arg33 main_v239 (broadcastInDim S1x64 ![1] bcast_S64_S1x64_1 : (⟨S64, .f32⟩ : BufTy).Contents (Elt F) → (⟨S1x64, .f32⟩ : BufTy).Contents (Elt F)),
    StableHlo.unary main_v239 main_v240 (broadcastInDim S2048x64 ![0, 1] bcast_S1x64_S2048x64_0_1 : (⟨S1x64, .f32⟩ : BufTy).Contents (Elt F) → (⟨S2048x64, .f32⟩ : BufTy).Contents (Elt F)),
    StableHlo.binary main_v238 main_v240 main_v241 (addf : (⟨S2048x64, .f32⟩ : BufTy).Contents (Elt F) → (⟨S2048x64, .f32⟩ : BufTy).Contents (Elt F) → (⟨S2048x64, .f32⟩ : BufTy).Contents (Elt F)),
    StableHlo.nullary main_cst_48 (constant S_ .f32 0x00000000#32),
    StableHlo.unary main_cst_48 main_v242 (broadcastInDim S2048x64 ![] bcast_S_S2048x64 : (⟨S_, .f32⟩ : BufTy).Contents (Elt F) → (⟨S2048x64, .f32⟩ : BufTy).Contents (Elt F)),
    StableHlo.binary main_v241 main_v242 main_v243 (cmpf .oge : (⟨S2048x64, .f32⟩ : BufTy).Contents (Elt F) → (⟨S2048x64, .f32⟩ : BufTy).Contents (Elt F) → (⟨S2048x64, .i1⟩ : BufTy).Contents (Elt F)),
    StableHlo.nullary main_cst_49 (constant S_ .f32 0x3C23D70A#32),
    StableHlo.unary main_cst_49 main_v244 (broadcastInDim S2048x64 ![] bcast_S_S2048x64 : (⟨S_, .f32⟩ : BufTy).Contents (Elt F) → (⟨S2048x64, .f32⟩ : BufTy).Contents (Elt F)),
    StableHlo.binary main_v244 main_v241 main_v245 (mulf : (⟨S2048x64, .f32⟩ : BufTy).Contents (Elt F) → (⟨S2048x64, .f32⟩ : BufTy).Contents (Elt F) → (⟨S2048x64, .f32⟩ : BufTy).Contents (Elt F)),
    StableHlo.TRef.ternary (.of main_v243) (.of main_v241) (.of main_v245) main_call13.v0 select,
    StableHlo.binary main_v246 main_arg34 main_v247 ((fun l r => Host.dotGeneral dot_S2048x64_S64x1_S2048x1_1_0_0_1_n_n none l r) : (⟨S2048x64, .f32⟩ : BufTy).Contents (Elt F) → (⟨S64x1, .f32⟩ : BufTy).Contents (Elt F) → (⟨S2048x1, .f32⟩ : BufTy).Contents (Elt F)) ]

theorem ops4_split : (ops4 : List (HloOp τ sig (Elt F))) = s16 ++ s17 := rfl

theorem ops4_sub : (ops4 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

/-- No operation of the part writes one of the 36 argument buffers (the buffers of index below 36): each writes its own result buffer, of a larger index. -/
theorem keep4 (V : Valuation τ sig (Elt F)) (b : Ref sig .tc) (hb : b.idx.val < 36) :
    after (ops4 (F := F)) V (Proc.devRef .tc b) = V (Proc.devRef .tc b) :=
  after_of_forall_not_mem _ _ (List.forall_iff_forall_mem.mp (by
    simp only [List.Forall, nullary_writes, unary_writes, binary_writes, ternary_writes, quaternary_writes, reshape_writes, nary_writes, Finset.mem_singleton]
    repeat' apply And.intro
    all_goals exact devRef_ne_of_ne (fun e => by subst e; revert hb; decide)))

set_option maxRecDepth 16384 in
set_option maxHeartbeats 40000000 in
theorem part4_eq (c : Dev nD) : main_part4 (F := F) c = seq ops4 := by
  (simp only [main_part4, fn_relu_9.body, fn_var_10.body, fn_var_7.body, fn_where_11.body, fn_where_12.body, fn_where_8.body, seq, bind_assoc, pure_bind]) <;> rfl

end Cert.ReferenceIdeal.RefRun

end
-- ==== Proof.RefPart5.lean ====
import proofs.«402148_j44985487458808_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 3 operations, ending with the one that writes %250. -/
abbrev s18 : List (HloOp τ sig (Elt F)) :=
  [ StableHlo.unary main_arg35 main_v248 (broadcastInDim S1x1 ![1] bcast_S1_S1x1_1 : (⟨S1, .f32⟩ : BufTy).Contents (Elt F) → (⟨S1x1, .f32⟩ : BufTy).Contents (Elt F)),
    StableHlo.unary main_v248 main_v249 (broadcastInDim S2048x1 ![0, 1] bcast_S1x1_S2048x1_0_1 : (⟨S1x1, .f32⟩ : BufTy).Contents (Elt F) → (⟨S2048x1, .f32⟩ : BufTy).Contents (Elt F)),
    StableHlo.binary main_v247 main_v249 main_v250 (addf : (⟨S2048x1, .f32⟩ : BufTy).Contents (Elt F) → (⟨S2048x1, .f32⟩ : BufTy).Contents (Elt F) → (⟨S2048x1, .f32⟩ : BufTy).Contents (Elt F)) ]

theorem s18_sub : (s18 : List (HloOp τ sig (Elt F))).Forall fun op => op.bufs ⊆ tcRefs τ sig :=
  ⟨unary_bufs_sub .., unary_bufs_sub .., binary_bufs_sub ..⟩

/-- The part's 3 operations in order. -/
abbrev ops5 : List (HloOp τ sig (Elt F)) :=
  [ StableHlo.unary main_arg35 main_v248 (broadcastInDim S1x1 ![1] bcast_S1_S1x1_1 : (⟨S1, .f32⟩ : BufTy).Contents (Elt F) → (⟨S1x1, .f32⟩ : BufTy).Contents (Elt F)),
    StableHlo.unary main_v248 main_v249 (broadcastInDim S2048x1 ![0, 1] bcast_S1x1_S2048x1_0_1 : (⟨S1x1, .f32⟩ : BufTy).Contents (Elt F) → (⟨S2048x1, .f32⟩ : BufTy).Contents (Elt F)),
    StableHlo.binary main_v247 main_v249 main_v250 (addf : (⟨S2048x1, .f32⟩ : BufTy).Contents (Elt F) → (⟨S2048x1, .f32⟩ : BufTy).Contents (Elt F) → (⟨S2048x1, .f32⟩ : BufTy).Contents (Elt F)) ]

theorem ops5_split : (ops5 : List (HloOp τ sig (Elt F))) = s18 := rfl

theorem ops5_sub : (ops5 : List (HloOp τ sig (Elt F))).Forall fun op => op.bufs ⊆ tcRefs τ sig :=
  ⟨unary_bufs_sub .., unary_bufs_sub .., binary_bufs_sub ..⟩

/-- No operation of the part writes one of the 36 argument buffers (the buffers of index below 36): each writes its own result buffer, of a larger index. -/
theorem keep5 (V : Valuation τ sig (Elt F)) (b : Ref sig .tc) (hb : b.idx.val < 36) :
    after (ops5 (F := F)) V (Proc.devRef .tc b) = V (Proc.devRef .tc b) :=
  after_of_forall_not_mem _ _ (List.forall_iff_forall_mem.mp (by
    simp only [List.Forall, nullary_writes, unary_writes, binary_writes, ternary_writes, quaternary_writes, reshape_writes, nary_writes, Finset.mem_singleton]
    repeat' apply And.intro
    all_goals exact devRef_ne_of_ne (fun e => by subst e; revert hb; decide)))

set_option maxRecDepth 16384 in
set_option maxHeartbeats 40000000 in
theorem part5_eq (c : Dev nD) : main_part5 (F := F) c = seq ops5 := by
  (simp only [main_part5, seq, bind_assoc, pure_bind]) <;> rfl

end Cert.ReferenceIdeal.RefRun

end
-- ==== Proof.RefRun.lean ====
/-
  The reference program's run: its @main is the sequence of its six printed parts, each part a list of host
  operations, so every weakly fair execution terminates with each buffer at the fold of those operations over the
  launch contents. No operation writes an argument buffer, so the arguments end as launched.
-/
import proofs.«402148_j44985487458808_3_alg».proof.Proof.RefPart0
import proofs.«402148_j44985487458808_3_alg».proof.Proof.RefPart1
import proofs.«402148_j44985487458808_3_alg».proof.Proof.RefPart2
import proofs.«402148_j44985487458808_3_alg».proof.Proof.RefPart3
import proofs.«402148_j44985487458808_3_alg».proof.Proof.RefPart4
import proofs.«402148_j44985487458808_3_alg».proof.Proof.RefPart5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lists of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- All of @main's operations, part after part. -/
abbrev ops : List (HloOp τ sig (Elt F)) := ops0 ++ (ops1 ++ (ops2 ++ (ops3 ++ (ops4 ++ ops5))))

theorem main_eq (c : Dev nD) : main (F := F) c = seq ops := by
  simp only [main, ops, seq_append, part0_eq, part1_eq, part2_eq, part3_eq, part4_eq, part5_eq]

theorem ops_sub : (ops : List (HloOp τ sig (Elt F))).Forall fun op => op.bufs ⊆ tcRefs τ sig :=
  forall_append ops0_sub (forall_append ops1_sub (forall_append ops2_sub (forall_append ops3_sub (forall_append ops4_sub ops5_sub))))

theorem scopedRefs_eq : (Finset.univ.filter fun b : Ref sig .tc => b.isScoped) = ∅ := by decide
theorem scopedSems_eq : (Finset.univ.filter fun sm : SemLoc sig => sm.isScoped .tc) = ∅ := by decide

/-- The contents after all of @main, as the parts' folds one inside the other. -/
theorem after_ops (V : Valuation τ sig (Elt F)) :
    after (ops (F := F)) V = after ops5 (after ops4 (after ops3 (after ops2 (after ops1 (after ops0 V))))) := by
  simp only [ops, after_append]

/-- An argument buffer is never written. -/
theorem keep (V : Valuation τ sig (Elt F)) (b : Ref sig .tc) (hb : b.idx.val < 36) :
    after (ops (F := F)) V (Proc.devRef .tc b) = V (Proc.devRef .tc b) := by
  rw [after_ops, keep5 _ b hb, keep4 _ b hb, keep3 _ b hb, keep2 _ b hb, keep1 _ b hb, keep0 _ b hb]

/-- From any memory with zero counters every weakly fair execution of @main terminates, and every final state has each
    TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.KGlueArgs.lean ====
/-
  The kernel program's buffer contents at the boundaries between its host stretches and its eight kernel regions, read at
  the argument buffers: no host operation writes an argument (each writes its own result buffer) and no region has an
  argument among its output arrays' write-backs other than as an unchanged input, so at every boundary an argument buffer
  still holds its launch contents.
-/
import proofs.«402148_j44985487458808_3_alg».proof.Proof.Gen.KernelIdeal.Frame
import Idealize.ShloMosaic.Lib.StableHlo.Run

noncomputable section

namespace Cert.KernelIdeal.KG

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer the listed operations do not write keeps its contents: each operation writes one result buffer, and
    which reference is which is decided. -/
macro "kkeep " h:ident : tactic => `(tactic|
  (refine StableHlo.after_of_forall_not_mem (b := _) _ _ (List.forall_iff_forall_mem.mp ?_)
   simp only [$h:ident, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
   repeat' apply And.intro
   all_goals exact StableHlo.devRef_ne_of_ne (by decide)))

/-- The same for ANY argument buffer (a reference of index below 36): every result buffer has a larger index. -/
macro "kkeepArg " h:ident hb:ident : tactic => `(tactic|
  (refine StableHlo.after_of_forall_not_mem (b := _) _ _ (List.forall_iff_forall_mem.mp ?_)
   simp only [$h:ident, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
   repeat' apply And.intro
   all_goals exact StableHlo.devRef_ne_of_ne (fun e => by subst e; revert $hb:ident; decide)))

theorem argStep1 (c : Dev nD) (b : Ref sig .tc) (hb : b.idx.val < 36) :
    W1 m ρ c (Proc.devRef .tc b) = W0 m ρ c (Proc.devRef .tc b) := by
  kkeepArg hostOps0 hb
theorem argStep2 (c : Dev nD) (b : Ref sig .tc) (hb : b.idx.val < 36) :
    W2 m ρ c (Proc.devRef .tc b) = W1 m ρ c (Proc.devRef .tc b) := by
  kkeepArg hostOps0_1 hb
theorem argStep3 (c : Dev nD) (b : Ref sig .tc) (hb : b.idx.val < 36) :
    W3 m ρ c (Proc.devRef .tc b) = W2 m ρ c (Proc.devRef .tc b) := by
  kkeepArg hostOps0_2 hb
theorem argStep4 (c : Dev nD) (b : Ref sig .tc) (hb : b.idx.val < 36) :
    W4 m ρ c (Proc.devRef .tc b) = W3 m ρ c (Proc.devRef .tc b) := by
  kkeepArg hostOps0_3 hb
theorem argStep5 (c : Dev nD) (b : Ref sig .tc) (hb : b.idx.val < 36) :
    W5 m ρ c (Proc.devRef .tc b) = W4 m ρ c (Proc.devRef .tc b) := by
  kkeepArg hostOps0_4 hb
theorem argStep6 (c : Dev nD) (b : Ref sig .tc) (hb : b.idx.val < 36) :
    W6 m ρ c (Proc.devRef .tc b) = W5 m ρ c (Proc.devRef .tc b) := by
  by_cases h : ∃ w, Pipeline.arrRef spec0 w = b
  · obtain ⟨w, rfl⟩ := h
    have hin : (cfg0.win w).isOut = false := by revert hb; revert w; decide
    exact (W6_arr m ρ c w).trans (((dat0 (V5 m ρ) c).arrAt_in w hin _).trans (A_eq0 (V5 m ρ) c w))
  · exact W6_of_ne m ρ c b (fun w e => h ⟨w, e⟩)
theorem argStep7 (c : Dev nD) (b : Ref sig .tc) (hb : b.idx.val < 36) :
    W7 m ρ c (Proc.devRef .tc b) = W6 m ρ c (Proc.devRef .tc b) := by
  kkeepArg hostOps1 hb
theorem argStep8 (c : Dev nD) (b : Ref sig .tc) (hb : b.idx.val < 36) :
    W8 m ρ c (Proc.devRef .tc b) = W7 m ρ c (Proc.devRef .tc b) := by
  kkeepArg hostOps1_1 hb
theorem argStep9 (c : Dev nD) (b : Ref sig .tc) (hb : b.idx.val < 36) :
    W9 m ρ c (Proc.devRef .tc b) = W8 m ρ c (Proc.devRef .tc b) := by
  kkeepArg hostOps1_2 hb
theorem argStep10 (c : Dev nD) (b : Ref sig .tc) (hb : b.idx.val < 36) :
    W10 m ρ c (Proc.devRef .tc b) = W9 m ρ c (Proc.devRef .tc b) := by
  kkeepArg hostOps1_3 hb
theorem argStep11 (c : Dev nD) (b : Ref sig .tc) (hb : b.idx.val < 36) :
    W11 m ρ c (Proc.devRef .tc b) = W10 m ρ c (Proc.devRef .tc b) := by
  kkeepArg hostOps1_4 hb
theorem argStep12 (c : Dev nD) (b : Ref sig .tc) (hb : b.idx.val < 36) :
    W12 m ρ c (Proc.devRef .tc b) = W11 m ρ c (Proc.devRef .tc b) := by
  kkeepArg hostOps1_5 hb
theorem argStep13 (c : Dev nD) (b : Ref sig .tc) (hb : b.idx.val < 36) :
    W13 m ρ c (Proc.devRef .tc b) = W12 m ρ c (Proc.devRef .tc b) := by
  kkeepArg hostOps1_6 hb
theorem argStep14 (c : Dev nD) (b : Ref sig .tc) (hb : b.idx.val < 36) :
    W14 m ρ c (Proc.devRef .tc b) = W13 m ρ c (Proc.devRef .tc b) := by
  by_cases h : ∃ w, Pipeline.arrRef spec1 w = b
  · obtain ⟨w, rfl⟩ := h
    have hin : (cfg1.win w).isOut = false := by revert hb; revert w; decide
    exact (W14_arr m ρ c w).trans (((dat1 (V13 m ρ) c).arrAt_in w hin _).trans (A_eq1 (V13 m ρ) c w))
  · exact W14_of_ne m ρ c b (fun w e => h ⟨w, e⟩)
theorem argStep15 (c : Dev nD) (b : Ref sig .tc) (hb : b.idx.val < 36) :
    W15 m ρ c (Proc.devRef .tc b) = W14 m ρ c (Proc.devRef .tc b) := by
  kkeepArg hostOps2 hb
theorem argStep16 (c : Dev nD) (b : Ref sig .tc) (hb : b.idx.val < 36) :
    W16 m ρ c (Proc.devRef .tc b) = W15 m ρ c (Proc.devRef .tc b) := by
  kkeepArg hostOps2_1 hb
theorem argStep17 (c : Dev nD) (b : Ref sig .tc) (hb : b.idx.val < 36) :
    W17 m ρ c (Proc.devRef .tc b) = W16 m ρ c (Proc.devRef .tc b) := by
  kkeepArg hostOps2_2 hb
theorem argStep18 (c : Dev nD) (b : Ref sig .tc) (hb : b.idx.val < 36) :
    W18 m ρ c (Proc.devRef .tc b) = W17 m ρ c (Proc.devRef .tc b) := by
  by_cases h : ∃ w, Pipeline.arrRef spec2 w = b
  · obtain ⟨w, rfl⟩ := h
    have hin : (cfg2.win w).isOut = false := by revert hb; revert w; decide
    exact (W18_arr m ρ c w).trans (((dat2 (V17 m ρ) c).arrAt_in w hin _).trans (A_eq2 (V17 m ρ) c w))
  · exact W18_of_ne m ρ c b (fun w e => h ⟨w, e⟩)
theorem argStep19 (c : Dev nD) (b : Ref sig .tc) (hb : b.idx.val < 36) :
    W19 m ρ c (Proc.devRef .tc b) = W18 m ρ c (Proc.devRef .tc b) := by
  kkeepArg hostOps3 hb
theorem argStep20 (c : Dev nD) (b : Ref sig .tc) (hb : b.idx.val < 36) :
    W20 m ρ c (Proc.devRef .tc b) = W19 m ρ c (Proc.devRef .tc b) := by
  by_cases h : ∃ w, Pipeline.arrRef spec3 w = b
  · obtain ⟨w, rfl⟩ := h
    have hin : (cfg3.win w).isOut = false := by revert hb; revert w; decide
    exact (W20_arr m ρ c w).trans (((dat3 (V19 m ρ) c).arrAt_in w hin _).trans (A_eq3 (V19 m ρ) c w))
  · exact W20_of_ne m ρ c b (fun w e => h ⟨w, e⟩)
theorem argStep21 (c : Dev nD) (b : Ref sig .tc) (hb : b.idx.val < 36) :
    W21 m ρ c (Proc.devRef .tc b) = W20 m ρ c (Proc.devRef .tc b) := by
  kkeepArg hostOps4 hb
theorem argStep22 (c : Dev nD) (b : Ref sig .tc) (hb : b.idx.val < 36) :
    W22 m ρ c (Proc.devRef .tc b) = W21 m ρ c (Proc.devRef .tc b) := by
  by_cases h : ∃ w, Pipeline.arrRef spec4 w = b
  · obtain ⟨w, rfl⟩ := h
    have hin : (cfg4.win w).isOut = false := by revert hb; revert w; decide
    exact (W22_arr m ρ c w).trans (((dat4 (V21 m ρ) c).arrAt_in w hin _).trans (A_eq4 (V21 m ρ) c w))
  · exact W22_of_ne m ρ c b (fun w e => h ⟨w, e⟩)
theorem argStep23 (c : Dev nD) (b : Ref sig .tc) (hb : b.idx.val < 36) :
    W23 m ρ c (Proc.devRef .tc b) = W22 m ρ c (Proc.devRef .tc b) := by
  kkeepArg hostOps5 hb
theorem argStep24 (c : Dev nD) (b : Ref sig .tc) (hb : b.idx.val < 36) :
    W24 m ρ c (Proc.devRef .tc b) = W23 m ρ c (Proc.devRef .tc b) := by
  by_cases h : ∃ w, Pipeline.arrRef spec5 w = b
  · obtain ⟨w, rfl⟩ := h
    have hin : (cfg5.win w).isOut = false := by revert hb; revert w; decide
    exact (W24_arr m ρ c w).trans (((dat5 (V23 m ρ) c).arrAt_in w hin _).trans (A_eq5 (V23 m ρ) c w))
  · exact W24_of_ne m ρ c b (fun w e => h ⟨w, e⟩)
theorem argStep25 (c : Dev nD) (b : Ref sig .tc) (hb : b.idx.val < 36) :
    W25 m ρ c (Proc.devRef .tc b) = W24 m ρ c (Proc.devRef .tc b) := by
  kkeepArg hostOps6 hb
theorem argStep26 (c : Dev nD) (b : Ref sig .tc) (hb : b.idx.val < 36) :
    W26 m ρ c (Proc.devRef .tc b) = W25 m ρ c (Proc.devRef .tc b) := by
  kkeepArg hostOps6_1 hb
theorem argStep27 (c : Dev nD) (b : Ref sig .tc) (hb : b.idx.val < 36) :
    W27 m ρ c (Proc.devRef .tc b) = W26 m ρ c (Proc.devRef .tc b) := by
  kkeepArg hostOps6_2 hb
theorem argStep28 (c : Dev nD) (b : Ref sig .tc) (hb : b.idx.val < 36) :
    W28 m ρ c (Proc.devRef .tc b) = W27 m ρ c (Proc.devRef .tc b) := by
  kkeepArg hostOps6_3 hb
theorem argStep29 (c : Dev nD) (b : Ref sig .tc) (hb : b.idx.val < 36) :
    W29 m ρ c (Proc.devRef .tc b) = W28 m ρ c (Proc.devRef .tc b) := by
  kkeepArg hostOps6_4 hb
theorem argStep30 (c : Dev nD) (b : Ref sig .tc) (hb : b.idx.val < 36) :
    W30 m ρ c (Proc.devRef .tc b) = W29 m ρ c (Proc.devRef .tc b) := by
  kkeepArg hostOps6_5 hb
theorem argStep31 (c : Dev nD) (b : Ref sig .tc) (hb : b.idx.val < 36) :
    W31 m ρ c (Proc.devRef .tc b) = W30 m ρ c (Proc.devRef .tc b) := by
  kkeepArg hostOps6_6 hb
theorem argStep32 (c : Dev nD) (b : Ref sig .tc) (hb : b.idx.val < 36) :
    W32 m ρ c (Proc.devRef .tc b) = W31 m ρ c (Proc.devRef .tc b) := by
  kkeepArg hostOps6_7 hb
theorem argStep33 (c : Dev nD) (b : Ref sig .tc) (hb : b.idx.val < 36) :
    W33 m ρ c (Proc.devRef .tc b) = W32 m ρ c (Proc.devRef .tc b) := by
  kkeepArg hostOps6_8 hb
theorem argStep34 (c : Dev nD) (b : Ref sig .tc) (hb : b.idx.val < 36) :
    W34 m ρ c (Proc.devRef .tc b) = W33 m ρ c (Proc.devRef .tc b) := by
  by_cases h : ∃ w, Pipeline.arrRef spec6 w = b
  · obtain ⟨w, rfl⟩ := h
    have hin : (cfg6.win w).isOut = false := by revert hb; revert w; decide
    exact (W34_arr m ρ c w).trans (((dat6 (V33 m ρ) c).arrAt_in w hin _).trans (A_eq6 (V33 m ρ) c w))
  · exact W34_of_ne m ρ c b (fun w e => h ⟨w, e⟩)
theorem argStep35 (c : Dev nD) (b : Ref sig .tc) (hb : b.idx.val < 36) :
    W35 m ρ c (Proc.devRef .tc b) = W34 m ρ c (Proc.devRef .tc b) := by
  kkeepArg hostOps7 hb
theorem argStep36 (c : Dev nD) (b : Ref sig .tc) (hb : b.idx.val < 36) :
    W36 m ρ c (Proc.devRef .tc b) = W35 m ρ c (Proc.devRef .tc b) := by
  kkeepArg hostOps7_1 hb
theorem argStep37 (c : Dev nD) (b : Ref sig .tc) (hb : b.idx.val < 36) :
    W37 m ρ c (Proc.devRef .tc b) = W36 m ρ c (Proc.devRef .tc b) := by
  kkeepArg hostOps7_2 hb
theorem argStep38 (c : Dev nD) (b : Ref sig .tc) (hb : b.idx.val < 36) :
    W38 m ρ c (Proc.devRef .tc b) = W37 m ρ c (Proc.devRef .tc b) := by
  kkeepArg hostOps7_3 hb
theorem argStep39 (c : Dev nD) (b : Ref sig .tc) (hb : b.idx.val < 36) :
    W39 m ρ c (Proc.devRef .tc b) = W38 m ρ c (Proc.devRef .tc b) := by
  kkeepArg hostOps7_4 hb
theorem argStep40 (c : Dev nD) (b : Ref sig .tc) (hb : b.idx.val < 36) :
    W40 m ρ c (Proc.devRef .tc b) = W39 m ρ c (Proc.devRef .tc b) := by
  kkeepArg hostOps7_5 hb
theorem argStep41 (c : Dev nD) (b : Ref sig .tc) (hb : b.idx.val < 36) :
    W41 m ρ c (Proc.devRef .tc b) = W40 m ρ c (Proc.devRef .tc b) := by
  kkeepArg hostOps7_6 hb
theorem argStep42 (c : Dev nD) (b : Ref sig .tc) (hb : b.idx.val < 36) :
    W42 m ρ c (Proc.devRef .tc b) = W41 m ρ c (Proc.devRef .tc b) := by
  kkeepArg hostOps7_7 hb
theorem argStep43 (c : Dev nD) (b : Ref sig .tc) (hb : b.idx.val < 36) :
    W43 m ρ c (Proc.devRef .tc b) = W42 m ρ c (Proc.devRef .tc b) := by
  kkeepArg hostOps7_8 hb
theorem argStep44 (c : Dev nD) (b : Ref sig .tc) (hb : b.idx.val < 36) :
    W44 m ρ c (Proc.devRef .tc b) = W43 m ρ c (Proc.devRef .tc b) := by
  kkeepArg hostOps7_9 hb
theorem argStep45 (c : Dev nD) (b : Ref sig .tc) (hb : b.idx.val < 36) :
    W45 m ρ c (Proc.devRef .tc b) = W44 m ρ c (Proc.devRef .tc b) := by
  kkeepArg hostOps7_10 hb
theorem argStep46 (c : Dev nD) (b : Ref sig .tc) (hb : b.idx.val < 36) :
    W46 m ρ c (Proc.devRef .tc b) = W45 m ρ c (Proc.devRef .tc b) := by
  kkeepArg hostOps7_11 hb
theorem argStep47 (c : Dev nD) (b : Ref sig .tc) (hb : b.idx.val < 36) :
    W47 m ρ c (Proc.devRef .tc b) = W46 m ρ c (Proc.devRef .tc b) := by
  kkeepArg hostOps7_12 hb
theorem argStep48 (c : Dev nD) (b : Ref sig .tc) (hb : b.idx.val < 36) :
    W48 m ρ c (Proc.devRef .tc b) = W47 m ρ c (Proc.devRef .tc b) := by
  by_cases h : ∃ w, Pipeline.arrRef spec7 w = b
  · obtain ⟨w, rfl⟩ := h
    have hin : (cfg7.win w).isOut = false := by revert hb; revert w; decide
    exact (W48_arr m ρ c w).trans (((dat7 (V47 m ρ) c).arrAt_in w hin _).trans (A_eq7 (V47 m ρ) c w))
  · exact W48_of_ne m ρ c b (fun w e => h ⟨w, e⟩)
theorem argStep49 (c : Dev nD) (b : Ref sig .tc) (hb : b.idx.val < 36) :
    W49 m ρ c (Proc.devRef .tc b) = W48 m ρ c (Proc.devRef .tc b) := by
  kkeepArg hostOps8 hb

/-- At every boundary an argument buffer holds its launch contents. -/
theorem argAt0 (c : Dev nD) (b : Ref sig .tc) (hb : b.idx.val < 36) : W0 m ρ c (Proc.devRef .tc b) = m ((c : Thread nD τ).loc b) := rfl
theorem argAt1 (c : Dev nD) (b : Ref sig .tc) (hb : b.idx.val < 36) : W1 m ρ c (Proc.devRef .tc b) = m ((c : Thread nD τ).loc b) :=
  (argStep1 m ρ c b hb).trans (argAt0 m ρ c b hb)
theorem argAt2 (c : Dev nD) (b : Ref sig .tc) (hb : b.idx.val < 36) : W2 m ρ c (Proc.devRef .tc b) = m ((c : Thread nD τ).loc b) :=
  (argStep2 m ρ c b hb).trans (argAt1 m ρ c b hb)
theorem argAt3 (c : Dev nD) (b : Ref sig .tc) (hb : b.idx.val < 36) : W3 m ρ c (Proc.devRef .tc b) = m ((c : Thread nD τ).loc b) :=
  (argStep3 m ρ c b hb).trans (argAt2 m ρ c b hb)
theorem argAt4 (c : Dev nD) (b : Ref sig .tc) (hb : b.idx.val < 36) : W4 m ρ c (Proc.devRef .tc b) = m ((c : Thread nD τ).loc b) :=
  (argStep4 m ρ c b hb).trans (argAt3 m ρ c b hb)
theorem argAt5 (c : Dev nD) (b : Ref sig .tc) (hb : b.idx.val < 36) : W5 m ρ c (Proc.devRef .tc b) = m ((c : Thread nD τ).loc b) :=
  (argStep5 m ρ c b hb).trans (argAt4 m ρ c b hb)
theorem argAt6 (c : Dev nD) (b : Ref sig .tc) (hb : b.idx.val < 36) : W6 m ρ c (Proc.devRef .tc b) = m ((c : Thread nD τ).loc b) :=
  (argStep6 m ρ c b hb).trans (argAt5 m ρ c b hb)
theorem argAt7 (c : Dev nD) (b : Ref sig .tc) (hb : b.idx.val < 36) : W7 m ρ c (Proc.devRef .tc b) = m ((c : Thread nD τ).loc b) :=
  (argStep7 m ρ c b hb).trans (argAt6 m ρ c b hb)
theorem argAt8 (c : Dev nD) (b : Ref sig .tc) (hb : b.idx.val < 36) : W8 m ρ c (Proc.devRef .tc b) = m ((c : Thread nD τ).loc b) :=
  (argStep8 m ρ c b hb).trans (argAt7 m ρ c b hb)
theorem argAt9 (c : Dev nD) (b : Ref sig .tc) (hb : b.idx.val < 36) : W9 m ρ c (Proc.devRef .tc b) = m ((c : Thread nD τ).loc b) :=
  (argStep9 m ρ c b hb).trans (argAt8 m ρ c b hb)
theorem argAt10 (c : Dev nD) (b : Ref sig .tc) (hb : b.idx.val < 36) : W10 m ρ c (Proc.devRef .tc b) = m ((c : Thread nD τ).loc b) :=
  (argStep10 m ρ c b hb).trans (argAt9 m ρ c b hb)
theorem argAt11 (c : Dev nD) (b : Ref sig .tc) (hb : b.idx.val < 36) : W11 m ρ c (Proc.devRef .tc b) = m ((c : Thread nD τ).loc b) :=
  (argStep11 m ρ c b hb).trans (argAt10 m ρ c b hb)
theorem argAt12 (c : Dev nD) (b : Ref sig .tc) (hb : b.idx.val < 36) : W12 m ρ c (Proc.devRef .tc b) = m ((c : Thread nD τ).loc b) :=
  (argStep12 m ρ c b hb).trans (argAt11 m ρ c b hb)
theorem argAt13 (c : Dev nD) (b : Ref sig .tc) (hb : b.idx.val < 36) : W13 m ρ c (Proc.devRef .tc b) = m ((c : Thread nD τ).loc b) :=
  (argStep13 m ρ c b hb).trans (argAt12 m ρ c b hb)
theorem argAt14 (c : Dev nD) (b : Ref sig .tc) (hb : b.idx.val < 36) : W14 m ρ c (Proc.devRef .tc b) = m ((c : Thread nD τ).loc b) :=
  (argStep14 m ρ c b hb).trans (argAt13 m ρ c b hb)
theorem argAt15 (c : Dev nD) (b : Ref sig .tc) (hb : b.idx.val < 36) : W15 m ρ c (Proc.devRef .tc b) = m ((c : Thread nD τ).loc b) :=
  (argStep15 m ρ c b hb).trans (argAt14 m ρ c b hb)
theorem argAt16 (c : Dev nD) (b : Ref sig .tc) (hb : b.idx.val < 36) : W16 m ρ c (Proc.devRef .tc b) = m ((c : Thread nD τ).loc b) :=
  (argStep16 m ρ c b hb).trans (argAt15 m ρ c b hb)
theorem argAt17 (c : Dev nD) (b : Ref sig .tc) (hb : b.idx.val < 36) : W17 m ρ c (Proc.devRef .tc b) = m ((c : Thread nD τ).loc b) :=
  (argStep17 m ρ c b hb).trans (argAt16 m ρ c b hb)
theorem argAt18 (c : Dev nD) (b : Ref sig .tc) (hb : b.idx.val < 36) : W18 m ρ c (Proc.devRef .tc b) = m ((c : Thread nD τ).loc b) :=
  (argStep18 m ρ c b hb).trans (argAt17 m ρ c b hb)
theorem argAt19 (c : Dev nD) (b : Ref sig .tc) (hb : b.idx.val < 36) : W19 m ρ c (Proc.devRef .tc b) = m ((c : Thread nD τ).loc b) :=
  (argStep19 m ρ c b hb).trans (argAt18 m ρ c b hb)
theorem argAt20 (c : Dev nD) (b : Ref sig .tc) (hb : b.idx.val < 36) : W20 m ρ c (Proc.devRef .tc b) = m ((c : Thread nD τ).loc b) :=
  (argStep20 m ρ c b hb).trans (argAt19 m ρ c b hb)
theorem argAt21 (c : Dev nD) (b : Ref sig .tc) (hb : b.idx.val < 36) : W21 m ρ c (Proc.devRef .tc b) = m ((c : Thread nD τ).loc b) :=
  (argStep21 m ρ c b hb).trans (argAt20 m ρ c b hb)
theorem argAt22 (c : Dev nD) (b : Ref sig .tc) (hb : b.idx.val < 36) : W22 m ρ c (Proc.devRef .tc b) = m ((c : Thread nD τ).loc b) :=
  (argStep22 m ρ c b hb).trans (argAt21 m ρ c b hb)
theorem argAt23 (c : Dev nD) (b : Ref sig .tc) (hb : b.idx.val < 36) : W23 m ρ c (Proc.devRef .tc b) = m ((c : Thread nD τ).loc b) :=
  (argStep23 m ρ c b hb).trans (argAt22 m ρ c b hb)
theorem argAt24 (c : Dev nD) (b : Ref sig .tc) (hb : b.idx.val < 36) : W24 m ρ c (Proc.devRef .tc b) = m ((c : Thread nD τ).loc b) :=
  (argStep24 m ρ c b hb).trans (argAt23 m ρ c b hb)
theorem argAt25 (c : Dev nD) (b : Ref sig .tc) (hb : b.idx.val < 36) : W25 m ρ c (Proc.devRef .tc b) = m ((c : Thread nD τ).loc b) :=
  (argStep25 m ρ c b hb).trans (argAt24 m ρ c b hb)
theorem argAt26 (c : Dev nD) (b : Ref sig .tc) (hb : b.idx.val < 36) : W26 m ρ c (Proc.devRef .tc b) = m ((c : Thread nD τ).loc b) :=
  (argStep26 m ρ c b hb).trans (argAt25 m ρ c b hb)
theorem argAt27 (c : Dev nD) (b : Ref sig .tc) (hb : b.idx.val < 36) : W27 m ρ c (Proc.devRef .tc b) = m ((c : Thread nD τ).loc b) :=
  (argStep27 m ρ c b hb).trans (argAt26 m ρ c b hb)
theorem argAt28 (c : Dev nD) (b : Ref sig .tc) (hb : b.idx.val < 36) : W28 m ρ c (Proc.devRef .tc b) = m ((c : Thread nD τ).loc b) :=
  (argStep28 m ρ c b hb).trans (argAt27 m ρ c b hb)
theorem argAt29 (c : Dev nD) (b : Ref sig .tc) (hb : b.idx.val < 36) : W29 m ρ c (Proc.devRef .tc b) = m ((c : Thread nD τ).loc b) :=
  (argStep29 m ρ c b hb).trans (argAt28 m ρ c b hb)
theorem argAt30 (c : Dev nD) (b : Ref sig .tc) (hb : b.idx.val < 36) : W30 m ρ c (Proc.devRef .tc b) = m ((c : Thread nD τ).loc b) :=
  (argStep30 m ρ c b hb).trans (argAt29 m ρ c b hb)
theorem argAt31 (c : Dev nD) (b : Ref sig .tc) (hb : b.idx.val < 36) : W31 m ρ c (Proc.devRef .tc b) = m ((c : Thread nD τ).loc b) :=
  (argStep31 m ρ c b hb).trans (argAt30 m ρ c b hb)
theorem argAt32 (c : Dev nD) (b : Ref sig .tc) (hb : b.idx.val < 36) : W32 m ρ c (Proc.devRef .tc b) = m ((c : Thread nD τ).loc b) :=
  (argStep32 m ρ c b hb).trans (argAt31 m ρ c b hb)
theorem argAt33 (c : Dev nD) (b : Ref sig .tc) (hb : b.idx.val < 36) : W33 m ρ c (Proc.devRef .tc b) = m ((c : Thread nD τ).loc b) :=
  (argStep33 m ρ c b hb).trans (argAt32 m ρ c b hb)
theorem argAt34 (c : Dev nD) (b : Ref sig .tc) (hb : b.idx.val < 36) : W34 m ρ c (Proc.devRef .tc b) = m ((c : Thread nD τ).loc b) :=
  (argStep34 m ρ c b hb).trans (argAt33 m ρ c b hb)
theorem argAt35 (c : Dev nD) (b : Ref sig .tc) (hb : b.idx.val < 36) : W35 m ρ c (Proc.devRef .tc b) = m ((c : Thread nD τ).loc b) :=
  (argStep35 m ρ c b hb).trans (argAt34 m ρ c b hb)
theorem argAt36 (c : Dev nD) (b : Ref sig .tc) (hb : b.idx.val < 36) : W36 m ρ c (Proc.devRef .tc b) = m ((c : Thread nD τ).loc b) :=
  (argStep36 m ρ c b hb).trans (argAt35 m ρ c b hb)
theorem argAt37 (c : Dev nD) (b : Ref sig .tc) (hb : b.idx.val < 36) : W37 m ρ c (Proc.devRef .tc b) = m ((c : Thread nD τ).loc b) :=
  (argStep37 m ρ c b hb).trans (argAt36 m ρ c b hb)
theorem argAt38 (c : Dev nD) (b : Ref sig .tc) (hb : b.idx.val < 36) : W38 m ρ c (Proc.devRef .tc b) = m ((c : Thread nD τ).loc b) :=
  (argStep38 m ρ c b hb).trans (argAt37 m ρ c b hb)
theorem argAt39 (c : Dev nD) (b : Ref sig .tc) (hb : b.idx.val < 36) : W39 m ρ c (Proc.devRef .tc b) = m ((c : Thread nD τ).loc b) :=
  (argStep39 m ρ c b hb).trans (argAt38 m ρ c b hb)
theorem argAt40 (c : Dev nD) (b : Ref sig .tc) (hb : b.idx.val < 36) : W40 m ρ c (Proc.devRef .tc b) = m ((c : Thread nD τ).loc b) :=
  (argStep40 m ρ c b hb).trans (argAt39 m ρ c b hb)
theorem argAt41 (c : Dev nD) (b : Ref sig .tc) (hb : b.idx.val < 36) : W41 m ρ c (Proc.devRef .tc b) = m ((c : Thread nD τ).loc b) :=
  (argStep41 m ρ c b hb).trans (argAt40 m ρ c b hb)
theorem argAt42 (c : Dev nD) (b : Ref sig .tc) (hb : b.idx.val < 36) : W42 m ρ c (Proc.devRef .tc b) = m ((c : Thread nD τ).loc b) :=
  (argStep42 m ρ c b hb).trans (argAt41 m ρ c b hb)
theorem argAt43 (c : Dev nD) (b : Ref sig .tc) (hb : b.idx.val < 36) : W43 m ρ c (Proc.devRef .tc b) = m ((c : Thread nD τ).loc b) :=
  (argStep43 m ρ c b hb).trans (argAt42 m ρ c b hb)
theorem argAt44 (c : Dev nD) (b : Ref sig .tc) (hb : b.idx.val < 36) : W44 m ρ c (Proc.devRef .tc b) = m ((c : Thread nD τ).loc b) :=
  (argStep44 m ρ c b hb).trans (argAt43 m ρ c b hb)
theorem argAt45 (c : Dev nD) (b : Ref sig .tc) (hb : b.idx.val < 36) : W45 m ρ c (Proc.devRef .tc b) = m ((c : Thread nD τ).loc b) :=
  (argStep45 m ρ c b hb).trans (argAt44 m ρ c b hb)
theorem argAt46 (c : Dev nD) (b : Ref sig .tc) (hb : b.idx.val < 36) : W46 m ρ c (Proc.devRef .tc b) = m ((c : Thread nD τ).loc b) :=
  (argStep46 m ρ c b hb).trans (argAt45 m ρ c b hb)
theorem argAt47 (c : Dev nD) (b : Ref sig .tc) (hb : b.idx.val < 36) : W47 m ρ c (Proc.devRef .tc b) = m ((c : Thread nD τ).loc b) :=
  (argStep47 m ρ c b hb).trans (argAt46 m ρ c b hb)
theorem argAt48 (c : Dev nD) (b : Ref sig .tc) (hb : b.idx.val < 36) : W48 m ρ c (Proc.devRef .tc b) = m ((c : Thread nD τ).loc b) :=
  (argStep48 m ρ c b hb).trans (argAt47 m ρ c b hb)
theorem argAt49 (c : Dev nD) (b : Ref sig .tc) (hb : b.idx.val < 36) : W49 m ρ c (Proc.devRef .tc b) = m ((c : Thread nD τ).loc b) :=
  (argStep49 m ρ c b hb).trans (argAt48 m ρ c b hb)

end Cert.KernelIdeal.KG

end
-- ==== Proof.PreRead.lean ====
import proofs.«402148_j44985487458808_3_alg».proof.Defs
import proofs.«402148_j44985487458808_3_alg».proof.Proof.Gen.Pre_finite_inputs
import Idealize.ShloMosaic.Lib.ReduceAll
import Idealize.ShloMosaic.Lib.ValueIdx
import Idealize.ShloMosaic.Lib.StableHlo.Predicate

/-!
  THE INDEX RANGES, READ OUT OF THE PRECONDITION. The precondition is a conjunction of rank-0 bits: one
  "every entry is finite" bit per float argument, then four bits about the two index vectors d and p of
  length 2048: all d ≥ 0, all d < 10000, all p ≥ 0, all p < 5000, each a signed lane-wise comparison against a
  broadcast constant, folded by "and" from the bit 1. The conjunction being 1 makes each of its bits 1; a fold by
  "and" that is 1 met only 1s, so every lane passes both of its comparisons; and a 32-bit word that is, signed,
  at least 0 and below n (n below 2³¹) has unsigned value below n.
-/

noncomputable section

namespace Cert.PreRead

open Idealize.ShloMosaic Idealize.ShloMosaic.TcCoe Idealize.SL.Sem Idealize.ShloMosaic.ValueIdx
open Cert.Pre_finite_inputs

/-- A 32-bit word that is, as a signed word, at least 0 and below n, where n is below 2³¹, has value below n:
    a non-negative signed word reads the same signed and unsigned. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt, StableHlo.Predicate.toInt_ofNat_small n hn] at h1
  have z : (0#32 : BitVec 32).toInt = 0 := by decide
  rw [z] at h0
  have e : w.toInt = w.toNat := by
    rw [BitVec.toInt_eq_toNat_cond] at h0 ⊢
    split at h0
    · simp_all
    · exfalso; have := w.isLt; omega
  omega

/-- A fold by "and" over all 2048 lanes into the rank-0 result that is 1 met a 1 at every lane
    (the rank-0 shape has a single index, so every lane folds into it). -/
theorem all_lanes {s u : Shape} {axes : List (Fin s.rank)} (x : s.Idx → BitVec 1) (init : u.Idx → BitVec 1)
    (h : s.ReducesTo axes S_) (hu : 0 < u.numel) (j : S_.Idx)
    (e : Host.reduce IntOp.andi x init h hu j = 1#1) (i : s.Idx) : x i = 1#1 :=
  Host.reduce_andi_eq_one x init h hu j e i (funext fun d => d.elim0)

/-- The tail of the predicate from the last float conjunct on: whatever bit the earlier conjuncts gave, the four
    last conjuncts say that every lane of d and of p lies, signed, in its range. -/
theorem part9_read {F : FTy → Type} [FloatOps F] (a0 a1 : IVec S2048 32) (a35 : FVec F S1 .f32) (v153 : IVec S_ 1)
    (j : S_.Idx) (e : fn_part9 (F := F) a0 a1 a35 v153 j = 1#1) :
    (∀ i, IntOp.cmpi .sge (a0 i) 0#32 = 1#1) ∧ (∀ i, IntOp.cmpi .slt (a0 i) 10000#32 = 1#1)
      ∧ (∀ i, IntOp.cmpi .sge (a1 i) 0#32 = 1#1) ∧ (∀ i, IntOp.cmpi .slt (a1 i) 5000#32 = 1#1) := by
  unfold fn_part9 fn_part10 at e
  simp only [andi, IntOp.andi_eq_one] at e
  obtain ⟨⟨⟨⟨-, h1⟩, h2⟩, h3⟩, h4⟩ := e
  exact ⟨fun i => all_lanes _ _ _ _ j h1 i, fun i => all_lanes _ _ _ _ j h2 i,
    fun i => all_lanes _ _ _ _ j h3 i, fun i => all_lanes _ _ _ _ j h4 i⟩

/-- THE INDEX RANGES: under the precondition, on every device, every entry of the first index vector is below 10000
    and every entry of the second is below 5000, as unsigned values. The predicate's value at its one index is the
    value of its tail at the two index vectors (the parts of the chain call one another), which `part9_read` reads. -/
theorem idx_range (m : (ℓ : Loc Cert.KernelIdeal.nD Cert.KernelIdeal.τ Cert.KernelIdeal.sig) → Buf (Elt Ideal) ℓ)
    (h : Cert.Pre_KernelIdeal m) (c : Dev Cert.KernelIdeal.nD) :
    (∀ k : Fin 2048, (m ((c.tc : Thread Cert.KernelIdeal.nD Cert.KernelIdeal.τ).loc Cert.KernelIdeal.main_arg0) (ix1 k)).toNat < 10000)
    ∧ (∀ k : Fin 2048, (m ((c.tc : Thread Cert.KernelIdeal.nD Cert.KernelIdeal.τ).loc Cert.KernelIdeal.main_arg1) (ix1 k)).toNat < 5000) := by
  have e := congrFun (h c) ix0
  have e9 : fn_part9 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) _ _ ix0 = 1#1 := e
  obtain ⟨h0, h1, h2, h3⟩ := part9_read _ _ _ _ _ e9
  exact ⟨fun k => toNat_lt_of_signed _ 10000 (by decide) (h0 _) (h1 _),
    fun k => toNat_lt_of_signed _ 5000 (by decide) (h2 _) (h3 _)⟩

end Cert.PreRead

end
-- ==== Proof.Spec.lean ====
/-
  The mathematics both programs compute, stated once over the extended reals, index by index.

  A dense layer is x ↦ x·W + b. Batch normalisation over the 2048 rows of a matrix a subtracts each column's mean
  (the column's sum divided by 2048), divides the centred column's sum of squares by 2048 to get the variance v, and
  returns g · (a − mean) · (v + ε)^(−1/2) + β, column by column. The rectifier is max(·, 0); the leaky rectifier keeps a
  non-negative value and multiplies a negative one by the slope 0.01 (as the f32 literal both programs carry).

  The graph part enters only through the two aggregated node-feature matrices: a selected row of one of them, plus the
  convolution's bias, through the leaky rectifier, is a block of columns of the feature matrix. Everything after that is
  four normalised dense layers and the two-layer head.
-/
import Idealize.ShloMosaic.PureOps.Ideal
import Idealize.ShloMosaic.Lib.ValueIdx

noncomputable section

namespace Cert.Spec

open Idealize.ShloMosaic Idealize.ShloMosaic.ValueIdx

/-- A matrix of extended reals with m rows and n columns, as the programs index it. -/
abbrev Arr2 (m n : ℕ) : Type := (⟨2, ![m, n]⟩ : Shape).Idx → EReal
/-- A vector of n extended reals. -/
abbrev Arr1 (n : ℕ) : Type := (⟨1, ![n]⟩ : Shape).Idx → EReal
/-- A vector of n 32-bit words (node indices). -/
abbrev Idx1 (n : ℕ) : Type := (⟨1, ![n]⟩ : Shape).Idx → BitVec 32

/-- The batch-normalisation ε: the f32 nearest 1e-5, read exactly. -/
def eps : EReal := Ideal.ofBits .f32 0x3727C5AC#32
/-- The leaky rectifier's slope: the f32 nearest 0.01, read exactly. -/
def slope : EReal := Ideal.ofBits .f32 0x3C23D70A#32
/-- The batch size 2048 as the f32 literal both programs divide by. -/
def cnt : EReal := Ideal.ofBits .f32 0x45000000#32

/-- max(v, 0). -/
def relu (v : EReal) : EReal := max v 0
/-- v if v ≥ 0, else slope · v. -/
def lrelu (v : EReal) : EReal := Scalar.select (FloatOps.cmpf (F := Ideal) (φ := .f32) .oge v 0) v (slope * v)

/-- The matrix product: entry (p, q) is the sum over k of x(p, k) · w(k, q). -/
def mm {M K N : ℕ} (x : Arr2 M K) (w : Arr2 K N) : Arr2 M N :=
  fun i => ∑ k : Fin K, x (ix2 (i 0 : Fin M) k) * w (ix2 k (i 1 : Fin N))

/-- A dense layer: x·W + b, the bias along the columns. -/
def lin {M K N : ℕ} (x : Arr2 M K) (w : Arr2 K N) (b : Arr1 N) : Arr2 M N :=
  fun i => mm x w i + b (ix1 (i 1 : Fin N))

/-- The mean of column q: its sum over the rows, divided by the batch size. -/
def colMean {M N : ℕ} (a : Arr2 M N) (q : Fin N) : EReal := Ideal.div (∑ r : Fin M, a (ix2 r q)) cnt

/-- The matrix with each column's mean subtracted. -/
def centred {M N : ℕ} (a : Arr2 M N) : Arr2 M N := fun i => a i - colMean a (i 1 : Fin N)

/-- The (biased) variance of column q: the centred column's sum of squares divided by the batch size. -/
def colVar {M N : ℕ} (a : Arr2 M N) (q : Fin N) : EReal :=
  Ideal.div (∑ r : Fin M, centred a (ix2 r q) * centred a (ix2 r q)) cnt

/-- Batch normalisation in training mode, column by column: g · (a − mean) · (var + ε)^(−1/2) + β. -/
def bn {M N : ℕ} (a : Arr2 M N) (g be : Arr1 N) : Arr2 M N :=
  fun i => g (ix1 (i 1 : Fin N)) * centred a i * Ideal.rsqrt (colVar a (i 1 : Fin N) + eps) + be (ix1 (i 1 : Fin N))

/-- A normalised dense layer with the rectifier. -/
def layer {M K N : ℕ} (x : Arr2 M K) (w : Arr2 K N) (b g be : Arr1 N) : Arr2 M N :=
  fun i => relu (bn (lin x w b) g be i)

/-- The head: a normalised dense layer with the leaky rectifier, then a plain dense layer. -/
def head {M K H N : ℕ} (x : Arr2 M K) (w1 : Arr2 K H) (b1 g1 be1 : Arr1 H) (w2 : Arr2 H N) (b2 : Arr1 N) : Arr2 M N :=
  lin (fun i => lrelu (bn (lin x w1 b1) g1 be1 i)) w2 b2

/-- The row a node index names, for an index in range (out of range it is reduced modulo the row count, which no
    statement below uses). -/
def rowOf (N : ℕ) (hN : 0 < N) (w : BitVec 32) : Fin N := ⟨w.toNat % N, Nat.mod_lt _ hN⟩

/-- The selected rows of an aggregated matrix, plus the bias, through the leaky rectifier. -/
def sel {B N C : ℕ} (hN : 0 < N) (agg : Arr2 N C) (bias : Arr1 C) (idx : Idx1 B) : Arr2 B C :=
  fun i => lrelu (agg (ix2 (rowOf N hN (idx (ix1 (i 0 : Fin B)))) (i 1 : Fin C)) + bias (ix1 (i 1 : Fin C)))

/-- The feature matrix: four blocks of columns side by side, 300 + 1024 + 1024 + 1024. -/
def feature (dv : Arr2 2048 300) (pe ec go : Arr2 2048 1024) : Arr2 2048 3372 :=
  fun i =>
    let r : Fin 2048 := i 0
    let q : ℕ := (i 1 : Fin 3372).val
    have hq : q < 3372 := (i 1 : Fin 3372).isLt
    if h : q < 300 then dv (ix2 r ⟨q, h⟩)
    else if h2 : q < 1324 then pe (ix2 r ⟨q - 300, by omega⟩)
    else if h3 : q < 2348 then ec (ix2 r ⟨q - 1324, by omega⟩)
    else go (ix2 r ⟨q - 2348, by omega⟩)

/-- Column q of a normalised dense layer depends only on column q of the weights and of the three vectors. -/
theorem layer_congr_col {M K N N' : ℕ} (x : Arr2 M K) (w : Arr2 K N) (b g be : Arr1 N) (w' : Arr2 K N') (b' g' be' : Arr1 N')
    (p : Fin M) (q : Fin N) (q' : Fin N') (hw : ∀ k : Fin K, w (ix2 k q) = w' (ix2 k q'))
    (hb : b (ix1 q) = b' (ix1 q')) (hg : g (ix1 q) = g' (ix1 q')) (hbe : be (ix1 q) = be' (ix1 q')) :
    layer x w b g be (ix2 p q) = layer x w' b' g' be' (ix2 p q') := by
  have hlin : ∀ r : Fin M, lin x w b (ix2 r q) = lin x w' b' (ix2 r q') := fun r => by
    show (∑ k : Fin K, x (ix2 r k) * w (ix2 k q)) + b (ix1 q) = (∑ k : Fin K, x (ix2 r k) * w' (ix2 k q')) + b' (ix1 q')
    rw [hb]; congr 1; exact Finset.sum_congr rfl fun k _ => by rw [hw k]
  have hmean : colMean (lin x w b) q = colMean (lin x w' b') q' := by
    show Ideal.div (∑ r : Fin M, lin x w b (ix2 r q)) cnt = Ideal.div (∑ r : Fin M, lin x w' b' (ix2 r q')) cnt
    rw [Finset.sum_congr rfl fun r _ => hlin r]
  have hcen : ∀ r : Fin M, centred (lin x w b) (ix2 r q) = centred (lin x w' b') (ix2 r q') := fun r => by
    show lin x w b (ix2 r q) - colMean (lin x w b) q = lin x w' b' (ix2 r q') - colMean (lin x w' b') q'
    rw [hlin r, hmean]
  have hvar : colVar (lin x w b) q = colVar (lin x w' b') q' := by
    show Ideal.div (∑ r : Fin M, centred (lin x w b) (ix2 r q) * centred (lin x w b) (ix2 r q)) cnt
      = Ideal.div (∑ r : Fin M, centred (lin x w' b') (ix2 r q') * centred (lin x w' b') (ix2 r q')) cnt
    rw [Finset.sum_congr rfl fun r _ => by rw [hcen r]]
  show relu (g (ix1 q) * centred (lin x w b) (ix2 p q) * Ideal.rsqrt (colVar (lin x w b) q + eps) + be (ix1 q))
    = relu (g' (ix1 q') * centred (lin x w' b') (ix2 p q') * Ideal.rsqrt (colVar (lin x w' b') q' + eps) + be' (ix1 q'))
  rw [hg, hbe, hcen p, hvar]

end Cert.Spec

end
-- ==== Proof.SpecNet.lean ====
/-
  The whole network as terms of the specification, over the launch arrays and the two aggregated node-feature matrices.

  The feature matrix lays the two dense inputs beside the selected, biased and rectified rows of each graph's aggregate.
  The encoder is two normalised dense layers (3372 → 1024 → 256), the decoder two more (256 → 1024 → 3372) on the code,
  and the head (256 → 64 → 1) also reads the code. Both programs' results are stated over these same terms.
-/
import proofs.«402148_j44985487458808_3_alg».proof.Proof.Spec

noncomputable section

namespace Cert.Spec

/-- The feature matrix: the two dense inputs, then for each graph the rows its indices select from its aggregated matrix,
    plus its bias, through the leaky rectifier. -/
def netFeat (dv : Arr2 2048 300) (pe : Arr2 2048 1024) (aggD : Arr2 10000 1024) (bd : Arr1 1024) (id : Idx1 2048)
    (aggP : Arr2 5000 1024) (bp : Arr1 1024) (ip : Idx1 2048) : Arr2 2048 3372 :=
  feature dv pe (sel (N := 10000) (by decide) aggD bd id) (sel (N := 5000) (by decide) aggP bp ip)

/-- The first hidden matrix: one normalised dense layer of the feature matrix, 3372 → 1024. -/
def netHid1 (feat : Arr2 2048 3372) (w1 : Arr2 3372 1024) (b1 g1 be1 : Arr1 1024) : Arr2 2048 1024 :=
  layer feat w1 b1 g1 be1

/-- The code: a second normalised dense layer, 1024 → 256. -/
def netEnc (feat : Arr2 2048 3372) (w1 : Arr2 3372 1024) (b1 g1 be1 : Arr1 1024) (w2 : Arr2 1024 256) (b2 g2 be2 : Arr1 256) :
    Arr2 2048 256 :=
  layer (netHid1 feat w1 b1 g1 be1) w2 b2 g2 be2

/-- The decoder's hidden matrix: a normalised dense layer of the code, 256 → 1024. -/
def netHid2 (enc : Arr2 2048 256) (w3 : Arr2 256 1024) (b3 g3 be3 : Arr1 1024) : Arr2 2048 1024 :=
  layer enc w3 b3 g3 be3

/-- The reconstruction: a fourth normalised dense layer, 1024 → 3372. -/
def netDec (enc : Arr2 2048 256) (w3 : Arr2 256 1024) (b3 g3 be3 : Arr1 1024) (w4 : Arr2 1024 3372) (b4 g4 be4 : Arr1 3372) :
    Arr2 2048 3372 :=
  layer (netHid2 enc w3 b3 g3 be3) w4 b4 g4 be4

/-- The prediction: the head on the code, 256 → 64 → 1. -/
def netHead (enc : Arr2 2048 256) (w5 : Arr2 256 64) (b5 g5 be5 : Arr1 64) (w6 : Arr2 64 1) (b6 : Arr1 1) : Arr2 2048 1 :=
  head enc w5 b5 g5 be5 w6 b6

end Cert.Spec

end
-- ==== Proof.KNet.lean ====
/-
  THE KERNEL PROGRAM'S FOUR RESULTS AS THE NETWORK'S TERMS. The program builds the feature matrix, runs it through the
  two encoder layers to the code, the code through the two decoder layers to the reconstruction, and the code through the
  head to the prediction; each stage's array is the specification's layer (or head) of the previous stage's array and
  the launch arrays. Substituting each stage into the next gives the four arrays the program ends with as the
  specification's network terms of the launch arrays and the two aggregated node-feature matrices.
-/
import proofs.«402148_j44985487458808_3_alg».proof.Proof.KGlueArgs
import proofs.«402148_j44985487458808_3_alg».proof.Proof.SpecNet

noncomputable section

namespace Cert.KernelIdeal.KG

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The feature matrix of the launch arrays and of the two aggregated node-feature matrices, each read where the
    program has finished computing it. -/
abbrev knetFeat (c : Dev nD) : Cert.Spec.Arr2 2048 3372 :=
  Cert.Spec.netFeat (m ((c : Thread nD τ).loc main_arg2) : Cert.Spec.Arr2 2048 300) (m ((c : Thread nD τ).loc main_arg3) : Cert.Spec.Arr2 2048 1024)
    (W7 m ρ c (Proc.devRef .tc main_v48) : Cert.Spec.Arr2 10000 1024) (m ((c : Thread nD τ).loc main_arg11) : Cert.Spec.Arr1 1024)
    (m ((c : Thread nD τ).loc main_arg0) : Cert.Spec.Idx1 2048)
    (W15 m ρ c (Proc.devRef .tc main_v98) : Cert.Spec.Arr2 5000 1024) (m ((c : Thread nD τ).loc main_arg13) : Cert.Spec.Arr1 1024)
    (m ((c : Thread nD τ).loc main_arg1) : Cert.Spec.Idx1 2048)

/-- The code: the two encoder layers of the feature matrix. -/
abbrev knetEnc (c : Dev nD) : Cert.Spec.Arr2 2048 256 :=
  Cert.Spec.netEnc (knetFeat m ρ c) (m ((c : Thread nD τ).loc main_arg14) : Cert.Spec.Arr2 3372 1024) (m ((c : Thread nD τ).loc main_arg15) : Cert.Spec.Arr1 1024)
          (m ((c : Thread nD τ).loc main_arg16) : Cert.Spec.Arr1 1024) (m ((c : Thread nD τ).loc main_arg17) : Cert.Spec.Arr1 1024)
          (m ((c : Thread nD τ).loc main_arg18) : Cert.Spec.Arr2 1024 256) (m ((c : Thread nD τ).loc main_arg19) : Cert.Spec.Arr1 256)
          (m ((c : Thread nD τ).loc main_arg20) : Cert.Spec.Arr1 256) (m ((c : Thread nD τ).loc main_arg21) : Cert.Spec.Arr1 256)

/-- The reconstruction: the two decoder layers of the code. -/
abbrev knetDec (c : Dev nD) : Cert.Spec.Arr2 2048 3372 :=
  Cert.Spec.netDec (knetEnc m ρ c) (m ((c : Thread nD τ).loc main_arg22) : Cert.Spec.Arr2 256 1024) (m ((c : Thread nD τ).loc main_arg23) : Cert.Spec.Arr1 1024)
          (m ((c : Thread nD τ).loc main_arg24) : Cert.Spec.Arr1 1024) (m ((c : Thread nD τ).loc main_arg25) : Cert.Spec.Arr1 1024)
          (m ((c : Thread nD τ).loc main_arg26) : Cert.Spec.Arr2 1024 3372) (m ((c : Thread nD τ).loc main_arg27) : Cert.Spec.Arr1 3372)
          (m ((c : Thread nD τ).loc main_arg28) : Cert.Spec.Arr1 3372) (m ((c : Thread nD τ).loc main_arg29) : Cert.Spec.Arr1 3372)

/-- The prediction: the head of the code. -/
abbrev knetHead (c : Dev nD) : Cert.Spec.Arr2 2048 1 :=
  Cert.Spec.netHead (knetEnc m ρ c) (m ((c : Thread nD τ).loc main_arg30) : Cert.Spec.Arr2 256 64) (m ((c : Thread nD τ).loc main_arg31) : Cert.Spec.Arr1 64)
          (m ((c : Thread nD τ).loc main_arg32) : Cert.Spec.Arr1 64) (m ((c : Thread nD τ).loc main_arg33) : Cert.Spec.Arr1 64) (m ((c : Thread nD τ).loc main_arg34) : Cert.Spec.Arr2 64 1) (m ((c : Thread nD τ).loc main_arg35) : Cert.Spec.Arr1 1)

/-- Given each stage as the specification's layer (or head) of the stage before, and the three arrays later stretches
    leave untouched, the program's four final arrays are the network's prediction, code, reconstruction and feature
    matrix. -/
theorem knet (c : Dev nD)
    (hF0 : ∀ i, (W18 m ρ c (Proc.devRef .tc main_v102_0) : S2048x3372.Idx → EReal) i = knetFeat m ρ c i)
    (hF1 : ∀ i, (W18 m ρ c (Proc.devRef .tc main_v102_1) : S2048x3372.Idx → EReal) i = knetFeat m ρ c i)
    (h1 : ∀ i, (W20 m ρ c (Proc.devRef .tc main_v107) : S2048x1024.Idx → EReal) i
      = Cert.Spec.layer (W18 m ρ c (Proc.devRef .tc main_v102_1) : Cert.Spec.Arr2 2048 3372)
          (m ((c : Thread nD τ).loc main_arg14) : Cert.Spec.Arr2 3372 1024) (m ((c : Thread nD τ).loc main_arg15) : Cert.Spec.Arr1 1024)
          (m ((c : Thread nD τ).loc main_arg16) : Cert.Spec.Arr1 1024) (m ((c : Thread nD τ).loc main_arg17) : Cert.Spec.Arr1 1024) i)
    (h2 : ∀ i, (W22 m ρ c (Proc.devRef .tc main_v112) : S2048x256.Idx → EReal) i
      = Cert.Spec.layer (W20 m ρ c (Proc.devRef .tc main_v107) : Cert.Spec.Arr2 2048 1024)
          (m ((c : Thread nD τ).loc main_arg18) : Cert.Spec.Arr2 1024 256) (m ((c : Thread nD τ).loc main_arg19) : Cert.Spec.Arr1 256)
          (m ((c : Thread nD τ).loc main_arg20) : Cert.Spec.Arr1 256) (m ((c : Thread nD τ).loc main_arg21) : Cert.Spec.Arr1 256) i)
    (h3 : ∀ i, (W24 m ρ c (Proc.devRef .tc main_v117) : S2048x1024.Idx → EReal) i
      = Cert.Spec.layer (W22 m ρ c (Proc.devRef .tc main_v112) : Cert.Spec.Arr2 2048 256)
          (m ((c : Thread nD τ).loc main_arg22) : Cert.Spec.Arr2 256 1024) (m ((c : Thread nD τ).loc main_arg23) : Cert.Spec.Arr1 1024)
          (m ((c : Thread nD τ).loc main_arg24) : Cert.Spec.Arr1 1024) (m ((c : Thread nD τ).loc main_arg25) : Cert.Spec.Arr1 1024) i)
    (h4 : ∀ i, (W35 m ρ c (Proc.devRef .tc main_v127) : S2048x3372.Idx → EReal) i
      = Cert.Spec.layer (W24 m ρ c (Proc.devRef .tc main_v117) : Cert.Spec.Arr2 2048 1024)
          (m ((c : Thread nD τ).loc main_arg26) : Cert.Spec.Arr2 1024 3372) (m ((c : Thread nD τ).loc main_arg27) : Cert.Spec.Arr1 3372)
          (m ((c : Thread nD τ).loc main_arg28) : Cert.Spec.Arr1 3372) (m ((c : Thread nD τ).loc main_arg29) : Cert.Spec.Arr1 3372) i)
    (hh : ∀ i, (W49 m ρ c (Proc.devRef .tc main_v141) : S2048x1.Idx → EReal) i
      = Cert.Spec.head (W22 m ρ c (Proc.devRef .tc main_v112) : Cert.Spec.Arr2 2048 256)
          (m ((c : Thread nD τ).loc main_arg30) : Cert.Spec.Arr2 256 64) (m ((c : Thread nD τ).loc main_arg31) : Cert.Spec.Arr1 64)
          (m ((c : Thread nD τ).loc main_arg32) : Cert.Spec.Arr1 64) (m ((c : Thread nD τ).loc main_arg33) : Cert.Spec.Arr1 64) (m ((c : Thread nD τ).loc main_arg34) : Cert.Spec.Arr2 64 1) (m ((c : Thread nD τ).loc main_arg35) : Cert.Spec.Arr1 1) i)
    (k112 : W49 m ρ c (Proc.devRef .tc main_v112) = W22 m ρ c (Proc.devRef .tc main_v112))
    (k127 : W49 m ρ c (Proc.devRef .tc main_v127) = W35 m ρ c (Proc.devRef .tc main_v127))
    (k1020 : W49 m ρ c (Proc.devRef .tc main_v102_0) = W18 m ρ c (Proc.devRef .tc main_v102_0)) :
    (∀ i, (W49 m ρ c (Proc.devRef .tc main_v141) : S2048x1.Idx → EReal) i = knetHead m ρ c i)
    ∧ (∀ i, (W49 m ρ c (Proc.devRef .tc main_v112) : S2048x256.Idx → EReal) i = knetEnc m ρ c i)
    ∧ (∀ i, (W49 m ρ c (Proc.devRef .tc main_v127) : S2048x3372.Idx → EReal) i = knetDec m ρ c i)
    ∧ (∀ i, (W49 m ρ c (Proc.devRef .tc main_v102_0) : S2048x3372.Idx → EReal) i = knetFeat m ρ c i) := by
  -- each stage as a whole array, the stage before substituted
  have eF : (W18 m ρ c (Proc.devRef .tc main_v102_1) : Cert.Spec.Arr2 2048 3372) = knetFeat m ρ c := funext hF1
  have e107 : (W20 m ρ c (Proc.devRef .tc main_v107) : Cert.Spec.Arr2 2048 1024)
      = Cert.Spec.layer (knetFeat m ρ c) (m ((c : Thread nD τ).loc main_arg14) : Cert.Spec.Arr2 3372 1024) (m ((c : Thread nD τ).loc main_arg15) : Cert.Spec.Arr1 1024)
          (m ((c : Thread nD τ).loc main_arg16) : Cert.Spec.Arr1 1024) (m ((c : Thread nD τ).loc main_arg17) : Cert.Spec.Arr1 1024) := by
    funext i; rw [h1 i, eF]
  have e112 : (W22 m ρ c (Proc.devRef .tc main_v112) : Cert.Spec.Arr2 2048 256) = knetEnc m ρ c := by
    funext i; rw [h2 i, e107]; rfl
  have e117 : (W24 m ρ c (Proc.devRef .tc main_v117) : Cert.Spec.Arr2 2048 1024)
      = Cert.Spec.layer (knetEnc m ρ c) (m ((c : Thread nD τ).loc main_arg22) : Cert.Spec.Arr2 256 1024) (m ((c : Thread nD τ).loc main_arg23) : Cert.Spec.Arr1 1024)
          (m ((c : Thread nD τ).loc main_arg24) : Cert.Spec.Arr1 1024) (m ((c : Thread nD τ).loc main_arg25) : Cert.Spec.Arr1 1024) := by
    funext i; rw [h3 i, e112]
  have e127 : (W35 m ρ c (Proc.devRef .tc main_v127) : Cert.Spec.Arr2 2048 3372) = knetDec m ρ c := by
    funext i; rw [h4 i, e117]; rfl
  refine ⟨fun i => ?_, fun i => ?_, fun i => ?_, fun i => ?_⟩
  · rw [hh i, e112]; rfl
  · rw [k112]; exact congrFun e112 i
  · rw [k127]; exact congrFun e127 i
  · rw [k1020]; exact hF0 i

end Cert.KernelIdeal.KG

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RFeat.lean ====
/-
  The reference's row selection and its feature matrix, read index by index.

  For each graph the reference adds the convolution's bias to the aggregated node-feature matrix, applies the leaky
  rectifier (keep a value that is ≥ 0, multiply any other by the slope literal), and gathers whole rows at the node
  indices, an index having the row count added first where it is negative as a signed word. For an index word below the
  row count nothing is added and nothing is clamped, so the gathered row is the row the word names: entry (e, j) of the
  result is the leaky rectifier of the aggregated entry (index e, j) plus the bias at j. The feature matrix is four
  blocks of columns laid side by side, 300 + 1024 + 1024 + 1024.
-/
import proofs.«402148_j44985487458808_3_alg».proof.Proof.RefRun
import proofs.«402148_j44985487458808_3_alg».proof.Proof.Spec
import proofs.«402148_j44985487458808_3_alg».proof.Proof.LibGatherScatter
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Idealize.ShloMosaic Idealize.ShloMosaic.TcCoe Idealize.SL.Sem Idealize.ShloMosaic.StableHlo Idealize.ShloMosaic.ValueIdx
open Idealize.ShloMosaic.StableHlo.Predicate
open Cert.ReferenceIdeal Cert.ReferenceIdeal.Gen Cert.ReferenceIdeal.RefRun Cert.Spec

/-! ## Four blocks of columns side by side -/

/-- A concatenation of a [2048 × 300] block and three [2048 × 1024] blocks along the columns, read at an index: the block
    whose span of columns holds the index's column, at that column less the widths before it. -/
theorem concat_feature (x0 : Arr2 2048 300) (x1 x2 x3 : Arr2 2048 1024)
    (h : Shape.Concatenates (([⟨⟨2, ![2048, 300]⟩, x0⟩, ⟨⟨2, ![2048, 1024]⟩, x1⟩, ⟨⟨2, ![2048, 1024]⟩, x2⟩, ⟨⟨2, ![2048, 1024]⟩, x3⟩] :
      List ((s : Shape) × (s.Idx → EReal))).map (·.1)) ⟨2, ![2048, 3372]⟩ 1)
    (i : (⟨2, ![2048, 3372]⟩ : Shape).Idx) :
    concatenate ⟨2, ![2048, 3372]⟩ 1 [⟨⟨2, ![2048, 300]⟩, x0⟩, ⟨⟨2, ![2048, 1024]⟩, x1⟩, ⟨⟨2, ![2048, 1024]⟩, x2⟩, ⟨⟨2, ![2048, 1024]⟩, x3⟩] h i
      = feature x0 x1 x2 x3 i := by
  have hq : (i 1).val < 3372 := (i 1).isLt
  -- off the column axis a block's index keeps the row
  have hoff : ∀ {n : ℕ} (q : Fin n) (b : Fin 2) (hr : 2 = 2), b.cast hr ≠ (1 : Fin 2) →
      ((ix2 (i 0) q : (⟨2, ![2048, n]⟩ : Shape).Idx) b).val = (i (b.cast hr)).val := fun q b hr hb => by
    match b with
    | ⟨0, _⟩ => rfl
    | ⟨1, _⟩ => exact absurd rfl hb
  unfold feature
  dsimp only
  by_cases h1 : (i 1).val < 300
  · rw [dif_pos h1]
    exact concatenate_apply_piece 1 _ h i 0 (by simp) _ x0 rfl rfl 0 rfl (ix2 (i 0) ⟨(i 1).val, h1⟩)
      (fun b hb => hoff _ b rfl hb) (by show 0 + (i 1).val = (i 1).val; omega)
  · rw [dif_neg h1]
    by_cases h2 : (i 1).val < 1324
    · rw [dif_pos h2]
      exact concatenate_apply_piece 1 _ h i 1 (by simp) _ x1 rfl rfl 300 rfl (ix2 (i 0) ⟨(i 1).val - 300, by omega⟩)
        (fun b hb => hoff _ b rfl hb) (by show 300 + ((i 1).val - 300) = (i 1).val; omega)
    · rw [dif_neg h2]
      by_cases h3 : (i 1).val < 2348
      · rw [dif_pos h3]
        exact concatenate_apply_piece 1 _ h i 2 (by simp) _ x2 rfl rfl 1324 rfl (ix2 (i 0) ⟨(i 1).val - 1324, by omega⟩)
          (fun b hb => hoff _ b rfl hb) (by show 1324 + ((i 1).val - 1324) = (i 1).val; omega)
      · rw [dif_neg h3]
        exact concatenate_apply_piece 1 _ h i 3 (by simp) _ x3 rfl rfl 2348 rfl (ix2 (i 0) ⟨(i 1).val - 2348, by omega⟩)
          (fun b hb => hoff _ b rfl hb) (by show 2348 + ((i 1).val - 2348) = (i 1).val; omega)

/-! ## A node index in range -/

/-- An index word below N ≤ 2³¹ is not negative as a signed word. -/
theorem slt_zero_of_lt {w : BitVec 32} {N : ℕ} (hN : N ≤ 2 ^ 31) (h : w.toNat < N) : IntOp.cmpi .slt w 0#32 = 0#1 := by
  have hi : w.toInt = (w.toNat : Int) := by
    rw [BitVec.toInt_eq_toNat_cond, if_pos (by omega)]
  have hs : w.slt 0#32 = false := by
    rw [BitVec.slt, hi]
    simp
  show BitVec.ofBool (w.slt 0#32) = 0#1
  rw [hs]; rfl

/-- Read signed and clamped into [0, N − 1], such a word is itself. -/
theorem clamp_of_lt {w : BitVec 32} {N : ℕ} (hN : N ≤ 2 ^ 31) (h : w.toNat < N) : min w.toInt.toNat (N - 1) = w.toNat % N := by
  have hi : w.toInt = (w.toNat : Int) := by
    rw [BitVec.toInt_eq_toNat_cond, if_pos (by omega)]
  rw [hi, Int.toNat_natCast, Nat.mod_eq_of_lt h]
  omega

/-! ## The bias, then the leaky rectifier -/

/-- The two index forms of a rank-2 index agree. -/
theorem ij_eq_ix2 {n m : ℕ} (p : Fin n) (q : Fin m) : ij p q = ix2 p q := by
  funext d
  match d with
  | ⟨0, _⟩ => rfl
  | ⟨1, _⟩ => rfl

/-- A matrix plus a bias vector laid along the columns, through "keep if ≥ 0, else multiply by the slope literal", read at
    (r, q): the leaky rectifier of the entry plus the bias at q. -/
theorem lrelu_term {N C : ℕ} (h1 : (⟨1, ![C]⟩ : Shape).BroadcastsInDim ⟨2, ![1, C]⟩ ![1])
    (h2 : (⟨2, ![1, C]⟩ : Shape).BroadcastsInDim ⟨2, ![N, C]⟩ ![0, 1]) (h0 : (⟨0, ![]⟩ : Shape).BroadcastsInDim ⟨2, ![N, C]⟩ ![])
    (agg : Arr2 N C) (bias : Arr1 C) (r : Fin N) (q : Fin C) :
    select (cmpf (F := Ideal) (φ := .f32) .oge
          (addf (F := Ideal) (φ := .f32) agg (broadcastInDim ⟨2, ![N, C]⟩ ![0, 1] h2 (broadcastInDim ⟨2, ![1, C]⟩ ![1] h1 bias)))
          (broadcastInDim ⟨2, ![N, C]⟩ ![] h0 (constant (F := Ideal) ⟨0, ![]⟩ .f32 0x00000000#32)))
        (addf (F := Ideal) (φ := .f32) agg (broadcastInDim ⟨2, ![N, C]⟩ ![0, 1] h2 (broadcastInDim ⟨2, ![1, C]⟩ ![1] h1 bias)))
        (mulf (F := Ideal) (φ := .f32) (broadcastInDim ⟨2, ![N, C]⟩ ![] h0 (constant (F := Ideal) ⟨0, ![]⟩ .f32 0x3C23D70A#32))
          (addf (F := Ideal) (φ := .f32) agg (broadcastInDim ⟨2, ![N, C]⟩ ![0, 1] h2 (broadcastInDim ⟨2, ![1, C]⟩ ![1] h1 bias))))
        (ix2 r q)
      = lrelu (agg (ix2 r q) + bias (ix1 q)) := by
  have hb : broadcastInDim ⟨2, ![N, C]⟩ ![0, 1] h2 (broadcastInDim ⟨2, ![1, C]⟩ ![1] h1 bias) (ix2 r q) = bias (ix1 q) := by
    rw [← ij_eq_ix2, bcast_cols, RowOps.ofFin_eq_ix1]
  show Scalar.select (FloatOps.cmpf (F := Ideal) (φ := .f32) .oge
        (agg (ix2 r q) + broadcastInDim ⟨2, ![N, C]⟩ ![0, 1] h2 (broadcastInDim ⟨2, ![1, C]⟩ ![1] h1 bias) (ix2 r q))
        (Ideal.ofBits .f32 0x00000000#32))
      (agg (ix2 r q) + broadcastInDim ⟨2, ![N, C]⟩ ![0, 1] h2 (broadcastInDim ⟨2, ![1, C]⟩ ![1] h1 bias) (ix2 r q))
      (Ideal.ofBits .f32 0x3C23D70A#32
        * (agg (ix2 r q) + broadcastInDim ⟨2, ![N, C]⟩ ![0, 1] h2 (broadcastInDim ⟨2, ![1, C]⟩ ![1] h1 bias) (ix2 r q))) = _
  rw [hb, Ideal.ofBits_zero_f32]
  rfl

/-- The index column the gather reads: the indices with the row count added where negative, laid as a [B × 1] column. For
    an index word below the row count N ≤ 2³¹ the row it names, read signed and clamped, is the word's own value. -/
theorem clampRow_idx {B N : ℕ} (hN : 0 < N) (hN31 : N ≤ 2 ^ 31)
    (hc : (⟨1, ![B]⟩ : Shape).BroadcastsInDim ⟨2, ![B, 1]⟩ ![0]) (hs : (⟨0, ![]⟩ : Shape).BroadcastsInDim ⟨1, ![B]⟩ ![])
    (idx : Idx1 B) (Nw : BitVec 32) (e : Fin B) (hidx : (idx (ix1 e)).toNat < N) :
    RowOps.clampRow N hN (broadcastInDim ⟨2, ![B, 1]⟩ ![0] hc
        (select (cmpi .slt idx (broadcastInDim ⟨1, ![B]⟩ ![] hs (constantI ⟨0, ![]⟩ 32 0#32)))
          (addi idx (broadcastInDim ⟨1, ![B]⟩ ![] hs (constantI ⟨0, ![]⟩ 32 Nw))) idx)) e
      = rowOf N hN (idx (ix1 e)) := by
  have hX : broadcastInDim ⟨2, ![B, 1]⟩ ![0] hc
        (select (cmpi .slt idx (broadcastInDim ⟨1, ![B]⟩ ![] hs (constantI ⟨0, ![]⟩ 32 0#32)))
          (addi idx (broadcastInDim ⟨1, ![B]⟩ ![] hs (constantI ⟨0, ![]⟩ 32 Nw))) idx) (ixP e) = idx (ix1 e) := by
    rw [bcast_col1, RowOps.ofFin_eq_ix1]
    show Scalar.select (IntOp.cmpi .slt (idx (ix1 e)) 0#32) (IntOp.addi (idx (ix1 e)) Nw) (idx (ix1 e)) = idx (ix1 e)
    rw [slt_zero_of_lt hN31 hidx, select_zero]
  apply Fin.ext
  show min ((broadcastInDim ⟨2, ![B, 1]⟩ ![0] hc
        (select (cmpi .slt idx (broadcastInDim ⟨1, ![B]⟩ ![] hs (constantI ⟨0, ![]⟩ 32 0#32)))
          (addi idx (broadcastInDim ⟨1, ![B]⟩ ![] hs (constantI ⟨0, ![]⟩ 32 Nw))) idx)) (ixP e)).toInt.toNat (N - 1)
      = (idx (ix1 e)).toNat % N
  rw [hX]
  exact clamp_of_lt hN31 hidx

/-- The gather of whole rows at that index column reads, at (e, j), the operand at (the row index e names, j). -/
theorem rows_gather {α : Type} {B N C : ℕ} (hN : 0 < N) (hN31 : N ≤ 2 ^ 31)
    (gd : GatherDims ⟨2, ![N, C]⟩ ⟨2, ![B, 1]⟩ ⟨2, ![B, C]⟩)
    (hoff : gd.offsetDims = [1]) (hcoll : gd.collapsedSliceDims = [0]) (hob : gd.operandBatchingDims = [])
    (hsim : gd.startIndexMap = [0]) (hivd : gd.indexVectorDim = 1) (hss : gd.sliceSizes = ![1, C])
    (hc : (⟨1, ![B]⟩ : Shape).BroadcastsInDim ⟨2, ![B, 1]⟩ ![0]) (hs : (⟨0, ![]⟩ : Shape).BroadcastsInDim ⟨1, ![B]⟩ ![])
    (x : (⟨2, ![N, C]⟩ : Shape).Idx → α) (idx : Idx1 B) (Nw : BitVec 32) (e : Fin B) (j : Fin C)
    (hidx : (idx (ix1 e)).toNat < N) :
    Host.gather gd x (broadcastInDim ⟨2, ![B, 1]⟩ ![0] hc
        (select (cmpi .slt idx (broadcastInDim ⟨1, ![B]⟩ ![] hs (constantI ⟨0, ![]⟩ 32 0#32)))
          (addi idx (broadcastInDim ⟨1, ![B]⟩ ![] hs (constantI ⟨0, ![]⟩ 32 Nw))) idx)) (ix2 e j)
      = x (ix2 (rowOf N hN (idx (ix1 e))) j) := by
  rw [RowOps.gather_rows gd hoff hcoll hob hsim hivd hss _ _ e j hN, clampRow_idx hN hN31 hc hs idx Nw e hidx]

/-! ## The reference's pieces -/

/-- The feature matrix: the concatenation of the two input blocks and the two selected-row blocks along the columns. -/
theorem ref_concat (V : Valuation τ sig (Elt Ideal)) :
    ∀ i, after s10 V (Proc.devRef .tc main_v122) i
      = feature (V (Proc.devRef .tc main_arg2)) (V (Proc.devRef .tc main_arg3)) (V (Proc.devRef .tc main_v60))
          (V (Proc.devRef .tc main_v121)) i := by
  intro i
  after_results
  exact concat_feature _ _ _ _ _ i

/-- Graph d (10000 nodes): the rows of the rectified, biased aggregate that the indices name. -/
theorem ref_rows_d (V : Valuation τ sig (Elt Ideal))
    (hidx : ∀ k : Fin 2048, (V (Proc.devRef .tc main_arg0) (ix1 k)).toNat < 10000) :
    ∀ i, after s4 (after s3 V) (Proc.devRef .tc main_v60) i
      = sel (N := 10000) (by decide) (V (Proc.devRef .tc main_v45)) (V (Proc.devRef .tc main_arg11))
          (V (Proc.devRef .tc main_arg0)) i := by
  intro i
  obtain ⟨e, j, rfl⟩ : ∃ e j, i = ix2 e j := ⟨i 0, i 1, eq_ix2 i⟩
  after_results
  simp only [TRef.ofBuf, TRef.toBuf, cast_eq]
  refine (rows_gather (N := 10000) (by decide) (by decide) gather_S10000x1024_S2048x1_S2048x1024_1_0_n_n_0_1_11024
    rfl rfl rfl rfl rfl rfl _ _ _ _ 10000#32 e j (hidx e)).trans ?_
  exact lrelu_term _ _ _ _ _ _ j

/-- Graph p (5000 nodes): the same, with its own bias and indices. -/
theorem ref_rows_p (V : Valuation τ sig (Elt Ideal))
    (hidx : ∀ k : Fin 2048, (V (Proc.devRef .tc main_arg1) (ix1 k)).toNat < 5000) :
    ∀ i, after s9 V (Proc.devRef .tc main_v121) i
      = sel (N := 5000) (by decide) (V (Proc.devRef .tc main_v106)) (V (Proc.devRef .tc main_arg13))
          (V (Proc.devRef .tc main_arg1)) i := by
  intro i
  obtain ⟨e, j, rfl⟩ : ∃ e j, i = ix2 e j := ⟨i 0, i 1, eq_ix2 i⟩
  after_results
  simp only [TRef.ofBuf, TRef.toBuf, cast_eq]
  refine (rows_gather (N := 5000) (by decide) (by decide) gather_S5000x1024_S2048x1_S2048x1024_1_0_n_n_0_1_11024
    rfl rfl rfl rfl rfl rfl _ _ _ _ 5000#32 e j (hidx e)).trans ?_
  exact lrelu_term _ _ _ _ _ _ j

end Cert.ReferenceIdeal.RefVal

end
-- ==== Proof.RLayer.lean ====
/-
  One normalised dense layer of the reference, read index by index.

  The reference computes a layer as a chain of whole-array operations: the matrix product plus the bias laid along the
  columns; the column sums divided by the batch size; the variance routine (the mean once more, the centred matrix, its
  square, the column sums again, a division by "batch size minus zero" under a guard that this divisor is positive);
  gain times centred matrix times the inverse root of variance plus ε, plus the shift; and the rectifier. Read at one
  index each of these is the corresponding term of the specification; nothing but 0 + s = s, c − 0 = c and 0 < 2048 is
  used, so the statement holds at every extended-real input. Sizes are arbitrary here: M rows, K inner, N columns.
-/
import proofs.«402148_j44985487458808_3_alg».proof.Proof.Spec
import Idealize.ShloMosaic.Lib.ValueIdx
import Idealize.ShloMosaic.Lib.StackMember
import Idealize.ShloMosaic.PureOps.Ideal.Laws

noncomputable section

namespace Cert.RLayer

open Idealize.ShloMosaic Idealize.ShloMosaic.ValueIdx Cert.Spec

variable {M K N : ℕ}

/-- The scalar shape. -/
abbrev S0 : Shape := ⟨0, ![]⟩

/-! ## Layout: a vector laid along the columns -/

/-- [N] → [1, N] → [M, N]: entry (p, q) of the result is entry q of the vector. -/
theorem bcastRow_apply {α : Type} (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α)
    (p : Fin M) (q : Fin N) :
    broadcastInDim ⟨2, ![M, N]⟩ ![0, 1] h₂ (broadcastInDim ⟨2, ![1, N]⟩ ![1] h₁ v) (ix2 p q) = v (ix1 q) := by
  simp only [broadcastInDim]
  congr 1
  funext a
  have ha : a = 0 := Subsingleton.elim _ _
  subst ha
  apply Fin.ext
  have hq := q.isLt
  split
  · next h1 => change N = 1 at h1; show (0 : Nat) = q.val; omega
  · split
    · next h2 => change N = 1 at h2; show (0 : Nat) = q.val; omega
    · rfl

/-- The same with a [1, N] row in the middle that is itself a quotient of two rows. -/
theorem bcastOfRow_apply {α : Type} (h₂ : (⟨2, ![1, N]⟩ : Shape).BroadcastsInDim ⟨2, ![M, N]⟩ ![0, 1])
    (v : (⟨2, ![1, N]⟩ : Shape).Idx → α) (p : Fin M) (q : Fin N) :
    broadcastInDim ⟨2, ![M, N]⟩ ![0, 1] h₂ v (ix2 p q) = v (ix2 (0 : Fin 1) q) := by
  simp only [broadcastInDim]
  congr 1
  funext a
  match a with
  | ⟨0, _⟩ =>
    apply Fin.ext
    split
    · rfl
    · next h => exact absurd rfl h
  | ⟨1, _⟩ =>
    apply Fin.ext
    have hq := q.isLt
    split
    · next h1 => change N = 1 at h1; show (0 : Nat) = q.val; omega
    · rfl

/-- [N] → [1, N]: entry (0, q) is entry q. -/
theorem bcastRow1_apply {α : Type} (h₁ : (⟨1, ![N]⟩ : Shape).BroadcastsInDim ⟨2, ![1, N]⟩ ![1])
    (v : (⟨1, ![N]⟩ : Shape).Idx → α) (q : Fin N) :
    broadcastInDim ⟨2, ![1, N]⟩ ![1] h₁ v (ix2 (0 : Fin 1) q) = v (ix1 q) := by
  simp only [broadcastInDim]
  congr 1
  funext a
  have ha : a = 0 := Subsingleton.elim _ _
  subst ha
  apply Fin.ext
  have hq := q.isLt
  split
  · next h1 => change N = 1 at h1; show (0 : Nat) = q.val; omega
  · rfl

/-! ## The column sum -/

/-- The host's sum over the rows, from the zero word, at column q: the sum of the column. -/
theorem colSum_apply (hr : (⟨2, ![M, N]⟩ : Shape).ReducesTo [0] ⟨1, ![N]⟩) (hR : (⟨2, ![M, N]⟩ : Shape).Reduces [0] ⟨1, ![N]⟩)
    (h0 : 0 < S0.numel) (a : FVec Ideal ⟨2, ![M, N]⟩ .f32) (q : Fin N) :
    Host.reduceAdd a (constant (F := Ideal) S0 .f32 0x00000000#32) hr h0 (ix1 q) = ∑ r : Fin M, a (ix2 r q) := by
  show Ideal.hostReduceAdd hr a (Ideal.ofBits .f32 0x00000000#32) (ix1 q) = _
  rw [Ideal.hostReduceAdd_single hr hR, Ideal.ofBits_zero_f32, zero_add]
  refine Finset.sum_congr rfl fun r _ => congrArg a ?_
  funext c
  apply Fin.ext
  match c with
  | ⟨0, _⟩ => rfl
  | ⟨1, _⟩ => rfl

/-! ## Three scalar facts -/

/-- The integer zero converts to the real zero. -/
theorem sitofp_zero : (FloatOps.sitofp (F := Ideal) .f32 (0#32 : BitVec 32) : Ideal .f32) = 0 := by
  show (((0#32 : BitVec 32).toInt : ℝ) : EReal) = 0
  simp

/-- The batch-size literal is a positive real. -/
theorem cnt_pos : (0 : EReal) < Ideal.ofBits .f32 0x45000000#32 := by
  simp [Ideal.ofBits, Ideal.ieee]
  positivity

/-- "Batch size minus zero" is the batch size. -/
theorem cnt_sub_zero :
    (FloatOps.subf (F := Ideal) (Ideal.ofBits .f32 0x45000000#32 : Ideal .f32) (FloatOps.sitofp (F := Ideal) .f32 (0#32 : BitVec 32))) = cnt := by
  rw [sitofp_zero]
  show Ideal.ofBits .f32 0x45000000#32 - 0 = cnt
  rw [sub_zero]
  rfl

/-! ## The reference's composites -/

section Ref

variable (D : DotDims ⟨2, ![M, K]⟩ ⟨2, ![K, N]⟩ ⟨2, ![M, N]⟩)
  (h₁ : (⟨1, ![N]⟩ : Shape).BroadcastsInDim ⟨2, ![1, N]⟩ ![1])
  (h₂ : (⟨2, ![1, N]⟩ : Shape).BroadcastsInDim ⟨2, ![M, N]⟩ ![0, 1])
  (hr : (⟨2, ![M, N]⟩ : Shape).ReducesTo [0] ⟨1, ![N]⟩)
  (h0 : 0 < S0.numel)
  (hs1 : S0.BroadcastsInDim ⟨1, ![N]⟩ ![])
  (hs2 : S0.BroadcastsInDim ⟨2, ![1, N]⟩ ![])
  (hs3 : S0.BroadcastsInDim ⟨2, ![M, N]⟩ ![])

/-- x·W + b: the product, plus the bias laid along the columns. -/
def refLin (x : FVec Ideal ⟨2, ![M, K]⟩ .f32) (w : FVec Ideal ⟨2, ![K, N]⟩ .f32) (b : FVec Ideal ⟨1, ![N]⟩ .f32) :
    FVec Ideal ⟨2, ![M, N]⟩ .f32 :=
  addf (Host.dotGeneral D none x w) (broadcastInDim ⟨2, ![M, N]⟩ ![0, 1] h₂ (broadcastInDim ⟨2, ![1, N]⟩ ![1] h₁ b))

/-- The column means: the column sums over the batch size. -/
def refMean (a : FVec Ideal ⟨2, ![M, N]⟩ .f32) : FVec Ideal ⟨1, ![N]⟩ .f32 :=
  Host.divf (Host.reduceAdd a (constant (F := Ideal) S0 .f32 0x00000000#32) hr h0)
    (broadcastInDim ⟨1, ![N]⟩ ![] hs1 (constant (F := Ideal) S0 .f32 0x45000000#32))

/-- The matrix minus its column means, as the variance routine forms it (the mean through a [1, N] row). -/
def refCentre (a : FVec Ideal ⟨2, ![M, N]⟩ .f32) : FVec Ideal ⟨2, ![M, N]⟩ .f32 :=
  subf a (broadcastInDim ⟨2, ![M, N]⟩ ![0, 1] h₂
    (Host.divf (broadcastInDim ⟨2, ![1, N]⟩ ![1] h₁ (Host.reduceAdd a (constant (F := Ideal) S0 .f32 0x00000000#32) hr h0))
      (broadcastInDim ⟨2, ![1, N]⟩ ![] hs2 (constant (F := Ideal) S0 .f32 0x45000000#32))))

/-- The variance routine's divisor: the batch size minus the integer zero converted. -/
def refDen : FVec Ideal S0 .f32 :=
  subf (constant (F := Ideal) S0 .f32 0x45000000#32) (sitofp (F := Ideal) .f32 (constantI S0 32 0#32))

/-- The column variances: the centred matrix's column sums of squares over the divisor, where the divisor is
    positive (it is), else the not-a-number word. -/
def refVar (a : FVec Ideal ⟨2, ![M, N]⟩ .f32) : FVec Ideal ⟨1, ![N]⟩ .f32 :=
  select (broadcastInDim ⟨1, ![N]⟩ ![] hs1 (cmpf .ogt refDen (constant (F := Ideal) S0 .f32 0x00000000#32)))
    (Host.divf
      (Host.reduceAdd (mulf (refCentre h₁ h₂ hr h0 hs2 a) (refCentre h₁ h₂ hr h0 hs2 a))
        (constant (F := Ideal) S0 .f32 0x00000000#32) hr h0)
      (broadcastInDim ⟨1, ![N]⟩ ![] hs1 refDen))
    (broadcastInDim ⟨1, ![N]⟩ ![] hs1 (id (constant (F := Ideal) S0 .f32 0x7FC00000#32)))

/-- Gain · (a − mean) · (var + ε)^(−1/2) + shift, then the rectifier. -/
def refOut (a : FVec Ideal ⟨2, ![M, N]⟩ .f32) (mean var g be : FVec Ideal ⟨1, ![N]⟩ .f32) : FVec Ideal ⟨2, ![M, N]⟩ .f32 :=
  maximumf
    (addf
      (mulf
        (mulf (broadcastInDim ⟨2, ![M, N]⟩ ![0, 1] h₂ (broadcastInDim ⟨2, ![1, N]⟩ ![1] h₁ g))
          (subf a (broadcastInDim ⟨2, ![M, N]⟩ ![0, 1] h₂ (broadcastInDim ⟨2, ![1, N]⟩ ![1] h₁ mean))))
        (broadcastInDim ⟨2, ![M, N]⟩ ![0, 1] h₂ (broadcastInDim ⟨2, ![1, N]⟩ ![1] h₁
          (Host.rsqrt (addf var (broadcastInDim ⟨1, ![N]⟩ ![] hs1 (constant (F := Ideal) S0 .f32 0x3727C5AC#32)))))))
      (broadcastInDim ⟨2, ![M, N]⟩ ![0, 1] h₂ (broadcastInDim ⟨2, ![1, N]⟩ ![1] h₁ be)))
    (broadcastInDim ⟨2, ![M, N]⟩ ![] hs3 (constant (F := Ideal) S0 .f32 0x00000000#32))

/-- The whole layer. -/
def refLayer (x : FVec Ideal ⟨2, ![M, K]⟩ .f32) (w : FVec Ideal ⟨2, ![K, N]⟩ .f32) (b g be : FVec Ideal ⟨1, ![N]⟩ .f32) :
    FVec Ideal ⟨2, ![M, N]⟩ .f32 :=
  refOut h₁ h₂ hs1 hs3 (refLin D h₁ h₂ x w b) (refMean hr h0 hs1 (refLin D h₁ h₂ x w b))
    (refVar h₁ h₂ hr h0 hs1 hs2 (refLin D h₁ h₂ x w b)) g be

/-! ## Each composite at an index -/

/-- x·W + b at (p, q): the sum over k of x(p, k) · W(k, q), plus b(q). -/
theorem refLin_eq (hD : D = DotDims.plain M K N) (x : FVec Ideal ⟨2, ![M, K]⟩ .f32) (w : FVec Ideal ⟨2, ![K, N]⟩ .f32)
    (b : FVec Ideal ⟨1, ![N]⟩ .f32) : refLin D h₁ h₂ x w b = lin x w b := by
  subst hD
  funext i
  obtain ⟨p, q, rfl⟩ : ∃ (p : Fin M) (q : Fin N), i = ix2 p q := ⟨i 0, i 1, eq_ix2 i⟩
  show Host.dotGeneral (DotDims.plain M K N) none x w (ix2 p q)
      + broadcastInDim ⟨2, ![M, N]⟩ ![0, 1] h₂ (broadcastInDim ⟨2, ![1, N]⟩ ![1] h₁ b) (ix2 p q) = _
  rw [StackMember.dotGeneral_plain_apply, bcastRow_apply]
  rfl

/-- The mean of column q. -/
theorem refMean_apply (hR : (⟨2, ![M, N]⟩ : Shape).Reduces [0] ⟨1, ![N]⟩) (a : FVec Ideal ⟨2, ![M, N]⟩ .f32) (q : Fin N) : refMean hr h0 hs1 a (ix1 q) = colMean a q := by
  show Ideal.div (Host.reduceAdd a (constant (F := Ideal) S0 .f32 0x00000000#32) hr h0 (ix1 q)) (Ideal.ofBits .f32 0x45000000#32) = _
  rw [colSum_apply hr hR h0]
  rfl

/-- The variance routine's centred matrix is the specification's. -/
theorem refCentre_eq (hR : (⟨2, ![M, N]⟩ : Shape).Reduces [0] ⟨1, ![N]⟩) (a : FVec Ideal ⟨2, ![M, N]⟩ .f32) : refCentre h₁ h₂ hr h0 hs2 a = centred a := by
  funext i
  obtain ⟨p, q, rfl⟩ : ∃ (p : Fin M) (q : Fin N), i = ix2 p q := ⟨i 0, i 1, eq_ix2 i⟩
  show a (ix2 p q) - broadcastInDim ⟨2, ![M, N]⟩ ![0, 1] h₂
      (Host.divf (broadcastInDim ⟨2, ![1, N]⟩ ![1] h₁ (Host.reduceAdd a (constant (F := Ideal) S0 .f32 0x00000000#32) hr h0))
        (broadcastInDim ⟨2, ![1, N]⟩ ![] hs2 (constant (F := Ideal) S0 .f32 0x45000000#32))) (ix2 p q) = _
  rw [bcastOfRow_apply]
  show a (ix2 p q) - Ideal.div
      (broadcastInDim ⟨2, ![1, N]⟩ ![1] h₁ (Host.reduceAdd a (constant (F := Ideal) S0 .f32 0x00000000#32) hr h0) (ix2 (0 : Fin 1) q))
      (Ideal.ofBits .f32 0x45000000#32) = _
  rw [bcastRow1_apply, colSum_apply hr hR h0]
  rfl

/-- The variance of column q: the guard's condition holds, so the quotient is kept. -/
theorem refVar_apply (hR : (⟨2, ![M, N]⟩ : Shape).Reduces [0] ⟨1, ![N]⟩) (a : FVec Ideal ⟨2, ![M, N]⟩ .f32) (q : Fin N) : refVar h₁ h₂ hr h0 hs1 hs2 a (ix1 q) = colVar a q := by
  unfold refVar
  rw [refCentre_eq h₁ h₂ hr h0 hs2 hR]
  show Scalar.select (FloatOps.cmpf (F := Ideal) (φ := .f32) .ogt
        (FloatOps.subf (F := Ideal) (Ideal.ofBits .f32 0x45000000#32 : Ideal .f32) (FloatOps.sitofp (F := Ideal) .f32 (0#32 : BitVec 32)))
        (Ideal.ofBits .f32 0x00000000#32))
      (Ideal.div (Host.reduceAdd (mulf (centred a) (centred a)) (constant (F := Ideal) S0 .f32 0x00000000#32) hr h0 (ix1 q))
        (FloatOps.subf (F := Ideal) (Ideal.ofBits .f32 0x45000000#32 : Ideal .f32) (FloatOps.sitofp (F := Ideal) .f32 (0#32 : BitVec 32))))
      (Ideal.ofBits .f32 0x7FC00000#32) = _
  rw [cnt_sub_zero, colSum_apply hr hR h0, Ideal.ofBits_zero_f32]
  have hc : FloatOps.cmpf (F := Ideal) (φ := .f32) .ogt cnt 0 = 1#1 := by
    show BitVec.ofBool (decide ((0 : EReal) < cnt)) = 1#1
    rw [decide_eq_true (show (0 : EReal) < cnt from cnt_pos)]
    rfl
  rw [hc, select_one]
  rfl

/-- The last stage at (p, q). -/
theorem refOut_apply (a : FVec Ideal ⟨2, ![M, N]⟩ .f32) (mean var g be : FVec Ideal ⟨1, ![N]⟩ .f32) (p : Fin M) (q : Fin N) :
    refOut h₁ h₂ hs1 hs3 a mean var g be (ix2 p q)
      = relu (g (ix1 q) * (a (ix2 p q) - mean (ix1 q)) * Ideal.rsqrt (var (ix1 q) + eps) + be (ix1 q)) := by
  show max
      (broadcastInDim ⟨2, ![M, N]⟩ ![0, 1] h₂ (broadcastInDim ⟨2, ![1, N]⟩ ![1] h₁ g) (ix2 p q)
          * (a (ix2 p q) - broadcastInDim ⟨2, ![M, N]⟩ ![0, 1] h₂ (broadcastInDim ⟨2, ![1, N]⟩ ![1] h₁ mean) (ix2 p q))
          * broadcastInDim ⟨2, ![M, N]⟩ ![0, 1] h₂ (broadcastInDim ⟨2, ![1, N]⟩ ![1] h₁
              (Host.rsqrt (addf var (broadcastInDim ⟨1, ![N]⟩ ![] hs1 (constant (F := Ideal) S0 .f32 0x3727C5AC#32))))) (ix2 p q)
        + broadcastInDim ⟨2, ![M, N]⟩ ![0, 1] h₂ (broadcastInDim ⟨2, ![1, N]⟩ ![1] h₁ be) (ix2 p q))
      (Ideal.ofBits .f32 0x00000000#32) = _
  rw [bcastRow_apply, bcastRow_apply, bcastRow_apply, bcastRow_apply, Ideal.ofBits_zero_f32]
  rfl

/-- THE LAYER: the reference's chain of operations is the specification's normalised dense layer, at every index. -/
theorem refLayer_eq (hR : (⟨2, ![M, N]⟩ : Shape).Reduces [0] ⟨1, ![N]⟩) (hD : D = DotDims.plain M K N) (x : FVec Ideal ⟨2, ![M, K]⟩ .f32) (w : FVec Ideal ⟨2, ![K, N]⟩ .f32)
    (b g be : FVec Ideal ⟨1, ![N]⟩ .f32) :
    refLayer D h₁ h₂ hr h0 hs1 hs2 hs3 x w b g be = layer x w b g be := by
  unfold refLayer
  rw [refLin_eq D h₁ h₂ hD]
  funext i
  obtain ⟨p, q, rfl⟩ : ∃ (p : Fin M) (q : Fin N), i = ix2 p q := ⟨i 0, i 1, eq_ix2 i⟩
  rw [refOut_apply, refMean_apply hr h0 hs1 hR, refVar_apply h₁ h₂ hr h0 hs1 hs2 hR]
  rfl

end Ref

end Cert.RLayer

end
-- ==== Proof.RLayer1.lean ====
/-
  The reference's first normalised dense layer (2048 × 3372 by 3372 × 1024): the contents of its result buffer after the
  layer's operations are the specification's layer of the input matrix, the weights, the bias, the gain and the shift,
  index by index. The operations' composed term is, literally, the chain of whole-array operations that
  RLayer.lean reads at an index for arbitrary sizes; here only the sizes and the shape facts are filled in.
-/
import proofs.«402148_j44985487458808_3_alg».proof.Proof.RefRun
import proofs.«402148_j44985487458808_3_alg».proof.Proof.Spec
import proofs.«402148_j44985487458808_3_alg».proof.Proof.RLayer
import Idealize.ShloMosaic.Lib.StableHlo.Run

noncomputable section

namespace Cert.ReferenceIdeal.RefVal

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RefRun Cert.Spec

/-- The printed dimension numbers are the plain product's: contract the left operand's columns with the right
    operand's rows. -/
theorem dot1_plain : dot_S2048x3372_S3372x1024_S2048x1024_1_0_0_1_n_n = DotDims.plain 2048 3372 1024 := rfl

/-- The result buffer holds the chain of whole-array operations applied to the five inputs. -/
theorem ref_layer1_term (V : Valuation τ sig (Elt Ideal)) :
    after s12 (after s11 V) (Proc.devRef .tc main_v146)
      = Cert.RLayer.refLayer (M := 2048) (K := 3372) (N := 1024) dot_S2048x3372_S3372x1024_S2048x1024_1_0_0_1_n_n
          bcast_S1024_S1x1024_1 bcast_S1x1024_S2048x1024_0_1 reducesTo_S2048x1024_S1024_d0 h_S_
          bcast_S_S1024 bcast_S_S1x1024 bcast_S_S2048x1024
          (V (Proc.devRef .tc main_v122)) (V (Proc.devRef .tc main_arg14)) (V (Proc.devRef .tc main_arg15))
          (V (Proc.devRef .tc main_arg16)) (V (Proc.devRef .tc main_arg17)) := by
  after_results_simp
  rfl

/-- The layer's result, index by index. -/
theorem ref_layer1 (V : Valuation τ sig (Elt Ideal)) :
    ∀ i, after s12 (after s11 V) (Proc.devRef .tc main_v146) i
      = Cert.Spec.layer (M := 2048) (K := 3372) (N := 1024) (V (Proc.devRef .tc main_v122)) (V (Proc.devRef .tc main_arg14))
          (V (Proc.devRef .tc main_arg15)) (V (Proc.devRef .tc main_arg16)) (V (Proc.devRef .tc main_arg17)) i := by
  intro i
  rw [ref_layer1_term V,
    Cert.RLayer.refLayer_eq dot_S2048x3372_S3372x1024_S2048x1024_1_0_0_1_n_n bcast_S1024_S1x1024_1 bcast_S1x1024_S2048x1024_0_1
      reducesTo_S2048x1024_S1024_d0 h_S_ bcast_S_S1024 bcast_S_S1x1024 bcast_S_S2048x1024 (by decide) dot1_plain]

end Cert.ReferenceIdeal.RefVal

end
-- ==== Proof.RLayer2.lean ====
/-
  The reference's second normalised dense layer (2048 × 1024 by 1024 × 256): the contents of its result buffer after the
  layer's operations are the specification's layer of the input matrix, the weights, the bias, the gain and the shift,
  index by index. The operations' composed term is, literally, the chain of whole-array operations that
  RLayer.lean reads at an index for arbitrary sizes; here only the sizes and the shape facts are filled in.
-/
import proofs.«402148_j44985487458808_3_alg».proof.Proof.RefRun
import proofs.«402148_j44985487458808_3_alg».proof.Proof.Spec
import proofs.«402148_j44985487458808_3_alg».proof.Proof.RLayer
import Idealize.ShloMosaic.Lib.StableHlo.Run

noncomputable section

namespace Cert.ReferenceIdeal.RefVal

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RefRun Cert.Spec

/-- The printed dimension numbers are the plain product's: contract the left operand's columns with the right
    operand's rows. -/
theorem dot2_plain : dot_S2048x1024_S1024x256_S2048x256_1_0_0_1_n_n = DotDims.plain 2048 1024 256 := rfl

/-- The result buffer holds the chain of whole-array operations applied to the five inputs. -/
theorem ref_layer2_term (V : Valuation τ sig (Elt Ideal)) :
    after s13 V (Proc.devRef .tc main_v170)
      = Cert.RLayer.refLayer (M := 2048) (K := 1024) (N := 256) dot_S2048x1024_S1024x256_S2048x256_1_0_0_1_n_n
          bcast_S256_S1x256_1 bcast_S1x256_S2048x256_0_1 reducesTo_S2048x256_S256_d0 h_S_
          bcast_S_S256 bcast_S_S1x256 bcast_S_S2048x256
          (V (Proc.devRef .tc main_v146)) (V (Proc.devRef .tc main_arg18)) (V (Proc.devRef .tc main_arg19))
          (V (Proc.devRef .tc main_arg20)) (V (Proc.devRef .tc main_arg21)) := by
  after_results_simp
  rfl

/-- The layer's result, index by index. -/
theorem ref_layer2 (V : Valuation τ sig (Elt Ideal)) :
    ∀ i, after s13 V (Proc.devRef .tc main_v170) i
      = Cert.Spec.layer (M := 2048) (K := 1024) (N := 256) (V (Proc.devRef .tc main_v146)) (V (Proc.devRef .tc main_arg18))
          (V (Proc.devRef .tc main_arg19)) (V (Proc.devRef .tc main_arg20)) (V (Proc.devRef .tc main_arg21)) i := by
  intro i
  rw [ref_layer2_term V,
    Cert.RLayer.refLayer_eq dot_S2048x1024_S1024x256_S2048x256_1_0_0_1_n_n bcast_S256_S1x256_1 bcast_S1x256_S2048x256_0_1
      reducesTo_S2048x256_S256_d0 h_S_ bcast_S_S256 bcast_S_S1x256 bcast_S_S2048x256 (by decide) dot2_plain]

end Cert.ReferenceIdeal.RefVal

end
-- ==== Proof.RLayer3.lean ====
/-
  The reference's third normalised dense layer (2048 × 256 by 256 × 1024): the contents of its result buffer after the
  layer's operations are the specification's layer of the input matrix, the weights, the bias, the gain and the shift,
  index by index. The operations' composed term is, literally, the chain of whole-array operations that
  RLayer.lean reads at an index for arbitrary sizes; here only the sizes and the shape facts are filled in.
-/
import proofs.«402148_j44985487458808_3_alg».proof.Proof.RefRun
import proofs.«402148_j44985487458808_3_alg».proof.Proof.Spec
import proofs.«402148_j44985487458808_3_alg».proof.Proof.RLayer
import Idealize.ShloMosaic.Lib.StableHlo.Run

noncomputable section

namespace Cert.ReferenceIdeal.RefVal

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RefRun Cert.Spec

/-- The printed dimension numbers are the plain product's: contract the left operand's columns with the right
    operand's rows. -/
theorem dot3_plain : dot_S2048x256_S256x1024_S2048x1024_1_0_0_1_n_n = DotDims.plain 2048 256 1024 := rfl

/-- The result buffer holds the chain of whole-array operations applied to the five inputs. -/
theorem ref_layer3_term (V : Valuation τ sig (Elt Ideal)) :
    after s14 V (Proc.devRef .tc main_v194)
      = Cert.RLayer.refLayer (M := 2048) (K := 256) (N := 1024) dot_S2048x256_S256x1024_S2048x1024_1_0_0_1_n_n
          bcast_S1024_S1x1024_1 bcast_S1x1024_S2048x1024_0_1 reducesTo_S2048x1024_S1024_d0 h_S_
          bcast_S_S1024 bcast_S_S1x1024 bcast_S_S2048x1024
          (V (Proc.devRef .tc main_v170)) (V (Proc.devRef .tc main_arg22)) (V (Proc.devRef .tc main_arg23))
          (V (Proc.devRef .tc main_arg24)) (V (Proc.devRef .tc main_arg25)) := by
  after_results_simp
  rfl

/-- The layer's result, index by index. -/
theorem ref_layer3 (V : Valuation τ sig (Elt Ideal)) :
    ∀ i, after s14 V (Proc.devRef .tc main_v194) i
      = Cert.Spec.layer (M := 2048) (K := 256) (N := 1024) (V (Proc.devRef .tc main_v170)) (V (Proc.devRef .tc main_arg22))
          (V (Proc.devRef .tc main_arg23)) (V (Proc.devRef .tc main_arg24)) (V (Proc.devRef .tc main_arg25)) i := by
  intro i
  rw [ref_layer3_term V,
    Cert.RLayer.refLayer_eq dot_S2048x256_S256x1024_S2048x1024_1_0_0_1_n_n bcast_S1024_S1x1024_1 bcast_S1x1024_S2048x1024_0_1
      reducesTo_S2048x1024_S1024_d0 h_S_ bcast_S_S1024 bcast_S_S1x1024 bcast_S_S2048x1024 (by decide) dot3_plain]

end Cert.ReferenceIdeal.RefVal

end
-- ==== Proof.RLayer4.lean ====
/-
  The reference's fourth normalised dense layer (2048 × 1024 by 1024 × 3372): the contents of its result buffer after the
  layer's operations are the specification's layer of the input matrix, the weights, the bias, the gain and the shift,
  index by index. The operations' composed term is, literally, the chain of whole-array operations that
  RLayer.lean reads at an index for arbitrary sizes; here only the sizes and the shape facts are filled in.
-/
import proofs.«402148_j44985487458808_3_alg».proof.Proof.RefRun
import proofs.«402148_j44985487458808_3_alg».proof.Proof.Spec
import proofs.«402148_j44985487458808_3_alg».proof.Proof.RLayer
import Idealize.ShloMosaic.Lib.StableHlo.Run

noncomputable section

namespace Cert.ReferenceIdeal.RefVal

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RefRun Cert.Spec

/-- The printed dimension numbers are the plain product's: contract the left operand's columns with the right
    operand's rows. -/
theorem dot4_plain : dot_S2048x1024_S1024x3372_S2048x3372_1_0_0_1_n_n = DotDims.plain 2048 1024 3372 := rfl

/-- The result buffer holds the chain of whole-array operations applied to the five inputs. -/
theorem ref_layer4_term (V : Valuation τ sig (Elt Ideal)) :
    after s16 (after s15 V) (Proc.devRef .tc main_v218)
      = Cert.RLayer.refLayer (M := 2048) (K := 1024) (N := 3372) dot_S2048x1024_S1024x3372_S2048x3372_1_0_0_1_n_n
          bcast_S3372_S1x3372_1 bcast_S1x3372_S2048x3372_0_1 reducesTo_S2048x3372_S3372_d0 h_S_
          bcast_S_S3372 bcast_S_S1x3372 bcast_S_S2048x3372
          (V (Proc.devRef .tc main_v194)) (V (Proc.devRef .tc main_arg26)) (V (Proc.devRef .tc main_arg27))
          (V (Proc.devRef .tc main_arg28)) (V (Proc.devRef .tc main_arg29)) := by
  after_results_simp
  rfl

/-- The layer's result, index by index. -/
theorem ref_layer4 (V : Valuation τ sig (Elt Ideal)) :
    ∀ i, after s16 (after s15 V) (Proc.devRef .tc main_v218) i
      = Cert.Spec.layer (M := 2048) (K := 1024) (N := 3372) (V (Proc.devRef .tc main_v194)) (V (Proc.devRef .tc main_arg26))
          (V (Proc.devRef .tc main_arg27)) (V (Proc.devRef .tc main_arg28)) (V (Proc.devRef .tc main_arg29)) i := by
  intro i
  rw [ref_layer4_term V,
    Cert.RLayer.refLayer_eq dot_S2048x1024_S1024x3372_S2048x3372_1_0_0_1_n_n bcast_S3372_S1x3372_1 bcast_S1x3372_S2048x3372_0_1
      reducesTo_S2048x3372_S3372_d0 h_S_ bcast_S_S3372 bcast_S_S1x3372 bcast_S_S2048x3372 (by decide) dot4_plain]

end Cert.ReferenceIdeal.RefVal

end
-- ==== Proof.RHead.lean ====
/-
  The reference's head, read index by index.

  The reference computes its last value in two stretches of operations: a dense layer into 64 columns, batch
  normalisation over the 2048 rows (column means; the variance function's centred squares summed and divided by the
  batch size less zero degrees of freedom, under a guard that holds), gain and shift, the leaky rectifier written as a
  comparison, a product with the slope and a selection; then a dense layer into one column. Each stretch of operations
  is named as one term over its operand arrays, each term is shown to be the specification's function of the same
  name (a broadcast reads its operand at the column, a reduction over the rows is the column's sum, the product is the
  sum over the contracted coordinate), and the composite is the specification's head.
-/
import proofs.«402148_j44985487458808_3_alg».proof.Proof.RefRun
import proofs.«402148_j44985487458808_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.PureOps.Ideal.Laws

noncomputable section

namespace Cert.ReferenceIdeal.RefVal

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RefRun Cert.Spec

namespace Head

/-! ## Shape operations read at an index -/

/-- A vector laid out as a one-row matrix reads, at (0, q), the vector at q. -/
theorem row_of_vec {α : Type} {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply _ h v _ (ix1 q) fun a => ?_
  match a with
  | ⟨0, _⟩ =>
    show q.val = if n = 1 then 0 else q.val
    split
    · have := q.isLt; omega
    · rfl

/-- A one-row matrix copied down m rows reads, at (p, q), the row at (0, q). -/
theorem rows_of_row {α : Type} {m n : ℕ} (h : (⟨2, ![1, n]⟩ : Shape).BroadcastsInDim ⟨2, ![m, n]⟩ ![0, 1])
    (u : (⟨2, ![1, n]⟩ : Shape).Idx → α) (p : Fin m) (q : Fin n) :
    broadcastInDim ⟨2, ![m, n]⟩ ![0, 1] h u (ix2 p q) = u (ix2 (0 : Fin 1) q) := by
  refine broadcastInDim_apply _ h u _ (ix2 (0 : Fin 1) q) fun a => ?_
  match a with
  | ⟨0, _⟩ => rfl
  | ⟨1, _⟩ =>
    show q.val = if n = 1 then 0 else q.val
    split
    · have := q.isLt; omega
    · rfl

/-- The sum over the rows of a matrix, from an initial value: at column q the initial value plus the column's sum. -/
theorem colsum_apply {m n : ℕ} (h' : (⟨2, ![m, n]⟩ : Shape).ReducesTo [0] ⟨1, ![n]⟩) (hu : 0 < (⟨0, ![]⟩ : Shape).numel)
    (x : FVec Ideal ⟨2, ![m, n]⟩ .f32) (init : (⟨0, ![]⟩ : Shape).Idx → Ideal .f32) (q : Fin n) :
    Host.reduceAdd x init h' hu (ix1 q) = init ix0 + ∑ r : Fin m, x (ix2 r q) := by
  have h : (⟨2, ![m, n]⟩ : Shape).Reduces [0] ⟨1, ![n]⟩ := ⟨h'.1, Nat.one_pos, h'.2⟩
  show Ideal.hostReduceAdd h' x (init (Shape.Idx.first hu)) (ix1 q) = _
  rw [Ideal.hostReduceAdd_single h' h]
  have e0 : Shape.Idx.first hu = ix0 := funext fun a => a.elim0
  rw [e0]
  refine congrArg (_ + ·) (Finset.sum_congr rfl fun k _ => ?_)
  refine congrArg x (funext fun a => Fin.ext ?_)
  match a with
  | ⟨0, _⟩ => rfl
  | ⟨1, _⟩ => rfl

/-! ## The literals -/

/-- The batch size is positive. -/
theorem cnt_pos : (0 : EReal) < cnt := by
  unfold cnt
  simp [Ideal.ofBits, Ideal.ieee, -EReal.coe_mul]
  first | done | norm_num | (refine EReal.coe_pos.mpr ?_; norm_num)

/-- The variance's guard, batch size minus zero degrees of freedom being positive, holds. -/
theorem guard_true : Ideal.cmp .ogt (cnt - (0 : EReal)) 0 = 1#1 := by
  rw [sub_zero]
  show BitVec.ofBool (decide ((0 : EReal) < cnt)) = 1#1
  rw [decide_eq_true cnt_pos]; rfl

/-- The integer zero converts to the real zero. -/
theorem si_zero : (FloatOps.sitofp (F := Ideal) .f32 (0#32) : EReal) = 0 := by
  show ((((0#32 : BitVec 32).toInt : ℤ) : ℝ) : EReal) = 0
  simp

/-! ## The operations' terms, piece by piece, and what each is -/

section Terms

variable {M K N : ℕ}

/-- A vector along the columns of an M × N matrix, as the two broadcasts [N] → [1, N] → [M, N] write it. -/
def colsT (M : ℕ) {N : ℕ} (h1 : (⟨1, ![N]⟩ : Shape).BroadcastsInDim ⟨2, ![1, N]⟩ ![1])
    (h2 : (⟨2, ![1, N]⟩ : Shape).BroadcastsInDim ⟨2, ![M, N]⟩ ![0, 1]) (b : FVec Ideal ⟨1, ![N]⟩ .f32) :
    FVec Ideal ⟨2, ![M, N]⟩ .f32 :=
  broadcastInDim ⟨2, ![M, N]⟩ ![0, 1] h2 (broadcastInDim ⟨2, ![1, N]⟩ ![1] h1 b)

theorem colsT_apply (h1 : (⟨1, ![N]⟩ : Shape).BroadcastsInDim ⟨2, ![1, N]⟩ ![1])
    (h2 : (⟨2, ![1, N]⟩ : Shape).BroadcastsInDim ⟨2, ![M, N]⟩ ![0, 1]) (b : FVec Ideal ⟨1, ![N]⟩ .f32) (p : Fin M) (q : Fin N) :
    colsT M h1 h2 b (ix2 p q) = b (ix1 q) := by
  unfold colsT
  rw [rows_of_row, row_of_vec]

/-- The dense layer as the operations write it: the product, plus the bias along the columns. -/
def linT (D : DotDims ⟨2, ![M, K]⟩ ⟨2, ![K, N]⟩ ⟨2, ![M, N]⟩) (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨1, ![N]⟩ .f32) :
    FVec Ideal ⟨2, ![M, N]⟩ .f32 :=
  addf (Host.dotGeneral D none x w) (colsT M h1 h2 b)

/-- The dense layer's term is x·W + b: the product is the sum over the contracted coordinate. -/
theorem linT_eq (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨1, ![N]⟩ .f32) :
    linT D h1 h2 x w b = lin x w b := by
  subst hD
  funext i
  obtain ⟨p, q, rfl⟩ : ∃ (p : Fin M) (q : Fin N), i = ix2 p q := ⟨i 0, i 1, eq_ix2 i⟩
  show Host.dotGeneral (DotDims.plain M K N) none x w (ix2 p q) + colsT M h1 h2 b (ix2 p q)
    = (∑ k : Fin K, x (ix2 p k) * w (ix2 k q)) + b (ix1 q)
  rw [StackMember.dotGeneral_plain_apply, colsT_apply]

/-- The column means as the operations write them: the column sums from zero, divided by the batch size. -/
def meanT (hr : (⟨2, ![M, N]⟩ : Shape).ReducesTo [0] ⟨1, ![N]⟩) (hS : 0 < (⟨0, ![]⟩ : Shape).numel)
    (hb : (⟨0, ![]⟩ : Shape).BroadcastsInDim ⟨1, ![N]⟩ ![]) (a : FVec Ideal ⟨2, ![M, N]⟩ .f32) : FVec Ideal ⟨1, ![N]⟩ .f32 :=
  Host.divf (Host.reduceAdd a (constant (F := Ideal) ⟨0, ![]⟩ .f32 0x00000000#32) hr hS)
    (broadcastInDim ⟨1, ![N]⟩ ![] hb (constant (F := Ideal) ⟨0, ![]⟩ .f32 0x45000000#32))

theorem meanT_apply (hr : (⟨2, ![M, N]⟩ : Shape).ReducesTo [0] ⟨1, ![N]⟩) (hS : 0 < (⟨0, ![]⟩ : Shape).numel)
    (hb : (⟨0, ![]⟩ : Shape).BroadcastsInDim ⟨1, ![N]⟩ ![]) (a : FVec Ideal ⟨2, ![M, N]⟩ .f32) (q : Fin N) :
    meanT hr hS hb a (ix1 q) = colMean a q := by
  show Ideal.div (Host.reduceAdd a (constant (F := Ideal) ⟨0, ![]⟩ .f32 0x00000000#32) hr hS (ix1 q))
      (broadcastInDim ⟨1, ![N]⟩ ![] hb (constant (F := Ideal) ⟨0, ![]⟩ .f32 0x45000000#32) (ix1 q))
    = Ideal.div (∑ r : Fin M, a (ix2 r q)) cnt
  rw [colsum_apply, broadcastInDim_scalar_apply]
  show Ideal.div (Ideal.ofBits .f32 0x00000000#32 + ∑ r : Fin M, a (ix2 r q)) cnt = _
  rw [Ideal.ofBits_zero_f32, zero_add]

/-- The centred matrix as the operations write it in the normalisation: the means along the columns, subtracted. -/
theorem centredT_eq (hr : (⟨2, ![M, N]⟩ : Shape).ReducesTo [0] ⟨1, ![N]⟩) (hS : 0 < (⟨0, ![]⟩ : Shape).numel)
    (hb : (⟨0, ![]⟩ : Shape).BroadcastsInDim ⟨1, ![N]⟩ ![])
    (h1 : (⟨1, ![N]⟩ : Shape).BroadcastsInDim ⟨2, ![1, N]⟩ ![1])
    (h2 : (⟨2, ![1, N]⟩ : Shape).BroadcastsInDim ⟨2, ![M, N]⟩ ![0, 1]) (a : FVec Ideal ⟨2, ![M, N]⟩ .f32) :
    subf a (colsT M h1 h2 (meanT hr hS hb a)) = centred a := by
  funext i
  obtain ⟨p, q, rfl⟩ : ∃ (p : Fin M) (q : Fin N), i = ix2 p q := ⟨i 0, i 1, eq_ix2 i⟩
  show a (ix2 p q) - colsT M h1 h2 (meanT hr hS hb a) (ix2 p q) = a (ix2 p q) - colMean a q
  rw [colsT_apply, meanT_apply]

/-- The centred matrix as the variance function writes it: the column sums as a row, divided by the batch size as a
    row, copied down the rows, subtracted. -/
def centredVT (hr : (⟨2, ![M, N]⟩ : Shape).ReducesTo [0] ⟨1, ![N]⟩) (hS : 0 < (⟨0, ![]⟩ : Shape).numel)
    (h1 : (⟨1, ![N]⟩ : Shape).BroadcastsInDim ⟨2, ![1, N]⟩ ![1])
    (hbr : (⟨0, ![]⟩ : Shape).BroadcastsInDim ⟨2, ![1, N]⟩ ![])
    (h2 : (⟨2, ![1, N]⟩ : Shape).BroadcastsInDim ⟨2, ![M, N]⟩ ![0, 1]) (a : FVec Ideal ⟨2, ![M, N]⟩ .f32) :
    FVec Ideal ⟨2, ![M, N]⟩ .f32 :=
  subf a (broadcastInDim ⟨2, ![M, N]⟩ ![0, 1] h2
    (Host.divf (broadcastInDim ⟨2, ![1, N]⟩ ![1] h1 (Host.reduceAdd a (constant (F := Ideal) ⟨0, ![]⟩ .f32 0x00000000#32) hr hS))
      (broadcastInDim ⟨2, ![1, N]⟩ ![] hbr (constant (F := Ideal) ⟨0, ![]⟩ .f32 0x45000000#32))))

theorem centredVT_eq (hr : (⟨2, ![M, N]⟩ : Shape).ReducesTo [0] ⟨1, ![N]⟩) (hS : 0 < (⟨0, ![]⟩ : Shape).numel)
    (h1 : (⟨1, ![N]⟩ : Shape).BroadcastsInDim ⟨2, ![1, N]⟩ ![1])
    (hbr : (⟨0, ![]⟩ : Shape).BroadcastsInDim ⟨2, ![1, N]⟩ ![])
    (h2 : (⟨2, ![1, N]⟩ : Shape).BroadcastsInDim ⟨2, ![M, N]⟩ ![0, 1]) (a : FVec Ideal ⟨2, ![M, N]⟩ .f32) :
    centredVT hr hS h1 hbr h2 a = centred a := by
  funext i
  obtain ⟨p, q, rfl⟩ : ∃ (p : Fin M) (q : Fin N), i = ix2 p q := ⟨i 0, i 1, eq_ix2 i⟩
  show a (ix2 p q) - broadcastInDim ⟨2, ![M, N]⟩ ![0, 1] h2
      (Host.divf (broadcastInDim ⟨2, ![1, N]⟩ ![1] h1 (Host.reduceAdd a (constant (F := Ideal) ⟨0, ![]⟩ .f32 0x00000000#32) hr hS))
        (broadcastInDim ⟨2, ![1, N]⟩ ![] hbr (constant (F := Ideal) ⟨0, ![]⟩ .f32 0x45000000#32))) (ix2 p q)
    = a (ix2 p q) - colMean a q
  rw [rows_of_row]
  show a (ix2 p q) - Ideal.div
      (broadcastInDim ⟨2, ![1, N]⟩ ![1] h1 (Host.reduceAdd a (constant (F := Ideal) ⟨0, ![]⟩ .f32 0x00000000#32) hr hS) (ix2 (0 : Fin 1) q))
      (broadcastInDim ⟨2, ![1, N]⟩ ![] hbr (constant (F := Ideal) ⟨0, ![]⟩ .f32 0x45000000#32) (ix2 (0 : Fin 1) q))
    = a (ix2 p q) - Ideal.div (∑ r : Fin M, a (ix2 r q)) cnt
  rw [row_of_vec, colsum_apply, broadcastInDim_scalar_apply]
  show a (ix2 p q) - Ideal.div (Ideal.ofBits .f32 0x00000000#32 + ∑ r : Fin M, a (ix2 r q)) cnt = _
  rw [Ideal.ofBits_zero_f32, zero_add]

end Terms

section Terms2

variable {M K N : ℕ}

/-- The column variances as the variance function writes them: the centred matrix squared, summed down the columns
    from zero, divided by the batch size less the integer degrees of freedom converted; where that divisor is not
    positive, the quiet-NaN literal instead. -/
def varT (hr : (⟨2, ![M, N]⟩ : Shape).ReducesTo [0] ⟨1, ![N]⟩) (hS : 0 < (⟨0, ![]⟩ : Shape).numel)
    (hb : (⟨0, ![]⟩ : Shape).BroadcastsInDim ⟨1, ![N]⟩ ![])
    (h1 : (⟨1, ![N]⟩ : Shape).BroadcastsInDim ⟨2, ![1, N]⟩ ![1])
    (hbr : (⟨0, ![]⟩ : Shape).BroadcastsInDim ⟨2, ![1, N]⟩ ![])
    (h2 : (⟨2, ![1, N]⟩ : Shape).BroadcastsInDim ⟨2, ![M, N]⟩ ![0, 1])
    (a : FVec Ideal ⟨2, ![M, N]⟩ .f32) (c : IVec ⟨0, ![]⟩ 32) : FVec Ideal ⟨1, ![N]⟩ .f32 :=
  select
    (broadcastInDim ⟨1, ![N]⟩ ![] hb
      (cmpf .ogt (subf (constant (F := Ideal) ⟨0, ![]⟩ .f32 0x45000000#32) (sitofp .f32 c)) (constant (F := Ideal) ⟨0, ![]⟩ .f32 0x00000000#32)))
    (Host.divf
      (Host.reduceAdd (mulf (centredVT hr hS h1 hbr h2 a) (centredVT hr hS h1 hbr h2 a)) (constant (F := Ideal) ⟨0, ![]⟩ .f32 0x00000000#32) hr hS)
      (broadcastInDim ⟨1, ![N]⟩ ![] hb (subf (constant (F := Ideal) ⟨0, ![]⟩ .f32 0x45000000#32) (sitofp .f32 c))))
    (broadcastInDim ⟨1, ![N]⟩ ![] hb (id (constant (F := Ideal) ⟨0, ![]⟩ .f32 0x7FC00000#32)))

/-- With zero degrees of freedom the guard holds and the variance term is the biased variance. -/
theorem varT_apply (hr : (⟨2, ![M, N]⟩ : Shape).ReducesTo [0] ⟨1, ![N]⟩) (hS : 0 < (⟨0, ![]⟩ : Shape).numel)
    (hb : (⟨0, ![]⟩ : Shape).BroadcastsInDim ⟨1, ![N]⟩ ![])
    (h1 : (⟨1, ![N]⟩ : Shape).BroadcastsInDim ⟨2, ![1, N]⟩ ![1])
    (hbr : (⟨0, ![]⟩ : Shape).BroadcastsInDim ⟨2, ![1, N]⟩ ![])
    (h2 : (⟨2, ![1, N]⟩ : Shape).BroadcastsInDim ⟨2, ![M, N]⟩ ![0, 1])
    (a : FVec Ideal ⟨2, ![M, N]⟩ .f32) (q : Fin N) :
    varT hr hS hb h1 hbr h2 a (constantI ⟨0, ![]⟩ 32 0#32) (ix1 q) = colVar a q := by
  unfold varT
  rw [centredVT_eq]
  have hd : (subf (constant (F := Ideal) ⟨0, ![]⟩ .f32 0x45000000#32) (sitofp .f32 (constantI ⟨0, ![]⟩ 32 0#32)) : FVec Ideal ⟨0, ![]⟩ .f32)
      = fun _ => cnt := by
    funext j
    show cnt - FloatOps.sitofp (F := Ideal) .f32 (0#32) = cnt
    rw [si_zero, sub_zero]
  rw [hd]
  rw [select_apply, broadcastInDim_scalar_apply, broadcastInDim_scalar_apply]
  have hg : (cmpf .ogt (fun _ => cnt : FVec Ideal ⟨0, ![]⟩ .f32) (constant (F := Ideal) ⟨0, ![]⟩ .f32 0x00000000#32)) ix0 = 1#1 := by
    show Ideal.cmp .ogt cnt (Ideal.ofBits .f32 0x00000000#32) = 1#1
    rw [Ideal.ofBits_zero_f32]
    have := guard_true
    rwa [sub_zero] at this
  rw [hg, select_one]
  show Ideal.div (Host.reduceAdd (mulf (centred a) (centred a)) (constant (F := Ideal) ⟨0, ![]⟩ .f32 0x00000000#32) hr hS (ix1 q))
      (broadcastInDim ⟨1, ![N]⟩ ![] hb (fun _ => cnt : FVec Ideal ⟨0, ![]⟩ .f32) (ix1 q))
    = Ideal.div (∑ r : Fin M, centred a (ix2 r q) * centred a (ix2 r q)) cnt
  rw [colsum_apply, broadcastInDim_scalar_apply]
  show Ideal.div (Ideal.ofBits .f32 0x00000000#32 + ∑ r : Fin M, centred a (ix2 r q) * centred a (ix2 r q)) cnt = _
  rw [Ideal.ofBits_zero_f32, zero_add]

/-- Batch normalisation as the operations write it. -/
def bnT (hr : (⟨2, ![M, N]⟩ : Shape).ReducesTo [0] ⟨1, ![N]⟩) (hS : 0 < (⟨0, ![]⟩ : Shape).numel)
    (hb : (⟨0, ![]⟩ : Shape).BroadcastsInDim ⟨1, ![N]⟩ ![])
    (h1 : (⟨1, ![N]⟩ : Shape).BroadcastsInDim ⟨2, ![1, N]⟩ ![1])
    (hbr : (⟨0, ![]⟩ : Shape).BroadcastsInDim ⟨2, ![1, N]⟩ ![])
    (h2 : (⟨2, ![1, N]⟩ : Shape).BroadcastsInDim ⟨2, ![M, N]⟩ ![0, 1])
    (a : FVec Ideal ⟨2, ![M, N]⟩ .f32) (c : IVec ⟨0, ![]⟩ 32) (g be : FVec Ideal ⟨1, ![N]⟩ .f32) : FVec Ideal ⟨2, ![M, N]⟩ .f32 :=
  addf
    (mulf (mulf (colsT M h1 h2 g) (subf a (colsT M h1 h2 (meanT hr hS hb a))))
      (colsT M h1 h2 (Host.rsqrt (addf (varT hr hS hb h1 hbr h2 a c)
        (broadcastInDim ⟨1, ![N]⟩ ![] hb (constant (F := Ideal) ⟨0, ![]⟩ .f32 0x3727C5AC#32))))))
    (colsT M h1 h2 be)

theorem bnT_eq (hr : (⟨2, ![M, N]⟩ : Shape).ReducesTo [0] ⟨1, ![N]⟩) (hS : 0 < (⟨0, ![]⟩ : Shape).numel)
    (hb : (⟨0, ![]⟩ : Shape).BroadcastsInDim ⟨1, ![N]⟩ ![])
    (h1 : (⟨1, ![N]⟩ : Shape).BroadcastsInDim ⟨2, ![1, N]⟩ ![1])
    (hbr : (⟨0, ![]⟩ : Shape).BroadcastsInDim ⟨2, ![1, N]⟩ ![])
    (h2 : (⟨2, ![1, N]⟩ : Shape).BroadcastsInDim ⟨2, ![M, N]⟩ ![0, 1])
    (a : FVec Ideal ⟨2, ![M, N]⟩ .f32) (g be : FVec Ideal ⟨1, ![N]⟩ .f32) :
    bnT hr hS hb h1 hbr h2 a (constantI ⟨0, ![]⟩ 32 0#32) g be = bn a g be := by
  unfold bnT
  rw [centredT_eq]
  funext i
  obtain ⟨p, q, rfl⟩ : ∃ (p : Fin M) (q : Fin N), i = ix2 p q := ⟨i 0, i 1, eq_ix2 i⟩
  show colsT M h1 h2 g (ix2 p q) * centred a (ix2 p q)
      * colsT M h1 h2 (Host.rsqrt (addf (varT hr hS hb h1 hbr h2 a (constantI ⟨0, ![]⟩ 32 0#32))
          (broadcastInDim ⟨1, ![N]⟩ ![] hb (constant (F := Ideal) ⟨0, ![]⟩ .f32 0x3727C5AC#32)))) (ix2 p q)
      + colsT M h1 h2 be (ix2 p q)
    = g (ix1 q) * centred a (ix2 p q) * Ideal.rsqrt (colVar a q + eps) + be (ix1 q)
  rw [colsT_apply, colsT_apply, colsT_apply]
  show g (ix1 q) * centred a (ix2 p q)
      * Ideal.rsqrt (varT hr hS hb h1 hbr h2 a (constantI ⟨0, ![]⟩ 32 0#32) (ix1 q)
          + broadcastInDim ⟨1, ![N]⟩ ![] hb (constant (F := Ideal) ⟨0, ![]⟩ .f32 0x3727C5AC#32) (ix1 q))
      + be (ix1 q) = _
  rw [varT_apply, broadcastInDim_scalar_apply]
  rfl

/-- The leaky rectifier as the operations write it. -/
def lreluT (hbm : (⟨0, ![]⟩ : Shape).BroadcastsInDim ⟨2, ![M, N]⟩ ![]) (y : FVec Ideal ⟨2, ![M, N]⟩ .f32) : FVec Ideal ⟨2, ![M, N]⟩ .f32 :=
  select (cmpf .oge y (broadcastInDim ⟨2, ![M, N]⟩ ![] hbm (constant (F := Ideal) ⟨0, ![]⟩ .f32 0x00000000#32))) y
    (mulf (broadcastInDim ⟨2, ![M, N]⟩ ![] hbm (constant (F := Ideal) ⟨0, ![]⟩ .f32 0x3C23D70A#32)) y)

theorem lreluT_apply (hbm : (⟨0, ![]⟩ : Shape).BroadcastsInDim ⟨2, ![M, N]⟩ ![]) (y : FVec Ideal ⟨2, ![M, N]⟩ .f32)
    (i : (⟨2, ![M, N]⟩ : Shape).Idx) : lreluT hbm y i = lrelu (y i) := by
  show Scalar.select (FloatOps.cmpf (F := Ideal) (φ := .f32) .oge (y i)
        (broadcastInDim ⟨2, ![M, N]⟩ ![] hbm (constant (F := Ideal) ⟨0, ![]⟩ .f32 0x00000000#32) i)) (y i)
      (broadcastInDim ⟨2, ![M, N]⟩ ![] hbm (constant (F := Ideal) ⟨0, ![]⟩ .f32 0x3C23D70A#32) i * y i)
    = Scalar.select (FloatOps.cmpf (F := Ideal) (φ := .f32) .oge (y i) 0) (y i) (slope * y i)
  rw [broadcastInDim_scalar_apply, broadcastInDim_scalar_apply]
  show Scalar.select (FloatOps.cmpf (F := Ideal) (φ := .f32) .oge (y i) (Ideal.ofBits .f32 0x00000000#32)) (y i) (slope * y i) = _
  rw [Ideal.ofBits_zero_f32]

end Terms2

/-! ## The two stretches of operations as those terms -/

/-- The first stretch leaves, at the second product's buffer, the product of the rectified normalised dense layer
    with the second weights. -/
theorem s17_v247 (V : Valuation τ sig (Elt Ideal)) :
    after s17 V (Proc.devRef .tc main_v247)
      = Host.dotGeneral (φ₁ := .f32) (φ₂ := .f32) dot_S2048x64_S64x1_S2048x1_1_0_0_1_n_n none
          (lreluT bcast_S_S2048x64
            (bnT reducesTo_S2048x64_S64_d0 h_S_ bcast_S_S64 bcast_S64_S1x64_1 bcast_S_S1x64 bcast_S1x64_S2048x64_0_1
              (linT dot_S2048x256_S256x64_S2048x64_1_0_0_1_n_n bcast_S64_S1x64_1 bcast_S1x64_S2048x64_0_1
                (V (Proc.devRef .tc main_v170)) (V (Proc.devRef .tc main_arg30)) (V (Proc.devRef .tc main_arg31)))
              (constantI S_ 32 0#32) (V (Proc.devRef .tc main_arg32)) (V (Proc.devRef .tc main_arg33))))
          (V (Proc.devRef .tc main_arg34) : FVec Ideal S64x1 .f32) := by
  after_results_simp
  simp only [TRef.toBuf, TRef.ofBuf, cast_cast, cast_eq]
  rfl

/-- The first stretch does not write the last bias. -/
theorem s17_arg35 (V : Valuation τ sig (Elt Ideal)) :
    after s17 V (Proc.devRef .tc main_arg35) = V (Proc.devRef .tc main_arg35) := by
  after_results_simp

/-- The second stretch adds the last bias along the one column. -/
theorem s18_v250 (W : Valuation τ sig (Elt Ideal)) :
    after s18 W (Proc.devRef .tc main_v250)
      = addf (W (Proc.devRef .tc main_v247)) (colsT 2048 bcast_S1_S1x1_1 bcast_S1x1_S2048x1_0_1 (W (Proc.devRef .tc main_arg35))) := by
  after_results
  rfl

end Head

open Head

/-- The reference's last value is the specification's head of the head's seven operand arrays. -/
theorem ref_head (V : Valuation τ sig (Elt Ideal)) :
    ∀ i, after s18 (after s17 V) (Proc.devRef .tc main_v250) i
      = Cert.Spec.head (V (Proc.devRef .tc main_v170)) (V (Proc.devRef .tc main_arg30)) (V (Proc.devRef .tc main_arg31))
          (V (Proc.devRef .tc main_arg32)) (V (Proc.devRef .tc main_arg33)) (V (Proc.devRef .tc main_arg34))
          (V (Proc.devRef .tc main_arg35)) i := by
  intro i
  rw [s18_v250, s17_v247, s17_arg35]
  generalize V (Proc.devRef .tc main_v170) = x
  generalize V (Proc.devRef .tc main_arg30) = w1
  generalize V (Proc.devRef .tc main_arg31) = b1
  generalize V (Proc.devRef .tc main_arg32) = g1
  generalize V (Proc.devRef .tc main_arg33) = be1
  generalize V (Proc.devRef .tc main_arg34) = w2
  generalize V (Proc.devRef .tc main_arg35) = b2
  change linT dot_S2048x64_S64x1_S2048x1_1_0_0_1_n_n bcast_S1_S1x1_1 bcast_S1x1_S2048x1_0_1 _ w2 b2 i = _
  rw [linT_eq dot_S2048x64_S64x1_S2048x1_1_0_0_1_n_n rfl, bnT_eq, linT_eq dot_S2048x256_S256x64_S2048x64_1_0_0_1_n_n rfl]
  have hl : lreluT bcast_S_S2048x64 (bn (lin x w1 b1) g1 be1) = fun j => lrelu (bn (lin x w1 b1) g1 be1 j) :=
    funext fun j => lreluT_apply _ _ j
  rw [hl]
  rfl

end Cert.ReferenceIdeal.RefVal

end
-- ==== Proof.RChain.lean ====
/-
  The reference's four results as terms of the specification over the launch contents.

  The reference is nineteen stretches of operations run one after the other. A stretch writes only its own result buffers,
  so every buffer written earlier, and every argument, keeps its contents over it. Stretch by stretch: the selected rows of
  each graph are the specification's selection from that graph's aggregated matrix; their concatenation with the two dense
  inputs is the feature matrix; four normalised dense layers give the code and the reconstruction; the head reads the code.
-/
import proofs.«402148_j44985487458808_3_alg».proof.Proof.RefRun
import proofs.«402148_j44985487458808_3_alg».proof.Proof.Spec
import proofs.«402148_j44985487458808_3_alg».proof.Proof.SpecNet
import proofs.«402148_j44985487458808_3_alg».proof.Proof.RFeat
import proofs.«402148_j44985487458808_3_alg».proof.Proof.RLayer1
import proofs.«402148_j44985487458808_3_alg».proof.Proof.RLayer2
import proofs.«402148_j44985487458808_3_alg».proof.Proof.RLayer3
import proofs.«402148_j44985487458808_3_alg».proof.Proof.RLayer4
import proofs.«402148_j44985487458808_3_alg».proof.Proof.RHead
import Idealize.ShloMosaic.Lib.StableHlo.Run
import Idealize.ShloMosaic.Lib.ValueIdx

noncomputable section

namespace Cert.ReferenceIdeal.RefVal

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RefRun Cert.Spec

/-! ## The contents after each stretch -/

abbrev R1 (V0 : Valuation τ sig (Elt Ideal)) : Valuation τ sig (Elt Ideal) := after s0 V0
abbrev R2 (V0 : Valuation τ sig (Elt Ideal)) : Valuation τ sig (Elt Ideal) := after s1 (R1 V0)
abbrev R3 (V0 : Valuation τ sig (Elt Ideal)) : Valuation τ sig (Elt Ideal) := after s2 (R2 V0)
abbrev R4 (V0 : Valuation τ sig (Elt Ideal)) : Valuation τ sig (Elt Ideal) := after s3 (R3 V0)
abbrev R5 (V0 : Valuation τ sig (Elt Ideal)) : Valuation τ sig (Elt Ideal) := after s4 (R4 V0)
abbrev R6 (V0 : Valuation τ sig (Elt Ideal)) : Valuation τ sig (Elt Ideal) := after s5 (R5 V0)
abbrev R7 (V0 : Valuation τ sig (Elt Ideal)) : Valuation τ sig (Elt Ideal) := after s6 (R6 V0)
abbrev R8 (V0 : Valuation τ sig (Elt Ideal)) : Valuation τ sig (Elt Ideal) := after s7 (R7 V0)
abbrev R9 (V0 : Valuation τ sig (Elt Ideal)) : Valuation τ sig (Elt Ideal) := after s8 (R8 V0)
abbrev R10 (V0 : Valuation τ sig (Elt Ideal)) : Valuation τ sig (Elt Ideal) := after s9 (R9 V0)
abbrev R11 (V0 : Valuation τ sig (Elt Ideal)) : Valuation τ sig (Elt Ideal) := after s10 (R10 V0)
abbrev R12 (V0 : Valuation τ sig (Elt Ideal)) : Valuation τ sig (Elt Ideal) := after s11 (R11 V0)
abbrev R13 (V0 : Valuation τ sig (Elt Ideal)) : Valuation τ sig (Elt Ideal) := after s12 (R12 V0)
abbrev R14 (V0 : Valuation τ sig (Elt Ideal)) : Valuation τ sig (Elt Ideal) := after s13 (R13 V0)
abbrev R15 (V0 : Valuation τ sig (Elt Ideal)) : Valuation τ sig (Elt Ideal) := after s14 (R14 V0)
abbrev R16 (V0 : Valuation τ sig (Elt Ideal)) : Valuation τ sig (Elt Ideal) := after s15 (R15 V0)
abbrev R17 (V0 : Valuation τ sig (Elt Ideal)) : Valuation τ sig (Elt Ideal) := after s16 (R16 V0)
abbrev R18 (V0 : Valuation τ sig (Elt Ideal)) : Valuation τ sig (Elt Ideal) := after s17 (R17 V0)
abbrev R19 (V0 : Valuation τ sig (Elt Ideal)) : Valuation τ sig (Elt Ideal) := after s18 (R18 V0)

/-- All of the reference's operations leave the contents the nineteen stretches leave, one after the other. -/
theorem after_ops_eq (V0 : Valuation τ sig (Elt Ideal)) : after (ops (F := Ideal)) V0 = R19 V0 := by
  rw [after_ops, ops0_split, ops1_split, ops2_split, ops3_split, ops4_split, ops5_split]
  simp only [after_append]

/-! ## What a stretch does not write, it keeps

Each lemma below bounds the number of a buffer and decides, operation by operation, that every result buffer of its
stretch is numbered over that bound: the arguments (numbered below 36) are under every bound, and a later stretch's bound
also admits the earlier results that are read after it (the rows of graph d at 113, the feature matrix at 192, the code
at 294, the reconstruction at 396). -/

/-- A buffer that is none of the result buffers of a stretch's operations keeps its contents over the stretch; here the
    buffer is any one whose number the hypothesis bounds, and each result buffer's number is over the bound. -/
macro "rkeep " h:ident hb:ident : tactic =>
  `(tactic| (refine StableHlo.after_of_forall_not_mem _ _ (List.forall_iff_forall_mem.mp ?_)
             simp only [$h:ident, List.Forall, StableHlo.nullary_writes, StableHlo.unary_writes, StableHlo.binary_writes,
               StableHlo.ternary_writes, StableHlo.quaternary_writes, StableHlo.reshape_writes, StableHlo.nary_writes,
               Finset.mem_singleton]
             repeat' apply And.intro
             all_goals exact StableHlo.devRef_ne_of_ne (fun e => by subst e; revert $hb:ident; decide)))

theorem keep_s0 (V : Valuation τ sig (Elt Ideal)) (b : Ref sig .tc) (hb : b.idx.val < 36) :
    after s0 V (Proc.devRef .tc b) = V (Proc.devRef .tc b) := by rkeep s0 hb
theorem keep_s1 (V : Valuation τ sig (Elt Ideal)) (b : Ref sig .tc) (hb : b.idx.val < 36) :
    after s1 V (Proc.devRef .tc b) = V (Proc.devRef .tc b) := by rkeep s1 hb
theorem keep_s2 (V : Valuation τ sig (Elt Ideal)) (b : Ref sig .tc) (hb : b.idx.val < 36) :
    after s2 V (Proc.devRef .tc b) = V (Proc.devRef .tc b) := by rkeep s2 hb
theorem keep_s3 (V : Valuation τ sig (Elt Ideal)) (b : Ref sig .tc) (hb : b.idx.val < 36) :
    after s3 V (Proc.devRef .tc b) = V (Proc.devRef .tc b) := by rkeep s3 hb
theorem keep_s4 (V : Valuation τ sig (Elt Ideal)) (b : Ref sig .tc) (hb : b.idx.val < 36) :
    after s4 V (Proc.devRef .tc b) = V (Proc.devRef .tc b) := by rkeep s4 hb
theorem keep_s5 (V : Valuation τ sig (Elt Ideal)) (b : Ref sig .tc) (hb : b.idx.val ≤ 113) :
    after s5 V (Proc.devRef .tc b) = V (Proc.devRef .tc b) := by rkeep s5 hb
theorem keep_s6 (V : Valuation τ sig (Elt Ideal)) (b : Ref sig .tc) (hb : b.idx.val ≤ 113) :
    after s6 V (Proc.devRef .tc b) = V (Proc.devRef .tc b) := by rkeep s6 hb
theorem keep_s7 (V : Valuation τ sig (Elt Ideal)) (b : Ref sig .tc) (hb : b.idx.val ≤ 113) :
    after s7 V (Proc.devRef .tc b) = V (Proc.devRef .tc b) := by rkeep s7 hb
theorem keep_s8 (V : Valuation τ sig (Elt Ideal)) (b : Ref sig .tc) (hb : b.idx.val ≤ 113) :
    after s8 V (Proc.devRef .tc b) = V (Proc.devRef .tc b) := by rkeep s8 hb
theorem keep_s9 (V : Valuation τ sig (Elt Ideal)) (b : Ref sig .tc) (hb : b.idx.val ≤ 113) :
    after s9 V (Proc.devRef .tc b) = V (Proc.devRef .tc b) := by rkeep s9 hb
theorem keep_s10 (V : Valuation τ sig (Elt Ideal)) (b : Ref sig .tc) (hb : b.idx.val < 36) :
    after s10 V (Proc.devRef .tc b) = V (Proc.devRef .tc b) := by rkeep s10 hb
theorem keep_s11 (V : Valuation τ sig (Elt Ideal)) (b : Ref sig .tc) (hb : b.idx.val ≤ 192) :
    after s11 V (Proc.devRef .tc b) = V (Proc.devRef .tc b) := by rkeep s11 hb
theorem keep_s12 (V : Valuation τ sig (Elt Ideal)) (b : Ref sig .tc) (hb : b.idx.val ≤ 192) :
    after s12 V (Proc.devRef .tc b) = V (Proc.devRef .tc b) := by rkeep s12 hb
theorem keep_s13 (V : Valuation τ sig (Elt Ideal)) (b : Ref sig .tc) (hb : b.idx.val ≤ 192) :
    after s13 V (Proc.devRef .tc b) = V (Proc.devRef .tc b) := by rkeep s13 hb
theorem keep_s14 (V : Valuation τ sig (Elt Ideal)) (b : Ref sig .tc) (hb : b.idx.val ≤ 294) :
    after s14 V (Proc.devRef .tc b) = V (Proc.devRef .tc b) := by rkeep s14 hb
theorem keep_s15 (V : Valuation τ sig (Elt Ideal)) (b : Ref sig .tc) (hb : b.idx.val ≤ 294) :
    after s15 V (Proc.devRef .tc b) = V (Proc.devRef .tc b) := by rkeep s15 hb
theorem keep_s16 (V : Valuation τ sig (Elt Ideal)) (b : Ref sig .tc) (hb : b.idx.val ≤ 294) :
    after s16 V (Proc.devRef .tc b) = V (Proc.devRef .tc b) := by rkeep s16 hb
theorem keep_s17 (V : Valuation τ sig (Elt Ideal)) (b : Ref sig .tc) (hb : b.idx.val ≤ 396) :
    after s17 V (Proc.devRef .tc b) = V (Proc.devRef .tc b) := by rkeep s17 hb
theorem keep_s18 (V : Valuation τ sig (Elt Ideal)) (b : Ref sig .tc) (hb : b.idx.val ≤ 396) :
    after s18 V (Proc.devRef .tc b) = V (Proc.devRef .tc b) := by rkeep s18 hb

/-! ## The arguments are never written -/

theorem argR1 (V0 : Valuation τ sig (Elt Ideal)) (b : Ref sig .tc) (hb : b.idx.val < 36) :
    R1 V0 (Proc.devRef .tc b) = V0 (Proc.devRef .tc b) := keep_s0 V0 b hb
theorem argR2 (V0 : Valuation τ sig (Elt Ideal)) (b : Ref sig .tc) (hb : b.idx.val < 36) :
    R2 V0 (Proc.devRef .tc b) = V0 (Proc.devRef .tc b) := (keep_s1 (R1 V0) b hb).trans (argR1 V0 b hb)
theorem argR3 (V0 : Valuation τ sig (Elt Ideal)) (b : Ref sig .tc) (hb : b.idx.val < 36) :
    R3 V0 (Proc.devRef .tc b) = V0 (Proc.devRef .tc b) := (keep_s2 (R2 V0) b hb).trans (argR2 V0 b hb)
theorem argR4 (V0 : Valuation τ sig (Elt Ideal)) (b : Ref sig .tc) (hb : b.idx.val < 36) :
    R4 V0 (Proc.devRef .tc b) = V0 (Proc.devRef .tc b) := (keep_s3 (R3 V0) b hb).trans (argR3 V0 b hb)
theorem argR5 (V0 : Valuation τ sig (Elt Ideal)) (b : Ref sig .tc) (hb : b.idx.val < 36) :
    R5 V0 (Proc.devRef .tc b) = V0 (Proc.devRef .tc b) := (keep_s4 (R4 V0) b hb).trans (argR4 V0 b hb)
theorem argR6 (V0 : Valuation τ sig (Elt Ideal)) (b : Ref sig .tc) (hb : b.idx.val < 36) :
    R6 V0 (Proc.devRef .tc b) = V0 (Proc.devRef .tc b) := (keep_s5 (R5 V0) b (by omega)).trans (argR5 V0 b hb)
theorem argR7 (V0 : Valuation τ sig (Elt Ideal)) (b : Ref sig .tc) (hb : b.idx.val < 36) :
    R7 V0 (Proc.devRef .tc b) = V0 (Proc.devRef .tc b) := (keep_s6 (R6 V0) b (by omega)).trans (argR6 V0 b hb)
theorem argR8 (V0 : Valuation τ sig (Elt Ideal)) (b : Ref sig .tc) (hb : b.idx.val < 36) :
    R8 V0 (Proc.devRef .tc b) = V0 (Proc.devRef .tc b) := (keep_s7 (R7 V0) b (by omega)).trans (argR7 V0 b hb)
theorem argR9 (V0 : Valuation τ sig (Elt Ideal)) (b : Ref sig .tc) (hb : b.idx.val < 36) :
    R9 V0 (Proc.devRef .tc b) = V0 (Proc.devRef .tc b) := (keep_s8 (R8 V0) b (by omega)).trans (argR8 V0 b hb)
theorem argR10 (V0 : Valuation τ sig (Elt Ideal)) (b : Ref sig .tc) (hb : b.idx.val < 36) :
    R10 V0 (Proc.devRef .tc b) = V0 (Proc.devRef .tc b) := (keep_s9 (R9 V0) b (by omega)).trans (argR9 V0 b hb)
theorem argR11 (V0 : Valuation τ sig (Elt Ideal)) (b : Ref sig .tc) (hb : b.idx.val < 36) :
    R11 V0 (Proc.devRef .tc b) = V0 (Proc.devRef .tc b) := (keep_s10 (R10 V0) b hb).trans (argR10 V0 b hb)
theorem argR12 (V0 : Valuation τ sig (Elt Ideal)) (b : Ref sig .tc) (hb : b.idx.val < 36) :
    R12 V0 (Proc.devRef .tc b) = V0 (Proc.devRef .tc b) := (keep_s11 (R11 V0) b (by omega)).trans (argR11 V0 b hb)
theorem argR13 (V0 : Valuation τ sig (Elt Ideal)) (b : Ref sig .tc) (hb : b.idx.val < 36) :
    R13 V0 (Proc.devRef .tc b) = V0 (Proc.devRef .tc b) := (keep_s12 (R12 V0) b (by omega)).trans (argR12 V0 b hb)
theorem argR14 (V0 : Valuation τ sig (Elt Ideal)) (b : Ref sig .tc) (hb : b.idx.val < 36) :
    R14 V0 (Proc.devRef .tc b) = V0 (Proc.devRef .tc b) := (keep_s13 (R13 V0) b (by omega)).trans (argR13 V0 b hb)
theorem argR15 (V0 : Valuation τ sig (Elt Ideal)) (b : Ref sig .tc) (hb : b.idx.val < 36) :
    R15 V0 (Proc.devRef .tc b) = V0 (Proc.devRef .tc b) := (keep_s14 (R14 V0) b (by omega)).trans (argR14 V0 b hb)
theorem argR16 (V0 : Valuation τ sig (Elt Ideal)) (b : Ref sig .tc) (hb : b.idx.val < 36) :
    R16 V0 (Proc.devRef .tc b) = V0 (Proc.devRef .tc b) := (keep_s15 (R15 V0) b (by omega)).trans (argR15 V0 b hb)
theorem argR17 (V0 : Valuation τ sig (Elt Ideal)) (b : Ref sig .tc) (hb : b.idx.val < 36) :
    R17 V0 (Proc.devRef .tc b) = V0 (Proc.devRef .tc b) := (keep_s16 (R16 V0) b (by omega)).trans (argR16 V0 b hb)
theorem argR18 (V0 : Valuation τ sig (Elt Ideal)) (b : Ref sig .tc) (hb : b.idx.val < 36) :
    R18 V0 (Proc.devRef .tc b) = V0 (Proc.devRef .tc b) := (keep_s17 (R17 V0) b (by omega)).trans (argR17 V0 b hb)
theorem argR19 (V0 : Valuation τ sig (Elt Ideal)) (b : Ref sig .tc) (hb : b.idx.val < 36) :
    R19 V0 (Proc.devRef .tc b) = V0 (Proc.devRef .tc b) := (keep_s18 (R18 V0) b (by omega)).trans (argR18 V0 b hb)

/-! ## The four results -/

section Results

variable (V0 : Valuation τ sig (Elt Ideal))

/-- Graph d's aggregated node-feature matrix, as the third stretch leaves it. -/
abbrev aggD : Arr2 10000 1024 := R3 V0 (Proc.devRef .tc main_v45)
/-- Graph p's aggregated node-feature matrix, as the ninth stretch leaves it. -/
abbrev aggP : Arr2 5000 1024 := R9 V0 (Proc.devRef .tc main_v106)

/-- The feature matrix of the launch contents and the two aggregated matrices. -/
abbrev refFeat : Arr2 2048 3372 :=
  netFeat (V0 (Proc.devRef .tc main_arg2)) (V0 (Proc.devRef .tc main_arg3)) (aggD V0) (V0 (Proc.devRef .tc main_arg11)) (V0 (Proc.devRef .tc main_arg0))
    (aggP V0) (V0 (Proc.devRef .tc main_arg13)) (V0 (Proc.devRef .tc main_arg1))
/-- The code. -/
abbrev refEnc : Arr2 2048 256 :=
  netEnc (refFeat V0) (V0 (Proc.devRef .tc main_arg14)) (V0 (Proc.devRef .tc main_arg15)) (V0 (Proc.devRef .tc main_arg16)) (V0 (Proc.devRef .tc main_arg17))
    (V0 (Proc.devRef .tc main_arg18)) (V0 (Proc.devRef .tc main_arg19)) (V0 (Proc.devRef .tc main_arg20)) (V0 (Proc.devRef .tc main_arg21))
/-- The reconstruction. -/
abbrev refDec : Arr2 2048 3372 :=
  netDec (refEnc V0) (V0 (Proc.devRef .tc main_arg22)) (V0 (Proc.devRef .tc main_arg23)) (V0 (Proc.devRef .tc main_arg24)) (V0 (Proc.devRef .tc main_arg25))
    (V0 (Proc.devRef .tc main_arg26)) (V0 (Proc.devRef .tc main_arg27)) (V0 (Proc.devRef .tc main_arg28)) (V0 (Proc.devRef .tc main_arg29))
/-- The prediction. -/
abbrev refY : Arr2 2048 1 :=
  netHead (refEnc V0) (V0 (Proc.devRef .tc main_arg30)) (V0 (Proc.devRef .tc main_arg31)) (V0 (Proc.devRef .tc main_arg32)) (V0 (Proc.devRef .tc main_arg33))
    (V0 (Proc.devRef .tc main_arg34)) (V0 (Proc.devRef .tc main_arg35))

/-- After the fifth stretch: the rows graph d's indices select. -/
theorem rowsD_R5 (hd : ∀ k : Fin 2048, (V0 (Proc.devRef .tc main_arg0) (ix1 k)).toNat < 10000) :
    (R5 V0 (Proc.devRef .tc main_v60) : Arr2 2048 1024)
      = sel (N := 10000) (by decide) (aggD V0) (V0 (Proc.devRef .tc main_arg11)) (V0 (Proc.devRef .tc main_arg0)) := by
  funext i
  have e := ref_rows_d (R3 V0) (fun k => by rw [argR3 V0 main_arg0 (by decide)]; exact hd k) i
  rw [argR3 V0 main_arg11 (by decide), argR3 V0 main_arg0 (by decide)] at e
  exact e

/-- They are kept up to the tenth stretch. -/
theorem v60_R10 : R10 V0 (Proc.devRef .tc main_v60) = R5 V0 (Proc.devRef .tc main_v60) :=
  (keep_s9 (R9 V0) main_v60 (by decide)).trans <| (keep_s8 (R8 V0) main_v60 (by decide)).trans <|
    (keep_s7 (R7 V0) main_v60 (by decide)).trans <| (keep_s6 (R6 V0) main_v60 (by decide)).trans
      (keep_s5 (R5 V0) main_v60 (by decide))

/-- After the tenth stretch: the rows graph p's indices select. -/
theorem rowsP_R10 (hp : ∀ k : Fin 2048, (V0 (Proc.devRef .tc main_arg1) (ix1 k)).toNat < 5000) :
    (R10 V0 (Proc.devRef .tc main_v121) : Arr2 2048 1024)
      = sel (N := 5000) (by decide) (aggP V0) (V0 (Proc.devRef .tc main_arg13)) (V0 (Proc.devRef .tc main_arg1)) := by
  funext i
  have e := ref_rows_p (R9 V0) (fun k => by rw [argR9 V0 main_arg1 (by decide)]; exact hp k) i
  rw [argR9 V0 main_arg13 (by decide), argR9 V0 main_arg1 (by decide)] at e
  exact e

/-- After the eleventh stretch: the feature matrix. -/
theorem feat_R11 (hd : ∀ k : Fin 2048, (V0 (Proc.devRef .tc main_arg0) (ix1 k)).toNat < 10000)
    (hp : ∀ k : Fin 2048, (V0 (Proc.devRef .tc main_arg1) (ix1 k)).toNat < 5000) :
    (R11 V0 (Proc.devRef .tc main_v122) : Arr2 2048 3372) = refFeat V0 := by
  funext i
  have e := ref_concat (R10 V0) i
  rw [argR10 V0 main_arg2 (by decide), argR10 V0 main_arg3 (by decide), v60_R10 V0, rowsD_R5 V0 hd, rowsP_R10 V0 hp] at e
  exact e

/-- After the thirteenth stretch: the first hidden matrix. -/
theorem hid1_R13 (hd : ∀ k : Fin 2048, (V0 (Proc.devRef .tc main_arg0) (ix1 k)).toNat < 10000)
    (hp : ∀ k : Fin 2048, (V0 (Proc.devRef .tc main_arg1) (ix1 k)).toNat < 5000) :
    (R13 V0 (Proc.devRef .tc main_v146) : Arr2 2048 1024)
      = netHid1 (refFeat V0) (V0 (Proc.devRef .tc main_arg14)) (V0 (Proc.devRef .tc main_arg15)) (V0 (Proc.devRef .tc main_arg16)) (V0 (Proc.devRef .tc main_arg17)) := by
  funext i
  have e := ref_layer1 (R11 V0) i
  rw [feat_R11 V0 hd hp, argR11 V0 main_arg14 (by decide), argR11 V0 main_arg15 (by decide), argR11 V0 main_arg16 (by decide), argR11 V0 main_arg17 (by decide)] at e
  exact e

/-- After the fourteenth stretch: the code. -/
theorem enc_R14 (hd : ∀ k : Fin 2048, (V0 (Proc.devRef .tc main_arg0) (ix1 k)).toNat < 10000)
    (hp : ∀ k : Fin 2048, (V0 (Proc.devRef .tc main_arg1) (ix1 k)).toNat < 5000) :
    (R14 V0 (Proc.devRef .tc main_v170) : Arr2 2048 256) = refEnc V0 := by
  funext i
  have e := ref_layer2 (R13 V0) i
  rw [hid1_R13 V0 hd hp, argR13 V0 main_arg18 (by decide), argR13 V0 main_arg19 (by decide), argR13 V0 main_arg20 (by decide), argR13 V0 main_arg21 (by decide)] at e
  exact e

/-- After the fifteenth stretch: the decoder's hidden matrix. -/
theorem hid2_R15 (hd : ∀ k : Fin 2048, (V0 (Proc.devRef .tc main_arg0) (ix1 k)).toNat < 10000)
    (hp : ∀ k : Fin 2048, (V0 (Proc.devRef .tc main_arg1) (ix1 k)).toNat < 5000) :
    (R15 V0 (Proc.devRef .tc main_v194) : Arr2 2048 1024)
      = netHid2 (refEnc V0) (V0 (Proc.devRef .tc main_arg22)) (V0 (Proc.devRef .tc main_arg23)) (V0 (Proc.devRef .tc main_arg24)) (V0 (Proc.devRef .tc main_arg25)) := by
  funext i
  have e := ref_layer3 (R14 V0) i
  rw [enc_R14 V0 hd hp, argR14 V0 main_arg22 (by decide), argR14 V0 main_arg23 (by decide), argR14 V0 main_arg24 (by decide), argR14 V0 main_arg25 (by decide)] at e
  exact e

/-- After the seventeenth stretch: the reconstruction. -/
theorem dec_R17 (hd : ∀ k : Fin 2048, (V0 (Proc.devRef .tc main_arg0) (ix1 k)).toNat < 10000)
    (hp : ∀ k : Fin 2048, (V0 (Proc.devRef .tc main_arg1) (ix1 k)).toNat < 5000) :
    (R17 V0 (Proc.devRef .tc main_v218) : Arr2 2048 3372) = refDec V0 := by
  funext i
  have e := ref_layer4 (R15 V0) i
  rw [hid2_R15 V0 hd hp, argR15 V0 main_arg26 (by decide), argR15 V0 main_arg27 (by decide), argR15 V0 main_arg28 (by decide), argR15 V0 main_arg29 (by decide)] at e
  exact e

/-- The code is kept up to the seventeenth stretch, … -/
theorem v170_R17 : R17 V0 (Proc.devRef .tc main_v170) = R14 V0 (Proc.devRef .tc main_v170) :=
  (keep_s16 (R16 V0) main_v170 (by decide)).trans <| (keep_s15 (R15 V0) main_v170 (by decide)).trans
    (keep_s14 (R14 V0) main_v170 (by decide))

/-- … and to the end; … -/
theorem v170_R19 : R19 V0 (Proc.devRef .tc main_v170) = R14 V0 (Proc.devRef .tc main_v170) :=
  (keep_s18 (R18 V0) main_v170 (by decide)).trans <| (keep_s17 (R17 V0) main_v170 (by decide)).trans (v170_R17 V0)

/-- … so are the feature matrix … -/
theorem v122_R19 : R19 V0 (Proc.devRef .tc main_v122) = R11 V0 (Proc.devRef .tc main_v122) :=
  (keep_s18 (R18 V0) main_v122 (by decide)).trans <| (keep_s17 (R17 V0) main_v122 (by decide)).trans <|
    (keep_s16 (R16 V0) main_v122 (by decide)).trans <| (keep_s15 (R15 V0) main_v122 (by decide)).trans <|
      (keep_s14 (R14 V0) main_v122 (by decide)).trans <| (keep_s13 (R13 V0) main_v122 (by decide)).trans <|
        (keep_s12 (R12 V0) main_v122 (by decide)).trans (keep_s11 (R11 V0) main_v122 (by decide))

/-- … and the reconstruction. -/
theorem v218_R19 : R19 V0 (Proc.devRef .tc main_v218) = R17 V0 (Proc.devRef .tc main_v218) :=
  (keep_s18 (R18 V0) main_v218 (by decide)).trans (keep_s17 (R17 V0) main_v218 (by decide))

/-- The reference's fourth result is the feature matrix. -/
theorem ref_out3 (hd : ∀ k : Fin 2048, (V0 (Proc.devRef .tc main_arg0) (ix1 k)).toNat < 10000)
    (hp : ∀ k : Fin 2048, (V0 (Proc.devRef .tc main_arg1) (ix1 k)).toNat < 5000) :
    ∀ i, R19 V0 (Proc.devRef .tc main_v122) i = refFeat V0 i :=
  fun i => congrFun ((v122_R19 V0).trans (feat_R11 V0 hd hp)) i

/-- Its second result is the code. -/
theorem ref_out1 (hd : ∀ k : Fin 2048, (V0 (Proc.devRef .tc main_arg0) (ix1 k)).toNat < 10000)
    (hp : ∀ k : Fin 2048, (V0 (Proc.devRef .tc main_arg1) (ix1 k)).toNat < 5000) :
    ∀ i, R19 V0 (Proc.devRef .tc main_v170) i = refEnc V0 i :=
  fun i => congrFun ((v170_R19 V0).trans (enc_R14 V0 hd hp)) i

/-- Its third result is the reconstruction. -/
theorem ref_out2 (hd : ∀ k : Fin 2048, (V0 (Proc.devRef .tc main_arg0) (ix1 k)).toNat < 10000)
    (hp : ∀ k : Fin 2048, (V0 (Proc.devRef .tc main_arg1) (ix1 k)).toNat < 5000) :
    ∀ i, R19 V0 (Proc.devRef .tc main_v218) i = refDec V0 i :=
  fun i => congrFun ((v218_R19 V0).trans (dec_R17 V0 hd hp)) i

/-- Its first result is the prediction. -/
theorem ref_out0 (hd : ∀ k : Fin 2048, (V0 (Proc.devRef .tc main_arg0) (ix1 k)).toNat < 10000)
    (hp : ∀ k : Fin 2048, (V0 (Proc.devRef .tc main_arg1) (ix1 k)).toNat < 5000) :
    ∀ i, R19 V0 (Proc.devRef .tc main_v250) i = refY V0 i := by
  intro i
  have e := ref_head (R17 V0) i
  rw [v170_R17 V0, enc_R14 V0 hd hp, argR17 V0 main_arg30 (by decide), argR17 V0 main_arg31 (by decide), argR17 V0 main_arg32 (by decide), argR17 V0 main_arg33 (by decide), argR17 V0 main_arg34 (by decide), argR17 V0 main_arg35 (by decide)] at e
  exact e

end Results

end Cert.ReferenceIdeal.RefVal

end
-- ==== Proof.KFeat.lean ====
/-
  Region 2, the feature builder, read as values over the extended reals.

  The grid has eight points; point t works on rows 256·t to 256·t + 255. Its body stores four column ranges into each
  of the two output blocks: columns 0 to 299 the block of the first matrix, columns 300 to 1323 the block of the second,
  columns 1324 to 2347 and 2348 to 3371 the two blocks of selected rows, each plus its bias row and through the leaky
  rectifier (v if v ≥ 0, else slope · v). The second output block receives the same values after a change of float
  format, which is the identity on extended reals.

  The four stores tile the block, so the block reads back as ONE function of the six input blocks (featBlk), whatever
  the order of the stores. Each input block is row block t of its array (the two bias rows are whole), so featBlk of the
  blocks at point t is row block t of the feature matrix of the arrays. Every point writes its block back and the eight
  row blocks cover the 2048 rows: both output arrays end holding the feature matrix, entry by entry.
-/
import proofs.«402148_j44985487458808_3_alg».proof.Proof.Gen.KernelIdeal.Frame
import proofs.«402148_j44985487458808_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RV

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The leaky rectifier, as the body computes it on a block -/

/-- Selecting a block's non-negative entries and scaling the others by the slope is the leaky rectifier entry by
    entry: the zero word is the extended real 0, and the slope word is read once on both sides. -/
theorem feat_lrelu_vec (a : FVec Ideal S256x1024 .f32) (i : S256x1024.Idx) :
    select (cmpf .oge a (broadcast S256x1024 (Scalar.ofBits .f32 0x00000000#32))) a
      (mulf (broadcast S256x1024 (Scalar.ofBits .f32 0x3C23D70A#32)) a) i = Cert.Spec.lrelu (a i) := by
  show Scalar.select (FloatOps.cmpf .oge (a i) (Ideal.ofBits .f32 0x00000000#32)) (a i)
    (Ideal.ofBits .f32 0x3C23D70A#32 * a i) = _
  rw [Ideal.ofBits_zero_f32]; rfl

/-- The first block of selected rows with its bias row: entry (p, q) is the rectifier of the selected entry plus
    column q of the bias row. -/
theorem feat_pay4_apply (v2 : Vec Ideal S256x1024 .f32) (v4 : Vec Ideal S1x1024 .f32) (p : Fin 256) (q : Fin 1024) :
    k2_pay4 (F := Ideal) v2 v4 (ix2 p q) = Cert.Spec.lrelu (v2 (ix2 p q) + v4 (ix2 (0 : Fin 1) q)) := by
  have e6 : broadcastTo S256x1024 (shapeCast S1x1024 v4 shapeCasts_S1x1024_S1x1024) broadcasts_S1x1024_S256x1024 (ix2 p q)
      = v4 (ix2 (0 : Fin 1) q) := by
    refine (broadcastTo_1b_ab_apply _ _ p q).trans ?_
    rw [shapeCast_self]
  have e3 : shapeCast S256x1024 v2 shapeCasts_S256x1024_S256x1024 (ix2 p q) = v2 (ix2 p q) := by rw [shapeCast_self]
  unfold k2_pay4
  refine (feat_lrelu_vec _ (ix2 p q)).trans ?_
  show Cert.Spec.lrelu (shapeCast S256x1024 v2 shapeCasts_S256x1024_S256x1024 (ix2 p q)
    + broadcastTo S256x1024 (shapeCast S1x1024 v4 shapeCasts_S1x1024_S1x1024) broadcasts_S1x1024_S256x1024 (ix2 p q)) = _
  rw [e3, e6]

/-- The second block of selected rows with its bias row, the same way. -/
theorem feat_pay5_apply (v13 : Vec Ideal S256x1024 .f32) (v15 : Vec Ideal S1x1024 .f32) (p : Fin 256) (q : Fin 1024) :
    k2_pay5 (F := Ideal) v13 v15 (ix2 p q) = Cert.Spec.lrelu (v13 (ix2 p q) + v15 (ix2 (0 : Fin 1) q)) := by
  have e6 : broadcastTo S256x1024 (shapeCast S1x1024 v15 shapeCasts_S1x1024_S1x1024) broadcasts_S1x1024_S256x1024 (ix2 p q)
      = v15 (ix2 (0 : Fin 1) q) := by
    refine (broadcastTo_1b_ab_apply _ _ p q).trans ?_
    rw [shapeCast_self]
  have e3 : shapeCast S256x1024 v13 shapeCasts_S256x1024_S256x1024 (ix2 p q) = v13 (ix2 p q) := by rw [shapeCast_self]
  unfold k2_pay5
  refine (feat_lrelu_vec _ (ix2 p q)).trans ?_
  show Cert.Spec.lrelu (shapeCast S256x1024 v13 shapeCasts_S256x1024_S256x1024 (ix2 p q)
    + broadcastTo S256x1024 (shapeCast S1x1024 v15 shapeCasts_S1x1024_S1x1024) broadcasts_S1x1024_S256x1024 (ix2 p q)) = _
  rw [e3, e6]

/-! ## One row block of the feature matrix -/

/-- One block of 256 rows of the feature matrix as a function of the six input blocks: the four column ranges side
    by side (300 + 1024 + 1024 + 1024), the last two through the leaky rectifier after the bias row is added. -/
def featBlk (x0 : Vec Ideal S256x300 .f32) (x1 x2 : Vec Ideal S256x1024 .f32) (x3 : Vec Ideal S1x1024 .f32)
    (x4 : Vec Ideal S256x1024 .f32) (x5 : Vec Ideal S1x1024 .f32) : S256x3372.Idx → EReal :=
  fun y =>
    let p : Fin 256 := y 0
    let q : ℕ := (y 1 : Fin 3372).val
    have hq : q < 3372 := (y 1 : Fin 3372).isLt
    if h : q < 300 then x0 (ix2 p ⟨q, h⟩)
    else if h2 : q < 1324 then x1 (ix2 p ⟨q - 300, by omega⟩)
    else if h3 : q < 2348 then
      Cert.Spec.lrelu (x2 (ix2 p ⟨q - 1324, by omega⟩) + x3 (ix2 (0 : Fin 1) ⟨q - 1324, by omega⟩))
    else Cert.Spec.lrelu (x4 (ix2 p ⟨q - 2348, by omega⟩) + x5 (ix2 (0 : Fin 1) ⟨q - 2348, by omega⟩))

section Cols
variable (x0 : Vec Ideal S256x300 .f32) (x1 x2 : Vec Ideal S256x1024 .f32) (x3 : Vec Ideal S1x1024 .f32)
  (x4 : Vec Ideal S256x1024 .f32) (x5 : Vec Ideal S1x1024 .f32)

/-- Columns 0 to 299 of the block are the first input block. -/
theorem featBlk_col0 (p : Fin 256) (q : Fin 300) :
    featBlk x0 x1 x2 x3 x4 x5 (ix2 p (⟨q.val, by have := q.isLt; omega⟩ : Fin 3372)) = x0 (ix2 p q) := by
  have c0 : q.val < 300 := q.isLt
  unfold featBlk; dsimp only
  rw [dif_pos c0]

/-- Columns 300 to 1323 are the second input block. -/
theorem featBlk_col1 (p : Fin 256) (q : Fin 1024) :
    featBlk x0 x1 x2 x3 x4 x5 (ix2 p (⟨300 + q.val, by have := q.isLt; omega⟩ : Fin 3372)) = x1 (ix2 p q) := by
  have hq : q.val < 1024 := q.isLt
  have c0 : ¬ 300 + q.val < 300 := by omega
  have c1 : 300 + q.val < 1324 := by omega
  unfold featBlk; dsimp only
  rw [dif_neg c0, dif_pos c1]
  exact congrArg x1 (congrArg (ix2 p) (Fin.ext (by show 300 + q.val - 300 = q.val; omega)))

/-- Columns 1324 to 2347 are the rectified third block plus its bias row. -/
theorem featBlk_col2 (p : Fin 256) (q : Fin 1024) :
    featBlk x0 x1 x2 x3 x4 x5 (ix2 p (⟨1324 + q.val, by have := q.isLt; omega⟩ : Fin 3372))
      = Cert.Spec.lrelu (x2 (ix2 p q) + x3 (ix2 (0 : Fin 1) q)) := by
  have hq : q.val < 1024 := q.isLt
  have c0 : ¬ 1324 + q.val < 300 := by omega
  have c1 : ¬ 1324 + q.val < 1324 := by omega
  have c2 : 1324 + q.val < 2348 := by omega
  have e : (⟨1324 + q.val - 1324, by omega⟩ : Fin 1024) = q := Fin.ext (by show 1324 + q.val - 1324 = q.val; omega)
  unfold featBlk; dsimp only
  rw [dif_neg c0, dif_neg c1, dif_pos c2, e]

/-- Columns 2348 to 3371 are the rectified fifth block plus its bias row. -/
theorem featBlk_col3 (p : Fin 256) (q : Fin 1024) :
    featBlk x0 x1 x2 x3 x4 x5 (ix2 p (⟨2348 + q.val, by have := q.isLt; omega⟩ : Fin 3372))
      = Cert.Spec.lrelu (x4 (ix2 p q) + x5 (ix2 (0 : Fin 1) q)) := by
  have hq : q.val < 1024 := q.isLt
  have c0 : ¬ 2348 + q.val < 300 := by omega
  have c1 : ¬ 2348 + q.val < 1324 := by omega
  have c2 : ¬ 2348 + q.val < 2348 := by omega
  have e : (⟨2348 + q.val - 2348, by omega⟩ : Fin 1024) = q := Fin.ext (by show 2348 + q.val - 2348 = q.val; omega)
  unfold featBlk; dsimp only
  rw [dif_neg c0, dif_neg c1, dif_neg c2, e]

end Cols

/-- Row p of row block tv, as a row of the whole matrix. -/
def featRow (tv : ℕ) (htv : tv < 8) (p : Fin 256) : Fin 2048 := ⟨tv * 256 + p.val, by have := p.isLt; omega⟩

/-- A row block assembled from blocks that are row block tv of the six arrays is row block tv of the feature matrix. -/
theorem featBlk_feature (tv : ℕ) (htv : tv < 8) (dv : Cert.Spec.Arr2 2048 300) (pe ds ps : Cert.Spec.Arr2 2048 1024)
    (bd bp : Cert.Spec.Arr1 1024)
    (x0 : Vec Ideal S256x300 .f32) (x1 x2 : Vec Ideal S256x1024 .f32) (x3 : Vec Ideal S1x1024 .f32)
    (x4 : Vec Ideal S256x1024 .f32) (x5 : Vec Ideal S1x1024 .f32)
    (h0 : ∀ (p : Fin 256) (q : Fin 300), x0 (ix2 p q) = dv (ix2 (featRow tv htv p) q))
    (h1 : ∀ (p : Fin 256) (q : Fin 1024), x1 (ix2 p q) = pe (ix2 (featRow tv htv p) q))
    (h2 : ∀ (p : Fin 256) (q : Fin 1024), x2 (ix2 p q) = ds (ix2 (featRow tv htv p) q))
    (h3 : ∀ q : Fin 1024, x3 (ix2 (0 : Fin 1) q) = bd (ix1 q))
    (h4 : ∀ (p : Fin 256) (q : Fin 1024), x4 (ix2 p q) = ps (ix2 (featRow tv htv p) q))
    (h5 : ∀ q : Fin 1024, x5 (ix2 (0 : Fin 1) q) = bp (ix1 q))
    (p : Fin 256) (q : Fin 3372) :
    featBlk x0 x1 x2 x3 x4 x5 (ix2 p q)
      = Cert.Spec.feature dv pe (fun j => Cert.Spec.lrelu (ds j + bd (ix1 (j 1 : Fin 1024))))
          (fun j => Cert.Spec.lrelu (ps j + bp (ix1 (j 1 : Fin 1024)))) (ix2 (featRow tv htv p) q) := by
  unfold featBlk Cert.Spec.feature
  dsimp only
  by_cases c0 : q.val < 300
  · rw [dif_pos c0, dif_pos c0]; exact h0 p ⟨q.val, c0⟩
  · rw [dif_neg c0, dif_neg c0]
    by_cases c1 : q.val < 1324
    · rw [dif_pos c1, dif_pos c1]; exact h1 p ⟨q.val - 300, by omega⟩
    · rw [dif_neg c1, dif_neg c1]
      by_cases c2 : q.val < 2348
      · rw [dif_pos c2, dif_pos c2, h2 p ⟨q.val - 1324, by omega⟩, h3 ⟨q.val - 1324, by omega⟩]
      · rw [dif_neg c2, dif_neg c2, h4 p ⟨q.val - 2348, by have := q.isLt; omega⟩,
          h5 ⟨q.val - 2348, by have := q.isLt; omega⟩]

/-! ## What the body leaves in the two output blocks -/

theorem feat_hz : (![0, 0] : Fin 2 → Nat) = fun _ => 0 := funext fun a => by fin_cases a <;> rfl

/-- Entry (p, q) of a 1024-column store at column offset o sits at (p, o + q) of the block. -/
theorem feat_emb_1024 (o : ℕ) (ho : o + 1024 ≤ 3372) (inb : ∀ a, (![0, o] : Fin 2 → ℕ) a + (![256, 1024] : Fin 2 → ℕ) a ≤ S256x3372.size a)
    (p : Fin 256) (q : Fin 1024) :
    (Rect.unit (s := S256x3372) ![0, o] ![256, 1024] inb).emb (ix2 p q)
      = ix2 p (⟨o + q.val, by have := q.isLt; omega⟩ : Fin 3372) := by
  funext a; apply Fin.ext
  match a with
  | ⟨0, _⟩ => show 0 + 1 * p.val = p.val; omega
  | ⟨1, _⟩ => show o + 1 * q.val = o + q.val; omega

/-- Entry (p, q) of the 300-column store at column offset 0 sits at (p, q) of the block. -/
theorem feat_emb_300 (inb : ∀ a, (![0, 0] : Fin 2 → ℕ) a + (![256, 300] : Fin 2 → ℕ) a ≤ S256x3372.size a)
    (p : Fin 256) (q : Fin 300) :
    (Rect.unit (s := S256x3372) ![0, 0] ![256, 300] inb).emb (ix2 p q)
      = ix2 p (⟨q.val, by have := q.isLt; omega⟩ : Fin 3372) := by
  funext a; apply Fin.ext
  match a with
  | ⟨0, _⟩ => show 0 + 1 * p.val = p.val; omega
  | ⟨1, _⟩ => show 0 + 1 * q.val = q.val; omega

/-- The f32 output block after the body: its four column stores are the four column ranges of one function of the
    input blocks, so the block reads as that function at every entry. -/
theorem feat_out6_apply (c : Dev nD) (i : grid2.Coords) (a1 : Memref sig .tc .vmem S256x300 .f32) (h1 : a1.IsWhole)
    (a2 : Memref sig .tc .vmem S256x1024 .f32) (h2 : a2.IsWhole) (a3 : Memref sig .tc .vmem S256x1024 .f32) (h3 : a3.IsWhole)
    (a4 : Memref sig .tc .vmem S1x1024 .f32) (h4 : a4.IsWhole) (a5 : Memref sig .tc .vmem S256x1024 .f32) (h5 : a5.IsWhole)
    (a6 : Memref sig .tc .vmem S1x1024 .f32) (h6 : a6.IsWhole) (a7 : Memref sig .tc .vmem S256x3372 .f32) (h7 : a7.IsWhole)
    (a8 : Memref sig .tc .vmem S256x3372 .bf16) (h8 : a8.IsWhole)
    (x0 : Vec Ideal S256x300 .f32) (x1 x2 : Vec Ideal S256x1024 .f32) (x3 : Vec Ideal S1x1024 .f32)
    (x4 : Vec Ideal S256x1024 .f32) (x5 : Vec Ideal S1x1024 .f32) (y : S256x3372.Idx) :
    out2_A_6 (F := Ideal) c i a1 h1 a2 h2 a3 h3 a4 h4 a5 h5 a6 h6 a7 h7 a8 h8 x0 x1 x2 x3 x4 x5 y = featBlk x0 x1 x2 x3 x4 x5 y := by
  unfold out2_A_6
  rw [View.read_writes_junk_eq_canon]
  refine View.canon_apply_of_pieces (featBlk x0 x1 x2 x3 x4 x5) _ ?_ y (cover2_A_6 c i a1 h1 a2 h2 a3 h3 a4 h4 a5 h5 a6 h6 a7 h7 a8 h8 x0 x1 x2 x3 x4 x5 y)
  unfold kernelRun2_A
  dsimp only
  sl_unfold_words
  simp only [View.readAt_eq_ld, h1.read_unread, h2.read_unread, h3.read_unread, h4.read_unread, h5.read_unread,
    h6.read_unread, View.ld_unit_zero (S := S256x300) feat_hz, View.ld_unit_zero (S := S256x1024) feat_hz,
    View.ld_unit_zero (S := S1x1024) feat_hz]
  intro pc hpc
  simp only [List.mem_cons, List.not_mem_nil, or_false] at hpc
  rcases hpc with rfl | rfl | rfl | rfl
  · intro x
    obtain ⟨p, q, rfl⟩ : ∃ (p : Fin 256) (q : Fin 1024), x = ix2 p q := ⟨x 0, x 1, eq_ix2 x⟩
    refine (feat_pay5_apply x4 x5 p q).trans ?_
    rw [feat_emb_1024 2348 (by omega) inb_S256x3372_S256x1024_0_2348 p q]
    exact (featBlk_col3 x0 x1 x2 x3 x4 x5 p q).symm
  · intro x
    obtain ⟨p, q, rfl⟩ : ∃ (p : Fin 256) (q : Fin 1024), x = ix2 p q := ⟨x 0, x 1, eq_ix2 x⟩
    refine (feat_pay4_apply x2 x3 p q).trans ?_
    rw [feat_emb_1024 1324 (by omega) inb_S256x3372_S256x1024_0_1324 p q]
    exact (featBlk_col2 x0 x1 x2 x3 x4 x5 p q).symm
  · intro x
    obtain ⟨p, q, rfl⟩ : ∃ (p : Fin 256) (q : Fin 1024), x = ix2 p q := ⟨x 0, x 1, eq_ix2 x⟩
    show x1 (ix2 p q) = _
    rw [feat_emb_1024 300 (by omega) inb_S256x3372_S256x1024_0_300 p q]
    exact (featBlk_col1 x0 x1 x2 x3 x4 x5 p q).symm
  · intro x
    obtain ⟨p, q, rfl⟩ : ∃ (p : Fin 256) (q : Fin 300), x = ix2 p q := ⟨x 0, x 1, eq_ix2 x⟩
    show x0 (ix2 p q) = _
    rw [feat_emb_300 inb_S256x3372_S256x300_0_0 p q]
    exact (featBlk_col0 x0 x1 x2 x3 x4 x5 p q).symm

/-- The bf16 output block after the body: the same four stores of the same values (a change of float format is the
    identity on extended reals). -/
theorem feat_out7_apply (c : Dev nD) (i : grid2.Coords) (a1 : Memref sig .tc .vmem S256x300 .f32) (h1 : a1.IsWhole)
    (a2 : Memref sig .tc .vmem S256x1024 .f32) (h2 : a2.IsWhole) (a3 : Memref sig .tc .vmem S256x1024 .f32) (h3 : a3.IsWhole)
    (a4 : Memref sig .tc .vmem S1x1024 .f32) (h4 : a4.IsWhole) (a5 : Memref sig .tc .vmem S256x1024 .f32) (h5 : a5.IsWhole)
    (a6 : Memref sig .tc .vmem S1x1024 .f32) (h6 : a6.IsWhole) (a7 : Memref sig .tc .vmem S256x3372 .f32) (h7 : a7.IsWhole)
    (a8 : Memref sig .tc .vmem S256x3372 .bf16) (h8 : a8.IsWhole)
    (x0 : Vec Ideal S256x300 .f32) (x1 x2 : Vec Ideal S256x1024 .f32) (x3 : Vec Ideal S1x1024 .f32)
    (x4 : Vec Ideal S256x1024 .f32) (x5 : Vec Ideal S1x1024 .f32) (y : S256x3372.Idx) :
    out2_A_7 (F := Ideal) c i a1 h1 a2 h2 a3 h3 a4 h4 a5 h5 a6 h6 a7 h7 a8 h8 x0 x1 x2 x3 x4 x5 y = featBlk x0 x1 x2 x3 x4 x5 y := by
  unfold out2_A_7
  rw [View.read_writes_junk_eq_canon]
  refine View.canon_apply_of_pieces (featBlk x0 x1 x2 x3 x4 x5) _ ?_ y (cover2_A_7 c i a1 h1 a2 h2 a3 h3 a4 h4 a5 h5 a6 h6 a7 h7 a8 h8 x0 x1 x2 x3 x4 x5 y)
  unfold kernelRun2_A
  dsimp only
  sl_unfold_words
  simp only [View.readAt_eq_ld, h1.read_unread, h2.read_unread, h3.read_unread, h4.read_unread, h5.read_unread,
    h6.read_unread, View.ld_unit_zero (S := S256x300) feat_hz, View.ld_unit_zero (S := S256x1024) feat_hz,
    View.ld_unit_zero (S := S1x1024) feat_hz]
  intro pc hpc
  simp only [List.mem_cons, List.not_mem_nil, or_false] at hpc
  rcases hpc with rfl | rfl | rfl | rfl
  · intro x
    obtain ⟨p, q, rfl⟩ : ∃ (p : Fin 256) (q : Fin 1024), x = ix2 p q := ⟨x 0, x 1, eq_ix2 x⟩
    refine (feat_pay5_apply x4 x5 p q).trans ?_
    rw [feat_emb_1024 2348 (by omega) inb_S256x3372_S256x1024_0_2348 p q]
    exact (featBlk_col3 x0 x1 x2 x3 x4 x5 p q).symm
  · intro x
    obtain ⟨p, q, rfl⟩ : ∃ (p : Fin 256) (q : Fin 1024), x = ix2 p q := ⟨x 0, x 1, eq_ix2 x⟩
    refine (feat_pay4_apply x2 x3 p q).trans ?_
    rw [feat_emb_1024 1324 (by omega) inb_S256x3372_S256x1024_0_1324 p q]
    exact (featBlk_col2 x0 x1 x2 x3 x4 x5 p q).symm
  · intro x
    obtain ⟨p, q, rfl⟩ : ∃ (p : Fin 256) (q : Fin 1024), x = ix2 p q := ⟨x 0, x 1, eq_ix2 x⟩
    show x1 (ix2 p q) = _
    rw [feat_emb_1024 300 (by omega) inb_S256x3372_S256x1024_0_300 p q]
    exact (featBlk_col1 x0 x1 x2 x3 x4 x5 p q).symm
  · intro x
    obtain ⟨p, q, rfl⟩ : ∃ (p : Fin 256) (q : Fin 300), x = ix2 p q := ⟨x 0, x 1, eq_ix2 x⟩
    show x0 (ix2 p q) = _
    rw [feat_emb_300 inb_S256x3372_S256x300_0_0 p q]
    exact (featBlk_col0 x0 x1 x2 x3 x4 x5 p q).symm

/-! ## From row blocks to the whole arrays -/

/-- The index maps, decided over the eight points: the row-blocked windows move with the point along the rows and
    stay at column block 0; the two bias windows stay at block (0, 0). -/
theorem feat_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Window 0's block at point t is row block t of its array. -/
theorem feat_iblk0 (c : Dev nD) (dv : Cert.Spec.Arr2 2048 300) (hdv : ∀ i, V c (Pipeline.arrRef spec2 0) i = dv i)
    (t : Fin cfg2.N) (ht : t.val < 8) (p : Fin 256) (q : Fin 300) :
    iblk2 V c 0 t (ix2 p q) = dv (ix2 (featRow t.val ht p) q) := by
  obtain ⟨e00, e01, e10, e11, e20, e21, e30, e31, e40, e41, e50, e51, e60, e61, e70, e71⟩ := feat_idx t
  show V c (Pipeline.arrRef spec2 0) (((cfg2.win 0).blk t).view.emb (ix2 p q)) = _
  refine (hdv _).trans (congrArg dv ?_)
  funext a; apply Fin.ext
  match a with
  | ⟨0, _⟩ => show win2_0.index t (0 : Fin 2) * 256 + 1 * p.val = t.val * 256 + p.val; rw [e00]; omega
  | ⟨1, _⟩ => show win2_0.index t (1 : Fin 2) * 300 + 1 * q.val = q.val; rw [e01]; omega

/-- Window 1's block at point t is row block t of its array. -/
theorem feat_iblk1 (c : Dev nD) (pe : Cert.Spec.Arr2 2048 1024) (hpe : ∀ i, V c (Pipeline.arrRef spec2 1) i = pe i)
    (t : Fin cfg2.N) (ht : t.val < 8) (p : Fin 256) (q : Fin 1024) :
    iblk2 V c 1 t (ix2 p q) = pe (ix2 (featRow t.val ht p) q) := by
  obtain ⟨e00, e01, e10, e11, e20, e21, e30, e31, e40, e41, e50, e51, e60, e61, e70, e71⟩ := feat_idx t
  show V c (Pipeline.arrRef spec2 1) (((cfg2.win 1).blk t).view.emb (ix2 p q)) = _
  refine (hpe _).trans (congrArg pe ?_)
  funext a; apply Fin.ext
  match a with
  | ⟨0, _⟩ => show win2_1.index t (0 : Fin 2) * 256 + 1 * p.val = t.val * 256 + p.val; rw [e10]; omega
  | ⟨1, _⟩ => show win2_1.index t (1 : Fin 2) * 1024 + 1 * q.val = q.val; rw [e11]; omega

/-- Window 2's block at point t is row block t of its array. -/
theorem feat_iblk2 (c : Dev nD) (ds : Cert.Spec.Arr2 2048 1024) (hds : ∀ i, V c (Pipeline.arrRef spec2 2) i = ds i)
    (t : Fin cfg2.N) (ht : t.val < 8) (p : Fin 256) (q : Fin 1024) :
    iblk2 V c 2 t (ix2 p q) = ds (ix2 (featRow t.val ht p) q) := by
  obtain ⟨e00, e01, e10, e11, e20, e21, e30, e31, e40, e41, e50, e51, e60, e61, e70, e71⟩ := feat_idx t
  show V c (Pipeline.arrRef spec2 2) (((cfg2.win 2).blk t).view.emb (ix2 p q)) = _
  refine (hds _).trans (congrArg ds ?_)
  funext a; apply Fin.ext
  match a with
  | ⟨0, _⟩ => show win2_2.index t (0 : Fin 2) * 256 + 1 * p.val = t.val * 256 + p.val; rw [e20]; omega
  | ⟨1, _⟩ => show win2_2.index t (1 : Fin 2) * 1024 + 1 * q.val = q.val; rw [e21]; omega

/-- Window 3's block at every point is its whole one-row array. -/
theorem feat_iblk3 (c : Dev nD) (bd : Cert.Spec.Arr1 1024)
    (hbd : ∀ q : Fin 1024, V c (Pipeline.arrRef spec2 3) (ix2 (0 : Fin 1) q) = bd (ix1 q))
    (t : Fin cfg2.N) (q : Fin 1024) :
    iblk2 V c 3 t (ix2 (0 : Fin 1) q) = bd (ix1 q) := by
  obtain ⟨e00, e01, e10, e11, e20, e21, e30, e31, e40, e41, e50, e51, e60, e61, e70, e71⟩ := feat_idx t
  show V c (Pipeline.arrRef spec2 3) (((cfg2.win 3).blk t).view.emb (ix2 (0 : Fin 1) q)) = _
  refine Eq.trans (congrArg (V c (Pipeline.arrRef spec2 3)) ?_) (hbd q)
  funext a; apply Fin.ext
  match a with
  | ⟨0, _⟩ => show win2_3.index t (0 : Fin 2) * 1 + 1 * 0 = 0; rw [e30]
  | ⟨1, _⟩ => show win2_3.index t (1 : Fin 2) * 1024 + 1 * q.val = q.val; rw [e31]; omega

/-- Window 4's block at point t is row block t of its array. -/
theorem feat_iblk4 (c : Dev nD) (ps : Cert.Spec.Arr2 2048 1024) (hps : ∀ i, V c (Pipeline.arrRef spec2 4) i = ps i)
    (t : Fin cfg2.N) (ht : t.val < 8) (p : Fin 256) (q : Fin 1024) :
    iblk2 V c 4 t (ix2 p q) = ps (ix2 (featRow t.val ht p) q) := by
  obtain ⟨e00, e01, e10, e11, e20, e21, e30, e31, e40, e41, e50, e51, e60, e61, e70, e71⟩ := feat_idx t
  show V c (Pipeline.arrRef spec2 4) (((cfg2.win 4).blk t).view.emb (ix2 p q)) = _
  refine (hps _).trans (congrArg ps ?_)
  funext a; apply Fin.ext
  match a with
  | ⟨0, _⟩ => show win2_4.index t (0 : Fin 2) * 256 + 1 * p.val = t.val * 256 + p.val; rw [e40]; omega
  | ⟨1, _⟩ => show win2_4.index t (1 : Fin 2) * 1024 + 1 * q.val = q.val; rw [e41]; omega

/-- Window 5's block at every point is its whole one-row array. -/
theorem feat_iblk5 (c : Dev nD) (bp : Cert.Spec.Arr1 1024)
    (hbp : ∀ q : Fin 1024, V c (Pipeline.arrRef spec2 5) (ix2 (0 : Fin 1) q) = bp (ix1 q))
    (t : Fin cfg2.N) (q : Fin 1024) :
    iblk2 V c 5 t (ix2 (0 : Fin 1) q) = bp (ix1 q) := by
  obtain ⟨e00, e01, e10, e11, e20, e21, e30, e31, e40, e41, e50, e51, e60, e61, e70, e71⟩ := feat_idx t
  show V c (Pipeline.arrRef spec2 5) (((cfg2.win 5).blk t).view.emb (ix2 (0 : Fin 1) q)) = _
  refine Eq.trans (congrArg (V c (Pipeline.arrRef spec2 5)) ?_) (hbp q)
  funext a; apply Fin.ext
  match a with
  | ⟨0, _⟩ => show win2_5.index t (0 : Fin 2) * 1 + 1 * 0 = 0; rw [e50]
  | ⟨1, _⟩ => show win2_5.index t (1 : Fin 2) * 1024 + 1 * q.val = q.val; rw [e51]; omega

/-- What point t writes back through output window 6 is row block t of the feature matrix. -/
theorem feat_flushed6 (c : Dev nD) (dv : Cert.Spec.Arr2 2048 300) (pe ds ps : Cert.Spec.Arr2 2048 1024) (bd bp : Cert.Spec.Arr1 1024)
    (hdv : ∀ i, V c (Pipeline.arrRef spec2 0) i = dv i) (hpe : ∀ i, V c (Pipeline.arrRef spec2 1) i = pe i)
    (hds : ∀ i, V c (Pipeline.arrRef spec2 2) i = ds i)
    (hbd : ∀ q : Fin 1024, V c (Pipeline.arrRef spec2 3) (ix2 (0 : Fin 1) q) = bd (ix1 q))
    (hps : ∀ i, V c (Pipeline.arrRef spec2 4) i = ps i)
    (hbp : ∀ q : Fin 1024, V c (Pipeline.arrRef spec2 5) (ix2 (0 : Fin 1) q) = bp (ix1 q)) (t : Fin cfg2.N) :
    (dat2 V c).flushed 6 t = ((cfg2.win 6).blk t).view.read (Elt Ideal)
      (Cert.Spec.feature dv pe (fun j => Cert.Spec.lrelu (ds j + bd (ix1 (j 1 : Fin 1024))))
          (fun j => Cert.Spec.lrelu (ps j + bp (ix1 (j 1 : Fin 1024))))) := by
  have ht : t.val < 8 := Nat.lt_of_lt_of_eq t.isLt (show cfg2.N = 8 from N_2)
  obtain ⟨e00, e01, e10, e11, e20, e21, e30, e31, e40, e41, e50, e51, e60, e61, e70, e71⟩ := feat_idx t
  show (cfg2.win 6).cut (grid2.coords t) ((dat2 V c).after 6 t) = _
  rw [after2_6]
  funext y
  obtain ⟨p, q, rfl⟩ : ∃ (p : Fin 256) (q : Fin 3372), y = ix2 p q := ⟨y 0, y 1, eq_ix2 y⟩
  have e : ((cfg2.win 6).blk t).view.emb (ix2 p q) = ix2 (featRow t.val ht p) q := by
    funext a; apply Fin.ext
    match a with
    | ⟨0, _⟩ => show win2_6.index t (0 : Fin 2) * 256 + 1 * p.val = t.val * 256 + p.val; rw [e60]; omega
    | ⟨1, _⟩ => show win2_6.index t (1 : Fin 2) * 3372 + 1 * q.val = q.val; rw [e61]; omega
  show (outsAt2 V c t).1 (ix2 p q) = (Cert.Spec.feature dv pe (fun j => Cert.Spec.lrelu (ds j + bd (ix1 (j 1 : Fin 1024))))
          (fun j => Cert.Spec.lrelu (ps j + bp (ix1 (j 1 : Fin 1024))))) (((cfg2.win 6).blk t).view.emb (ix2 p q))
  rw [e]
  unfold outsAt2
  dsimp only
  refine (feat_out6_apply c (grid2.coords t) (ms2_0 t) (hs2_0 t) (ms2_1 t) (hs2_1 t) (ms2_2 t) (hs2_2 t) (ms2_3 t) (hs2_3 t)
    (ms2_4 t) (hs2_4 t) (ms2_5 t) (hs2_5 t) (ms2_6 t) (hs2_6 t) (ms2_7 t) (hs2_7 t)
    (iblk2 V c 0 t) (iblk2 V c 1 t) (iblk2 V c 2 t) (iblk2 V c 3 t) (iblk2 V c 4 t) (iblk2 V c 5 t) (ix2 p q)).trans ?_
  exact featBlk_feature t.val ht dv pe ds ps bd bp
    (iblk2 V c 0 t) (iblk2 V c 1 t) (iblk2 V c 2 t) (iblk2 V c 3 t) (iblk2 V c 4 t) (iblk2 V c 5 t)
    (feat_iblk0 V c dv hdv t ht) (feat_iblk1 V c pe hpe t ht) (feat_iblk2 V c ds hds t ht) (feat_iblk3 V c bd hbd t)
    (feat_iblk4 V c ps hps t ht) (feat_iblk5 V c bp hbp t) p q

/-- An index of the array is in point t's block of output window 6 iff each coordinate is in the block's range. -/
theorem feat_mem_blk6 (t : Fin cfg2.N) (i : S2048x3372.Idx) :
    i ∈ ((cfg2.win 6).blk t).view.set ↔ ∀ a : Fin 2, win2_6.index t a * S256x3372.size a ≤ (i a).val
      ∧ (i a).val < win2_6.index t a * S256x3372.size a + S256x3372.size a := by
  show i ∈ ((View.whole main_v102_0).slice (win2_6.rect t)).set ↔ _
  rw [View.set_slice_whole, Rect.mem_set_unit]
  exact Iff.rfl

/-- Every row of the array lies in the row block of the point numbered row / 256, and every point writes back. -/
theorem feat_cover6 (i : S2048x3372.Idx) :
    ∃ t : Fin cfg2.N, (cfg2.win 6).flush t = true ∧ i ∈ ((cfg2.win 6).blk t).view.set := by
  have h0 : (i 0).val < 2048 := (i 0).isLt
  have h1 : (i 1).val < 3372 := (i 1).isLt
  have hN : cfg2.N = 8 := N_2
  refine ⟨⟨(i 0).val / 256, by rw [hN]; omega⟩, flush2_6 _, ?_⟩
  obtain ⟨e00, e01, e10, e11, e20, e21, e30, e31, e40, e41, e50, e51, e60, e61, e70, e71⟩ :=
    feat_idx ⟨(i 0).val / 256, by rw [hN]; omega⟩
  rw [feat_mem_blk6]
  intro a
  match a with
  | ⟨0, _⟩ =>
    show win2_6.index _ (0 : Fin 2) * 256 ≤ (i 0).val ∧ (i 0).val < win2_6.index _ (0 : Fin 2) * 256 + 256
    rw [e60]; show (i 0).val / 256 * 256 ≤ (i 0).val ∧ (i 0).val < (i 0).val / 256 * 256 + 256; omega
  | ⟨1, _⟩ =>
    show win2_6.index _ (1 : Fin 2) * 3372 ≤ (i 1).val ∧ (i 1).val < win2_6.index _ (1 : Fin 2) * 3372 + 3372
    rw [e61]; omega

/-- What point t writes back through output window 7 is row block t of the feature matrix. -/
theorem feat_flushed7 (c : Dev nD) (dv : Cert.Spec.Arr2 2048 300) (pe ds ps : Cert.Spec.Arr2 2048 1024) (bd bp : Cert.Spec.Arr1 1024)
    (hdv : ∀ i, V c (Pipeline.arrRef spec2 0) i = dv i) (hpe : ∀ i, V c (Pipeline.arrRef spec2 1) i = pe i)
    (hds : ∀ i, V c (Pipeline.arrRef spec2 2) i = ds i)
    (hbd : ∀ q : Fin 1024, V c (Pipeline.arrRef spec2 3) (ix2 (0 : Fin 1) q) = bd (ix1 q))
    (hps : ∀ i, V c (Pipeline.arrRef spec2 4) i = ps i)
    (hbp : ∀ q : Fin 1024, V c (Pipeline.arrRef spec2 5) (ix2 (0 : Fin 1) q) = bp (ix1 q)) (t : Fin cfg2.N) :
    (dat2 V c).flushed 7 t = ((cfg2.win 7).blk t).view.read (Elt Ideal)
      (Cert.Spec.feature dv pe (fun j => Cert.Spec.lrelu (ds j + bd (ix1 (j 1 : Fin 1024))))
          (fun j => Cert.Spec.lrelu (ps j + bp (ix1 (j 1 : Fin 1024))))) := by
  have ht : t.val < 8 := Nat.lt_of_lt_of_eq t.isLt (show cfg2.N = 8 from N_2)
  obtain ⟨e00, e01, e10, e11, e20, e21, e30, e31, e40, e41, e50, e51, e60, e61, e70, e71⟩ := feat_idx t
  show (cfg2.win 7).cut (grid2.coords t) ((dat2 V c).after 7 t) = _
  rw [after2_7]
  funext y
  obtain ⟨p, q, rfl⟩ : ∃ (p : Fin 256) (q : Fin 3372), y = ix2 p q := ⟨y 0, y 1, eq_ix2 y⟩
  have e : ((cfg2.win 7).blk t).view.emb (ix2 p q) = ix2 (featRow t.val ht p) q := by
    funext a; apply Fin.ext
    match a with
    | ⟨0, _⟩ => show win2_7.index t (0 : Fin 2) * 256 + 1 * p.val = t.val * 256 + p.val; rw [e70]; omega
    | ⟨1, _⟩ => show win2_7.index t (1 : Fin 2) * 3372 + 1 * q.val = q.val; rw [e71]; omega
  show (outsAt2 V c t).2 (ix2 p q) = (Cert.Spec.feature dv pe (fun j => Cert.Spec.lrelu (ds j + bd (ix1 (j 1 : Fin 1024))))
          (fun j => Cert.Spec.lrelu (ps j + bp (ix1 (j 1 : Fin 1024))))) (((cfg2.win 7).blk t).view.emb (ix2 p q))
  rw [e]
  unfold outsAt2
  dsimp only
  refine (feat_out7_apply c (grid2.coords t) (ms2_0 t) (hs2_0 t) (ms2_1 t) (hs2_1 t) (ms2_2 t) (hs2_2 t) (ms2_3 t) (hs2_3 t)
    (ms2_4 t) (hs2_4 t) (ms2_5 t) (hs2_5 t) (ms2_6 t) (hs2_6 t) (ms2_7 t) (hs2_7 t)
    (iblk2 V c 0 t) (iblk2 V c 1 t) (iblk2 V c 2 t) (iblk2 V c 3 t) (iblk2 V c 4 t) (iblk2 V c 5 t) (ix2 p q)).trans ?_
  exact featBlk_feature t.val ht dv pe ds ps bd bp
    (iblk2 V c 0 t) (iblk2 V c 1 t) (iblk2 V c 2 t) (iblk2 V c 3 t) (iblk2 V c 4 t) (iblk2 V c 5 t)
    (feat_iblk0 V c dv hdv t ht) (feat_iblk1 V c pe hpe t ht) (feat_iblk2 V c ds hds t ht) (feat_iblk3 V c bd hbd t)
    (feat_iblk4 V c ps hps t ht) (feat_iblk5 V c bp hbp t) p q

/-- An index of the array is in point t's block of output window 7 iff each coordinate is in the block's range. -/
theorem feat_mem_blk7 (t : Fin cfg2.N) (i : S2048x3372.Idx) :
    i ∈ ((cfg2.win 7).blk t).view.set ↔ ∀ a : Fin 2, win2_7.index t a * S256x3372.size a ≤ (i a).val
      ∧ (i a).val < win2_7.index t a * S256x3372.size a + S256x3372.size a := by
  show i ∈ ((View.whole main_v102_1).slice (win2_7.rect t)).set ↔ _
  rw [View.set_slice_whole, Rect.mem_set_unit]
  exact Iff.rfl

/-- Every row of the array lies in the row block of the point numbered row / 256, and every point writes back. -/
theorem feat_cover7 (i : S2048x3372.Idx) :
    ∃ t : Fin cfg2.N, (cfg2.win 7).flush t = true ∧ i ∈ ((cfg2.win 7).blk t).view.set := by
  have h0 : (i 0).val < 2048 := (i 0).isLt
  have h1 : (i 1).val < 3372 := (i 1).isLt
  have hN : cfg2.N = 8 := N_2
  refine ⟨⟨(i 0).val / 256, by rw [hN]; omega⟩, flush2_7 _, ?_⟩
  obtain ⟨e00, e01, e10, e11, e20, e21, e30, e31, e40, e41, e50, e51, e60, e61, e70, e71⟩ :=
    feat_idx ⟨(i 0).val / 256, by rw [hN]; omega⟩
  rw [feat_mem_blk7]
  intro a
  match a with
  | ⟨0, _⟩ =>
    show win2_7.index _ (0 : Fin 2) * 256 ≤ (i 0).val ∧ (i 0).val < win2_7.index _ (0 : Fin 2) * 256 + 256
    rw [e70]; show (i 0).val / 256 * 256 ≤ (i 0).val ∧ (i 0).val < (i 0).val / 256 * 256 + 256; omega
  | ⟨1, _⟩ =>
    show win2_7.index _ (1 : Fin 2) * 3372 ≤ (i 1).val ∧ (i 1).val < win2_7.index _ (1 : Fin 2) * 3372 + 3372
    rw [e71]; omega

/-! ## The two output arrays after the region -/

/-- The f32 output array after the region is the feature matrix of the six input arrays, entry by entry. -/
theorem region2_val_f32 (c : Dev nD) (dv : Cert.Spec.Arr2 2048 300) (pe ds ps : Cert.Spec.Arr2 2048 1024) (bd bp : Cert.Spec.Arr1 1024)
    (hdv : ∀ i, V c (Pipeline.arrRef spec2 0) i = dv i) (hpe : ∀ i, V c (Pipeline.arrRef spec2 1) i = pe i)
    (hds : ∀ i, V c (Pipeline.arrRef spec2 2) i = ds i)
    (hbd : ∀ q : Fin 1024, V c (Pipeline.arrRef spec2 3) (ix2 (0 : Fin 1) q) = bd (ix1 q))
    (hps : ∀ i, V c (Pipeline.arrRef spec2 4) i = ps i)
    (hbp : ∀ q : Fin 1024, V c (Pipeline.arrRef spec2 5) (ix2 (0 : Fin 1) q) = bp (ix1 q)) :
    ∀ i, (dat2 V c).arrAt 6 cfg2.N i
      = Cert.Spec.feature dv pe (fun j => Cert.Spec.lrelu (ds j + bd (ix1 (j 1 : Fin 1024))))
          (fun j => Cert.Spec.lrelu (ps j + bp (ix1 (j 1 : Fin 1024)))) i :=
  fun i => congrFun ((dat2 V c).arrAt_eq_of_cover 6
      (Cert.Spec.feature dv pe (fun j => Cert.Spec.lrelu (ds j + bd (ix1 (j 1 : Fin 1024))))
          (fun j => Cert.Spec.lrelu (ps j + bp (ix1 (j 1 : Fin 1024)))))
      (fun t _ => feat_flushed6 V c dv pe ds ps bd bp hdv hpe hds hbd hps hbp t) feat_cover6) i

/-- The bf16 output array after the region holds the same extended reals. -/
theorem region2_val_bf16 (c : Dev nD) (dv : Cert.Spec.Arr2 2048 300) (pe ds ps : Cert.Spec.Arr2 2048 1024) (bd bp : Cert.Spec.Arr1 1024)
    (hdv : ∀ i, V c (Pipeline.arrRef spec2 0) i = dv i) (hpe : ∀ i, V c (Pipeline.arrRef spec2 1) i = pe i)
    (hds : ∀ i, V c (Pipeline.arrRef spec2 2) i = ds i)
    (hbd : ∀ q : Fin 1024, V c (Pipeline.arrRef spec2 3) (ix2 (0 : Fin 1) q) = bd (ix1 q))
    (hps : ∀ i, V c (Pipeline.arrRef spec2 4) i = ps i)
    (hbp : ∀ q : Fin 1024, V c (Pipeline.arrRef spec2 5) (ix2 (0 : Fin 1) q) = bp (ix1 q)) :
    ∀ i, (dat2 V c).arrAt 7 cfg2.N i
      = Cert.Spec.feature dv pe (fun j => Cert.Spec.lrelu (ds j + bd (ix1 (j 1 : Fin 1024))))
          (fun j => Cert.Spec.lrelu (ps j + bp (ix1 (j 1 : Fin 1024)))) i :=
  fun i => congrFun ((dat2 V c).arrAt_eq_of_cover 7
      (Cert.Spec.feature dv pe (fun j => Cert.Spec.lrelu (ds j + bd (ix1 (j 1 : Fin 1024))))
          (fun j => Cert.Spec.lrelu (ps j + bp (ix1 (j 1 : Fin 1024)))))
      (fun t _ => feat_flushed7 V c dv pe ds ps bd bp hdv hpe hds hbd hps hbp t) feat_cover7) i

end Cert.KernelIdeal.RV

end
-- ==== Proof.KTake.lean ====
/-
  WHAT THE TWO ROW TAKES READ. Each take of rows of a matrix x at a vector a of 2048 node indices is, operation by
  operation: a negative index gets the row count N added; the indices are laid as a [2048, 1] column; a row's index is
  in bounds when 0 ≤ it ≤ N − 1; the rows of x named by the column are gathered (the start index clamped into
  [0, N − 1]); and a row whose index is out of bounds is replaced by a fill value. For an index word whose value is
  below N (so not negative, as N ≤ 2³¹) nothing is added, the in-bounds test holds, the clamp is the identity, and the
  result's element (e, j) is x at (a e, j).
-/
import proofs.«402148_j44985487458808_3_alg».proof.Proof.Gen.KernelIdeal.Launch
import proofs.«402148_j44985487458808_3_alg».proof.Proof.Spec
import proofs.«402148_j44985487458808_3_alg».proof.Proof.LibGatherScatter
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.Lib.Affine

noncomputable section

namespace Cert.KernelIdeal.KTake

open Idealize.ShloMosaic Idealize.ShloMosaic.TcCoe Idealize.SL.Sem Idealize.ShloMosaic.StableHlo Idealize.ShloMosaic.ValueIdx
open Idealize.ShloMosaic.StableHlo.Predicate Idealize.ShloMosaic.RowOps
open Cert.KernelIdeal Cert.KernelIdeal.Gen Cert.Spec

/-! ## The take as one function of the matrix and the index vector -/

/-- The index column: each index, plus the row count where it is negative, as a [2048, 1] column. -/
def wrapCol (Nw : BitVec 32) (a : S2048.Idx → BitVec 32) : S2048x1.Idx → BitVec 32 :=
  broadcastInDim S2048x1 ![0] bcast_S2048_S2048x1_0
    (select (cmpi .slt a (broadcastInDim S2048 ![] bcast_S_S2048 (constantI S_ 32 0#32)))
      (addi a (broadcastInDim S2048 ![] bcast_S_S2048 (constantI S_ 32 Nw))) a)

/-- The in-bounds test of each row of the column: 0 ≤ index and index ≤ hi, the conjunction taken along the row. -/
def inRange (hi : BitVec 32) (col : S2048x1.Idx → BitVec 32) : S2048.Idx → BitVec 1 :=
  Host.reduce IntOp.andi
    (andi (cmpi .sge col (broadcastInDim S2048x1 ![] bcast_S_S2048x1 (constantI S_ 32 0#32)))
      (cmpi .sle col (broadcastInDim S2048x1 ![0, 1] bcast_S1x1_S2048x1_0_1
        (broadcastInDim S1x1 ![1] bcast_S1_S1x1_1 (constantI S1 32 hi)))))
    (constantI S_ 1 1#1) reducesTo_S2048x1_S2048_d1 h_S_

/-- The take: the gathered rows where the index is in bounds, the fill value elsewhere. -/
def takeOf {N : ℕ} (Nw hi : BitVec 32) (d : GatherDims ⟨2, ![N, 1024]⟩ S2048x1 S2048x1024)
    (x : (⟨2, ![N, 1024]⟩ : Shape).Idx → EReal) (a : S2048.Idx → BitVec 32) : S2048x1024.Idx → EReal :=
  select (broadcastInDim S2048x1024 ![0] bcast_S2048_S2048x1024_0 (inRange hi (wrapCol Nw a)))
    (Host.gather d x (wrapCol Nw a))
    (broadcastInDim S2048x1024 ![] bcast_S_S2048x1024 (constant (F := Ideal) S_ .f32 0x7FC00000#32))

/-! ## Read at an index -/

/-- Every index of an [n, 1] column is a row's. -/
theorem eq_ixP {n : Nat} (j : (⟨2, ![n, 1]⟩ : Shape).Idx) : j = ixP (j 0) := by
  funext a
  match a with
  | ⟨0, _⟩ => rfl
  | ⟨1, _⟩ =>
    apply Fin.ext
    have h : (j 1).val < 1 := (j 1).isLt
    show (j 1).val = 0
    omega

/-- A vector laid along the first axis of an [n, m] rectangle reads, at (p, q), the vector at p. -/
theorem bcast_row0 {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- A non-negative index is left as it is: row k of the column is the vector's entry k. -/
theorem wrapCol_apply (Nw : BitVec 32) (a : S2048.Idx → BitVec 32) (k : Fin 2048) (h : (a (ix1 k)).toNat < 2 ^ 31) :
    wrapCol Nw a (ixP k) = a (ix1 k) := by
  unfold wrapCol
  rw [bcast_col1, ofFin_eq_ix1]
  show Scalar.select (IntOp.cmpi .slt (a (ix1 k)) 0#32) (IntOp.addi (a (ix1 k)) Nw) (a (ix1 k)) = a (ix1 k)
  have hc : ¬ IntOp.cmpi .slt (a (ix1 k)) 0#32 = 1#1 := by
    rw [slt_iff_toNat h (by decide)]
    exact Nat.not_lt_zero _
  unfold Scalar.select
  exact if_neg hc

/-- A conjunction of ones, folded from one, is one. -/
theorem foldl_andi_one {ι : Type} (f : ι → BitVec 1) (hf : ∀ j, f j = 1#1) :
    ∀ l : List ι, l.foldl (fun r j => IntOp.andi r (f j)) 1#1 = 1#1
  | [] => rfl
  | b :: l => by
    rw [List.foldl_cons, hf b, show IntOp.andi 1#1 1#1 = (1#1 : BitVec 1) from by decide]
    exact foldl_andi_one f hf l

/-- When every index of the column lies in [0, hi], every row passes the in-bounds test. -/
theorem inRange_eq_one (hi : BitVec 32) (col : S2048x1.Idx → BitVec 32) (hhi : hi.toNat < 2 ^ 31)
    (h : ∀ k : Fin 2048, (col (ixP k)).toNat ≤ hi.toNat) (p : S2048.Idx) : inRange hi col p = 1#1 := by
  unfold inRange
  rw [Host.reduce_eq_foldl]
  refine foldl_andi_one _ (fun j => ?_) _
  obtain ⟨k, rfl⟩ : ∃ k : Fin 2048, j = ixP k := ⟨j 0, eq_ixP j⟩
  show IntOp.andi (IntOp.cmpi .sge (col (ixP k)) 0#32) (IntOp.cmpi .sle (col (ixP k)) hi) = 1#1
  have hc : (col (ixP k)).toNat < 2 ^ 31 := Nat.lt_of_le_of_lt (h k) hhi
  rw [IntOp.andi_eq_one]
  exact ⟨(sge_iff_toNat hc (by decide)).2 (Nat.zero_le _), (sle_iff_toNat hc hhi).2 (h k)⟩

/-- THE TAKE AT AN INDEX. With every index word below the row count N ≤ 2³¹, element (e, j) of the take is the matrix
    at (the row index e names, j). -/
theorem takeOf_apply {N : ℕ} (hN : 0 < N) (hN' : N ≤ 2 ^ 31) (Nw hi : BitVec 32) (hhi : hi.toNat = N - 1)
    (d : GatherDims ⟨2, ![N, 1024]⟩ S2048x1 S2048x1024)
    (hoff : d.offsetDims = [1]) (hcoll : d.collapsedSliceDims = [0]) (hob : d.operandBatchingDims = [])
    (hsim : d.startIndexMap = [0]) (hivd : d.indexVectorDim = 1) (hss : d.sliceSizes = ![1, 1024])
    (x : (⟨2, ![N, 1024]⟩ : Shape).Idx → EReal) (a : S2048.Idx → BitVec 32)
    (ha : ∀ k : Fin 2048, (a (ix1 k)).toNat < N) (e : Fin 2048) (j : Fin 1024) :
    takeOf Nw hi d x a (ix2 e j) = x (ix2 (rowOf N hN (a (ix1 e))) j) := by
  have hcol : ∀ k : Fin 2048, wrapCol Nw a (ixP k) = a (ix1 k) := fun k =>
    wrapCol_apply Nw a k (Nat.lt_of_lt_of_le (ha k) hN')
  have hmask : inRange hi (wrapCol Nw a) (ix1 e) = 1#1 :=
    inRange_eq_one hi _ (by omega) (fun k => by rw [hcol k, hhi]; have := ha k; omega) _
  have hrow : clampRow N hN (wrapCol Nw a) e = rowOf N hN (a (ix1 e)) := by
    apply Fin.ext
    show min (wrapCol Nw a (ixP e)).toInt.toNat (N - 1) = (a (ix1 e)).toNat % N
    rw [hcol e, toInt_eq_toNat_of_lt (Nat.lt_of_lt_of_le (ha e) hN'), Int.toNat_natCast, Nat.mod_eq_of_lt (ha e)]
    have := ha e
    omega
  unfold takeOf
  show Scalar.select (broadcastInDim S2048x1024 ![0] bcast_S2048_S2048x1024_0 (inRange hi (wrapCol Nw a)) (ix2 e j))
      (Host.gather d x (wrapCol Nw a) (ix2 e j)) _ = _
  rw [bcast_row0, hmask, gather_rows d hoff hcoll hob hsim hivd hss x (wrapCol Nw a) e j hN, hrow]
  rfl

/-! ## The two calls -/

/-- The first take's result buffer after its operations: the take of the aggregated matrix at the first index vector. -/
theorem v49_eq (V : Valuation τ sig (Elt Ideal)) :
    (after (hostOps1_1 (F := Ideal)) V (Proc.devRef .tc main_v49) : S2048x1024.Idx → EReal)
      = takeOf 10000#32 9999#32 gather_S10000x1024_S2048x1_S2048x1024_1_0_n_n_0_1_11024
          (V (Proc.devRef .tc main_v48) : S10000x1024.Idx → EReal) (V (Proc.devRef .tc main_arg0) : S2048.Idx → BitVec 32) := by
  after_results_simp
  rfl

/-- The second take's result buffer after its operations. -/
theorem v99_eq (V : Valuation τ sig (Elt Ideal)) :
    (after (hostOps2_1 (F := Ideal)) V (Proc.devRef .tc main_v99) : S2048x1024.Idx → EReal)
      = takeOf 5000#32 4999#32 gather_S5000x1024_S2048x1_S2048x1024_1_0_n_n_0_1_11024
          (V (Proc.devRef .tc main_v98) : S5000x1024.Idx → EReal) (V (Proc.devRef .tc main_arg1) : S2048.Idx → BitVec 32) := by
  after_results_simp
  rfl

/-- The first take reads, at (e, j), the aggregated matrix at (the node index e names, j). -/
theorem take_d (V : Valuation τ sig (Elt Ideal))
    (hidx : ∀ k : Fin 2048, ((V (Proc.devRef .tc main_arg0) : S2048.Idx → BitVec 32) (ix1 k)).toNat < 10000) :
    ∀ i : S2048x1024.Idx, (after (hostOps1_1 (F := Ideal)) V (Proc.devRef .tc main_v49) : S2048x1024.Idx → EReal) i
      = (V (Proc.devRef .tc main_v48) : S10000x1024.Idx → EReal)
          (ix2 (Cert.Spec.rowOf 10000 (by decide) ((V (Proc.devRef .tc main_arg0) : S2048.Idx → BitVec 32) (ix1 (i 0 : Fin 2048))))
            (i 1 : Fin 1024)) := by
  intro i
  rw [v49_eq V]
  obtain ⟨e, j, rfl⟩ : ∃ (e : Fin 2048) (j : Fin 1024), i = ix2 e j := ⟨i 0, i 1, eq_ix2 i⟩
  exact takeOf_apply (by decide) (by decide) 10000#32 9999#32 (by decide) _ rfl rfl rfl rfl rfl rfl _ _ hidx e j

/-- The second take reads, at (e, j), its aggregated matrix at (the node index e names, j). -/
theorem take_p (V : Valuation τ sig (Elt Ideal))
    (hidx : ∀ k : Fin 2048, ((V (Proc.devRef .tc main_arg1) : S2048.Idx → BitVec 32) (ix1 k)).toNat < 5000) :
    ∀ i : S2048x1024.Idx, (after (hostOps2_1 (F := Ideal)) V (Proc.devRef .tc main_v99) : S2048x1024.Idx → EReal) i
      = (V (Proc.devRef .tc main_v98) : S5000x1024.Idx → EReal)
          (ix2 (Cert.Spec.rowOf 5000 (by decide) ((V (Proc.devRef .tc main_arg1) : S2048.Idx → BitVec 32) (ix1 (i 0 : Fin 2048))))
            (i 1 : Fin 1024)) := by
  intro i
  rw [v99_eq V]
  obtain ⟨e, j, rfl⟩ : ∃ (e : Fin 2048) (j : Fin 1024), i = ix2 e j := ⟨i 0, i 1, eq_ix2 i⟩
  exact takeOf_apply (by decide) (by decide) 5000#32 4999#32 (by decide) _ rfl rfl rfl rfl rfl rfl _ _ hidx e j

end Cert.KernelIdeal.KTake

end
-- ==== Proof.KChainFeat.lean ====
/-
  Region 2's two outputs at its exit, as terms of the launch memory and of the two aggregated matrices.

  Region 2 reads six arrays. Two are arguments, and an argument buffer holds its launch contents at every boundary. Two
  are the bias vectors laid as one row by the last stretch before the region. The other two are the blocks of selected
  rows: each is written by one row take (row e of the result is the row of the aggregated matrix that the e-th node
  index names, for an index below the row count) and by no later operation before the region, so at the region's entry
  it still holds the take's result. With these six, the region's value theorem gives the feature matrix, and a selected
  block plus its bias through the leaky rectifier is the specification's selection term entry by entry.
-/
import proofs.«402148_j44985487458808_3_alg».proof.Proof.KGlueArgs
import proofs.«402148_j44985487458808_3_alg».proof.Proof.KFeat
import proofs.«402148_j44985487458808_3_alg».proof.Proof.KTake
import proofs.«402148_j44985487458808_3_alg».proof.Proof.Spec
import Idealize.ShloMosaic.Lib.Pipeline.Value
import Idealize.ShloMosaic.Lib.ValueIdx
import Idealize.ShloMosaic.Lib.ValueLayout

noncomputable section

namespace Cert.KernelIdeal.KG

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## The six input arrays as region 2 finds them -/

/-- The first block of selected rows, written by the first take, is not written again before region 2. -/
theorem cf_v49_keep (c : Dev nD) :
    W17 m ρ c (Proc.devRef .tc main_v49) = W8 m ρ c (Proc.devRef .tc main_v49) := by
  have s9 : W9 m ρ c (Proc.devRef .tc main_v49) = W8 m ρ c (Proc.devRef .tc main_v49) := by kkeep hostOps1_2
  have s10 : W10 m ρ c (Proc.devRef .tc main_v49) = W9 m ρ c (Proc.devRef .tc main_v49) := by kkeep hostOps1_3
  have s11 : W11 m ρ c (Proc.devRef .tc main_v49) = W10 m ρ c (Proc.devRef .tc main_v49) := by kkeep hostOps1_4
  have s12 : W12 m ρ c (Proc.devRef .tc main_v49) = W11 m ρ c (Proc.devRef .tc main_v49) := by kkeep hostOps1_5
  have s13 : W13 m ρ c (Proc.devRef .tc main_v49) = W12 m ρ c (Proc.devRef .tc main_v49) := by kkeep hostOps1_6
  have s14 : W14 m ρ c (Proc.devRef .tc main_v49) = W13 m ρ c (Proc.devRef .tc main_v49) :=
    W14_of_ne m ρ c main_v49 (by decide)
  have s15 : W15 m ρ c (Proc.devRef .tc main_v49) = W14 m ρ c (Proc.devRef .tc main_v49) := by kkeep hostOps2
  have s16 : W16 m ρ c (Proc.devRef .tc main_v49) = W15 m ρ c (Proc.devRef .tc main_v49) := by kkeep hostOps2_1
  have s17 : W17 m ρ c (Proc.devRef .tc main_v49) = W16 m ρ c (Proc.devRef .tc main_v49) := by kkeep hostOps2_2
  exact s17.trans (s16.trans (s15.trans (s14.trans (s13.trans (s12.trans (s11.trans (s10.trans s9)))))))

/-- The second block of selected rows, written by the second take, is not written again before region 2. -/
theorem cf_v99_keep (c : Dev nD) :
    W17 m ρ c (Proc.devRef .tc main_v99) = W16 m ρ c (Proc.devRef .tc main_v99) := by kkeep hostOps2_2

/-- From any contents, the last stretch before region 2 lays the first bias vector as one row; -/
theorem cf_row100 (V : Valuation τ sig (Elt Ideal)) (q : Fin 1024) :
    (StableHlo.after (hostOps2_2 (F := Ideal)) V (Proc.devRef .tc main_v100) : S1x1024.Idx → EReal) (ix2 (0 : Fin 1) q)
      = (V (Proc.devRef .tc main_arg11) : S1024.Idx → EReal) (ix1 q) := by
  have e : StableHlo.after (hostOps2_2 (F := Ideal)) V (Proc.devRef .tc main_v100)
      = shapeCast S1x1024 (V (Proc.devRef .tc main_arg11) : S1024.Idx → EReal) shapeCasts_S1024_S1x1024 := by
    after_results
    rfl
  rw [e]
  exact shapeCast_a_1a_apply _ _ (0 : Fin 1) q

/-- and the second. -/
theorem cf_row101 (V : Valuation τ sig (Elt Ideal)) (q : Fin 1024) :
    (StableHlo.after (hostOps2_2 (F := Ideal)) V (Proc.devRef .tc main_v101) : S1x1024.Idx → EReal) (ix2 (0 : Fin 1) q)
      = (V (Proc.devRef .tc main_arg13) : S1024.Idx → EReal) (ix1 q) := by
  have e : StableHlo.after (hostOps2_2 (F := Ideal)) V (Proc.devRef .tc main_v101)
      = shapeCast S1x1024 (V (Proc.devRef .tc main_arg13) : S1024.Idx → EReal) shapeCasts_S1024_S1x1024 := by
    after_results
    rfl
  rw [e]
  exact shapeCast_a_1a_apply _ _ (0 : Fin 1) q

/-- The first bias row as region 2 finds it: the bias vector of the launch memory, laid as one row. -/
theorem cf_v100 (c : Dev nD) (q : Fin 1024) :
    W17 m ρ c (Proc.devRef .tc main_v100) (ix2 (0 : Fin 1) q) = m ((c : Thread nD τ).loc main_arg11) (ix1 q) :=
  (cf_row100 (W16 m ρ c) q).trans (congrFun (argAt16 m ρ c main_arg11 (by decide)) (ix1 q))

/-- The second bias row as region 2 finds it. -/
theorem cf_v101 (c : Dev nD) (q : Fin 1024) :
    W17 m ρ c (Proc.devRef .tc main_v101) (ix2 (0 : Fin 1) q) = m ((c : Thread nD τ).loc main_arg13) (ix1 q) :=
  (cf_row101 (W16 m ρ c) q).trans (congrFun (argAt16 m ρ c main_arg13 (by decide)) (ix1 q))

/-- The first block of selected rows as region 2 finds it: row e is the row of the first aggregated matrix that the
    e-th node index of the launch memory names. -/
theorem cf_v49 (c : Dev nD) (hd : ∀ k : Fin 2048, (m ((c : Thread nD τ).loc main_arg0) (ix1 k)).toNat < 10000) (i : S2048x1024.Idx) :
    W17 m ρ c (Proc.devRef .tc main_v49) i
      = (W7 m ρ c (Proc.devRef .tc main_v48) : S10000x1024.Idx → EReal)
          (ix2 (Cert.Spec.rowOf 10000 (by decide) (m ((c : Thread nD τ).loc main_arg0) (ix1 (i 0 : Fin 2048)))) (i 1 : Fin 1024)) := by
  have ea : W7 m ρ c (Proc.devRef .tc main_arg0) = m ((c : Thread nD τ).loc main_arg0) := argAt7 m ρ c main_arg0 (by decide)
  have hidx : ∀ k : Fin 2048, ((W7 m ρ c (Proc.devRef .tc main_arg0) : S2048.Idx → BitVec 32) (ix1 k)).toNat < 10000 := by
    intro k; rw [ea]; exact hd k
  refine (congrFun (cf_v49_keep m ρ c) i).trans ?_
  refine (KTake.take_d (W7 m ρ c) hidx i).trans ?_
  rw [ea]

/-- The second block of selected rows as region 2 finds it, the same way from the second aggregated matrix. -/
theorem cf_v99 (c : Dev nD) (hp : ∀ k : Fin 2048, (m ((c : Thread nD τ).loc main_arg1) (ix1 k)).toNat < 5000) (i : S2048x1024.Idx) :
    W17 m ρ c (Proc.devRef .tc main_v99) i
      = (W15 m ρ c (Proc.devRef .tc main_v98) : S5000x1024.Idx → EReal)
          (ix2 (Cert.Spec.rowOf 5000 (by decide) (m ((c : Thread nD τ).loc main_arg1) (ix1 (i 0 : Fin 2048)))) (i 1 : Fin 1024)) := by
  have ea : W15 m ρ c (Proc.devRef .tc main_arg1) = m ((c : Thread nD τ).loc main_arg1) := argAt15 m ρ c main_arg1 (by decide)
  have hidx : ∀ k : Fin 2048, ((W15 m ρ c (Proc.devRef .tc main_arg1) : S2048.Idx → BitVec 32) (ix1 k)).toNat < 5000 := by
    intro k; rw [ea]; exact hp k
  refine (congrFun (cf_v99_keep m ρ c) i).trans ?_
  refine (KTake.take_p (W15 m ρ c) hidx i).trans ?_
  rw [ea]

/-! ## Region 2's two outputs at its exit -/

/-- The f32 feature matrix at region 2's exit: the two argument matrices side by side with the two blocks of rows selected from the aggregated matrices, each plus its bias and through the leaky rectifier. -/
theorem feat_f32 (c : Dev nD) (hd : ∀ k : Fin 2048, (m ((c : Thread nD τ).loc main_arg0) (ix1 k)).toNat < 10000)
    (hp : ∀ k : Fin 2048, (m ((c : Thread nD τ).loc main_arg1) (ix1 k)).toNat < 5000) :
    ∀ i, W18 m ρ c (Proc.devRef .tc main_v102_0) i
      = Cert.Spec.feature (m ((c : Thread nD τ).loc main_arg2)) (m ((c : Thread nD τ).loc main_arg3))
          (Cert.Spec.sel (N := 10000) (by decide) (W7 m ρ c (Proc.devRef .tc main_v48)) (m ((c : Thread nD τ).loc main_arg11))
              (m ((c : Thread nD τ).loc main_arg0)))
          (Cert.Spec.sel (N := 5000) (by decide) (W15 m ρ c (Proc.devRef .tc main_v98)) (m ((c : Thread nD τ).loc main_arg13))
              (m ((c : Thread nD τ).loc main_arg1))) i := by
  intro i
  refine (congrFun (W18_arr m ρ c 6) i).trans ?_
  exact RV.region2_val_f32 (V17 m ρ) c (m ((c : Thread nD τ).loc main_arg2)) (m ((c : Thread nD τ).loc main_arg3))
    (fun j => (W7 m ρ c (Proc.devRef .tc main_v48) : S10000x1024.Idx → EReal)
      (ix2 (Cert.Spec.rowOf 10000 (by decide) (m ((c : Thread nD τ).loc main_arg0) (ix1 (j 0 : Fin 2048)))) (j 1 : Fin 1024)))
    (fun j => (W15 m ρ c (Proc.devRef .tc main_v98) : S5000x1024.Idx → EReal)
      (ix2 (Cert.Spec.rowOf 5000 (by decide) (m ((c : Thread nD τ).loc main_arg1) (ix1 (j 0 : Fin 2048)))) (j 1 : Fin 1024)))
    (m ((c : Thread nD τ).loc main_arg11)) (m ((c : Thread nD τ).loc main_arg13))
    (fun j => congrFun (argAt17 m ρ c main_arg2 (by decide)) j)
    (fun j => congrFun (argAt17 m ρ c main_arg3 (by decide)) j)
    (fun j => cf_v49 m ρ c hd j)
    (fun q => cf_v100 m ρ c q)
    (fun j => cf_v99 m ρ c hp j)
    (fun q => cf_v101 m ρ c q) i

/-- The bf16 feature matrix at region 2's exit holds the same extended reals. -/
theorem feat_bf16 (c : Dev nD) (hd : ∀ k : Fin 2048, (m ((c : Thread nD τ).loc main_arg0) (ix1 k)).toNat < 10000)
    (hp : ∀ k : Fin 2048, (m ((c : Thread nD τ).loc main_arg1) (ix1 k)).toNat < 5000) :
    ∀ i, W18 m ρ c (Proc.devRef .tc main_v102_1) i
      = Cert.Spec.feature (m ((c : Thread nD τ).loc main_arg2)) (m ((c : Thread nD τ).loc main_arg3))
          (Cert.Spec.sel (N := 10000) (by decide) (W7 m ρ c (Proc.devRef .tc main_v48)) (m ((c : Thread nD τ).loc main_arg11))
              (m ((c : Thread nD τ).loc main_arg0)))
          (Cert.Spec.sel (N := 5000) (by decide) (W15 m ρ c (Proc.devRef .tc main_v98)) (m ((c : Thread nD τ).loc main_arg13))
              (m ((c : Thread nD τ).loc main_arg1))) i := by
  intro i
  refine (congrFun (W18_arr m ρ c 7) i).trans ?_
  exact RV.region2_val_bf16 (V17 m ρ) c (m ((c : Thread nD τ).loc main_arg2)) (m ((c : Thread nD τ).loc main_arg3))
    (fun j => (W7 m ρ c (Proc.devRef .tc main_v48) : S10000x1024.Idx → EReal)
      (ix2 (Cert.Spec.rowOf 10000 (by decide) (m ((c : Thread nD τ).loc main_arg0) (ix1 (j 0 : Fin 2048)))) (j 1 : Fin 1024)))
    (fun j => (W15 m ρ c (Proc.devRef .tc main_v98) : S5000x1024.Idx → EReal)
      (ix2 (Cert.Spec.rowOf 5000 (by decide) (m ((c : Thread nD τ).loc main_arg1) (ix1 (j 0 : Fin 2048)))) (j 1 : Fin 1024)))
    (m ((c : Thread nD τ).loc main_arg11)) (m ((c : Thread nD τ).loc main_arg13))
    (fun j => congrFun (argAt17 m ρ c main_arg2 (by decide)) j)
    (fun j => congrFun (argAt17 m ρ c main_arg3 (by decide)) j)
    (fun j => cf_v49 m ρ c hd j)
    (fun q => cf_v100 m ρ c q)
    (fun j => cf_v99 m ρ c hp j)
    (fun q => cf_v101 m ρ c q) i

end Cert.KernelIdeal.KG

end
-- ==== Proof.KPrep.lean ====
import proofs.«402148_j44985487458808_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal

/-!
# What the operand-preparing host stretches hold, read at an index

Between two regions the program prepares the next region's operands by a few layout and format operations:
a narrowing of the float format, a vector laid out as one row, a slice from the origin, a padding at the
high end. Over the extended reals each of these reads, at an index, ONE entry of its operand (or the padding
value): this module states which, stretch by stretch, for an arbitrary valuation `V` of the buffers before
the stretch.
-/

noncomputable section
namespace Cert.KernelIdeal.KPrep
open Idealize.ShloMosaic Idealize.ShloMosaic.TcCoe Idealize.SL.Sem Idealize.ShloMosaic.StableHlo Idealize.ShloMosaic.ValueIdx
open Cert.KernelIdeal Cert.KernelIdeal.Gen

/-! ## The layout operations read at an index, over arrays of any extents

Each lemma reads one operation at an index given by its coordinates and names the operand's entry it holds. -/

section Generic
variable {α : Type}

/-- A vector of `n` entries laid out as one row: entry `(0, q)` of the row is entry `q` of the vector (both sit at
    row-major position `q`). -/
theorem oneRow_apply {n : Nat} (x : (⟨1, ![n]⟩ : Shape).Idx → α)
    (h : (⟨1, ![n]⟩ : Shape).ShapeCasts ⟨2, ![1, n]⟩) (q : Fin n) :
    shapeCast ⟨2, ![1, n]⟩ x h (ix2 (0 : Fin 1) q) = x (ix1 q) :=
  (shapeCast_addUnit_apply ![n] x h (ix2 (0 : Fin 1) q)).trans
    (congrArg x (funext fun a => match a with | ⟨0, _⟩ => rfl))

/-- A slice of a matrix that starts at the origin holds, at `(p, q)`, the matrix's entry `(p, q)`. -/
theorem originSlice2_apply {m n m' n' : Nat} (x : (⟨2, ![m, n]⟩ : Shape).Idx → α)
    (h : (⟨2, ![m, n]⟩ : Shape).Slices (![0, 0] : Fin 2 → Nat) ⟨2, ![m', n']⟩) (p : Fin m') (q : Fin n')
    (hp : p.val < m) (hq : q.val < n) :
    extractStridedSlice ⟨2, ![m', n']⟩ (![0, 0] : Fin 2 → Nat) x h (ix2 p q)
      = x (ix2 (⟨p.val, hp⟩ : Fin m) (⟨q.val, hq⟩ : Fin n)) :=
  extractStridedSlice_apply (![0, 0] : Fin 2 → Nat) x h (ix2 p q) _ fun a =>
    match a with
    | ⟨0, _⟩ => (Nat.zero_add _).symm
    | ⟨1, _⟩ => (Nat.zero_add _).symm

/-- A matrix padded at the high end of its axes only (no low padding, no interior padding) holds, at an index
    `(p, q)` inside the matrix's own extent, the matrix's entry `(p, q)`: the padding value is not read. -/
theorem highPad2_apply {m n m' n' a b : Nat} (x : (⟨2, ![m, n]⟩ : Shape).Idx → α) {u : Shape} (v : u.Idx → α)
    (h : (⟨2, ![m, n]⟩ : Shape).Pads (![0, 0] : Fin 2 → Nat) ![a, b] ![0, 0] ⟨2, ![m', n']⟩) (hu : 0 < u.numel)
    (p : Fin m') (q : Fin n') (hp : p.val < m) (hq : q.val < n) :
    pad ⟨2, ![m', n']⟩ (![0, 0] : Fin 2 → Nat) ![a, b] ![0, 0] x v h hu (ix2 p q)
      = x (ix2 (⟨p.val, hp⟩ : Fin m) (⟨q.val, hq⟩ : Fin n)) :=
  pad_apply_of_inside (![0, 0] : Fin 2 → Nat) ![a, b] ![0, 0] x v h hu (ix2 p q) _ fun c =>
    match c with
    | ⟨0, _⟩ => by show p.val = 0 + p.val * (0 + 1); omega
    | ⟨1, _⟩ => by show q.val = 0 + q.val * (0 + 1); omega

/-- The same for a vector padded at its high end. -/
theorem highPad1_apply {n n' a : Nat} (x : (⟨1, ![n]⟩ : Shape).Idx → α) {u : Shape} (v : u.Idx → α)
    (h : (⟨1, ![n]⟩ : Shape).Pads (![0] : Fin 1 → Nat) ![a] ![0] ⟨1, ![n']⟩) (hu : 0 < u.numel)
    (q : Fin n') (hq : q.val < n) :
    pad ⟨1, ![n']⟩ (![0] : Fin 1 → Nat) ![a] ![0] x v h hu (ix1 q) = x (ix1 (⟨q.val, hq⟩ : Fin n)) :=
  pad_apply_of_inside (![0] : Fin 1 → Nat) ![a] ![0] x v h hu (ix1 q) _ fun c =>
    match c with
    | ⟨0, _⟩ => by show q.val = 0 + q.val * (0 + 1); omega

/-- A matrix padded at the high end holds the padding value at every row past the matrix's last. -/
theorem highPad2_apply_past {m n m' n' a b : Nat} (x : (⟨2, ![m, n]⟩ : Shape).Idx → α) {u : Shape} (v : u.Idx → α)
    (h : (⟨2, ![m, n]⟩ : Shape).Pads (![0, 0] : Fin 2 → Nat) ![a, b] ![0, 0] ⟨2, ![m', n']⟩) (hu : 0 < u.numel)
    (p : Fin m') (q : Fin n') (hp : m ≤ p.val) :
    pad ⟨2, ![m', n']⟩ (![0, 0] : Fin 2 → Nat) ![a, b] ![0, 0] x v h hu (ix2 p q) = v (Shape.Idx.first hu) :=
  pad_apply_of_not_inside (![0, 0] : Fin 2 → Nat) ![a, b] ![0, 0] x v h hu (ix2 p q) (⟨0, by decide⟩ : Fin 2) (by
    show ¬(0 ≤ p.val ∧ (p.val - 0) % (0 + 1) = 0 ∧ (p.val - 0) / (0 + 1) < m)
    rintro ⟨_, _, h3⟩
    rw [Nat.sub_zero, Nat.zero_add, Nat.div_one] at h3
    omega)

end Generic

/-! ## A narrowing of the float format is the identity on extended reals -/

theorem trunc_v33 (V : Valuation τ sig (Elt Ideal)) (i : S1024x1024.Idx) :
    after (hostOps0_4 (F := Ideal)) V (Proc.devRef .tc main_v33) i = V (Proc.devRef .tc main_arg10) i := by
  after_results; rfl

theorem trunc_v83 (V : Valuation τ sig (Elt Ideal)) (i : S2812x1024.Idx) :
    after (hostOps1_6 (F := Ideal)) V (Proc.devRef .tc main_v83) i = V (Proc.devRef .tc main_arg12) i := by
  after_results; rfl

theorem trunc_v103 (V : Valuation τ sig (Elt Ideal)) (i : S3372x1024.Idx) :
    after (hostOps3 (F := Ideal)) V (Proc.devRef .tc main_v103) i = V (Proc.devRef .tc main_arg14) i := by
  after_results; rfl

theorem trunc_v108 (V : Valuation τ sig (Elt Ideal)) (i : S1024x256.Idx) :
    after (hostOps4 (F := Ideal)) V (Proc.devRef .tc main_v108) i = V (Proc.devRef .tc main_arg18) i := by
  after_results; rfl

theorem trunc_v113 (V : Valuation τ sig (Elt Ideal)) (i : S256x1024.Idx) :
    after (hostOps5 (F := Ideal)) V (Proc.devRef .tc main_v113) i = V (Proc.devRef .tc main_arg22) i := by
  after_results; rfl

theorem trunc_v122 (V : Valuation τ sig (Elt Ideal)) (i : S1024x3584.Idx) :
    after (hostOps6_8 (F := Ideal)) V (Proc.devRef .tc main_v122) i = V (Proc.devRef .tc main_v118) i := by
  after_results; rfl

theorem trunc_v134 (V : Valuation τ sig (Elt Ideal)) (i : S256x128.Idx) :
    after (hostOps7_12 (F := Ideal)) V (Proc.devRef .tc main_v134) i = V (Proc.devRef .tc main_v128) i := by
  after_results; rfl

theorem trunc_v135 (V : Valuation τ sig (Elt Ideal)) (i : S128x128.Idx) :
    after (hostOps7_12 (F := Ideal)) V (Proc.devRef .tc main_v135) i = V (Proc.devRef .tc main_v132) i := by
  after_results; rfl

/-! ## A vector laid out as one row -/

theorem row_v100 (V : Valuation τ sig (Elt Ideal)) (q : Fin 1024) :
    after (hostOps2_2 (F := Ideal)) V (Proc.devRef .tc main_v100) (ix2 (0 : Fin 1) q) = V (Proc.devRef .tc main_arg11) (ix1 q) := by
  after_results
  exact oneRow_apply (V (Proc.devRef .tc main_arg11)) shapeCasts_S1024_S1x1024 q

theorem row_v101 (V : Valuation τ sig (Elt Ideal)) (q : Fin 1024) :
    after (hostOps2_2 (F := Ideal)) V (Proc.devRef .tc main_v101) (ix2 (0 : Fin 1) q) = V (Proc.devRef .tc main_arg13) (ix1 q) := by
  after_results
  exact oneRow_apply (V (Proc.devRef .tc main_arg13)) shapeCasts_S1024_S1x1024 q

theorem row_v104 (V : Valuation τ sig (Elt Ideal)) (q : Fin 1024) :
    after (hostOps3 (F := Ideal)) V (Proc.devRef .tc main_v104) (ix2 (0 : Fin 1) q) = V (Proc.devRef .tc main_arg15) (ix1 q) := by
  after_results
  exact oneRow_apply (V (Proc.devRef .tc main_arg15)) shapeCasts_S1024_S1x1024 q

theorem row_v105 (V : Valuation τ sig (Elt Ideal)) (q : Fin 1024) :
    after (hostOps3 (F := Ideal)) V (Proc.devRef .tc main_v105) (ix2 (0 : Fin 1) q) = V (Proc.devRef .tc main_arg16) (ix1 q) := by
  after_results
  exact oneRow_apply (V (Proc.devRef .tc main_arg16)) shapeCasts_S1024_S1x1024 q

theorem row_v106 (V : Valuation τ sig (Elt Ideal)) (q : Fin 1024) :
    after (hostOps3 (F := Ideal)) V (Proc.devRef .tc main_v106) (ix2 (0 : Fin 1) q) = V (Proc.devRef .tc main_arg17) (ix1 q) := by
  after_results
  exact oneRow_apply (V (Proc.devRef .tc main_arg17)) shapeCasts_S1024_S1x1024 q

theorem row_v109 (V : Valuation τ sig (Elt Ideal)) (q : Fin 256) :
    after (hostOps4 (F := Ideal)) V (Proc.devRef .tc main_v109) (ix2 (0 : Fin 1) q) = V (Proc.devRef .tc main_arg19) (ix1 q) := by
  after_results
  exact oneRow_apply (V (Proc.devRef .tc main_arg19)) shapeCasts_S256_S1x256 q

theorem row_v110 (V : Valuation τ sig (Elt Ideal)) (q : Fin 256) :
    after (hostOps4 (F := Ideal)) V (Proc.devRef .tc main_v110) (ix2 (0 : Fin 1) q) = V (Proc.devRef .tc main_arg20) (ix1 q) := by
  after_results
  exact oneRow_apply (V (Proc.devRef .tc main_arg20)) shapeCasts_S256_S1x256 q

theorem row_v111 (V : Valuation τ sig (Elt Ideal)) (q : Fin 256) :
    after (hostOps4 (F := Ideal)) V (Proc.devRef .tc main_v111) (ix2 (0 : Fin 1) q) = V (Proc.devRef .tc main_arg21) (ix1 q) := by
  after_results
  exact oneRow_apply (V (Proc.devRef .tc main_arg21)) shapeCasts_S256_S1x256 q

theorem row_v114 (V : Valuation τ sig (Elt Ideal)) (q : Fin 1024) :
    after (hostOps5 (F := Ideal)) V (Proc.devRef .tc main_v114) (ix2 (0 : Fin 1) q) = V (Proc.devRef .tc main_arg23) (ix1 q) := by
  after_results
  exact oneRow_apply (V (Proc.devRef .tc main_arg23)) shapeCasts_S1024_S1x1024 q

theorem row_v115 (V : Valuation τ sig (Elt Ideal)) (q : Fin 1024) :
    after (hostOps5 (F := Ideal)) V (Proc.devRef .tc main_v115) (ix2 (0 : Fin 1) q) = V (Proc.devRef .tc main_arg24) (ix1 q) := by
  after_results
  exact oneRow_apply (V (Proc.devRef .tc main_arg24)) shapeCasts_S1024_S1x1024 q

theorem row_v116 (V : Valuation τ sig (Elt Ideal)) (q : Fin 1024) :
    after (hostOps5 (F := Ideal)) V (Proc.devRef .tc main_v116) (ix2 (0 : Fin 1) q) = V (Proc.devRef .tc main_arg25) (ix1 q) := by
  after_results
  exact oneRow_apply (V (Proc.devRef .tc main_arg25)) shapeCasts_S1024_S1x1024 q

theorem row_v123 (V : Valuation τ sig (Elt Ideal)) (q : Fin 3584) :
    after (hostOps6_8 (F := Ideal)) V (Proc.devRef .tc main_v123) (ix2 (0 : Fin 1) q) = V (Proc.devRef .tc main_v119) (ix1 q) := by
  after_results
  exact oneRow_apply (V (Proc.devRef .tc main_v119)) shapeCasts_S3584_S1x3584 q

theorem row_v124 (V : Valuation τ sig (Elt Ideal)) (q : Fin 3584) :
    after (hostOps6_8 (F := Ideal)) V (Proc.devRef .tc main_v124) (ix2 (0 : Fin 1) q) = V (Proc.devRef .tc main_v120) (ix1 q) := by
  after_results
  exact oneRow_apply (V (Proc.devRef .tc main_v120)) shapeCasts_S3584_S1x3584 q

theorem row_v125 (V : Valuation τ sig (Elt Ideal)) (q : Fin 3584) :
    after (hostOps6_8 (F := Ideal)) V (Proc.devRef .tc main_v125) (ix2 (0 : Fin 1) q) = V (Proc.devRef .tc main_v121) (ix1 q) := by
  after_results
  exact oneRow_apply (V (Proc.devRef .tc main_v121)) shapeCasts_S3584_S1x3584 q

theorem row_v136 (V : Valuation τ sig (Elt Ideal)) (q : Fin 128) :
    after (hostOps7_12 (F := Ideal)) V (Proc.devRef .tc main_v136) (ix2 (0 : Fin 1) q) = V (Proc.devRef .tc main_v129) (ix1 q) := by
  after_results
  exact oneRow_apply (V (Proc.devRef .tc main_v129)) shapeCasts_S128_S1x128 q

theorem row_v137 (V : Valuation τ sig (Elt Ideal)) (q : Fin 128) :
    after (hostOps7_12 (F := Ideal)) V (Proc.devRef .tc main_v137) (ix2 (0 : Fin 1) q) = V (Proc.devRef .tc main_v130) (ix1 q) := by
  after_results
  exact oneRow_apply (V (Proc.devRef .tc main_v130)) shapeCasts_S128_S1x128 q

theorem row_v138 (V : Valuation τ sig (Elt Ideal)) (q : Fin 128) :
    after (hostOps7_12 (F := Ideal)) V (Proc.devRef .tc main_v138) (ix2 (0 : Fin 1) q) = V (Proc.devRef .tc main_v131) (ix1 q) := by
  after_results
  exact oneRow_apply (V (Proc.devRef .tc main_v131)) shapeCasts_S128_S1x128 q

theorem row_v139 (V : Valuation τ sig (Elt Ideal)) (q : Fin 128) :
    after (hostOps7_12 (F := Ideal)) V (Proc.devRef .tc main_v139) (ix2 (0 : Fin 1) q) = V (Proc.devRef .tc main_v133) (ix1 q) := by
  after_results
  exact oneRow_apply (V (Proc.devRef .tc main_v133)) shapeCasts_S128_S1x128 q

/-! ## Slices from the origin

The two long stretches open with the slice; nothing after it in the stretch writes the sliced array again. -/

theorem slice_v35 (V : Valuation τ sig (Elt Ideal)) (p : Fin 10000) (q : Fin 1024) :
    after (hostOps1 (F := Ideal)) V (Proc.devRef .tc main_v35) (ix2 p q)
      = V (Proc.devRef .tc main_v34) (ix2 (⟨p.val, by omega⟩ : Fin 10240) q) := by
  after_results
  exact originSlice2_apply (V (Proc.devRef .tc main_v34)) slices_S10240x1024_S10000x1024_0_0 p q (by omega) q.isLt

theorem slice_v85 (V : Valuation τ sig (Elt Ideal)) (p : Fin 5000) (q : Fin 1024) :
    after (hostOps2 (F := Ideal)) V (Proc.devRef .tc main_v85) (ix2 p q)
      = V (Proc.devRef .tc main_v84) (ix2 (⟨p.val, by omega⟩ : Fin 5120) q) := by
  after_results
  exact originSlice2_apply (V (Proc.devRef .tc main_v84)) slices_S5120x1024_S5000x1024_0_0 p q (by omega) q.isLt

theorem slice_v127 (V : Valuation τ sig (Elt Ideal)) (p : Fin 2048) (q : Fin 3372) :
    after (hostOps7 (F := Ideal)) V (Proc.devRef .tc main_v127) (ix2 p q)
      = V (Proc.devRef .tc main_v126) (ix2 p (⟨q.val, by omega⟩ : Fin 3584)) := by
  after_results
  exact originSlice2_apply (V (Proc.devRef .tc main_v126)) slices_S2048x3584_S2048x3372_0_0 p q p.isLt (by omega)

/-- The one-column slice: its only column is the source's column `0`. -/
theorem slice_v141 (V : Valuation τ sig (Elt Ideal)) (p : Fin 2048) (q : Fin 1) :
    after (hostOps8 (F := Ideal)) V (Proc.devRef .tc main_v141) (ix2 p q)
      = V (Proc.devRef .tc main_v140) (ix2 p (⟨0, by omega⟩ : Fin 128)) := by
  after_results
  refine (originSlice2_apply (V (Proc.devRef .tc main_v140)) slices_S2048x128_S2048x1_0_0 p q p.isLt (by omega)).trans ?_
  exact congrArg (V (Proc.devRef .tc main_v140))
    (funext fun a => match a with | ⟨0, _⟩ => rfl | ⟨1, _⟩ => Fin.ext (by show q.val = 0; omega))

/-! ## Paddings at the high end, read inside the operand's extent

The padding value (a converted integer scalar) is an operand of the padding but is not read at these indices. -/

theorem pad_v32 (V : Valuation τ sig (Elt Ideal)) (p : Fin 10240) (hp : p.val < 10000) (q : Fin 1024) :
    after (hostOps0_3 (F := Ideal)) V (Proc.devRef .tc main_v32) (ix2 p q)
      = V (Proc.devRef .tc main_arg4) (ix2 (⟨p.val, hp⟩ : Fin 10000) q) := by
  after_results
  exact highPad2_apply (V (Proc.devRef .tc main_arg4)) (sitofp (F := Ideal) .f32 (V (Proc.devRef .tc main_c_6))) pads_S10000x1024_S10240x1024_02400_000 h_S_ p q hp q.isLt

theorem pad_v82 (V : Valuation τ sig (Elt Ideal)) (p : Fin 5120) (hp : p.val < 5000) (q : Fin 2812) :
    after (hostOps1_5 (F := Ideal)) V (Proc.devRef .tc main_v82) (ix2 p q)
      = V (Proc.devRef .tc main_arg7) (ix2 (⟨p.val, hp⟩ : Fin 5000) q) := by
  after_results
  exact highPad2_apply (V (Proc.devRef .tc main_arg7)) (sitofp (F := Ideal) .f32 (V (Proc.devRef .tc main_c_18))) pads_S5000x2812_S5120x2812_01200_000 h_S_ p q hp q.isLt

theorem pad_v118 (V : Valuation τ sig (Elt Ideal)) (p : Fin 1024) (q : Fin 3584) (hq : q.val < 3372) :
    after (hostOps6_1 (F := Ideal)) V (Proc.devRef .tc main_v118) (ix2 p q)
      = V (Proc.devRef .tc main_arg26) (ix2 p (⟨q.val, hq⟩ : Fin 3372)) := by
  after_results
  exact highPad2_apply (V (Proc.devRef .tc main_arg26)) (sitofp (F := Ideal) .f32 (V (Proc.devRef .tc main_c_22))) pads_S1024x3372_S1024x3584_000_02120 h_S_ p q p.isLt hq

theorem pad_v119 (V : Valuation τ sig (Elt Ideal)) (q : Fin 3584) (hq : q.val < 3372) :
    after (hostOps6_3 (F := Ideal)) V (Proc.devRef .tc main_v119) (ix1 q)
      = V (Proc.devRef .tc main_arg27) (ix1 (⟨q.val, hq⟩ : Fin 3372)) := by
  after_results
  exact highPad1_apply (V (Proc.devRef .tc main_arg27)) (sitofp (F := Ideal) .f32 (V (Proc.devRef .tc main_c_23))) pads_S3372_S3584_02120 h_S_ q hq

theorem pad_v120 (V : Valuation τ sig (Elt Ideal)) (q : Fin 3584) (hq : q.val < 3372) :
    after (hostOps6_5 (F := Ideal)) V (Proc.devRef .tc main_v120) (ix1 q)
      = V (Proc.devRef .tc main_arg28) (ix1 (⟨q.val, hq⟩ : Fin 3372)) := by
  after_results
  exact highPad1_apply (V (Proc.devRef .tc main_arg28)) (sitofp (F := Ideal) .f32 (V (Proc.devRef .tc main_c_24))) pads_S3372_S3584_02120 h_S_ q hq

theorem pad_v121 (V : Valuation τ sig (Elt Ideal)) (q : Fin 3584) (hq : q.val < 3372) :
    after (hostOps6_7 (F := Ideal)) V (Proc.devRef .tc main_v121) (ix1 q)
      = V (Proc.devRef .tc main_arg29) (ix1 (⟨q.val, hq⟩ : Fin 3372)) := by
  after_results
  exact highPad1_apply (V (Proc.devRef .tc main_arg29)) (sitofp (F := Ideal) .f32 (V (Proc.devRef .tc main_c_25))) pads_S3372_S3584_02120 h_S_ q hq

theorem pad_v128 (V : Valuation τ sig (Elt Ideal)) (p : Fin 256) (q : Fin 128) (hq : q.val < 64) :
    after (hostOps7_1 (F := Ideal)) V (Proc.devRef .tc main_v128) (ix2 p q)
      = V (Proc.devRef .tc main_arg30) (ix2 p (⟨q.val, hq⟩ : Fin 64)) := by
  after_results
  exact highPad2_apply (V (Proc.devRef .tc main_arg30)) (sitofp (F := Ideal) .f32 (V (Proc.devRef .tc main_c_26))) pads_S256x64_S256x128_000_0640 h_S_ p q p.isLt hq

theorem pad_v129 (V : Valuation τ sig (Elt Ideal)) (q : Fin 128) (hq : q.val < 64) :
    after (hostOps7_3 (F := Ideal)) V (Proc.devRef .tc main_v129) (ix1 q)
      = V (Proc.devRef .tc main_arg31) (ix1 (⟨q.val, hq⟩ : Fin 64)) := by
  after_results
  exact highPad1_apply (V (Proc.devRef .tc main_arg31)) (sitofp (F := Ideal) .f32 (V (Proc.devRef .tc main_c_27))) pads_S64_S128_0640 h_S_ q hq

theorem pad_v130 (V : Valuation τ sig (Elt Ideal)) (q : Fin 128) (hq : q.val < 64) :
    after (hostOps7_5 (F := Ideal)) V (Proc.devRef .tc main_v130) (ix1 q)
      = V (Proc.devRef .tc main_arg32) (ix1 (⟨q.val, hq⟩ : Fin 64)) := by
  after_results
  exact highPad1_apply (V (Proc.devRef .tc main_arg32)) (sitofp (F := Ideal) .f32 (V (Proc.devRef .tc main_c_28))) pads_S64_S128_0640 h_S_ q hq

theorem pad_v131 (V : Valuation τ sig (Elt Ideal)) (q : Fin 128) (hq : q.val < 64) :
    after (hostOps7_7 (F := Ideal)) V (Proc.devRef .tc main_v131) (ix1 q)
      = V (Proc.devRef .tc main_arg33) (ix1 (⟨q.val, hq⟩ : Fin 64)) := by
  after_results
  exact highPad1_apply (V (Proc.devRef .tc main_arg33)) (sitofp (F := Ideal) .f32 (V (Proc.devRef .tc main_c_29))) pads_S64_S128_0640 h_S_ q hq

/-- A one-column matrix padded to a square: column `0` of the first 64 rows is the column itself. -/
theorem pad_v132 (V : Valuation τ sig (Elt Ideal)) (k : Fin 128) (hk : k.val < 64) :
    after (hostOps7_9 (F := Ideal)) V (Proc.devRef .tc main_v132) (ix2 k (0 : Fin 128))
      = V (Proc.devRef .tc main_arg34) (ix2 (⟨k.val, hk⟩ : Fin 64) (0 : Fin 1)) := by
  after_results
  exact highPad2_apply (V (Proc.devRef .tc main_arg34)) (sitofp (F := Ideal) .f32 (V (Proc.devRef .tc main_c_30)))
    pads_S64x1_S128x128_0640_01270 h_S_ k (0 : Fin 128) hk (by decide)

/-- A one-entry vector padded to 128 entries: entry `0` is the entry itself. -/
theorem pad_v133 (V : Valuation τ sig (Elt Ideal)) :
    after (hostOps7_11 (F := Ideal)) V (Proc.devRef .tc main_v133) (ix1 (0 : Fin 128))
      = V (Proc.devRef .tc main_arg35) (ix1 (0 : Fin 1)) := by
  after_results
  exact highPad1_apply (V (Proc.devRef .tc main_arg35)) (sitofp (F := Ideal) .f32 (V (Proc.devRef .tc main_c_31)))
    pads_S1_S128_01270 h_S_ (0 : Fin 128) (by decide)

/-! ## The one padding whose value matters: the converted integer zero

Rows 64 to 127 of the padded square hold the padding value, the integer scalar converted to a float; the stretch
before wrote that scalar as the constant `0`, and the integer zero converts to the float zero. -/

theorem c30_const (V : Valuation τ sig (Elt Ideal)) :
    after (hostOps7_8 (F := Ideal)) V (Proc.devRef .tc main_c_30) = constantI S_ 32 0#32 := by
  after_results

theorem pad_v132_zero (V : Valuation τ sig (Elt Ideal)) (hc : V (Proc.devRef .tc main_c_30) = constantI S_ 32 0#32)
    (k : Fin 128) (hk : 64 ≤ k.val) :
    after (hostOps7_9 (F := Ideal)) V (Proc.devRef .tc main_v132) (ix2 k (0 : Fin 128)) = (0 : EReal) := by
  after_results
  refine (highPad2_apply_past (V (Proc.devRef .tc main_arg34)) (sitofp (F := Ideal) .f32 (V (Proc.devRef .tc main_c_30)))
    pads_S64x1_S128x128_0640_01270 h_S_ k (0 : Fin 128) hk).trans ?_
  rw [hc]
  exact sitofp_zero (φ := .f32)

end Cert.KernelIdeal.KPrep
-- ==== Proof.KLayer3.lean ====
/-
  A normalised dense layer with the rectifier, 3372 inputs into 1024 columns over 2048 rows, as the kernel computes it.

  The grid tiles only the columns: each of its 4 points sees all 2048 rows of the input, the 256 columns of the
  weights at its column block, and the matching 256 entries of the bias, gain and shift. Per column the body
  forms x·W + b, subtracts the column's mean over the 2048 rows, divides the centred column's sum of squares by 2048,
  and returns max(g · centred · (variance + ε)^(−1/2) + β, 0). Every one of these is a statistic of ONE column, so a
  column block of the layer is the layer of the column block; the blocks tile the columns, so the result array is the
  layer of the whole arrays, index by index.
-/
import proofs.«402148_j44985487458808_3_alg».proof.Proof.Gen.KernelIdeal.Frame
import proofs.«402148_j44985487458808_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RV

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

/-! ## The product: which entries of the two operands each term reads -/

abbrev D3 := dot_S2048x3372_S3372x256_S2048x256_1_0_0_1_n_n

theorem lhs3_0 (j : S2048x256.Idx) (k : D3.contr.Idx) : (D3.lhsIdx j k 0 : ℕ) = j 0 := by
  simp [DotDims.lhsIdx, D3, dot_S2048x3372_S3372x256_S2048x256_1_0_0_1_n_n]; rfl
theorem lhs3_1 (j : S2048x256.Idx) (k : D3.contr.Idx) : (D3.lhsIdx j k 1 : ℕ) = k ⟨0, by decide⟩ := by
  simp [DotDims.lhsIdx, D3, dot_S2048x3372_S3372x256_S2048x256_1_0_0_1_n_n]; rfl
theorem rhs3_0 (j : S2048x256.Idx) (k : D3.contr.Idx) : (D3.rhsIdx j k 0 : ℕ) = k ⟨0, by decide⟩ := by
  simp [DotDims.rhsIdx, D3, dot_S2048x3372_S3372x256_S2048x256_1_0_0_1_n_n]; rfl
theorem rhs3_1 (j : S2048x256.Idx) (k : D3.contr.Idx) : (D3.rhsIdx j k 1 : ℕ) = j 1 := by
  simp [DotDims.rhsIdx, D3, dot_S2048x3372_S3372x256_S2048x256_1_0_0_1_n_n]; rfl

/-- The product block at (p, q), accumulated from zero: the sum over the 3372 inner positions k of l(p, k) · r(k, q). -/
theorem mm3_apply (l : FVec Ideal S2048x3372 .bf16) (r : FVec Ideal S3372x256 .bf16) (p : Fin 2048) (q : Fin 256) :
    matmul D3 none l r (constant (F := Ideal) S2048x256 .f32 0x00000000#32) (ix2 p q)
      = ∑ k : Fin 3372, l (ix2 p k) * r (ix2 k q) := by
  refine (Ideal.matmul_constant_zero_apply D3 none l r (ix2 p q)).trans ?_
  rw [← Equiv.sum_comp (contrEquiv1 D3 3372 rfl rfl).symm]
  refine Finset.sum_congr rfl fun k _ => ?_
  have hk := contrEquiv1_symm_val D3 3372 rfl rfl k
  congr 2
  · apply Shape.idx_ext₂
    · exact lhs3_0 _ _
    · exact (lhs3_1 _ _).trans hk
  · apply Shape.idx_ext₂
    · exact (rhs3_0 _ _).trans hk
    · exact rhs3_1 _ _

/-! ## The body's value at an index -/

/-- A matrix of one row, read as a vector. -/
abbrev row3 {n : ℕ} (v : (⟨2, ![1, n]⟩ : Shape).Idx → EReal) : Cert.Spec.Arr1 n := fun i => v (ix2 (0 : Fin 1) (i 0 : Fin n))

/-- The dense layer's block as the body forms it: the product into a zero accumulator, plus the bias over all rows. -/
def acc3 (x : FVec Ideal S2048x3372 .bf16) (w : FVec Ideal S3372x256 .bf16) (b : FVec Ideal S1x256 .f32) : FVec Ideal S2048x256 .f32 :=
  addf (matmul D3 none (shapeCast S2048x3372 x shapeCasts_S2048x3372_S2048x3372) (shapeCast S3372x256 w shapeCasts_S3372x256_S3372x256) (constant (F := Ideal) S2048x256 .f32 0x00000000#32))
    (broadcastTo S2048x256 (shapeCast S1x256 b shapeCasts_S1x256_S1x256) broadcasts_S1x256_S2048x256)

/-- It is x·W + b on the block's columns. -/
theorem acc3_eq (x : FVec Ideal S2048x3372 .bf16) (w : FVec Ideal S3372x256 .bf16) (b : FVec Ideal S1x256 .f32) :
    acc3 x w b = Cert.Spec.lin x w (row3 b) := by
  funext j
  obtain ⟨p, q, rfl⟩ : ∃ (p : Fin 2048) (q : Fin 256), j = ix2 p q := ⟨j 0, j 1, eq_ix2 j⟩
  unfold acc3
  rw [shapeCast_self, shapeCast_self, shapeCast_self]
  show matmul D3 none x w (constant (F := Ideal) S2048x256 .f32 0x00000000#32) (ix2 p q)
      + broadcastTo S2048x256 b broadcasts_S1x256_S2048x256 (ix2 p q) = (∑ k : Fin 3372, x (ix2 p k) * w (ix2 k q)) + b (ix2 (0 : Fin 1) q)
  rw [mm3_apply, broadcastTo_1b_ab_apply]

/-- The column sums of a block, kept as a matrix of one row. -/
def colSumRow3 (A : FVec Ideal S2048x256 .f32) : FVec Ideal S1x256 .f32 :=
  shapeCast S1x256 (multiReduction .add [0] S256 A 0x00000000#32 reduces_S2048x256_S256 (.inl rfl) rfl) shapeCasts_S256_S1x256

theorem colSumRow3_apply (A : FVec Ideal S2048x256 .f32) (c : Fin 256) :
    colSumRow3 A (ix2 (0 : Fin 1) c) = ∑ r : Fin 2048, A (ix2 r c) := by
  unfold colSumRow3
  refine (shapeCast_a_1a_apply _ _ (0 : Fin 1) c).trans ?_
  refine (Ideal.multiReduction_add_single A 0x00000000#32 reduces_S2048x256_S256 (.inl rfl) rfl (ix1 c)).trans ?_
  show ∑ r : Fin 2048, A (reduces_S2048x256_S256.lift (ix1 c) r) = _
  refine Finset.sum_congr rfl fun r _ => congrArg A ?_
  exact Shape.idx_ext₂ rfl rfl

/-- The column means as a matrix of one row: the column sums over the batch size. -/
def mean3 (A : FVec Ideal S2048x256 .f32) : FVec Ideal S1x256 .f32 :=
  divf (colSumRow3 A) (broadcast S1x256 (Scalar.ofBits .f32 0x45000000#32))

theorem mean3_apply (A : FVec Ideal S2048x256 .f32) (c : Fin 256) : mean3 A (ix2 (0 : Fin 1) c) = Cert.Spec.colMean A c := by
  show Ideal.div (colSumRow3 A (ix2 (0 : Fin 1) c)) (Ideal.ofBits .f32 0x45000000#32) = Ideal.div (∑ r : Fin 2048, A (ix2 r c)) Cert.Spec.cnt
  rw [colSumRow3_apply]; rfl

/-- The block with each column's mean subtracted. -/
def cen3 (A : FVec Ideal S2048x256 .f32) : FVec Ideal S2048x256 .f32 :=
  subf A (broadcastTo S2048x256 (mean3 A) broadcasts_S1x256_S2048x256)

theorem cen3_eq (A : FVec Ideal S2048x256 .f32) : cen3 A = Cert.Spec.centred A := by
  funext j
  obtain ⟨p, q, rfl⟩ : ∃ (p : Fin 2048) (q : Fin 256), j = ix2 p q := ⟨j 0, j 1, eq_ix2 j⟩
  show A (ix2 p q) - broadcastTo S2048x256 (mean3 A) broadcasts_S1x256_S2048x256 (ix2 p q) = A (ix2 p q) - Cert.Spec.colMean A q
  rw [broadcastTo_1b_ab_apply, mean3_apply]

/-- (variance + ε)^(−1/2) per column, as a matrix of one row. -/
def rs3 (A : FVec Ideal S2048x256 .f32) : FVec Ideal S1x256 .f32 :=
  rsqrt (addf (divf (colSumRow3 (mulf (cen3 A) (cen3 A))) (broadcast S1x256 (Scalar.ofBits .f32 0x45000000#32)))
    (broadcast S1x256 (Scalar.ofBits .f32 0x3727C5AC#32)))

theorem rs3_apply (A : FVec Ideal S2048x256 .f32) (c : Fin 256) :
    rs3 A (ix2 (0 : Fin 1) c) = Ideal.rsqrt (Cert.Spec.colVar A c + Cert.Spec.eps) := by
  show Ideal.rsqrt (Ideal.div (colSumRow3 (mulf (cen3 A) (cen3 A)) (ix2 (0 : Fin 1) c)) (Ideal.ofBits .f32 0x45000000#32) + Ideal.ofBits .f32 0x3727C5AC#32)
    = Ideal.rsqrt (Ideal.div (∑ r : Fin 2048, Cert.Spec.centred A (ix2 r c) * Cert.Spec.centred A (ix2 r c)) Cert.Spec.cnt + Cert.Spec.eps)
  rw [colSumRow3_apply, cen3_eq]; rfl

/-- The normalisation of a block as the body forms it: gain · centred · (variance + ε)^(−1/2) + shift, then the rectifier. -/
def norm3 (A : FVec Ideal S2048x256 .f32) (g be : FVec Ideal S1x256 .f32) : FVec Ideal S2048x256 .f32 :=
  maximumf (addf (mulf (mulf (broadcastTo S2048x256 (shapeCast S1x256 g shapeCasts_S1x256_S1x256) broadcasts_S1x256_S2048x256) (cen3 A))
      (broadcastTo S2048x256 (rs3 A) broadcasts_S1x256_S2048x256))
      (broadcastTo S2048x256 (shapeCast S1x256 be shapeCasts_S1x256_S1x256) broadcasts_S1x256_S2048x256))
    (broadcast S2048x256 (Scalar.ofBits .f32 0x00000000#32))

/-- The body's value is the normalisation of the dense layer's block. -/
theorem pay3_eq (x : FVec Ideal S2048x3372 .bf16) (w : FVec Ideal S3372x256 .bf16) (b g be : FVec Ideal S1x256 .f32) :
    k3_pay1 (F := Ideal) x w b g be = norm3 (acc3 x w b) g be := rfl

theorem norm3_apply (A : FVec Ideal S2048x256 .f32) (g be : FVec Ideal S1x256 .f32) (p : Fin 2048) (q : Fin 256) :
    norm3 A g be (ix2 p q) = Cert.Spec.relu (Cert.Spec.bn A (row3 g) (row3 be) (ix2 p q)) := by
  unfold norm3
  rw [shapeCast_self, shapeCast_self]
  show max (broadcastTo S2048x256 g broadcasts_S1x256_S2048x256 (ix2 p q) * cen3 A (ix2 p q)
        * broadcastTo S2048x256 (rs3 A) broadcasts_S1x256_S2048x256 (ix2 p q)
        + broadcastTo S2048x256 be broadcasts_S1x256_S2048x256 (ix2 p q)) (Ideal.ofBits .f32 0x00000000#32)
    = max (g (ix2 (0 : Fin 1) q) * Cert.Spec.centred A (ix2 p q) * Ideal.rsqrt (Cert.Spec.colVar A q + Cert.Spec.eps) + be (ix2 (0 : Fin 1) q)) 0
  rw [broadcastTo_1b_ab_apply, broadcastTo_1b_ab_apply, broadcastTo_1b_ab_apply, rs3_apply, cen3_eq, Ideal.ofBits_zero_f32]

/-- THE BODY'S VALUE at (p, q): the normalised dense layer of the whole input against the block's columns. -/
theorem pay3_apply (x : FVec Ideal S2048x3372 .bf16) (w : FVec Ideal S3372x256 .bf16) (b g be : FVec Ideal S1x256 .f32)
    (p : Fin 2048) (q : Fin 256) :
    k3_pay1 (F := Ideal) x w b g be (ix2 p q) = Cert.Spec.layer x w (row3 b) (row3 g) (row3 be) (ix2 p q) := by
  rw [pay3_eq, norm3_apply, acc3_eq]; rfl

/-- A column block of the layer is the layer of the column block: the body's value at (p, q), for blocks that are
    the whole input, and columns Q of the weights and of the three vectors, is the whole layer at (p, Q q). -/
theorem blockLayer3 (xa : FVec Ideal S2048x3372 .bf16) (wa : FVec Ideal S3372x256 .bf16) (ba ga ea : FVec Ideal S1x256 .f32)
    (x : Cert.Spec.Arr2 2048 3372) (w : Cert.Spec.Arr2 3372 1024) (b g be : Cert.Spec.Arr1 1024) (Q : Fin 256 → Fin 1024)
    (hxa : ∀ (p : Fin 2048) (k : Fin 3372), xa (ix2 p k) = x (ix2 p k))
    (hwa : ∀ (k : Fin 3372) (q : Fin 256), wa (ix2 k q) = w (ix2 k (Q q)))
    (hba : ∀ q : Fin 256, ba (ix2 (0 : Fin 1) q) = b (ix1 (Q q)))
    (hga : ∀ q : Fin 256, ga (ix2 (0 : Fin 1) q) = g (ix1 (Q q)))
    (hea : ∀ q : Fin 256, ea (ix2 (0 : Fin 1) q) = be (ix1 (Q q)))
    (j : S2048x256.Idx) :
    k3_pay1 (F := Ideal) xa wa ba ga ea j = Cert.Spec.layer x w b g be (ix2 (j 0 : Fin 2048) (Q (j 1 : Fin 256))) := by
  obtain ⟨p, q, rfl⟩ : ∃ (p : Fin 2048) (q : Fin 256), j = ix2 p q := ⟨j 0, j 1, eq_ix2 j⟩
  have hxx : xa = x := funext fun i => by
    obtain ⟨p', k, rfl⟩ : ∃ (p' : Fin 2048) (k : Fin 3372), i = ix2 p' k := ⟨i 0, i 1, eq_ix2 i⟩
    exact hxa p' k
  rw [pay3_apply, hxx]
  exact (Cert.Spec.layer_congr_col x w b g be wa (row3 ba) (row3 ga) (row3 ea) p (Q q) q (fun k => (hwa k q).symm)
    (hba q).symm (hga q).symm (hea q).symm).symm

/-! ## From the blocks to the array -/

variable (V : (c : Dev nD) → (b : Ref sig .tc) → Buf (Elt Ideal) ((c : Thread nD τ).loc b))

theorem hz3 : (![0, 0] : Fin 2 → Nat) = fun _ => 0 := funext fun a => by fin_cases a <;> rfl

/-- The index maps over the grid: the input stays at block (0, 0); every other window is at column block t. -/
theorem idx3 : ∀ t : Fin cfg3.N,
    win3_0.index t (0 : Fin 2) = 0 ∧ win3_0.index t (1 : Fin 2) = 0
    ∧ win3_1.index t (0 : Fin 2) = 0 ∧ win3_1.index t (1 : Fin 2) = t.val
    ∧ win3_2.index t (0 : Fin 2) = 0 ∧ win3_2.index t (1 : Fin 2) = t.val
    ∧ win3_3.index t (0 : Fin 2) = 0 ∧ win3_3.index t (1 : Fin 2) = t.val
    ∧ win3_4.index t (0 : Fin 2) = 0 ∧ win3_4.index t (1 : Fin 2) = t.val
    ∧ win3_5.index t (0 : Fin 2) = 0 ∧ win3_5.index t (1 : Fin 2) = t.val :=
  (by decide +kernel : ∀ t : Fin grid3.N, _)

/-- Column q of point t's column block, in the whole array. -/
def col3 (t : Fin cfg3.N) (q : Fin 256) : Fin 1024 :=
  ⟨t.val * 256 + q.val, by have h : t.val < 4 := lt_of_lt_of_eq t.isLt N_3; have := q.isLt; omega⟩

/-- The input window's block at any point is the whole input. -/
theorem blk3_0 (c : Dev nD) (t : Fin cfg3.N) (p : Fin 2048) (k : Fin 3372) :
    (iblk3 V c 0 t : FVec Ideal S2048x3372 .bf16) (ix2 p k) = (V c (Pipeline.arrRef spec3 0) : S2048x3372.Idx → EReal) (ix2 p k) := by
  obtain ⟨e00, e01, -⟩ := idx3 t
  show V c (Pipeline.arrRef spec3 0) (((cfg3.win 0).blk t).view.emb (ix2 p k)) = _
  refine congrArg _ ?_
  funext a; apply Fin.ext
  match a with
  | ⟨0, _⟩ => show win3_0.index t (0 : Fin 2) * 2048 + 1 * p.val = p.val; omega
  | ⟨1, _⟩ => show win3_0.index t (1 : Fin 2) * 3372 + 1 * k.val = k.val; omega

/-- The weight window's block at point t is columns 256 t … 256 t + 255 of the weights. -/
theorem blk3_1 (c : Dev nD) (t : Fin cfg3.N) (k : Fin 3372) (q : Fin 256) :
    (iblk3 V c 1 t : FVec Ideal S3372x256 .bf16) (ix2 k q) = (V c (Pipeline.arrRef spec3 1) : S3372x1024.Idx → EReal) (ix2 k (col3 t q)) := by
  obtain ⟨-, -, e10, e11, -⟩ := idx3 t
  show V c (Pipeline.arrRef spec3 1) (((cfg3.win 1).blk t).view.emb (ix2 k q)) = _
  refine congrArg _ ?_
  funext a; apply Fin.ext
  match a with
  | ⟨0, _⟩ => show win3_1.index t (0 : Fin 2) * 3372 + 1 * k.val = k.val; omega
  | ⟨1, _⟩ => show win3_1.index t (1 : Fin 2) * 256 + 1 * q.val = t.val * 256 + q.val; omega

/-- The bias window's block at point t is entries 256 t … 256 t + 255 of the bias. -/
theorem blk3_2 (c : Dev nD) (t : Fin cfg3.N) (q : Fin 256) :
    (iblk3 V c 2 t : FVec Ideal S1x256 .f32) (ix2 (0 : Fin 1) q) = (V c (Pipeline.arrRef spec3 2) : S1x1024.Idx → EReal) (ix2 (0 : Fin 1) (col3 t q)) := by
  obtain ⟨-, -, -, -, e20, e21, -⟩ := idx3 t
  show V c (Pipeline.arrRef spec3 2) (((cfg3.win 2).blk t).view.emb (ix2 (0 : Fin 1) q)) = _
  refine congrArg _ ?_
  funext a; apply Fin.ext
  match a with
  | ⟨0, _⟩ => show win3_2.index t (0 : Fin 2) * 1 + 1 * 0 = 0; omega
  | ⟨1, _⟩ => show win3_2.index t (1 : Fin 2) * 256 + 1 * q.val = t.val * 256 + q.val; omega

/-- The gain window's block likewise. -/
theorem blk3_3 (c : Dev nD) (t : Fin cfg3.N) (q : Fin 256) :
    (iblk3 V c 3 t : FVec Ideal S1x256 .f32) (ix2 (0 : Fin 1) q) = (V c (Pipeline.arrRef spec3 3) : S1x1024.Idx → EReal) (ix2 (0 : Fin 1) (col3 t q)) := by
  obtain ⟨-, -, -, -, -, -, e30, e31, -⟩ := idx3 t
  show V c (Pipeline.arrRef spec3 3) (((cfg3.win 3).blk t).view.emb (ix2 (0 : Fin 1) q)) = _
  refine congrArg _ ?_
  funext a; apply Fin.ext
  match a with
  | ⟨0, _⟩ => show win3_3.index t (0 : Fin 2) * 1 + 1 * 0 = 0; omega
  | ⟨1, _⟩ => show win3_3.index t (1 : Fin 2) * 256 + 1 * q.val = t.val * 256 + q.val; omega

/-- The shift window's block likewise. -/
theorem blk3_4 (c : Dev nD) (t : Fin cfg3.N) (q : Fin 256) :
    (iblk3 V c 4 t : FVec Ideal S1x256 .f32) (ix2 (0 : Fin 1) q) = (V c (Pipeline.arrRef spec3 4) : S1x1024.Idx → EReal) (ix2 (0 : Fin 1) (col3 t q)) := by
  obtain ⟨-, -, -, -, -, -, -, -, e40, e41, -⟩ := idx3 t
  show V c (Pipeline.arrRef spec3 4) (((cfg3.win 4).blk t).view.emb (ix2 (0 : Fin 1) q)) = _
  refine congrArg _ ?_
  funext a; apply Fin.ext
  match a with
  | ⟨0, _⟩ => show win3_4.index t (0 : Fin 2) * 1 + 1 * 0 = 0; omega
  | ⟨1, _⟩ => show win3_4.index t (1 : Fin 2) * 256 + 1 * q.val = t.val * 256 + q.val; omega

/-- WHAT POINT t WRITES BACK is block t of the normalised dense layer of the arrays as the region finds them. -/
theorem flushed3_eq (c : Dev nD) (x : Cert.Spec.Arr2 2048 3372) (w : Cert.Spec.Arr2 3372 1024) (b g be : Cert.Spec.Arr1 1024)
    (hx : ∀ i, V c (Pipeline.arrRef spec3 0) i = x i) (hw : ∀ i, V c (Pipeline.arrRef spec3 1) i = w i)
    (hb : ∀ q : Fin 1024, V c (Pipeline.arrRef spec3 2) (ix2 (0 : Fin 1) q) = b (ix1 q))
    (hg : ∀ q : Fin 1024, V c (Pipeline.arrRef spec3 3) (ix2 (0 : Fin 1) q) = g (ix1 q))
    (hbe : ∀ q : Fin 1024, V c (Pipeline.arrRef spec3 4) (ix2 (0 : Fin 1) q) = be (ix1 q))
    (t : Fin cfg3.N) :
    (dat3 V c).flushed 5 t = ((cfg3.win 5).blk t).view.read (Elt Ideal) (Cert.Spec.layer x w b g be) := by
  show (cfg3.win 5).cut (grid3.coords t) ((dat3 V c).after 5 t) = _
  rw [after3_5]
  unfold out3_5
  rw [View.canon_unit_zero hz3]
  simp only [View.ld_unit_zero (S := S2048x3372) hz3, View.ld_unit_zero (S := S3372x256) hz3, View.ld_unit_zero (S := S1x256) hz3]
  funext j
  obtain ⟨-, -, -, -, -, -, -, -, -, -, e50, e51⟩ := idx3 t
  show k3_pay1 (F := Ideal) (iblk3 V c 0 t) (iblk3 V c 1 t) (iblk3 V c 2 t) (iblk3 V c 3 t) (iblk3 V c 4 t) j
    = Cert.Spec.layer x w b g be (((cfg3.win 5).blk t).view.emb j)
  refine (blockLayer3 (iblk3 V c 0 t) (iblk3 V c 1 t) (iblk3 V c 2 t) (iblk3 V c 3 t) (iblk3 V c 4 t) x w b g be (col3 t)
    (fun p k => (blk3_0 V c t p k).trans (hx _)) (fun k q => (blk3_1 V c t k q).trans (hw _))
    (fun q => (blk3_2 V c t q).trans (hb _)) (fun q => (blk3_3 V c t q).trans (hg _)) (fun q => (blk3_4 V c t q).trans (hbe _)) j).trans ?_
  refine congrArg (Cert.Spec.layer x w b g be) ?_
  funext a; apply Fin.ext
  match a with
  | ⟨0, _⟩ => show (j 0).val = win3_5.index t (0 : Fin 2) * 2048 + 1 * (j 0).val; omega
  | ⟨1, _⟩ => show t.val * 256 + (j 1).val = win3_5.index t (1 : Fin 2) * 256 + 1 * (j 1).val; omega

/-- An index of the result array is in point t's block iff each coordinate is in the block's range on its axis. -/
theorem mem_blk3 (t : Fin cfg3.N) (i : S2048x1024.Idx) :
    i ∈ ((cfg3.win 5).blk t).view.set ↔ ∀ a : Fin 2, win3_5.index t a * S2048x256.size a ≤ (i a).val ∧ (i a).val < win3_5.index t a * S2048x256.size a + S2048x256.size a := by
  show i ∈ ((View.whole main_v107).slice (win3_5.rect t)).set ↔ _
  rw [View.set_slice_whole, Rect.mem_set_unit]
  exact Iff.rfl

/-- Column q of the result is written by the point q / 256: the column blocks tile the array. -/
theorem cover3 (i : S2048x1024.Idx) : ∃ t : Fin cfg3.N, (cfg3.win 5).flush t = true ∧ i ∈ ((cfg3.win 5).blk t).view.set := by
  have hi0 : (i 0).val < 2048 := (i 0).isLt
  have hi1 : (i 1).val < 1024 := (i 1).isLt
  have hN : grid3.N = 4 := N_3
  obtain ⟨t, ht⟩ : ∃ t : Fin cfg3.N, t.val = (i 1).val / 256 := ⟨⟨(i 1).val / 256, by show _ < grid3.N; rw [hN]; omega⟩, rfl⟩
  obtain ⟨-, -, -, -, -, -, -, -, -, -, e50, e51⟩ := idx3 t
  refine ⟨t, flush3_5 t, ?_⟩
  rw [mem_blk3]
  intro a
  match a with
  | ⟨0, _⟩ => show win3_5.index t (0 : Fin 2) * 2048 ≤ (i 0).val ∧ (i 0).val < win3_5.index t (0 : Fin 2) * 2048 + 2048; omega
  | ⟨1, _⟩ => show win3_5.index t (1 : Fin 2) * 256 ≤ (i 1).val ∧ (i 1).val < win3_5.index t (1 : Fin 2) * 256 + 256; omega

/-- THE REGION'S RESULT: after the region the output array is the normalised dense layer, with the rectifier, of the
    arrays the region found, index by index. -/
theorem region3_val (c : Dev nD) (x : Cert.Spec.Arr2 2048 3372) (w : Cert.Spec.Arr2 3372 1024) (b g be : Cert.Spec.Arr1 1024)
    (hx : ∀ i, V c (Pipeline.arrRef spec3 0) i = x i) (hw : ∀ i, V c (Pipeline.arrRef spec3 1) i = w i)
    (hb : ∀ q : Fin 1024, V c (Pipeline.arrRef spec3 2) (ix2 (0 : Fin 1) q) = b (ix1 q))
    (hg : ∀ q : Fin 1024, V c (Pipeline.arrRef spec3 3) (ix2 (0 : Fin 1) q) = g (ix1 q))
    (hbe : ∀ q : Fin 1024, V c (Pipeline.arrRef spec3 4) (ix2 (0 : Fin 1) q) = be (ix1 q)) :
    ∀ i, (dat3 V c).arrAt 5 cfg3.N i = Cert.Spec.layer x w b g be i :=
  fun i => congrFun ((dat3 V c).arrAt_eq_of_cover 5 (Cert.Spec.layer x w b g be)
    (fun t _ => flushed3_eq V c x w b g be hx hw hb hg hbe t) cover3) i

end Cert.KernelIdeal.RV

end
-- ==== Proof.KLayer5.lean ====
/-
  A normalised dense layer with the rectifier, 256 inputs into 1024 columns over 2048 rows, as the kernel computes it.

  The grid tiles only the columns: each of its 4 points sees all 2048 rows of the input, the 256 columns of the
  weights at its column block, and the matching 256 entries of the bias, gain and shift. Per column the body
  forms x·W + b, subtracts the column's mean over the 2048 rows, divides the centred column's sum of squares by 2048,
  and returns max(g · centred · (variance + ε)^(−1/2) + β, 0). Every one of these is a statistic of ONE column, so a
  column block of the layer is the layer of the column block; the blocks tile the columns, so the result array is the
  layer of the whole arrays, index by index. The input arrives in the 32-bit format and the body narrows it to the
  16-bit one before the product: on the extended reals that is the identity.
-/
import proofs.«402148_j44985487458808_3_alg».proof.Proof.Gen.KernelIdeal.Frame
import proofs.«402148_j44985487458808_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RV

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

/-! ## The product: which entries of the two operands each term reads -/

abbrev D5 := dot_S2048x256_S256x256_S2048x256_1_0_0_1_n_n

theorem lhs5_0 (j : S2048x256.Idx) (k : D5.contr.Idx) : (D5.lhsIdx j k 0 : ℕ) = j 0 := by
  simp [DotDims.lhsIdx, D5, dot_S2048x256_S256x256_S2048x256_1_0_0_1_n_n]; rfl
theorem lhs5_1 (j : S2048x256.Idx) (k : D5.contr.Idx) : (D5.lhsIdx j k 1 : ℕ) = k ⟨0, by decide⟩ := by
  simp [DotDims.lhsIdx, D5, dot_S2048x256_S256x256_S2048x256_1_0_0_1_n_n]; rfl
theorem rhs5_0 (j : S2048x256.Idx) (k : D5.contr.Idx) : (D5.rhsIdx j k 0 : ℕ) = k ⟨0, by decide⟩ := by
  simp [DotDims.rhsIdx, D5, dot_S2048x256_S256x256_S2048x256_1_0_0_1_n_n]; rfl
theorem rhs5_1 (j : S2048x256.Idx) (k : D5.contr.Idx) : (D5.rhsIdx j k 1 : ℕ) = j 1 := by
  simp [DotDims.rhsIdx, D5, dot_S2048x256_S256x256_S2048x256_1_0_0_1_n_n]; rfl

/-- The product block at (p, q), accumulated from zero: the sum over the 256 inner positions k of l(p, k) · r(k, q). -/
theorem mm5_apply (l : FVec Ideal S2048x256 .bf16) (r : FVec Ideal S256x256 .bf16) (p : Fin 2048) (q : Fin 256) :
    matmul D5 none l r (constant (F := Ideal) S2048x256 .f32 0x00000000#32) (ix2 p q)
      = ∑ k : Fin 256, l (ix2 p k) * r (ix2 k q) := by
  refine (Ideal.matmul_constant_zero_apply D5 none l r (ix2 p q)).trans ?_
  rw [← Equiv.sum_comp (contrEquiv1 D5 256 rfl rfl).symm]
  refine Finset.sum_congr rfl fun k _ => ?_
  have hk := contrEquiv1_symm_val D5 256 rfl rfl k
  congr 2
  · apply Shape.idx_ext₂
    · exact lhs5_0 _ _
    · exact (lhs5_1 _ _).trans hk
  · apply Shape.idx_ext₂
    · exact (rhs5_0 _ _).trans hk
    · exact rhs5_1 _ _

/-! ## The body's value at an index -/

/-- A matrix of one row, read as a vector. -/
abbrev row5 {n : ℕ} (v : (⟨2, ![1, n]⟩ : Shape).Idx → EReal) : Cert.Spec.Arr1 n := fun i => v (ix2 (0 : Fin 1) (i 0 : Fin n))

/-- The dense layer's block as the body forms it: the product into a zero accumulator, plus the bias over all rows. -/
def acc5 (x : FVec Ideal S2048x256 .f32) (w : FVec Ideal S256x256 .bf16) (b : FVec Ideal S1x256 .f32) : FVec Ideal S2048x256 .f32 :=
  addf (matmul D5 none (truncf .bf16 (shapeCast S2048x256 x shapeCasts_S2048x256_S2048x256) bitsLt_bf16_f32) (shapeCast S256x256 w shapeCasts_S256x256_S256x256) (constant (F := Ideal) S2048x256 .f32 0x00000000#32))
    (broadcastTo S2048x256 (shapeCast S1x256 b shapeCasts_S1x256_S1x256) broadcasts_S1x256_S2048x256)

/-- It is x·W + b on the block's columns. -/
theorem acc5_eq (x : FVec Ideal S2048x256 .f32) (w : FVec Ideal S256x256 .bf16) (b : FVec Ideal S1x256 .f32) :
    acc5 x w b = Cert.Spec.lin x w (row5 b) := by
  funext j
  obtain ⟨p, q, rfl⟩ : ∃ (p : Fin 2048) (q : Fin 256), j = ix2 p q := ⟨j 0, j 1, eq_ix2 j⟩
  unfold acc5
  rw [shapeCast_self, shapeCast_self, shapeCast_self]
  show matmul D5 none (truncf .bf16 x bitsLt_bf16_f32) w (constant (F := Ideal) S2048x256 .f32 0x00000000#32) (ix2 p q)
      + broadcastTo S2048x256 b broadcasts_S1x256_S2048x256 (ix2 p q) = (∑ k : Fin 256, truncf .bf16 x bitsLt_bf16_f32 (ix2 p k) * w (ix2 k q)) + b (ix2 (0 : Fin 1) q)
  rw [mm5_apply, broadcastTo_1b_ab_apply]

/-- The column sums of a block, kept as a matrix of one row. -/
def colSumRow5 (A : FVec Ideal S2048x256 .f32) : FVec Ideal S1x256 .f32 :=
  shapeCast S1x256 (multiReduction .add [0] S256 A 0x00000000#32 reduces_S2048x256_S256 (.inl rfl) rfl) shapeCasts_S256_S1x256

theorem colSumRow5_apply (A : FVec Ideal S2048x256 .f32) (c : Fin 256) :
    colSumRow5 A (ix2 (0 : Fin 1) c) = ∑ r : Fin 2048, A (ix2 r c) := by
  unfold colSumRow5
  refine (shapeCast_a_1a_apply _ _ (0 : Fin 1) c).trans ?_
  refine (Ideal.multiReduction_add_single A 0x00000000#32 reduces_S2048x256_S256 (.inl rfl) rfl (ix1 c)).trans ?_
  show ∑ r : Fin 2048, A (reduces_S2048x256_S256.lift (ix1 c) r) = _
  refine Finset.sum_congr rfl fun r _ => congrArg A ?_
  exact Shape.idx_ext₂ rfl rfl

/-- The column means as a matrix of one row: the column sums over the batch size. -/
def mean5 (A : FVec Ideal S2048x256 .f32) : FVec Ideal S1x256 .f32 :=
  divf (colSumRow5 A) (broadcast S1x256 (Scalar.ofBits .f32 0x45000000#32))

theorem mean5_apply (A : FVec Ideal S2048x256 .f32) (c : Fin 256) : mean5 A (ix2 (0 : Fin 1) c) = Cert.Spec.colMean A c := by
  show Ideal.div (colSumRow5 A (ix2 (0 : Fin 1) c)) (Ideal.ofBits .f32 0x45000000#32) = Ideal.div (∑ r : Fin 2048, A (ix2 r c)) Cert.Spec.cnt
  rw [colSumRow5_apply]; rfl

/-- The block with each column's mean subtracted. -/
def cen5 (A : FVec Ideal S2048x256 .f32) : FVec Ideal S2048x256 .f32 :=
  subf A (broadcastTo S2048x256 (mean5 A) broadcasts_S1x256_S2048x256)

theorem cen5_eq (A : FVec Ideal S2048x256 .f32) : cen5 A = Cert.Spec.centred A := by
  funext j
  obtain ⟨p, q, rfl⟩ : ∃ (p : Fin 2048) (q : Fin 256), j = ix2 p q := ⟨j 0, j 1, eq_ix2 j⟩
  show A (ix2 p q) - broadcastTo S2048x256 (mean5 A) broadcasts_S1x256_S2048x256 (ix2 p q) = A (ix2 p q) - Cert.Spec.colMean A q
  rw [broadcastTo_1b_ab_apply, mean5_apply]

/-- (variance + ε)^(−1/2) per column, as a matrix of one row. -/
def rs5 (A : FVec Ideal S2048x256 .f32) : FVec Ideal S1x256 .f32 :=
  rsqrt (addf (divf (colSumRow5 (mulf (cen5 A) (cen5 A))) (broadcast S1x256 (Scalar.ofBits .f32 0x45000000#32)))
    (broadcast S1x256 (Scalar.ofBits .f32 0x3727C5AC#32)))

theorem rs5_apply (A : FVec Ideal S2048x256 .f32) (c : Fin 256) :
    rs5 A (ix2 (0 : Fin 1) c) = Ideal.rsqrt (Cert.Spec.colVar A c + Cert.Spec.eps) := by
  show Ideal.rsqrt (Ideal.div (colSumRow5 (mulf (cen5 A) (cen5 A)) (ix2 (0 : Fin 1) c)) (Ideal.ofBits .f32 0x45000000#32) + Ideal.ofBits .f32 0x3727C5AC#32)
    = Ideal.rsqrt (Ideal.div (∑ r : Fin 2048, Cert.Spec.centred A (ix2 r c) * Cert.Spec.centred A (ix2 r c)) Cert.Spec.cnt + Cert.Spec.eps)
  rw [colSumRow5_apply, cen5_eq]; rfl

/-- The normalisation of a block as the body forms it: gain · centred · (variance + ε)^(−1/2) + shift, then the rectifier. -/
def norm5 (A : FVec Ideal S2048x256 .f32) (g be : FVec Ideal S1x256 .f32) : FVec Ideal S2048x256 .f32 :=
  maximumf (addf (mulf (mulf (broadcastTo S2048x256 (shapeCast S1x256 g shapeCasts_S1x256_S1x256) broadcasts_S1x256_S2048x256) (cen5 A))
      (broadcastTo S2048x256 (rs5 A) broadcasts_S1x256_S2048x256))
      (broadcastTo S2048x256 (shapeCast S1x256 be shapeCasts_S1x256_S1x256) broadcasts_S1x256_S2048x256))
    (broadcast S2048x256 (Scalar.ofBits .f32 0x00000000#32))

/-- The body's value is the normalisation of the dense layer's block. -/
theorem pay5_eq (x : FVec Ideal S2048x256 .f32) (w : FVec Ideal S256x256 .bf16) (b g be : FVec Ideal S1x256 .f32) :
    k5_pay1 (F := Ideal) x w b g be = norm5 (acc5 x w b) g be := rfl

theorem norm5_apply (A : FVec Ideal S2048x256 .f32) (g be : FVec Ideal S1x256 .f32) (p : Fin 2048) (q : Fin 256) :
    norm5 A g be (ix2 p q) = Cert.Spec.relu (Cert.Spec.bn A (row5 g) (row5 be) (ix2 p q)) := by
  unfold norm5
  rw [shapeCast_self, shapeCast_self]
  show max (broadcastTo S2048x256 g broadcasts_S1x256_S2048x256 (ix2 p q) * cen5 A (ix2 p q)
        * broadcastTo S2048x256 (rs5 A) broadcasts_S1x256_S2048x256 (ix2 p q)
        + broadcastTo S2048x256 be broadcasts_S1x256_S2048x256 (ix2 p q)) (Ideal.ofBits .f32 0x00000000#32)
    = max (g (ix2 (0 : Fin 1) q) * Cert.Spec.centred A (ix2 p q) * Ideal.rsqrt (Cert.Spec.colVar A q + Cert.Spec.eps) + be (ix2 (0 : Fin 1) q)) 0
  rw [broadcastTo_1b_ab_apply, broadcastTo_1b_ab_apply, broadcastTo_1b_ab_apply, rs5_apply, cen5_eq, Ideal.ofBits_zero_f32]

/-- THE BODY'S VALUE at (p, q): the normalised dense layer of the whole input against the block's columns. -/
theorem pay5_apply (x : FVec Ideal S2048x256 .f32) (w : FVec Ideal S256x256 .bf16) (b g be : FVec Ideal S1x256 .f32)
    (p : Fin 2048) (q : Fin 256) :
    k5_pay1 (F := Ideal) x w b g be (ix2 p q) = Cert.Spec.layer x w (row5 b) (row5 g) (row5 be) (ix2 p q) := by
  rw [pay5_eq, norm5_apply, acc5_eq]; rfl

/-- A column block of the layer is the layer of the column block: the body's value at (p, q), for blocks that are
    the whole input, and columns Q of the weights and of the three vectors, is the whole layer at (p, Q q). -/
theorem blockLayer5 (xa : FVec Ideal S2048x256 .f32) (wa : FVec Ideal S256x256 .bf16) (ba ga ea : FVec Ideal S1x256 .f32)
    (x : Cert.Spec.Arr2 2048 256) (w : Cert.Spec.Arr2 256 1024) (b g be : Cert.Spec.Arr1 1024) (Q : Fin 256 → Fin 1024)
    (hxa : ∀ (p : Fin 2048) (k : Fin 256), xa (ix2 p k) = x (ix2 p k))
    (hwa : ∀ (k : Fin 256) (q : Fin 256), wa (ix2 k q) = w (ix2 k (Q q)))
    (hba : ∀ q : Fin 256, ba (ix2 (0 : Fin 1) q) = b (ix1 (Q q)))
    (hga : ∀ q : Fin 256, ga (ix2 (0 : Fin 1) q) = g (ix1 (Q q)))
    (hea : ∀ q : Fin 256, ea (ix2 (0 : Fin 1) q) = be (ix1 (Q q)))
    (j : S2048x256.Idx) :
    k5_pay1 (F := Ideal) xa wa ba ga ea j = Cert.Spec.layer x w b g be (ix2 (j 0 : Fin 2048) (Q (j 1 : Fin 256))) := by
  obtain ⟨p, q, rfl⟩ : ∃ (p : Fin 2048) (q : Fin 256), j = ix2 p q := ⟨j 0, j 1, eq_ix2 j⟩
  have hxx : xa = x := funext fun i => by
    obtain ⟨p', k, rfl⟩ : ∃ (p' : Fin 2048) (k : Fin 256), i = ix2 p' k := ⟨i 0, i 1, eq_ix2 i⟩
    exact hxa p' k
  rw [pay5_apply, hxx]
  exact (Cert.Spec.layer_congr_col x w b g be wa (row5 ba) (row5 ga) (row5 ea) p (Q q) q (fun k => (hwa k q).symm)
    (hba q).symm (hga q).symm (hea q).symm).symm

/-! ## From the blocks to the array -/

variable (V : (c : Dev nD) → (b : Ref sig .tc) → Buf (Elt Ideal) ((c : Thread nD τ).loc b))

theorem hz5 : (![0, 0] : Fin 2 → Nat) = fun _ => 0 := funext fun a => by fin_cases a <;> rfl

/-- The index maps over the grid: the input stays at block (0, 0); every other window is at column block t. -/
theorem idx5 : ∀ t : Fin cfg5.N,
    win5_0.index t (0 : Fin 2) = 0 ∧ win5_0.index t (1 : Fin 2) = 0
    ∧ win5_1.index t (0 : Fin 2) = 0 ∧ win5_1.index t (1 : Fin 2) = t.val
    ∧ win5_2.index t (0 : Fin 2) = 0 ∧ win5_2.index t (1 : Fin 2) = t.val
    ∧ win5_3.index t (0 : Fin 2) = 0 ∧ win5_3.index t (1 : Fin 2) = t.val
    ∧ win5_4.index t (0 : Fin 2) = 0 ∧ win5_4.index t (1 : Fin 2) = t.val
    ∧ win5_5.index t (0 : Fin 2) = 0 ∧ win5_5.index t (1 : Fin 2) = t.val :=
  (by decide +kernel : ∀ t : Fin grid5.N, _)

/-- Column q of point t's column block, in the whole array. -/
def col5 (t : Fin cfg5.N) (q : Fin 256) : Fin 1024 :=
  ⟨t.val * 256 + q.val, by have h : t.val < 4 := lt_of_lt_of_eq t.isLt N_5; have := q.isLt; omega⟩

/-- The input window's block at any point is the whole input. -/
theorem blk5_0 (c : Dev nD) (t : Fin cfg5.N) (p : Fin 2048) (k : Fin 256) :
    (iblk5 V c 0 t : FVec Ideal S2048x256 .f32) (ix2 p k) = (V c (Pipeline.arrRef spec5 0) : S2048x256.Idx → EReal) (ix2 p k) := by
  obtain ⟨e00, e01, -⟩ := idx5 t
  show V c (Pipeline.arrRef spec5 0) (((cfg5.win 0).blk t).view.emb (ix2 p k)) = _
  refine congrArg _ ?_
  funext a; apply Fin.ext
  match a with
  | ⟨0, _⟩ => show win5_0.index t (0 : Fin 2) * 2048 + 1 * p.val = p.val; omega
  | ⟨1, _⟩ => show win5_0.index t (1 : Fin 2) * 256 + 1 * k.val = k.val; omega

/-- The weight window's block at point t is columns 256 t … 256 t + 255 of the weights. -/
theorem blk5_1 (c : Dev nD) (t : Fin cfg5.N) (k : Fin 256) (q : Fin 256) :
    (iblk5 V c 1 t : FVec Ideal S256x256 .bf16) (ix2 k q) = (V c (Pipeline.arrRef spec5 1) : S256x1024.Idx → EReal) (ix2 k (col5 t q)) := by
  obtain ⟨-, -, e10, e11, -⟩ := idx5 t
  show V c (Pipeline.arrRef spec5 1) (((cfg5.win 1).blk t).view.emb (ix2 k q)) = _
  refine congrArg _ ?_
  funext a; apply Fin.ext
  match a with
  | ⟨0, _⟩ => show win5_1.index t (0 : Fin 2) * 256 + 1 * k.val = k.val; omega
  | ⟨1, _⟩ => show win5_1.index t (1 : Fin 2) * 256 + 1 * q.val = t.val * 256 + q.val; omega

/-- The bias window's block at point t is entries 256 t … 256 t + 255 of the bias. -/
theorem blk5_2 (c : Dev nD) (t : Fin cfg5.N) (q : Fin 256) :
    (iblk5 V c 2 t : FVec Ideal S1x256 .f32) (ix2 (0 : Fin 1) q) = (V c (Pipeline.arrRef spec5 2) : S1x1024.Idx → EReal) (ix2 (0 : Fin 1) (col5 t q)) := by
  obtain ⟨-, -, -, -, e20, e21, -⟩ := idx5 t
  show V c (Pipeline.arrRef spec5 2) (((cfg5.win 2).blk t).view.emb (ix2 (0 : Fin 1) q)) = _
  refine congrArg _ ?_
  funext a; apply Fin.ext
  match a with
  | ⟨0, _⟩ => show win5_2.index t (0 : Fin 2) * 1 + 1 * 0 = 0; omega
  | ⟨1, _⟩ => show win5_2.index t (1 : Fin 2) * 256 + 1 * q.val = t.val * 256 + q.val; omega

/-- The gain window's block likewise. -/
theorem blk5_3 (c : Dev nD) (t : Fin cfg5.N) (q : Fin 256) :
    (iblk5 V c 3 t : FVec Ideal S1x256 .f32) (ix2 (0 : Fin 1) q) = (V c (Pipeline.arrRef spec5 3) : S1x1024.Idx → EReal) (ix2 (0 : Fin 1) (col5 t q)) := by
  obtain ⟨-, -, -, -, -, -, e30, e31, -⟩ := idx5 t
  show V c (Pipeline.arrRef spec5 3) (((cfg5.win 3).blk t).view.emb (ix2 (0 : Fin 1) q)) = _
  refine congrArg _ ?_
  funext a; apply Fin.ext
  match a with
  | ⟨0, _⟩ => show win5_3.index t (0 : Fin 2) * 1 + 1 * 0 = 0; omega
  | ⟨1, _⟩ => show win5_3.index t (1 : Fin 2) * 256 + 1 * q.val = t.val * 256 + q.val; omega

/-- The shift window's block likewise. -/
theorem blk5_4 (c : Dev nD) (t : Fin cfg5.N) (q : Fin 256) :
    (iblk5 V c 4 t : FVec Ideal S1x256 .f32) (ix2 (0 : Fin 1) q) = (V c (Pipeline.arrRef spec5 4) : S1x1024.Idx → EReal) (ix2 (0 : Fin 1) (col5 t q)) := by
  obtain ⟨-, -, -, -, -, -, -, -, e40, e41, -⟩ := idx5 t
  show V c (Pipeline.arrRef spec5 4) (((cfg5.win 4).blk t).view.emb (ix2 (0 : Fin 1) q)) = _
  refine congrArg _ ?_
  funext a; apply Fin.ext
  match a with
  | ⟨0, _⟩ => show win5_4.index t (0 : Fin 2) * 1 + 1 * 0 = 0; omega
  | ⟨1, _⟩ => show win5_4.index t (1 : Fin 2) * 256 + 1 * q.val = t.val * 256 + q.val; omega

/-- WHAT POINT t WRITES BACK is block t of the normalised dense layer of the arrays as the region finds them. -/
theorem flushed5_eq (c : Dev nD) (x : Cert.Spec.Arr2 2048 256) (w : Cert.Spec.Arr2 256 1024) (b g be : Cert.Spec.Arr1 1024)
    (hx : ∀ i, V c (Pipeline.arrRef spec5 0) i = x i) (hw : ∀ i, V c (Pipeline.arrRef spec5 1) i = w i)
    (hb : ∀ q : Fin 1024, V c (Pipeline.arrRef spec5 2) (ix2 (0 : Fin 1) q) = b (ix1 q))
    (hg : ∀ q : Fin 1024, V c (Pipeline.arrRef spec5 3) (ix2 (0 : Fin 1) q) = g (ix1 q))
    (hbe : ∀ q : Fin 1024, V c (Pipeline.arrRef spec5 4) (ix2 (0 : Fin 1) q) = be (ix1 q))
    (t : Fin cfg5.N) :
    (dat5 V c).flushed 5 t = ((cfg5.win 5).blk t).view.read (Elt Ideal) (Cert.Spec.layer x w b g be) := by
  show (cfg5.win 5).cut (grid5.coords t) ((dat5 V c).after 5 t) = _
  rw [after5_5]
  unfold out5_5
  rw [View.canon_unit_zero hz5]
  simp only [View.ld_unit_zero (S := S2048x256) hz5, View.ld_unit_zero (S := S256x256) hz5, View.ld_unit_zero (S := S1x256) hz5]
  funext j
  obtain ⟨-, -, -, -, -, -, -, -, -, -, e50, e51⟩ := idx5 t
  show k5_pay1 (F := Ideal) (iblk5 V c 0 t) (iblk5 V c 1 t) (iblk5 V c 2 t) (iblk5 V c 3 t) (iblk5 V c 4 t) j
    = Cert.Spec.layer x w b g be (((cfg5.win 5).blk t).view.emb j)
  refine (blockLayer5 (iblk5 V c 0 t) (iblk5 V c 1 t) (iblk5 V c 2 t) (iblk5 V c 3 t) (iblk5 V c 4 t) x w b g be (col5 t)
    (fun p k => (blk5_0 V c t p k).trans (hx _)) (fun k q => (blk5_1 V c t k q).trans (hw _))
    (fun q => (blk5_2 V c t q).trans (hb _)) (fun q => (blk5_3 V c t q).trans (hg _)) (fun q => (blk5_4 V c t q).trans (hbe _)) j).trans ?_
  refine congrArg (Cert.Spec.layer x w b g be) ?_
  funext a; apply Fin.ext
  match a with
  | ⟨0, _⟩ => show (j 0).val = win5_5.index t (0 : Fin 2) * 2048 + 1 * (j 0).val; omega
  | ⟨1, _⟩ => show t.val * 256 + (j 1).val = win5_5.index t (1 : Fin 2) * 256 + 1 * (j 1).val; omega

/-- An index of the result array is in point t's block iff each coordinate is in the block's range on its axis. -/
theorem mem_blk5 (t : Fin cfg5.N) (i : S2048x1024.Idx) :
    i ∈ ((cfg5.win 5).blk t).view.set ↔ ∀ a : Fin 2, win5_5.index t a * S2048x256.size a ≤ (i a).val ∧ (i a).val < win5_5.index t a * S2048x256.size a + S2048x256.size a := by
  show i ∈ ((View.whole main_v117).slice (win5_5.rect t)).set ↔ _
  rw [View.set_slice_whole, Rect.mem_set_unit]
  exact Iff.rfl

/-- Column q of the result is written by the point q / 256: the column blocks tile the array. -/
theorem cover5 (i : S2048x1024.Idx) : ∃ t : Fin cfg5.N, (cfg5.win 5).flush t = true ∧ i ∈ ((cfg5.win 5).blk t).view.set := by
  have hi0 : (i 0).val < 2048 := (i 0).isLt
  have hi1 : (i 1).val < 1024 := (i 1).isLt
  have hN : grid5.N = 4 := N_5
  obtain ⟨t, ht⟩ : ∃ t : Fin cfg5.N, t.val = (i 1).val / 256 := ⟨⟨(i 1).val / 256, by show _ < grid5.N; rw [hN]; omega⟩, rfl⟩
  obtain ⟨-, -, -, -, -, -, -, -, -, -, e50, e51⟩ := idx5 t
  refine ⟨t, flush5_5 t, ?_⟩
  rw [mem_blk5]
  intro a
  match a with
  | ⟨0, _⟩ => show win5_5.index t (0 : Fin 2) * 2048 ≤ (i 0).val ∧ (i 0).val < win5_5.index t (0 : Fin 2) * 2048 + 2048; omega
  | ⟨1, _⟩ => show win5_5.index t (1 : Fin 2) * 256 ≤ (i 1).val ∧ (i 1).val < win5_5.index t (1 : Fin 2) * 256 + 256; omega

/-- THE REGION'S RESULT: after the region the output array is the normalised dense layer, with the rectifier, of the
    arrays the region found, index by index. -/
theorem region5_val (c : Dev nD) (x : Cert.Spec.Arr2 2048 256) (w : Cert.Spec.Arr2 256 1024) (b g be : Cert.Spec.Arr1 1024)
    (hx : ∀ i, V c (Pipeline.arrRef spec5 0) i = x i) (hw : ∀ i, V c (Pipeline.arrRef spec5 1) i = w i)
    (hb : ∀ q : Fin 1024, V c (Pipeline.arrRef spec5 2) (ix2 (0 : Fin 1) q) = b (ix1 q))
    (hg : ∀ q : Fin 1024, V c (Pipeline.arrRef spec5 3) (ix2 (0 : Fin 1) q) = g (ix1 q))
    (hbe : ∀ q : Fin 1024, V c (Pipeline.arrRef spec5 4) (ix2 (0 : Fin 1) q) = be (ix1 q)) :
    ∀ i, (dat5 V c).arrAt 5 cfg5.N i = Cert.Spec.layer x w b g be i :=
  fun i => congrFun ((dat5 V c).arrAt_eq_of_cover 5 (Cert.Spec.layer x w b g be)
    (fun t _ => flushed5_eq V c x w b g be hx hw hb hg hbe t) cover5) i

end Cert.KernelIdeal.RV

end
-- ==== Proof.KLayer6.lean ====
/-
  A normalised dense layer with the rectifier, 1024 inputs into 3584 columns over 2048 rows, as the kernel computes it.

  The grid tiles only the columns: each of its 14 points sees all 2048 rows of the input, the 256 columns of the
  weights at its column block, and the matching 256 entries of the bias, gain and shift. Per column the body
  forms x·W + b, subtracts the column's mean over the 2048 rows, divides the centred column's sum of squares by 2048,
  and returns max(g · centred · (variance + ε)^(−1/2) + β, 0). Every one of these is a statistic of ONE column, so a
  column block of the layer is the layer of the column block; the blocks tile the columns, so the result array is the
  layer of the whole arrays, index by index. The input arrives in the 32-bit format and the body narrows it to the
  16-bit one before the product: on the extended reals that is the identity.
-/
import proofs.«402148_j44985487458808_3_alg».proof.Proof.Gen.KernelIdeal.Frame
import proofs.«402148_j44985487458808_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RV

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

/-! ## The product: which entries of the two operands each term reads -/

abbrev D6 := dot_S2048x1024_S1024x256_S2048x256_1_0_0_1_n_n

theorem lhs6_0 (j : S2048x256.Idx) (k : D6.contr.Idx) : (D6.lhsIdx j k 0 : ℕ) = j 0 := by
  simp [DotDims.lhsIdx, D6, dot_S2048x1024_S1024x256_S2048x256_1_0_0_1_n_n]; rfl
theorem lhs6_1 (j : S2048x256.Idx) (k : D6.contr.Idx) : (D6.lhsIdx j k 1 : ℕ) = k ⟨0, by decide⟩ := by
  simp [DotDims.lhsIdx, D6, dot_S2048x1024_S1024x256_S2048x256_1_0_0_1_n_n]; rfl
theorem rhs6_0 (j : S2048x256.Idx) (k : D6.contr.Idx) : (D6.rhsIdx j k 0 : ℕ) = k ⟨0, by decide⟩ := by
  simp [DotDims.rhsIdx, D6, dot_S2048x1024_S1024x256_S2048x256_1_0_0_1_n_n]; rfl
theorem rhs6_1 (j : S2048x256.Idx) (k : D6.contr.Idx) : (D6.rhsIdx j k 1 : ℕ) = j 1 := by
  simp [DotDims.rhsIdx, D6, dot_S2048x1024_S1024x256_S2048x256_1_0_0_1_n_n]; rfl

/-- The product block at (p, q), accumulated from zero: the sum over the 1024 inner positions k of l(p, k) · r(k, q). -/
theorem mm6_apply (l : FVec Ideal S2048x1024 .bf16) (r : FVec Ideal S1024x256 .bf16) (p : Fin 2048) (q : Fin 256) :
    matmul D6 none l r (constant (F := Ideal) S2048x256 .f32 0x00000000#32) (ix2 p q)
      = ∑ k : Fin 1024, l (ix2 p k) * r (ix2 k q) := by
  refine (Ideal.matmul_constant_zero_apply D6 none l r (ix2 p q)).trans ?_
  rw [← Equiv.sum_comp (contrEquiv1 D6 1024 rfl rfl).symm]
  refine Finset.sum_congr rfl fun k _ => ?_
  have hk := contrEquiv1_symm_val D6 1024 rfl rfl k
  congr 2
  · apply Shape.idx_ext₂
    · exact lhs6_0 _ _
    · exact (lhs6_1 _ _).trans hk
  · apply Shape.idx_ext₂
    · exact (rhs6_0 _ _).trans hk
    · exact rhs6_1 _ _

/-! ## The body's value at an index -/

/-- A matrix of one row, read as a vector. -/
abbrev row6 {n : ℕ} (v : (⟨2, ![1, n]⟩ : Shape).Idx → EReal) : Cert.Spec.Arr1 n := fun i => v (ix2 (0 : Fin 1) (i 0 : Fin n))

/-- The dense layer's block as the body forms it: the product into a zero accumulator, plus the bias over all rows. -/
def acc6 (x : FVec Ideal S2048x1024 .f32) (w : FVec Ideal S1024x256 .bf16) (b : FVec Ideal S1x256 .f32) : FVec Ideal S2048x256 .f32 :=
  addf (matmul D6 none (truncf .bf16 (shapeCast S2048x1024 x shapeCasts_S2048x1024_S2048x1024) bitsLt_bf16_f32) (shapeCast S1024x256 w shapeCasts_S1024x256_S1024x256) (constant (F := Ideal) S2048x256 .f32 0x00000000#32))
    (broadcastTo S2048x256 (shapeCast S1x256 b shapeCasts_S1x256_S1x256) broadcasts_S1x256_S2048x256)

/-- It is x·W + b on the block's columns. -/
theorem acc6_eq (x : FVec Ideal S2048x1024 .f32) (w : FVec Ideal S1024x256 .bf16) (b : FVec Ideal S1x256 .f32) :
    acc6 x w b = Cert.Spec.lin x w (row6 b) := by
  funext j
  obtain ⟨p, q, rfl⟩ : ∃ (p : Fin 2048) (q : Fin 256), j = ix2 p q := ⟨j 0, j 1, eq_ix2 j⟩
  unfold acc6
  rw [shapeCast_self, shapeCast_self, shapeCast_self]
  show matmul D6 none (truncf .bf16 x bitsLt_bf16_f32) w (constant (F := Ideal) S2048x256 .f32 0x00000000#32) (ix2 p q)
      + broadcastTo S2048x256 b broadcasts_S1x256_S2048x256 (ix2 p q) = (∑ k : Fin 1024, truncf .bf16 x bitsLt_bf16_f32 (ix2 p k) * w (ix2 k q)) + b (ix2 (0 : Fin 1) q)
  rw [mm6_apply, broadcastTo_1b_ab_apply]

/-- The column sums of a block, kept as a matrix of one row. -/
def colSumRow6 (A : FVec Ideal S2048x256 .f32) : FVec Ideal S1x256 .f32 :=
  shapeCast S1x256 (multiReduction .add [0] S256 A 0x00000000#32 reduces_S2048x256_S256 (.inl rfl) rfl) shapeCasts_S256_S1x256

theorem colSumRow6_apply (A : FVec Ideal S2048x256 .f32) (c : Fin 256) :
    colSumRow6 A (ix2 (0 : Fin 1) c) = ∑ r : Fin 2048, A (ix2 r c) := by
  unfold colSumRow6
  refine (shapeCast_a_1a_apply _ _ (0 : Fin 1) c).trans ?_
  refine (Ideal.multiReduction_add_single A 0x00000000#32 reduces_S2048x256_S256 (.inl rfl) rfl (ix1 c)).trans ?_
  show ∑ r : Fin 2048, A (reduces_S2048x256_S256.lift (ix1 c) r) = _
  refine Finset.sum_congr rfl fun r _ => congrArg A ?_
  exact Shape.idx_ext₂ rfl rfl

/-- The column means as a matrix of one row: the column sums over the batch size. -/
def mean6 (A : FVec Ideal S2048x256 .f32) : FVec Ideal S1x256 .f32 :=
  divf (colSumRow6 A) (broadcast S1x256 (Scalar.ofBits .f32 0x45000000#32))

theorem mean6_apply (A : FVec Ideal S2048x256 .f32) (c : Fin 256) : mean6 A (ix2 (0 : Fin 1) c) = Cert.Spec.colMean A c := by
  show Ideal.div (colSumRow6 A (ix2 (0 : Fin 1) c)) (Ideal.ofBits .f32 0x45000000#32) = Ideal.div (∑ r : Fin 2048, A (ix2 r c)) Cert.Spec.cnt
  rw [colSumRow6_apply]; rfl

/-- The block with each column's mean subtracted. -/
def cen6 (A : FVec Ideal S2048x256 .f32) : FVec Ideal S2048x256 .f32 :=
  subf A (broadcastTo S2048x256 (mean6 A) broadcasts_S1x256_S2048x256)

theorem cen6_eq (A : FVec Ideal S2048x256 .f32) : cen6 A = Cert.Spec.centred A := by
  funext j
  obtain ⟨p, q, rfl⟩ : ∃ (p : Fin 2048) (q : Fin 256), j = ix2 p q := ⟨j 0, j 1, eq_ix2 j⟩
  show A (ix2 p q) - broadcastTo S2048x256 (mean6 A) broadcasts_S1x256_S2048x256 (ix2 p q) = A (ix2 p q) - Cert.Spec.colMean A q
  rw [broadcastTo_1b_ab_apply, mean6_apply]

/-- (variance + ε)^(−1/2) per column, as a matrix of one row. -/
def rs6 (A : FVec Ideal S2048x256 .f32) : FVec Ideal S1x256 .f32 :=
  rsqrt (addf (divf (colSumRow6 (mulf (cen6 A) (cen6 A))) (broadcast S1x256 (Scalar.ofBits .f32 0x45000000#32)))
    (broadcast S1x256 (Scalar.ofBits .f32 0x3727C5AC#32)))

theorem rs6_apply (A : FVec Ideal S2048x256 .f32) (c : Fin 256) :
    rs6 A (ix2 (0 : Fin 1) c) = Ideal.rsqrt (Cert.Spec.colVar A c + Cert.Spec.eps) := by
  show Ideal.rsqrt (Ideal.div (colSumRow6 (mulf (cen6 A) (cen6 A)) (ix2 (0 : Fin 1) c)) (Ideal.ofBits .f32 0x45000000#32) + Ideal.ofBits .f32 0x3727C5AC#32)
    = Ideal.rsqrt (Ideal.div (∑ r : Fin 2048, Cert.Spec.centred A (ix2 r c) * Cert.Spec.centred A (ix2 r c)) Cert.Spec.cnt + Cert.Spec.eps)
  rw [colSumRow6_apply, cen6_eq]; rfl

/-- The normalisation of a block as the body forms it: gain · centred · (variance + ε)^(−1/2) + shift, then the rectifier. -/
def norm6 (A : FVec Ideal S2048x256 .f32) (g be : FVec Ideal S1x256 .f32) : FVec Ideal S2048x256 .f32 :=
  maximumf (addf (mulf (mulf (broadcastTo S2048x256 (shapeCast S1x256 g shapeCasts_S1x256_S1x256) broadcasts_S1x256_S2048x256) (cen6 A))
      (broadcastTo S2048x256 (rs6 A) broadcasts_S1x256_S2048x256))
      (broadcastTo S2048x256 (shapeCast S1x256 be shapeCasts_S1x256_S1x256) broadcasts_S1x256_S2048x256))
    (broadcast S2048x256 (Scalar.ofBits .f32 0x00000000#32))

/-- The body's value is the normalisation of the dense layer's block. -/
theorem pay6_eq (x : FVec Ideal S2048x1024 .f32) (w : FVec Ideal S1024x256 .bf16) (b g be : FVec Ideal S1x256 .f32) :
    k6_pay1 (F := Ideal) x w b g be = norm6 (acc6 x w b) g be := rfl

theorem norm6_apply (A : FVec Ideal S2048x256 .f32) (g be : FVec Ideal S1x256 .f32) (p : Fin 2048) (q : Fin 256) :
    norm6 A g be (ix2 p q) = Cert.Spec.relu (Cert.Spec.bn A (row6 g) (row6 be) (ix2 p q)) := by
  unfold norm6
  rw [shapeCast_self, shapeCast_self]
  show max (broadcastTo S2048x256 g broadcasts_S1x256_S2048x256 (ix2 p q) * cen6 A (ix2 p q)
        * broadcastTo S2048x256 (rs6 A) broadcasts_S1x256_S2048x256 (ix2 p q)
        + broadcastTo S2048x256 be broadcasts_S1x256_S2048x256 (ix2 p q)) (Ideal.ofBits .f32 0x00000000#32)
    = max (g (ix2 (0 : Fin 1) q) * Cert.Spec.centred A (ix2 p q) * Ideal.rsqrt (Cert.Spec.colVar A q + Cert.Spec.eps) + be (ix2 (0 : Fin 1) q)) 0
  rw [broadcastTo_1b_ab_apply, broadcastTo_1b_ab_apply, broadcastTo_1b_ab_apply, rs6_apply, cen6_eq, Ideal.ofBits_zero_f32]

/-- THE BODY'S VALUE at (p, q): the normalised dense layer of the whole input against the block's columns. -/
theorem pay6_apply (x : FVec Ideal S2048x1024 .f32) (w : FVec Ideal S1024x256 .bf16) (b g be : FVec Ideal S1x256 .f32)
    (p : Fin 2048) (q : Fin 256) :
    k6_pay1 (F := Ideal) x w b g be (ix2 p q) = Cert.Spec.layer x w (row6 b) (row6 g) (row6 be) (ix2 p q) := by
  rw [pay6_eq, norm6_apply, acc6_eq]; rfl

/-- A column block of the layer is the layer of the column block: the body's value at (p, q), for blocks that are
    the whole input, and columns Q of the weights and of the three vectors, is the whole layer at (p, Q q). -/
theorem blockLayer6 (xa : FVec Ideal S2048x1024 .f32) (wa : FVec Ideal S1024x256 .bf16) (ba ga ea : FVec Ideal S1x256 .f32)
    (x : Cert.Spec.Arr2 2048 1024) (w : Cert.Spec.Arr2 1024 3584) (b g be : Cert.Spec.Arr1 3584) (Q : Fin 256 → Fin 3584)
    (hxa : ∀ (p : Fin 2048) (k : Fin 1024), xa (ix2 p k) = x (ix2 p k))
    (hwa : ∀ (k : Fin 1024) (q : Fin 256), wa (ix2 k q) = w (ix2 k (Q q)))
    (hba : ∀ q : Fin 256, ba (ix2 (0 : Fin 1) q) = b (ix1 (Q q)))
    (hga : ∀ q : Fin 256, ga (ix2 (0 : Fin 1) q) = g (ix1 (Q q)))
    (hea : ∀ q : Fin 256, ea (ix2 (0 : Fin 1) q) = be (ix1 (Q q)))
    (j : S2048x256.Idx) :
    k6_pay1 (F := Ideal) xa wa ba ga ea j = Cert.Spec.layer x w b g be (ix2 (j 0 : Fin 2048) (Q (j 1 : Fin 256))) := by
  obtain ⟨p, q, rfl⟩ : ∃ (p : Fin 2048) (q : Fin 256), j = ix2 p q := ⟨j 0, j 1, eq_ix2 j⟩
  have hxx : xa = x := funext fun i => by
    obtain ⟨p', k, rfl⟩ : ∃ (p' : Fin 2048) (k : Fin 1024), i = ix2 p' k := ⟨i 0, i 1, eq_ix2 i⟩
    exact hxa p' k
  rw [pay6_apply, hxx]
  exact (Cert.Spec.layer_congr_col x w b g be wa (row6 ba) (row6 ga) (row6 ea) p (Q q) q (fun k => (hwa k q).symm)
    (hba q).symm (hga q).symm (hea q).symm).symm

/-! ## From the blocks to the array -/

variable (V : (c : Dev nD) → (b : Ref sig .tc) → Buf (Elt Ideal) ((c : Thread nD τ).loc b))

theorem hz6 : (![0, 0] : Fin 2 → Nat) = fun _ => 0 := funext fun a => by fin_cases a <;> rfl

/-- The index maps over the grid: the input stays at block (0, 0); every other window is at column block t. -/
theorem idx6 : ∀ t : Fin cfg6.N,
    win6_0.index t (0 : Fin 2) = 0 ∧ win6_0.index t (1 : Fin 2) = 0
    ∧ win6_1.index t (0 : Fin 2) = 0 ∧ win6_1.index t (1 : Fin 2) = t.val
    ∧ win6_2.index t (0 : Fin 2) = 0 ∧ win6_2.index t (1 : Fin 2) = t.val
    ∧ win6_3.index t (0 : Fin 2) = 0 ∧ win6_3.index t (1 : Fin 2) = t.val
    ∧ win6_4.index t (0 : Fin 2) = 0 ∧ win6_4.index t (1 : Fin 2) = t.val
    ∧ win6_5.index t (0 : Fin 2) = 0 ∧ win6_5.index t (1 : Fin 2) = t.val :=
  (by decide +kernel : ∀ t : Fin grid6.N, _)

/-- Column q of point t's column block, in the whole array. -/
def col6 (t : Fin cfg6.N) (q : Fin 256) : Fin 3584 :=
  ⟨t.val * 256 + q.val, by have h : t.val < 14 := lt_of_lt_of_eq t.isLt N_6; have := q.isLt; omega⟩

/-- The input window's block at any point is the whole input. -/
theorem blk6_0 (c : Dev nD) (t : Fin cfg6.N) (p : Fin 2048) (k : Fin 1024) :
    (iblk6 V c 0 t : FVec Ideal S2048x1024 .f32) (ix2 p k) = (V c (Pipeline.arrRef spec6 0) : S2048x1024.Idx → EReal) (ix2 p k) := by
  obtain ⟨e00, e01, -⟩ := idx6 t
  show V c (Pipeline.arrRef spec6 0) (((cfg6.win 0).blk t).view.emb (ix2 p k)) = _
  refine congrArg _ ?_
  funext a; apply Fin.ext
  match a with
  | ⟨0, _⟩ => show win6_0.index t (0 : Fin 2) * 2048 + 1 * p.val = p.val; omega
  | ⟨1, _⟩ => show win6_0.index t (1 : Fin 2) * 1024 + 1 * k.val = k.val; omega

/-- The weight window's block at point t is columns 256 t … 256 t + 255 of the weights. -/
theorem blk6_1 (c : Dev nD) (t : Fin cfg6.N) (k : Fin 1024) (q : Fin 256) :
    (iblk6 V c 1 t : FVec Ideal S1024x256 .bf16) (ix2 k q) = (V c (Pipeline.arrRef spec6 1) : S1024x3584.Idx → EReal) (ix2 k (col6 t q)) := by
  obtain ⟨-, -, e10, e11, -⟩ := idx6 t
  show V c (Pipeline.arrRef spec6 1) (((cfg6.win 1).blk t).view.emb (ix2 k q)) = _
  refine congrArg _ ?_
  funext a; apply Fin.ext
  match a with
  | ⟨0, _⟩ => show win6_1.index t (0 : Fin 2) * 1024 + 1 * k.val = k.val; omega
  | ⟨1, _⟩ => show win6_1.index t (1 : Fin 2) * 256 + 1 * q.val = t.val * 256 + q.val; omega

/-- The bias window's block at point t is entries 256 t … 256 t + 255 of the bias. -/
theorem blk6_2 (c : Dev nD) (t : Fin cfg6.N) (q : Fin 256) :
    (iblk6 V c 2 t : FVec Ideal S1x256 .f32) (ix2 (0 : Fin 1) q) = (V c (Pipeline.arrRef spec6 2) : S1x3584.Idx → EReal) (ix2 (0 : Fin 1) (col6 t q)) := by
  obtain ⟨-, -, -, -, e20, e21, -⟩ := idx6 t
  show V c (Pipeline.arrRef spec6 2) (((cfg6.win 2).blk t).view.emb (ix2 (0 : Fin 1) q)) = _
  refine congrArg _ ?_
  funext a; apply Fin.ext
  match a with
  | ⟨0, _⟩ => show win6_2.index t (0 : Fin 2) * 1 + 1 * 0 = 0; omega
  | ⟨1, _⟩ => show win6_2.index t (1 : Fin 2) * 256 + 1 * q.val = t.val * 256 + q.val; omega

/-- The gain window's block likewise. -/
theorem blk6_3 (c : Dev nD) (t : Fin cfg6.N) (q : Fin 256) :
    (iblk6 V c 3 t : FVec Ideal S1x256 .f32) (ix2 (0 : Fin 1) q) = (V c (Pipeline.arrRef spec6 3) : S1x3584.Idx → EReal) (ix2 (0 : Fin 1) (col6 t q)) := by
  obtain ⟨-, -, -, -, -, -, e30, e31, -⟩ := idx6 t
  show V c (Pipeline.arrRef spec6 3) (((cfg6.win 3).blk t).view.emb (ix2 (0 : Fin 1) q)) = _
  refine congrArg _ ?_
  funext a; apply Fin.ext
  match a with
  | ⟨0, _⟩ => show win6_3.index t (0 : Fin 2) * 1 + 1 * 0 = 0; omega
  | ⟨1, _⟩ => show win6_3.index t (1 : Fin 2) * 256 + 1 * q.val = t.val * 256 + q.val; omega

/-- The shift window's block likewise. -/
theorem blk6_4 (c : Dev nD) (t : Fin cfg6.N) (q : Fin 256) :
    (iblk6 V c 4 t : FVec Ideal S1x256 .f32) (ix2 (0 : Fin 1) q) = (V c (Pipeline.arrRef spec6 4) : S1x3584.Idx → EReal) (ix2 (0 : Fin 1) (col6 t q)) := by
  obtain ⟨-, -, -, -, -, -, -, -, e40, e41, -⟩ := idx6 t
  show V c (Pipeline.arrRef spec6 4) (((cfg6.win 4).blk t).view.emb (ix2 (0 : Fin 1) q)) = _
  refine congrArg _ ?_
  funext a; apply Fin.ext
  match a with
  | ⟨0, _⟩ => show win6_4.index t (0 : Fin 2) * 1 + 1 * 0 = 0; omega
  | ⟨1, _⟩ => show win6_4.index t (1 : Fin 2) * 256 + 1 * q.val = t.val * 256 + q.val; omega

/-- WHAT POINT t WRITES BACK is block t of the normalised dense layer of the arrays as the region finds them. -/
theorem flushed6_eq (c : Dev nD) (x : Cert.Spec.Arr2 2048 1024) (w : Cert.Spec.Arr2 1024 3584) (b g be : Cert.Spec.Arr1 3584)
    (hx : ∀ i, V c (Pipeline.arrRef spec6 0) i = x i) (hw : ∀ i, V c (Pipeline.arrRef spec6 1) i = w i)
    (hb : ∀ q : Fin 3584, V c (Pipeline.arrRef spec6 2) (ix2 (0 : Fin 1) q) = b (ix1 q))
    (hg : ∀ q : Fin 3584, V c (Pipeline.arrRef spec6 3) (ix2 (0 : Fin 1) q) = g (ix1 q))
    (hbe : ∀ q : Fin 3584, V c (Pipeline.arrRef spec6 4) (ix2 (0 : Fin 1) q) = be (ix1 q))
    (t : Fin cfg6.N) :
    (dat6 V c).flushed 5 t = ((cfg6.win 5).blk t).view.read (Elt Ideal) (Cert.Spec.layer x w b g be) := by
  show (cfg6.win 5).cut (grid6.coords t) ((dat6 V c).after 5 t) = _
  rw [after6_5]
  unfold out6_5
  rw [View.canon_unit_zero hz6]
  simp only [View.ld_unit_zero (S := S2048x1024) hz6, View.ld_unit_zero (S := S1024x256) hz6, View.ld_unit_zero (S := S1x256) hz6]
  funext j
  obtain ⟨-, -, -, -, -, -, -, -, -, -, e50, e51⟩ := idx6 t
  show k6_pay1 (F := Ideal) (iblk6 V c 0 t) (iblk6 V c 1 t) (iblk6 V c 2 t) (iblk6 V c 3 t) (iblk6 V c 4 t) j
    = Cert.Spec.layer x w b g be (((cfg6.win 5).blk t).view.emb j)
  refine (blockLayer6 (iblk6 V c 0 t) (iblk6 V c 1 t) (iblk6 V c 2 t) (iblk6 V c 3 t) (iblk6 V c 4 t) x w b g be (col6 t)
    (fun p k => (blk6_0 V c t p k).trans (hx _)) (fun k q => (blk6_1 V c t k q).trans (hw _))
    (fun q => (blk6_2 V c t q).trans (hb _)) (fun q => (blk6_3 V c t q).trans (hg _)) (fun q => (blk6_4 V c t q).trans (hbe _)) j).trans ?_
  refine congrArg (Cert.Spec.layer x w b g be) ?_
  funext a; apply Fin.ext
  match a with
  | ⟨0, _⟩ => show (j 0).val = win6_5.index t (0 : Fin 2) * 2048 + 1 * (j 0).val; omega
  | ⟨1, _⟩ => show t.val * 256 + (j 1).val = win6_5.index t (1 : Fin 2) * 256 + 1 * (j 1).val; omega

/-- An index of the result array is in point t's block iff each coordinate is in the block's range on its axis. -/
theorem mem_blk6 (t : Fin cfg6.N) (i : S2048x3584.Idx) :
    i ∈ ((cfg6.win 5).blk t).view.set ↔ ∀ a : Fin 2, win6_5.index t a * S2048x256.size a ≤ (i a).val ∧ (i a).val < win6_5.index t a * S2048x256.size a + S2048x256.size a := by
  show i ∈ ((View.whole main_v126).slice (win6_5.rect t)).set ↔ _
  rw [View.set_slice_whole, Rect.mem_set_unit]
  exact Iff.rfl

/-- Column q of the result is written by the point q / 256: the column blocks tile the array. -/
theorem cover6 (i : S2048x3584.Idx) : ∃ t : Fin cfg6.N, (cfg6.win 5).flush t = true ∧ i ∈ ((cfg6.win 5).blk t).view.set := by
  have hi0 : (i 0).val < 2048 := (i 0).isLt
  have hi1 : (i 1).val < 3584 := (i 1).isLt
  have hN : grid6.N = 14 := N_6
  obtain ⟨t, ht⟩ : ∃ t : Fin cfg6.N, t.val = (i 1).val / 256 := ⟨⟨(i 1).val / 256, by show _ < grid6.N; rw [hN]; omega⟩, rfl⟩
  obtain ⟨-, -, -, -, -, -, -, -, -, -, e50, e51⟩ := idx6 t
  refine ⟨t, flush6_5 t, ?_⟩
  rw [mem_blk6]
  intro a
  match a with
  | ⟨0, _⟩ => show win6_5.index t (0 : Fin 2) * 2048 ≤ (i 0).val ∧ (i 0).val < win6_5.index t (0 : Fin 2) * 2048 + 2048; omega
  | ⟨1, _⟩ => show win6_5.index t (1 : Fin 2) * 256 ≤ (i 1).val ∧ (i 1).val < win6_5.index t (1 : Fin 2) * 256 + 256; omega

/-- THE REGION'S RESULT: after the region the output array is the normalised dense layer, with the rectifier, of the
    arrays the region found, index by index. -/
theorem region6_val (c : Dev nD) (x : Cert.Spec.Arr2 2048 1024) (w : Cert.Spec.Arr2 1024 3584) (b g be : Cert.Spec.Arr1 3584)
    (hx : ∀ i, V c (Pipeline.arrRef spec6 0) i = x i) (hw : ∀ i, V c (Pipeline.arrRef spec6 1) i = w i)
    (hb : ∀ q : Fin 3584, V c (Pipeline.arrRef spec6 2) (ix2 (0 : Fin 1) q) = b (ix1 q))
    (hg : ∀ q : Fin 3584, V c (Pipeline.arrRef spec6 3) (ix2 (0 : Fin 1) q) = g (ix1 q))
    (hbe : ∀ q : Fin 3584, V c (Pipeline.arrRef spec6 4) (ix2 (0 : Fin 1) q) = be (ix1 q)) :
    ∀ i, (dat6 V c).arrAt 5 cfg6.N i = Cert.Spec.layer x w b g be i :=
  fun i => congrFun ((dat6 V c).arrAt_eq_of_cover 5 (Cert.Spec.layer x w b g be)
    (fun t _ => flushed6_eq V c x w b g be hx hw hb hg hbe t) cover6) i

end Cert.KernelIdeal.RV

end
-- ==== Proof.KLayer4.lean ====
/-
  A normalised dense layer with the rectifier, 1024 inputs into 256 columns over 2048 rows, as the kernel computes it.

  The grid tiles only the columns: each of its 2 points sees all 2048 rows of the input, the 128 columns of the
  weights at its column block, and the matching 128 entries of the bias, gain and shift. Per column the body
  forms x·W + b, subtracts the column's mean over the 2048 rows, divides the centred column's sum of squares by 2048,
  and returns max(g · centred · (variance + ε)^(−1/2) + β, 0). Every one of these is a statistic of ONE column, so a
  column block of the layer is the layer of the column block; the blocks tile the columns, so the result array is the
  layer of the whole arrays, index by index. The input arrives in the 32-bit format and the body narrows it to the
  16-bit one before the product: on the extended reals that is the identity.
-/
import proofs.«402148_j44985487458808_3_alg».proof.Proof.Gen.KernelIdeal.Frame
import proofs.«402148_j44985487458808_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RV

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

/-! ## The product: which entries of the two operands each term reads -/

abbrev D4 := dot_S2048x1024_S1024x128_S2048x128_1_0_0_1_n_n

theorem lhs4_0 (j : S2048x128.Idx) (k : D4.contr.Idx) : (D4.lhsIdx j k 0 : ℕ) = j 0 := by
  simp [DotDims.lhsIdx, D4, dot_S2048x1024_S1024x128_S2048x128_1_0_0_1_n_n]; rfl
theorem lhs4_1 (j : S2048x128.Idx) (k : D4.contr.Idx) : (D4.lhsIdx j k 1 : ℕ) = k ⟨0, by decide⟩ := by
  simp [DotDims.lhsIdx, D4, dot_S2048x1024_S1024x128_S2048x128_1_0_0_1_n_n]; rfl
theorem rhs4_0 (j : S2048x128.Idx) (k : D4.contr.Idx) : (D4.rhsIdx j k 0 : ℕ) = k ⟨0, by decide⟩ := by
  simp [DotDims.rhsIdx, D4, dot_S2048x1024_S1024x128_S2048x128_1_0_0_1_n_n]; rfl
theorem rhs4_1 (j : S2048x128.Idx) (k : D4.contr.Idx) : (D4.rhsIdx j k 1 : ℕ) = j 1 := by
  simp [DotDims.rhsIdx, D4, dot_S2048x1024_S1024x128_S2048x128_1_0_0_1_n_n]; rfl

/-- The product block at (p, q), accumulated from zero: the sum over the 1024 inner positions k of l(p, k) · r(k, q). -/
theorem mm4_apply (l : FVec Ideal S2048x1024 .bf16) (r : FVec Ideal S1024x128 .bf16) (p : Fin 2048) (q : Fin 128) :
    matmul D4 none l r (constant (F := Ideal) S2048x128 .f32 0x00000000#32) (ix2 p q)
      = ∑ k : Fin 1024, l (ix2 p k) * r (ix2 k q) := by
  refine (Ideal.matmul_constant_zero_apply D4 none l r (ix2 p q)).trans ?_
  rw [← Equiv.sum_comp (contrEquiv1 D4 1024 rfl rfl).symm]
  refine Finset.sum_congr rfl fun k _ => ?_
  have hk := contrEquiv1_symm_val D4 1024 rfl rfl k
  congr 2
  · apply Shape.idx_ext₂
    · exact lhs4_0 _ _
    · exact (lhs4_1 _ _).trans hk
  · apply Shape.idx_ext₂
    · exact (rhs4_0 _ _).trans hk
    · exact rhs4_1 _ _

/-! ## The body's value at an index -/

/-- A matrix of one row, read as a vector. -/
abbrev row4 {n : ℕ} (v : (⟨2, ![1, n]⟩ : Shape).Idx → EReal) : Cert.Spec.Arr1 n := fun i => v (ix2 (0 : Fin 1) (i 0 : Fin n))

/-- The dense layer's block as the body forms it: the product into a zero accumulator, plus the bias over all rows. -/
def acc4 (x : FVec Ideal S2048x1024 .f32) (w : FVec Ideal S1024x128 .bf16) (b : FVec Ideal S1x128 .f32) : FVec Ideal S2048x128 .f32 :=
  addf (matmul D4 none (truncf .bf16 (shapeCast S2048x1024 x shapeCasts_S2048x1024_S2048x1024) bitsLt_bf16_f32) (shapeCast S1024x128 w shapeCasts_S1024x128_S1024x128) (constant (F := Ideal) S2048x128 .f32 0x00000000#32))
    (broadcastTo S2048x128 (shapeCast S1x128 b shapeCasts_S1x128_S1x128) broadcasts_S1x128_S2048x128)

/-- It is x·W + b on the block's columns. -/
theorem acc4_eq (x : FVec Ideal S2048x1024 .f32) (w : FVec Ideal S1024x128 .bf16) (b : FVec Ideal S1x128 .f32) :
    acc4 x w b = Cert.Spec.lin x w (row4 b) := by
  funext j
  obtain ⟨p, q, rfl⟩ : ∃ (p : Fin 2048) (q : Fin 128), j = ix2 p q := ⟨j 0, j 1, eq_ix2 j⟩
  unfold acc4
  rw [shapeCast_self, shapeCast_self, shapeCast_self]
  show matmul D4 none (truncf .bf16 x bitsLt_bf16_f32) w (constant (F := Ideal) S2048x128 .f32 0x00000000#32) (ix2 p q)
      + broadcastTo S2048x128 b broadcasts_S1x128_S2048x128 (ix2 p q) = (∑ k : Fin 1024, truncf .bf16 x bitsLt_bf16_f32 (ix2 p k) * w (ix2 k q)) + b (ix2 (0 : Fin 1) q)
  rw [mm4_apply, broadcastTo_1b_ab_apply]

/-- The column sums of a block, kept as a matrix of one row. -/
def colSumRow4 (A : FVec Ideal S2048x128 .f32) : FVec Ideal S1x128 .f32 :=
  shapeCast S1x128 (multiReduction .add [0] S128 A 0x00000000#32 reduces_S2048x128_S128 (.inl rfl) rfl) shapeCasts_S128_S1x128

theorem colSumRow4_apply (A : FVec Ideal S2048x128 .f32) (c : Fin 128) :
    colSumRow4 A (ix2 (0 : Fin 1) c) = ∑ r : Fin 2048, A (ix2 r c) := by
  unfold colSumRow4
  refine (shapeCast_a_1a_apply _ _ (0 : Fin 1) c).trans ?_
  refine (Ideal.multiReduction_add_single A 0x00000000#32 reduces_S2048x128_S128 (.inl rfl) rfl (ix1 c)).trans ?_
  show ∑ r : Fin 2048, A (reduces_S2048x128_S128.lift (ix1 c) r) = _
  refine Finset.sum_congr rfl fun r _ => congrArg A ?_
  exact Shape.idx_ext₂ rfl rfl

/-- The column means as a matrix of one row: the column sums over the batch size. -/
def mean4 (A : FVec Ideal S2048x128 .f32) : FVec Ideal S1x128 .f32 :=
  divf (colSumRow4 A) (broadcast S1x128 (Scalar.ofBits .f32 0x45000000#32))

theorem mean4_apply (A : FVec Ideal S2048x128 .f32) (c : Fin 128) : mean4 A (ix2 (0 : Fin 1) c) = Cert.Spec.colMean A c := by
  show Ideal.div (colSumRow4 A (ix2 (0 : Fin 1) c)) (Ideal.ofBits .f32 0x45000000#32) = Ideal.div (∑ r : Fin 2048, A (ix2 r c)) Cert.Spec.cnt
  rw [colSumRow4_apply]; rfl

/-- The block with each column's mean subtracted. -/
def cen4 (A : FVec Ideal S2048x128 .f32) : FVec Ideal S2048x128 .f32 :=
  subf A (broadcastTo S2048x128 (mean4 A) broadcasts_S1x128_S2048x128)

theorem cen4_eq (A : FVec Ideal S2048x128 .f32) : cen4 A = Cert.Spec.centred A := by
  funext j
  obtain ⟨p, q, rfl⟩ : ∃ (p : Fin 2048) (q : Fin 128), j = ix2 p q := ⟨j 0, j 1, eq_ix2 j⟩
  show A (ix2 p q) - broadcastTo S2048x128 (mean4 A) broadcasts_S1x128_S2048x128 (ix2 p q) = A (ix2 p q) - Cert.Spec.colMean A q
  rw [broadcastTo_1b_ab_apply, mean4_apply]

/-- (variance + ε)^(−1/2) per column, as a matrix of one row. -/
def rs4 (A : FVec Ideal S2048x128 .f32) : FVec Ideal S1x128 .f32 :=
  rsqrt (addf (divf (colSumRow4 (mulf (cen4 A) (cen4 A))) (broadcast S1x128 (Scalar.ofBits .f32 0x45000000#32)))
    (broadcast S1x128 (Scalar.ofBits .f32 0x3727C5AC#32)))

theorem rs4_apply (A : FVec Ideal S2048x128 .f32) (c : Fin 128) :
    rs4 A (ix2 (0 : Fin 1) c) = Ideal.rsqrt (Cert.Spec.colVar A c + Cert.Spec.eps) := by
  show Ideal.rsqrt (Ideal.div (colSumRow4 (mulf (cen4 A) (cen4 A)) (ix2 (0 : Fin 1) c)) (Ideal.ofBits .f32 0x45000000#32) + Ideal.ofBits .f32 0x3727C5AC#32)
    = Ideal.rsqrt (Ideal.div (∑ r : Fin 2048, Cert.Spec.centred A (ix2 r c) * Cert.Spec.centred A (ix2 r c)) Cert.Spec.cnt + Cert.Spec.eps)
  rw [colSumRow4_apply, cen4_eq]; rfl

/-- The normalisation of a block as the body forms it: gain · centred · (variance + ε)^(−1/2) + shift, then the rectifier. -/
def norm4 (A : FVec Ideal S2048x128 .f32) (g be : FVec Ideal S1x128 .f32) : FVec Ideal S2048x128 .f32 :=
  maximumf (addf (mulf (mulf (broadcastTo S2048x128 (shapeCast S1x128 g shapeCasts_S1x128_S1x128) broadcasts_S1x128_S2048x128) (cen4 A))
      (broadcastTo S2048x128 (rs4 A) broadcasts_S1x128_S2048x128))
      (broadcastTo S2048x128 (shapeCast S1x128 be shapeCasts_S1x128_S1x128) broadcasts_S1x128_S2048x128))
    (broadcast S2048x128 (Scalar.ofBits .f32 0x00000000#32))

/-- The body's value is the normalisation of the dense layer's block. -/
theorem pay4_eq (x : FVec Ideal S2048x1024 .f32) (w : FVec Ideal S1024x128 .bf16) (b g be : FVec Ideal S1x128 .f32) :
    k4_pay1 (F := Ideal) x w b g be = norm4 (acc4 x w b) g be := rfl

theorem norm4_apply (A : FVec Ideal S2048x128 .f32) (g be : FVec Ideal S1x128 .f32) (p : Fin 2048) (q : Fin 128) :
    norm4 A g be (ix2 p q) = Cert.Spec.relu (Cert.Spec.bn A (row4 g) (row4 be) (ix2 p q)) := by
  unfold norm4
  rw [shapeCast_self, shapeCast_self]
  show max (broadcastTo S2048x128 g broadcasts_S1x128_S2048x128 (ix2 p q) * cen4 A (ix2 p q)
        * broadcastTo S2048x128 (rs4 A) broadcasts_S1x128_S2048x128 (ix2 p q)
        + broadcastTo S2048x128 be broadcasts_S1x128_S2048x128 (ix2 p q)) (Ideal.ofBits .f32 0x00000000#32)
    = max (g (ix2 (0 : Fin 1) q) * Cert.Spec.centred A (ix2 p q) * Ideal.rsqrt (Cert.Spec.colVar A q + Cert.Spec.eps) + be (ix2 (0 : Fin 1) q)) 0
  rw [broadcastTo_1b_ab_apply, broadcastTo_1b_ab_apply, broadcastTo_1b_ab_apply, rs4_apply, cen4_eq, Ideal.ofBits_zero_f32]

/-- THE BODY'S VALUE at (p, q): the normalised dense layer of the whole input against the block's columns. -/
theorem pay4_apply (x : FVec Ideal S2048x1024 .f32) (w : FVec Ideal S1024x128 .bf16) (b g be : FVec Ideal S1x128 .f32)
    (p : Fin 2048) (q : Fin 128) :
    k4_pay1 (F := Ideal) x w b g be (ix2 p q) = Cert.Spec.layer x w (row4 b) (row4 g) (row4 be) (ix2 p q) := by
  rw [pay4_eq, norm4_apply, acc4_eq]; rfl

/-- A column block of the layer is the layer of the column block: the body's value at (p, q), for blocks that are
    the whole input, and columns Q of the weights and of the three vectors, is the whole layer at (p, Q q). -/
theorem blockLayer4 (xa : FVec Ideal S2048x1024 .f32) (wa : FVec Ideal S1024x128 .bf16) (ba ga ea : FVec Ideal S1x128 .f32)
    (x : Cert.Spec.Arr2 2048 1024) (w : Cert.Spec.Arr2 1024 256) (b g be : Cert.Spec.Arr1 256) (Q : Fin 128 → Fin 256)
    (hxa : ∀ (p : Fin 2048) (k : Fin 1024), xa (ix2 p k) = x (ix2 p k))
    (hwa : ∀ (k : Fin 1024) (q : Fin 128), wa (ix2 k q) = w (ix2 k (Q q)))
    (hba : ∀ q : Fin 128, ba (ix2 (0 : Fin 1) q) = b (ix1 (Q q)))
    (hga : ∀ q : Fin 128, ga (ix2 (0 : Fin 1) q) = g (ix1 (Q q)))
    (hea : ∀ q : Fin 128, ea (ix2 (0 : Fin 1) q) = be (ix1 (Q q)))
    (j : S2048x128.Idx) :
    k4_pay1 (F := Ideal) xa wa ba ga ea j = Cert.Spec.layer x w b g be (ix2 (j 0 : Fin 2048) (Q (j 1 : Fin 128))) := by
  obtain ⟨p, q, rfl⟩ : ∃ (p : Fin 2048) (q : Fin 128), j = ix2 p q := ⟨j 0, j 1, eq_ix2 j⟩
  have hxx : xa = x := funext fun i => by
    obtain ⟨p', k, rfl⟩ : ∃ (p' : Fin 2048) (k : Fin 1024), i = ix2 p' k := ⟨i 0, i 1, eq_ix2 i⟩
    exact hxa p' k
  rw [pay4_apply, hxx]
  exact (Cert.Spec.layer_congr_col x w b g be wa (row4 ba) (row4 ga) (row4 ea) p (Q q) q (fun k => (hwa k q).symm)
    (hba q).symm (hga q).symm (hea q).symm).symm

/-! ## From the blocks to the array -/

variable (V : (c : Dev nD) → (b : Ref sig .tc) → Buf (Elt Ideal) ((c : Thread nD τ).loc b))

theorem hz4 : (![0, 0] : Fin 2 → Nat) = fun _ => 0 := funext fun a => by fin_cases a <;> rfl

/-- The index maps over the grid: the input stays at block (0, 0); every other window is at column block t. -/
theorem idx4 : ∀ t : Fin cfg4.N,
    win4_0.index t (0 : Fin 2) = 0 ∧ win4_0.index t (1 : Fin 2) = 0
    ∧ win4_1.index t (0 : Fin 2) = 0 ∧ win4_1.index t (1 : Fin 2) = t.val
    ∧ win4_2.index t (0 : Fin 2) = 0 ∧ win4_2.index t (1 : Fin 2) = t.val
    ∧ win4_3.index t (0 : Fin 2) = 0 ∧ win4_3.index t (1 : Fin 2) = t.val
    ∧ win4_4.index t (0 : Fin 2) = 0 ∧ win4_4.index t (1 : Fin 2) = t.val
    ∧ win4_5.index t (0 : Fin 2) = 0 ∧ win4_5.index t (1 : Fin 2) = t.val :=
  (by decide +kernel : ∀ t : Fin grid4.N, _)

/-- Column q of point t's column block, in the whole array. -/
def col4 (t : Fin cfg4.N) (q : Fin 128) : Fin 256 :=
  ⟨t.val * 128 + q.val, by have h : t.val < 2 := lt_of_lt_of_eq t.isLt N_4; have := q.isLt; omega⟩

/-- The input window's block at any point is the whole input. -/
theorem blk4_0 (c : Dev nD) (t : Fin cfg4.N) (p : Fin 2048) (k : Fin 1024) :
    (iblk4 V c 0 t : FVec Ideal S2048x1024 .f32) (ix2 p k) = (V c (Pipeline.arrRef spec4 0) : S2048x1024.Idx → EReal) (ix2 p k) := by
  obtain ⟨e00, e01, -⟩ := idx4 t
  show V c (Pipeline.arrRef spec4 0) (((cfg4.win 0).blk t).view.emb (ix2 p k)) = _
  refine congrArg _ ?_
  funext a; apply Fin.ext
  match a with
  | ⟨0, _⟩ => show win4_0.index t (0 : Fin 2) * 2048 + 1 * p.val = p.val; omega
  | ⟨1, _⟩ => show win4_0.index t (1 : Fin 2) * 1024 + 1 * k.val = k.val; omega

/-- The weight window's block at point t is columns 128 t … 128 t + 127 of the weights. -/
theorem blk4_1 (c : Dev nD) (t : Fin cfg4.N) (k : Fin 1024) (q : Fin 128) :
    (iblk4 V c 1 t : FVec Ideal S1024x128 .bf16) (ix2 k q) = (V c (Pipeline.arrRef spec4 1) : S1024x256.Idx → EReal) (ix2 k (col4 t q)) := by
  obtain ⟨-, -, e10, e11, -⟩ := idx4 t
  show V c (Pipeline.arrRef spec4 1) (((cfg4.win 1).blk t).view.emb (ix2 k q)) = _
  refine congrArg _ ?_
  funext a; apply Fin.ext
  match a with
  | ⟨0, _⟩ => show win4_1.index t (0 : Fin 2) * 1024 + 1 * k.val = k.val; omega
  | ⟨1, _⟩ => show win4_1.index t (1 : Fin 2) * 128 + 1 * q.val = t.val * 128 + q.val; omega

/-- The bias window's block at point t is entries 128 t … 128 t + 127 of the bias. -/
theorem blk4_2 (c : Dev nD) (t : Fin cfg4.N) (q : Fin 128) :
    (iblk4 V c 2 t : FVec Ideal S1x128 .f32) (ix2 (0 : Fin 1) q) = (V c (Pipeline.arrRef spec4 2) : S1x256.Idx → EReal) (ix2 (0 : Fin 1) (col4 t q)) := by
  obtain ⟨-, -, -, -, e20, e21, -⟩ := idx4 t
  show V c (Pipeline.arrRef spec4 2) (((cfg4.win 2).blk t).view.emb (ix2 (0 : Fin 1) q)) = _
  refine congrArg _ ?_
  funext a; apply Fin.ext
  match a with
  | ⟨0, _⟩ => show win4_2.index t (0 : Fin 2) * 1 + 1 * 0 = 0; omega
  | ⟨1, _⟩ => show win4_2.index t (1 : Fin 2) * 128 + 1 * q.val = t.val * 128 + q.val; omega

/-- The gain window's block likewise. -/
theorem blk4_3 (c : Dev nD) (t : Fin cfg4.N) (q : Fin 128) :
    (iblk4 V c 3 t : FVec Ideal S1x128 .f32) (ix2 (0 : Fin 1) q) = (V c (Pipeline.arrRef spec4 3) : S1x256.Idx → EReal) (ix2 (0 : Fin 1) (col4 t q)) := by
  obtain ⟨-, -, -, -, -, -, e30, e31, -⟩ := idx4 t
  show V c (Pipeline.arrRef spec4 3) (((cfg4.win 3).blk t).view.emb (ix2 (0 : Fin 1) q)) = _
  refine congrArg _ ?_
  funext a; apply Fin.ext
  match a with
  | ⟨0, _⟩ => show win4_3.index t (0 : Fin 2) * 1 + 1 * 0 = 0; omega
  | ⟨1, _⟩ => show win4_3.index t (1 : Fin 2) * 128 + 1 * q.val = t.val * 128 + q.val; omega

/-- The shift window's block likewise. -/
theorem blk4_4 (c : Dev nD) (t : Fin cfg4.N) (q : Fin 128) :
    (iblk4 V c 4 t : FVec Ideal S1x128 .f32) (ix2 (0 : Fin 1) q) = (V c (Pipeline.arrRef spec4 4) : S1x256.Idx → EReal) (ix2 (0 : Fin 1) (col4 t q)) := by
  obtain ⟨-, -, -, -, -, -, -, -, e40, e41, -⟩ := idx4 t
  show V c (Pipeline.arrRef spec4 4) (((cfg4.win 4).blk t).view.emb (ix2 (0 : Fin 1) q)) = _
  refine congrArg _ ?_
  funext a; apply Fin.ext
  match a with
  | ⟨0, _⟩ => show win4_4.index t (0 : Fin 2) * 1 + 1 * 0 = 0; omega
  | ⟨1, _⟩ => show win4_4.index t (1 : Fin 2) * 128 + 1 * q.val = t.val * 128 + q.val; omega

/-- WHAT POINT t WRITES BACK is block t of the normalised dense layer of the arrays as the region finds them. -/
theorem flushed4_eq (c : Dev nD) (x : Cert.Spec.Arr2 2048 1024) (w : Cert.Spec.Arr2 1024 256) (b g be : Cert.Spec.Arr1 256)
    (hx : ∀ i, V c (Pipeline.arrRef spec4 0) i = x i) (hw : ∀ i, V c (Pipeline.arrRef spec4 1) i = w i)
    (hb : ∀ q : Fin 256, V c (Pipeline.arrRef spec4 2) (ix2 (0 : Fin 1) q) = b (ix1 q))
    (hg : ∀ q : Fin 256, V c (Pipeline.arrRef spec4 3) (ix2 (0 : Fin 1) q) = g (ix1 q))
    (hbe : ∀ q : Fin 256, V c (Pipeline.arrRef spec4 4) (ix2 (0 : Fin 1) q) = be (ix1 q))
    (t : Fin cfg4.N) :
    (dat4 V c).flushed 5 t = ((cfg4.win 5).blk t).view.read (Elt Ideal) (Cert.Spec.layer x w b g be) := by
  show (cfg4.win 5).cut (grid4.coords t) ((dat4 V c).after 5 t) = _
  rw [after4_5]
  unfold out4_5
  rw [View.canon_unit_zero hz4]
  simp only [View.ld_unit_zero (S := S2048x1024) hz4, View.ld_unit_zero (S := S1024x128) hz4, View.ld_unit_zero (S := S1x128) hz4]
  funext j
  obtain ⟨-, -, -, -, -, -, -, -, -, -, e50, e51⟩ := idx4 t
  show k4_pay1 (F := Ideal) (iblk4 V c 0 t) (iblk4 V c 1 t) (iblk4 V c 2 t) (iblk4 V c 3 t) (iblk4 V c 4 t) j
    = Cert.Spec.layer x w b g be (((cfg4.win 5).blk t).view.emb j)
  refine (blockLayer4 (iblk4 V c 0 t) (iblk4 V c 1 t) (iblk4 V c 2 t) (iblk4 V c 3 t) (iblk4 V c 4 t) x w b g be (col4 t)
    (fun p k => (blk4_0 V c t p k).trans (hx _)) (fun k q => (blk4_1 V c t k q).trans (hw _))
    (fun q => (blk4_2 V c t q).trans (hb _)) (fun q => (blk4_3 V c t q).trans (hg _)) (fun q => (blk4_4 V c t q).trans (hbe _)) j).trans ?_
  refine congrArg (Cert.Spec.layer x w b g be) ?_
  funext a; apply Fin.ext
  match a with
  | ⟨0, _⟩ => show (j 0).val = win4_5.index t (0 : Fin 2) * 2048 + 1 * (j 0).val; omega
  | ⟨1, _⟩ => show t.val * 128 + (j 1).val = win4_5.index t (1 : Fin 2) * 128 + 1 * (j 1).val; omega

/-- An index of the result array is in point t's block iff each coordinate is in the block's range on its axis. -/
theorem mem_blk4 (t : Fin cfg4.N) (i : S2048x256.Idx) :
    i ∈ ((cfg4.win 5).blk t).view.set ↔ ∀ a : Fin 2, win4_5.index t a * S2048x128.size a ≤ (i a).val ∧ (i a).val < win4_5.index t a * S2048x128.size a + S2048x128.size a := by
  show i ∈ ((View.whole main_v112).slice (win4_5.rect t)).set ↔ _
  rw [View.set_slice_whole, Rect.mem_set_unit]
  exact Iff.rfl

/-- Column q of the result is written by the point q / 128: the column blocks tile the array. -/
theorem cover4 (i : S2048x256.Idx) : ∃ t : Fin cfg4.N, (cfg4.win 5).flush t = true ∧ i ∈ ((cfg4.win 5).blk t).view.set := by
  have hi0 : (i 0).val < 2048 := (i 0).isLt
  have hi1 : (i 1).val < 256 := (i 1).isLt
  have hN : grid4.N = 2 := N_4
  obtain ⟨t, ht⟩ : ∃ t : Fin cfg4.N, t.val = (i 1).val / 128 := ⟨⟨(i 1).val / 128, by show _ < grid4.N; rw [hN]; omega⟩, rfl⟩
  obtain ⟨-, -, -, -, -, -, -, -, -, -, e50, e51⟩ := idx4 t
  refine ⟨t, flush4_5 t, ?_⟩
  rw [mem_blk4]
  intro a
  match a with
  | ⟨0, _⟩ => show win4_5.index t (0 : Fin 2) * 2048 ≤ (i 0).val ∧ (i 0).val < win4_5.index t (0 : Fin 2) * 2048 + 2048; omega
  | ⟨1, _⟩ => show win4_5.index t (1 : Fin 2) * 128 ≤ (i 1).val ∧ (i 1).val < win4_5.index t (1 : Fin 2) * 128 + 128; omega

/-- THE REGION'S RESULT: after the region the output array is the normalised dense layer, with the rectifier, of the
    arrays the region found, index by index. -/
theorem region4_val (c : Dev nD) (x : Cert.Spec.Arr2 2048 1024) (w : Cert.Spec.Arr2 1024 256) (b g be : Cert.Spec.Arr1 256)
    (hx : ∀ i, V c (Pipeline.arrRef spec4 0) i = x i) (hw : ∀ i, V c (Pipeline.arrRef spec4 1) i = w i)
    (hb : ∀ q : Fin 256, V c (Pipeline.arrRef spec4 2) (ix2 (0 : Fin 1) q) = b (ix1 q))
    (hg : ∀ q : Fin 256, V c (Pipeline.arrRef spec4 3) (ix2 (0 : Fin 1) q) = g (ix1 q))
    (hbe : ∀ q : Fin 256, V c (Pipeline.arrRef spec4 4) (ix2 (0 : Fin 1) q) = be (ix1 q)) :
    ∀ i, (dat4 V c).arrAt 5 cfg4.N i = Cert.Spec.layer x w b g be i :=
  fun i => congrFun ((dat4 V c).arrAt_eq_of_cover 5 (Cert.Spec.layer x w b g be)
    (fun t _ => flushed4_eq V c x w b g be hx hw hb hg hbe t) cover4) i

end Cert.KernelIdeal.RV

end
-- ==== Proof.KChainLayers.lean ====
/-
  THE FOUR NORMALISED DENSE LAYERS, CARRIED THROUGH THE PROGRAM. Each of the four regions 3 to 6 computes one normalised
  dense layer with the rectifier of the array the previous region left, with weights, bias, gain and shift that the host
  stretch before it prepared from the program's arguments by operations that change no value over the extended reals (a
  narrowing of the float format, a vector laid as one row, a padding with zero columns). So each region's result is the
  specification's layer of the previous result and the arguments themselves. The last layer is computed at 3584 columns
  from weights and vectors padded from 3372, and then cut back to 3372 columns: a column of a layer depends only on the
  same column of the weights and vectors, so the cut result is the layer of the unpadded arguments. Three results are
  then left untouched until the end of the program.
-/
import proofs.«402148_j44985487458808_3_alg».proof.Proof.KGlueArgs
import proofs.«402148_j44985487458808_3_alg».proof.Proof.Spec
import proofs.«402148_j44985487458808_3_alg».proof.Proof.KPrep
import proofs.«402148_j44985487458808_3_alg».proof.Proof.KLayer3
import proofs.«402148_j44985487458808_3_alg».proof.Proof.KLayer5
import proofs.«402148_j44985487458808_3_alg».proof.Proof.KLayer6
import proofs.«402148_j44985487458808_3_alg».proof.Proof.KLayer4

noncomputable section

namespace Cert.KernelIdeal.KG

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The first layer: 3372 inputs, 1024 columns -/

theorem enc1_out (c : Dev nD) : ∀ i : S2048x1024.Idx,
    (W20 m ρ c (Proc.devRef .tc main_v107) : S2048x1024.Idx → EReal) i
      = Cert.Spec.layer (W18 m ρ c (Proc.devRef .tc main_v102_1) : Cert.Spec.Arr2 2048 3372)
          (m ((c : Thread nD τ).loc main_arg14) : Cert.Spec.Arr2 3372 1024) (m ((c : Thread nD τ).loc main_arg15) : Cert.Spec.Arr1 1024)
          (m ((c : Thread nD τ).loc main_arg16) : Cert.Spec.Arr1 1024) (m ((c : Thread nD τ).loc main_arg17) : Cert.Spec.Arr1 1024) i := by
  intro i
  -- the input array is the previous region's result, which the preparing stretch does not write
  have hx : ∀ i : S2048x3372.Idx, V19 m ρ c (Pipeline.arrRef spec3 0) i
      = (W18 m ρ c (Proc.devRef .tc main_v102_1) : S2048x3372.Idx → EReal) i := fun i => by
    show StableHlo.after hostOps3 (W18 m ρ c) (Proc.devRef .tc main_v102_1) i = _
    rw [show StableHlo.after hostOps3 (W18 m ρ c) (Proc.devRef .tc main_v102_1) = W18 m ρ c (Proc.devRef .tc main_v102_1) from by
      kkeep hostOps3]
  -- the weights: the argument with its float format narrowed
  have hw : ∀ i : S3372x1024.Idx, V19 m ρ c (Pipeline.arrRef spec3 1) i
      = (m ((c : Thread nD τ).loc main_arg14) : S3372x1024.Idx → EReal) i := fun i => by
    show StableHlo.after hostOps3 (W18 m ρ c) (Proc.devRef .tc main_v103) i = _
    rw [KPrep.trunc_v103, argAt18 m ρ c main_arg14 (by decide)]
  -- bias, gain, shift: the argument vectors, each laid as one row
  have hb : ∀ q : Fin 1024, V19 m ρ c (Pipeline.arrRef spec3 2) (ix2 (0 : Fin 1) q)
      = (m ((c : Thread nD τ).loc main_arg15) : S1024.Idx → EReal) (ix1 q) := fun q => by
    show StableHlo.after hostOps3 (W18 m ρ c) (Proc.devRef .tc main_v104) (ix2 (0 : Fin 1) q) = _
    rw [KPrep.row_v104, argAt18 m ρ c main_arg15 (by decide)]
  have hg : ∀ q : Fin 1024, V19 m ρ c (Pipeline.arrRef spec3 3) (ix2 (0 : Fin 1) q)
      = (m ((c : Thread nD τ).loc main_arg16) : S1024.Idx → EReal) (ix1 q) := fun q => by
    show StableHlo.after hostOps3 (W18 m ρ c) (Proc.devRef .tc main_v105) (ix2 (0 : Fin 1) q) = _
    rw [KPrep.row_v105, argAt18 m ρ c main_arg16 (by decide)]
  have hbe : ∀ q : Fin 1024, V19 m ρ c (Pipeline.arrRef spec3 4) (ix2 (0 : Fin 1) q)
      = (m ((c : Thread nD τ).loc main_arg17) : S1024.Idx → EReal) (ix1 q) := fun q => by
    show StableHlo.after hostOps3 (W18 m ρ c) (Proc.devRef .tc main_v106) (ix2 (0 : Fin 1) q) = _
    rw [KPrep.row_v106, argAt18 m ρ c main_arg17 (by decide)]
  rw [show W20 m ρ c (Proc.devRef .tc main_v107) = (dat3 (V19 m ρ) c).arrAt 5 cfg3.N from W20_arr m ρ c 5]
  exact RV.region3_val (V19 m ρ) c _ _ _ _ _ hx hw hb hg hbe i

/-! ## The second layer: 1024 inputs, 256 columns -/

theorem enc2_out (c : Dev nD) : ∀ i : S2048x256.Idx,
    (W22 m ρ c (Proc.devRef .tc main_v112) : S2048x256.Idx → EReal) i
      = Cert.Spec.layer (W20 m ρ c (Proc.devRef .tc main_v107) : Cert.Spec.Arr2 2048 1024)
          (m ((c : Thread nD τ).loc main_arg18) : Cert.Spec.Arr2 1024 256) (m ((c : Thread nD τ).loc main_arg19) : Cert.Spec.Arr1 256)
          (m ((c : Thread nD τ).loc main_arg20) : Cert.Spec.Arr1 256) (m ((c : Thread nD τ).loc main_arg21) : Cert.Spec.Arr1 256) i := by
  intro i
  -- the input array is the first layer's result, which the preparing stretch does not write
  have hx : ∀ i : S2048x1024.Idx, V21 m ρ c (Pipeline.arrRef spec4 0) i
      = (W20 m ρ c (Proc.devRef .tc main_v107) : S2048x1024.Idx → EReal) i := fun i => by
    show StableHlo.after hostOps4 (W20 m ρ c) (Proc.devRef .tc main_v107) i = _
    rw [show StableHlo.after hostOps4 (W20 m ρ c) (Proc.devRef .tc main_v107) = W20 m ρ c (Proc.devRef .tc main_v107) from by
      kkeep hostOps4]
  have hw : ∀ i : S1024x256.Idx, V21 m ρ c (Pipeline.arrRef spec4 1) i
      = (m ((c : Thread nD τ).loc main_arg18) : S1024x256.Idx → EReal) i := fun i => by
    show StableHlo.after hostOps4 (W20 m ρ c) (Proc.devRef .tc main_v108) i = _
    rw [KPrep.trunc_v108, argAt20 m ρ c main_arg18 (by decide)]
  have hb : ∀ q : Fin 256, V21 m ρ c (Pipeline.arrRef spec4 2) (ix2 (0 : Fin 1) q)
      = (m ((c : Thread nD τ).loc main_arg19) : S256.Idx → EReal) (ix1 q) := fun q => by
    show StableHlo.after hostOps4 (W20 m ρ c) (Proc.devRef .tc main_v109) (ix2 (0 : Fin 1) q) = _
    rw [KPrep.row_v109, argAt20 m ρ c main_arg19 (by decide)]
  have hg : ∀ q : Fin 256, V21 m ρ c (Pipeline.arrRef spec4 3) (ix2 (0 : Fin 1) q)
      = (m ((c : Thread nD τ).loc main_arg20) : S256.Idx → EReal) (ix1 q) := fun q => by
    show StableHlo.after hostOps4 (W20 m ρ c) (Proc.devRef .tc main_v110) (ix2 (0 : Fin 1) q) = _
    rw [KPrep.row_v110, argAt20 m ρ c main_arg20 (by decide)]
  have hbe : ∀ q : Fin 256, V21 m ρ c (Pipeline.arrRef spec4 4) (ix2 (0 : Fin 1) q)
      = (m ((c : Thread nD τ).loc main_arg21) : S256.Idx → EReal) (ix1 q) := fun q => by
    show StableHlo.after hostOps4 (W20 m ρ c) (Proc.devRef .tc main_v111) (ix2 (0 : Fin 1) q) = _
    rw [KPrep.row_v111, argAt20 m ρ c main_arg21 (by decide)]
  rw [show W22 m ρ c (Proc.devRef .tc main_v112) = (dat4 (V21 m ρ) c).arrAt 5 cfg4.N from W22_arr m ρ c 5]
  exact RV.region4_val (V21 m ρ) c _ _ _ _ _ hx hw hb hg hbe i

/-! ## The third layer: 256 inputs, 1024 columns -/

theorem dec1_out (c : Dev nD) : ∀ i : S2048x1024.Idx,
    (W24 m ρ c (Proc.devRef .tc main_v117) : S2048x1024.Idx → EReal) i
      = Cert.Spec.layer (W22 m ρ c (Proc.devRef .tc main_v112) : Cert.Spec.Arr2 2048 256)
          (m ((c : Thread nD τ).loc main_arg22) : Cert.Spec.Arr2 256 1024) (m ((c : Thread nD τ).loc main_arg23) : Cert.Spec.Arr1 1024)
          (m ((c : Thread nD τ).loc main_arg24) : Cert.Spec.Arr1 1024) (m ((c : Thread nD τ).loc main_arg25) : Cert.Spec.Arr1 1024) i := by
  intro i
  -- the input array is the second layer's result, which the preparing stretch does not write
  have hx : ∀ i : S2048x256.Idx, V23 m ρ c (Pipeline.arrRef spec5 0) i
      = (W22 m ρ c (Proc.devRef .tc main_v112) : S2048x256.Idx → EReal) i := fun i => by
    show StableHlo.after hostOps5 (W22 m ρ c) (Proc.devRef .tc main_v112) i = _
    rw [show StableHlo.after hostOps5 (W22 m ρ c) (Proc.devRef .tc main_v112) = W22 m ρ c (Proc.devRef .tc main_v112) from by
      kkeep hostOps5]
  have hw : ∀ i : S256x1024.Idx, V23 m ρ c (Pipeline.arrRef spec5 1) i
      = (m ((c : Thread nD τ).loc main_arg22) : S256x1024.Idx → EReal) i := fun i => by
    show StableHlo.after hostOps5 (W22 m ρ c) (Proc.devRef .tc main_v113) i = _
    rw [KPrep.trunc_v113, argAt22 m ρ c main_arg22 (by decide)]
  have hb : ∀ q : Fin 1024, V23 m ρ c (Pipeline.arrRef spec5 2) (ix2 (0 : Fin 1) q)
      = (m ((c : Thread nD τ).loc main_arg23) : S1024.Idx → EReal) (ix1 q) := fun q => by
    show StableHlo.after hostOps5 (W22 m ρ c) (Proc.devRef .tc main_v114) (ix2 (0 : Fin 1) q) = _
    rw [KPrep.row_v114, argAt22 m ρ c main_arg23 (by decide)]
  have hg : ∀ q : Fin 1024, V23 m ρ c (Pipeline.arrRef spec5 3) (ix2 (0 : Fin 1) q)
      = (m ((c : Thread nD τ).loc main_arg24) : S1024.Idx → EReal) (ix1 q) := fun q => by
    show StableHlo.after hostOps5 (W22 m ρ c) (Proc.devRef .tc main_v115) (ix2 (0 : Fin 1) q) = _
    rw [KPrep.row_v115, argAt22 m ρ c main_arg24 (by decide)]
  have hbe : ∀ q : Fin 1024, V23 m ρ c (Pipeline.arrRef spec5 4) (ix2 (0 : Fin 1) q)
      = (m ((c : Thread nD τ).loc main_arg25) : S1024.Idx → EReal) (ix1 q) := fun q => by
    show StableHlo.after hostOps5 (W22 m ρ c) (Proc.devRef .tc main_v116) (ix2 (0 : Fin 1) q) = _
    rw [KPrep.row_v116, argAt22 m ρ c main_arg25 (by decide)]
  rw [show W24 m ρ c (Proc.devRef .tc main_v117) = (dat5 (V23 m ρ) c).arrAt 5 cfg5.N from W24_arr m ρ c 5]
  exact RV.region5_val (V23 m ρ) c _ _ _ _ _ hx hw hb hg hbe i

/-! ## The fourth layer: 1024 inputs, 3372 columns computed as 3584 -/

/-- The third layer's result is untouched while the fourth layer's operands are prepared. -/
theorem keep_v117 (c : Dev nD) :
    W33 m ρ c (Proc.devRef .tc main_v117) = W24 m ρ c (Proc.devRef .tc main_v117) :=
  calc W33 m ρ c (Proc.devRef .tc main_v117)
      = W32 m ρ c (Proc.devRef .tc main_v117) := by kkeep hostOps6_8
    _ = W31 m ρ c (Proc.devRef .tc main_v117) := by kkeep hostOps6_7
    _ = W30 m ρ c (Proc.devRef .tc main_v117) := by kkeep hostOps6_6
    _ = W29 m ρ c (Proc.devRef .tc main_v117) := by kkeep hostOps6_5
    _ = W28 m ρ c (Proc.devRef .tc main_v117) := by kkeep hostOps6_4
    _ = W27 m ρ c (Proc.devRef .tc main_v117) := by kkeep hostOps6_3
    _ = W26 m ρ c (Proc.devRef .tc main_v117) := by kkeep hostOps6_2
    _ = W25 m ρ c (Proc.devRef .tc main_v117) := by kkeep hostOps6_1
    _ = W24 m ρ c (Proc.devRef .tc main_v117) := by kkeep hostOps6

/-- The padded weights are untouched from their padding to the region's entry stretch. -/
theorem keep_v118 (c : Dev nD) :
    W32 m ρ c (Proc.devRef .tc main_v118) = W26 m ρ c (Proc.devRef .tc main_v118) :=
  calc W32 m ρ c (Proc.devRef .tc main_v118)
      = W31 m ρ c (Proc.devRef .tc main_v118) := by kkeep hostOps6_7
    _ = W30 m ρ c (Proc.devRef .tc main_v118) := by kkeep hostOps6_6
    _ = W29 m ρ c (Proc.devRef .tc main_v118) := by kkeep hostOps6_5
    _ = W28 m ρ c (Proc.devRef .tc main_v118) := by kkeep hostOps6_4
    _ = W27 m ρ c (Proc.devRef .tc main_v118) := by kkeep hostOps6_3
    _ = W26 m ρ c (Proc.devRef .tc main_v118) := by kkeep hostOps6_2

/-- The padded bias likewise. -/
theorem keep_v119 (c : Dev nD) :
    W32 m ρ c (Proc.devRef .tc main_v119) = W28 m ρ c (Proc.devRef .tc main_v119) :=
  calc W32 m ρ c (Proc.devRef .tc main_v119)
      = W31 m ρ c (Proc.devRef .tc main_v119) := by kkeep hostOps6_7
    _ = W30 m ρ c (Proc.devRef .tc main_v119) := by kkeep hostOps6_6
    _ = W29 m ρ c (Proc.devRef .tc main_v119) := by kkeep hostOps6_5
    _ = W28 m ρ c (Proc.devRef .tc main_v119) := by kkeep hostOps6_4

/-- The padded gain likewise. -/
theorem keep_v120 (c : Dev nD) :
    W32 m ρ c (Proc.devRef .tc main_v120) = W30 m ρ c (Proc.devRef .tc main_v120) :=
  calc W32 m ρ c (Proc.devRef .tc main_v120)
      = W31 m ρ c (Proc.devRef .tc main_v120) := by kkeep hostOps6_7
    _ = W30 m ρ c (Proc.devRef .tc main_v120) := by kkeep hostOps6_6

/-- Inside the original 3372 columns the padded weights are the argument's. -/
theorem pad118_at (c : Dev nD) (k : Fin 1024) (q : Fin 3372) (hq : q.val < 3584) :
    (W32 m ρ c (Proc.devRef .tc main_v118) : S1024x3584.Idx → EReal) (ix2 k (⟨q.val, hq⟩ : Fin 3584))
      = (m ((c : Thread nD τ).loc main_arg26) : S1024x3372.Idx → EReal) (ix2 k q) := by
  rw [keep_v118 m ρ c]
  show StableHlo.after hostOps6_1 (W25 m ρ c) (Proc.devRef .tc main_v118) (ix2 k (⟨q.val, hq⟩ : Fin 3584)) = _
  rw [KPrep.pad_v118 (W25 m ρ c) k (⟨q.val, hq⟩ : Fin 3584) q.isLt, argAt25 m ρ c main_arg26 (by decide)]

/-- Inside the original 3372 entries the padded bias is the argument's. -/
theorem pad119_at (c : Dev nD) (q : Fin 3372) (hq : q.val < 3584) :
    (W32 m ρ c (Proc.devRef .tc main_v119) : S3584.Idx → EReal) (ix1 (⟨q.val, hq⟩ : Fin 3584))
      = (m ((c : Thread nD τ).loc main_arg27) : S3372.Idx → EReal) (ix1 q) := by
  rw [keep_v119 m ρ c]
  show StableHlo.after hostOps6_3 (W27 m ρ c) (Proc.devRef .tc main_v119) (ix1 (⟨q.val, hq⟩ : Fin 3584)) = _
  rw [KPrep.pad_v119 (W27 m ρ c) (⟨q.val, hq⟩ : Fin 3584) q.isLt, argAt27 m ρ c main_arg27 (by decide)]

/-- The padded gain likewise. -/
theorem pad120_at (c : Dev nD) (q : Fin 3372) (hq : q.val < 3584) :
    (W32 m ρ c (Proc.devRef .tc main_v120) : S3584.Idx → EReal) (ix1 (⟨q.val, hq⟩ : Fin 3584))
      = (m ((c : Thread nD τ).loc main_arg28) : S3372.Idx → EReal) (ix1 q) := by
  rw [keep_v120 m ρ c]
  show StableHlo.after hostOps6_5 (W29 m ρ c) (Proc.devRef .tc main_v120) (ix1 (⟨q.val, hq⟩ : Fin 3584)) = _
  rw [KPrep.pad_v120 (W29 m ρ c) (⟨q.val, hq⟩ : Fin 3584) q.isLt, argAt29 m ρ c main_arg28 (by decide)]

/-- The padded shift likewise (padded in the last stretch before the region's entry stretch). -/
theorem pad121_at (c : Dev nD) (q : Fin 3372) (hq : q.val < 3584) :
    (W32 m ρ c (Proc.devRef .tc main_v121) : S3584.Idx → EReal) (ix1 (⟨q.val, hq⟩ : Fin 3584))
      = (m ((c : Thread nD τ).loc main_arg29) : S3372.Idx → EReal) (ix1 q) := by
  show StableHlo.after hostOps6_7 (W31 m ρ c) (Proc.devRef .tc main_v121) (ix1 (⟨q.val, hq⟩ : Fin 3584)) = _
  rw [KPrep.pad_v121 (W31 m ρ c) (⟨q.val, hq⟩ : Fin 3584) q.isLt, argAt31 m ρ c main_arg29 (by decide)]

theorem dec2_out (c : Dev nD) : ∀ i : S2048x3372.Idx,
    (W35 m ρ c (Proc.devRef .tc main_v127) : S2048x3372.Idx → EReal) i
      = Cert.Spec.layer (W24 m ρ c (Proc.devRef .tc main_v117) : Cert.Spec.Arr2 2048 1024)
          (m ((c : Thread nD τ).loc main_arg26) : Cert.Spec.Arr2 1024 3372) (m ((c : Thread nD τ).loc main_arg27) : Cert.Spec.Arr1 3372)
          (m ((c : Thread nD τ).loc main_arg28) : Cert.Spec.Arr1 3372) (m ((c : Thread nD τ).loc main_arg29) : Cert.Spec.Arr1 3372) i := by
  intro i
  obtain ⟨p, q, rfl⟩ : ∃ (p : Fin 2048) (q : Fin 3372), i = ix2 p q := ⟨i 0, i 1, eq_ix2 i⟩
  have hq : q.val < 3584 := Nat.lt_trans q.isLt (by decide)
  -- region 6's operands: the third layer's result, and the padded weights and vectors as the entry stretch lays them
  have hx : ∀ i : S2048x1024.Idx, V33 m ρ c (Pipeline.arrRef spec6 0) i
      = (W24 m ρ c (Proc.devRef .tc main_v117) : S2048x1024.Idx → EReal) i := fun i => by
    show W33 m ρ c (Proc.devRef .tc main_v117) i = _
    rw [keep_v117 m ρ c]
  have hw : ∀ i : S1024x3584.Idx, V33 m ρ c (Pipeline.arrRef spec6 1) i
      = (W32 m ρ c (Proc.devRef .tc main_v118) : S1024x3584.Idx → EReal) i := fun i => by
    show StableHlo.after hostOps6_8 (W32 m ρ c) (Proc.devRef .tc main_v122) i = _
    rw [KPrep.trunc_v122]
  have hb : ∀ q : Fin 3584, V33 m ρ c (Pipeline.arrRef spec6 2) (ix2 (0 : Fin 1) q)
      = (W32 m ρ c (Proc.devRef .tc main_v119) : S3584.Idx → EReal) (ix1 q) := fun q => by
    show StableHlo.after hostOps6_8 (W32 m ρ c) (Proc.devRef .tc main_v123) (ix2 (0 : Fin 1) q) = _
    rw [KPrep.row_v123]
  have hg : ∀ q : Fin 3584, V33 m ρ c (Pipeline.arrRef spec6 3) (ix2 (0 : Fin 1) q)
      = (W32 m ρ c (Proc.devRef .tc main_v120) : S3584.Idx → EReal) (ix1 q) := fun q => by
    show StableHlo.after hostOps6_8 (W32 m ρ c) (Proc.devRef .tc main_v124) (ix2 (0 : Fin 1) q) = _
    rw [KPrep.row_v124]
  have hbe : ∀ q : Fin 3584, V33 m ρ c (Pipeline.arrRef spec6 4) (ix2 (0 : Fin 1) q)
      = (W32 m ρ c (Proc.devRef .tc main_v121) : S3584.Idx → EReal) (ix1 q) := fun q => by
    show StableHlo.after hostOps6_8 (W32 m ρ c) (Proc.devRef .tc main_v125) (ix2 (0 : Fin 1) q) = _
    rw [KPrep.row_v125]
  -- the cut: element (p, q) of the result is element (p, q) of region 6's 3584-column array
  show StableHlo.after hostOps7 (W34 m ρ c) (Proc.devRef .tc main_v127) (ix2 p q) = _
  rw [KPrep.slice_v127 (W34 m ρ c) p q,
    show W34 m ρ c (Proc.devRef .tc main_v126) = (dat6 (V33 m ρ) c).arrAt 5 cfg6.N from W34_arr m ρ c 5,
    RV.region6_val (V33 m ρ) c _ _ _ _ _ hx hw hb hg hbe]
  -- column q of the padded layer is column q of the unpadded one
  exact Cert.Spec.layer_congr_col _ _ _ _ _ _ _ _ _ p (⟨q.val, hq⟩ : Fin 3584) q
    (fun k => pad118_at m ρ c k q hq) (pad119_at m ρ c q hq) (pad120_at m ρ c q hq) (pad121_at m ρ c q hq)

/-! ## Three results left untouched to the end of the program -/

/-- The second layer's result: read again by regions 5 and 7 as an unchanged input, written by nothing. -/
theorem keep_v112 (c : Dev nD) :
    W49 m ρ c (Proc.devRef .tc main_v112) = W22 m ρ c (Proc.devRef .tc main_v112) :=
  calc W49 m ρ c (Proc.devRef .tc main_v112)
      = W48 m ρ c (Proc.devRef .tc main_v112) := by kkeep hostOps8
    _ = W47 m ρ c (Proc.devRef .tc main_v112) :=
        (W48_arr m ρ c 0).trans (((dat7 (V47 m ρ) c).arrAt_in 0 (by decide) _).trans (A_eq7 (V47 m ρ) c 0))
    _ = W46 m ρ c (Proc.devRef .tc main_v112) := by kkeep hostOps7_12
    _ = W45 m ρ c (Proc.devRef .tc main_v112) := by kkeep hostOps7_11
    _ = W44 m ρ c (Proc.devRef .tc main_v112) := by kkeep hostOps7_10
    _ = W43 m ρ c (Proc.devRef .tc main_v112) := by kkeep hostOps7_9
    _ = W42 m ρ c (Proc.devRef .tc main_v112) := by kkeep hostOps7_8
    _ = W41 m ρ c (Proc.devRef .tc main_v112) := by kkeep hostOps7_7
    _ = W40 m ρ c (Proc.devRef .tc main_v112) := by kkeep hostOps7_6
    _ = W39 m ρ c (Proc.devRef .tc main_v112) := by kkeep hostOps7_5
    _ = W38 m ρ c (Proc.devRef .tc main_v112) := by kkeep hostOps7_4
    _ = W37 m ρ c (Proc.devRef .tc main_v112) := by kkeep hostOps7_3
    _ = W36 m ρ c (Proc.devRef .tc main_v112) := by kkeep hostOps7_2
    _ = W35 m ρ c (Proc.devRef .tc main_v112) := by kkeep hostOps7_1
    _ = W34 m ρ c (Proc.devRef .tc main_v112) := by kkeep hostOps7
    _ = W33 m ρ c (Proc.devRef .tc main_v112) := W34_of_ne m ρ c main_v112 (by decide)
    _ = W32 m ρ c (Proc.devRef .tc main_v112) := by kkeep hostOps6_8
    _ = W31 m ρ c (Proc.devRef .tc main_v112) := by kkeep hostOps6_7
    _ = W30 m ρ c (Proc.devRef .tc main_v112) := by kkeep hostOps6_6
    _ = W29 m ρ c (Proc.devRef .tc main_v112) := by kkeep hostOps6_5
    _ = W28 m ρ c (Proc.devRef .tc main_v112) := by kkeep hostOps6_4
    _ = W27 m ρ c (Proc.devRef .tc main_v112) := by kkeep hostOps6_3
    _ = W26 m ρ c (Proc.devRef .tc main_v112) := by kkeep hostOps6_2
    _ = W25 m ρ c (Proc.devRef .tc main_v112) := by kkeep hostOps6_1
    _ = W24 m ρ c (Proc.devRef .tc main_v112) := by kkeep hostOps6
    _ = W23 m ρ c (Proc.devRef .tc main_v112) :=
        (W24_arr m ρ c 0).trans (((dat5 (V23 m ρ) c).arrAt_in 0 (by decide) _).trans (A_eq5 (V23 m ρ) c 0))
    _ = W22 m ρ c (Proc.devRef .tc main_v112) := by kkeep hostOps5

/-- The fourth layer's cut result: no later stretch writes it and the last region does not hold it. -/
theorem keep_v127 (c : Dev nD) :
    W49 m ρ c (Proc.devRef .tc main_v127) = W35 m ρ c (Proc.devRef .tc main_v127) :=
  calc W49 m ρ c (Proc.devRef .tc main_v127)
      = W48 m ρ c (Proc.devRef .tc main_v127) := by kkeep hostOps8
    _ = W47 m ρ c (Proc.devRef .tc main_v127) := W48_of_ne m ρ c main_v127 (by decide)
    _ = W46 m ρ c (Proc.devRef .tc main_v127) := by kkeep hostOps7_12
    _ = W45 m ρ c (Proc.devRef .tc main_v127) := by kkeep hostOps7_11
    _ = W44 m ρ c (Proc.devRef .tc main_v127) := by kkeep hostOps7_10
    _ = W43 m ρ c (Proc.devRef .tc main_v127) := by kkeep hostOps7_9
    _ = W42 m ρ c (Proc.devRef .tc main_v127) := by kkeep hostOps7_8
    _ = W41 m ρ c (Proc.devRef .tc main_v127) := by kkeep hostOps7_7
    _ = W40 m ρ c (Proc.devRef .tc main_v127) := by kkeep hostOps7_6
    _ = W39 m ρ c (Proc.devRef .tc main_v127) := by kkeep hostOps7_5
    _ = W38 m ρ c (Proc.devRef .tc main_v127) := by kkeep hostOps7_4
    _ = W37 m ρ c (Proc.devRef .tc main_v127) := by kkeep hostOps7_3
    _ = W36 m ρ c (Proc.devRef .tc main_v127) := by kkeep hostOps7_2
    _ = W35 m ρ c (Proc.devRef .tc main_v127) := by kkeep hostOps7_1

/-- The feature matrix in its wide float format: written by region 2, read by nothing after. -/
theorem keep_v102_0 (c : Dev nD) :
    W49 m ρ c (Proc.devRef .tc main_v102_0) = W18 m ρ c (Proc.devRef .tc main_v102_0) :=
  calc W49 m ρ c (Proc.devRef .tc main_v102_0)
      = W48 m ρ c (Proc.devRef .tc main_v102_0) := by kkeep hostOps8
    _ = W47 m ρ c (Proc.devRef .tc main_v102_0) := W48_of_ne m ρ c main_v102_0 (by decide)
    _ = W46 m ρ c (Proc.devRef .tc main_v102_0) := by kkeep hostOps7_12
    _ = W45 m ρ c (Proc.devRef .tc main_v102_0) := by kkeep hostOps7_11
    _ = W44 m ρ c (Proc.devRef .tc main_v102_0) := by kkeep hostOps7_10
    _ = W43 m ρ c (Proc.devRef .tc main_v102_0) := by kkeep hostOps7_9
    _ = W42 m ρ c (Proc.devRef .tc main_v102_0) := by kkeep hostOps7_8
    _ = W41 m ρ c (Proc.devRef .tc main_v102_0) := by kkeep hostOps7_7
    _ = W40 m ρ c (Proc.devRef .tc main_v102_0) := by kkeep hostOps7_6
    _ = W39 m ρ c (Proc.devRef .tc main_v102_0) := by kkeep hostOps7_5
    _ = W38 m ρ c (Proc.devRef .tc main_v102_0) := by kkeep hostOps7_4
    _ = W37 m ρ c (Proc.devRef .tc main_v102_0) := by kkeep hostOps7_3
    _ = W36 m ρ c (Proc.devRef .tc main_v102_0) := by kkeep hostOps7_2
    _ = W35 m ρ c (Proc.devRef .tc main_v102_0) := by kkeep hostOps7_1
    _ = W34 m ρ c (Proc.devRef .tc main_v102_0) := by kkeep hostOps7
    _ = W33 m ρ c (Proc.devRef .tc main_v102_0) := W34_of_ne m ρ c main_v102_0 (by decide)
    _ = W32 m ρ c (Proc.devRef .tc main_v102_0) := by kkeep hostOps6_8
    _ = W31 m ρ c (Proc.devRef .tc main_v102_0) := by kkeep hostOps6_7
    _ = W30 m ρ c (Proc.devRef .tc main_v102_0) := by kkeep hostOps6_6
    _ = W29 m ρ c (Proc.devRef .tc main_v102_0) := by kkeep hostOps6_5
    _ = W28 m ρ c (Proc.devRef .tc main_v102_0) := by kkeep hostOps6_4
    _ = W27 m ρ c (Proc.devRef .tc main_v102_0) := by kkeep hostOps6_3
    _ = W26 m ρ c (Proc.devRef .tc main_v102_0) := by kkeep hostOps6_2
    _ = W25 m ρ c (Proc.devRef .tc main_v102_0) := by kkeep hostOps6_1
    _ = W24 m ρ c (Proc.devRef .tc main_v102_0) := by kkeep hostOps6
    _ = W23 m ρ c (Proc.devRef .tc main_v102_0) := W24_of_ne m ρ c main_v102_0 (by decide)
    _ = W22 m ρ c (Proc.devRef .tc main_v102_0) := by kkeep hostOps5
    _ = W21 m ρ c (Proc.devRef .tc main_v102_0) := W22_of_ne m ρ c main_v102_0 (by decide)
    _ = W20 m ρ c (Proc.devRef .tc main_v102_0) := by kkeep hostOps4
    _ = W19 m ρ c (Proc.devRef .tc main_v102_0) := W20_of_ne m ρ c main_v102_0 (by decide)
    _ = W18 m ρ c (Proc.devRef .tc main_v102_0) := by kkeep hostOps3

end Cert.KernelIdeal.KG

end
-- ==== Proof.KHead.lean ====
/-
  The two-layer head, index by index.

  The launch has one grid point, and at it every window's block is the whole array. The body computes, on the 2048 × 256
  input x: the dense layer a = x·w1 + b1 (a product summed over the 256 contracted positions, the bias row added to every
  row); each column's mean, its sum over the 2048 rows divided by the batch size; the centred matrix; each column's
  variance, the centred column's sum of squares divided by the batch size; g · (a − mean) · (var + ε)^(−1/2) + β; the leaky
  rectifier, which keeps a non-negative entry and multiplies a negative one by the slope; and the second dense layer
  h·w2 + b2, summed over the 128 contracted positions. A change of float format is the identity on the extended reals.

  Each of these steps is read at an entry (p, q) as the same expression the specification writes, so no algebraic law is
  needed: the two sides are one term once the sums are indexed by the contracted position and the row. The output array
  after the run is then the one block the one point writes back.
-/
import proofs.«402148_j44985487458808_3_alg».proof.Proof.Gen.KernelIdeal.Frame
import proofs.«402148_j44985487458808_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RV

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! Everything but the last theorem is auxiliary to this region and lives in its own namespace. -/
namespace Head

/-! ## The two matrix products read at an index -/

/-- The first product's operand indices at output index j and contracted position k: the left operand is read at
    (j 0, k), the right at (k, j 1). -/
theorem lhs1_0 (j : S2048x128.Idx) (k : dot_S2048x256_S256x128_S2048x128_1_0_0_1_n_n.contr.Idx) :
    (dot_S2048x256_S256x128_S2048x128_1_0_0_1_n_n.lhsIdx j k (0 : Fin 2)).val = (j 0).val := rfl
theorem lhs1_1 (j : S2048x128.Idx) (k : dot_S2048x256_S256x128_S2048x128_1_0_0_1_n_n.contr.Idx) :
    (dot_S2048x256_S256x128_S2048x128_1_0_0_1_n_n.lhsIdx j k (1 : Fin 2)).val = (k ⟨0, by decide⟩).val := rfl
theorem rhs1_0 (j : S2048x128.Idx) (k : dot_S2048x256_S256x128_S2048x128_1_0_0_1_n_n.contr.Idx) :
    (dot_S2048x256_S256x128_S2048x128_1_0_0_1_n_n.rhsIdx j k (0 : Fin 2)).val = (k ⟨0, by decide⟩).val := rfl
theorem rhs1_1 (j : S2048x128.Idx) (k : dot_S2048x256_S256x128_S2048x128_1_0_0_1_n_n.contr.Idx) :
    (dot_S2048x256_S256x128_S2048x128_1_0_0_1_n_n.rhsIdx j k (1 : Fin 2)).val = (j 1).val := rfl

/-- The first product at (p, q): the sum over the 256 contracted positions. -/
theorem mm1_apply (l : FVec Ideal S2048x256 .bf16) (r : FVec Ideal S256x128 .bf16) (p : Fin 2048) (q : Fin 128) :
    matmul dot_S2048x256_S256x128_S2048x128_1_0_0_1_n_n none l r (constant S2048x128 .f32 0x00000000#32) (ix2 p q)
      = ∑ k : Fin 256, l (ix2 p k) * r (ix2 k q) := by
  refine (Ideal.matmul_constant_zero_apply dot_S2048x256_S256x128_S2048x128_1_0_0_1_n_n none l r (ix2 p q)).trans ?_
  rw [← Equiv.sum_comp (contrEquiv1 dot_S2048x256_S256x128_S2048x128_1_0_0_1_n_n 256 rfl rfl).symm]
  refine Finset.sum_congr rfl fun k _ => ?_
  have hk : (((contrEquiv1 dot_S2048x256_S256x128_S2048x128_1_0_0_1_n_n 256 rfl rfl).symm k) ⟨0, by decide⟩ : ℕ) = k.val :=
    contrEquiv1_symm_val dot_S2048x256_S256x128_S2048x128_1_0_0_1_n_n 256 rfl rfl k
  congr 1
  · refine congrArg l (funext fun a => Fin.ext ?_)
    match a with
    | ⟨0, _⟩ => exact lhs1_0 _ _
    | ⟨1, _⟩ => exact (lhs1_1 _ _).trans hk
  · refine congrArg r (funext fun a => Fin.ext ?_)
    match a with
    | ⟨0, _⟩ => exact (rhs1_0 _ _).trans hk
    | ⟨1, _⟩ => exact rhs1_1 _ _

/-- A column's sum over the 2048 rows. -/
theorem colsum_apply (a : FVec Ideal S2048x128 .f32) (q : Fin 128) :
    multiReduction .add [0] S128 a 0x00000000#32 reduces_S2048x128_S128 (.inl rfl) rfl (ix1 q) = ∑ r : Fin 2048, a (ix2 r q) := by
  refine (Ideal.multiReduction_add_single a _ reduces_S2048x128_S128 _ _ (ix1 q)).trans ?_
  refine Finset.sum_congr rfl fun k _ => congrArg a ?_
  funext d
  apply Fin.ext
  match d with
  | ⟨0, _⟩ => rfl
  | ⟨1, _⟩ => rfl

/-- The second product's operand indices likewise. -/
theorem lhs2_0 (j : S2048x128.Idx) (k : dot_S2048x128_S128x128_S2048x128_1_0_0_1_n_n.contr.Idx) :
    (dot_S2048x128_S128x128_S2048x128_1_0_0_1_n_n.lhsIdx j k (0 : Fin 2)).val = (j 0).val := rfl
theorem lhs2_1 (j : S2048x128.Idx) (k : dot_S2048x128_S128x128_S2048x128_1_0_0_1_n_n.contr.Idx) :
    (dot_S2048x128_S128x128_S2048x128_1_0_0_1_n_n.lhsIdx j k (1 : Fin 2)).val = (k ⟨0, by decide⟩).val := rfl
theorem rhs2_0 (j : S2048x128.Idx) (k : dot_S2048x128_S128x128_S2048x128_1_0_0_1_n_n.contr.Idx) :
    (dot_S2048x128_S128x128_S2048x128_1_0_0_1_n_n.rhsIdx j k (0 : Fin 2)).val = (k ⟨0, by decide⟩).val := rfl
theorem rhs2_1 (j : S2048x128.Idx) (k : dot_S2048x128_S128x128_S2048x128_1_0_0_1_n_n.contr.Idx) :
    (dot_S2048x128_S128x128_S2048x128_1_0_0_1_n_n.rhsIdx j k (1 : Fin 2)).val = (j 1).val := rfl

/-- The second product at (p, q): the sum over the 128 contracted positions. -/
theorem mm2_apply (l : FVec Ideal S2048x128 .bf16) (r : FVec Ideal S128x128 .bf16) (p : Fin 2048) (q : Fin 128) :
    matmul dot_S2048x128_S128x128_S2048x128_1_0_0_1_n_n none l r (constant S2048x128 .f32 0x00000000#32) (ix2 p q)
      = ∑ k : Fin 128, l (ix2 p k) * r (ix2 k q) := by
  refine (Ideal.matmul_constant_zero_apply dot_S2048x128_S128x128_S2048x128_1_0_0_1_n_n none l r (ix2 p q)).trans ?_
  rw [← Equiv.sum_comp (contrEquiv1 dot_S2048x128_S128x128_S2048x128_1_0_0_1_n_n 128 rfl rfl).symm]
  refine Finset.sum_congr rfl fun k _ => ?_
  have hk : (((contrEquiv1 dot_S2048x128_S128x128_S2048x128_1_0_0_1_n_n 128 rfl rfl).symm k) ⟨0, by decide⟩ : ℕ) = k.val :=
    contrEquiv1_symm_val dot_S2048x128_S128x128_S2048x128_1_0_0_1_n_n 128 rfl rfl k
  congr 1
  · refine congrArg l (funext fun a => Fin.ext ?_)
    match a with
    | ⟨0, _⟩ => exact lhs2_0 _ _
    | ⟨1, _⟩ => exact (lhs2_1 _ _).trans hk
  · refine congrArg r (funext fun a => Fin.ext ?_)
    match a with
    | ⟨0, _⟩ => exact (rhs2_0 _ _).trans hk
    | ⟨1, _⟩ => exact rhs2_1 _ _

/-! ## The body's arithmetic as stages -/

/-- x·w1 + b1 as the body computes it: the product into a zero accumulator, the bias row over every row. -/
def kLin (x0 : FVec Ideal S2048x256 .f32) (x3 : FVec Ideal S256x128 .bf16) (x6 : FVec Ideal S1x128 .f32) : FVec Ideal S2048x128 .f32 :=
  addf (matmul dot_S2048x256_S256x128_S2048x128_1_0_0_1_n_n none
      (truncf .bf16 (shapeCast S2048x256 x0 shapeCasts_S2048x256_S2048x256) bitsLt_bf16_f32)
      (shapeCast S256x128 x3 shapeCasts_S256x128_S256x128) (constant S2048x128 .f32 0x00000000#32))
    (broadcastTo S2048x128 (shapeCast S1x128 x6 shapeCasts_S1x128_S1x128) broadcasts_S1x128_S2048x128)

/-- Each column's sum over the rows divided by the batch size, kept as one row. -/
def kMean (a : FVec Ideal S2048x128 .f32) : FVec Ideal S1x128 .f32 :=
  divf (shapeCast S1x128 (multiReduction .add [0] S128 a 0x00000000#32 reduces_S2048x128_S128 (.inl rfl) rfl) shapeCasts_S128_S1x128)
    (broadcast S1x128 (Scalar.ofBits (F := Ideal) .f32 0x45000000#32))

/-- The matrix with each column's mean subtracted. -/
def kCen (a : FVec Ideal S2048x128 .f32) : FVec Ideal S2048x128 .f32 :=
  subf a (broadcastTo S2048x128 (kMean a) broadcasts_S1x128_S2048x128)

/-- g · (a − mean) · (var + ε)^(−1/2) + β, the variance being the mean of the centred squares. -/
def kBn (a : FVec Ideal S2048x128 .f32) (x21 x30 : FVec Ideal S1x128 .f32) : FVec Ideal S2048x128 .f32 :=
  addf (mulf (mulf (broadcastTo S2048x128 (shapeCast S1x128 x21 shapeCasts_S1x128_S1x128) broadcasts_S1x128_S2048x128) (kCen a))
      (broadcastTo S2048x128 (rsqrt (addf (kMean (mulf (kCen a) (kCen a))) (broadcast S1x128 (Scalar.ofBits (F := Ideal) .f32 0x3727C5AC#32))))
        broadcasts_S1x128_S2048x128))
    (broadcastTo S2048x128 (shapeCast S1x128 x30 shapeCasts_S1x128_S1x128) broadcasts_S1x128_S2048x128)

/-- The leaky rectifier, then the change of format. -/
def kAct (v : FVec Ideal S2048x128 .f32) : FVec Ideal S2048x128 .bf16 :=
  truncf .bf16 (select (cmpf .oge v (broadcast S2048x128 (Scalar.ofBits (F := Ideal) .f32 0x00000000#32))) v
    (mulf (broadcast S2048x128 (Scalar.ofBits (F := Ideal) .f32 0x3C23D70A#32)) v)) bitsLt_bf16_f32

/-- h·w2 + b2 as the body computes it. -/
def kOut (h : FVec Ideal S2048x128 .bf16) (x40 : FVec Ideal S128x128 .bf16) (x43 : FVec Ideal S1x128 .f32) : FVec Ideal S2048x128 .f32 :=
  addf (matmul dot_S2048x128_S128x128_S2048x128_1_0_0_1_n_n none h (shapeCast S128x128 x40 shapeCasts_S128x128_S128x128)
      (constant S2048x128 .f32 0x00000000#32))
    (broadcastTo S2048x128 (shapeCast S1x128 x43 shapeCasts_S1x128_S1x128) broadcasts_S1x128_S2048x128)

/-- The first payload is the stages composed. -/
theorem pay2_eq (x0 : FVec Ideal S2048x256 .f32) (x3 : FVec Ideal S256x128 .bf16) (x6 x21 x30 : FVec Ideal S1x128 .f32) :
    k7_pay2 (F := Ideal) x0 x3 x6 x21 x30 = kAct (kBn (kLin x0 x3 x6) x21 x30) := rfl

/-- The second payload is the last stage. -/
theorem pay1_eq (h : FVec Ideal S2048x128 .bf16) (x40 : FVec Ideal S128x128 .bf16) (x43 : FVec Ideal S1x128 .f32) :
    k7_pay1 (F := Ideal) h x40 x43 = kOut h x40 x43 := rfl

/-! ## Each stage at an index -/

theorem kLin_apply (x0 : FVec Ideal S2048x256 .f32) (x3 : FVec Ideal S256x128 .bf16) (x6 : FVec Ideal S1x128 .f32) (p : Fin 2048) (q : Fin 128) :
    kLin x0 x3 x6 (ix2 p q) = (∑ k : Fin 256, (x0 (ix2 p k) : EReal) * (x3 (ix2 k q) : EReal)) + (x6 (ix2 (0 : Fin 1) q) : EReal) := by
  unfold kLin
  rw [shapeCast_self, shapeCast_self, shapeCast_self]
  exact congr (congrArg HAdd.hAdd (mm1_apply _ _ p q)) (broadcastTo_1b_ab_apply _ _ p q)

theorem kOut_apply (h : FVec Ideal S2048x128 .bf16) (x40 : FVec Ideal S128x128 .bf16) (x43 : FVec Ideal S1x128 .f32) (p : Fin 2048) (q : Fin 128) :
    kOut h x40 x43 (ix2 p q) = (∑ k : Fin 128, (h (ix2 p k) : EReal) * (x40 (ix2 k q) : EReal)) + (x43 (ix2 (0 : Fin 1) q) : EReal) := by
  unfold kOut
  rw [shapeCast_self, shapeCast_self]
  exact congr (congrArg HAdd.hAdd (mm2_apply _ _ p q)) (broadcastTo_1b_ab_apply _ _ p q)

theorem kMean_apply (a : FVec Ideal S2048x128 .f32) (u : Fin 1) (q : Fin 128) :
    kMean a (ix2 u q) = Ideal.div (∑ r : Fin 2048, a (ix2 r q)) (Ideal.ofBits .f32 0x45000000#32) := by
  unfold kMean
  show Ideal.div (shapeCast S1x128 _ shapeCasts_S128_S1x128 (ix2 u q)) _ = _
  rw [shapeCast_a_1a_apply, colsum_apply]
  rfl

theorem kCen_apply (a : FVec Ideal S2048x128 .f32) (p : Fin 2048) (q : Fin 128) :
    kCen a (ix2 p q) = a (ix2 p q) - Ideal.div (∑ r : Fin 2048, a (ix2 r q)) (Ideal.ofBits .f32 0x45000000#32) := by
  unfold kCen
  show a (ix2 p q) - broadcastTo S2048x128 (kMean a) broadcasts_S1x128_S2048x128 (ix2 p q) = _
  rw [broadcastTo_1b_ab_apply, kMean_apply]

theorem kBn_apply (a : FVec Ideal S2048x128 .f32) (x21 x30 : FVec Ideal S1x128 .f32) (p : Fin 2048) (q : Fin 128) :
    kBn a x21 x30 (ix2 p q) = (x21 (ix2 (0 : Fin 1) q) : EReal) * kCen a (ix2 p q)
      * Ideal.rsqrt (Ideal.div (∑ r : Fin 2048, kCen a (ix2 r q) * kCen a (ix2 r q)) (Ideal.ofBits .f32 0x45000000#32) + Ideal.ofBits .f32 0x3727C5AC#32)
      + (x30 (ix2 (0 : Fin 1) q) : EReal) := by
  unfold kBn
  rw [shapeCast_self, shapeCast_self]
  show broadcastTo S2048x128 x21 broadcasts_S1x128_S2048x128 (ix2 p q) * kCen a (ix2 p q)
      * broadcastTo S2048x128 (rsqrt (addf (kMean (mulf (kCen a) (kCen a))) (broadcast S1x128 (Scalar.ofBits (F := Ideal) .f32 0x3727C5AC#32)))) broadcasts_S1x128_S2048x128 (ix2 p q)
      + broadcastTo S2048x128 x30 broadcasts_S1x128_S2048x128 (ix2 p q) = _
  rw [broadcastTo_1b_ab_apply, broadcastTo_1b_ab_apply, broadcastTo_1b_ab_apply]
  show _ * _ * Ideal.rsqrt (kMean (mulf (kCen a) (kCen a)) (ix2 (0 : Fin 1) q) + Ideal.ofBits .f32 0x3727C5AC#32) + _ = _
  rw [kMean_apply]
  rfl

theorem kAct_apply (v : FVec Ideal S2048x128 .f32) (i : S2048x128.Idx) :
    kAct v i = Scalar.select (FloatOps.cmpf (F := Ideal) (φ := .f32) .oge (v i) 0) (v i) (Ideal.ofBits .f32 0x3C23D70A#32 * v i) := by
  show Scalar.select (FloatOps.cmpf (F := Ideal) (φ := .f32) .oge (v i) (Ideal.ofBits .f32 0x00000000#32)) (v i) (Ideal.ofBits .f32 0x3C23D70A#32 * v i) = _
  rw [Ideal.ofBits_zero_f32]

/-! ## The stages are the specification's -/

/-- The body's first dense layer is the specification's, entry by entry. -/
theorem kLin_spec (x0 : FVec Ideal S2048x256 .f32) (x3 : FVec Ideal S256x128 .bf16) (x6 : FVec Ideal S1x128 .f32)
    (x : Arr2 2048 256) (w1 : Arr2 256 128) (b1 : Arr1 128)
    (hx : ∀ i, x0 i = x i) (hw1 : ∀ i, x3 i = w1 i) (hb1 : ∀ q : Fin 128, x6 (ix2 (0 : Fin 1) q) = b1 (ix1 q))
    (p : Fin 2048) (q : Fin 128) : kLin x0 x3 x6 (ix2 p q) = lin x w1 b1 (ix2 p q) := by
  rw [kLin_apply, hb1]
  show _ = (∑ k : Fin 256, x (ix2 p k) * w1 (ix2 k q)) + b1 (ix1 q)
  congr 1
  exact Finset.sum_congr rfl fun k _ => by rw [hx, hw1]

/-- Centring: the same column mean is subtracted. -/
theorem kCen_spec (a : FVec Ideal S2048x128 .f32) (A : Arr2 2048 128) (h : ∀ (p : Fin 2048) (q : Fin 128), a (ix2 p q) = A (ix2 p q))
    (p : Fin 2048) (q : Fin 128) : kCen a (ix2 p q) = centred A (ix2 p q) := by
  rw [kCen_apply, h, Finset.sum_congr rfl fun r _ => h r q]
  rfl

/-- Normalisation: the same scale, centred entry, inverse root of variance plus ε, and shift. -/
theorem kBn_spec (a : FVec Ideal S2048x128 .f32) (A : Arr2 2048 128) (h : ∀ (p : Fin 2048) (q : Fin 128), a (ix2 p q) = A (ix2 p q))
    (x21 x30 : FVec Ideal S1x128 .f32) (g be : Arr1 128)
    (hg : ∀ q : Fin 128, x21 (ix2 (0 : Fin 1) q) = g (ix1 q)) (hbe : ∀ q : Fin 128, x30 (ix2 (0 : Fin 1) q) = be (ix1 q))
    (p : Fin 2048) (q : Fin 128) : kBn a x21 x30 (ix2 p q) = bn A g be (ix2 p q) := by
  rw [kBn_apply, hg, hbe, kCen_spec a A h p q, Finset.sum_congr rfl fun r _ => by rw [kCen_spec a A h r q]]
  rfl

/-- The first payload at (p, q): the leaky rectifier of the normalised first layer. -/
theorem pay2_spec (x0 : FVec Ideal S2048x256 .f32) (x3 : FVec Ideal S256x128 .bf16) (x6 x21 x30 : FVec Ideal S1x128 .f32)
    (x : Arr2 2048 256) (w1 : Arr2 256 128) (b1 g1 be1 : Arr1 128)
    (hx : ∀ i, x0 i = x i) (hw1 : ∀ i, x3 i = w1 i) (hb1 : ∀ q : Fin 128, x6 (ix2 (0 : Fin 1) q) = b1 (ix1 q))
    (hg1 : ∀ q : Fin 128, x21 (ix2 (0 : Fin 1) q) = g1 (ix1 q)) (hbe1 : ∀ q : Fin 128, x30 (ix2 (0 : Fin 1) q) = be1 (ix1 q))
    (p : Fin 2048) (q : Fin 128) :
    k7_pay2 (F := Ideal) x0 x3 x6 x21 x30 (ix2 p q) = lrelu (bn (lin x w1 b1) g1 be1 (ix2 p q)) := by
  rw [pay2_eq, kAct_apply, kBn_spec (kLin x0 x3 x6) (lin x w1 b1) (kLin_spec x0 x3 x6 x w1 b1 hx hw1 hb1) x21 x30 g1 be1 hg1 hbe1 p q]
  rfl

/-- The whole body at (p, q): the specification's head. -/
theorem body_spec (x0 : FVec Ideal S2048x256 .f32) (x3 : FVec Ideal S256x128 .bf16) (x6 x21 x30 : FVec Ideal S1x128 .f32)
    (x40 : FVec Ideal S128x128 .bf16) (x43 : FVec Ideal S1x128 .f32)
    (x : Arr2 2048 256) (w1 : Arr2 256 128) (b1 g1 be1 : Arr1 128) (w2 : Arr2 128 128) (b2 : Arr1 128)
    (hx : ∀ i, x0 i = x i) (hw1 : ∀ i, x3 i = w1 i) (hb1 : ∀ q : Fin 128, x6 (ix2 (0 : Fin 1) q) = b1 (ix1 q))
    (hg1 : ∀ q : Fin 128, x21 (ix2 (0 : Fin 1) q) = g1 (ix1 q)) (hbe1 : ∀ q : Fin 128, x30 (ix2 (0 : Fin 1) q) = be1 (ix1 q))
    (hw2 : ∀ i, x40 i = w2 i) (hb2 : ∀ q : Fin 128, x43 (ix2 (0 : Fin 1) q) = b2 (ix1 q))
    (p : Fin 2048) (q : Fin 128) :
    k7_pay1 (F := Ideal) (k7_pay2 (F := Ideal) x0 x3 x6 x21 x30) x40 x43 (ix2 p q) = head x w1 b1 g1 be1 w2 b2 (ix2 p q) := by
  rw [pay1_eq, kOut_apply, hb2]
  show _ = (∑ k : Fin 128, lrelu (bn (lin x w1 b1) g1 be1 (ix2 p k)) * w2 (ix2 k q)) + b2 (ix1 q)
  congr 1
  exact Finset.sum_congr rfl fun k _ => by
    rw [pay2_spec x0 x3 x6 x21 x30 x w1 b1 g1 be1 hx hw1 hb1 hg1 hbe1 p k, hw2]

/-! ## From the one block to the array -/

theorem hz : (![0, 0] : Fin 2 → Nat) = fun _ => 0 := funext fun a => by fin_cases a <;> rfl

/-- The grid has one point, and at it every window's block is block (0, 0) of its array: the whole array. -/
theorem idx_facts7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0 :=
  (by decide +kernel : ∀ t : Fin grid7.N, _)

/-- Window 0's block is its array. -/
theorem iblk7_0_apply (c : Dev nD) (t : Fin cfg7.N) (y : S2048x256.Idx) :
    (iblk7 V c 0 t : FVec Ideal S2048x256 .f32) y = (V c (Pipeline.arrRef spec7 0) : S2048x256.Idx → EReal) y := by
  obtain ⟨e0, e1, -⟩ := idx_facts7 t
  unfold iblk7
  rw [View.read_apply]
  show V c (Pipeline.arrRef spec7 0) _ = V c (Pipeline.arrRef spec7 0) _
  refine congrArg _ (funext fun a => Fin.ext ?_)
  match a with
  | ⟨0, _⟩ => show win7_0.index t (0 : Fin 2) * 2048 + 1 * (y 0).val = (y 0).val; rw [e0]; omega
  | ⟨1, _⟩ => show win7_0.index t (1 : Fin 2) * 256 + 1 * (y 1).val = (y 1).val; rw [e1]; omega

/-- Window 1's block is its array. -/
theorem iblk7_1_apply (c : Dev nD) (t : Fin cfg7.N) (y : S256x128.Idx) :
    (iblk7 V c 1 t : FVec Ideal S256x128 .bf16) y = (V c (Pipeline.arrRef spec7 1) : S256x128.Idx → EReal) y := by
  obtain ⟨-, -, e0, e1, -⟩ := idx_facts7 t
  unfold iblk7
  rw [View.read_apply]
  show V c (Pipeline.arrRef spec7 1) _ = V c (Pipeline.arrRef spec7 1) _
  refine congrArg _ (funext fun a => Fin.ext ?_)
  match a with
  | ⟨0, _⟩ => show win7_1.index t (0 : Fin 2) * 256 + 1 * (y 0).val = (y 0).val; rw [e0]; omega
  | ⟨1, _⟩ => show win7_1.index t (1 : Fin 2) * 128 + 1 * (y 1).val = (y 1).val; rw [e1]; omega

/-- Window 2's block is its array. -/
theorem iblk7_2_apply (c : Dev nD) (t : Fin cfg7.N) (y : S1x128.Idx) :
    (iblk7 V c 2 t : FVec Ideal S1x128 .f32) y = (V c (Pipeline.arrRef spec7 2) : S1x128.Idx → EReal) y := by
  obtain ⟨-, -, -, -, e0, e1, -⟩ := idx_facts7 t
  unfold iblk7
  rw [View.read_apply]
  show V c (Pipeline.arrRef spec7 2) _ = V c (Pipeline.arrRef spec7 2) _
  refine congrArg _ (funext fun a => Fin.ext ?_)
  match a with
  | ⟨0, _⟩ => show win7_2.index t (0 : Fin 2) * 1 + 1 * (y 0).val = (y 0).val; rw [e0]; omega
  | ⟨1, _⟩ => show win7_2.index t (1 : Fin 2) * 128 + 1 * (y 1).val = (y 1).val; rw [e1]; omega

/-- Window 3's block is its array. -/
theorem iblk7_3_apply (c : Dev nD) (t : Fin cfg7.N) (y : S1x128.Idx) :
    (iblk7 V c 3 t : FVec Ideal S1x128 .f32) y = (V c (Pipeline.arrRef spec7 3) : S1x128.Idx → EReal) y := by
  obtain ⟨-, -, -, -, -, -, e0, e1, -⟩ := idx_facts7 t
  unfold iblk7
  rw [View.read_apply]
  show V c (Pipeline.arrRef spec7 3) _ = V c (Pipeline.arrRef spec7 3) _
  refine congrArg _ (funext fun a => Fin.ext ?_)
  match a with
  | ⟨0, _⟩ => show win7_3.index t (0 : Fin 2) * 1 + 1 * (y 0).val = (y 0).val; rw [e0]; omega
  | ⟨1, _⟩ => show win7_3.index t (1 : Fin 2) * 128 + 1 * (y 1).val = (y 1).val; rw [e1]; omega

/-- Window 4's block is its array. -/
theorem iblk7_4_apply (c : Dev nD) (t : Fin cfg7.N) (y : S1x128.Idx) :
    (iblk7 V c 4 t : FVec Ideal S1x128 .f32) y = (V c (Pipeline.arrRef spec7 4) : S1x128.Idx → EReal) y := by
  obtain ⟨-, -, -, -, -, -, -, -, e0, e1, -⟩ := idx_facts7 t
  unfold iblk7
  rw [View.read_apply]
  show V c (Pipeline.arrRef spec7 4) _ = V c (Pipeline.arrRef spec7 4) _
  refine congrArg _ (funext fun a => Fin.ext ?_)
  match a with
  | ⟨0, _⟩ => show win7_4.index t (0 : Fin 2) * 1 + 1 * (y 0).val = (y 0).val; rw [e0]; omega
  | ⟨1, _⟩ => show win7_4.index t (1 : Fin 2) * 128 + 1 * (y 1).val = (y 1).val; rw [e1]; omega

/-- Window 5's block is its array. -/
theorem iblk7_5_apply (c : Dev nD) (t : Fin cfg7.N) (y : S128x128.Idx) :
    (iblk7 V c 5 t : FVec Ideal S128x128 .bf16) y = (V c (Pipeline.arrRef spec7 5) : S128x128.Idx → EReal) y := by
  obtain ⟨-, -, -, -, -, -, -, -, -, -, e0, e1, -⟩ := idx_facts7 t
  unfold iblk7
  rw [View.read_apply]
  show V c (Pipeline.arrRef spec7 5) _ = V c (Pipeline.arrRef spec7 5) _
  refine congrArg _ (funext fun a => Fin.ext ?_)
  match a with
  | ⟨0, _⟩ => show win7_5.index t (0 : Fin 2) * 128 + 1 * (y 0).val = (y 0).val; rw [e0]; omega
  | ⟨1, _⟩ => show win7_5.index t (1 : Fin 2) * 128 + 1 * (y 1).val = (y 1).val; rw [e1]; omega

/-- Window 6's block is its array. -/
theorem iblk7_6_apply (c : Dev nD) (t : Fin cfg7.N) (y : S1x128.Idx) :
    (iblk7 V c 6 t : FVec Ideal S1x128 .f32) y = (V c (Pipeline.arrRef spec7 6) : S1x128.Idx → EReal) y := by
  obtain ⟨-, -, -, -, -, -, -, -, -, -, -, -, e0, e1, -⟩ := idx_facts7 t
  unfold iblk7
  rw [View.read_apply]
  show V c (Pipeline.arrRef spec7 6) _ = V c (Pipeline.arrRef spec7 6) _
  refine congrArg _ (funext fun a => Fin.ext ?_)
  match a with
  | ⟨0, _⟩ => show win7_6.index t (0 : Fin 2) * 1 + 1 * (y 0).val = (y 0).val; rw [e0]; omega
  | ⟨1, _⟩ => show win7_6.index t (1 : Fin 2) * 128 + 1 * (y 1).val = (y 1).val; rw [e1]; omega

/-- The input blocks at the point, each at its literal type. -/
abbrev xb0 (c : Dev nD) (t : Fin cfg7.N) : FVec Ideal S2048x256 .f32 := iblk7 V c 0 t
abbrev xb1 (c : Dev nD) (t : Fin cfg7.N) : FVec Ideal S256x128 .bf16 := iblk7 V c 1 t
abbrev xb2 (c : Dev nD) (t : Fin cfg7.N) : FVec Ideal S1x128 .f32 := iblk7 V c 2 t
abbrev xb3 (c : Dev nD) (t : Fin cfg7.N) : FVec Ideal S1x128 .f32 := iblk7 V c 3 t
abbrev xb4 (c : Dev nD) (t : Fin cfg7.N) : FVec Ideal S1x128 .f32 := iblk7 V c 4 t
abbrev xb5 (c : Dev nD) (t : Fin cfg7.N) : FVec Ideal S128x128 .bf16 := iblk7 V c 5 t
abbrev xb6 (c : Dev nD) (t : Fin cfg7.N) : FVec Ideal S1x128 .f32 := iblk7 V c 6 t

/-- The body's result on the point's blocks is the specification's head, entry by entry. -/
theorem out_at (c : Dev nD) (x : Arr2 2048 256) (w1 : Arr2 256 128) (b1 g1 be1 : Arr1 128) (w2 : Arr2 128 128) (b2 : Arr1 128)
    (hx : ∀ i, V c (Pipeline.arrRef spec7 0) i = x i) (hw1 : ∀ i, V c (Pipeline.arrRef spec7 1) i = w1 i)
    (hb1 : ∀ q : Fin 128, V c (Pipeline.arrRef spec7 2) (ix2 (0 : Fin 1) q) = b1 (ix1 q))
    (hg1 : ∀ q : Fin 128, V c (Pipeline.arrRef spec7 3) (ix2 (0 : Fin 1) q) = g1 (ix1 q))
    (hbe1 : ∀ q : Fin 128, V c (Pipeline.arrRef spec7 4) (ix2 (0 : Fin 1) q) = be1 (ix1 q))
    (hw2 : ∀ i, V c (Pipeline.arrRef spec7 5) i = w2 i)
    (hb2 : ∀ q : Fin 128, V c (Pipeline.arrRef spec7 6) (ix2 (0 : Fin 1) q) = b2 (ix1 q))
    (t : Fin cfg7.N) (j : S2048x128.Idx) :
    k7_pay1 (F := Ideal) (k7_pay2 (F := Ideal) (xb0 V c t) (xb1 V c t) (xb2 V c t) (xb3 V c t) (xb4 V c t)) (xb5 V c t) (xb6 V c t) j
      = head x w1 b1 g1 be1 w2 b2 j := by
  obtain ⟨p, q, rfl⟩ : ∃ (p : Fin 2048) (q : Fin 128), j = ix2 p q := ⟨j 0, j 1, eq_ix2 j⟩
  exact body_spec (xb0 V c t) (xb1 V c t) (xb2 V c t) (xb3 V c t) (xb4 V c t) (xb5 V c t) (xb6 V c t)
    x w1 b1 g1 be1 w2 b2
    (fun i => (iblk7_0_apply V c t i).trans (hx i)) (fun i => (iblk7_1_apply V c t i).trans (hw1 i))
    (fun q => (iblk7_2_apply V c t (ix2 (0 : Fin 1) q)).trans (hb1 q)) (fun q => (iblk7_3_apply V c t (ix2 (0 : Fin 1) q)).trans (hg1 q))
    (fun q => (iblk7_4_apply V c t (ix2 (0 : Fin 1) q)).trans (hbe1 q)) (fun i => (iblk7_5_apply V c t i).trans (hw2 i))
    (fun q => (iblk7_6_apply V c t (ix2 (0 : Fin 1) q)).trans (hb2 q)) p q

/-- What the one point writes back is the specification's head, read through the output window's block. -/
theorem flushed7_eq (c : Dev nD) (x : Arr2 2048 256) (w1 : Arr2 256 128) (b1 g1 be1 : Arr1 128) (w2 : Arr2 128 128) (b2 : Arr1 128)
    (hx : ∀ i, V c (Pipeline.arrRef spec7 0) i = x i) (hw1 : ∀ i, V c (Pipeline.arrRef spec7 1) i = w1 i)
    (hb1 : ∀ q : Fin 128, V c (Pipeline.arrRef spec7 2) (ix2 (0 : Fin 1) q) = b1 (ix1 q))
    (hg1 : ∀ q : Fin 128, V c (Pipeline.arrRef spec7 3) (ix2 (0 : Fin 1) q) = g1 (ix1 q))
    (hbe1 : ∀ q : Fin 128, V c (Pipeline.arrRef spec7 4) (ix2 (0 : Fin 1) q) = be1 (ix1 q))
    (hw2 : ∀ i, V c (Pipeline.arrRef spec7 5) i = w2 i)
    (hb2 : ∀ q : Fin 128, V c (Pipeline.arrRef spec7 6) (ix2 (0 : Fin 1) q) = b2 (ix1 q))
    (t : Fin cfg7.N) :
    (dat7 V c).flushed 7 t = ((cfg7.win 7).blk t).view.read (Elt Ideal) (head x w1 b1 g1 be1 w2 b2) := by
  obtain ⟨-, -, -, -, -, -, -, -, -, -, -, -, -, -, e0, e1⟩ := idx_facts7 t
  show (cfg7.win 7).cut (grid7.coords t) ((dat7 V c).after 7 t) = _
  rw [after7_7]
  unfold out7_7
  rw [View.canon_unit_zero hz]
  simp only [View.ld_unit_zero (S := S2048x256) hz, View.ld_unit_zero (S := S256x128) hz, View.ld_unit_zero (S := S1x128) hz,
    View.ld_unit_zero (S := S128x128) hz]
  funext j
  show k7_pay1 (F := Ideal) (k7_pay2 (F := Ideal) (xb0 V c t) (xb1 V c t) (xb2 V c t) (xb3 V c t) (xb4 V c t)) (xb5 V c t) (xb6 V c t) j
    = head x w1 b1 g1 be1 w2 b2 (((cfg7.win 7).blk t).view.emb j)
  have he : ((cfg7.win 7).blk t).view.emb j = j := by
    funext a; apply Fin.ext
    match a with
    | ⟨0, _⟩ => show win7_7.index t (0 : Fin 2) * 2048 + 1 * (j 0).val = (j 0).val; rw [e0]; omega
    | ⟨1, _⟩ => show win7_7.index t (1 : Fin 2) * 128 + 1 * (j 1).val = (j 1).val; rw [e1]; omega
  rw [he]
  exact out_at V c x w1 b1 g1 be1 w2 b2 hx hw1 hb1 hg1 hbe1 hw2 hb2 t j
/-- Every index of the output array lies in the one point's block. -/
theorem covered7 (i : S2048x128.Idx) :
    ∃ t : Fin cfg7.N, (cfg7.win 7).flush t = true ∧ i ∈ ((cfg7.win 7).blk t).view.set := by
  obtain ⟨-, -, -, -, -, -, -, -, -, -, -, -, -, -, e0, e1⟩ := idx_facts7 t7_0
  refine ⟨t7_0, flush7_7 t7_0, ?_⟩
  show i ∈ ((View.whole main_v140).slice (win7_7.rect t7_0)).set
  rw [View.set_slice_whole, Rect.mem_set_unit]
  intro a
  have h0 : (i 0).val < 2048 := (i 0).isLt
  have h1 : (i 1).val < 128 := (i 1).isLt
  match a with
  | ⟨0, _⟩ =>
    show win7_7.index t7_0 (0 : Fin 2) * 2048 ≤ (i 0).val ∧ (i 0).val < win7_7.index t7_0 (0 : Fin 2) * 2048 + 2048
    rw [e0]; omega
  | ⟨1, _⟩ =>
    show win7_7.index t7_0 (1 : Fin 2) * 128 ≤ (i 1).val ∧ (i 1).val < win7_7.index t7_0 (1 : Fin 2) * 128 + 128
    rw [e1]; omega

end Head

/-- REGION 7's output array after the run is the specification's head of the arrays the region finds. -/
theorem region7_val (c : Dev nD) (x : Arr2 2048 256) (w1 : Arr2 256 128) (b1 g1 be1 : Arr1 128) (w2 : Arr2 128 128) (b2 : Arr1 128)
    (hx : ∀ i, V c (Pipeline.arrRef spec7 0) i = x i) (hw1 : ∀ i, V c (Pipeline.arrRef spec7 1) i = w1 i)
    (hb1 : ∀ q : Fin 128, V c (Pipeline.arrRef spec7 2) (ix2 (0 : Fin 1) q) = b1 (ix1 q))
    (hg1 : ∀ q : Fin 128, V c (Pipeline.arrRef spec7 3) (ix2 (0 : Fin 1) q) = g1 (ix1 q))
    (hbe1 : ∀ q : Fin 128, V c (Pipeline.arrRef spec7 4) (ix2 (0 : Fin 1) q) = be1 (ix1 q))
    (hw2 : ∀ i, V c (Pipeline.arrRef spec7 5) i = w2 i)
    (hb2 : ∀ q : Fin 128, V c (Pipeline.arrRef spec7 6) (ix2 (0 : Fin 1) q) = b2 (ix1 q)) :
    ∀ i, (dat7 V c).arrAt 7 cfg7.N i = Cert.Spec.head x w1 b1 g1 be1 w2 b2 i := fun i =>
  congrFun ((dat7 V c).arrAt_eq_of_cover 7 (head x w1 b1 g1 be1 w2 b2)
    (fun t _ => Head.flushed7_eq V c x w1 b1 g1 be1 w2 b2 hx hw1 hb1 hg1 hbe1 hw2 hb2 t) Head.covered7) i

end Cert.KernelIdeal.RV

end
-- ==== Proof.SpecPad.lean ====
/-
  The head computed at padded widths, read in column 0, is the head at the original widths.

  The hidden layer's columns are independent: column q of the normalised dense layer is a function of column q of the
  weights and of entry q of the bias, scale and shift alone (the column's mean and variance are sums down that column).
  So a hidden column below the original width is the same at either width. The second layer's entry (p, 0) sums the
  hidden row against column 0 of the second weights; the padded rows of that column are zero, and a zero factor makes a
  term zero on the extended reals whatever the other factor is, so the sum over the padded width is the sum over the
  original one.
-/
import proofs.«402148_j44985487458808_3_alg».proof.Proof.Spec
import Mathlib.Algebra.BigOperators.Fin

noncomputable section

namespace Cert.SpecPad

open Idealize.ShloMosaic Idealize.ShloMosaic.ValueIdx Cert.Spec

/-- Column q of a normalised dense layer depends only on column q of the weights and of the three vectors. -/
theorem bn_lin_congr_col {M K N N' : ℕ} (x : Arr2 M K) (w : Arr2 K N) (b g be : Arr1 N) (w' : Arr2 K N') (b' g' be' : Arr1 N')
    (p : Fin M) (q : Fin N) (q' : Fin N') (hw : ∀ k : Fin K, w (ix2 k q) = w' (ix2 k q'))
    (hb : b (ix1 q) = b' (ix1 q')) (hg : g (ix1 q) = g' (ix1 q')) (hbe : be (ix1 q) = be' (ix1 q')) :
    bn (lin x w b) g be (ix2 p q) = bn (lin x w' b') g' be' (ix2 p q') := by
  have hlin : ∀ r : Fin M, lin x w b (ix2 r q) = lin x w' b' (ix2 r q') := fun r => by
    show (∑ k : Fin K, x (ix2 r k) * w (ix2 k q)) + b (ix1 q) = (∑ k : Fin K, x (ix2 r k) * w' (ix2 k q')) + b' (ix1 q')
    rw [hb]; congr 1; exact Finset.sum_congr rfl fun k _ => by rw [hw k]
  have hmean : colMean (lin x w b) q = colMean (lin x w' b') q' := by
    show Ideal.div (∑ r : Fin M, lin x w b (ix2 r q)) cnt = Ideal.div (∑ r : Fin M, lin x w' b' (ix2 r q')) cnt
    rw [Finset.sum_congr rfl fun r _ => hlin r]
  have hcen : ∀ r : Fin M, centred (lin x w b) (ix2 r q) = centred (lin x w' b') (ix2 r q') := fun r => by
    show lin x w b (ix2 r q) - colMean (lin x w b) q = lin x w' b' (ix2 r q') - colMean (lin x w' b') q'
    rw [hlin r, hmean]
  have hvar : colVar (lin x w b) q = colVar (lin x w' b') q' := by
    show Ideal.div (∑ r : Fin M, centred (lin x w b) (ix2 r q) * centred (lin x w b) (ix2 r q)) cnt
      = Ideal.div (∑ r : Fin M, centred (lin x w' b') (ix2 r q') * centred (lin x w' b') (ix2 r q')) cnt
    rw [Finset.sum_congr rfl fun r _ => by rw [hcen r]]
  show g (ix1 q) * centred (lin x w b) (ix2 p q) * Ideal.rsqrt (colVar (lin x w b) q + eps) + be (ix1 q)
    = g' (ix1 q') * centred (lin x w' b') (ix2 p q') * Ideal.rsqrt (colVar (lin x w' b') q' + eps) + be' (ix1 q')
  rw [hg, hbe, hcen p, hvar]

/-- The padded head in column 0 is the unpadded head: the padded arrays agree with the originals inside the original
    extents, and column 0 of the padded second weights is zero below the original 64 rows. -/
theorem head_pad (x : Arr2 2048 256) (w1 : Arr2 256 64) (b1 g1 be1 : Arr1 64) (w2 : Arr2 64 1) (b2 : Arr1 1)
    (w1' : Arr2 256 128) (b1' g1' be1' : Arr1 128) (w2' : Arr2 128 128) (b2' : Arr1 128)
    (hw1 : ∀ (k : Fin 256) (q : Fin 64) (q' : Fin 128), q'.val = q.val → w1' (ix2 k q') = w1 (ix2 k q))
    (hb1 : ∀ (q : Fin 64) (q' : Fin 128), q'.val = q.val → b1' (ix1 q') = b1 (ix1 q))
    (hg1 : ∀ (q : Fin 64) (q' : Fin 128), q'.val = q.val → g1' (ix1 q') = g1 (ix1 q))
    (hbe1 : ∀ (q : Fin 64) (q' : Fin 128), q'.val = q.val → be1' (ix1 q') = be1 (ix1 q))
    (hw2 : ∀ (k : Fin 64) (k' : Fin 128), k'.val = k.val → w2' (ix2 k' (0 : Fin 128)) = w2 (ix2 k (0 : Fin 1)))
    (hw2z : ∀ k' : Fin 128, 64 ≤ k'.val → w2' (ix2 k' (0 : Fin 128)) = 0)
    (hb2 : b2' (ix1 (0 : Fin 128)) = b2 (ix1 (0 : Fin 1)))
    (p : Fin 2048) :
    head x w1' b1' g1' be1' w2' b2' (ix2 p (0 : Fin 128)) = head x w1 b1 g1 be1 w2 b2 (ix2 p (0 : Fin 1)) := by
  show (∑ k : Fin 128, lrelu (bn (lin x w1' b1') g1' be1' (ix2 p k)) * w2' (ix2 k (0 : Fin 128))) + b2' (ix1 (0 : Fin 128))
    = (∑ k : Fin 64, lrelu (bn (lin x w1 b1) g1 be1 (ix2 p k)) * w2 (ix2 k (0 : Fin 1))) + b2 (ix1 (0 : Fin 1))
  rw [hb2]
  congr 1
  refine (Fin.sum_univ_add (fun k : Fin (64 + 64) =>
    lrelu (bn (lin x w1' b1') g1' be1' (ix2 p k)) * w2' (ix2 k (0 : Fin 128)))).trans ?_
  have hzero : (∑ k : Fin 64, lrelu (bn (lin x w1' b1') g1' be1' (ix2 p (Fin.natAdd 64 k))) * w2' (ix2 (Fin.natAdd 64 k) (0 : Fin 128))) = 0 :=
    Finset.sum_eq_zero fun k _ => by
      rw [hw2z (Fin.natAdd 64 k) (by show 64 ≤ 64 + k.val; omega), mul_zero]
  rw [hzero, add_zero]
  exact Finset.sum_congr rfl fun k _ => by
    rw [hw2 k (Fin.castAdd 64 k) rfl,
      bn_lin_congr_col x w1' b1' g1' be1' w1 b1 g1 be1 p (Fin.castAdd 64 k) k
        (fun r => hw1 r k (Fin.castAdd 64 k) rfl) (hb1 k (Fin.castAdd 64 k) rfl) (hg1 k (Fin.castAdd 64 k) rfl) (hbe1 k (Fin.castAdd 64 k) rfl)]

end Cert.SpecPad

end
-- ==== Proof.KChainHead.lean ====
/-
  The head's output at the program's last boundary.

  The final result is column 0 of region 7's output array. Region 7 computes the two-layer head at the kernel's padded
  widths — hidden width 128 for 64, output width 128 for 1 — of the encoded matrix (region 4's output, untouched by
  everything between) and of six arrays the host stretches before it prepare from the six head arguments: each argument
  padded with zeros at the high end, the two weight matrices then changed of float format (the identity on the extended
  reals), the four vectors laid out as one-row matrices. Inside the original extents a padded array holds the argument's
  entry; column 0 of the padded second weights is zero below row 64. The padded head read in column 0 is then the head
  at the original widths: hidden columns are independent, and the extra terms of the second layer's sum have a zero
  factor.
-/
import proofs.«402148_j44985487458808_3_alg».proof.Proof.KGlueArgs
import proofs.«402148_j44985487458808_3_alg».proof.Proof.KPrep
import proofs.«402148_j44985487458808_3_alg».proof.Proof.KHead
import proofs.«402148_j44985487458808_3_alg».proof.Proof.SpecPad

noncomputable section

namespace Cert.KernelIdeal.KG

open Cert.KernelIdeal Cert.KernelIdeal.Gen
open Idealize.ShloMosaic Idealize.ShloMosaic.TcCoe Idealize.SL.Sem Idealize.ShloMosaic.ValueIdx
open Cert.Spec

variable (m : (ℓ : Loc nD τ sig) → Buf (Elt Ideal) ℓ) (ρ : Dev nD → PrngReg)

/-! Everything but the last theorem is auxiliary to this chain and lives in its own namespace. -/
namespace HeadChain

/-! ## Buffers that keep their contents from where they are written to where they are read

Every host operation writes one result buffer of its own, and a region writes only its output arrays; a buffer written
by neither keeps its contents across the boundary. -/

/-! ### The encoded matrix, region 4's output, from the boundary after region 4 to the entry of region 7 -/
theorem v112_step23 (c : Dev nD) : W23 m ρ c (Proc.devRef .tc main_v112) = W22 m ρ c (Proc.devRef .tc main_v112) := by
  kkeep hostOps5
theorem v112_step25 (c : Dev nD) : W25 m ρ c (Proc.devRef .tc main_v112) = W24 m ρ c (Proc.devRef .tc main_v112) := by
  kkeep hostOps6
theorem v112_step26 (c : Dev nD) : W26 m ρ c (Proc.devRef .tc main_v112) = W25 m ρ c (Proc.devRef .tc main_v112) := by
  kkeep hostOps6_1
theorem v112_step27 (c : Dev nD) : W27 m ρ c (Proc.devRef .tc main_v112) = W26 m ρ c (Proc.devRef .tc main_v112) := by
  kkeep hostOps6_2
theorem v112_step28 (c : Dev nD) : W28 m ρ c (Proc.devRef .tc main_v112) = W27 m ρ c (Proc.devRef .tc main_v112) := by
  kkeep hostOps6_3
theorem v112_step29 (c : Dev nD) : W29 m ρ c (Proc.devRef .tc main_v112) = W28 m ρ c (Proc.devRef .tc main_v112) := by
  kkeep hostOps6_4
theorem v112_step30 (c : Dev nD) : W30 m ρ c (Proc.devRef .tc main_v112) = W29 m ρ c (Proc.devRef .tc main_v112) := by
  kkeep hostOps6_5
theorem v112_step31 (c : Dev nD) : W31 m ρ c (Proc.devRef .tc main_v112) = W30 m ρ c (Proc.devRef .tc main_v112) := by
  kkeep hostOps6_6
theorem v112_step32 (c : Dev nD) : W32 m ρ c (Proc.devRef .tc main_v112) = W31 m ρ c (Proc.devRef .tc main_v112) := by
  kkeep hostOps6_7
theorem v112_step33 (c : Dev nD) : W33 m ρ c (Proc.devRef .tc main_v112) = W32 m ρ c (Proc.devRef .tc main_v112) := by
  kkeep hostOps6_8
theorem v112_step35 (c : Dev nD) : W35 m ρ c (Proc.devRef .tc main_v112) = W34 m ρ c (Proc.devRef .tc main_v112) := by
  kkeep hostOps7
theorem v112_step36 (c : Dev nD) : W36 m ρ c (Proc.devRef .tc main_v112) = W35 m ρ c (Proc.devRef .tc main_v112) := by
  kkeep hostOps7_1
theorem v112_step37 (c : Dev nD) : W37 m ρ c (Proc.devRef .tc main_v112) = W36 m ρ c (Proc.devRef .tc main_v112) := by
  kkeep hostOps7_2
theorem v112_step38 (c : Dev nD) : W38 m ρ c (Proc.devRef .tc main_v112) = W37 m ρ c (Proc.devRef .tc main_v112) := by
  kkeep hostOps7_3
theorem v112_step39 (c : Dev nD) : W39 m ρ c (Proc.devRef .tc main_v112) = W38 m ρ c (Proc.devRef .tc main_v112) := by
  kkeep hostOps7_4
theorem v112_step40 (c : Dev nD) : W40 m ρ c (Proc.devRef .tc main_v112) = W39 m ρ c (Proc.devRef .tc main_v112) := by
  kkeep hostOps7_5
theorem v112_step41 (c : Dev nD) : W41 m ρ c (Proc.devRef .tc main_v112) = W40 m ρ c (Proc.devRef .tc main_v112) := by
  kkeep hostOps7_6
theorem v112_step42 (c : Dev nD) : W42 m ρ c (Proc.devRef .tc main_v112) = W41 m ρ c (Proc.devRef .tc main_v112) := by
  kkeep hostOps7_7
theorem v112_step43 (c : Dev nD) : W43 m ρ c (Proc.devRef .tc main_v112) = W42 m ρ c (Proc.devRef .tc main_v112) := by
  kkeep hostOps7_8
theorem v112_step44 (c : Dev nD) : W44 m ρ c (Proc.devRef .tc main_v112) = W43 m ρ c (Proc.devRef .tc main_v112) := by
  kkeep hostOps7_9
theorem v112_step45 (c : Dev nD) : W45 m ρ c (Proc.devRef .tc main_v112) = W44 m ρ c (Proc.devRef .tc main_v112) := by
  kkeep hostOps7_10
theorem v112_step46 (c : Dev nD) : W46 m ρ c (Proc.devRef .tc main_v112) = W45 m ρ c (Proc.devRef .tc main_v112) := by
  kkeep hostOps7_11
theorem v112_step47 (c : Dev nD) : W47 m ρ c (Proc.devRef .tc main_v112) = W46 m ρ c (Proc.devRef .tc main_v112) := by
  kkeep hostOps7_12

/-- Region 5 reads the encoded matrix as its input window 0 and writes no input array. -/
theorem v112_step24 (c : Dev nD) : W24 m ρ c (Proc.devRef .tc main_v112) = W23 m ρ c (Proc.devRef .tc main_v112) :=
  (W24_arr m ρ c 0).trans (((dat5 (V23 m ρ) c).arrAt_in 0 (by decide) _).trans (A_eq5 (V23 m ρ) c 0))
/-- Region 6 has no window on it. -/
theorem v112_step34 (c : Dev nD) : W34 m ρ c (Proc.devRef .tc main_v112) = W33 m ρ c (Proc.devRef .tc main_v112) :=
  W34_of_ne m ρ c main_v112 (by decide)

theorem v112_at47 (c : Dev nD) : W47 m ρ c (Proc.devRef .tc main_v112) = W22 m ρ c (Proc.devRef .tc main_v112) :=
  (((((((((((((((((((((((((v112_step47 m ρ c).trans (v112_step46 m ρ c)).trans (v112_step45 m ρ c)).trans (v112_step44 m ρ c)).trans (v112_step43 m ρ c)).trans (v112_step42 m ρ c)).trans (v112_step41 m ρ c)).trans (v112_step40 m ρ c)).trans (v112_step39 m ρ c)).trans (v112_step38 m ρ c)).trans (v112_step37 m ρ c)).trans (v112_step36 m ρ c)).trans (v112_step35 m ρ c)).trans (v112_step34 m ρ c)).trans (v112_step33 m ρ c)).trans (v112_step32 m ρ c)).trans (v112_step31 m ρ c)).trans (v112_step30 m ρ c)).trans (v112_step29 m ρ c)).trans (v112_step28 m ρ c)).trans (v112_step27 m ρ c)).trans (v112_step26 m ρ c)).trans (v112_step25 m ρ c)).trans (v112_step24 m ρ c)).trans (v112_step23 m ρ c))

/-! ### The six padded head arguments, each from its pad to the last host stretch before region 7 -/
theorem v128_step37 (c : Dev nD) : W37 m ρ c (Proc.devRef .tc main_v128) = W36 m ρ c (Proc.devRef .tc main_v128) := by
  kkeep hostOps7_2
theorem v128_step38 (c : Dev nD) : W38 m ρ c (Proc.devRef .tc main_v128) = W37 m ρ c (Proc.devRef .tc main_v128) := by
  kkeep hostOps7_3
theorem v128_step39 (c : Dev nD) : W39 m ρ c (Proc.devRef .tc main_v128) = W38 m ρ c (Proc.devRef .tc main_v128) := by
  kkeep hostOps7_4
theorem v128_step40 (c : Dev nD) : W40 m ρ c (Proc.devRef .tc main_v128) = W39 m ρ c (Proc.devRef .tc main_v128) := by
  kkeep hostOps7_5
theorem v128_step41 (c : Dev nD) : W41 m ρ c (Proc.devRef .tc main_v128) = W40 m ρ c (Proc.devRef .tc main_v128) := by
  kkeep hostOps7_6
theorem v128_step42 (c : Dev nD) : W42 m ρ c (Proc.devRef .tc main_v128) = W41 m ρ c (Proc.devRef .tc main_v128) := by
  kkeep hostOps7_7
theorem v128_step43 (c : Dev nD) : W43 m ρ c (Proc.devRef .tc main_v128) = W42 m ρ c (Proc.devRef .tc main_v128) := by
  kkeep hostOps7_8
theorem v128_step44 (c : Dev nD) : W44 m ρ c (Proc.devRef .tc main_v128) = W43 m ρ c (Proc.devRef .tc main_v128) := by
  kkeep hostOps7_9
theorem v128_step45 (c : Dev nD) : W45 m ρ c (Proc.devRef .tc main_v128) = W44 m ρ c (Proc.devRef .tc main_v128) := by
  kkeep hostOps7_10
theorem v128_step46 (c : Dev nD) : W46 m ρ c (Proc.devRef .tc main_v128) = W45 m ρ c (Proc.devRef .tc main_v128) := by
  kkeep hostOps7_11
theorem v128_at46 (c : Dev nD) : W46 m ρ c (Proc.devRef .tc main_v128) = W36 m ρ c (Proc.devRef .tc main_v128) :=
  ((((((((((v128_step46 m ρ c).trans (v128_step45 m ρ c)).trans (v128_step44 m ρ c)).trans (v128_step43 m ρ c)).trans (v128_step42 m ρ c)).trans (v128_step41 m ρ c)).trans (v128_step40 m ρ c)).trans (v128_step39 m ρ c)).trans (v128_step38 m ρ c)).trans (v128_step37 m ρ c))
theorem v129_step39 (c : Dev nD) : W39 m ρ c (Proc.devRef .tc main_v129) = W38 m ρ c (Proc.devRef .tc main_v129) := by
  kkeep hostOps7_4
theorem v129_step40 (c : Dev nD) : W40 m ρ c (Proc.devRef .tc main_v129) = W39 m ρ c (Proc.devRef .tc main_v129) := by
  kkeep hostOps7_5
theorem v129_step41 (c : Dev nD) : W41 m ρ c (Proc.devRef .tc main_v129) = W40 m ρ c (Proc.devRef .tc main_v129) := by
  kkeep hostOps7_6
theorem v129_step42 (c : Dev nD) : W42 m ρ c (Proc.devRef .tc main_v129) = W41 m ρ c (Proc.devRef .tc main_v129) := by
  kkeep hostOps7_7
theorem v129_step43 (c : Dev nD) : W43 m ρ c (Proc.devRef .tc main_v129) = W42 m ρ c (Proc.devRef .tc main_v129) := by
  kkeep hostOps7_8
theorem v129_step44 (c : Dev nD) : W44 m ρ c (Proc.devRef .tc main_v129) = W43 m ρ c (Proc.devRef .tc main_v129) := by
  kkeep hostOps7_9
theorem v129_step45 (c : Dev nD) : W45 m ρ c (Proc.devRef .tc main_v129) = W44 m ρ c (Proc.devRef .tc main_v129) := by
  kkeep hostOps7_10
theorem v129_step46 (c : Dev nD) : W46 m ρ c (Proc.devRef .tc main_v129) = W45 m ρ c (Proc.devRef .tc main_v129) := by
  kkeep hostOps7_11
theorem v129_at46 (c : Dev nD) : W46 m ρ c (Proc.devRef .tc main_v129) = W38 m ρ c (Proc.devRef .tc main_v129) :=
  ((((((((v129_step46 m ρ c).trans (v129_step45 m ρ c)).trans (v129_step44 m ρ c)).trans (v129_step43 m ρ c)).trans (v129_step42 m ρ c)).trans (v129_step41 m ρ c)).trans (v129_step40 m ρ c)).trans (v129_step39 m ρ c))
theorem v130_step41 (c : Dev nD) : W41 m ρ c (Proc.devRef .tc main_v130) = W40 m ρ c (Proc.devRef .tc main_v130) := by
  kkeep hostOps7_6
theorem v130_step42 (c : Dev nD) : W42 m ρ c (Proc.devRef .tc main_v130) = W41 m ρ c (Proc.devRef .tc main_v130) := by
  kkeep hostOps7_7
theorem v130_step43 (c : Dev nD) : W43 m ρ c (Proc.devRef .tc main_v130) = W42 m ρ c (Proc.devRef .tc main_v130) := by
  kkeep hostOps7_8
theorem v130_step44 (c : Dev nD) : W44 m ρ c (Proc.devRef .tc main_v130) = W43 m ρ c (Proc.devRef .tc main_v130) := by
  kkeep hostOps7_9
theorem v130_step45 (c : Dev nD) : W45 m ρ c (Proc.devRef .tc main_v130) = W44 m ρ c (Proc.devRef .tc main_v130) := by
  kkeep hostOps7_10
theorem v130_step46 (c : Dev nD) : W46 m ρ c (Proc.devRef .tc main_v130) = W45 m ρ c (Proc.devRef .tc main_v130) := by
  kkeep hostOps7_11
theorem v130_at46 (c : Dev nD) : W46 m ρ c (Proc.devRef .tc main_v130) = W40 m ρ c (Proc.devRef .tc main_v130) :=
  ((((((v130_step46 m ρ c).trans (v130_step45 m ρ c)).trans (v130_step44 m ρ c)).trans (v130_step43 m ρ c)).trans (v130_step42 m ρ c)).trans (v130_step41 m ρ c))
theorem v131_step43 (c : Dev nD) : W43 m ρ c (Proc.devRef .tc main_v131) = W42 m ρ c (Proc.devRef .tc main_v131) := by
  kkeep hostOps7_8
theorem v131_step44 (c : Dev nD) : W44 m ρ c (Proc.devRef .tc main_v131) = W43 m ρ c (Proc.devRef .tc main_v131) := by
  kkeep hostOps7_9
theorem v131_step45 (c : Dev nD) : W45 m ρ c (Proc.devRef .tc main_v131) = W44 m ρ c (Proc.devRef .tc main_v131) := by
  kkeep hostOps7_10
theorem v131_step46 (c : Dev nD) : W46 m ρ c (Proc.devRef .tc main_v131) = W45 m ρ c (Proc.devRef .tc main_v131) := by
  kkeep hostOps7_11
theorem v131_at46 (c : Dev nD) : W46 m ρ c (Proc.devRef .tc main_v131) = W42 m ρ c (Proc.devRef .tc main_v131) :=
  ((((v131_step46 m ρ c).trans (v131_step45 m ρ c)).trans (v131_step44 m ρ c)).trans (v131_step43 m ρ c))
theorem v132_step45 (c : Dev nD) : W45 m ρ c (Proc.devRef .tc main_v132) = W44 m ρ c (Proc.devRef .tc main_v132) := by
  kkeep hostOps7_10
theorem v132_step46 (c : Dev nD) : W46 m ρ c (Proc.devRef .tc main_v132) = W45 m ρ c (Proc.devRef .tc main_v132) := by
  kkeep hostOps7_11
theorem v132_at46 (c : Dev nD) : W46 m ρ c (Proc.devRef .tc main_v132) = W44 m ρ c (Proc.devRef .tc main_v132) :=
  ((v132_step46 m ρ c).trans (v132_step45 m ρ c))

/-! ## The six padded arguments as region 7 finds them

Each head argument is padded with zeros to the kernel's width, then (the two weight matrices) changed of format, which
is the identity on the extended reals, or (the four vectors) laid out as a one-row matrix. Inside the original extents
the padded array holds the argument's entry; below row 64, column 0 of the padded second weights holds the pad value,
the integer 0 converted, which is 0. -/

/-- The first weights: window 1 at (k, q'), q' below 64, is the argument's (k, q'). -/
theorem w1_read (c : Dev nD) (k : Fin 256) (q : Fin 64) (q' : Fin 128) (h : q'.val = q.val) :
    W47 m ρ c (Proc.devRef .tc main_v134) (ix2 k q') = m ((c : Thread nD τ).loc main_arg30) (ix2 k q) := by
  have hq : q'.val < 64 := by omega
  calc W47 m ρ c (Proc.devRef .tc main_v134) (ix2 k q')
      = W46 m ρ c (Proc.devRef .tc main_v128) (ix2 k q') := KPrep.trunc_v134 (W46 m ρ c) _
    _ = W36 m ρ c (Proc.devRef .tc main_v128) (ix2 k q') := congrFun (v128_at46 m ρ c) _
    _ = W35 m ρ c (Proc.devRef .tc main_arg30) (ix2 k ⟨q'.val, hq⟩) := KPrep.pad_v128 (W35 m ρ c) k q' hq
    _ = m ((c : Thread nD τ).loc main_arg30) (ix2 k ⟨q'.val, hq⟩) := congrFun (argAt35 m ρ c main_arg30 (by decide)) _
    _ = m ((c : Thread nD τ).loc main_arg30) (ix2 k q) := by rw [show (⟨q'.val, hq⟩ : Fin 64) = q from Fin.ext h]

/-- b1: region 7's window 2 at entry q' below 64 is the argument's entry. -/
theorem b1_read (c : Dev nD) (q : Fin 64) (q' : Fin 128) (h : q'.val = q.val) :
    W47 m ρ c (Proc.devRef .tc main_v136) (ix2 (0 : Fin 1) q') = m ((c : Thread nD τ).loc main_arg31) (ix1 q) := by
  have hq : q'.val < 64 := by omega
  calc W47 m ρ c (Proc.devRef .tc main_v136) (ix2 (0 : Fin 1) q')
      = W46 m ρ c (Proc.devRef .tc main_v129) (ix1 q') := KPrep.row_v136 (W46 m ρ c) q'
    _ = W38 m ρ c (Proc.devRef .tc main_v129) (ix1 q') := congrFun (v129_at46 m ρ c) _
    _ = W37 m ρ c (Proc.devRef .tc main_arg31) (ix1 ⟨q'.val, hq⟩) := KPrep.pad_v129 (W37 m ρ c) q' hq
    _ = m ((c : Thread nD τ).loc main_arg31) (ix1 ⟨q'.val, hq⟩) := congrFun (argAt37 m ρ c main_arg31 (by decide)) _
    _ = m ((c : Thread nD τ).loc main_arg31) (ix1 q) := by rw [show (⟨q'.val, hq⟩ : Fin 64) = q from Fin.ext h]

/-- g1: region 7's window 3 at entry q' below 64 is the argument's entry. -/
theorem g1_read (c : Dev nD) (q : Fin 64) (q' : Fin 128) (h : q'.val = q.val) :
    W47 m ρ c (Proc.devRef .tc main_v137) (ix2 (0 : Fin 1) q') = m ((c : Thread nD τ).loc main_arg32) (ix1 q) := by
  have hq : q'.val < 64 := by omega
  calc W47 m ρ c (Proc.devRef .tc main_v137) (ix2 (0 : Fin 1) q')
      = W46 m ρ c (Proc.devRef .tc main_v130) (ix1 q') := KPrep.row_v137 (W46 m ρ c) q'
    _ = W40 m ρ c (Proc.devRef .tc main_v130) (ix1 q') := congrFun (v130_at46 m ρ c) _
    _ = W39 m ρ c (Proc.devRef .tc main_arg32) (ix1 ⟨q'.val, hq⟩) := KPrep.pad_v130 (W39 m ρ c) q' hq
    _ = m ((c : Thread nD τ).loc main_arg32) (ix1 ⟨q'.val, hq⟩) := congrFun (argAt39 m ρ c main_arg32 (by decide)) _
    _ = m ((c : Thread nD τ).loc main_arg32) (ix1 q) := by rw [show (⟨q'.val, hq⟩ : Fin 64) = q from Fin.ext h]

/-- be1: region 7's window 4 at entry q' below 64 is the argument's entry. -/
theorem be1_read (c : Dev nD) (q : Fin 64) (q' : Fin 128) (h : q'.val = q.val) :
    W47 m ρ c (Proc.devRef .tc main_v138) (ix2 (0 : Fin 1) q') = m ((c : Thread nD τ).loc main_arg33) (ix1 q) := by
  have hq : q'.val < 64 := by omega
  calc W47 m ρ c (Proc.devRef .tc main_v138) (ix2 (0 : Fin 1) q')
      = W46 m ρ c (Proc.devRef .tc main_v131) (ix1 q') := KPrep.row_v138 (W46 m ρ c) q'
    _ = W42 m ρ c (Proc.devRef .tc main_v131) (ix1 q') := congrFun (v131_at46 m ρ c) _
    _ = W41 m ρ c (Proc.devRef .tc main_arg33) (ix1 ⟨q'.val, hq⟩) := KPrep.pad_v131 (W41 m ρ c) q' hq
    _ = m ((c : Thread nD τ).loc main_arg33) (ix1 ⟨q'.val, hq⟩) := congrFun (argAt41 m ρ c main_arg33 (by decide)) _
    _ = m ((c : Thread nD τ).loc main_arg33) (ix1 q) := by rw [show (⟨q'.val, hq⟩ : Fin 64) = q from Fin.ext h]

/-- The second weights: window 5 at (k', 0), k' below 64, is the argument's (k', 0). -/
theorem w2_read (c : Dev nD) (k : Fin 64) (k' : Fin 128) (h : k'.val = k.val) :
    W47 m ρ c (Proc.devRef .tc main_v135) (ix2 k' (0 : Fin 128)) = m ((c : Thread nD τ).loc main_arg34) (ix2 k (0 : Fin 1)) := by
  have hk : k'.val < 64 := by omega
  calc W47 m ρ c (Proc.devRef .tc main_v135) (ix2 k' (0 : Fin 128))
      = W46 m ρ c (Proc.devRef .tc main_v132) (ix2 k' (0 : Fin 128)) := KPrep.trunc_v135 (W46 m ρ c) _
    _ = W44 m ρ c (Proc.devRef .tc main_v132) (ix2 k' (0 : Fin 128)) := congrFun (v132_at46 m ρ c) _
    _ = W43 m ρ c (Proc.devRef .tc main_arg34) (ix2 ⟨k'.val, hk⟩ (0 : Fin 1)) := KPrep.pad_v132 (W43 m ρ c) k' hk
    _ = m ((c : Thread nD τ).loc main_arg34) (ix2 ⟨k'.val, hk⟩ (0 : Fin 1)) := congrFun (argAt43 m ρ c main_arg34 (by decide)) _
    _ = m ((c : Thread nD τ).loc main_arg34) (ix2 k (0 : Fin 1)) := by rw [show (⟨k'.val, hk⟩ : Fin 64) = k from Fin.ext h]

/-- Below row 64, column 0 of window 5 is zero. -/
theorem w2_zero (c : Dev nD) (k' : Fin 128) (h : 64 ≤ k'.val) :
    (W47 m ρ c (Proc.devRef .tc main_v135) : S128x128.Idx → EReal) (ix2 k' (0 : Fin 128)) = (0 : EReal) := by
  calc (W47 m ρ c (Proc.devRef .tc main_v135) : S128x128.Idx → EReal) (ix2 k' (0 : Fin 128))
      = W46 m ρ c (Proc.devRef .tc main_v132) (ix2 k' (0 : Fin 128)) := KPrep.trunc_v135 (W46 m ρ c) _
    _ = W44 m ρ c (Proc.devRef .tc main_v132) (ix2 k' (0 : Fin 128)) := congrFun (v132_at46 m ρ c) _
    _ = (0 : EReal) := KPrep.pad_v132_zero (W43 m ρ c) (KPrep.c30_const (W42 m ρ c)) k' h

/-- The second bias: window 6 at (0, 0) is the argument's one entry. -/
theorem b2_read (c : Dev nD) :
    W47 m ρ c (Proc.devRef .tc main_v139) (ix2 (0 : Fin 1) (0 : Fin 128)) = m ((c : Thread nD τ).loc main_arg35) (ix1 (0 : Fin 1)) := by
  calc W47 m ρ c (Proc.devRef .tc main_v139) (ix2 (0 : Fin 1) (0 : Fin 128))
      = W46 m ρ c (Proc.devRef .tc main_v133) (ix1 (0 : Fin 128)) := KPrep.row_v139 (W46 m ρ c) 0
    _ = W45 m ρ c (Proc.devRef .tc main_arg35) (ix1 (0 : Fin 1)) := KPrep.pad_v133 (W45 m ρ c)
    _ = m ((c : Thread nD τ).loc main_arg35) (ix1 (0 : Fin 1)) := congrFun (argAt45 m ρ c main_arg35 (by decide)) _

/-! ## The arrays region 7 finds, each at its literal type -/

/-- The encoded matrix, region 4's output. -/
abbrev xEnc (c : Dev nD) : Arr2 2048 256 := W22 m ρ c (Proc.devRef .tc main_v112)
/-- The padded first weights, and the padded bias, scale and shift as vectors (their one row). -/
abbrev w1P (c : Dev nD) : Arr2 256 128 := W47 m ρ c (Proc.devRef .tc main_v134)
abbrev b1P (c : Dev nD) : Arr1 128 := fun j => W47 m ρ c (Proc.devRef .tc main_v136) (ix2 (0 : Fin 1) (j 0 : Fin 128))
abbrev g1P (c : Dev nD) : Arr1 128 := fun j => W47 m ρ c (Proc.devRef .tc main_v137) (ix2 (0 : Fin 1) (j 0 : Fin 128))
abbrev be1P (c : Dev nD) : Arr1 128 := fun j => W47 m ρ c (Proc.devRef .tc main_v138) (ix2 (0 : Fin 1) (j 0 : Fin 128))
/-- The padded second weights and bias. -/
abbrev w2P (c : Dev nD) : Arr2 128 128 := W47 m ρ c (Proc.devRef .tc main_v135)
abbrev b2P (c : Dev nD) : Arr1 128 := fun j => W47 m ρ c (Proc.devRef .tc main_v139) (ix2 (0 : Fin 1) (j 0 : Fin 128))

/-! ## The head's output at the final boundary, in three steps -/

/-- The last host operation keeps column 0 of region 7's output array, which is what region 7's one write-back left. -/
theorem out_slice (c : Dev nD) (p : Fin 2048) :
    W49 m ρ c (Proc.devRef .tc main_v141) (ix2 p (0 : Fin 1)) = (dat7 (V47 m ρ) c).arrAt 7 cfg7.N (ix2 p (0 : Fin 128)) :=
  (KPrep.slice_v141 (W48 m ρ c) p 0).trans (congrFun (W48_arr m ρ c 7) (ix2 p (0 : Fin 128)))

/-- Region 7 computes the head at the padded widths, of what it finds in its seven input arrays. -/
theorem out_padded (c : Dev nD) (i : S2048x128.Idx) :
    (dat7 (V47 m ρ) c).arrAt 7 cfg7.N i
      = Cert.Spec.head (xEnc m ρ c) (w1P m ρ c) (b1P m ρ c) (g1P m ρ c) (be1P m ρ c) (w2P m ρ c) (b2P m ρ c) i :=
  Cert.KernelIdeal.RV.region7_val (V47 m ρ) c (xEnc m ρ c) (w1P m ρ c) (b1P m ρ c) (g1P m ρ c) (be1P m ρ c) (w2P m ρ c) (b2P m ρ c)
    (fun j => congrFun (v112_at47 m ρ c) j) (fun _ => rfl) (fun _ => rfl) (fun _ => rfl) (fun _ => rfl) (fun _ => rfl) (fun _ => rfl) i

end HeadChain

/-! ## The head's output at the final boundary -/

/-- The first column of region 7's output is the specification's head at the original widths, of the encoded matrix
    and the six head arguments. -/
theorem head_out (c : Dev nD) : ∀ i, W49 m ρ c (Proc.devRef .tc main_v141) i
    = Cert.Spec.head (W22 m ρ c (Proc.devRef .tc main_v112)) (m ((c : Thread nD τ).loc main_arg30)) (m ((c : Thread nD τ).loc main_arg31))
        (m ((c : Thread nD τ).loc main_arg32)) (m ((c : Thread nD τ).loc main_arg33)) (m ((c : Thread nD τ).loc main_arg34))
        (m ((c : Thread nD τ).loc main_arg35)) i := by
  intro i
  obtain ⟨p, u, rfl⟩ : ∃ (p : Fin 2048) (u : Fin 1), i = ix2 p u := ⟨i 0, i 1, eq_ix2 i⟩
  obtain rfl : u = 0 := Subsingleton.elim _ _
  refine (HeadChain.out_slice m ρ c p).trans ((HeadChain.out_padded m ρ c (ix2 p (0 : Fin 128))).trans ?_)
  exact Cert.SpecPad.head_pad (HeadChain.xEnc m ρ c)
    (m ((c : Thread nD τ).loc main_arg30)) (m ((c : Thread nD τ).loc main_arg31)) (m ((c : Thread nD τ).loc main_arg32))
    (m ((c : Thread nD τ).loc main_arg33)) (m ((c : Thread nD τ).loc main_arg34)) (m ((c : Thread nD τ).loc main_arg35))
    (HeadChain.w1P m ρ c) (HeadChain.b1P m ρ c) (HeadChain.g1P m ρ c) (HeadChain.be1P m ρ c) (HeadChain.w2P m ρ c) (HeadChain.b2P m ρ c)
    (fun k q q' h => HeadChain.w1_read m ρ c k q q' h) (fun q q' h => HeadChain.b1_read m ρ c q q' h)
    (fun q q' h => HeadChain.g1_read m ρ c q q' h) (fun q q' h => HeadChain.be1_read m ρ c q q' h)
    (fun k k' h => HeadChain.w2_read m ρ c k k' h) (fun k' h => HeadChain.w2_zero m ρ c k' h) (HeadChain.b2_read m ρ c) p

end Cert.KernelIdeal.KG

end
-- ==== Proof.RDot.lean ====
/-
  The reference's two matrix products, read entry by entry. Each is one host operation, a product of two argument buffers
  with the left operand contracted on its columns and the right on its rows: the first a [10000, 1024] matrix by a
  [1024, 1024] one, the second a [5000, 2812] matrix by a [2812, 1024] one. At the extended reals such a product at entry
  (p, q) is the sum over the contraction's one coordinate k of left(p, k) · right(k, q), with no rounding and no order of
  summation left in it: the matrix product of the specification. The only step is re-indexing the contraction's sum by its
  coordinate.
-/
import proofs.«402148_j44985487458808_3_alg».proof.Proof.RefRun
import proofs.«402148_j44985487458808_3_alg».proof.Proof.Spec
import Idealize.ShloMosaic.Lib.StableHlo.Run
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.RefRun Cert.Spec
open Idealize.ShloMosaic Idealize.ShloMosaic.TcCoe Idealize.SL.Sem Idealize.ShloMosaic.StableHlo Idealize.ShloMosaic.ValueIdx

/-- In the first product the left operand's index at output (p, q) and contraction position k is (p, k). -/
theorem rdd_lhs (p : Fin 10000) (q k : Fin 1024) :
    dot_S10000x1024_S1024x1024_S10000x1024_1_0_0_1_n_n.lhsIdx (ix2 p q)
      ((contrEquiv1 dot_S10000x1024_S1024x1024_S10000x1024_1_0_0_1_n_n 1024 rfl rfl).symm k) = ix2 p k := by
  have ck := contrEquiv1_symm_val dot_S10000x1024_S1024x1024_S10000x1024_1_0_0_1_n_n 1024 rfl rfl k
  funext ax; apply Fin.ext
  match ax with
  | ⟨0, _⟩ => simp [DotDims.lhsIdx, dot_S10000x1024_S1024x1024_S10000x1024_1_0_0_1_n_n]; rfl
  | ⟨1, _⟩ => simp [DotDims.lhsIdx, dot_S10000x1024_S1024x1024_S10000x1024_1_0_0_1_n_n]; exact ck

/-- The right operand's index there is (k, q). -/
theorem rdd_rhs (p : Fin 10000) (q k : Fin 1024) :
    dot_S10000x1024_S1024x1024_S10000x1024_1_0_0_1_n_n.rhsIdx (ix2 p q)
      ((contrEquiv1 dot_S10000x1024_S1024x1024_S10000x1024_1_0_0_1_n_n 1024 rfl rfl).symm k) = ix2 k q := by
  have ck := contrEquiv1_symm_val dot_S10000x1024_S1024x1024_S10000x1024_1_0_0_1_n_n 1024 rfl rfl k
  funext ax; apply Fin.ext
  match ax with
  | ⟨0, _⟩ => simp [DotDims.rhsIdx, dot_S10000x1024_S1024x1024_S10000x1024_1_0_0_1_n_n]; exact ck
  | ⟨1, _⟩ => simp [DotDims.rhsIdx, dot_S10000x1024_S1024x1024_S10000x1024_1_0_0_1_n_n]; rfl

/-- The host's product of a [10000, 1024] by a [1024, 1024] matrix, read at an entry, is the matrix product there: the sum
    over the contraction's one coordinate of the products of the entries. -/
theorem rdd_apply (l : FVec Ideal S10000x1024 .f32) (r : FVec Ideal S1024x1024 .f32) (i : S10000x1024.Idx) :
    Host.dotGeneral dot_S10000x1024_S1024x1024_S10000x1024_1_0_0_1_n_n none l r i = Cert.Spec.mm l r i := by
  obtain ⟨p, q, rfl⟩ : ∃ (p : Fin 10000) (q : Fin 1024), i = ix2 p q := ⟨i 0, i 1, eq_ix2 i⟩
  show FloatOps.dotGeneral dot_S10000x1024_S1024x1024_S10000x1024_1_0_0_1_n_n none _ l r (ix2 p q) = ∑ k : Fin 1024, l (ix2 p k) * r (ix2 k q)
  rw [Ideal.dotGeneral_apply, ← Equiv.sum_comp (contrEquiv1 dot_S10000x1024_S1024x1024_S10000x1024_1_0_0_1_n_n 1024 rfl rfl).symm]
  exact Finset.sum_congr rfl fun k _ => by rw [rdd_lhs, rdd_rhs]

/-- In the second product the left operand's index at output (p, q) and contraction position k is (p, k). -/
theorem rdp_lhs (p : Fin 5000) (q : Fin 1024) (k : Fin 2812) :
    dot_S5000x2812_S2812x1024_S5000x1024_1_0_0_1_n_n.lhsIdx (ix2 p q)
      ((contrEquiv1 dot_S5000x2812_S2812x1024_S5000x1024_1_0_0_1_n_n 2812 rfl rfl).symm k) = ix2 p k := by
  have ck := contrEquiv1_symm_val dot_S5000x2812_S2812x1024_S5000x1024_1_0_0_1_n_n 2812 rfl rfl k
  funext ax; apply Fin.ext
  match ax with
  | ⟨0, _⟩ => simp [DotDims.lhsIdx, dot_S5000x2812_S2812x1024_S5000x1024_1_0_0_1_n_n]; rfl
  | ⟨1, _⟩ => simp [DotDims.lhsIdx, dot_S5000x2812_S2812x1024_S5000x1024_1_0_0_1_n_n]; exact ck

/-- The right operand's index there is (k, q). -/
theorem rdp_rhs (p : Fin 5000) (q : Fin 1024) (k : Fin 2812) :
    dot_S5000x2812_S2812x1024_S5000x1024_1_0_0_1_n_n.rhsIdx (ix2 p q)
      ((contrEquiv1 dot_S5000x2812_S2812x1024_S5000x1024_1_0_0_1_n_n 2812 rfl rfl).symm k) = ix2 k q := by
  have ck := contrEquiv1_symm_val dot_S5000x2812_S2812x1024_S5000x1024_1_0_0_1_n_n 2812 rfl rfl k
  funext ax; apply Fin.ext
  match ax with
  | ⟨0, _⟩ => simp [DotDims.rhsIdx, dot_S5000x2812_S2812x1024_S5000x1024_1_0_0_1_n_n]; exact ck
  | ⟨1, _⟩ => simp [DotDims.rhsIdx, dot_S5000x2812_S2812x1024_S5000x1024_1_0_0_1_n_n]; rfl

/-- The host's product of a [5000, 2812] by a [2812, 1024] matrix, read at an entry, is the matrix product there. -/
theorem rdp_apply (l : FVec Ideal S5000x2812 .f32) (r : FVec Ideal S2812x1024 .f32) (i : S5000x1024.Idx) :
    Host.dotGeneral dot_S5000x2812_S2812x1024_S5000x1024_1_0_0_1_n_n none l r i = Cert.Spec.mm l r i := by
  obtain ⟨p, q, rfl⟩ : ∃ (p : Fin 5000) (q : Fin 1024), i = ix2 p q := ⟨i 0, i 1, eq_ix2 i⟩
  show FloatOps.dotGeneral dot_S5000x2812_S2812x1024_S5000x1024_1_0_0_1_n_n none _ l r (ix2 p q) = ∑ k : Fin 2812, l (ix2 p k) * r (ix2 k q)
  rw [Ideal.dotGeneral_apply, ← Equiv.sum_comp (contrEquiv1 dot_S5000x2812_S2812x1024_S5000x1024_1_0_0_1_n_n 2812 rfl rfl).symm]
  exact Finset.sum_congr rfl fun k _ => by rw [rdp_lhs, rdp_rhs]

/-- After the one operation that writes it, the first product's buffer holds the matrix product of the two argument
    buffers it reads, entry by entry. -/
theorem ref_dot_d (V : Valuation τ sig (Elt Ideal)) :
    ∀ i, after s1 V (Proc.devRef .tc main_v32) i
      = Cert.Spec.mm (V (Proc.devRef .tc main_arg4)) (V (Proc.devRef .tc main_arg10)) i := by
  intro i
  have e : (after (s1 (F := Ideal)) V (Proc.devRef .tc main_v32) : FVec Ideal S10000x1024 .f32)
      = Host.dotGeneral (F := Ideal) (φ₁ := .f32) (φ₂ := .f32) dot_S10000x1024_S1024x1024_S10000x1024_1_0_0_1_n_n none
          (V (Proc.devRef .tc main_arg4)) (V (Proc.devRef .tc main_arg10)) := by
    after_results
  rw [e]
  exact rdd_apply _ _ i

/-- After the one operation that writes it, the second product's buffer holds the matrix product of the two argument
    buffers it reads, entry by entry. -/
theorem ref_dot_p (V : Valuation τ sig (Elt Ideal)) :
    ∀ i, after s6 V (Proc.devRef .tc main_v93) i
      = Cert.Spec.mm (V (Proc.devRef .tc main_arg7)) (V (Proc.devRef .tc main_arg12)) i := by
  intro i
  have e : (after (s6 (F := Ideal)) V (Proc.devRef .tc main_v93) : FVec Ideal S5000x1024 .f32)
      = Host.dotGeneral (F := Ideal) (φ₁ := .f32) (φ₂ := .f32) dot_S5000x2812_S2812x1024_S5000x1024_1_0_0_1_n_n none
          (V (Proc.devRef .tc main_arg7)) (V (Proc.devRef .tc main_arg12)) := by
    after_results
  rw [e]
  exact rdp_apply _ _ i

end Cert.ReferenceIdeal.RefVal

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.KMat0.lean ====
/-
  The first matrix-product region: x, a [10240, 1024] matrix, times w, a [1024, 1024] matrix, computed ten blocks of 1024
  rows at a time. At grid point t the body loads rows 1024·t … 1024·t + 1023 of x and the whole of w, changes the float
  format of the rows (the identity on extended reals), multiplies into a zero accumulator and stores the [1024, 1024]
  result, which is written back as rows 1024·t … 1024·t + 1023 of the result array.

  So entry (p, q) of what point t stores is the sum over k of x(1024·t + p, k) · w(k, q): entry (1024·t + p, q) of the
  product x·w. The ten blocks tile the result array (row r lies in the block of point r / 1024), so after the region the
  array holds x·w, entry by entry. No law of arithmetic is used beyond re-indexing the contraction's sum by its one
  coordinate.
-/
import proofs.«402148_j44985487458808_3_alg».proof.Proof.Gen.KernelIdeal.Frame
import proofs.«402148_j44985487458808_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RV

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The store's and the loads' rectangles start at the origin, however the zeros are spelt. -/
theorem mm0_origin : (![0, 0] : Fin 2 → Nat) = fun _ => 0 := funext fun a => by fin_cases a <;> rfl

/-- The left operand's index at output (p, q) and contraction position k is (p, k). -/
theorem mm0_lhs (p q k : Fin 1024) :
    dot_S1024x1024_S1024x1024_S1024x1024_1_0_0_1_n_n.lhsIdx (ix2 p q)
      ((contrEquiv1 dot_S1024x1024_S1024x1024_S1024x1024_1_0_0_1_n_n 1024 rfl rfl).symm k) = ix2 p k := by
  have ck := contrEquiv1_symm_val dot_S1024x1024_S1024x1024_S1024x1024_1_0_0_1_n_n 1024 rfl rfl k
  funext ax; apply Fin.ext
  match ax with
  | ⟨0, _⟩ => simp [DotDims.lhsIdx, dot_S1024x1024_S1024x1024_S1024x1024_1_0_0_1_n_n]; rfl
  | ⟨1, _⟩ => simp [DotDims.lhsIdx, dot_S1024x1024_S1024x1024_S1024x1024_1_0_0_1_n_n]; exact ck

/-- The right operand's index there is (k, q). -/
theorem mm0_rhs (p q k : Fin 1024) :
    dot_S1024x1024_S1024x1024_S1024x1024_1_0_0_1_n_n.rhsIdx (ix2 p q)
      ((contrEquiv1 dot_S1024x1024_S1024x1024_S1024x1024_1_0_0_1_n_n 1024 rfl rfl).symm k) = ix2 k q := by
  have ck := contrEquiv1_symm_val dot_S1024x1024_S1024x1024_S1024x1024_1_0_0_1_n_n 1024 rfl rfl k
  funext ax; apply Fin.ext
  match ax with
  | ⟨0, _⟩ => simp [DotDims.rhsIdx, dot_S1024x1024_S1024x1024_S1024x1024_1_0_0_1_n_n]; exact ck
  | ⟨1, _⟩ => simp [DotDims.rhsIdx, dot_S1024x1024_S1024x1024_S1024x1024_1_0_0_1_n_n]; rfl

/-- The body's value at entry (p, q) of its block: the change of float format is the identity on extended reals and the
    accumulator is zero, so what is left is the sum over k of the products of the two loaded blocks' entries. -/
theorem mm0_pay (b0 : FVec Ideal S1024x1024 .f32) (b1 : FVec Ideal S1024x1024 .bf16) (p q : Fin 1024) :
    k0_pay1 (F := Ideal) b0 b1 (ix2 p q) = ∑ k : Fin 1024, b0 (ix2 p k) * b1 (ix2 k q) := by
  unfold k0_pay1
  rw [shapeCast_self, shapeCast_self]
  show FloatOps.matmul dot_S1024x1024_S1024x1024_S1024x1024_1_0_0_1_n_n none _ _ (constant S1024x1024 .f32 0x00000000#32) (ix2 p q) = _
  rw [Ideal.matmul_constant_zero_apply,
    ← Equiv.sum_comp (contrEquiv1 dot_S1024x1024_S1024x1024_S1024x1024_1_0_0_1_n_n 1024 rfl rfl).symm]
  refine Finset.sum_congr rfl fun k _ => ?_
  rw [mm0_lhs, mm0_rhs]
  rfl

/-- When the first loaded block is rows 1024·tv … 1024·tv + 1023 of x and the second is all of w, the body's value at
    an entry of its block is the product x·w at the entry 1024·tv rows further down. -/
theorem mm0_point (x : Arr2 10240 1024) (w : Arr2 1024 1024) (b0 : FVec Ideal S1024x1024 .f32) (b1 : FVec Ideal S1024x1024 .bf16) (tv : ℕ)
    (h0 : ∀ (p k : Fin 1024) (r : Fin 10240), r.val = tv * 1024 + p.val → b0 (ix2 p k) = x (ix2 r k))
    (h1 : ∀ (k q : Fin 1024), b1 (ix2 k q) = w (ix2 k q))
    (y : S1024x1024.Idx) (i : (⟨2, ![10240, 1024]⟩ : Shape).Idx)
    (hi0 : (i 0).val = tv * 1024 + (y 0).val) (hi1 : (i 1).val = (y 1).val) :
    k0_pay1 (F := Ideal) b0 b1 y = Cert.Spec.mm x w i := by
  obtain ⟨p, q, rfl⟩ : ∃ (p q : Fin 1024), y = ix2 p q := ⟨y 0, y 1, eq_ix2 y⟩
  obtain ⟨r, s, rfl⟩ : ∃ (r : Fin 10240) (s : Fin 1024), i = ix2 r s := ⟨i 0, i 1, eq_ix2 i⟩
  have hs : s = q := Fin.ext hi1
  subst hs
  rw [mm0_pay]
  show _ = ∑ k : Fin 1024, x (ix2 r k) * w (ix2 k s)
  exact Finset.sum_congr rfl fun k _ => by rw [h0 p k r hi0, h1 k s]

/-- The printed index maps over the ten grid points: the blocks of x and of the result are at row-block t, column-block 0;
    the block of w is the whole array at every point. -/
theorem mm0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of x at point t is rows 1024·t … 1024·t + 1023 of x. -/
theorem mm0_read_x (c : Dev nD) (x : Arr2 10240 1024) (hx : ∀ i, V c (Pipeline.arrRef spec0 0) i = x i)
    (t : Fin cfg0.N) (p k : Fin 1024) (r : Fin 10240) (hr : r.val = t.val * 1024 + p.val) :
    (iblk0 V c 0 t : FVec Ideal S1024x1024 .f32) (ix2 p k) = x (ix2 r k) := by
  obtain ⟨e0, e1, -⟩ := mm0_idx t
  unfold iblk0
  show V c (Pipeline.arrRef spec0 0) (((cfg0.win 0).blk t).view.emb (ix2 p k)) = x (ix2 r k)
  refine (hx _).trans (congrArg x ?_)
  funext a; apply Fin.ext
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The block of w at every point is w. -/
theorem mm0_read_w (c : Dev nD) (w : Arr2 1024 1024) (hw : ∀ i, V c (Pipeline.arrRef spec0 1) i = w i)
    (t : Fin cfg0.N) (k q : Fin 1024) :
    (iblk0 V c 1 t : FVec Ideal S1024x1024 .bf16) (ix2 k q) = w (ix2 k q) := by
  obtain ⟨-, -, e2, e3, -⟩ := mm0_idx t
  unfold iblk0
  show V c (Pipeline.arrRef spec0 1) (((cfg0.win 1).blk t).view.emb (ix2 k q)) = w (ix2 k q)
  refine (hw _).trans (congrArg w ?_)
  funext a; apply Fin.ext
  match a with
  | ⟨0, _⟩ => show win0_1.index t (0 : Fin 2) * 1024 + 1 * k.val = k.val; rw [e2]; omega
  | ⟨1, _⟩ => show win0_1.index t (1 : Fin 2) * 1024 + 1 * q.val = q.val; rw [e3]; omega

/-- What the body leaves at point t, read through the result window's block, is block t of the product x·w. -/
theorem mm0_block (c : Dev nD) (x : Arr2 10240 1024) (w : Arr2 1024 1024)
    (hx : ∀ i, V c (Pipeline.arrRef spec0 0) i = x i) (hw : ∀ i, V c (Pipeline.arrRef spec0 1) i = w i) (t : Fin cfg0.N) :
    (cfg0.win 2).cut (grid0.coords t) (k0_pay1 (F := Ideal) (iblk0 V c 0 t) (iblk0 V c 1 t))
      = ((cfg0.win 2).blk t).view.read (Elt Ideal) (Cert.Spec.mm x w) := by
  obtain ⟨-, -, -, -, e4, e5⟩ := mm0_idx t
  funext j
  show k0_pay1 (F := Ideal) (iblk0 V c 0 t) (iblk0 V c 1 t) ((cfg0.win 2).xinj (grid0.coords t) j)
    = Cert.Spec.mm x w (((cfg0.win 2).blk t).view.emb j)
  refine mm0_point x w (iblk0 V c 0 t) (iblk0 V c 1 t) t.val (mm0_read_x V c x hx t) (mm0_read_w V c w hw t)
    ((cfg0.win 2).xinj (grid0.coords t) j) (((cfg0.win 2).blk t).view.emb j) ?_ ?_
  · show win0_2.index t (0 : Fin 2) * 1024 + 1 * (j 0).val = t.val * 1024 + (j 0).val; rw [e4]; omega
  · show win0_2.index t (1 : Fin 2) * 1024 + 1 * (j 1).val = (j 1).val; rw [e5]; omega

/-- An index of the result array is in point t's block iff each coordinate is in the block's range on its axis. -/
theorem mm0_mem (t : Fin cfg0.N) (i : S10240x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v34).slice (win0_2.rect t)).set ↔ _
  rw [View.set_slice_whole, Rect.mem_set_unit]
  exact Iff.rfl

/-- Every entry of the result array is in some point's block: row r is in the block of point r / 1024. -/
theorem mm0_cover (i : S10240x1024.Idx) :
    ∃ t : Fin cfg0.N, (cfg0.win 2).flush t = true ∧ i ∈ ((cfg0.win 2).blk t).view.set := by
  have hi0 : (i 0).val < 10240 := (i 0).isLt
  have hi1 : (i 1).val < 1024 := (i 1).isLt
  have hN : cfg0.N = 10 := N_0
  let t : Fin cfg0.N := ⟨(i 0).val / 1024, by rw [hN]; omega⟩
  obtain ⟨-, -, -, -, e4, e5⟩ := mm0_idx t
  have ht : t.val = (i 0).val / 1024 := rfl
  refine ⟨t, flush0_2 t, ?_⟩
  rw [mm0_mem]
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 1024 ≤ (i 1).val ∧ (i 1).val < win0_2.index t (1 : Fin 2) * 1024 + 1024; rw [e5]; omega

/-- What point t writes back to the result array is block t of the product x·w: the body's one store covers its whole
    buffer, and its loads read the two input blocks whole. -/
theorem mm0_flushed (c : Dev nD) (x : Arr2 10240 1024) (w : Arr2 1024 1024)
    (hx : ∀ i, V c (Pipeline.arrRef spec0 0) i = x i) (hw : ∀ i, V c (Pipeline.arrRef spec0 1) i = w i) (t : Fin cfg0.N) :
    (dat0 V c).flushed 2 t = ((cfg0.win 2).blk t).view.read (Elt Ideal) (Cert.Spec.mm x w) := by
  show (cfg0.win 2).cut (grid0.coords t) ((dat0 V c).after 2 t) = _
  rw [after0_2]
  unfold out0_2
  rw [View.canon_unit_zero mm0_origin]
  simp only [View.ld_unit_zero (S := S1024x1024) mm0_origin]
  exact mm0_block V c x w hx hw t

/-- After the region the result array holds the product x·w, entry by entry: every point writes its block of x·w and the
    blocks cover the array. -/
theorem region0_val (c : Dev nD) (x : Arr2 10240 1024) (w : Arr2 1024 1024)
    (hx : ∀ i, V c (Pipeline.arrRef spec0 0) i = x i) (hw : ∀ i, V c (Pipeline.arrRef spec0 1) i = w i) :
    ∀ i, (dat0 V c).arrAt 2 cfg0.N i = Cert.Spec.mm x w i := fun i =>
  congrFun ((dat0 V c).arrAt_eq_of_cover 2 (Cert.Spec.mm x w) (fun t _ => mm0_flushed V c x w hx hw t) mm0_cover) i

end Cert.KernelIdeal.RV

end
-- ==== Proof.KMat1.lean ====
/-
  The second matrix-product region: x, a [5120, 2812] matrix, times w, a [2812, 1024] matrix, computed ten blocks of 512
  rows at a time. At grid point t the body loads rows 512·t … 512·t + 511 of x and the whole of w, changes the float format
  of the rows (the identity on extended reals), multiplies into a zero accumulator and stores the [512, 1024] result, which
  is written back as rows 512·t … 512·t + 511 of the result array.

  So entry (p, q) of what point t stores is the sum over k of x(512·t + p, k) · w(k, q): entry (512·t + p, q) of the
  product x·w. The ten blocks tile the result array (row r lies in the block of point r / 512), so after the region the
  array holds x·w, entry by entry. No law of arithmetic is used beyond re-indexing the contraction's sum by its one
  coordinate.
-/
import proofs.«402148_j44985487458808_3_alg».proof.Proof.Gen.KernelIdeal.Frame
import proofs.«402148_j44985487458808_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RV

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The store's and the loads' rectangles start at the origin, however the zeros are spelt. -/
theorem mm1_origin : (![0, 0] : Fin 2 → Nat) = fun _ => 0 := funext fun a => by fin_cases a <;> rfl

/-- The left operand's index at output (p, q) and contraction position k is (p, k). -/
theorem mm1_lhs (p : Fin 512) (q : Fin 1024) (k : Fin 2812) :
    dot_S512x2812_S2812x1024_S512x1024_1_0_0_1_n_n.lhsIdx (ix2 p q)
      ((contrEquiv1 dot_S512x2812_S2812x1024_S512x1024_1_0_0_1_n_n 2812 rfl rfl).symm k) = ix2 p k := by
  have ck := contrEquiv1_symm_val dot_S512x2812_S2812x1024_S512x1024_1_0_0_1_n_n 2812 rfl rfl k
  funext ax; apply Fin.ext
  match ax with
  | ⟨0, _⟩ => simp [DotDims.lhsIdx, dot_S512x2812_S2812x1024_S512x1024_1_0_0_1_n_n]; rfl
  | ⟨1, _⟩ => simp [DotDims.lhsIdx, dot_S512x2812_S2812x1024_S512x1024_1_0_0_1_n_n]; exact ck

/-- The right operand's index there is (k, q). -/
theorem mm1_rhs (p : Fin 512) (q : Fin 1024) (k : Fin 2812) :
    dot_S512x2812_S2812x1024_S512x1024_1_0_0_1_n_n.rhsIdx (ix2 p q)
      ((contrEquiv1 dot_S512x2812_S2812x1024_S512x1024_1_0_0_1_n_n 2812 rfl rfl).symm k) = ix2 k q := by
  have ck := contrEquiv1_symm_val dot_S512x2812_S2812x1024_S512x1024_1_0_0_1_n_n 2812 rfl rfl k
  funext ax; apply Fin.ext
  match ax with
  | ⟨0, _⟩ => simp [DotDims.rhsIdx, dot_S512x2812_S2812x1024_S512x1024_1_0_0_1_n_n]; exact ck
  | ⟨1, _⟩ => simp [DotDims.rhsIdx, dot_S512x2812_S2812x1024_S512x1024_1_0_0_1_n_n]; rfl

/-- The body's value at entry (p, q) of its block: the change of float format is the identity on extended reals and the
    accumulator is zero, so what is left is the sum over the 2812 values of k of the products of the two loaded blocks'
    entries. -/
theorem mm1_pay (b0 : FVec Ideal S512x2812 .f32) (b1 : FVec Ideal S2812x1024 .bf16) (p : Fin 512) (q : Fin 1024) :
    k1_pay1 (F := Ideal) b0 b1 (ix2 p q) = ∑ k : Fin 2812, b0 (ix2 p k) * b1 (ix2 k q) := by
  unfold k1_pay1
  rw [shapeCast_self, shapeCast_self]
  show FloatOps.matmul dot_S512x2812_S2812x1024_S512x1024_1_0_0_1_n_n none _ _ (constant S512x1024 .f32 0x00000000#32) (ix2 p q) = _
  rw [Ideal.matmul_constant_zero_apply,
    ← Equiv.sum_comp (contrEquiv1 dot_S512x2812_S2812x1024_S512x1024_1_0_0_1_n_n 2812 rfl rfl).symm]
  refine Finset.sum_congr rfl fun k _ => ?_
  rw [mm1_lhs, mm1_rhs]
  rfl

/-- When the first loaded block is rows 512·tv … 512·tv + 511 of x and the second is all of w, the body's value at an
    entry of its block is the product x·w at the entry 512·tv rows further down. -/
theorem mm1_point (x : Arr2 5120 2812) (w : Arr2 2812 1024) (b0 : FVec Ideal S512x2812 .f32) (b1 : FVec Ideal S2812x1024 .bf16) (tv : ℕ)
    (h0 : ∀ (p : Fin 512) (k : Fin 2812) (r : Fin 5120), r.val = tv * 512 + p.val → b0 (ix2 p k) = x (ix2 r k))
    (h1 : ∀ (k : Fin 2812) (q : Fin 1024), b1 (ix2 k q) = w (ix2 k q))
    (y : S512x1024.Idx) (i : (⟨2, ![5120, 1024]⟩ : Shape).Idx)
    (hi0 : (i 0).val = tv * 512 + (y 0).val) (hi1 : (i 1).val = (y 1).val) :
    k1_pay1 (F := Ideal) b0 b1 y = Cert.Spec.mm x w i := by
  obtain ⟨p, q, rfl⟩ : ∃ (p : Fin 512) (q : Fin 1024), y = ix2 p q := ⟨y 0, y 1, eq_ix2 y⟩
  obtain ⟨r, s, rfl⟩ : ∃ (r : Fin 5120) (s : Fin 1024), i = ix2 r s := ⟨i 0, i 1, eq_ix2 i⟩
  have hs : s = q := Fin.ext hi1
  subst hs
  rw [mm1_pay]
  show _ = ∑ k : Fin 2812, x (ix2 r k) * w (ix2 k s)
  exact Finset.sum_congr rfl fun k _ => by rw [h0 p k r hi0, h1 k s]

/-- The printed index maps over the ten grid points: the blocks of x and of the result are at row-block t, column-block 0;
    the block of w is the whole array at every point. -/
theorem mm1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The block of x at point t is rows 512·t … 512·t + 511 of x. -/
theorem mm1_read_x (c : Dev nD) (x : Arr2 5120 2812) (hx : ∀ i, V c (Pipeline.arrRef spec1 0) i = x i)
    (t : Fin cfg1.N) (p : Fin 512) (k : Fin 2812) (r : Fin 5120) (hr : r.val = t.val * 512 + p.val) :
    (iblk1 V c 0 t : FVec Ideal S512x2812 .f32) (ix2 p k) = x (ix2 r k) := by
  obtain ⟨e0, e1, -⟩ := mm1_idx t
  unfold iblk1
  show V c (Pipeline.arrRef spec1 0) (((cfg1.win 0).blk t).view.emb (ix2 p k)) = x (ix2 r k)
  refine (hx _).trans (congrArg x ?_)
  funext a; apply Fin.ext
  match a with
  | ⟨0, _⟩ => show win1_0.index t (0 : Fin 2) * 512 + 1 * p.val = r.val; rw [e0, hr]; omega
  | ⟨1, _⟩ => show win1_0.index t (1 : Fin 2) * 2812 + 1 * k.val = k.val; rw [e1]; omega

/-- The block of w at every point is w. -/
theorem mm1_read_w (c : Dev nD) (w : Arr2 2812 1024) (hw : ∀ i, V c (Pipeline.arrRef spec1 1) i = w i)
    (t : Fin cfg1.N) (k : Fin 2812) (q : Fin 1024) :
    (iblk1 V c 1 t : FVec Ideal S2812x1024 .bf16) (ix2 k q) = w (ix2 k q) := by
  obtain ⟨-, -, e2, e3, -⟩ := mm1_idx t
  unfold iblk1
  show V c (Pipeline.arrRef spec1 1) (((cfg1.win 1).blk t).view.emb (ix2 k q)) = w (ix2 k q)
  refine (hw _).trans (congrArg w ?_)
  funext a; apply Fin.ext
  match a with
  | ⟨0, _⟩ => show win1_1.index t (0 : Fin 2) * 2812 + 1 * k.val = k.val; rw [e2]; omega
  | ⟨1, _⟩ => show win1_1.index t (1 : Fin 2) * 1024 + 1 * q.val = q.val; rw [e3]; omega

/-- What the body leaves at point t, read through the result window's block, is block t of the product x·w. -/
theorem mm1_block (c : Dev nD) (x : Arr2 5120 2812) (w : Arr2 2812 1024)
    (hx : ∀ i, V c (Pipeline.arrRef spec1 0) i = x i) (hw : ∀ i, V c (Pipeline.arrRef spec1 1) i = w i) (t : Fin cfg1.N) :
    (cfg1.win 2).cut (grid1.coords t) (k1_pay1 (F := Ideal) (iblk1 V c 0 t) (iblk1 V c 1 t))
      = ((cfg1.win 2).blk t).view.read (Elt Ideal) (Cert.Spec.mm x w) := by
  obtain ⟨-, -, -, -, e4, e5⟩ := mm1_idx t
  funext j
  show k1_pay1 (F := Ideal) (iblk1 V c 0 t) (iblk1 V c 1 t) ((cfg1.win 2).xinj (grid1.coords t) j)
    = Cert.Spec.mm x w (((cfg1.win 2).blk t).view.emb j)
  refine mm1_point x w (iblk1 V c 0 t) (iblk1 V c 1 t) t.val (mm1_read_x V c x hx t) (mm1_read_w V c w hw t)
    ((cfg1.win 2).xinj (grid1.coords t) j) (((cfg1.win 2).blk t).view.emb j) ?_ ?_
  · show win1_2.index t (0 : Fin 2) * 512 + 1 * (j 0).val = t.val * 512 + (j 0).val; rw [e4]; omega
  · show win1_2.index t (1 : Fin 2) * 1024 + 1 * (j 1).val = (j 1).val; rw [e5]; omega

/-- An index of the result array is in point t's block iff each coordinate is in the block's range on its axis. -/
theorem mm1_mem (t : Fin cfg1.N) (i : S5120x1024.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v84).slice (win1_2.rect t)).set ↔ _
  rw [View.set_slice_whole, Rect.mem_set_unit]
  exact Iff.rfl

/-- Every entry of the result array is in some point's block: row r is in the block of point r / 512. -/
theorem mm1_cover (i : S5120x1024.Idx) :
    ∃ t : Fin cfg1.N, (cfg1.win 2).flush t = true ∧ i ∈ ((cfg1.win 2).blk t).view.set := by
  have hi0 : (i 0).val < 5120 := (i 0).isLt
  have hi1 : (i 1).val < 1024 := (i 1).isLt
  have hN : cfg1.N = 10 := N_1
  let t : Fin cfg1.N := ⟨(i 0).val / 512, by rw [hN]; omega⟩
  obtain ⟨-, -, -, -, e4, e5⟩ := mm1_idx t
  have ht : t.val = (i 0).val / 512 := rfl
  refine ⟨t, flush1_2 t, ?_⟩
  rw [mm1_mem]
  intro a
  match a with
  | ⟨0, _⟩ => show win1_2.index t (0 : Fin 2) * 512 ≤ (i 0).val ∧ (i 0).val < win1_2.index t (0 : Fin 2) * 512 + 512; rw [e4, ht]; omega
  | ⟨1, _⟩ => show win1_2.index t (1 : Fin 2) * 1024 ≤ (i 1).val ∧ (i 1).val < win1_2.index t (1 : Fin 2) * 1024 + 1024; rw [e5]; omega

/-- What point t writes back to the result array is block t of the product x·w: the body's one store covers its whole
    buffer, and its loads read the two input blocks whole. -/
theorem mm1_flushed (c : Dev nD) (x : Arr2 5120 2812) (w : Arr2 2812 1024)
    (hx : ∀ i, V c (Pipeline.arrRef spec1 0) i = x i) (hw : ∀ i, V c (Pipeline.arrRef spec1 1) i = w i) (t : Fin cfg1.N) :
    (dat1 V c).flushed 2 t = ((cfg1.win 2).blk t).view.read (Elt Ideal) (Cert.Spec.mm x w) := by
  show (cfg1.win 2).cut (grid1.coords t) ((dat1 V c).after 2 t) = _
  rw [after1_2]
  unfold out1_2
  rw [View.canon_unit_zero mm1_origin]
  simp only [View.ld_unit_zero (S := S512x2812) mm1_origin, View.ld_unit_zero (S := S2812x1024) mm1_origin]
  exact mm1_block V c x w hx hw t

/-- After the region the result array holds the product x·w, entry by entry: every point writes its block of x·w and the
    blocks cover the array. -/
theorem region1_val (c : Dev nD) (x : Arr2 5120 2812) (w : Arr2 2812 1024)
    (hx : ∀ i, V c (Pipeline.arrRef spec1 0) i = x i) (hw : ∀ i, V c (Pipeline.arrRef spec1 1) i = w i) :
    ∀ i, (dat1 V c).arrAt 2 cfg1.N i = Cert.Spec.mm x w i := fun i =>
  congrFun ((dat1 V c).arrAt_eq_of_cover 2 (Cert.Spec.mm x w) (fun t _ => mm1_flushed V c x w hx hw t) mm1_cover) i

end Cert.KernelIdeal.RV

end
-- ==== Proof.KChainMat.lean ====
/-
  The kernel program's two matrix products as products of its ARGUMENTS.

  The program does not hand its regions the arguments themselves. Before each product it pads the left argument with
  zero rows at the high end, up to a whole number of row blocks (10000 to 10240 rows; 5000 to 5120 rows), and narrows the
  float format of the right argument (the identity on extended reals); the region multiplies the two arrays it finds; after
  it the program keeps the first 10000 (5000) rows of the region's result.

  Entry (p, q) of a matrix product is the sum over k of left(p, k) · right(k, q): it depends on row p of the left factor
  alone. For p below the argument's row count, row p of the padded array is row p of the argument, so the kept rows of the
  region's result are the rows of the product of the arguments. The padding rows never enter, so no fact about zero is
  used, and no law of arithmetic beyond rewriting the summands.
-/
import proofs.«402148_j44985487458808_3_alg».proof.Proof.KGlueArgs
import proofs.«402148_j44985487458808_3_alg».proof.Proof.KMat0
import proofs.«402148_j44985487458808_3_alg».proof.Proof.KMat1
import proofs.«402148_j44985487458808_3_alg».proof.Proof.KPrep
import proofs.«402148_j44985487458808_3_alg».proof.Proof.Spec
import Idealize.ShloMosaic.Lib.StableHlo.Run
import Idealize.ShloMosaic.Lib.ValueIdx

noncomputable section

namespace Cert.KernelIdeal.KG

open Cert.KernelIdeal Cert.KernelIdeal.Gen Cert.Spec
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

namespace MatChain

/-- An entry of a matrix product depends only on its row of the left factor and its column of the right factor: two
    products whose factors agree there agree at that entry, whatever the row counts of the two left factors. -/
theorem mm_entry_congr {M M' K N : ℕ} (x : Arr2 M K) (x' : Arr2 M' K) (w w' : Arr2 K N) (p : Fin M) (p' : Fin M') (q : Fin N)
    (hx : ∀ k : Fin K, x (ix2 p k) = x' (ix2 p' k)) (hw : ∀ k : Fin K, w (ix2 k q) = w' (ix2 k q)) :
    Cert.Spec.mm x w (ix2 p q) = Cert.Spec.mm x' w' (ix2 p' q) := by
  show ∑ k : Fin K, x (ix2 p k) * w (ix2 k q) = ∑ k : Fin K, x' (ix2 p' k) * w' (ix2 k q)
  exact Finset.sum_congr rfl fun k _ => by rw [hx k, hw k]

end MatChain

/-! ## The first product: a [10000, 1024] argument, padded to 10240 rows, times a [1024, 1024] argument -/

/-- The left factor as the first region finds it: below row 10000 the padded array is the argument (the padding is written
    one host stretch before the region's entry and not touched by the stretch in between). -/
theorem matd_x (c : Dev nD) (p : Fin 10240) (hp : p.val < 10000) (k : Fin 1024) :
    W5 m ρ c (Proc.devRef .tc main_v32) (ix2 p k)
      = m ((c : Thread nD τ).loc main_arg4) (ix2 (⟨p.val, hp⟩ : Fin 10000) k) := by
  have h54 : W5 m ρ c (Proc.devRef .tc main_v32) = W4 m ρ c (Proc.devRef .tc main_v32) := by kkeep hostOps0_4
  refine (congrFun h54 (ix2 p k)).trans ?_
  refine (KPrep.pad_v32 (W3 m ρ c) p hp k).trans ?_
  exact congrFun (argAt3 m ρ c main_arg4 (by decide)) _

/-- The right factor as the first region finds it is the argument: the change of float format is the identity. -/
theorem matd_w (c : Dev nD) (i : S1024x1024.Idx) :
    W5 m ρ c (Proc.devRef .tc main_v33) i = m ((c : Thread nD τ).loc main_arg10) i :=
  (KPrep.trunc_v33 (W4 m ρ c) i).trans (congrFun (argAt4 m ρ c main_arg10 (by decide)) i)

/-- What the first region leaves in its result array: the product of the two arrays it found. -/
theorem matd_out (c : Dev nD) (i : S10240x1024.Idx) :
    W6 m ρ c (Proc.devRef .tc main_v34) i
      = Cert.Spec.mm (W5 m ρ c (Proc.devRef .tc main_v32)) (W5 m ρ c (Proc.devRef .tc main_v33)) i :=
  (congrFun (W6_arr m ρ c 2) i).trans
    (RV.region0_val (V5 m ρ) c (W5 m ρ c (Proc.devRef .tc main_v32)) (W5 m ρ c (Proc.devRef .tc main_v33))
      (fun _ => rfl) (fun _ => rfl) i)

/-- The first product at an entry (p, q), p below 10000: the slice keeps the first 10000 rows of the region's result, a
    row of a product depends only on that row of the left factor, and that row of the padded array is the argument's. -/
theorem mat_d_at (c : Dev nD) (p : Fin 10000) (q : Fin 1024) :
    W7 m ρ c (Proc.devRef .tc main_v35) (ix2 p q)
      = Cert.Spec.mm (m ((c : Thread nD τ).loc main_arg4)) (m ((c : Thread nD τ).loc main_arg10)) (ix2 p q) := by
  refine (KPrep.slice_v35 (W6 m ρ c) p q).trans ?_
  refine (matd_out m ρ c _).trans ?_
  exact MatChain.mm_entry_congr (M := 10240) (M' := 10000) (K := 1024) (N := 1024) _ _ _ _ _ p q
    (fun k => matd_x m ρ c _ p.isLt k) (fun k => matd_w m ρ c (ix2 k q))

theorem mat_d (c : Dev nD) :
    ∀ i, W7 m ρ c (Proc.devRef .tc main_v35) i
      = Cert.Spec.mm (m ((c : Thread nD τ).loc main_arg4)) (m ((c : Thread nD τ).loc main_arg10)) i := by
  intro i
  obtain ⟨p, q, rfl⟩ : ∃ (p : Fin 10000) (q : Fin 1024), i = ix2 p q := ⟨i 0, i 1, eq_ix2 i⟩
  exact mat_d_at m ρ c p q

/-! ## The second product: a [5000, 2812] argument, padded to 5120 rows, times a [2812, 1024] argument -/

/-- The left factor as the second region finds it: below row 5000 the padded array is the argument. -/
theorem matp_x (c : Dev nD) (p : Fin 5120) (hp : p.val < 5000) (k : Fin 2812) :
    W13 m ρ c (Proc.devRef .tc main_v82) (ix2 p k)
      = m ((c : Thread nD τ).loc main_arg7) (ix2 (⟨p.val, hp⟩ : Fin 5000) k) := by
  have h1312 : W13 m ρ c (Proc.devRef .tc main_v82) = W12 m ρ c (Proc.devRef .tc main_v82) := by kkeep hostOps1_6
  refine (congrFun h1312 (ix2 p k)).trans ?_
  refine (KPrep.pad_v82 (W11 m ρ c) p hp k).trans ?_
  exact congrFun (argAt11 m ρ c main_arg7 (by decide)) _

/-- The right factor as the second region finds it is the argument. -/
theorem matp_w (c : Dev nD) (i : S2812x1024.Idx) :
    W13 m ρ c (Proc.devRef .tc main_v83) i = m ((c : Thread nD τ).loc main_arg12) i :=
  (KPrep.trunc_v83 (W12 m ρ c) i).trans (congrFun (argAt12 m ρ c main_arg12 (by decide)) i)

/-- What the second region leaves in its result array: the product of the two arrays it found. -/
theorem matp_out (c : Dev nD) (i : S5120x1024.Idx) :
    W14 m ρ c (Proc.devRef .tc main_v84) i
      = Cert.Spec.mm (W13 m ρ c (Proc.devRef .tc main_v82)) (W13 m ρ c (Proc.devRef .tc main_v83)) i :=
  (congrFun (W14_arr m ρ c 2) i).trans
    (RV.region1_val (V13 m ρ) c (W13 m ρ c (Proc.devRef .tc main_v82)) (W13 m ρ c (Proc.devRef .tc main_v83))
      (fun _ => rfl) (fun _ => rfl) i)

/-- The second product at an entry (p, q), p below 5000. -/
theorem mat_p_at (c : Dev nD) (p : Fin 5000) (q : Fin 1024) :
    W15 m ρ c (Proc.devRef .tc main_v85) (ix2 p q)
      = Cert.Spec.mm (m ((c : Thread nD τ).loc main_arg7)) (m ((c : Thread nD τ).loc main_arg12)) (ix2 p q) := by
  refine (KPrep.slice_v85 (W14 m ρ c) p q).trans ?_
  refine (matp_out m ρ c _).trans ?_
  exact MatChain.mm_entry_congr (M := 5120) (M' := 5000) (K := 2812) (N := 1024) _ _ _ _ _ p q
    (fun k => matp_x m ρ c _ p.isLt k) (fun k => matp_w m ρ c (ix2 k q))

theorem mat_p (c : Dev nD) :
    ∀ i, W15 m ρ c (Proc.devRef .tc main_v85) i
      = Cert.Spec.mm (m ((c : Thread nD τ).loc main_arg7)) (m ((c : Thread nD τ).loc main_arg12)) i := by
  intro i
  obtain ⟨p, q, rfl⟩ : ∃ (p : Fin 5000) (q : Fin 1024), i = ix2 p q := ⟨i 0, i 1, eq_ix2 i⟩
  exact mat_p_at m ρ c p q

end Cert.KernelIdeal.KG

end
-- ==== Proof.XNormD.lean ====
/-
  The graph normalisation of graph d, across the two programs.

  Both programs append a self-loop of weight one per node to the edge list, add up each node's incoming weights (its
  degree), take the inverse square root where the degree is positive and zero elsewhere, and weigh every edge by the two
  values at its ends times its own weight. They do so by the same operations in the same order, over buffers that
  merely carry different numbers, so each result is one and the same function of the edge index and the edge weight.
-/
import proofs.«402148_j44985487458808_3_alg».proof.Proof.Gen.KernelIdeal.Launch
import proofs.«402148_j44985487458808_3_alg».proof.Proof.RefPart0
import proofs.«402148_j44985487458808_3_alg».proof.Proof.LibAfter
import Idealize.ShloMosaic.Lib.StableHlo.Run
import Idealize.ShloMosaic.PureOps.Ideal

noncomputable section

namespace Cert.Cross

open Idealize.ShloMosaic Idealize.ShloMosaic.TcCoe Idealize.SL.Sem Idealize.ShloMosaic.StableHlo

variable (KV : Valuation Cert.KernelIdeal.τ Cert.KernelIdeal.sig (Elt Ideal))
variable (RV : Valuation Cert.ReferenceIdeal.τ Cert.ReferenceIdeal.sig (Elt Ideal))

set_option maxHeartbeats 4000000 in
/-- The edge normalisation: the product of the two gathered inverse square roots of the degrees with the edge weight
    (self-loops of weight one appended) is the same function of the edge index and the edge weight in both programs. -/
theorem norm_d
    (e5 : RV (Proc.devRef .tc Cert.ReferenceIdeal.main_arg5) = KV (Proc.devRef .tc Cert.KernelIdeal.main_arg5))
    (e6 : RV (Proc.devRef .tc Cert.ReferenceIdeal.main_arg6) = KV (Proc.devRef .tc Cert.KernelIdeal.main_arg6)) :
    after Cert.KernelIdeal.Gen.hostOps0_2 (after Cert.KernelIdeal.Gen.hostOps0_1 (after Cert.KernelIdeal.Gen.hostOps0 KV))
        (Proc.devRef .tc Cert.KernelIdeal.main_v31)
      = after (Cert.ReferenceIdeal.RefRun.s0 (F := Ideal)) RV (Proc.devRef .tc Cert.ReferenceIdeal.main_v31) := by
  after_results_simp
  after_results_rw
  rw [e5, e6]
  rfl

set_option maxHeartbeats 4000000 in
/-- The source index with the self-loops appended is the same function of the edge index in both programs. -/
theorem src_d
    (e5 : RV (Proc.devRef .tc Cert.ReferenceIdeal.main_arg5) = KV (Proc.devRef .tc Cert.KernelIdeal.main_arg5)) :
    after Cert.KernelIdeal.Gen.hostOps0_2 (after Cert.KernelIdeal.Gen.hostOps0_1 (after Cert.KernelIdeal.Gen.hostOps0 KV))
        (Proc.devRef .tc Cert.KernelIdeal.main_v3)
      = after (Cert.ReferenceIdeal.RefRun.s0 (F := Ideal)) RV (Proc.devRef .tc Cert.ReferenceIdeal.main_v3) := by
  after_results_simp
  after_results_rw
  rw [e5]
  rfl

set_option maxHeartbeats 4000000 in
/-- The destination index with the self-loops appended is the same function of the edge index in both programs. -/
theorem dst_d
    (e5 : RV (Proc.devRef .tc Cert.ReferenceIdeal.main_arg5) = KV (Proc.devRef .tc Cert.KernelIdeal.main_arg5)) :
    after Cert.KernelIdeal.Gen.hostOps0_2 (after Cert.KernelIdeal.Gen.hostOps0_1 (after Cert.KernelIdeal.Gen.hostOps0 KV))
        (Proc.devRef .tc Cert.KernelIdeal.main_v6)
      = after (Cert.ReferenceIdeal.RefRun.s0 (F := Ideal)) RV (Proc.devRef .tc Cert.ReferenceIdeal.main_v6) := by
  after_results_simp
  after_results_rw
  rw [e5]
  rfl

end Cert.Cross

end
-- ==== Proof.XAggD.lean ====
/-
  The aggregation over graph d, across the two programs.

  Both programs gather the rows of the node-feature product at the edges' sources (a negative index counted from the
  end), multiply each gathered row by its edge's normalisation, and add the rows up at the edges' destinations into a
  zero matrix. They do so by the same operations in the same order, over buffers that merely carry different numbers,
  so the result is one and the same function of the product, the normalisation and the two index vectors.
-/
import proofs.«402148_j44985487458808_3_alg».proof.Proof.Gen.KernelIdeal.Launch
import proofs.«402148_j44985487458808_3_alg».proof.Proof.RefPart0
import proofs.«402148_j44985487458808_3_alg».proof.Proof.LibAfter
import Idealize.ShloMosaic.Lib.StableHlo.Run
import Idealize.ShloMosaic.PureOps.Ideal

noncomputable section

namespace Cert.Cross

open Idealize.ShloMosaic Idealize.ShloMosaic.TcCoe Idealize.SL.Sem Idealize.ShloMosaic.StableHlo

variable (KV : Valuation Cert.KernelIdeal.τ Cert.KernelIdeal.sig (Elt Ideal))
variable (RV : Valuation Cert.ReferenceIdeal.τ Cert.ReferenceIdeal.sig (Elt Ideal))

set_option maxHeartbeats 4000000 in
/-- The aggregation over graph d: the rows of the node-feature product gathered at the edges' sources, each weighed by
    its edge's normalisation, and added up at the edges' destinations, is the same function of the product, the
    normalisation and the two index vectors in both programs. -/
theorem agg_d
    (e35 : KV (Proc.devRef .tc Cert.KernelIdeal.main_v35) = RV (Proc.devRef .tc Cert.ReferenceIdeal.main_v32))
    (e31 : KV (Proc.devRef .tc Cert.KernelIdeal.main_v31) = RV (Proc.devRef .tc Cert.ReferenceIdeal.main_v31))
    (e3 : KV (Proc.devRef .tc Cert.KernelIdeal.main_v3) = RV (Proc.devRef .tc Cert.ReferenceIdeal.main_v3))
    (e6 : KV (Proc.devRef .tc Cert.KernelIdeal.main_v6) = RV (Proc.devRef .tc Cert.ReferenceIdeal.main_v6)) :
    after (Cert.KernelIdeal.Gen.hostOps1.drop 1) KV (Proc.devRef .tc Cert.KernelIdeal.main_v48)
      = after (Cert.ReferenceIdeal.RefRun.s2 (F := Ideal)) RV (Proc.devRef .tc Cert.ReferenceIdeal.main_v45) := by
  simp only [Cert.KernelIdeal.Gen.hostOps1, List.drop_succ_cons, List.drop_zero]
  after_results_simp
  after_results_rw
  rw [e35, e31, e3, e6]
  rfl

end Cert.Cross

end
-- ==== Proof.XGlueD.lean ====
/-
  The aggregated node-feature matrix of the first graph is the same buffer contents in the kernel program and in the
  reference.

  In both programs the aggregation reads four arrays: the product of the node features with the first weight matrix, the
  normalised edge weights, and the edges' source and destination indices. The kernel program computes the product in a
  region, on a left factor padded to a whole number of row blocks, and slices the padding rows off afterwards; the
  reference computes it in one host operation. Both are the matrix product of the same two arguments. The other three
  arrays each program computes from the edge list and the edge weights before its product, by the same operations, and
  neither writes them again before the aggregation: on the kernel side neither the padding, nor the change of float format,
  nor the region, nor the slice touches them; on the reference side the product writes only its own result.

  So the aggregation's four inputs agree, and with them its result.
-/
import proofs.«402148_j44985487458808_3_alg».proof.Proof.KGlueArgs
import proofs.«402148_j44985487458808_3_alg».proof.Proof.RefRun
import proofs.«402148_j44985487458808_3_alg».proof.Proof.RDot
import proofs.«402148_j44985487458808_3_alg».proof.Proof.LibAfter
import proofs.«402148_j44985487458808_3_alg».proof.Proof.KChainMat
import proofs.«402148_j44985487458808_3_alg».proof.Proof.RChain
import proofs.«402148_j44985487458808_3_alg».proof.Proof.XNormD
import proofs.«402148_j44985487458808_3_alg».proof.Proof.XAggD
import proofs.«402148_j44985487458808_3_alg».proof.Proof.Spec
import Idealize.ShloMosaic.Lib.StableHlo.Run

noncomputable section

namespace Cert.Cross

open Idealize.ShloMosaic Idealize.ShloMosaic.TcCoe Idealize.SL.Sem Idealize.ShloMosaic.StableHlo

/-! ## The kernel program between its first region and the aggregation -/

/-- The stretch after the first region is its first operation, the slice of the region's result, then the rest. -/
theorem gd_split (m : (ℓ : Loc KernelIdeal.nD KernelIdeal.τ KernelIdeal.sig) → Buf (Elt Ideal) ℓ) (ρ : Dev KernelIdeal.nD → PrngReg) (c : Dev KernelIdeal.nD) :
    KernelIdeal.Gen.W7 m ρ c
      = after ((KernelIdeal.Gen.hostOps1 (F := Ideal)).drop 1) (after ((KernelIdeal.Gen.hostOps1 (F := Ideal)).take 1) (KernelIdeal.Gen.W6 m ρ c)) := by
  show after (KernelIdeal.Gen.hostOps1 (F := Ideal)) (KernelIdeal.Gen.W6 m ρ c) = _
  rw [← LibAfter.after_append, List.take_append_drop]

/-- The slice writes the sliced buffer and no other. -/
theorem gd_take_keep (V : Valuation KernelIdeal.τ KernelIdeal.sig (Elt Ideal)) (b : Ref KernelIdeal.sig .tc) (hb : b ≠ KernelIdeal.main_v35) :
    after ((KernelIdeal.Gen.hostOps1 (F := Ideal)).take 1) V (Proc.devRef .tc b) = V (Proc.devRef .tc b) := by
  refine after_of_forall_not_mem (b := _) _ _ (List.forall_iff_forall_mem.mp ?_)
  simp only [KernelIdeal.Gen.hostOps1, List.take_succ_cons, List.take_zero, List.Forall, unary_writes, Finset.mem_singleton]
  exact devRef_ne_of_ne hb

/-- None of the operations after the slice writes the sliced buffer. -/
theorem gd_drop_keep (V : Valuation KernelIdeal.τ KernelIdeal.sig (Elt Ideal)) :
    after ((KernelIdeal.Gen.hostOps1 (F := Ideal)).drop 1) V (Proc.devRef .tc KernelIdeal.main_v35) = V (Proc.devRef .tc KernelIdeal.main_v35) := by
  refine after_of_forall_not_mem (b := _) _ _ (List.forall_iff_forall_mem.mp ?_)
  simp only [KernelIdeal.Gen.hostOps1, List.drop_succ_cons, List.drop_zero, List.Forall, nullary_writes, unary_writes, binary_writes, ternary_writes, quaternary_writes, reshape_writes, binaryIndexed_writes, nary_writes, Finset.mem_singleton]
  repeat' apply And.intro
  all_goals exact devRef_ne_of_ne (by decide)

section KernelBack
open Cert.KernelIdeal Cert.KernelIdeal.Gen Cert.KernelIdeal.KG
variable (m : (ℓ : Loc nD τ sig) → Buf (Elt Ideal) ℓ) (ρ : Dev nD → PrngReg) (c : Dev nD)

/-- The normalised edge weights, after the slice, are still what the third host stretch left: neither the slice, nor the
    first region, nor the two stretches that prepare the region's operands write them. -/
theorem gd_back31 : after ((hostOps1 (F := Ideal)).take 1) (W6 m ρ c) (Proc.devRef .tc main_v31) = W3 m ρ c (Proc.devRef .tc main_v31) := by
  have h54 : W5 m ρ c (Proc.devRef .tc main_v31) = W4 m ρ c (Proc.devRef .tc main_v31) := by kkeep hostOps0_4
  have h43 : W4 m ρ c (Proc.devRef .tc main_v31) = W3 m ρ c (Proc.devRef .tc main_v31) := by kkeep hostOps0_3
  exact (gd_take_keep _ _ (by decide)).trans ((W6_of_ne m ρ c _ (by decide)).trans (h54.trans h43))

/-- The same for the edges' source indices … -/
theorem gd_back3 : after ((hostOps1 (F := Ideal)).take 1) (W6 m ρ c) (Proc.devRef .tc main_v3) = W3 m ρ c (Proc.devRef .tc main_v3) := by
  have h54 : W5 m ρ c (Proc.devRef .tc main_v3) = W4 m ρ c (Proc.devRef .tc main_v3) := by kkeep hostOps0_4
  have h43 : W4 m ρ c (Proc.devRef .tc main_v3) = W3 m ρ c (Proc.devRef .tc main_v3) := by kkeep hostOps0_3
  exact (gd_take_keep _ _ (by decide)).trans ((W6_of_ne m ρ c _ (by decide)).trans (h54.trans h43))

/-- … and for their destination indices. -/
theorem gd_back6 : after ((hostOps1 (F := Ideal)).take 1) (W6 m ρ c) (Proc.devRef .tc main_v6) = W3 m ρ c (Proc.devRef .tc main_v6) := by
  have h54 : W5 m ρ c (Proc.devRef .tc main_v6) = W4 m ρ c (Proc.devRef .tc main_v6) := by kkeep hostOps0_4
  have h43 : W4 m ρ c (Proc.devRef .tc main_v6) = W3 m ρ c (Proc.devRef .tc main_v6) := by kkeep hostOps0_3
  exact (gd_take_keep _ _ (by decide)).trans ((W6_of_ne m ρ c _ (by decide)).trans (h54.trans h43))

/-- The sliced buffer after the slice alone is what it is after the whole stretch. -/
theorem gd_v35 : after ((hostOps1 (F := Ideal)).take 1) (W6 m ρ c) (Proc.devRef .tc main_v35) = W7 m ρ c (Proc.devRef .tc main_v35) :=
  ((congrFun (gd_split m ρ c) _).trans (gd_drop_keep _)).symm

end KernelBack

/-! ## The reference program's first product -/

section RefKeep
open Cert.ReferenceIdeal Cert.ReferenceIdeal.Gen Cert.ReferenceIdeal.RefRun
variable (V : Valuation τ sig (Elt Ideal))

/-- The product writes its own result only. -/
theorem gd_s1_v31 : after (s1 (F := Ideal)) V (Proc.devRef .tc main_v31) = V (Proc.devRef .tc main_v31) := by kkeep s1
theorem gd_s1_v3 : after (s1 (F := Ideal)) V (Proc.devRef .tc main_v3) = V (Proc.devRef .tc main_v3) := by kkeep s1
theorem gd_s1_v6 : after (s1 (F := Ideal)) V (Proc.devRef .tc main_v6) = V (Proc.devRef .tc main_v6) := by kkeep s1

end RefKeep

/-! ## The two programs' aggregated node features of the first graph -/

/-- The aggregation reads the product of the node features with the weights, the normalised edge weights and the edges'
    two index vectors. Each of the four is the same contents in the two programs: the product because both are the matrix
    product of the same two arguments, the other three because both programs compute them from the same arguments by the
    same operations before their first product and do not write them again before the aggregation. -/
theorem aggD_eq (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ) (c : Dev KernelIdeal.nD)
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h10 : m' ((c.tc : Thread ReferenceIdeal.nD ReferenceIdeal.τ).loc ReferenceIdeal.main_arg10) = m ((c.tc : Thread KernelIdeal.nD KernelIdeal.τ).loc KernelIdeal.main_arg10)) :
    KernelIdeal.Gen.W7 m ρ c (Proc.devRef .tc KernelIdeal.main_v48) = ReferenceIdeal.RefVal.aggD (launchContents m' c) := by
  show KernelIdeal.Gen.W7 m ρ c (Proc.devRef .tc KernelIdeal.main_v48)
    = after (ReferenceIdeal.RefRun.s2 (F := Ideal)) (after (ReferenceIdeal.RefRun.s1 (F := Ideal))
        (after (ReferenceIdeal.RefRun.s0 (F := Ideal)) (launchContents m' c))) (Proc.devRef .tc ReferenceIdeal.main_v45)
  refine (congrFun (gd_split m ρ c) _).trans ?_
  refine Cross.agg_d _ _ ?_ ?_ ?_ ?_
  · -- the product
    funext i
    refine (congrFun (gd_v35 m ρ c) i).trans ?_
    refine (KernelIdeal.KG.mat_d m ρ c i).trans ?_
    refine Eq.trans ?_ (ReferenceIdeal.RefVal.ref_dot_d (after (ReferenceIdeal.RefRun.s0 (F := Ideal)) (launchContents m' c)) i).symm
    rw [ReferenceIdeal.RefVal.keep_s0 _ ReferenceIdeal.main_arg4 (by decide), ReferenceIdeal.RefVal.keep_s0 _ ReferenceIdeal.main_arg10 (by decide)]
    show Cert.Spec.mm (m ((c.tc : Thread KernelIdeal.nD KernelIdeal.τ).loc KernelIdeal.main_arg4)) (m ((c.tc : Thread KernelIdeal.nD KernelIdeal.τ).loc KernelIdeal.main_arg10)) i
      = Cert.Spec.mm (m' ((c.tc : Thread ReferenceIdeal.nD ReferenceIdeal.τ).loc ReferenceIdeal.main_arg4)) (m' ((c.tc : Thread ReferenceIdeal.nD ReferenceIdeal.τ).loc ReferenceIdeal.main_arg10)) i
    rw [h4, h10]
  · -- the normalised edge weights
    refine (gd_back31 m ρ c).trans ?_
    refine Eq.trans ?_ (gd_s1_v31 _).symm
    exact Cross.norm_d (KernelIdeal.Gen.W0 m ρ c) (launchContents m' c) h5 h6
  · -- the source indices
    refine (gd_back3 m ρ c).trans ?_
    refine Eq.trans ?_ (gd_s1_v3 _).symm
    exact Cross.src_d (KernelIdeal.Gen.W0 m ρ c) (launchContents m' c) h5
  · -- the destination indices
    refine (gd_back6 m ρ c).trans ?_
    refine Eq.trans ?_ (gd_s1_v6 _).symm
    exact Cross.dst_d (KernelIdeal.Gen.W0 m ρ c) (launchContents m' c) h5

end Cert.Cross

end
-- ==== Proof.XNormP.lean ====
/-
  The graph normalisation of the second graph, across the two programs.

  Both programs compute, from the edge index and the edge weight, the same three arrays by the same operations in the
  same order: the source and destination indices with the self loops appended, and the symmetric normalisation
  weight (the weighted in-degree by scatter-add, its inverse square root where it is positive, gathered at the two
  ends of each edge and multiplied with the weight). Read at corresponding buffers, the two programs' contents are
  therefore the same function of the two input arrays.
-/
import proofs.«402148_j44985487458808_3_alg».proof.Proof.Gen.KernelIdeal.Launch
import proofs.«402148_j44985487458808_3_alg».proof.Proof.RefPart1
import proofs.«402148_j44985487458808_3_alg».proof.Proof.LibAfter
import Idealize.ShloMosaic.Lib.StableHlo.Run
import Idealize.ShloMosaic.PureOps.Ideal

noncomputable section

namespace Cert.Cross

open Idealize.ShloMosaic Idealize.ShloMosaic.TcCoe Idealize.SL.Sem Idealize.ShloMosaic.StableHlo

variable (KV : Valuation Cert.KernelIdeal.τ Cert.KernelIdeal.sig (Elt Ideal))
variable (RV : Valuation Cert.ReferenceIdeal.τ Cert.ReferenceIdeal.sig (Elt Ideal))

set_option maxHeartbeats 4000000 in
/-- The normalisation weights agree when the edge index and the edge weight do. -/
theorem norm_p
    (e8 : RV (Proc.devRef .tc Cert.ReferenceIdeal.main_arg8) = KV (Proc.devRef .tc Cert.KernelIdeal.main_arg8))
    (e9 : RV (Proc.devRef .tc Cert.ReferenceIdeal.main_arg9) = KV (Proc.devRef .tc Cert.KernelIdeal.main_arg9)) :
    after Cert.KernelIdeal.Gen.hostOps1_4 (after Cert.KernelIdeal.Gen.hostOps1_3 (after Cert.KernelIdeal.Gen.hostOps1_2 KV))
        (Proc.devRef .tc Cert.KernelIdeal.main_v81)
      = after (Cert.ReferenceIdeal.RefRun.s5 (F := Ideal)) RV (Proc.devRef .tc Cert.ReferenceIdeal.main_v92) := by
  after_results_simp
  after_results_rw
  rw [e8, e9]
  rfl

set_option maxHeartbeats 4000000 in
/-- The source indices, self loops appended, agree when the edge index does. -/
theorem src_p
    (e8 : RV (Proc.devRef .tc Cert.ReferenceIdeal.main_arg8) = KV (Proc.devRef .tc Cert.KernelIdeal.main_arg8)) :
    after Cert.KernelIdeal.Gen.hostOps1_4 (after Cert.KernelIdeal.Gen.hostOps1_3 (after Cert.KernelIdeal.Gen.hostOps1_2 KV))
        (Proc.devRef .tc Cert.KernelIdeal.main_v53)
      = after (Cert.ReferenceIdeal.RefRun.s5 (F := Ideal)) RV (Proc.devRef .tc Cert.ReferenceIdeal.main_v64) := by
  after_results_simp
  after_results_rw
  rw [e8]
  rfl

set_option maxHeartbeats 4000000 in
/-- The destination indices, self loops appended, agree when the edge index does. -/
theorem dst_p
    (e8 : RV (Proc.devRef .tc Cert.ReferenceIdeal.main_arg8) = KV (Proc.devRef .tc Cert.KernelIdeal.main_arg8)) :
    after Cert.KernelIdeal.Gen.hostOps1_4 (after Cert.KernelIdeal.Gen.hostOps1_3 (after Cert.KernelIdeal.Gen.hostOps1_2 KV))
        (Proc.devRef .tc Cert.KernelIdeal.main_v56)
      = after (Cert.ReferenceIdeal.RefRun.s5 (F := Ideal)) RV (Proc.devRef .tc Cert.ReferenceIdeal.main_v67) := by
  after_results_simp
  after_results_rw
  rw [e8]
  rfl

end Cert.Cross

end
-- ==== Proof.XAggP.lean ====
/-
  The aggregation over the second graph, across the two programs.

  Both programs aggregate the node-feature product along the edges by the same operations in the same order: the
  normalisation weight as a column, the source index with a negative value moved up by the node count, the product's
  rows gathered at it, each row scaled by its edge's weight, and the scaled rows added into the zero matrix at the
  destination index. Read at corresponding buffers, the two programs' contents are therefore the same function of the
  four arrays that go in.
-/
import proofs.«402148_j44985487458808_3_alg».proof.Proof.Gen.KernelIdeal.Launch
import proofs.«402148_j44985487458808_3_alg».proof.Proof.RefPart1
import proofs.«402148_j44985487458808_3_alg».proof.Proof.RefPart2
import proofs.«402148_j44985487458808_3_alg».proof.Proof.LibAfter
import Idealize.ShloMosaic.Lib.StableHlo.Run
import Idealize.ShloMosaic.PureOps.Ideal

noncomputable section

namespace Cert.Cross

open Idealize.ShloMosaic Idealize.ShloMosaic.TcCoe Idealize.SL.Sem Idealize.ShloMosaic.StableHlo

variable (KV : Valuation Cert.KernelIdeal.τ Cert.KernelIdeal.sig (Elt Ideal))
variable (RV : Valuation Cert.ReferenceIdeal.τ Cert.ReferenceIdeal.sig (Elt Ideal))

set_option maxHeartbeats 4000000 in
/-- The aggregated rows agree when the node-feature product, the normalisation weight and the two index arrays do. -/
theorem agg_p
    (e85 : KV (Proc.devRef .tc Cert.KernelIdeal.main_v85) = RV (Proc.devRef .tc Cert.ReferenceIdeal.main_v93))
    (e81 : KV (Proc.devRef .tc Cert.KernelIdeal.main_v81) = RV (Proc.devRef .tc Cert.ReferenceIdeal.main_v92))
    (e53 : KV (Proc.devRef .tc Cert.KernelIdeal.main_v53) = RV (Proc.devRef .tc Cert.ReferenceIdeal.main_v64))
    (e56 : KV (Proc.devRef .tc Cert.KernelIdeal.main_v56) = RV (Proc.devRef .tc Cert.ReferenceIdeal.main_v67)) :
    after (Cert.KernelIdeal.Gen.hostOps2.drop 1) KV (Proc.devRef .tc Cert.KernelIdeal.main_v98)
      = after (Cert.ReferenceIdeal.RefRun.s8 (F := Ideal)) (after (Cert.ReferenceIdeal.RefRun.s7 (F := Ideal)) RV)
          (Proc.devRef .tc Cert.ReferenceIdeal.main_v106) := by
  simp only [Cert.KernelIdeal.Gen.hostOps2, List.drop_succ_cons, List.drop_zero]
  after_results_simp
  after_results_rw
  rw [e85, e81, e53, e56]
  rfl

end Cert.Cross

end
-- ==== Proof.XGlueP.lean ====
/-
  The aggregated node-feature matrix of graph p is the same array in the two programs.

  Both programs compute it from four arguments: the node features, the edge list, the edge weights and the convolution's
  weight matrix. The reference multiplies the features by the weights in one host operation; the kernel program pads the
  features, hands the product to a region and keeps the first 5000 rows of its result: on both sides the outcome
  is the matrix product of the arguments. From the edge list and the weights both programs derive, by the same host
  operations, the source rows, the destination rows and the per-edge normalisation; and both then gather the product's
  rows, scale them and scatter-add them, again by the same operations. So the four intermediate arrays agree as soon
  as the four arguments agree at launch, and the aggregated matrix is one function of those four.

  What is left to check is bookkeeping: which buffer holds which of the four arrays when the last stretch starts, and
  that nothing written in between touches it. On the kernel side the last stretch begins with the row slice; its
  remaining operations are the ones the two programs share.
-/
import proofs.«402148_j44985487458808_3_alg».proof.Proof.KGlueArgs
import proofs.«402148_j44985487458808_3_alg».proof.Proof.KChainMat
import proofs.«402148_j44985487458808_3_alg».proof.Proof.RDot
import proofs.«402148_j44985487458808_3_alg».proof.Proof.LibAfter
import proofs.«402148_j44985487458808_3_alg».proof.Proof.RefRun
import proofs.«402148_j44985487458808_3_alg».proof.Proof.RChain
import proofs.«402148_j44985487458808_3_alg».proof.Proof.XNormP
import proofs.«402148_j44985487458808_3_alg».proof.Proof.XAggP
import proofs.«402148_j44985487458808_3_alg».proof.Proof.Spec
import Idealize.ShloMosaic.Lib.StableHlo.Run

noncomputable section

namespace Cert.Cross

open Idealize.ShloMosaic Idealize.ShloMosaic.TcCoe Idealize.SL.Sem Idealize.ShloMosaic.StableHlo

section GlueP

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The kernel program's contents after the first operation of the stretch that follows the second product's region:
    the slice that keeps the first 5000 rows of the region's result. -/
abbrev KV2 : Valuation Cert.KernelIdeal.τ Cert.KernelIdeal.sig (Elt Ideal) :=
  after (Cert.KernelIdeal.Gen.hostOps2.take 1) (Cert.KernelIdeal.Gen.W14 m ρ c)

/-- The stretch is that slice followed by the rest. -/
theorem W15_split :
    Cert.KernelIdeal.Gen.W15 m ρ c = after (Cert.KernelIdeal.Gen.hostOps2.drop 1) (KV2 m ρ c) := by
  show after Cert.KernelIdeal.Gen.hostOps2 (Cert.KernelIdeal.Gen.W14 m ρ c) = _
  rw [← Cert.LibAfter.after_append, List.take_append_drop]

/-- The rest of the stretch does not write the sliced product. -/
theorem KV2_v85 :
    KV2 m ρ c (Proc.devRef .tc Cert.KernelIdeal.main_v85)
      = Cert.KernelIdeal.Gen.W15 m ρ c (Proc.devRef .tc Cert.KernelIdeal.main_v85) := by
  rw [W15_split]
  symm
  refine after_of_forall_not_mem (b := _) _ _ (List.forall_iff_forall_mem.mp ?_)
  simp only [Cert.KernelIdeal.Gen.hostOps2, List.drop_succ_cons, List.drop_zero, List.Forall, nullary_writes, unary_writes,
    binary_writes, ternary_writes, Finset.mem_singleton]
  repeat' apply And.intro
  all_goals exact devRef_ne_of_ne (by decide)

/-- Between the boundary after the graph's index and norm arithmetic and that slice the program writes five buffers:
    the padded left factor and the converted zero it is padded with, the narrowed right factor, the region's result,
    and the slice. Any other buffer holds at the slice what it held at the boundary. -/
theorem KV2_back (b : Ref Cert.KernelIdeal.sig .tc) (h85 : b ≠ Cert.KernelIdeal.main_v85)
    (hreg : ∀ w, Pipeline.arrRef Cert.KernelIdeal.spec1 w ≠ b) (h83 : b ≠ Cert.KernelIdeal.main_v83)
    (h0 : b ≠ Cert.KernelIdeal.main_call4_v0) (h82 : b ≠ Cert.KernelIdeal.main_v82) :
    KV2 m ρ c (Proc.devRef .tc b) = Cert.KernelIdeal.Gen.W11 m ρ c (Proc.devRef .tc b) := by
  have s1 : KV2 m ρ c (Proc.devRef .tc b) = Cert.KernelIdeal.Gen.W14 m ρ c (Proc.devRef .tc b) := by
    refine after_of_forall_not_mem (b := _) _ _ (List.forall_iff_forall_mem.mp ?_)
    simp only [Cert.KernelIdeal.Gen.hostOps2, List.take_succ_cons, List.take_zero, List.Forall, unary_writes, Finset.mem_singleton]
    exact devRef_ne_of_ne h85
  have s3 : Cert.KernelIdeal.Gen.W13 m ρ c (Proc.devRef .tc b) = Cert.KernelIdeal.Gen.W12 m ρ c (Proc.devRef .tc b) := by
    refine after_of_forall_not_mem (b := _) _ _ (List.forall_iff_forall_mem.mp ?_)
    simp only [Cert.KernelIdeal.Gen.hostOps1_6, List.Forall, unary_writes, Finset.mem_singleton]
    exact devRef_ne_of_ne h83
  have s4 : Cert.KernelIdeal.Gen.W12 m ρ c (Proc.devRef .tc b) = Cert.KernelIdeal.Gen.W11 m ρ c (Proc.devRef .tc b) := by
    refine after_of_forall_not_mem (b := _) _ _ (List.forall_iff_forall_mem.mp ?_)
    simp only [Cert.KernelIdeal.Gen.hostOps1_5, List.Forall, unary_writes, binary_writes, Finset.mem_singleton]
    exact ⟨devRef_ne_of_ne h0, devRef_ne_of_ne h82⟩
  exact s1.trans ((Cert.KernelIdeal.Gen.W14_of_ne m ρ c b hreg).trans (s3.trans s4))

/-- The reference's second product is one operation; it writes the product's buffer only. -/
theorem R7_back (V0 : Valuation Cert.ReferenceIdeal.τ Cert.ReferenceIdeal.sig (Elt Ideal)) (b : Ref Cert.ReferenceIdeal.sig .tc)
    (h : b ≠ Cert.ReferenceIdeal.main_v93) :
    Cert.ReferenceIdeal.RefVal.R7 V0 (Proc.devRef .tc b) = Cert.ReferenceIdeal.RefVal.R6 V0 (Proc.devRef .tc b) := by
  refine after_of_forall_not_mem (b := _) _ _ (List.forall_iff_forall_mem.mp ?_)
  simp only [Cert.ReferenceIdeal.RefRun.s6, List.Forall, binary_writes, Finset.mem_singleton]
  exact devRef_ne_of_ne h

/-- THE AGGREGATED NODE FEATURES OF GRAPH p are the same array in the two programs, when the four arguments they are
    computed from (the node features, the edge list, the edge weights, the convolution's weight matrix) agree at launch.
    The product of the first and the last is the matrix product of the arguments on both sides; the edge list gives the
    source and destination rows and, with the edge weights, the normalisation, by the same operations on both sides; and
    the gather–scale–scatter that follows is the same operations applied to these four. -/
theorem aggP_eq
    (h7 : m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
        = m ((c.tc : Thread Cert.KernelIdeal.nD Cert.KernelIdeal.τ).loc Cert.KernelIdeal.main_arg9))
    (h12 : m' ((c.tc : Thread Cert.ReferenceIdeal.nD Cert.ReferenceIdeal.τ).loc Cert.ReferenceIdeal.main_arg12)
        = m ((c.tc : Thread Cert.KernelIdeal.nD Cert.KernelIdeal.τ).loc Cert.KernelIdeal.main_arg12)) :
    Cert.KernelIdeal.Gen.W15 m ρ c (Proc.devRef .tc Cert.KernelIdeal.main_v98)
      = Cert.ReferenceIdeal.RefVal.aggP (launchContents m' c) := by
  -- the reference's arguments at its fifth and sixth boundaries are the kernel program's at launch
  have a7 : Cert.ReferenceIdeal.RefVal.R6 (launchContents m' c) (Proc.devRef .tc Cert.ReferenceIdeal.main_arg7)
      = m ((c.tc : Thread Cert.KernelIdeal.nD Cert.KernelIdeal.τ).loc Cert.KernelIdeal.main_arg7) :=
    (Cert.ReferenceIdeal.RefVal.argR6 (launchContents m' c) Cert.ReferenceIdeal.main_arg7 (by decide)).trans h7
  have a12 : Cert.ReferenceIdeal.RefVal.R6 (launchContents m' c) (Proc.devRef .tc Cert.ReferenceIdeal.main_arg12)
      = m ((c.tc : Thread Cert.KernelIdeal.nD Cert.KernelIdeal.τ).loc Cert.KernelIdeal.main_arg12) :=
    (Cert.ReferenceIdeal.RefVal.argR6 (launchContents m' c) Cert.ReferenceIdeal.main_arg12 (by decide)).trans h12
  have e8 : Cert.ReferenceIdeal.RefVal.R5 (launchContents m' c) (Proc.devRef .tc Cert.ReferenceIdeal.main_arg8)
      = Cert.KernelIdeal.Gen.W8 m ρ c (Proc.devRef .tc Cert.KernelIdeal.main_arg8) :=
    (Cert.ReferenceIdeal.RefVal.argR5 (launchContents m' c) Cert.ReferenceIdeal.main_arg8 (by decide)).trans
      (h8.trans (Cert.KernelIdeal.KG.argAt8 m ρ c Cert.KernelIdeal.main_arg8 (by decide)).symm)
  have e9 : Cert.ReferenceIdeal.RefVal.R5 (launchContents m' c) (Proc.devRef .tc Cert.ReferenceIdeal.main_arg9)
      = Cert.KernelIdeal.Gen.W8 m ρ c (Proc.devRef .tc Cert.KernelIdeal.main_arg9) :=
    (Cert.ReferenceIdeal.RefVal.argR5 (launchContents m' c) Cert.ReferenceIdeal.main_arg9 (by decide)).trans
      (h9.trans (Cert.KernelIdeal.KG.argAt8 m ρ c Cert.KernelIdeal.main_arg9 (by decide)).symm)
  -- the product: on both sides the matrix product of the (agreeing) arguments
  have e85 : KV2 m ρ c (Proc.devRef .tc Cert.KernelIdeal.main_v85)
      = Cert.ReferenceIdeal.RefVal.R7 (launchContents m' c) (Proc.devRef .tc Cert.ReferenceIdeal.main_v93) := by
    funext i
    rw [KV2_v85]
    refine (Cert.KernelIdeal.KG.mat_p m ρ c i).trans ?_
    refine Eq.trans ?_
      (Cert.ReferenceIdeal.RefVal.ref_dot_p (Cert.ReferenceIdeal.RefVal.R6 (launchContents m' c)) i).symm
    rw [a7, a12]
  -- the normalisation, the source rows and the destination rows: computed before the product's region on the kernel
  -- side and not written since; computed by the fifth piece on the reference's side and not written by the product
  have e81 : KV2 m ρ c (Proc.devRef .tc Cert.KernelIdeal.main_v81)
      = Cert.ReferenceIdeal.RefVal.R7 (launchContents m' c) (Proc.devRef .tc Cert.ReferenceIdeal.main_v92) :=
    (KV2_back m ρ c Cert.KernelIdeal.main_v81 (by decide) (by decide) (by decide) (by decide) (by decide)).trans
      ((norm_p (Cert.KernelIdeal.Gen.W8 m ρ c) (Cert.ReferenceIdeal.RefVal.R5 (launchContents m' c)) e8 e9).trans
        (R7_back (launchContents m' c) Cert.ReferenceIdeal.main_v92 (by decide)).symm)
  have e53 : KV2 m ρ c (Proc.devRef .tc Cert.KernelIdeal.main_v53)
      = Cert.ReferenceIdeal.RefVal.R7 (launchContents m' c) (Proc.devRef .tc Cert.ReferenceIdeal.main_v64) :=
    (KV2_back m ρ c Cert.KernelIdeal.main_v53 (by decide) (by decide) (by decide) (by decide) (by decide)).trans
      ((src_p (Cert.KernelIdeal.Gen.W8 m ρ c) (Cert.ReferenceIdeal.RefVal.R5 (launchContents m' c)) e8).trans
        (R7_back (launchContents m' c) Cert.ReferenceIdeal.main_v64 (by decide)).symm)
  have e56 : KV2 m ρ c (Proc.devRef .tc Cert.KernelIdeal.main_v56)
      = Cert.ReferenceIdeal.RefVal.R7 (launchContents m' c) (Proc.devRef .tc Cert.ReferenceIdeal.main_v67) :=
    (KV2_back m ρ c Cert.KernelIdeal.main_v56 (by decide) (by decide) (by decide) (by decide) (by decide)).trans
      ((dst_p (Cert.KernelIdeal.Gen.W8 m ρ c) (Cert.ReferenceIdeal.RefVal.R5 (launchContents m' c)) e8).trans
        (R7_back (launchContents m' c) Cert.ReferenceIdeal.main_v67 (by decide)).symm)
  rw [W15_split]
  exact agg_p (KV2 m ρ c) (Cert.ReferenceIdeal.RefVal.R7 (launchContents m' c)) e85 e81 e53 e56

end GlueP

end Cert.Cross

end
-- ==== Proof.Final.lean ====
/-
  The reference's four results are the kernel program's four final arrays.

  Both programs compute the same network. Under the precondition the two vectors of node indices are in range, so each
  program's row selection reads the rows the indices name. The kernel program's four final arrays are then the
  network's prediction, code, reconstruction and feature matrix, as terms of its launch arrays and of its two aggregated
  node-feature matrices; the reference's four result buffers hold the same terms of its own launch arrays and aggregated
  matrices. The launch arrays agree by hypothesis, and the aggregated matrices agree because each is computed by the
  same operations from arguments that agree. A term of equal arguments is an equal term, entry by entry.
-/
import proofs.«402148_j44985487458808_3_alg».proof.Defs
import proofs.«402148_j44985487458808_3_alg».proof.Proof.RefRun
import proofs.«402148_j44985487458808_3_alg».proof.Proof.KGlueArgs
import proofs.«402148_j44985487458808_3_alg».proof.Proof.PreRead
import proofs.«402148_j44985487458808_3_alg».proof.Proof.SpecNet
import proofs.«402148_j44985487458808_3_alg».proof.Proof.KNet
import proofs.«402148_j44985487458808_3_alg».proof.Proof.RChain
import proofs.«402148_j44985487458808_3_alg».proof.Proof.KChainFeat
import proofs.«402148_j44985487458808_3_alg».proof.Proof.KChainLayers
import proofs.«402148_j44985487458808_3_alg».proof.Proof.KChainHead
import proofs.«402148_j44985487458808_3_alg».proof.Proof.XGlueD
import proofs.«402148_j44985487458808_3_alg».proof.Proof.XGlueP

noncomputable section

namespace Cert.Final

open Idealize.ShloMosaic Idealize.ShloMosaic.TcCoe Idealize.SL.Sem Idealize.ShloMosaic.StableHlo Idealize.ShloMosaic.ValueIdx

/-! ## The network's terms respect equality of their arguments -/

open Cert.Spec in
theorem netFeat_congr {dv dv' : Arr2 2048 300} {pe pe' : Arr2 2048 1024} {aD aD' : Arr2 10000 1024} {bd bd' : Arr1 1024}
    {id id' : Idx1 2048} {aP aP' : Arr2 5000 1024} {bp bp' : Arr1 1024} {ip ip' : Idx1 2048}
    (h1 : dv = dv') (h2 : pe = pe') (h3 : aD = aD') (h4 : bd = bd') (h5 : id = id') (h6 : aP = aP') (h7 : bp = bp')
    (h8 : ip = ip') : netFeat dv pe aD bd id aP bp ip = netFeat dv' pe' aD' bd' id' aP' bp' ip' := by
  subst h1 h2 h3 h4 h5 h6 h7 h8; rfl

open Cert.Spec in
theorem netEnc_congr {f f' : Arr2 2048 3372} {w1 w1' : Arr2 3372 1024} {b1 b1' g1 g1' e1 e1' : Arr1 1024}
    {w2 w2' : Arr2 1024 256} {b2 b2' g2 g2' e2 e2' : Arr1 256}
    (h0 : f = f') (h1 : w1 = w1') (h2 : b1 = b1') (h3 : g1 = g1') (h4 : e1 = e1') (h5 : w2 = w2') (h6 : b2 = b2')
    (h7 : g2 = g2') (h8 : e2 = e2') : netEnc f w1 b1 g1 e1 w2 b2 g2 e2 = netEnc f' w1' b1' g1' e1' w2' b2' g2' e2' := by
  subst h0 h1 h2 h3 h4 h5 h6 h7 h8; rfl

open Cert.Spec in
theorem netDec_congr {x x' : Arr2 2048 256} {w3 w3' : Arr2 256 1024} {b3 b3' g3 g3' e3 e3' : Arr1 1024}
    {w4 w4' : Arr2 1024 3372} {b4 b4' g4 g4' e4 e4' : Arr1 3372}
    (h0 : x = x') (h1 : w3 = w3') (h2 : b3 = b3') (h3 : g3 = g3') (h4 : e3 = e3') (h5 : w4 = w4') (h6 : b4 = b4')
    (h7 : g4 = g4') (h8 : e4 = e4') : netDec x w3 b3 g3 e3 w4 b4 g4 e4 = netDec x' w3' b3' g3' e3' w4' b4' g4' e4' := by
  subst h0 h1 h2 h3 h4 h5 h6 h7 h8; rfl

open Cert.Spec in
theorem netHead_congr {x x' : Arr2 2048 256} {w5 w5' : Arr2 256 64} {b5 b5' g5 g5' e5 e5' : Arr1 64}
    {w6 w6' : Arr2 64 1} {b6 b6' : Arr1 1}
    (h0 : x = x') (h1 : w5 = w5') (h2 : b5 = b5') (h3 : g5 = g5') (h4 : e5 = e5') (h5 : w6 = w6') (h6 : b6 = b6') :
    netHead x w5 b5 g5 e5 w6 b6 = netHead x' w5' b5' g5' e5' w6' b6' := by
  subst h0 h1 h2 h3 h4 h5 h6; rfl

/-! ## The four results, given both programs' results as the network's terms -/

/-- With the kernel program's four final arrays at the network's terms of its launch memory and its two aggregated
    matrices, the two aggregated matrices equal to the reference's, and the arguments agreeing, the reference's four
    results are the kernel program's: both are the same terms of equal arguments. -/
theorem results_agree_core
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35))
    (hd : ∀ k : Fin 2048, (m ((c.tc : Thread Cert.KernelIdeal.nD Cert.KernelIdeal.τ).loc Cert.KernelIdeal.main_arg0) (ix1 k)).toNat < 10000)
    (hp : ∀ k : Fin 2048, (m ((c.tc : Thread Cert.KernelIdeal.nD Cert.KernelIdeal.τ).loc Cert.KernelIdeal.main_arg1) (ix1 k)).toNat < 5000)
    (kY : ∀ i, (Cert.KernelIdeal.Gen.W49 m ρ c (Proc.devRef .tc Cert.KernelIdeal.main_v141) : Cert.KernelIdeal.S2048x1.Idx → EReal) i = Cert.KernelIdeal.KG.knetHead m ρ c i)
    (kE : ∀ i, (Cert.KernelIdeal.Gen.W49 m ρ c (Proc.devRef .tc Cert.KernelIdeal.main_v112) : Cert.KernelIdeal.S2048x256.Idx → EReal) i = Cert.KernelIdeal.KG.knetEnc m ρ c i)
    (kD : ∀ i, (Cert.KernelIdeal.Gen.W49 m ρ c (Proc.devRef .tc Cert.KernelIdeal.main_v127) : Cert.KernelIdeal.S2048x3372.Idx → EReal) i = Cert.KernelIdeal.KG.knetDec m ρ c i)
    (kF : ∀ i, (Cert.KernelIdeal.Gen.W49 m ρ c (Proc.devRef .tc Cert.KernelIdeal.main_v102_0) : Cert.KernelIdeal.S2048x3372.Idx → EReal) i = Cert.KernelIdeal.KG.knetFeat m ρ c i)
    (hD : (Cert.KernelIdeal.Gen.W7 m ρ c (Proc.devRef .tc Cert.KernelIdeal.main_v48) : Cert.Spec.Arr2 10000 1024) = Cert.ReferenceIdeal.RefVal.aggD (launchContents m' c))
    (hP : (Cert.KernelIdeal.Gen.W15 m ρ c (Proc.devRef .tc Cert.KernelIdeal.main_v98) : Cert.Spec.Arr2 5000 1024) = Cert.ReferenceIdeal.RefVal.aggP (launchContents m' c)) :
    after (Cert.ReferenceIdeal.RefRun.ops (F := Ideal)) (launchContents m' c) (Cert.ReferenceIdeal.main_v250 : DevRef Cert.ReferenceIdeal.τ Cert.ReferenceIdeal.sig) = Cert.KernelIdeal.Gen.W49 m ρ c (Proc.devRef .tc Cert.KernelIdeal.main_v141)
    ∧ after (Cert.ReferenceIdeal.RefRun.ops (F := Ideal)) (launchContents m' c) (Cert.ReferenceIdeal.main_v170 : DevRef Cert.ReferenceIdeal.τ Cert.ReferenceIdeal.sig) = Cert.KernelIdeal.Gen.W49 m ρ c (Proc.devRef .tc Cert.KernelIdeal.main_v112)
    ∧ after (Cert.ReferenceIdeal.RefRun.ops (F := Ideal)) (launchContents m' c) (Cert.ReferenceIdeal.main_v218 : DevRef Cert.ReferenceIdeal.τ Cert.ReferenceIdeal.sig) = Cert.KernelIdeal.Gen.W49 m ρ c (Proc.devRef .tc Cert.KernelIdeal.main_v127)
    ∧ after (Cert.ReferenceIdeal.RefRun.ops (F := Ideal)) (launchContents m' c) (Cert.ReferenceIdeal.main_v122 : DevRef Cert.ReferenceIdeal.τ Cert.ReferenceIdeal.sig) = Cert.KernelIdeal.Gen.W49 m ρ c (Proc.devRef .tc Cert.KernelIdeal.main_v102_0) := by
  obtain ⟨a0, a1, a2, a3, a4, a5, a6, a7, a8, a9, a10, a11, a12, a13, a14, a15, a16, a17, a18, a19, a20, a21, a22, a23, a24, a25, a26, a27, a28, a29, a30, a31, a32, a33, a34, a35⟩ := hagree
  -- the index ranges, for the reference's launch contents
  have hd' : ∀ k : Fin 2048, ((launchContents m' c) (Proc.devRef .tc Cert.ReferenceIdeal.main_arg0) (ix1 k)).toNat < 10000 := fun k => by
    have e : (launchContents m' c) (Proc.devRef .tc Cert.ReferenceIdeal.main_arg0) = m ((c.tc : Thread Cert.KernelIdeal.nD Cert.KernelIdeal.τ).loc Cert.KernelIdeal.main_arg0) := a0
    rw [e]; exact hd k
  have hp' : ∀ k : Fin 2048, ((launchContents m' c) (Proc.devRef .tc Cert.ReferenceIdeal.main_arg1) (ix1 k)).toNat < 5000 := fun k => by
    have e : (launchContents m' c) (Proc.devRef .tc Cert.ReferenceIdeal.main_arg1) = m ((c.tc : Thread Cert.KernelIdeal.nD Cert.KernelIdeal.τ).loc Cert.KernelIdeal.main_arg1) := a1
    rw [e]; exact hp k
  -- the network's terms over the two programs' arguments are equal
  have eF : Cert.ReferenceIdeal.RefVal.refFeat (launchContents m' c) = Cert.KernelIdeal.KG.knetFeat m ρ c :=
    netFeat_congr a2 a3 hD.symm a11 a0 hP.symm a13 a1
  have eE : Cert.ReferenceIdeal.RefVal.refEnc (launchContents m' c) = Cert.KernelIdeal.KG.knetEnc m ρ c :=
    netEnc_congr eF a14 a15 a16 a17 a18 a19 a20 a21
  have eDc : Cert.ReferenceIdeal.RefVal.refDec (launchContents m' c) = Cert.KernelIdeal.KG.knetDec m ρ c :=
    netDec_congr eE a22 a23 a24 a25 a26 a27 a28 a29
  have eY : Cert.ReferenceIdeal.RefVal.refY (launchContents m' c) = Cert.KernelIdeal.KG.knetHead m ρ c :=
    netHead_congr eE a30 a31 a32 a33 a34 a35
  have eops := Cert.ReferenceIdeal.RefVal.after_ops_eq (launchContents m' c)
  refine ⟨?_, ?_, ?_, ?_⟩
  · funext i
    exact (congrFun (congrFun eops (Proc.devRef .tc Cert.ReferenceIdeal.main_v250)) i).trans
      ((Cert.ReferenceIdeal.RefVal.ref_out0 (launchContents m' c) hd' hp' i).trans ((congrFun eY i).trans (kY i).symm))
  · funext i
    exact (congrFun (congrFun eops (Proc.devRef .tc Cert.ReferenceIdeal.main_v170)) i).trans
      ((Cert.ReferenceIdeal.RefVal.ref_out1 (launchContents m' c) hd' hp' i).trans ((congrFun eE i).trans (kE i).symm))
  · funext i
    exact (congrFun (congrFun eops (Proc.devRef .tc Cert.ReferenceIdeal.main_v218)) i).trans
      ((Cert.ReferenceIdeal.RefVal.ref_out2 (launchContents m' c) hd' hp' i).trans ((congrFun eDc i).trans (kD i).symm))
  · funext i
    exact (congrFun (congrFun eops (Proc.devRef .tc Cert.ReferenceIdeal.main_v122)) i).trans
      ((Cert.ReferenceIdeal.RefVal.ref_out3 (launchContents m' c) hd' hp' i).trans ((congrFun eF i).trans (kF i).symm))

/-! ## The reference's four results are the kernel program's -/

/-- Under the precondition and from memories agreeing on the arguments, the contents the reference's operations leave
    in its four result buffers are what the kernel program's last boundary holds in its four: the precondition keeps the
    node indices in range; each program's results are then the network's prediction, code, reconstruction and feature
    matrix of its own arguments and aggregated matrices; and those are equal. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)))
    (c : Dev Cert.KernelIdeal.nD) :
    after (Cert.ReferenceIdeal.RefRun.ops (F := Ideal)) (launchContents m' c) (Cert.ReferenceIdeal.main_v250 : DevRef Cert.ReferenceIdeal.τ Cert.ReferenceIdeal.sig) = Cert.KernelIdeal.Gen.W49 m ρ c (Proc.devRef .tc Cert.KernelIdeal.main_v141)
    ∧ after (Cert.ReferenceIdeal.RefRun.ops (F := Ideal)) (launchContents m' c) (Cert.ReferenceIdeal.main_v170 : DevRef Cert.ReferenceIdeal.τ Cert.ReferenceIdeal.sig) = Cert.KernelIdeal.Gen.W49 m ρ c (Proc.devRef .tc Cert.KernelIdeal.main_v112)
    ∧ after (Cert.ReferenceIdeal.RefRun.ops (F := Ideal)) (launchContents m' c) (Cert.ReferenceIdeal.main_v218 : DevRef Cert.ReferenceIdeal.τ Cert.ReferenceIdeal.sig) = Cert.KernelIdeal.Gen.W49 m ρ c (Proc.devRef .tc Cert.KernelIdeal.main_v127)
    ∧ after (Cert.ReferenceIdeal.RefRun.ops (F := Ideal)) (launchContents m' c) (Cert.ReferenceIdeal.main_v122 : DevRef Cert.ReferenceIdeal.τ Cert.ReferenceIdeal.sig) = Cert.KernelIdeal.Gen.W49 m ρ c (Proc.devRef .tc Cert.KernelIdeal.main_v102_0) := by
  obtain ⟨hd, hp⟩ := Cert.PreRead.idx_range m hpre c
  obtain ⟨kY, kE, kD, kF⟩ := Cert.KernelIdeal.KG.knet m ρ c (Cert.KernelIdeal.KG.feat_f32 m ρ c hd hp) (Cert.KernelIdeal.KG.feat_bf16 m ρ c hd hp)
    (Cert.KernelIdeal.KG.enc1_out m ρ c) (Cert.KernelIdeal.KG.enc2_out m ρ c) (Cert.KernelIdeal.KG.dec1_out m ρ c) (Cert.KernelIdeal.KG.dec2_out m ρ c)
    (Cert.KernelIdeal.KG.head_out m ρ c) (Cert.KernelIdeal.KG.keep_v112 m ρ c) (Cert.KernelIdeal.KG.keep_v127 m ρ c) (Cert.KernelIdeal.KG.keep_v102_0 m ρ c)
  have hc := hagree c
  obtain ⟨a0, a1, a2, a3, a4, a5, a6, a7, a8, a9, a10, a11, a12, a13, a14, a15, a16, a17, a18, a19, a20, a21, a22, a23, a24, a25, a26, a27, a28, a29, a30, a31, a32, a33, a34, a35⟩ := hc
  exact results_agree_core m ρ m' c (hagree c) hd hp kY kE kD kF
    (Cert.Cross.aggD_eq m ρ m' c a4 a5 a6 a10)
    (Cert.Cross.aggP_eq m ρ m' c a7 a8 a9 a12)

end Cert.Final

end
-- ==== Proof.lean ====
/-
  The certificate. Three runs (the word-level kernel program, its idealization, the idealized reference) terminate
  without fault and leave their arguments as launched; the ideal pass rewrote nothing; and at the extended reals the
  idealized kernel program and the reference end with the same four results.

  The mathematics of the last claim: both programs compute the two graph convolutions' aggregated node features by the
  same host operations applied to the same node-feature product x·W (a blocked matrix product on one side, one product
  on the other: the same sums); select rows by the index inputs, which the precondition keeps in range, add the bias and
  apply the leaky rectifier (row-wise operations, so selecting first or last gives the same rows); lay the four blocks
  of columns side by side; and apply four batch-normalised dense layers and a two-layer head, column statistics taken
  over all 2048 rows on both sides. Zero-padded columns and rows on the kernel side never reach a kept entry: a column
  of a normalised layer depends only on that column of the weights, and a zero row of the last weight matrix
  contributes zero terms to the sum.
-/
import proofs.«402148_j44985487458808_3_alg».proof.Defs
import proofs.«402148_j44985487458808_3_alg».proof.Proof.Gen.Kernel
import proofs.«402148_j44985487458808_3_alg».proof.Proof.Gen.Kernel.Frame
import proofs.«402148_j44985487458808_3_alg».proof.Proof.Gen.KernelIdeal
import proofs.«402148_j44985487458808_3_alg».proof.Proof.Gen.KernelIdeal.Frame
import proofs.«402148_j44985487458808_3_alg».proof.Proof.Gen.ReferenceIdeal
import proofs.«402148_j44985487458808_3_alg».proof.Proof.Gen.Pre_finite_inputs
import proofs.«402148_j44985487458808_3_alg».proof.Proof.KRun
import proofs.«402148_j44985487458808_3_alg».proof.Proof.RefRun
import proofs.«402148_j44985487458808_3_alg».proof.Proof.Final
import Idealize.ShloMosaic.Adequacy
import Idealize.ShloMosaic.Init

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's arguments end as launched: its run leaves every buffer at the fold of its operations, none of
    which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.keep _ Cert.ReferenceIdeal.main_arg0 (by decide)),
     (h c Cert.ReferenceIdeal.main_arg1).trans (Cert.ReferenceIdeal.RefRun.keep _ Cert.ReferenceIdeal.main_arg1 (by decide)),
     (h c Cert.ReferenceIdeal.main_arg2).trans (Cert.ReferenceIdeal.RefRun.keep _ Cert.ReferenceIdeal.main_arg2 (by decide)),
     (h c Cert.ReferenceIdeal.main_arg3).trans (Cert.ReferenceIdeal.RefRun.keep _ Cert.ReferenceIdeal.main_arg3 (by decide)),
     (h c Cert.ReferenceIdeal.main_arg4).trans (Cert.ReferenceIdeal.RefRun.keep _ Cert.ReferenceIdeal.main_arg4 (by decide)),
     (h c Cert.ReferenceIdeal.main_arg5).trans (Cert.ReferenceIdeal.RefRun.keep _ Cert.ReferenceIdeal.main_arg5 (by decide)),
     (h c Cert.ReferenceIdeal.main_arg6).trans (Cert.ReferenceIdeal.RefRun.keep _ Cert.ReferenceIdeal.main_arg6 (by decide)),
     (h c Cert.ReferenceIdeal.main_arg7).trans (Cert.ReferenceIdeal.RefRun.keep _ Cert.ReferenceIdeal.main_arg7 (by decide)),
     (h c Cert.ReferenceIdeal.main_arg8).trans (Cert.ReferenceIdeal.RefRun.keep _ Cert.ReferenceIdeal.main_arg8 (by decide)),
     (h c Cert.ReferenceIdeal.main_arg9).trans (Cert.ReferenceIdeal.RefRun.keep _ Cert.ReferenceIdeal.main_arg9 (by decide)),
     (h c Cert.ReferenceIdeal.main_arg10).trans (Cert.ReferenceIdeal.RefRun.keep _ Cert.ReferenceIdeal.main_arg10 (by decide)),
     (h c Cert.ReferenceIdeal.main_arg11).trans (Cert.ReferenceIdeal.RefRun.keep _ Cert.ReferenceIdeal.main_arg11 (by decide)),
     (h c Cert.ReferenceIdeal.main_arg12).trans (Cert.ReferenceIdeal.RefRun.keep _ Cert.ReferenceIdeal.main_arg12 (by decide)),
     (h c Cert.ReferenceIdeal.main_arg13).trans (Cert.ReferenceIdeal.RefRun.keep _ Cert.ReferenceIdeal.main_arg13 (by decide)),
     (h c Cert.ReferenceIdeal.main_arg14).trans (Cert.ReferenceIdeal.RefRun.keep _ Cert.ReferenceIdeal.main_arg14 (by decide)),
     (h c Cert.ReferenceIdeal.main_arg15).trans (Cert.ReferenceIdeal.RefRun.keep _ Cert.ReferenceIdeal.main_arg15 (by decide)),
     (h c Cert.ReferenceIdeal.main_arg16).trans (Cert.ReferenceIdeal.RefRun.keep _ Cert.ReferenceIdeal.main_arg16 (by decide)),
     (h c Cert.ReferenceIdeal.main_arg17).trans (Cert.ReferenceIdeal.RefRun.keep _ Cert.ReferenceIdeal.main_arg17 (by decide)),
     (h c Cert.ReferenceIdeal.main_arg18).trans (Cert.ReferenceIdeal.RefRun.keep _ Cert.ReferenceIdeal.main_arg18 (by decide)),
     (h c Cert.ReferenceIdeal.main_arg19).trans (Cert.ReferenceIdeal.RefRun.keep _ Cert.ReferenceIdeal.main_arg19 (by decide)),
     (h c Cert.ReferenceIdeal.main_arg20).trans (Cert.ReferenceIdeal.RefRun.keep _ Cert.ReferenceIdeal.main_arg20 (by decide)),
     (h c Cert.ReferenceIdeal.main_arg21).trans (Cert.ReferenceIdeal.RefRun.keep _ Cert.ReferenceIdeal.main_arg21 (by decide)),
     (h c Cert.ReferenceIdeal.main_arg22).trans (Cert.ReferenceIdeal.RefRun.keep _ Cert.ReferenceIdeal.main_arg22 (by decide)),
     (h c Cert.ReferenceIdeal.main_arg23).trans (Cert.ReferenceIdeal.RefRun.keep _ Cert.ReferenceIdeal.main_arg23 (by decide)),
     (h c Cert.ReferenceIdeal.main_arg24).trans (Cert.ReferenceIdeal.RefRun.keep _ Cert.ReferenceIdeal.main_arg24 (by decide)),
     (h c Cert.ReferenceIdeal.main_arg25).trans (Cert.ReferenceIdeal.RefRun.keep _ Cert.ReferenceIdeal.main_arg25 (by decide)),
     (h c Cert.ReferenceIdeal.main_arg26).trans (Cert.ReferenceIdeal.RefRun.keep _ Cert.ReferenceIdeal.main_arg26 (by decide)),
     (h c Cert.ReferenceIdeal.main_arg27).trans (Cert.ReferenceIdeal.RefRun.keep _ Cert.ReferenceIdeal.main_arg27 (by decide)),
     (h c Cert.ReferenceIdeal.main_arg28).trans (Cert.ReferenceIdeal.RefRun.keep _ Cert.ReferenceIdeal.main_arg28 (by decide)),
     (h c Cert.ReferenceIdeal.main_arg29).trans (Cert.ReferenceIdeal.RefRun.keep _ Cert.ReferenceIdeal.main_arg29 (by decide)),
     (h c Cert.ReferenceIdeal.main_arg30).trans (Cert.ReferenceIdeal.RefRun.keep _ Cert.ReferenceIdeal.main_arg30 (by decide)),
     (h c Cert.ReferenceIdeal.main_arg31).trans (Cert.ReferenceIdeal.RefRun.keep _ Cert.ReferenceIdeal.main_arg31 (by decide)),
     (h c Cert.ReferenceIdeal.main_arg32).trans (Cert.ReferenceIdeal.RefRun.keep _ Cert.ReferenceIdeal.main_arg32 (by decide)),
     (h c Cert.ReferenceIdeal.main_arg33).trans (Cert.ReferenceIdeal.RefRun.keep _ Cert.ReferenceIdeal.main_arg33 (by decide)),
     (h c Cert.ReferenceIdeal.main_arg34).trans (Cert.ReferenceIdeal.RefRun.keep _ Cert.ReferenceIdeal.main_arg34 (by decide)),
     (h c Cert.ReferenceIdeal.main_arg35).trans (Cert.ReferenceIdeal.RefRun.keep _ Cert.ReferenceIdeal.main_arg35 (by decide))⟩)
    (Cert.ReferenceIdeal.RefRun.run (F := Ideal) m ρ)

theorem preserves : Cert.preserves_Kernel_KernelIdeal := trivial

/-- Both idealized programs end with the same four results: the kernel program's final buffer contents name them
    (the launch theorem's run over the generated segments), and the reference's fold of operations equals them
    (Cert.Final.results_agree). -/
theorem algebraic : Cert.algebraic_KernelIdeal_ReferenceIdeal := by
  intro m ρ m' ρ' hpre hagree
  refine ⟨fun c => Cert.KernelIdeal.Gen.W49 m ρ c (Proc.devRef .tc Cert.KernelIdeal.main_v141),
    fun c => Cert.KernelIdeal.Gen.W49 m ρ c (Proc.devRef .tc Cert.KernelIdeal.main_v112),
    fun c => Cert.KernelIdeal.Gen.W49 m ρ c (Proc.devRef .tc Cert.KernelIdeal.main_v127),
    fun c => Cert.KernelIdeal.Gen.W49 m ρ c (Proc.devRef .tc Cert.KernelIdeal.main_v102_0), ?_, ?_⟩
  · exact (θ_run Cert.KernelIdeal.defs _ _).mono (fun _ h c =>
      ⟨h c Cert.KernelIdeal.main_v141 (by decide), h c Cert.KernelIdeal.main_v112 (by decide),
       h c Cert.KernelIdeal.main_v127 (by decide), h c Cert.KernelIdeal.main_v102_0 (by decide),
       (h c Cert.KernelIdeal.main_arg0 (by decide)).trans (Cert.KernelIdeal.Gen.W49_main_arg0 m ρ c),
       (h c Cert.KernelIdeal.main_arg1 (by decide)).trans (Cert.KernelIdeal.Gen.W49_main_arg1 m ρ c),
       (h c Cert.KernelIdeal.main_arg2 (by decide)).trans (Cert.KernelIdeal.Gen.W49_main_arg2 m ρ c),
       (h c Cert.KernelIdeal.main_arg3 (by decide)).trans (Cert.KernelIdeal.Gen.W49_main_arg3 m ρ c),
       (h c Cert.KernelIdeal.main_arg4 (by decide)).trans (Cert.KernelIdeal.Gen.W49_main_arg4 m ρ c),
       (h c Cert.KernelIdeal.main_arg5 (by decide)).trans (Cert.KernelIdeal.Gen.W49_main_arg5 m ρ c),
       (h c Cert.KernelIdeal.main_arg6 (by decide)).trans (Cert.KernelIdeal.Gen.W49_main_arg6 m ρ c),
       (h c Cert.KernelIdeal.main_arg7 (by decide)).trans (Cert.KernelIdeal.Gen.W49_main_arg7 m ρ c),
       (h c Cert.KernelIdeal.main_arg8 (by decide)).trans (Cert.KernelIdeal.Gen.W49_main_arg8 m ρ c),
       (h c Cert.KernelIdeal.main_arg9 (by decide)).trans (Cert.KernelIdeal.Gen.W49_main_arg9 m ρ c),
       (h c Cert.KernelIdeal.main_arg10 (by decide)).trans (Cert.KernelIdeal.Gen.W49_main_arg10 m ρ c),
       (h c Cert.KernelIdeal.main_arg11 (by decide)).trans (Cert.KernelIdeal.Gen.W49_main_arg11 m ρ c),
       (h c Cert.KernelIdeal.main_arg12 (by decide)).trans (Cert.KernelIdeal.Gen.W49_main_arg12 m ρ c),
       (h c Cert.KernelIdeal.main_arg13 (by decide)).trans (Cert.KernelIdeal.Gen.W49_main_arg13 m ρ c),
       (h c Cert.KernelIdeal.main_arg14 (by decide)).trans (Cert.KernelIdeal.Gen.W49_main_arg14 m ρ c),
       (h c Cert.KernelIdeal.main_arg15 (by decide)).trans (Cert.KernelIdeal.Gen.W49_main_arg15 m ρ c),
       (h c Cert.KernelIdeal.main_arg16 (by decide)).trans (Cert.KernelIdeal.Gen.W49_main_arg16 m ρ c),
       (h c Cert.KernelIdeal.main_arg17 (by decide)).trans (Cert.KernelIdeal.Gen.W49_main_arg17 m ρ c),
       (h c Cert.KernelIdeal.main_arg18 (by decide)).trans (Cert.KernelIdeal.Gen.W49_main_arg18 m ρ c),
       (h c Cert.KernelIdeal.main_arg19 (by decide)).trans (Cert.KernelIdeal.Gen.W49_main_arg19 m ρ c),
       (h c Cert.KernelIdeal.main_arg20 (by decide)).trans (Cert.KernelIdeal.Gen.W49_main_arg20 m ρ c),
       (h c Cert.KernelIdeal.main_arg21 (by decide)).trans (Cert.KernelIdeal.Gen.W49_main_arg21 m ρ c),
       (h c Cert.KernelIdeal.main_arg22 (by decide)).trans (Cert.KernelIdeal.Gen.W49_main_arg22 m ρ c),
       (h c Cert.KernelIdeal.main_arg23 (by decide)).trans (Cert.KernelIdeal.Gen.W49_main_arg23 m ρ c),
       (h c Cert.KernelIdeal.main_arg24 (by decide)).trans (Cert.KernelIdeal.Gen.W49_main_arg24 m ρ c),
       (h c Cert.KernelIdeal.main_arg25 (by decide)).trans (Cert.KernelIdeal.Gen.W49_main_arg25 m ρ c),
       (h c Cert.KernelIdeal.main_arg26 (by decide)).trans (Cert.KernelIdeal.Gen.W49_main_arg26 m ρ c),
       (h c Cert.KernelIdeal.main_arg27 (by decide)).trans (Cert.KernelIdeal.Gen.W49_main_arg27 m ρ c),
       (h c Cert.KernelIdeal.main_arg28 (by decide)).trans (Cert.KernelIdeal.Gen.W49_main_arg28 m ρ c),
       (h c Cert.KernelIdeal.main_arg29 (by decide)).trans (Cert.KernelIdeal.Gen.W49_main_arg29 m ρ c),
       (h c Cert.KernelIdeal.main_arg30 (by decide)).trans (Cert.KernelIdeal.Gen.W49_main_arg30 m ρ c),
       (h c Cert.KernelIdeal.main_arg31 (by decide)).trans (Cert.KernelIdeal.Gen.W49_main_arg31 m ρ c),
       (h c Cert.KernelIdeal.main_arg32 (by decide)).trans (Cert.KernelIdeal.Gen.W49_main_arg32 m ρ c),
       (h c Cert.KernelIdeal.main_arg33 (by decide)).trans (Cert.KernelIdeal.Gen.W49_main_arg33 m ρ c),
       (h c Cert.KernelIdeal.main_arg34 (by decide)).trans (Cert.KernelIdeal.Gen.W49_main_arg34 m ρ c),
       (h c Cert.KernelIdeal.main_arg35 (by decide)).trans (Cert.KernelIdeal.Gen.W49_main_arg35 m ρ c)⟩)
      (Cert.KernelIdeal.GenV.run_all (F := Ideal) m ρ)
  · exact (θ_run Cert.ReferenceIdeal.defs _ _).mono (fun _ h c =>
      ⟨(h c Cert.ReferenceIdeal.main_v250).trans (Cert.Final.results_agree m ρ m' hpre hagree c).1,
       (h c Cert.ReferenceIdeal.main_v170).trans (Cert.Final.results_agree m ρ m' hpre hagree c).2.1,
       (h c Cert.ReferenceIdeal.main_v218).trans (Cert.Final.results_agree m ρ m' hpre hagree c).2.2.1,
       (h c Cert.ReferenceIdeal.main_v122).trans (Cert.Final.results_agree m ρ m' hpre hagree c).2.2.2,
       (h c Cert.ReferenceIdeal.main_arg0).trans (Cert.ReferenceIdeal.RefRun.keep _ Cert.ReferenceIdeal.main_arg0 (by decide)),
       (h c Cert.ReferenceIdeal.main_arg1).trans (Cert.ReferenceIdeal.RefRun.keep _ Cert.ReferenceIdeal.main_arg1 (by decide)),
       (h c Cert.ReferenceIdeal.main_arg2).trans (Cert.ReferenceIdeal.RefRun.keep _ Cert.ReferenceIdeal.main_arg2 (by decide)),
       (h c Cert.ReferenceIdeal.main_arg3).trans (Cert.ReferenceIdeal.RefRun.keep _ Cert.ReferenceIdeal.main_arg3 (by decide)),
       (h c Cert.ReferenceIdeal.main_arg4).trans (Cert.ReferenceIdeal.RefRun.keep _ Cert.ReferenceIdeal.main_arg4 (by decide)),
       (h c Cert.ReferenceIdeal.main_arg5).trans (Cert.ReferenceIdeal.RefRun.keep _ Cert.ReferenceIdeal.main_arg5 (by decide)),
       (h c Cert.ReferenceIdeal.main_arg6).trans (Cert.ReferenceIdeal.RefRun.keep _ Cert.ReferenceIdeal.main_arg6 (by decide)),
       (h c Cert.ReferenceIdeal.main_arg7).trans (Cert.ReferenceIdeal.RefRun.keep _ Cert.ReferenceIdeal.main_arg7 (by decide)),
       (h c Cert.ReferenceIdeal.main_arg8).trans (Cert.ReferenceIdeal.RefRun.keep _ Cert.ReferenceIdeal.main_arg8 (by decide)),
       (h c Cert.ReferenceIdeal.main_arg9).trans (Cert.ReferenceIdeal.RefRun.keep _ Cert.ReferenceIdeal.main_arg9 (by decide)),
       (h c Cert.ReferenceIdeal.main_arg10).trans (Cert.ReferenceIdeal.RefRun.keep _ Cert.ReferenceIdeal.main_arg10 (by decide)),
       (h c Cert.ReferenceIdeal.main_arg11).trans (Cert.ReferenceIdeal.RefRun.keep _ Cert.ReferenceIdeal.main_arg11 (by decide)),
       (h c Cert.ReferenceIdeal.main_arg12).trans (Cert.ReferenceIdeal.RefRun.keep _ Cert.ReferenceIdeal.main_arg12 (by decide)),
       (h c Cert.ReferenceIdeal.main_arg13).trans (Cert.ReferenceIdeal.RefRun.keep _ Cert.ReferenceIdeal.main_arg13 (by decide)),
       (h c Cert.ReferenceIdeal.main_arg14).trans (Cert.ReferenceIdeal.RefRun.keep _ Cert.ReferenceIdeal.main_arg14 (by decide)),
       (h c Cert.ReferenceIdeal.main_arg15).trans (Cert.ReferenceIdeal.RefRun.keep _ Cert.ReferenceIdeal.main_arg15 (by decide)),
       (h c Cert.ReferenceIdeal.main_arg16).trans (Cert.ReferenceIdeal.RefRun.keep _ Cert.ReferenceIdeal.main_arg16 (by decide)),
       (h c Cert.ReferenceIdeal.main_arg17).trans (Cert.ReferenceIdeal.RefRun.keep _ Cert.ReferenceIdeal.main_arg17 (by decide)),
       (h c Cert.ReferenceIdeal.main_arg18).trans (Cert.ReferenceIdeal.RefRun.keep _ Cert.ReferenceIdeal.main_arg18 (by decide)),
       (h c Cert.ReferenceIdeal.main_arg19).trans (Cert.ReferenceIdeal.RefRun.keep _ Cert.ReferenceIdeal.main_arg19 (by decide)),
       (h c Cert.ReferenceIdeal.main_arg20).trans (Cert.ReferenceIdeal.RefRun.keep _ Cert.ReferenceIdeal.main_arg20 (by decide)),
       (h c Cert.ReferenceIdeal.main_arg21).trans (Cert.ReferenceIdeal.RefRun.keep _ Cert.ReferenceIdeal.main_arg21 (by decide)),
       (h c Cert.ReferenceIdeal.main_arg22).trans (Cert.ReferenceIdeal.RefRun.keep _ Cert.ReferenceIdeal.main_arg22 (by decide)),
       (h c Cert.ReferenceIdeal.main_arg23).trans (Cert.ReferenceIdeal.RefRun.keep _ Cert.ReferenceIdeal.main_arg23 (by decide)),
       (h c Cert.ReferenceIdeal.main_arg24).trans (Cert.ReferenceIdeal.RefRun.keep _ Cert.ReferenceIdeal.main_arg24 (by decide)),
       (h c Cert.ReferenceIdeal.main_arg25).trans (Cert.ReferenceIdeal.RefRun.keep _ Cert.ReferenceIdeal.main_arg25 (by decide)),
       (h c Cert.ReferenceIdeal.main_arg26).trans (Cert.ReferenceIdeal.RefRun.keep _ Cert.ReferenceIdeal.main_arg26 (by decide)),
       (h c Cert.ReferenceIdeal.main_arg27).trans (Cert.ReferenceIdeal.RefRun.keep _ Cert.ReferenceIdeal.main_arg27 (by decide)),
       (h c Cert.ReferenceIdeal.main_arg28).trans (Cert.ReferenceIdeal.RefRun.keep _ Cert.ReferenceIdeal.main_arg28 (by decide)),
       (h c Cert.ReferenceIdeal.main_arg29).trans (Cert.ReferenceIdeal.RefRun.keep _ Cert.ReferenceIdeal.main_arg29 (by decide)),
       (h c Cert.ReferenceIdeal.main_arg30).trans (Cert.ReferenceIdeal.RefRun.keep _ Cert.ReferenceIdeal.main_arg30 (by decide)),
       (h c Cert.ReferenceIdeal.main_arg31).trans (Cert.ReferenceIdeal.RefRun.keep _ Cert.ReferenceIdeal.main_arg31 (by decide)),
       (h c Cert.ReferenceIdeal.main_arg32).trans (Cert.ReferenceIdeal.RefRun.keep _ Cert.ReferenceIdeal.main_arg32 (by decide)),
       (h c Cert.ReferenceIdeal.main_arg33).trans (Cert.ReferenceIdeal.RefRun.keep _ Cert.ReferenceIdeal.main_arg33 (by decide)),
       (h c Cert.ReferenceIdeal.main_arg34).trans (Cert.ReferenceIdeal.RefRun.keep _ Cert.ReferenceIdeal.main_arg34 (by decide)),
       (h c Cert.ReferenceIdeal.main_arg35).trans (Cert.ReferenceIdeal.RefRun.keep _ Cert.ReferenceIdeal.main_arg35 (by decide))⟩)
      (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
